-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v395)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v395) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v456) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60001x64 : Shape := ⟨2, ![60001, 64]⟩
abbrev S40001x64 : Shape := ⟨2, ![40001, 64]⟩
abbrev S3 : Shape := ⟨1, ![3]⟩
abbrev S3x600000 : Shape := ⟨2, ![3, 600000]⟩
abbrev S2048x3x3 : Shape := ⟨3, ![2048, 3, 3]⟩
abbrev S_ : Shape := ⟨0, ![]⟩

class Facts : Prop where
  bcast_S_S60001x64 : S_.BroadcastsInDim S60001x64 (![] : Fin 0 → Fin S60001x64.rank)
  reducesTo_S60001x64_S_d0_1 : S60001x64.ReducesTo [0, 1] S_
  h_S_ : 0 < S_.numel
  bcast_S_S40001x64 : S_.BroadcastsInDim S40001x64 (![] : Fin 0 → Fin S40001x64.rank)
  reducesTo_S40001x64_S_d0_1 : S40001x64.ReducesTo [0, 1] S_
  bcast_S_S3 : S_.BroadcastsInDim S3 (![] : Fin 0 → Fin S3.rank)
  reducesTo_S3_S_d0 : S3.ReducesTo [0] S_
  bcast_S_S3x600000 : S_.BroadcastsInDim S3x600000 (![] : Fin 0 → Fin S3x600000.rank)
  reducesTo_S3x600000_S_d0_1 : S3x600000.ReducesTo [0, 1] S_

variable [Facts]

def fn_part1 {F : FTy → Type} [FloatOps F] (main_arg3 : IVec S3x600000 32) (main_v13 : IVec S_ 1) (main_v15 : IVec S3x600000 1) (main_c_5 : IVec S_ 1) : IVec S_ 1 :=
  let main_v16 : IVec S_ 1 := (fun x v => Host.reduce IntOp.andi x v reducesTo_S3x600000_S_d0_1 h_S_) main_v15 main_c_5
  let main_v17 : IVec S_ 1 := andi main_v13 main_v16
  let main_c_6 : IVec S_ 32 := constantI S_ 32 60000#32
  let main_v18 : IVec S3x600000 32 := broadcastInDim S3x600000 ![] bcast_S_S3x600000 main_c_6
  let main_v19 : IVec S3x600000 1 := cmpi .sle main_arg3 main_v18
  let main_c_7 : IVec S_ 1 := constantI S_ 1 1#1
  let main_v20 : IVec S_ 1 := (fun x v => Host.reduce IntOp.andi x v reducesTo_S3x600000_S_d0_1 h_S_) main_v19 main_c_7
  let main_v21 : IVec S_ 1 := andi main_v17 main_v20
  main_v21

def fn {F : FTy → Type} [FloatOps F] (main_arg0 : FVec F S60001x64 .f32) (main_arg1 : FVec F S40001x64 .f32) (main_arg2 : FVec F S3 .f32) (main_arg3 : IVec S3x600000 32) (main_arg4 : IVec S3x600000 32) (main_arg5 : IVec S2048x3x3 32) : IVec S_ 1 :=
  let main_v0 : FVec F S60001x64 .f32 := Host.absf main_arg0
  let main_cst : FVec F S_ .f32 := constant S_ .f32 0x7F800000#32
  let main_v1 : FVec F S60001x64 .f32 := broadcastInDim S60001x64 ![] bcast_S_S60001x64 main_cst
  let main_v2 : IVec S60001x64 1 := cmpf .olt main_v0 main_v1
  let main_c : IVec S_ 1 := constantI S_ 1 1#1
  let main_v3 : IVec S_ 1 := (fun x v => Host.reduce IntOp.andi x v reducesTo_S60001x64_S_d0_1 h_S_) main_v2 main_c
  let main_v4 : FVec F S40001x64 .f32 := Host.absf main_arg1
  let main_cst_0 : FVec F S_ .f32 := constant S_ .f32 0x7F800000#32
  let main_v5 : FVec F S40001x64 .f32 := broadcastInDim S40001x64 ![] bcast_S_S40001x64 main_cst_0
  let main_v6 : IVec S40001x64 1 := cmpf .olt main_v4 main_v5
  let main_c_1 : IVec S_ 1 := constantI S_ 1 1#1
  let main_v7 : IVec S_ 1 := (fun x v => Host.reduce IntOp.andi x v reducesTo_S40001x64_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_c_4 : IVec S_ 32 := constantI S_ 32 0#32
  let main_v14 : IVec S3x600000 32 := broadcastInDim S3x600000 ![] bcast_S_S3x600000 main_c_4
  let main_v15 : IVec S3x600000 1 := cmpi .sge main_arg3 main_v14
  let main_c_5 : IVec S_ 1 := constantI S_ 1 1#1
  fn_part1 (F := F) main_arg3 main_v13 main_v15 main_c_5
-- ==== Kernel.lean ====
abbrev S60001x64 : Shape := ⟨2, ![60001, 64]⟩
abbrev S40001x64 : Shape := ⟨2, ![40001, 64]⟩
abbrev S3 : Shape := ⟨1, ![3]⟩
abbrev S3x600000 : Shape := ⟨2, ![3, 600000]⟩
abbrev S2048x3x3 : Shape := ⟨3, ![2048, 3, 3]⟩
abbrev S100002x64 : Shape := ⟨2, ![100002, 64]⟩
abbrev S1800000 : Shape := ⟨1, ![1800000]⟩
abbrev S_ : Shape := ⟨0, ![]⟩
abbrev S3600000 : Shape := ⟨1, ![3600000]⟩
abbrev S100002 : Shape := ⟨1, ![100002]⟩
abbrev S3600000x1 : Shape := ⟨2, ![3600000, 1]⟩
abbrev S3600000x64 : Shape := ⟨2, ![3600000, 64]⟩
abbrev S1x600000 : Shape := ⟨2, ![1, 600000]⟩
abbrev S600000 : Shape := ⟨1, ![600000]⟩
abbrev S1200000 : Shape := ⟨1, ![1200000]⟩
abbrev S1200000x1 : Shape := ⟨2, ![1200000, 1]⟩
abbrev S1200000x64 : Shape := ⟨2, ![1200000, 64]⟩
abbrev S40001 : Shape := ⟨1, ![40001]⟩
abbrev S60001x1x64 : Shape := ⟨3, ![60001, 1, 64]⟩
abbrev S60001x3x64 : Shape := ⟨3, ![60001, 3, 64]⟩
abbrev S40001x1x64 : Shape := ⟨3, ![40001, 1, 64]⟩
abbrev S40001x3x64 : Shape := ⟨3, ![40001, 3, 64]⟩
abbrev S40001x1 : Shape := ⟨2, ![40001, 1]⟩
abbrev S40001x3 : Shape := ⟨2, ![40001, 3]⟩
abbrev S2048x3x1 : Shape := ⟨3, ![2048, 3, 1]⟩
abbrev S2048x3 : Shape := ⟨2, ![2048, 3]⟩
abbrev S2048x3x2 : Shape := ⟨3, ![2048, 3, 2]⟩
abbrev S6144 : Shape := ⟨1, ![6144]⟩
abbrev S6144x1 : Shape := ⟨2, ![6144, 1]⟩
abbrev S6144x3x64 : Shape := ⟨3, ![6144, 3, 64]⟩
abbrev S6144x192 : Shape := ⟨2, ![6144, 192]⟩
abbrev S1024x192 : Shape := ⟨2, ![1024, 192]⟩
abbrev S1024x64 : Shape := ⟨2, ![1024, 64]⟩
abbrev S1024 : Shape := ⟨1, ![1024]⟩
abbrev S1024x1 : Shape := ⟨2, ![1024, 1]⟩
abbrev S2048x3x3x64 : Shape := ⟨4, ![2048, 3, 3, 64]⟩
abbrev S12288 : Shape := ⟨1, ![12288]⟩
abbrev S12288x1 : Shape := ⟨2, ![12288, 1]⟩
abbrev S12288x3x64 : Shape := ⟨3, ![12288, 3, 64]⟩
abbrev S1x3 : Shape := ⟨2, ![1, 3]⟩
abbrev S12288x3 : Shape := ⟨2, ![12288, 3]⟩
abbrev S12288x192 : Shape := ⟨2, ![12288, 192]⟩
abbrev S12288x64 : Shape := ⟨2, ![12288, 64]⟩
abbrev S1024x3 : Shape := ⟨2, ![1024, 3]⟩
abbrev S2048x3x2x64 : Shape := ⟨4, ![2048, 3, 2, 64]⟩
abbrev S2048x1x1x64 : Shape := ⟨4, ![2048, 1, 1, 64]⟩
abbrev S2048x64 : Shape := ⟨2, ![2048, 64]⟩
abbrev S2048x1x64 : Shape := ⟨3, ![2048, 1, 64]⟩
abbrev S2048x1x2x64 : Shape := ⟨4, ![2048, 1, 2, 64]⟩
abbrev S2048x2x64 : Shape := ⟨3, ![2048, 2, 64]⟩
abbrev S2048x2 : Shape := ⟨2, ![2048, 2]⟩
abbrev S2048x1 : Shape := ⟨2, ![2048, 1]⟩
abbrev S2048 : Shape := ⟨1, ![2048]⟩

abbrev nBuf : Space → Nat
  | .hbm => 501
  | .vmem => 10
  | .smem => 0
  | _ => 0

abbrev hbmTy0_0 (i : Nat) : BufTy := match i % 128 with
  | 0 => ⟨S60001x64, .f32⟩
  | 1 => ⟨S40001x64, .f32⟩
  | 2 => ⟨S3, .f32⟩
  | 3 => ⟨S3x600000, .i32⟩
  | 4 => ⟨S3x600000, .i32⟩
  | 5 => ⟨S2048x3x3, .i32⟩
  | 6 => ⟨S100002x64, .f32⟩
  | 7 => ⟨S1800000, .i32⟩
  | 8 => ⟨S1800000, .i32⟩
  | 9 => ⟨S_, .i32⟩
  | 10 => ⟨S1800000, .i32⟩
  | 11 => ⟨S1800000, .i32⟩
  | 12 => ⟨S3600000, .i32⟩
  | 13 => ⟨S3600000, .i32⟩
  | 14 => ⟨S_, .f32⟩
  | 15 => ⟨S3600000, .f32⟩
  | 16 => ⟨S_, .f32⟩
  | 17 => ⟨S100002, .f32⟩
  | 18 => ⟨S3600000x1, .i32⟩
  | 19 => ⟨S100002, .f32⟩
  | 20 => ⟨S_, .i32⟩
  | 21 => ⟨S3600000, .i32⟩
  | 22 => ⟨S3600000, .i1⟩
  | 23 => ⟨S_, .i32⟩
  | 24 => ⟨S3600000, .i32⟩
  | 25 => ⟨S3600000, .i32⟩
  | 26 => ⟨S3600000, .i32⟩
  | 27 => ⟨S3600000x1, .i32⟩
  | 28 => ⟨S3600000, .f32⟩
  | 29 => ⟨S_, .f32⟩
  | 30 => ⟨S3600000, .f32⟩
  | 31 => ⟨S3600000, .f32⟩
  | 32 => ⟨S3600000, .f32⟩
  | 33 => ⟨S_, .i32⟩
  | 34 => ⟨S3600000, .i32⟩
  | 35 => ⟨S3600000, .i1⟩
  | 36 => ⟨S_, .i32⟩
  | 37 => ⟨S3600000, .i32⟩
  | 38 => ⟨S3600000, .i32⟩
  | 39 => ⟨S3600000, .i32⟩
  | 40 => ⟨S3600000x1, .i32⟩
  | 41 => ⟨S3600000, .f32⟩
  | 42 => ⟨S_, .f32⟩
  | 43 => ⟨S3600000, .f32⟩
  | 44 => ⟨S3600000, .f32⟩
  | 45 => ⟨S3600000, .f32⟩
  | 46 => ⟨S3600000, .f32⟩
  | 47 => ⟨S_, .i32⟩
  | 48 => ⟨S3600000, .i32⟩
  | 49 => ⟨S3600000, .i1⟩
  | 50 => ⟨S_, .i32⟩
  | 51 => ⟨S3600000, .i32⟩
  | 52 => ⟨S3600000, .i32⟩
  | 53 => ⟨S3600000, .i32⟩
  | 54 => ⟨S3600000x1, .i32⟩
  | 55 => ⟨S3600000x64, .f32⟩
  | 56 => ⟨S3600000x1, .f32⟩
  | 57 => ⟨S3600000x64, .f32⟩
  | 58 => ⟨S3600000x64, .f32⟩
  | 59 => ⟨S_, .f32⟩
  | 60 => ⟨S100002x64, .f32⟩
  | 61 => ⟨S3600000x1, .i32⟩
  | 62 => ⟨S100002x64, .f32⟩
  | 63 => ⟨S100002x64, .f32⟩
  | 64 => ⟨S_, .i32⟩
  | 65 => ⟨S3600000, .i32⟩
  | 66 => ⟨S3600000, .i1⟩
  | 67 => ⟨S_, .i32⟩
  | 68 => ⟨S3600000, .i32⟩
  | 69 => ⟨S3600000, .i32⟩
  | 70 => ⟨S3600000, .i32⟩
  | 71 => ⟨S3600000x1, .i32⟩
  | 72 => ⟨S3600000x64, .f32⟩
  | 73 => ⟨S3600000x1, .f32⟩
  | 74 => ⟨S3600000x64, .f32⟩
  | 75 => ⟨S3600000x64, .f32⟩
  | 76 => ⟨S_, .f32⟩
  | 77 => ⟨S100002x64, .f32⟩
  | 78 => ⟨S3600000x1, .i32⟩
  | 79 => ⟨S100002x64, .f32⟩
  | 80 => ⟨S100002x64, .f32⟩
  | 81 => ⟨S_, .f32⟩
  | 82 => ⟨S100002x64, .f32⟩
  | 83 => ⟨S100002x64, .f32⟩
  | 84 => ⟨S1x600000, .i32⟩
  | 85 => ⟨S600000, .i32⟩
  | 86 => ⟨S1x600000, .i32⟩
  | 87 => ⟨S600000, .i32⟩
  | 88 => ⟨S_, .i32⟩
  | 89 => ⟨S600000, .i32⟩
  | 90 => ⟨S600000, .i32⟩
  | 91 => ⟨S1200000, .i32⟩
  | 92 => ⟨S1200000, .i32⟩
  | 93 => ⟨S_, .f32⟩
  | 94 => ⟨S1200000, .f32⟩
  | 95 => ⟨S_, .f32⟩
  | 96 => ⟨S100002, .f32⟩
  | 97 => ⟨S1200000x1, .i32⟩
  | 98 => ⟨S100002, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000, .f32⟩
  | 108 => ⟨S_, .f32⟩
  | 109 => ⟨S1200000, .f32⟩
  | 110 => ⟨S1200000, .f32⟩
  | 111 => ⟨S1200000, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000, .f32⟩
  | 121 => ⟨S_, .f32⟩
  | 122 => ⟨S1200000, .f32⟩
  | 123 => ⟨S1200000, .f32⟩
  | 124 => ⟨S1200000, .f32⟩
  | 125 => ⟨S1200000, .f32⟩
  | 126 => ⟨S_, .i32⟩
  | 127 => ⟨S1200000, .i32⟩
  | _ => ⟨S60001x64, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000x64, .f32⟩
  | 7 => ⟨S1200000x1, .f32⟩
  | 8 => ⟨S1200000x64, .f32⟩
  | 9 => ⟨S1200000x64, .f32⟩
  | 10 => ⟨S_, .f32⟩
  | 11 => ⟨S100002x64, .f32⟩
  | 12 => ⟨S1200000x1, .i32⟩
  | 13 => ⟨S100002x64, .f32⟩
  | 14 => ⟨S100002x64, .f32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S1200000x1, .f32⟩
  | 25 => ⟨S1200000x64, .f32⟩
  | 26 => ⟨S1200000x64, .f32⟩
  | 27 => ⟨S_, .f32⟩
  | 28 => ⟨S100002x64, .f32⟩
  | 29 => ⟨S1200000x1, .i32⟩
  | 30 => ⟨S100002x64, .f32⟩
  | 31 => ⟨S100002x64, .f32⟩
  | 32 => ⟨S_, .f32⟩
  | 33 => ⟨S100002x64, .f32⟩
  | 34 => ⟨S100002x64, .f32⟩
  | 35 => ⟨S40001, .f32⟩
  | 36 => ⟨S60001x64, .f32⟩
  | 37 => ⟨S40001x64, .f32⟩
  | 38 => ⟨S1x600000, .i32⟩
  | 39 => ⟨S600000, .i32⟩
  | 40 => ⟨S1x600000, .i32⟩
  | 41 => ⟨S600000, .i32⟩
  | 42 => ⟨S_, .i32⟩
  | 43 => ⟨S600000, .i32⟩
  | 44 => ⟨S600000, .i32⟩
  | 45 => ⟨S1200000, .i32⟩
  | 46 => ⟨S1200000, .i32⟩
  | 47 => ⟨S_, .f32⟩
  | 48 => ⟨S1200000, .f32⟩
  | 49 => ⟨S_, .f32⟩
  | 50 => ⟨S100002, .f32⟩
  | 51 => ⟨S1200000x1, .i32⟩
  | 52 => ⟨S100002, .f32⟩
  | 53 => ⟨S_, .i32⟩
  | 54 => ⟨S1200000, .i32⟩
  | 55 => ⟨S1200000, .i1⟩
  | 56 => ⟨S_, .i32⟩
  | 57 => ⟨S1200000, .i32⟩
  | 58 => ⟨S1200000, .i32⟩
  | 59 => ⟨S1200000, .i32⟩
  | 60 => ⟨S1200000x1, .i32⟩
  | 61 => ⟨S1200000, .f32⟩
  | 62 => ⟨S_, .f32⟩
  | 63 => ⟨S1200000, .f32⟩
  | 64 => ⟨S1200000, .f32⟩
  | 65 => ⟨S1200000, .f32⟩
  | 66 => ⟨S_, .i32⟩
  | 67 => ⟨S1200000, .i32⟩
  | 68 => ⟨S1200000, .i1⟩
  | 69 => ⟨S_, .i32⟩
  | 70 => ⟨S1200000, .i32⟩
  | 71 => ⟨S1200000, .i32⟩
  | 72 => ⟨S1200000, .i32⟩
  | 73 => ⟨S1200000x1, .i32⟩
  | 74 => ⟨S1200000, .f32⟩
  | 75 => ⟨S_, .f32⟩
  | 76 => ⟨S1200000, .f32⟩
  | 77 => ⟨S1200000, .f32⟩
  | 78 => ⟨S1200000, .f32⟩
  | 79 => ⟨S1200000, .f32⟩
  | 80 => ⟨S_, .i32⟩
  | 81 => ⟨S1200000, .i32⟩
  | 82 => ⟨S1200000, .i1⟩
  | 83 => ⟨S_, .i32⟩
  | 84 => ⟨S1200000, .i32⟩
  | 85 => ⟨S1200000, .i32⟩
  | 86 => ⟨S1200000, .i32⟩
  | 87 => ⟨S1200000x1, .i32⟩
  | 88 => ⟨S1200000x64, .f32⟩
  | 89 => ⟨S1200000x1, .f32⟩
  | 90 => ⟨S1200000x64, .f32⟩
  | 91 => ⟨S1200000x64, .f32⟩
  | 92 => ⟨S_, .f32⟩
  | 93 => ⟨S100002x64, .f32⟩
  | 94 => ⟨S1200000x1, .i32⟩
  | 95 => ⟨S100002x64, .f32⟩
  | 96 => ⟨S100002x64, .f32⟩
  | 97 => ⟨S_, .i32⟩
  | 98 => ⟨S1200000, .i32⟩
  | 99 => ⟨S1200000, .i1⟩
  | 100 => ⟨S_, .i32⟩
  | 101 => ⟨S1200000, .i32⟩
  | 102 => ⟨S1200000, .i32⟩
  | 103 => ⟨S1200000, .i32⟩
  | 104 => ⟨S1200000x1, .i32⟩
  | 105 => ⟨S1200000x64, .f32⟩
  | 106 => ⟨S1200000x1, .f32⟩
  | 107 => ⟨S1200000x64, .f32⟩
  | 108 => ⟨S1200000x64, .f32⟩
  | 109 => ⟨S_, .f32⟩
  | 110 => ⟨S100002x64, .f32⟩
  | 111 => ⟨S1200000x1, .i32⟩
  | 112 => ⟨S100002x64, .f32⟩
  | 113 => ⟨S100002x64, .f32⟩
  | 114 => ⟨S_, .f32⟩
  | 115 => ⟨S100002x64, .f32⟩
  | 116 => ⟨S100002x64, .f32⟩
  | 117 => ⟨S40001, .f32⟩
  | 118 => ⟨S60001x64, .f32⟩
  | 119 => ⟨S40001x64, .f32⟩
  | 120 => ⟨S1x600000, .i32⟩
  | 121 => ⟨S600000, .i32⟩
  | 122 => ⟨S1x600000, .i32⟩
  | 123 => ⟨S600000, .i32⟩
  | 124 => ⟨S_, .i32⟩
  | 125 => ⟨S600000, .i32⟩
  | 126 => ⟨S600000, .i32⟩
  | 127 => ⟨S1200000, .i32⟩
  | _ => ⟨S60001x64, .f32⟩

abbrev hbmTy0_2 (i : Nat) : BufTy := match i % 128 with
  | 0 => ⟨S1200000, .i32⟩
  | 1 => ⟨S_, .f32⟩
  | 2 => ⟨S1200000, .f32⟩
  | 3 => ⟨S_, .f32⟩
  | 4 => ⟨S100002, .f32⟩
  | 5 => ⟨S1200000x1, .i32⟩
  | 6 => ⟨S100002, .f32⟩
  | 7 => ⟨S_, .i32⟩
  | 8 => ⟨S1200000, .i32⟩
  | 9 => ⟨S1200000, .i1⟩
  | 10 => ⟨S_, .i32⟩
  | 11 => ⟨S1200000, .i32⟩
  | 12 => ⟨S1200000, .i32⟩
  | 13 => ⟨S1200000, .i32⟩
  | 14 => ⟨S1200000x1, .i32⟩
  | 15 => ⟨S1200000, .f32⟩
  | 16 => ⟨S_, .f32⟩
  | 17 => ⟨S1200000, .f32⟩
  | 18 => ⟨S1200000, .f32⟩
  | 19 => ⟨S1200000, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000, .f32⟩
  | 29 => ⟨S_, .f32⟩
  | 30 => ⟨S1200000, .f32⟩
  | 31 => ⟨S1200000, .f32⟩
  | 32 => ⟨S1200000, .f32⟩
  | 33 => ⟨S1200000, .f32⟩
  | 34 => ⟨S_, .i32⟩
  | 35 => ⟨S1200000, .i32⟩
  | 36 => ⟨S1200000, .i1⟩
  | 37 => ⟨S_, .i32⟩
  | 38 => ⟨S1200000, .i32⟩
  | 39 => ⟨S1200000, .i32⟩
  | 40 => ⟨S1200000, .i32⟩
  | 41 => ⟨S1200000x1, .i32⟩
  | 42 => ⟨S1200000x64, .f32⟩
  | 43 => ⟨S1200000x1, .f32⟩
  | 44 => ⟨S1200000x64, .f32⟩
  | 45 => ⟨S1200000x64, .f32⟩
  | 46 => ⟨S_, .f32⟩
  | 47 => ⟨S100002x64, .f32⟩
  | 48 => ⟨S1200000x1, .i32⟩
  | 49 => ⟨S100002x64, .f32⟩
  | 50 => ⟨S100002x64, .f32⟩
  | 51 => ⟨S_, .i32⟩
  | 52 => ⟨S1200000, .i32⟩
  | 53 => ⟨S1200000, .i1⟩
  | 54 => ⟨S_, .i32⟩
  | 55 => ⟨S1200000, .i32⟩
  | 56 => ⟨S1200000, .i32⟩
  | 57 => ⟨S1200000, .i32⟩
  | 58 => ⟨S1200000x1, .i32⟩
  | 59 => ⟨S1200000x64, .f32⟩
  | 60 => ⟨S1200000x1, .f32⟩
  | 61 => ⟨S1200000x64, .f32⟩
  | 62 => ⟨S1200000x64, .f32⟩
  | 63 => ⟨S_, .f32⟩
  | 64 => ⟨S100002x64, .f32⟩
  | 65 => ⟨S1200000x1, .i32⟩
  | 66 => ⟨S100002x64, .f32⟩
  | 67 => ⟨S100002x64, .f32⟩
  | 68 => ⟨S_, .f32⟩
  | 69 => ⟨S100002x64, .f32⟩
  | 70 => ⟨S100002x64, .f32⟩
  | 71 => ⟨S40001, .f32⟩
  | 72 => ⟨S60001x64, .f32⟩
  | 73 => ⟨S40001x64, .f32⟩
  | 74 => ⟨S60001x1x64, .f32⟩
  | 75 => ⟨S60001x1x64, .f32⟩
  | 76 => ⟨S60001x1x64, .f32⟩
  | 77 => ⟨S60001x3x64, .f32⟩
  | 78 => ⟨S40001x1x64, .f32⟩
  | 79 => ⟨S40001x1x64, .f32⟩
  | 80 => ⟨S40001x1x64, .f32⟩
  | 81 => ⟨S40001x3x64, .f32⟩
  | 82 => ⟨S40001x1, .f32⟩
  | 83 => ⟨S40001x1, .f32⟩
  | 84 => ⟨S40001x1, .f32⟩
  | 85 => ⟨S40001x3, .f32⟩
  | 86 => ⟨S2048x3x1, .i32⟩
  | 87 => ⟨S2048x3, .i32⟩
  | 88 => ⟨S2048x3x2, .i32⟩
  | 89 => ⟨S6144, .i32⟩
  | 90 => ⟨S_, .i32⟩
  | 91 => ⟨S6144, .i32⟩
  | 92 => ⟨S6144, .i1⟩
  | 93 => ⟨S_, .i32⟩
  | 94 => ⟨S6144, .i32⟩
  | 95 => ⟨S6144, .i32⟩
  | 96 => ⟨S6144, .i32⟩
  | 97 => ⟨S6144x1, .i32⟩
  | 98 => ⟨S6144x3x64, .f32⟩
  | 99 => ⟨S6144x192, .f32⟩
  | 100 => ⟨S6144x192, .f32⟩
  | 101 => ⟨S6144x3x64, .f32⟩
  | 102 => ⟨S2048x3x3x64, .f32⟩
  | 103 => ⟨S12288, .i32⟩
  | 104 => ⟨S_, .i32⟩
  | 105 => ⟨S12288, .i32⟩
  | 106 => ⟨S12288, .i1⟩
  | 107 => ⟨S_, .i32⟩
  | 108 => ⟨S12288, .i32⟩
  | 109 => ⟨S12288, .i32⟩
  | 110 => ⟨S12288, .i32⟩
  | 111 => ⟨S12288x1, .i32⟩
  | 112 => ⟨S12288x3x64, .f32⟩
  | 113 => ⟨S1x3, .f32⟩
  | 114 => ⟨S40001x3, .f32⟩
  | 115 => ⟨S40001x3, .f32⟩
  | 116 => ⟨S_, .f32⟩
  | 117 => ⟨S40001, .f32⟩
  | 118 => ⟨S40001x1, .f32⟩
  | 119 => ⟨S_, .f32⟩
  | 120 => ⟨S40001x1, .f32⟩
  | 121 => ⟨S40001x1, .f32⟩
  | 122 => ⟨S40001x3, .f32⟩
  | 123 => ⟨S40001x3, .f32⟩
  | 124 => ⟨S12288, .i32⟩
  | 125 => ⟨S_, .i32⟩
  | 126 => ⟨S12288, .i32⟩
  | 127 => ⟨S12288, .i1⟩
  | _ => ⟨S60001x64, .f32⟩

abbrev hbmTy0_3 (i : Nat) : BufTy := match i % 128 with
  | 0 => ⟨S_, .i32⟩
  | 1 => ⟨S12288, .i32⟩
  | 2 => ⟨S12288, .i32⟩
  | 3 => ⟨S12288, .i32⟩
  | 4 => ⟨S12288x1, .i32⟩
  | 5 => ⟨S12288x3, .f32⟩
  | 6 => ⟨S12288x192, .f32⟩
  | 7 => ⟨S12288x64, .f32⟩
  | 8 => ⟨S2048x3x2x64, .f32⟩
  | 9 => ⟨S2048x1x1x64, .f32⟩
  | 10 => ⟨S2048x64, .f32⟩
  | 11 => ⟨S2048x1x64, .f32⟩
  | 12 => ⟨S2048x1x2x64, .f32⟩
  | 13 => ⟨S2048x2x64, .f32⟩
  | 14 => ⟨S2048x2x64, .f32⟩
  | 15 => ⟨S2048x2x64, .f32⟩
  | 16 => ⟨S_, .f32⟩
  | 17 => ⟨S2048x2, .f32⟩
  | 18 => ⟨S2048x1, .f32⟩
  | 19 => ⟨S2048, .f32⟩
  | 20 => ⟨S2048x1, .f32⟩
  | 21 => ⟨S2048, .f32⟩
  | 22 => ⟨S2048, .f32⟩
  | 23 => ⟨S2048, .f32⟩
  | 24 => ⟨S2048, .f32⟩
  | 25 => ⟨S_, .f32⟩
  | 26 => ⟨S2048, .f32⟩
  | 27 => ⟨S2048, .f32⟩
  | 28 => ⟨S_, .f32⟩
  | 29 => ⟨S2048, .f32⟩
  | 30 => ⟨S2048, .f32⟩
  | 31 => ⟨S_, .f32⟩
  | 32 => ⟨S2048, .f32⟩
  | 33 => ⟨S2048, .f32⟩
  | 34 => ⟨S2048, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S2048x1x1x64, .f32⟩
  | 42 => ⟨S2048x64, .f32⟩
  | 43 => ⟨S2048x1x64, .f32⟩
  | 44 => ⟨S2048x1x2x64, .f32⟩
  | 45 => ⟨S2048x2x64, .f32⟩
  | 46 => ⟨S2048x2x64, .f32⟩
  | 47 => ⟨S2048x2x64, .f32⟩
  | 48 => ⟨S_, .f32⟩
  | 49 => ⟨S2048x2, .f32⟩
  | 50 => ⟨S2048x1, .f32⟩
  | 51 => ⟨S2048, .f32⟩
  | 52 => ⟨S2048x1, .f32⟩
  | 53 => ⟨S2048, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S_, .f32⟩
  | 61 => ⟨S2048, .f32⟩
  | 62 => ⟨S2048, .f32⟩
  | 63 => ⟨S_, .f32⟩
  | 64 => ⟨S2048, .f32⟩
  | 65 => ⟨S2048, .f32⟩
  | 66 => ⟨S2048, .f32⟩
  | 67 => ⟨S_, .f32⟩
  | 68 => ⟨S_, .f32⟩
  | 69 => ⟨S_, .f32⟩
  | 70 => ⟨S_, .f32⟩
  | 71 => ⟨S_, .f32⟩
  | 72 => ⟨S2048x1x1x64, .f32⟩
  | 73 => ⟨S2048x64, .f32⟩
  | 74 => ⟨S2048x1x64, .f32⟩
  | 75 => ⟨S2048x1x2x64, .f32⟩
  | 76 => ⟨S2048x2x64, .f32⟩
  | 77 => ⟨S2048x2x64, .f32⟩
  | 78 => ⟨S2048x2x64, .f32⟩
  | 79 => ⟨S_, .f32⟩
  | 80 => ⟨S2048x2, .f32⟩
  | 81 => ⟨S2048x1, .f32⟩
  | 82 => ⟨S2048, .f32⟩
  | 83 => ⟨S2048x1, .f32⟩
  | 84 => ⟨S2048, .f32⟩
  | 85 => ⟨S2048, .f32⟩
  | 86 => ⟨S2048, .f32⟩
  | 87 => ⟨S2048, .f32⟩
  | 88 => ⟨S_, .f32⟩
  | 89 => ⟨S2048, .f32⟩
  | 90 => ⟨S2048, .f32⟩
  | 91 => ⟨S_, .f32⟩
  | 92 => ⟨S2048, .f32⟩
  | 93 => ⟨S2048, .f32⟩
  | 94 => ⟨S_, .f32⟩
  | 95 => ⟨S2048, .f32⟩
  | 96 => ⟨S2048, .f32⟩
  | 97 => ⟨S2048, .f32⟩
  | 98 => ⟨S_, .f32⟩
  | 99 => ⟨S_, .f32⟩
  | 100 => ⟨S_, .f32⟩
  | 101 => ⟨S_, .f32⟩
  | 102 => ⟨S_, .f32⟩
  | 103 => ⟨S60001x64, .f32⟩
  | 104 => ⟨S_, .f32⟩
  | 105 => ⟨S_, .f32⟩
  | 106 => ⟨S_, .f32⟩
  | 107 => ⟨S40001x64, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S60001x64, .f32⟩

abbrev hbmTy (i : Nat) : BufTy := match i / 128 with
  | 0 => hbmTy0_0 i
  | 1 => hbmTy0_1 i
  | 2 => hbmTy0_2 i
  | 3 => hbmTy0_3 i
  | _ => ⟨S60001x64, .f32⟩

abbrev bufTy : (tb : Table) → Fin (tcTables nBuf tb) → BufTy
  | .hbm, ⟨i, _⟩ => hbmTy i
  | .local _ .vmem, ⟨0, _⟩ => ⟨S1024x192, .f32⟩
  | .local _ .vmem, ⟨1, _⟩ => ⟨S1024x192, .f32⟩
  | .local _ .vmem, ⟨2, _⟩ => ⟨S1024x192, .f32⟩
  | .local _ .vmem, ⟨3, _⟩ => ⟨S1024x192, .f32⟩
  | .local _ .vmem, ⟨4, _⟩ => ⟨S1024x192, .f32⟩
  | .local _ .vmem, ⟨5, _⟩ => ⟨S1024x192, .f32⟩
  | .local _ .vmem, ⟨6, _⟩ => ⟨S1024x3, .f32⟩
  | .local _ .vmem, ⟨7, _⟩ => ⟨S1024x3, .f32⟩
  | .local _ .vmem, ⟨8, _⟩ => ⟨S1024x64, .f32⟩
  | .local _ .vmem, ⟨9, _⟩ => ⟨S1024x64, .f32⟩
  | _, _ => ⟨S60001x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_17 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_20 : Ref sig .tc := ⟨.hbm, 112, rfl⟩
abbrev main_v84 : Ref sig .tc := ⟨.hbm, 113, rfl⟩
abbrev main_v85 : Ref sig .tc := ⟨.hbm, 114, rfl⟩
abbrev main_c_21 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_22 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_23 : Ref sig .tc := ⟨.hbm, 126, rfl⟩
abbrev main_v95 : Ref sig .tc := ⟨.hbm, 127, rfl⟩
abbrev main_v96 : Ref sig .tc := ⟨.hbm, 128, rfl⟩
abbrev main_c_24 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_25 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_26 : Ref sig .tc := ⟨.hbm, 143, rfl⟩
abbrev main_v109 : Ref sig .tc := ⟨.hbm, 144, rfl⟩
abbrev main_v110 : Ref sig .tc := ⟨.hbm, 145, rfl⟩
abbrev main_c_27 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_28 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_29 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_30 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_31 : Ref sig .tc := ⟨.hbm, 175, rfl⟩
abbrev main_v136 : Ref sig .tc := ⟨.hbm, 176, rfl⟩
abbrev main_cst_32 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_33 : Ref sig .tc := ⟨.hbm, 181, rfl⟩
abbrev main_v140 : Ref sig .tc := ⟨.hbm, 182, rfl⟩
abbrev main_v141 : Ref sig .tc := ⟨.hbm, 183, rfl⟩
abbrev main_c_34 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_35 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_36 : Ref sig .tc := ⟨.hbm, 194, rfl⟩
abbrev main_v150 : Ref sig .tc := ⟨.hbm, 195, rfl⟩
abbrev main_v151 : Ref sig .tc := ⟨.hbm, 196, rfl⟩
abbrev main_c_37 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_38 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_c_39 : Ref sig .tc := ⟨.hbm, 208, rfl⟩
abbrev main_v161 : Ref sig .tc := ⟨.hbm, 209, rfl⟩
abbrev main_v162 : Ref sig .tc := ⟨.hbm, 210, rfl⟩
abbrev main_c_40 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_41 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_c_42 : Ref sig .tc := ⟨.hbm, 225, rfl⟩
abbrev main_v175 : Ref sig .tc := ⟨.hbm, 226, rfl⟩
abbrev main_v176 : Ref sig .tc := ⟨.hbm, 227, rfl⟩
abbrev main_c_43 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_44 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_45 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_c_46 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_47 : Ref sig .tc := ⟨.hbm, 257, rfl⟩
abbrev main_v202 : Ref sig .tc := ⟨.hbm, 258, rfl⟩
abbrev main_cst_48 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_c_49 : Ref sig .tc := ⟨.hbm, 263, rfl⟩
abbrev main_v206 : Ref sig .tc := ⟨.hbm, 264, rfl⟩
abbrev main_v207 : Ref sig .tc := ⟨.hbm, 265, rfl⟩
abbrev main_c_50 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_cst_51 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_c_52 : Ref sig .tc := ⟨.hbm, 276, rfl⟩
abbrev main_v216 : Ref sig .tc := ⟨.hbm, 277, rfl⟩
abbrev main_v217 : Ref sig .tc := ⟨.hbm, 278, rfl⟩
abbrev main_c_53 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_cst_54 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_c_55 : Ref sig .tc := ⟨.hbm, 290, rfl⟩
abbrev main_v227 : Ref sig .tc := ⟨.hbm, 291, rfl⟩
abbrev main_v228 : Ref sig .tc := ⟨.hbm, 292, rfl⟩
abbrev main_c_56 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_cst_57 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_c_58 : Ref sig .tc := ⟨.hbm, 307, rfl⟩
abbrev main_v241 : Ref sig .tc := ⟨.hbm, 308, rfl⟩
abbrev main_v242 : Ref sig .tc := ⟨.hbm, 309, rfl⟩
abbrev main_c_59 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_60 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_cst_61 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_c_62 : Ref sig .tc := ⟨.hbm, 346, rfl⟩
abbrev main_v276 : Ref sig .tc := ⟨.hbm, 347, rfl⟩
abbrev main_v277 : Ref sig .tc := ⟨.hbm, 348, rfl⟩
abbrev main_c_63 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_c_64 : Ref sig .tc := ⟨.hbm, 360, rfl⟩
abbrev main_v288 : Ref sig .tc := ⟨.hbm, 361, rfl⟩
abbrev main_v289 : Ref sig .tc := ⟨.hbm, 362, rfl⟩
abbrev main_c_65 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_cst_66 : Ref sig .tc := ⟨.hbm, 372, rfl⟩
abbrev main_v298 : Ref sig .tc := ⟨.hbm, 373, rfl⟩
abbrev main_v299 : Ref sig .tc := ⟨.hbm, 374, rfl⟩
abbrev main_cst_67 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_c_68 : Ref sig .tc := ⟨.hbm, 381, rfl⟩
abbrev main_v305 : Ref sig .tc := ⟨.hbm, 382, rfl⟩
abbrev main_v306 : Ref sig .tc := ⟨.hbm, 383, rfl⟩
abbrev main_c_69 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_cst_70 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_cst_71 : Ref sig .tc := ⟨.hbm, 409, rfl⟩
abbrev main_v330 : Ref sig .tc := ⟨.hbm, 410, rfl⟩
abbrev main_v331 : Ref sig .tc := ⟨.hbm, 411, rfl⟩
abbrev main_cst_72 : Ref sig .tc := ⟨.hbm, 412, rfl⟩
abbrev main_v332 : Ref sig .tc := ⟨.hbm, 413, rfl⟩
abbrev main_v333 : Ref sig .tc := ⟨.hbm, 414, rfl⟩
abbrev main_cst_73 : Ref sig .tc := ⟨.hbm, 415, rfl⟩
abbrev main_v334 : Ref sig .tc := ⟨.hbm, 416, rfl⟩
abbrev main_v335 : Ref sig .tc := ⟨.hbm, 417, rfl⟩
abbrev main_v336 : Ref sig .tc := ⟨.hbm, 418, rfl⟩
abbrev main_cst_74 : Ref sig .tc := ⟨.hbm, 419, rfl⟩
abbrev main_v337 : Ref sig .tc := ⟨.hbm, 420, rfl⟩
abbrev main_cst_75 : Ref sig .tc := ⟨.hbm, 421, rfl⟩
abbrev main_v338 : Ref sig .tc := ⟨.hbm, 422, rfl⟩
abbrev main_cst_76 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_cst_77 : Ref sig .tc := ⟨.hbm, 432, rfl⟩
abbrev main_v347 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_cst_78 : Ref sig .tc := ⟨.hbm, 441, rfl⟩
abbrev main_v355 : Ref sig .tc := ⟨.hbm, 442, rfl⟩
abbrev main_v356 : Ref sig .tc := ⟨.hbm, 443, rfl⟩
abbrev main_cst_79 : Ref sig .tc := ⟨.hbm, 444, rfl⟩
abbrev main_v357 : Ref sig .tc := ⟨.hbm, 445, rfl⟩
abbrev main_v358 : Ref sig .tc := ⟨.hbm, 446, rfl⟩
abbrev main_cst_80 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_cst_81 : Ref sig .tc := ⟨.hbm, 451, rfl⟩
abbrev main_v362 : Ref sig .tc := ⟨.hbm, 452, rfl⟩
abbrev main_cst_82 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_cst_83 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_cst_84 : Ref sig .tc := ⟨.hbm, 472, rfl⟩
abbrev main_v380 : Ref sig .tc := ⟨.hbm, 473, rfl⟩
abbrev main_v381 : Ref sig .tc := ⟨.hbm, 474, rfl⟩
abbrev main_cst_85 : Ref sig .tc := ⟨.hbm, 475, rfl⟩
abbrev main_v382 : Ref sig .tc := ⟨.hbm, 476, rfl⟩
abbrev main_v383 : Ref sig .tc := ⟨.hbm, 477, rfl⟩
abbrev main_cst_86 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_cst_87 : Ref sig .tc := ⟨.hbm, 482, rfl⟩
abbrev main_v387 : Ref sig .tc := ⟨.hbm, 483, rfl⟩
abbrev main_cst_88 : Ref sig .tc := ⟨.hbm, 484, rfl⟩
abbrev main_v388 : Ref sig .tc := ⟨.hbm, 485, rfl⟩
abbrev main_v389 : Ref sig .tc := ⟨.hbm, 486, rfl⟩
abbrev main_call0_v0 : Ref sig .tc := ⟨.hbm, 487, rfl⟩
abbrev main_call0_cst : Ref sig .tc := ⟨.hbm, 488, rfl⟩
abbrev main_call0_v1 : Ref sig .tc := ⟨.hbm, 489, rfl⟩
abbrev main_v390 : Ref sig .tc := ⟨.hbm, 490, rfl⟩
abbrev main_call1_v0 : Ref sig .tc := ⟨.hbm, 491, rfl⟩
abbrev main_call1_cst : Ref sig .tc := ⟨.hbm, 492, rfl⟩
abbrev main_call1_v1 : Ref sig .tc := ⟨.hbm, 493, rfl⟩
abbrev main_v391 : Ref sig .tc := ⟨.hbm, 494, rfl⟩
abbrev main_v392 : Ref sig .tc := ⟨.hbm, 495, rfl⟩
abbrev main_cst_89 : Ref sig .tc := ⟨.hbm, 496, rfl⟩
abbrev main_v393 : Ref sig .tc := ⟨.hbm, 497, rfl⟩
abbrev main_cst_90 : Ref sig .tc := ⟨.hbm, 498, rfl⟩
abbrev main_v394 : Ref sig .tc := ⟨.hbm, 499, rfl⟩
abbrev main_v395 : Ref sig .tc := ⟨.hbm, 500, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S60001x64_S40001x64_S100002x64_d0 : Shape.Concatenates [S60001x64, S40001x64] S100002x64 0
  shapeCasts_S3x600000_S1800000 : S3x600000.ShapeCasts S1800000
  bcast_S_S1800000 : S_.BroadcastsInDim S1800000 (![] : Fin 0 → Fin S1800000.rank)
  concatenates_S1800000_S1800000_S3600000_d0 : Shape.Concatenates [S1800000, S1800000] S3600000 0
  bcast_S_S3600000 : S_.BroadcastsInDim S3600000 (![] : Fin 0 → Fin S3600000.rank)
  bcast_S_S100002 : S_.BroadcastsInDim S100002 (![] : Fin 0 → Fin S100002.rank)
  bcast_S3600000_S3600000x1_0 : S3600000.BroadcastsInDim S3600000x1 (![0] : Fin 1 → Fin S3600000x1.rank)
  bcast_S3600000x1_S3600000x64_0_1 : S3600000x1.BroadcastsInDim S3600000x64 (![0, 1] : Fin 2 → Fin S3600000x64.rank)
  bcast_S_S100002x64 : S_.BroadcastsInDim S100002x64 (![] : Fin 0 → Fin S100002x64.rank)
  slices_S3x600000_S1x600000_0_0 : S3x600000.Slices ![0, 0] S1x600000
  shapeCasts_S1x600000_S600000 : S1x600000.ShapeCasts S600000
  bcast_S_S600000 : S_.BroadcastsInDim S600000 (![] : Fin 0 → Fin S600000.rank)
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S100002_S40001_60001 : S100002.Slices ![60001] S40001
  slices_S100002x64_S60001x64_0_0 : S100002x64.Slices ![0, 0] S60001x64
  slices_S100002x64_S40001x64_60001_0 : S100002x64.Slices ![60001, 0] S40001x64
  slices_S3x600000_S1x600000_1_0 : S3x600000.Slices ![1, 0] S1x600000
  slices_S3x600000_S1x600000_2_0 : S3x600000.Slices ![2, 0] S1x600000
  bcast_S60001x64_S60001x1x64_0_2 : S60001x64.BroadcastsInDim S60001x1x64 (![0, 2] : Fin 2 → Fin S60001x1x64.rank)
  concatenates_S60001x1x64_S60001x1x64_S60001x1x64_S60001x3x64_d1 : Shape.Concatenates [S60001x1x64, S60001x1x64, S60001x1x64] S60001x3x64 1
  bcast_S40001x64_S40001x1x64_0_2 : S40001x64.BroadcastsInDim S40001x1x64 (![0, 2] : Fin 2 → Fin S40001x1x64.rank)
  concatenates_S40001x1x64_S40001x1x64_S40001x1x64_S40001x3x64_d1 : Shape.Concatenates [S40001x1x64, S40001x1x64, S40001x1x64] S40001x3x64 1
  bcast_S40001_S40001x1_0 : S40001.BroadcastsInDim S40001x1 (![0] : Fin 1 → Fin S40001x1.rank)
  concatenates_S40001x1_S40001x1_S40001x1_S40001x3_d1 : Shape.Concatenates [S40001x1, S40001x1, S40001x1] S40001x3 1
  slices_S2048x3x3_S2048x3x1_0_0_0 : S2048x3x3.Slices ![0, 0, 0] S2048x3x1
  shapeCasts_S2048x3x1_S2048x3 : S2048x3x1.ShapeCasts S2048x3
  slices_S2048x3x3_S2048x3x2_0_0_1 : S2048x3x3.Slices ![0, 0, 1] S2048x3x2
  shapeCasts_S2048x3_S6144 : S2048x3.ShapeCasts S6144
  bcast_S_S6144 : S_.BroadcastsInDim S6144 (![] : Fin 0 → Fin S6144.rank)
  bcast_S6144_S6144x1_0 : S6144.BroadcastsInDim S6144x1 (![0] : Fin 1 → Fin S6144x1.rank)
  shapeCasts_S6144x3x64_S6144x192 : S6144x3x64.ShapeCasts S6144x192
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  reduces_S1024x64_S1024 : S1024x64.Reduces [1] S1024
  shapeCasts_S1024_S1024x1 : S1024.ShapeCasts S1024x1
  broadcasts_S1024x1_S1024x64 : S1024x1.Broadcasts S1024x64
  concatenates_S1024x64_S1024x64_S1024x64_S1024x192_d1 : Shape.Concatenates [S1024x64, S1024x64, S1024x64] S1024x192 1
  shapeCasts_S6144x192_S6144x3x64 : S6144x192.ShapeCasts S6144x3x64
  shapeCasts_S6144x3x64_S2048x3x3x64 : S6144x3x64.ShapeCasts S2048x3x3x64
  shapeCasts_S2048x3x2_S12288 : S2048x3x2.ShapeCasts S12288
  bcast_S_S12288 : S_.BroadcastsInDim S12288 (![] : Fin 0 → Fin S12288.rank)
  bcast_S12288_S12288x1_0 : S12288.BroadcastsInDim S12288x1 (![0] : Fin 1 → Fin S12288x1.rank)
  bcast_S3_S1x3_1 : S3.BroadcastsInDim S1x3 (![1] : Fin 1 → Fin S1x3.rank)
  bcast_S1x3_S40001x3_0_1 : S1x3.BroadcastsInDim S40001x3 (![0, 1] : Fin 2 → Fin S40001x3.rank)
  reducesTo_S40001x3_S40001_d1 : S40001x3.ReducesTo [1] S40001
  h_S_ : 0 < S_.numel
  bcast_S_S40001x1 : S_.BroadcastsInDim S40001x1 (![] : Fin 0 → Fin S40001x1.rank)
  bcast_S40001x1_S40001x3_0_1 : S40001x1.BroadcastsInDim S40001x3 (![0, 1] : Fin 2 → Fin S40001x3.rank)
  shapeCasts_S12288x3x64_S12288x192 : S12288x3x64.ShapeCasts S12288x192
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  inb_S1024x64_S1024x64_0_0 : ∀ a, (![0, 0] : Fin 2 → Nat) a + S1024x64.size a ≤ S1024x64.size a
  h_S1024x64 : 0 < S1024x64.numel
  shapeCasts_S12288x64_S2048x3x2x64 : S12288x64.ShapeCasts S2048x3x2x64
  slices_S2048x3x3x64_S2048x1x1x64_0_0_0_0 : S2048x3x3x64.Slices ![0, 0, 0, 0] S2048x1x1x64
  shapeCasts_S2048x1x1x64_S2048x64 : S2048x1x1x64.ShapeCasts S2048x64
  bcast_S2048x64_S2048x1x64_0_2 : S2048x64.BroadcastsInDim S2048x1x64 (![0, 2] : Fin 2 → Fin S2048x1x64.rank)
  slices_S2048x3x2x64_S2048x1x2x64_0_0_0_0 : S2048x3x2x64.Slices ![0, 0, 0, 0] S2048x1x2x64
  shapeCasts_S2048x1x2x64_S2048x2x64 : S2048x1x2x64.ShapeCasts S2048x2x64
  bcast_S2048x1x64_S2048x2x64_0_1_2 : S2048x1x64.BroadcastsInDim S2048x2x64 (![0, 1, 2] : Fin 3 → Fin S2048x2x64.rank)
  reducesTo_S2048x2x64_S2048x2_d2 : S2048x2x64.ReducesTo [2] S2048x2
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  reducesTo_S2048_S_d0 : S2048.ReducesTo [0] S_
  slices_S2048x3x3x64_S2048x1x1x64_0_1_1_0 : S2048x3x3x64.Slices ![0, 1, 1, 0] S2048x1x1x64
  slices_S2048x3x2x64_S2048x1x2x64_0_1_0_0 : S2048x3x2x64.Slices ![0, 1, 0, 0] S2048x1x2x64
  slices_S2048x3x3x64_S2048x1x1x64_0_2_2_0 : S2048x3x3x64.Slices ![0, 2, 2, 0] S2048x1x1x64
  slices_S2048x3x2x64_S2048x1x2x64_0_2_0_0 : S2048x3x2x64.Slices ![0, 2, 0, 0] S2048x1x2x64
  reducesTo_S60001x64_S_d0_1 : S60001x64.ReducesTo [0, 1] S_
  reducesTo_S40001x64_S_d0_1 : S40001x64.ReducesTo [0, 1] S_
  scatter_S100002_S3600000x1_S3600000_n_0_0_1_wf : ScatterDims.WF S100002 S3600000x1 S3600000 [] [0] [0] 1
  gather_S100002_S3600000x1_S3600000_n_0_n_n_0_1_1_wf : GatherDims.WF S100002 S3600000x1 S3600000 [] [0] [] [0] [] 1 ![1]
  gather_S100002x64_S3600000x1_S3600000x64_1_0_n_n_0_1_164_wf : GatherDims.WF S100002x64 S3600000x1 S3600000x64 [1] [0] [] [0] [] 1 ![1, 64]
  scatter_S100002x64_S3600000x1_S3600000x64_1_0_0_1_wf : ScatterDims.WF S100002x64 S3600000x1 S3600000x64 [1] [0] [0] 1
  scatter_S100002_S1200000x1_S1200000_n_0_0_1_wf : ScatterDims.WF S100002 S1200000x1 S1200000 [] [0] [0] 1
  gather_S100002_S1200000x1_S1200000_n_0_n_n_0_1_1_wf : GatherDims.WF S100002 S1200000x1 S1200000 [] [0] [] [0] [] 1 ![1]
  gather_S100002x64_S1200000x1_S1200000x64_1_0_n_n_0_1_164_wf : GatherDims.WF S100002x64 S1200000x1 S1200000x64 [1] [0] [] [0] [] 1 ![1, 64]
  scatter_S100002x64_S1200000x1_S1200000x64_1_0_0_1_wf : ScatterDims.WF S100002x64 S1200000x1 S1200000x64 [1] [0] [0] 1
  gather_S60001x3x64_S6144x1_S6144x3x64_12_0_n_n_0_1_1364_wf : GatherDims.WF S60001x3x64 S6144x1 S6144x3x64 [1, 2] [0] [] [0] [] 1 ![1, 3, 64]
  gather_S40001x3x64_S12288x1_S12288x3x64_12_0_n_n_0_1_1364_wf : GatherDims.WF S40001x3x64 S12288x1 S12288x3x64 [1, 2] [0] [] [0] [] 1 ![1, 3, 64]
  gather_S40001x3_S12288x1_S12288x3_1_0_n_n_0_1_13_wf : GatherDims.WF S40001x3 S12288x1 S12288x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x192.size a ≤ S6144x192.size a
  hwx0_0 : ∀ i : grid0.Coords, EltTy.bits .f32 = 32 ∨ (Rect.block (s := S6144x192) S1024x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S6144x192.size a
  hwx0_1 : ∀ i : grid0.Coords, EltTy.bits .f32 = 32 ∨ (Rect.block (s := S6144x192) S1024x192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x192.size a ≤ S12288x192.size a
  hwx1_0 : ∀ i : grid1.Coords, EltTy.bits .f32 = 32 ∨ (Rect.block (s := S12288x192) S1024x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S12288x3.size a
  hwx1_1 : ∀ i : grid1.Coords, EltTy.bits .f32 = 32 ∨ (Rect.block (s := S12288x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S12288x64.size a
  hwx1_2 : ∀ i : grid1.Coords, EltTy.bits .f32 = 32 ∨ (Rect.block (s := S12288x64) S1024x64.size (cc1_transform_2 i) (hinb1_2 i)).WholeWords (EltTy.packing .f32)

variable [Facts₀]

def scatter_S100002_S3600000x1_S3600000_n_0_0_1 : ScatterDims S100002 S3600000x1 S3600000 where
  updateWindowDims := []
  insertedWindowDims := [0]
  scatterDimsToOperandDims := [0]
  indexVectorDim := 1
  wf := scatter_S100002_S3600000x1_S3600000_n_0_0_1_wf
def gather_S100002_S3600000x1_S3600000_n_0_n_n_0_1_1 : GatherDims S100002 S3600000x1 S3600000 where
  offsetDims := []
  collapsedSliceDims := [0]
  operandBatchingDims := []
  startIndicesBatchingDims := []
  startIndexMap := [0]
  indexVectorDim := 1
  sliceSizes := ![1]
  wf := gather_S100002_S3600000x1_S3600000_n_0_n_n_0_1_1_wf
def gather_S100002x64_S3600000x1_S3600000x64_1_0_n_n_0_1_164 : GatherDims S100002x64 S3600000x1 S3600000x64 where
  offsetDims := [1]
  collapsedSliceDims := [0]
  operandBatchingDims := []
  startIndicesBatchingDims := []
  startIndexMap := [0]
  indexVectorDim := 1
  sliceSizes := ![1, 64]
  wf := gather_S100002x64_S3600000x1_S3600000x64_1_0_n_n_0_1_164_wf
def scatter_S100002x64_S3600000x1_S3600000x64_1_0_0_1 : ScatterDims S100002x64 S3600000x1 S3600000x64 where
  updateWindowDims := [1]
  insertedWindowDims := [0]
  scatterDimsToOperandDims := [0]
  indexVectorDim := 1
  wf := scatter_S100002x64_S3600000x1_S3600000x64_1_0_0_1_wf
def scatter_S100002_S1200000x1_S1200000_n_0_0_1 : ScatterDims S100002 S1200000x1 S1200000 where
  updateWindowDims := []
  insertedWindowDims := [0]
  scatterDimsToOperandDims := [0]
  indexVectorDim := 1
  wf := scatter_S100002_S1200000x1_S1200000_n_0_0_1_wf
def gather_S100002_S1200000x1_S1200000_n_0_n_n_0_1_1 : GatherDims S100002 S1200000x1 S1200000 where
  offsetDims := []
  collapsedSliceDims := [0]
  operandBatchingDims := []
  startIndicesBatchingDims := []
  startIndexMap := [0]
  indexVectorDim := 1
  sliceSizes := ![1]
  wf := gather_S100002_S1200000x1_S1200000_n_0_n_n_0_1_1_wf
def gather_S100002x64_S1200000x1_S1200000x64_1_0_n_n_0_1_164 : GatherDims S100002x64 S1200000x1 S1200000x64 where
  offsetDims := [1]
  collapsedSliceDims := [0]
  operandBatchingDims := []
  startIndicesBatchingDims := []
  startIndexMap := [0]
  indexVectorDim := 1
  sliceSizes := ![1, 64]
  wf := gather_S100002x64_S1200000x1_S1200000x64_1_0_n_n_0_1_164_wf
def scatter_S100002x64_S1200000x1_S1200000x64_1_0_0_1 : ScatterDims S100002x64 S1200000x1 S1200000x64 where
  updateWindowDims := [1]
  insertedWindowDims := [0]
  scatterDimsToOperandDims := [0]
  indexVectorDim := 1
  wf := scatter_S100002x64_S1200000x1_S1200000x64_1_0_0_1_wf
def gather_S60001x3x64_S6144x1_S6144x3x64_12_0_n_n_0_1_1364 : GatherDims S60001x3x64 S6144x1 S6144x3x64 where
  offsetDims := [1, 2]
  collapsedSliceDims := [0]
  operandBatchingDims := []
  startIndicesBatchingDims := []
  startIndexMap := [0]
  indexVectorDim := 1
  sliceSizes := ![1, 3, 64]
  wf := gather_S60001x3x64_S6144x1_S6144x3x64_12_0_n_n_0_1_1364_wf
def gather_S40001x3x64_S12288x1_S12288x3x64_12_0_n_n_0_1_1364 : GatherDims S40001x3x64 S12288x1 S12288x3x64 where
  offsetDims := [1, 2]
  collapsedSliceDims := [0]
  operandBatchingDims := []
  startIndicesBatchingDims := []
  startIndexMap := [0]
  indexVectorDim := 1
  sliceSizes := ![1, 3, 64]
  wf := gather_S40001x3x64_S12288x1_S12288x3x64_12_0_n_n_0_1_1364_wf
def gather_S40001x3_S12288x1_S12288x3_1_0_n_n_0_1_13 : GatherDims S40001x3 S12288x1 S12288x3 where
  offsetDims := [1]
  collapsedSliceDims := [0]
  operandBatchingDims := []
  startIndicesBatchingDims := []
  startIndexMap := [0]
  indexVectorDim := 1
  sliceSizes := ![1, 3]
  wf := gather_S40001x3_S12288x1_S12288x3_1_0_n_n_0_1_13_wf

abbrev win0_0 : Pipeline.Window sig grid0 :=
  Pipeline.Window.ofSpec (Memref.whole main_v283) S1024x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v284) S1024x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v312) S1024x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v311) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v313) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S60001x64 : Shape := ⟨2, ![60001, 64]⟩
abbrev S40001x64 : Shape := ⟨2, ![40001, 64]⟩
abbrev S3 : Shape := ⟨1, ![3]⟩
abbrev S3x600000 : Shape := ⟨2, ![3, 600000]⟩
abbrev S2048x3x3 : Shape := ⟨3, ![2048, 3, 3]⟩
abbrev S100002x64 : Shape := ⟨2, ![100002, 64]⟩
abbrev S1800000 : Shape := ⟨1, ![1800000]⟩
abbrev S_ : Shape := ⟨0, ![]⟩
abbrev S3600000 : Shape := ⟨1, ![3600000]⟩
abbrev S100002 : Shape := ⟨1, ![100002]⟩
abbrev S3600000x1 : Shape := ⟨2, ![3600000, 1]⟩
abbrev S3600000x64 : Shape := ⟨2, ![3600000, 64]⟩
abbrev S1x600000 : Shape := ⟨2, ![1, 600000]⟩
abbrev S600000 : Shape := ⟨1, ![600000]⟩
abbrev S1200000 : Shape := ⟨1, ![1200000]⟩
abbrev S1200000x1 : Shape := ⟨2, ![1200000, 1]⟩
abbrev S1200000x64 : Shape := ⟨2, ![1200000, 64]⟩
abbrev S60001x1x64 : Shape := ⟨3, ![60001, 1, 64]⟩
abbrev S60001x3x64 : Shape := ⟨3, ![60001, 3, 64]⟩
abbrev S40001x1x64 : Shape := ⟨3, ![40001, 1, 64]⟩
abbrev S40001x3x64 : Shape := ⟨3, ![40001, 3, 64]⟩
abbrev S60001x3x3 : Shape := ⟨3, ![60001, 3, 3]⟩
abbrev S60001x1x3 : Shape := ⟨3, ![60001, 1, 3]⟩
abbrev S60001x2x3 : Shape := ⟨3, ![60001, 2, 3]⟩
abbrev S60001x3 : Shape := ⟨2, ![60001, 3]⟩
abbrev S60001x3x1 : Shape := ⟨3, ![60001, 3, 1]⟩
abbrev S40001 : Shape := ⟨1, ![40001]⟩
abbrev S600000x1 : Shape := ⟨2, ![600000, 1]⟩
abbrev S40001x1 : Shape := ⟨2, ![40001, 1]⟩
abbrev S40001x3 : Shape := ⟨2, ![40001, 3]⟩
abbrev S1x3 : Shape := ⟨2, ![1, 3]⟩
abbrev S40001x3x1 : Shape := ⟨3, ![40001, 3, 1]⟩
abbrev S2048x1x1 : Shape := ⟨3, ![2048, 1, 1]⟩
abbrev S2048 : Shape := ⟨1, ![2048]⟩
abbrev S2048x1x2 : Shape := ⟨3, ![2048, 1, 2]⟩
abbrev S2048x2 : Shape := ⟨2, ![2048, 2]⟩
abbrev S2048x1 : Shape := ⟨2, ![2048, 1]⟩
abbrev S2048x64 : Shape := ⟨2, ![2048, 64]⟩
abbrev S2048x1x64 : Shape := ⟨3, ![2048, 1, 64]⟩
abbrev S2048x2x1 : Shape := ⟨3, ![2048, 2, 1]⟩
abbrev S2048x2x64 : Shape := ⟨3, ![2048, 2, 64]⟩

abbrev nBuf : Space → Nat
  | .hbm => 579
  | .vmem => 0
  | .smem => 0
  | _ => 0

abbrev hbmTy0_0 (i : Nat) : BufTy := match i % 128 with
  | 0 => ⟨S60001x64, .f32⟩
  | 1 => ⟨S40001x64, .f32⟩
  | 2 => ⟨S3, .f32⟩
  | 3 => ⟨S3x600000, .i32⟩
  | 4 => ⟨S3x600000, .i32⟩
  | 5 => ⟨S2048x3x3, .i32⟩
  | 6 => ⟨S100002x64, .f32⟩
  | 7 => ⟨S1800000, .i32⟩
  | 8 => ⟨S1800000, .i32⟩
  | 9 => ⟨S_, .i32⟩
  | 10 => ⟨S1800000, .i32⟩
  | 11 => ⟨S1800000, .i32⟩
  | 12 => ⟨S3600000, .i32⟩
  | 13 => ⟨S3600000, .i32⟩
  | 14 => ⟨S_, .f32⟩
  | 15 => ⟨S3600000, .f32⟩
  | 16 => ⟨S_, .f32⟩
  | 17 => ⟨S100002, .f32⟩
  | 18 => ⟨S3600000x1, .i32⟩
  | 19 => ⟨S100002, .f32⟩
  | 20 => ⟨S_, .i32⟩
  | 21 => ⟨S3600000, .i32⟩
  | 22 => ⟨S3600000, .i1⟩
  | 23 => ⟨S_, .i32⟩
  | 24 => ⟨S3600000, .i32⟩
  | 25 => ⟨S3600000, .i32⟩
  | 26 => ⟨S3600000, .i32⟩
  | 27 => ⟨S3600000x1, .i32⟩
  | 28 => ⟨S3600000, .f32⟩
  | 29 => ⟨S_, .f32⟩
  | 30 => ⟨S3600000, .f32⟩
  | 31 => ⟨S3600000, .f32⟩
  | 32 => ⟨S3600000, .f32⟩
  | 33 => ⟨S_, .i32⟩
  | 34 => ⟨S3600000, .i32⟩
  | 35 => ⟨S3600000, .i1⟩
  | 36 => ⟨S_, .i32⟩
  | 37 => ⟨S3600000, .i32⟩
  | 38 => ⟨S3600000, .i32⟩
  | 39 => ⟨S3600000, .i32⟩
  | 40 => ⟨S3600000x1, .i32⟩
  | 41 => ⟨S3600000, .f32⟩
  | 42 => ⟨S_, .f32⟩
  | 43 => ⟨S3600000, .f32⟩
  | 44 => ⟨S3600000, .f32⟩
  | 45 => ⟨S3600000, .f32⟩
  | 46 => ⟨S3600000, .f32⟩
  | 47 => ⟨S_, .i32⟩
  | 48 => ⟨S3600000, .i32⟩
  | 49 => ⟨S3600000, .i1⟩
  | 50 => ⟨S_, .i32⟩
  | 51 => ⟨S3600000, .i32⟩
  | 52 => ⟨S3600000, .i32⟩
  | 53 => ⟨S3600000, .i32⟩
  | 54 => ⟨S3600000x1, .i32⟩
  | 55 => ⟨S3600000x64, .f32⟩
  | 56 => ⟨S3600000x1, .f32⟩
  | 57 => ⟨S3600000x64, .f32⟩
  | 58 => ⟨S3600000x64, .f32⟩
  | 59 => ⟨S_, .f32⟩
  | 60 => ⟨S100002x64, .f32⟩
  | 61 => ⟨S3600000x1, .i32⟩
  | 62 => ⟨S100002x64, .f32⟩
  | 63 => ⟨S100002x64, .f32⟩
  | 64 => ⟨S_, .i32⟩
  | 65 => ⟨S3600000, .i32⟩
  | 66 => ⟨S3600000, .i1⟩
  | 67 => ⟨S_, .i32⟩
  | 68 => ⟨S3600000, .i32⟩
  | 69 => ⟨S3600000, .i32⟩
  | 70 => ⟨S3600000, .i32⟩
  | 71 => ⟨S3600000x1, .i32⟩
  | 72 => ⟨S3600000x64, .f32⟩
  | 73 => ⟨S3600000x1, .f32⟩
  | 74 => ⟨S3600000x64, .f32⟩
  | 75 => ⟨S3600000x64, .f32⟩
  | 76 => ⟨S_, .f32⟩
  | 77 => ⟨S100002x64, .f32⟩
  | 78 => ⟨S3600000x1, .i32⟩
  | 79 => ⟨S100002x64, .f32⟩
  | 80 => ⟨S100002x64, .f32⟩
  | 81 => ⟨S_, .f32⟩
  | 82 => ⟨S100002x64, .f32⟩
  | 83 => ⟨S100002x64, .f32⟩
  | 84 => ⟨S1x600000, .i32⟩
  | 85 => ⟨S600000, .i32⟩
  | 86 => ⟨S1x600000, .i32⟩
  | 87 => ⟨S600000, .i32⟩
  | 88 => ⟨S_, .i32⟩
  | 89 => ⟨S600000, .i32⟩
  | 90 => ⟨S600000, .i32⟩
  | 91 => ⟨S1200000, .i32⟩
  | 92 => ⟨S1200000, .i32⟩
  | 93 => ⟨S_, .f32⟩
  | 94 => ⟨S1200000, .f32⟩
  | 95 => ⟨S_, .f32⟩
  | 96 => ⟨S100002, .f32⟩
  | 97 => ⟨S1200000x1, .i32⟩
  | 98 => ⟨S100002, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000, .f32⟩
  | 108 => ⟨S_, .f32⟩
  | 109 => ⟨S1200000, .f32⟩
  | 110 => ⟨S1200000, .f32⟩
  | 111 => ⟨S1200000, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000, .f32⟩
  | 121 => ⟨S_, .f32⟩
  | 122 => ⟨S1200000, .f32⟩
  | 123 => ⟨S1200000, .f32⟩
  | 124 => ⟨S1200000, .f32⟩
  | 125 => ⟨S1200000, .f32⟩
  | 126 => ⟨S_, .i32⟩
  | 127 => ⟨S1200000, .i32⟩
  | _ => ⟨S60001x64, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000x64, .f32⟩
  | 7 => ⟨S1200000x1, .f32⟩
  | 8 => ⟨S1200000x64, .f32⟩
  | 9 => ⟨S1200000x64, .f32⟩
  | 10 => ⟨S_, .f32⟩
  | 11 => ⟨S100002x64, .f32⟩
  | 12 => ⟨S1200000x1, .i32⟩
  | 13 => ⟨S100002x64, .f32⟩
  | 14 => ⟨S100002x64, .f32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S1200000x1, .f32⟩
  | 25 => ⟨S1200000x64, .f32⟩
  | 26 => ⟨S1200000x64, .f32⟩
  | 27 => ⟨S_, .f32⟩
  | 28 => ⟨S100002x64, .f32⟩
  | 29 => ⟨S1200000x1, .i32⟩
  | 30 => ⟨S100002x64, .f32⟩
  | 31 => ⟨S100002x64, .f32⟩
  | 32 => ⟨S_, .f32⟩
  | 33 => ⟨S100002x64, .f32⟩
  | 34 => ⟨S100002x64, .f32⟩
  | 35 => ⟨S60001x64, .f32⟩
  | 36 => ⟨S40001x64, .f32⟩
  | 37 => ⟨S1x600000, .i32⟩
  | 38 => ⟨S600000, .i32⟩
  | 39 => ⟨S1x600000, .i32⟩
  | 40 => ⟨S600000, .i32⟩
  | 41 => ⟨S_, .i32⟩
  | 42 => ⟨S600000, .i32⟩
  | 43 => ⟨S600000, .i32⟩
  | 44 => ⟨S1200000, .i32⟩
  | 45 => ⟨S1200000, .i32⟩
  | 46 => ⟨S_, .f32⟩
  | 47 => ⟨S1200000, .f32⟩
  | 48 => ⟨S_, .f32⟩
  | 49 => ⟨S100002, .f32⟩
  | 50 => ⟨S1200000x1, .i32⟩
  | 51 => ⟨S100002, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000, .f32⟩
  | 61 => ⟨S_, .f32⟩
  | 62 => ⟨S1200000, .f32⟩
  | 63 => ⟨S1200000, .f32⟩
  | 64 => ⟨S1200000, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S1200000, .f32⟩
  | 74 => ⟨S_, .f32⟩
  | 75 => ⟨S1200000, .f32⟩
  | 76 => ⟨S1200000, .f32⟩
  | 77 => ⟨S1200000, .f32⟩
  | 78 => ⟨S1200000, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x64, .f32⟩
  | 88 => ⟨S1200000x1, .f32⟩
  | 89 => ⟨S1200000x64, .f32⟩
  | 90 => ⟨S1200000x64, .f32⟩
  | 91 => ⟨S_, .f32⟩
  | 92 => ⟨S100002x64, .f32⟩
  | 93 => ⟨S1200000x1, .i32⟩
  | 94 => ⟨S100002x64, .f32⟩
  | 95 => ⟨S100002x64, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S1200000x1, .f32⟩
  | 106 => ⟨S1200000x64, .f32⟩
  | 107 => ⟨S1200000x64, .f32⟩
  | 108 => ⟨S_, .f32⟩
  | 109 => ⟨S100002x64, .f32⟩
  | 110 => ⟨S1200000x1, .i32⟩
  | 111 => ⟨S100002x64, .f32⟩
  | 112 => ⟨S100002x64, .f32⟩
  | 113 => ⟨S_, .f32⟩
  | 114 => ⟨S100002x64, .f32⟩
  | 115 => ⟨S100002x64, .f32⟩
  | 116 => ⟨S60001x64, .f32⟩
  | 117 => ⟨S40001x64, .f32⟩
  | 118 => ⟨S1x600000, .i32⟩
  | 119 => ⟨S600000, .i32⟩
  | 120 => ⟨S1x600000, .i32⟩
  | 121 => ⟨S600000, .i32⟩
  | 122 => ⟨S_, .i32⟩
  | 123 => ⟨S600000, .i32⟩
  | 124 => ⟨S600000, .i32⟩
  | 125 => ⟨S1200000, .i32⟩
  | 126 => ⟨S1200000, .i32⟩
  | 127 => ⟨S_, .f32⟩
  | _ => ⟨S60001x64, .f32⟩

abbrev hbmTy0_2 (i : Nat) : BufTy := match i % 128 with
  | 0 => ⟨S1200000, .f32⟩
  | 1 => ⟨S_, .f32⟩
  | 2 => ⟨S100002, .f32⟩
  | 3 => ⟨S1200000x1, .i32⟩
  | 4 => ⟨S100002, .f32⟩
  | 5 => ⟨S_, .i32⟩
  | 6 => ⟨S1200000, .i32⟩
  | 7 => ⟨S1200000, .i1⟩
  | 8 => ⟨S_, .i32⟩
  | 9 => ⟨S1200000, .i32⟩
  | 10 => ⟨S1200000, .i32⟩
  | 11 => ⟨S1200000, .i32⟩
  | 12 => ⟨S1200000x1, .i32⟩
  | 13 => ⟨S1200000, .f32⟩
  | 14 => ⟨S_, .f32⟩
  | 15 => ⟨S1200000, .f32⟩
  | 16 => ⟨S1200000, .f32⟩
  | 17 => ⟨S1200000, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000, .f32⟩
  | 27 => ⟨S_, .f32⟩
  | 28 => ⟨S1200000, .f32⟩
  | 29 => ⟨S1200000, .f32⟩
  | 30 => ⟨S1200000, .f32⟩
  | 31 => ⟨S1200000, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S1200000x1, .f32⟩
  | 42 => ⟨S1200000x64, .f32⟩
  | 43 => ⟨S1200000x64, .f32⟩
  | 44 => ⟨S_, .f32⟩
  | 45 => ⟨S100002x64, .f32⟩
  | 46 => ⟨S1200000x1, .i32⟩
  | 47 => ⟨S100002x64, .f32⟩
  | 48 => ⟨S100002x64, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000x64, .f32⟩
  | 58 => ⟨S1200000x1, .f32⟩
  | 59 => ⟨S1200000x64, .f32⟩
  | 60 => ⟨S1200000x64, .f32⟩
  | 61 => ⟨S_, .f32⟩
  | 62 => ⟨S100002x64, .f32⟩
  | 63 => ⟨S1200000x1, .i32⟩
  | 64 => ⟨S100002x64, .f32⟩
  | 65 => ⟨S100002x64, .f32⟩
  | 66 => ⟨S_, .f32⟩
  | 67 => ⟨S100002x64, .f32⟩
  | 68 => ⟨S100002x64, .f32⟩
  | 69 => ⟨S60001x64, .f32⟩
  | 70 => ⟨S40001x64, .f32⟩
  | 71 => ⟨S60001x1x64, .f32⟩
  | 72 => ⟨S60001x1x64, .f32⟩
  | 73 => ⟨S60001x1x64, .f32⟩
  | 74 => ⟨S60001x3x64, .f32⟩
  | 75 => ⟨S40001x1x64, .f32⟩
  | 76 => ⟨S40001x1x64, .f32⟩
  | 77 => ⟨S40001x1x64, .f32⟩
  | 78 => ⟨S40001x3x64, .f32⟩
  | 79 => ⟨S60001x3x3, .f32⟩
  | 80 => ⟨S60001x1x3, .f32⟩
  | 81 => ⟨S60001x2x3, .f32⟩
  | 82 => ⟨S60001x2x3, .f32⟩
  | 83 => ⟨S60001x2x3, .f32⟩
  | 84 => ⟨S60001x2x3, .f32⟩
  | 85 => ⟨S60001x2x3, .f32⟩
  | 86 => ⟨S60001x1x3, .f32⟩
  | 87 => ⟨S_, .f32⟩
  | 88 => ⟨S60001x1x3, .f32⟩
  | 89 => ⟨S60001x1x3, .f32⟩
  | 90 => ⟨S60001x2x3, .f32⟩
  | 91 => ⟨S60001x2x3, .f32⟩
  | 92 => ⟨S_, .f32⟩
  | 93 => ⟨S60001x3, .f32⟩
  | 94 => ⟨S60001x1x3, .f32⟩
  | 95 => ⟨S60001x1x3, .f32⟩
  | 96 => ⟨S60001x3x3, .f32⟩
  | 97 => ⟨S_, .f32⟩
  | 98 => ⟨S60001x3x3, .f32⟩
  | 99 => ⟨S60001x3x3, .f32⟩
  | 100 => ⟨S_, .f32⟩
  | 101 => ⟨S60001x3, .f32⟩
  | 102 => ⟨S_, .f32⟩
  | 103 => ⟨S60001x3, .f32⟩
  | 104 => ⟨S60001x3, .f32⟩
  | 105 => ⟨S60001x3x1, .f32⟩
  | 106 => ⟨S60001x3x3, .f32⟩
  | 107 => ⟨S60001x3x3, .f32⟩
  | 108 => ⟨S60001x3x3, .f32⟩
  | 109 => ⟨S_, .f32⟩
  | 110 => ⟨S60001x3, .f32⟩
  | 111 => ⟨S60001x3x1, .f32⟩
  | 112 => ⟨S60001x3x3, .f32⟩
  | 113 => ⟨S60001x3x3, .f32⟩
  | 114 => ⟨S60001x3x64, .f32⟩
  | 115 => ⟨S_, .f32⟩
  | 116 => ⟨S600000, .f32⟩
  | 117 => ⟨S1x600000, .i32⟩
  | 118 => ⟨S600000, .i32⟩
  | 119 => ⟨S_, .f32⟩
  | 120 => ⟨S40001, .f32⟩
  | 121 => ⟨S600000x1, .i32⟩
  | 122 => ⟨S40001, .f32⟩
  | 123 => ⟨S1x600000, .i32⟩
  | 124 => ⟨S600000, .i32⟩
  | 125 => ⟨S_, .f32⟩
  | 126 => ⟨S40001, .f32⟩
  | 127 => ⟨S600000x1, .i32⟩
  | _ => ⟨S60001x64, .f32⟩

abbrev hbmTy0_3 (i : Nat) : BufTy := match i % 128 with
  | 0 => ⟨S40001, .f32⟩
  | 1 => ⟨S1x600000, .i32⟩
  | 2 => ⟨S600000, .i32⟩
  | 3 => ⟨S_, .f32⟩
  | 4 => ⟨S40001, .f32⟩
  | 5 => ⟨S600000x1, .i32⟩
  | 6 => ⟨S40001, .f32⟩
  | 7 => ⟨S40001x1, .f32⟩
  | 8 => ⟨S40001x1, .f32⟩
  | 9 => ⟨S40001x1, .f32⟩
  | 10 => ⟨S40001x3, .f32⟩
  | 11 => ⟨S1x3, .f32⟩
  | 12 => ⟨S40001x3, .f32⟩
  | 13 => ⟨S40001x3, .f32⟩
  | 14 => ⟨S_, .f32⟩
  | 15 => ⟨S40001, .f32⟩
  | 16 => ⟨S40001x1, .f32⟩
  | 17 => ⟨S_, .f32⟩
  | 18 => ⟨S40001x1, .f32⟩
  | 19 => ⟨S40001x1, .f32⟩
  | 20 => ⟨S40001x3, .f32⟩
  | 21 => ⟨S40001x3, .f32⟩
  | 22 => ⟨S40001x3x1, .f32⟩
  | 23 => ⟨S40001x3x64, .f32⟩
  | 24 => ⟨S40001x3x64, .f32⟩
  | 25 => ⟨S_, .f32⟩
  | 26 => ⟨S40001x64, .f32⟩
  | 27 => ⟨S2048x1x1, .i32⟩
  | 28 => ⟨S2048, .i32⟩
  | 29 => ⟨S2048x1x2, .i32⟩
  | 30 => ⟨S2048x2, .i32⟩
  | 31 => ⟨S60001x1x64, .f32⟩
  | 32 => ⟨S60001x64, .f32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S2048x64, .f32⟩
  | 42 => ⟨S2048x1x64, .f32⟩
  | 43 => ⟨S_, .i32⟩
  | 44 => ⟨S2048x2, .i32⟩
  | 45 => ⟨S2048x2, .i1⟩
  | 46 => ⟨S_, .i32⟩
  | 47 => ⟨S2048x2, .i32⟩
  | 48 => ⟨S2048x2, .i32⟩
  | 49 => ⟨S2048x2, .i32⟩
  | 50 => ⟨S2048x2x1, .i32⟩
  | 51 => ⟨S2048x2x64, .f32⟩
  | 52 => ⟨S2048x2x64, .f32⟩
  | 53 => ⟨S2048x2x64, .f32⟩
  | 54 => ⟨S_, .f32⟩
  | 55 => ⟨S2048x2, .f32⟩
  | 56 => ⟨S2048x1, .f32⟩
  | 57 => ⟨S2048, .f32⟩
  | 58 => ⟨S2048x1, .f32⟩
  | 59 => ⟨S2048, .f32⟩
  | 60 => ⟨S2048, .f32⟩
  | 61 => ⟨S2048, .f32⟩
  | 62 => ⟨S2048, .f32⟩
  | 63 => ⟨S_, .f32⟩
  | 64 => ⟨S2048, .f32⟩
  | 65 => ⟨S2048, .f32⟩
  | 66 => ⟨S_, .f32⟩
  | 67 => ⟨S2048, .f32⟩
  | 68 => ⟨S2048, .f32⟩
  | 69 => ⟨S_, .f32⟩
  | 70 => ⟨S2048, .f32⟩
  | 71 => ⟨S2048, .f32⟩
  | 72 => ⟨S2048, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S2048x1x1, .i32⟩
  | 80 => ⟨S2048, .i32⟩
  | 81 => ⟨S2048x1x2, .i32⟩
  | 82 => ⟨S2048x2, .i32⟩
  | 83 => ⟨S60001x1x64, .f32⟩
  | 84 => ⟨S60001x64, .f32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S2048x64, .f32⟩
  | 94 => ⟨S2048x1x64, .f32⟩
  | 95 => ⟨S_, .i32⟩
  | 96 => ⟨S2048x2, .i32⟩
  | 97 => ⟨S2048x2, .i1⟩
  | 98 => ⟨S_, .i32⟩
  | 99 => ⟨S2048x2, .i32⟩
  | 100 => ⟨S2048x2, .i32⟩
  | 101 => ⟨S2048x2, .i32⟩
  | 102 => ⟨S2048x2x1, .i32⟩
  | 103 => ⟨S2048x2x64, .f32⟩
  | 104 => ⟨S2048x2x64, .f32⟩
  | 105 => ⟨S2048x2x64, .f32⟩
  | 106 => ⟨S_, .f32⟩
  | 107 => ⟨S2048x2, .f32⟩
  | 108 => ⟨S2048x1, .f32⟩
  | 109 => ⟨S2048, .f32⟩
  | 110 => ⟨S2048x1, .f32⟩
  | 111 => ⟨S2048, .f32⟩
  | 112 => ⟨S2048, .f32⟩
  | 113 => ⟨S2048, .f32⟩
  | 114 => ⟨S2048, .f32⟩
  | 115 => ⟨S_, .f32⟩
  | 116 => ⟨S2048, .f32⟩
  | 117 => ⟨S2048, .f32⟩
  | 118 => ⟨S_, .f32⟩
  | 119 => ⟨S2048, .f32⟩
  | 120 => ⟨S2048, .f32⟩
  | 121 => ⟨S_, .f32⟩
  | 122 => ⟨S2048, .f32⟩
  | 123 => ⟨S2048, .f32⟩
  | 124 => ⟨S2048, .f32⟩
  | 125 => ⟨S_, .f32⟩
  | 126 => ⟨S_, .f32⟩
  | 127 => ⟨S_, .f32⟩
  | _ => ⟨S60001x64, .f32⟩

abbrev hbmTy0_4 (i : Nat) : BufTy := match i % 128 with
  | 0 => ⟨S_, .f32⟩
  | 1 => ⟨S_, .f32⟩
  | 2 => ⟨S2048x1x1, .i32⟩
  | 3 => ⟨S2048, .i32⟩
  | 4 => ⟨S2048x1x2, .i32⟩
  | 5 => ⟨S2048x2, .i32⟩
  | 6 => ⟨S60001x1x64, .f32⟩
  | 7 => ⟨S60001x64, .f32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S2048, .i32⟩
  | 15 => ⟨S2048x1, .i32⟩
  | 16 => ⟨S2048x64, .f32⟩
  | 17 => ⟨S2048x1x64, .f32⟩
  | 18 => ⟨S_, .i32⟩
  | 19 => ⟨S2048x2, .i32⟩
  | 20 => ⟨S2048x2, .i1⟩
  | 21 => ⟨S_, .i32⟩
  | 22 => ⟨S2048x2, .i32⟩
  | 23 => ⟨S2048x2, .i32⟩
  | 24 => ⟨S2048x2, .i32⟩
  | 25 => ⟨S2048x2x1, .i32⟩
  | 26 => ⟨S2048x2x64, .f32⟩
  | 27 => ⟨S2048x2x64, .f32⟩
  | 28 => ⟨S2048x2x64, .f32⟩
  | 29 => ⟨S_, .f32⟩
  | 30 => ⟨S2048x2, .f32⟩
  | 31 => ⟨S2048x1, .f32⟩
  | 32 => ⟨S2048, .f32⟩
  | 33 => ⟨S2048x1, .f32⟩
  | 34 => ⟨S2048, .f32⟩
  | 35 => ⟨S2048, .f32⟩
  | 36 => ⟨S2048, .f32⟩
  | 37 => ⟨S2048, .f32⟩
  | 38 => ⟨S_, .f32⟩
  | 39 => ⟨S2048, .f32⟩
  | 40 => ⟨S2048, .f32⟩
  | 41 => ⟨S_, .f32⟩
  | 42 => ⟨S2048, .f32⟩
  | 43 => ⟨S2048, .f32⟩
  | 44 => ⟨S_, .f32⟩
  | 45 => ⟨S2048, .f32⟩
  | 46 => ⟨S2048, .f32⟩
  | 47 => ⟨S2048, .f32⟩
  | 48 => ⟨S_, .f32⟩
  | 49 => ⟨S_, .f32⟩
  | 50 => ⟨S_, .f32⟩
  | 51 => ⟨S_, .f32⟩
  | 52 => ⟨S_, .f32⟩
  | 53 => ⟨S60001x64, .f32⟩
  | 54 => ⟨S_, .f32⟩
  | 55 => ⟨S_, .f32⟩
  | 56 => ⟨S_, .f32⟩
  | 57 => ⟨S40001x64, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S60001x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S60001x64, .f32⟩

abbrev bufTy : (tb : Table) → Fin (tcTables nBuf tb) → BufTy
  | .hbm, ⟨i, _⟩ => hbmTy i
  | _, _ => ⟨S60001x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_17 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_20 : Ref sig .tc := ⟨.hbm, 112, rfl⟩
abbrev main_v84 : Ref sig .tc := ⟨.hbm, 113, rfl⟩
abbrev main_v85 : Ref sig .tc := ⟨.hbm, 114, rfl⟩
abbrev main_c_21 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_22 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_23 : Ref sig .tc := ⟨.hbm, 126, rfl⟩
abbrev main_v95 : Ref sig .tc := ⟨.hbm, 127, rfl⟩
abbrev main_v96 : Ref sig .tc := ⟨.hbm, 128, rfl⟩
abbrev main_c_24 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_25 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_c_26 : Ref sig .tc := ⟨.hbm, 143, rfl⟩
abbrev main_v109 : Ref sig .tc := ⟨.hbm, 144, rfl⟩
abbrev main_v110 : Ref sig .tc := ⟨.hbm, 145, rfl⟩
abbrev main_c_27 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_28 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_29 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c_30 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_31 : Ref sig .tc := ⟨.hbm, 174, rfl⟩
abbrev main_v135 : Ref sig .tc := ⟨.hbm, 175, rfl⟩
abbrev main_cst_32 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_c_33 : Ref sig .tc := ⟨.hbm, 180, rfl⟩
abbrev main_v139 : Ref sig .tc := ⟨.hbm, 181, rfl⟩
abbrev main_v140 : Ref sig .tc := ⟨.hbm, 182, rfl⟩
abbrev main_c_34 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_35 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_36 : Ref sig .tc := ⟨.hbm, 193, rfl⟩
abbrev main_v149 : Ref sig .tc := ⟨.hbm, 194, rfl⟩
abbrev main_v150 : Ref sig .tc := ⟨.hbm, 195, rfl⟩
abbrev main_c_37 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_38 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_c_39 : Ref sig .tc := ⟨.hbm, 207, rfl⟩
abbrev main_v160 : Ref sig .tc := ⟨.hbm, 208, rfl⟩
abbrev main_v161 : Ref sig .tc := ⟨.hbm, 209, rfl⟩
abbrev main_c_40 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_41 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_c_42 : Ref sig .tc := ⟨.hbm, 224, rfl⟩
abbrev main_v174 : Ref sig .tc := ⟨.hbm, 225, rfl⟩
abbrev main_v175 : Ref sig .tc := ⟨.hbm, 226, rfl⟩
abbrev main_c_43 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_44 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_cst_45 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_c_46 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_47 : Ref sig .tc := ⟨.hbm, 255, rfl⟩
abbrev main_v200 : Ref sig .tc := ⟨.hbm, 256, rfl⟩
abbrev main_cst_48 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_c_49 : Ref sig .tc := ⟨.hbm, 261, rfl⟩
abbrev main_v204 : Ref sig .tc := ⟨.hbm, 262, rfl⟩
abbrev main_v205 : Ref sig .tc := ⟨.hbm, 263, rfl⟩
abbrev main_c_50 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_51 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_c_52 : Ref sig .tc := ⟨.hbm, 274, rfl⟩
abbrev main_v214 : Ref sig .tc := ⟨.hbm, 275, rfl⟩
abbrev main_v215 : Ref sig .tc := ⟨.hbm, 276, rfl⟩
abbrev main_c_53 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_cst_54 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_c_55 : Ref sig .tc := ⟨.hbm, 288, rfl⟩
abbrev main_v225 : Ref sig .tc := ⟨.hbm, 289, rfl⟩
abbrev main_v226 : Ref sig .tc := ⟨.hbm, 290, rfl⟩
abbrev main_c_56 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_cst_57 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_c_58 : Ref sig .tc := ⟨.hbm, 305, rfl⟩
abbrev main_v239 : Ref sig .tc := ⟨.hbm, 306, rfl⟩
abbrev main_v240 : Ref sig .tc := ⟨.hbm, 307, rfl⟩
abbrev main_c_59 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_cst_60 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_cst_61 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_cst_62 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_63 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_cst_64 : Ref sig .tc := ⟨.hbm, 353, rfl⟩
abbrev main_v281 : Ref sig .tc := ⟨.hbm, 354, rfl⟩
abbrev main_v282 : Ref sig .tc := ⟨.hbm, 355, rfl⟩
abbrev main_cst_65 : Ref sig .tc := ⟨.hbm, 356, rfl⟩
abbrev main_v283 : Ref sig .tc := ⟨.hbm, 357, rfl⟩
abbrev main_cst_66 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_cst_67 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_cst_68 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_cst_69 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_cst_70 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_cst_71 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_cst_72 : Ref sig .tc := ⟨.hbm, 398, rfl⟩
abbrev main_v318 : Ref sig .tc := ⟨.hbm, 399, rfl⟩
abbrev main_v319 : Ref sig .tc := ⟨.hbm, 400, rfl⟩
abbrev main_cst_73 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_v325 : Ref sig .tc := ⟨.hbm, 407, rfl⟩
abbrev main_v326 : Ref sig .tc := ⟨.hbm, 408, rfl⟩
abbrev main_cst_74 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_c_75 : Ref sig .tc := ⟨.hbm, 417, rfl⟩
abbrev main_v334 : Ref sig .tc := ⟨.hbm, 418, rfl⟩
abbrev main_v335 : Ref sig .tc := ⟨.hbm, 419, rfl⟩
abbrev main_c_76 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_c_77 : Ref sig .tc := ⟨.hbm, 427, rfl⟩
abbrev main_v342 : Ref sig .tc := ⟨.hbm, 428, rfl⟩
abbrev main_v343 : Ref sig .tc := ⟨.hbm, 429, rfl⟩
abbrev main_c_78 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_v349 : Ref sig .tc := ⟨.hbm, 436, rfl⟩
abbrev main_v350 : Ref sig .tc := ⟨.hbm, 437, rfl⟩
abbrev main_cst_79 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩
abbrev main_v357 : Ref sig .tc := ⟨.hbm, 445, rfl⟩
abbrev main_v358 : Ref sig .tc := ⟨.hbm, 446, rfl⟩
abbrev main_cst_80 : Ref sig .tc := ⟨.hbm, 447, rfl⟩
abbrev main_v359 : Ref sig .tc := ⟨.hbm, 448, rfl⟩
abbrev main_v360 : Ref sig .tc := ⟨.hbm, 449, rfl⟩
abbrev main_cst_81 : Ref sig .tc := ⟨.hbm, 450, rfl⟩
abbrev main_v361 : Ref sig .tc := ⟨.hbm, 451, rfl⟩
abbrev main_v362 : Ref sig .tc := ⟨.hbm, 452, rfl⟩
abbrev main_cst_82 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_cst_83 : Ref sig .tc := ⟨.hbm, 457, rfl⟩
abbrev main_v366 : Ref sig .tc := ⟨.hbm, 458, rfl⟩
abbrev main_cst_84 : Ref sig .tc := ⟨.hbm, 459, rfl⟩
abbrev main_v367 : Ref sig .tc := ⟨.hbm, 460, rfl⟩
abbrev main_cst_85 : Ref sig .tc := ⟨.hbm, 461, rfl⟩
abbrev main_v368 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_v374 : Ref sig .tc := ⟨.hbm, 468, rfl⟩
abbrev main_c_86 : Ref sig .tc := ⟨.hbm, 469, rfl⟩
abbrev main_v375 : Ref sig .tc := ⟨.hbm, 470, rfl⟩
abbrev main_v376 : Ref sig .tc := ⟨.hbm, 471, rfl⟩
abbrev main_c_87 : Ref sig .tc := ⟨.hbm, 472, rfl⟩
abbrev main_v377 : Ref sig .tc := ⟨.hbm, 473, rfl⟩
abbrev main_v378 : Ref sig .tc := ⟨.hbm, 474, rfl⟩
abbrev main_v379 : Ref sig .tc := ⟨.hbm, 475, rfl⟩
abbrev main_v380 : Ref sig .tc := ⟨.hbm, 476, rfl⟩
abbrev main_v381 : Ref sig .tc := ⟨.hbm, 477, rfl⟩
abbrev main_v382 : Ref sig .tc := ⟨.hbm, 478, rfl⟩
abbrev main_c_88 : Ref sig .tc := ⟨.hbm, 479, rfl⟩
abbrev main_v383 : Ref sig .tc := ⟨.hbm, 480, rfl⟩
abbrev main_v384 : Ref sig .tc := ⟨.hbm, 481, rfl⟩
abbrev main_c_89 : Ref sig .tc := ⟨.hbm, 482, rfl⟩
abbrev main_v385 : Ref sig .tc := ⟨.hbm, 483, rfl⟩
abbrev main_v386 : Ref sig .tc := ⟨.hbm, 484, rfl⟩
abbrev main_v387 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_v391 : Ref sig .tc := ⟨.hbm, 489, rfl⟩
abbrev main_cst_90 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_cst_91 : Ref sig .tc := ⟨.hbm, 499, rfl⟩
abbrev main_v400 : Ref sig .tc := ⟨.hbm, 500, rfl⟩
abbrev main_v401 : Ref sig .tc := ⟨.hbm, 501, rfl⟩
abbrev main_cst_92 : Ref sig .tc := ⟨.hbm, 502, rfl⟩
abbrev main_v402 : Ref sig .tc := ⟨.hbm, 503, rfl⟩
abbrev main_v403 : Ref sig .tc := ⟨.hbm, 504, rfl⟩
abbrev main_cst_93 : Ref sig .tc := ⟨.hbm, 505, rfl⟩
abbrev main_v404 : Ref sig .tc := ⟨.hbm, 506, rfl⟩
abbrev main_v405 : Ref sig .tc := ⟨.hbm, 507, rfl⟩
abbrev main_v406 : Ref sig .tc := ⟨.hbm, 508, rfl⟩
abbrev main_cst_94 : Ref sig .tc := ⟨.hbm, 509, rfl⟩
abbrev main_v407 : Ref sig .tc := ⟨.hbm, 510, rfl⟩
abbrev main_cst_95 : Ref sig .tc := ⟨.hbm, 511, rfl⟩
abbrev main_v408 : Ref sig .tc := ⟨.hbm, 512, rfl⟩
abbrev main_v409 : Ref sig .tc := ⟨.hbm, 513, rfl⟩
abbrev main_v410 : Ref sig .tc := ⟨.hbm, 514, rfl⟩
abbrev main_v411 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_c_96 : Ref sig .tc := ⟨.hbm, 520, rfl⟩
abbrev main_v416 : Ref sig .tc := ⟨.hbm, 521, rfl⟩
abbrev main_v417 : Ref sig .tc := ⟨.hbm, 522, rfl⟩
abbrev main_c_97 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_v423 : Ref sig .tc := ⟨.hbm, 529, rfl⟩
abbrev main_c_98 : Ref sig .tc := ⟨.hbm, 530, rfl⟩
abbrev main_v424 : Ref sig .tc := ⟨.hbm, 531, rfl⟩
abbrev main_v425 : Ref sig .tc := ⟨.hbm, 532, rfl⟩
abbrev main_c_99 : Ref sig .tc := ⟨.hbm, 533, rfl⟩
abbrev main_v426 : Ref sig .tc := ⟨.hbm, 534, rfl⟩
abbrev main_v427 : Ref sig .tc := ⟨.hbm, 535, rfl⟩
abbrev main_v428 : Ref sig .tc := ⟨.hbm, 536, rfl⟩
abbrev main_v429 : Ref sig .tc := ⟨.hbm, 537, rfl⟩
abbrev main_v430 : Ref sig .tc := ⟨.hbm, 538, rfl⟩
abbrev main_v431 : Ref sig .tc := ⟨.hbm, 539, rfl⟩
abbrev main_v432 : Ref sig .tc := ⟨.hbm, 540, rfl⟩
abbrev main_cst_100 : Ref sig .tc := ⟨.hbm, 541, rfl⟩
abbrev main_v433 : Ref sig .tc := ⟨.hbm, 542, rfl⟩
abbrev main_v434 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_v440 : Ref sig .tc := ⟨.hbm, 549, rfl⟩
abbrev main_cst_101 : Ref sig .tc := ⟨.hbm, 550, rfl⟩
abbrev main_v441 : Ref sig .tc := ⟨.hbm, 551, rfl⟩
abbrev main_v442 : Ref sig .tc := ⟨.hbm, 552, rfl⟩
abbrev main_cst_102 : Ref sig .tc := ⟨.hbm, 553, rfl⟩
abbrev main_v443 : Ref sig .tc := ⟨.hbm, 554, rfl⟩
abbrev main_v444 : Ref sig .tc := ⟨.hbm, 555, rfl⟩
abbrev main_cst_103 : Ref sig .tc := ⟨.hbm, 556, rfl⟩
abbrev main_v445 : Ref sig .tc := ⟨.hbm, 557, rfl⟩
abbrev main_v446 : Ref sig .tc := ⟨.hbm, 558, rfl⟩
abbrev main_v447 : Ref sig .tc := ⟨.hbm, 559, rfl⟩
abbrev main_cst_104 : Ref sig .tc := ⟨.hbm, 560, rfl⟩
abbrev main_v448 : Ref sig .tc := ⟨.hbm, 561, rfl⟩
abbrev main_cst_105 : Ref sig .tc := ⟨.hbm, 562, rfl⟩
abbrev main_v449 : Ref sig .tc := ⟨.hbm, 563, rfl⟩
abbrev main_v450 : Ref sig .tc := ⟨.hbm, 564, rfl⟩
abbrev main_call0_v0 : Ref sig .tc := ⟨.hbm, 565, rfl⟩
abbrev main_call0_cst : Ref sig .tc := ⟨.hbm, 566, rfl⟩
abbrev main_call0_v1 : Ref sig .tc := ⟨.hbm, 567, rfl⟩
abbrev main_v451 : Ref sig .tc := ⟨.hbm, 568, rfl⟩
abbrev main_call1_v0 : Ref sig .tc := ⟨.hbm, 569, rfl⟩
abbrev main_call1_cst : Ref sig .tc := ⟨.hbm, 570, rfl⟩
abbrev main_call1_v1 : Ref sig .tc := ⟨.hbm, 571, rfl⟩
abbrev main_v452 : Ref sig .tc := ⟨.hbm, 572, rfl⟩
abbrev main_v453 : Ref sig .tc := ⟨.hbm, 573, rfl⟩
abbrev main_cst_106 : Ref sig .tc := ⟨.hbm, 574, rfl⟩
abbrev main_v454 : Ref sig .tc := ⟨.hbm, 575, rfl⟩
abbrev main_cst_107 : Ref sig .tc := ⟨.hbm, 576, rfl⟩
abbrev main_v455 : Ref sig .tc := ⟨.hbm, 577, rfl⟩
abbrev main_v456 : Ref sig .tc := ⟨.hbm, 578, rfl⟩

abbrev nD : Nat := 1
abbrev τ : Topo := Topo.v7x

variable {F : FTy → Type} [FloatOps F]

class Facts₀ : Prop where
  concatenates_S60001x64_S40001x64_S100002x64_d0 : Shape.Concatenates [S60001x64, S40001x64] S100002x64 0
  shapeCasts_S3x600000_S1800000 : S3x600000.ShapeCasts S1800000
  bcast_S_S1800000 : S_.BroadcastsInDim S1800000 (![] : Fin 0 → Fin S1800000.rank)
  concatenates_S1800000_S1800000_S3600000_d0 : Shape.Concatenates [S1800000, S1800000] S3600000 0
  bcast_S_S3600000 : S_.BroadcastsInDim S3600000 (![] : Fin 0 → Fin S3600000.rank)
  bcast_S_S100002 : S_.BroadcastsInDim S100002 (![] : Fin 0 → Fin S100002.rank)
  bcast_S3600000_S3600000x1_0 : S3600000.BroadcastsInDim S3600000x1 (![0] : Fin 1 → Fin S3600000x1.rank)
  bcast_S3600000x1_S3600000x64_0_1 : S3600000x1.BroadcastsInDim S3600000x64 (![0, 1] : Fin 2 → Fin S3600000x64.rank)
  bcast_S_S100002x64 : S_.BroadcastsInDim S100002x64 (![] : Fin 0 → Fin S100002x64.rank)
  slices_S3x600000_S1x600000_0_0 : S3x600000.Slices ![0, 0] S1x600000
  shapeCasts_S1x600000_S600000 : S1x600000.ShapeCasts S600000
  bcast_S_S600000 : S_.BroadcastsInDim S600000 (![] : Fin 0 → Fin S600000.rank)
  concatenates_S600000_S600000_S1200000_d0 : Shape.Concatenates [S600000, S600000] S1200000 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S100002x64_S60001x64_0_0 : S100002x64.Slices ![0, 0] S60001x64
  slices_S100002x64_S40001x64_60001_0 : S100002x64.Slices ![60001, 0] S40001x64
  slices_S3x600000_S1x600000_1_0 : S3x600000.Slices ![1, 0] S1x600000
  slices_S3x600000_S1x600000_2_0 : S3x600000.Slices ![2, 0] S1x600000
  bcast_S60001x64_S60001x1x64_0_2 : S60001x64.BroadcastsInDim S60001x1x64 (![0, 2] : Fin 2 → Fin S60001x1x64.rank)
  concatenates_S60001x1x64_S60001x1x64_S60001x1x64_S60001x3x64_d1 : Shape.Concatenates [S60001x1x64, S60001x1x64, S60001x1x64] S60001x3x64 1
  bcast_S40001x64_S40001x1x64_0_2 : S40001x64.BroadcastsInDim S40001x1x64 (![0, 2] : Fin 2 → Fin S40001x1x64.rank)
  concatenates_S40001x1x64_S40001x1x64_S40001x1x64_S40001x3x64_d1 : Shape.Concatenates [S40001x1x64, S40001x1x64, S40001x1x64] S40001x3x64 1
  slices_S60001x3x3_S60001x1x3_0_2_0 : S60001x3x3.Slices ![0, 2, 0] S60001x1x3
  slices_S60001x3x3_S60001x2x3_0_0_0 : S60001x3x3.Slices ![0, 0, 0] S60001x2x3
  bcast_S60001x1x3_S60001x2x3_0_1_2 : S60001x1x3.BroadcastsInDim S60001x2x3 (![0, 1, 2] : Fin 3 → Fin S60001x2x3.rank)
  bcast_S_S60001x1x3 : S_.BroadcastsInDim S60001x1x3 (![] : Fin 0 → Fin S60001x1x3.rank)
  reducesTo_S60001x2x3_S60001x3_d1 : S60001x2x3.ReducesTo [1] S60001x3
  h_S_ : 0 < S_.numel
  bcast_S60001x3_S60001x1x3_0_2 : S60001x3.BroadcastsInDim S60001x1x3 (![0, 2] : Fin 2 → Fin S60001x1x3.rank)
  concatenates_S60001x2x3_S60001x1x3_S60001x3x3_d1 : Shape.Concatenates [S60001x2x3, S60001x1x3] S60001x3x3 1
  bcast_S_S60001x3x3 : S_.BroadcastsInDim S60001x3x3 (![] : Fin 0 → Fin S60001x3x3.rank)
  reducesTo_S60001x3x3_S60001x3_d2 : S60001x3x3.ReducesTo [2] S60001x3
  bcast_S_S60001x3 : S_.BroadcastsInDim S60001x3 (![] : Fin 0 → Fin S60001x3.rank)
  bcast_S60001x3_S60001x3x1_0_1 : S60001x3.BroadcastsInDim S60001x3x1 (![0, 1] : Fin 2 → Fin S60001x3x1.rank)
  bcast_S60001x3x1_S60001x3x3_0_1_2 : S60001x3x1.BroadcastsInDim S60001x3x3 (![0, 1, 2] : Fin 3 → Fin S60001x3x3.rank)
  bcast_S_S40001 : S_.BroadcastsInDim S40001 (![] : Fin 0 → Fin S40001.rank)
  bcast_S600000_S600000x1_0 : S600000.BroadcastsInDim S600000x1 (![0] : Fin 1 → Fin S600000x1.rank)
  bcast_S40001_S40001x1_0 : S40001.BroadcastsInDim S40001x1 (![0] : Fin 1 → Fin S40001x1.rank)
  concatenates_S40001x1_S40001x1_S40001x1_S40001x3_d1 : Shape.Concatenates [S40001x1, S40001x1, S40001x1] S40001x3 1
  bcast_S3_S1x3_1 : S3.BroadcastsInDim S1x3 (![1] : Fin 1 → Fin S1x3.rank)
  bcast_S1x3_S40001x3_0_1 : S1x3.BroadcastsInDim S40001x3 (![0, 1] : Fin 2 → Fin S40001x3.rank)
  reducesTo_S40001x3_S40001_d1 : S40001x3.ReducesTo [1] S40001
  bcast_S_S40001x1 : S_.BroadcastsInDim S40001x1 (![] : Fin 0 → Fin S40001x1.rank)
  bcast_S40001x1_S40001x3_0_1 : S40001x1.BroadcastsInDim S40001x3 (![0, 1] : Fin 2 → Fin S40001x3.rank)
  bcast_S40001x3_S40001x3x1_0_1 : S40001x3.BroadcastsInDim S40001x3x1 (![0, 1] : Fin 2 → Fin S40001x3x1.rank)
  bcast_S40001x3x1_S40001x3x64_0_1_2 : S40001x3x1.BroadcastsInDim S40001x3x64 (![0, 1, 2] : Fin 3 → Fin S40001x3x64.rank)
  reducesTo_S40001x3x64_S40001x64_d1 : S40001x3x64.ReducesTo [1] S40001x64
  slices_S2048x3x3_S2048x1x1_0_0_0 : S2048x3x3.Slices ![0, 0, 0] S2048x1x1
  shapeCasts_S2048x1x1_S2048 : S2048x1x1.ShapeCasts S2048
  slices_S2048x3x3_S2048x1x2_0_0_1 : S2048x3x3.Slices ![0, 0, 1] S2048x1x2
  shapeCasts_S2048x1x2_S2048x2 : S2048x1x2.ShapeCasts S2048x2
  slices_S60001x3x64_S60001x1x64_0_0_0 : S60001x3x64.Slices ![0, 0, 0] S60001x1x64
  shapeCasts_S60001x1x64_S60001x64 : S60001x1x64.ShapeCasts S60001x64
  bcast_S_S2048 : S_.BroadcastsInDim S2048 (![] : Fin 0 → Fin S2048.rank)
  bcast_S2048_S2048x1_0 : S2048.BroadcastsInDim S2048x1 (![0] : Fin 1 → Fin S2048x1.rank)
  bcast_S2048x64_S2048x1x64_0_2 : S2048x64.BroadcastsInDim S2048x1x64 (![0, 2] : Fin 2 → Fin S2048x1x64.rank)
  bcast_S_S2048x2 : S_.BroadcastsInDim S2048x2 (![] : Fin 0 → Fin S2048x2.rank)
  bcast_S2048x2_S2048x2x1_0_1 : S2048x2.BroadcastsInDim S2048x2x1 (![0, 1] : Fin 2 → Fin S2048x2x1.rank)
  bcast_S2048x1x64_S2048x2x64_0_1_2 : S2048x1x64.BroadcastsInDim S2048x2x64 (![0, 1, 2] : Fin 3 → Fin S2048x2x64.rank)
  reducesTo_S2048x2x64_S2048x2_d2 : S2048x2x64.ReducesTo [2] S2048x2
  slices_S2048x2_S2048x1_0_0 : S2048x2.Slices ![0, 0] S2048x1
  shapeCasts_S2048x1_S2048 : S2048x1.ShapeCasts S2048
  slices_S2048x2_S2048x1_0_1 : S2048x2.Slices ![0, 1] S2048x1
  reducesTo_S2048_S_d0 : S2048.ReducesTo [0] S_
  slices_S2048x3x3_S2048x1x1_0_1_0 : S2048x3x3.Slices ![0, 1, 0] S2048x1x1
  slices_S2048x3x3_S2048x1x2_0_1_1 : S2048x3x3.Slices ![0, 1, 1] S2048x1x2
  slices_S60001x3x64_S60001x1x64_0_1_0 : S60001x3x64.Slices ![0, 1, 0] S60001x1x64
  slices_S2048x3x3_S2048x1x1_0_2_0 : S2048x3x3.Slices ![0, 2, 0] S2048x1x1
  slices_S2048x3x3_S2048x1x2_0_2_1 : S2048x3x3.Slices ![0, 2, 1] S2048x1x2
  slices_S60001x3x64_S60001x1x64_0_2_0 : S60001x3x64.Slices ![0, 2, 0] S60001x1x64
  reducesTo_S60001x64_S_d0_1 : S60001x64.ReducesTo [0, 1] S_
  reducesTo_S40001x64_S_d0_1 : S40001x64.ReducesTo [0, 1] S_
  scatter_S100002_S3600000x1_S3600000_n_0_0_1_wf : ScatterDims.WF S100002 S3600000x1 S3600000 [] [0] [0] 1
  gather_S100002_S3600000x1_S3600000_n_0_n_n_0_1_1_wf : GatherDims.WF S100002 S3600000x1 S3600000 [] [0] [] [0] [] 1 ![1]
  gather_S100002x64_S3600000x1_S3600000x64_1_0_n_n_0_1_164_wf : GatherDims.WF S100002x64 S3600000x1 S3600000x64 [1] [0] [] [0] [] 1 ![1, 64]
  scatter_S100002x64_S3600000x1_S3600000x64_1_0_0_1_wf : ScatterDims.WF S100002x64 S3600000x1 S3600000x64 [1] [0] [0] 1
  scatter_S100002_S1200000x1_S1200000_n_0_0_1_wf : ScatterDims.WF S100002 S1200000x1 S1200000 [] [0] [0] 1
  gather_S100002_S1200000x1_S1200000_n_0_n_n_0_1_1_wf : GatherDims.WF S100002 S1200000x1 S1200000 [] [0] [] [0] [] 1 ![1]
  gather_S100002x64_S1200000x1_S1200000x64_1_0_n_n_0_1_164_wf : GatherDims.WF S100002x64 S1200000x1 S1200000x64 [1] [0] [] [0] [] 1 ![1, 64]
  scatter_S100002x64_S1200000x1_S1200000x64_1_0_0_1_wf : ScatterDims.WF S100002x64 S1200000x1 S1200000x64 [1] [0] [0] 1
  dot_S60001x3x64_S60001x3x64_S60001x3x3_2_2_1_1_0_0_wf : DotDims.WF S60001x3x64 S60001x3x64 S60001x3x3 [2] [2] [1] [1] [0] [0]
  dot_S60001x3x3_S60001x3x64_S60001x3x64_2_1_1_2_0_0_wf : DotDims.WF S60001x3x3 S60001x3x64 S60001x3x64 [2] [1] [1] [2] [0] [0]
  scatter_S40001_S600000x1_S600000_n_0_0_1_wf : ScatterDims.WF S40001 S600000x1 S600000 [] [0] [0] 1
  gather_S60001x64_S2048x1_S2048x64_1_0_n_n_0_1_164_wf : GatherDims.WF S60001x64 S2048x1 S2048x64 [1] [0] [] [0] [] 1 ![1, 64]
  gather_S40001x64_S2048x2x1_S2048x2x64_2_0_n_n_0_2_164_wf : GatherDims.WF S40001x64 S2048x2x1 S2048x2x64 [2] [0] [] [0] [] 2 ![1, 64]

variable [Facts₀]

def scatter_S100002_S3600000x1_S3600000_n_0_0_1 : ScatterDims S100002 S3600000x1 S3600000 where
  updateWindowDims := []
  insertedWindowDims := [0]
  scatterDimsToOperandDims := [0]
  indexVectorDim := 1
  wf := scatter_S100002_S3600000x1_S3600000_n_0_0_1_wf
def gather_S100002_S3600000x1_S3600000_n_0_n_n_0_1_1 : GatherDims S100002 S3600000x1 S3600000 where
  offsetDims := []
  collapsedSliceDims := [0]
  operandBatchingDims := []
  startIndicesBatchingDims := []
  startIndexMap := [0]
  indexVectorDim := 1
  sliceSizes := ![1]
  wf := gather_S100002_S3600000x1_S3600000_n_0_n_n_0_1_1_wf
def gather_S100002x64_S3600000x1_S3600000x64_1_0_n_n_0_1_164 : GatherDims S100002x64 S3600000x1 S3600000x64 where
  offsetDims := [1]
  collapsedSliceDims := [0]
  operandBatchingDims := []
  startIndicesBatchingDims := []
  startIndexMap := [0]
  indexVectorDim := 1
  sliceSizes := ![1, 64]
  wf := gather_S100002x64_S3600000x1_S3600000x64_1_0_n_n_0_1_164_wf
def scatter_S100002x64_S3600000x1_S3600000x64_1_0_0_1 : ScatterDims S100002x64 S3600000x1 S3600000x64 where
  updateWindowDims := [1]
  insertedWindowDims := [0]
  scatterDimsToOperandDims := [0]
  indexVectorDim := 1
  wf := scatter_S100002x64_S3600000x1_S3600000x64_1_0_0_1_wf
def scatter_S100002_S1200000x1_S1200000_n_0_0_1 : ScatterDims S100002 S1200000x1 S1200000 where
  updateWindowDims := []
  insertedWindowDims := [0]
  scatterDimsToOperandDims := [0]
  indexVectorDim := 1
  wf := scatter_S100002_S1200000x1_S1200000_n_0_0_1_wf
def gather_S100002_S1200000x1_S1200000_n_0_n_n_0_1_1 : GatherDims S100002 S1200000x1 S1200000 where
  offsetDims := []
  collapsedSliceDims := [0]
  operandBatchingDims := []
  startIndicesBatchingDims := []
  startIndexMap := [0]
  indexVectorDim := 1
  sliceSizes := ![1]
  wf := gather_S100002_S1200000x1_S1200000_n_0_n_n_0_1_1_wf
def gather_S100002x64_S1200000x1_S1200000x64_1_0_n_n_0_1_164 : GatherDims S100002x64 S1200000x1 S1200000x64 where
  offsetDims := [1]
  collapsedSliceDims := [0]
  operandBatchingDims := []
  startIndicesBatchingDims := []
  startIndexMap := [0]
  indexVectorDim := 1
  sliceSizes := ![1, 64]
  wf := gather_S100002x64_S1200000x1_S1200000x64_1_0_n_n_0_1_164_wf
def scatter_S100002x64_S1200000x1_S1200000x64_1_0_0_1 : ScatterDims S100002x64 S1200000x1 S1200000x64 where
  updateWindowDims := [1]
  insertedWindowDims := [0]
  scatterDimsToOperandDims := [0]
  indexVectorDim := 1
  wf := scatter_S100002x64_S1200000x1_S1200000x64_1_0_0_1_wf
def dot_S60001x3x64_S60001x3x64_S60001x3x3_2_2_1_1_0_0 : DotDims S60001x3x64 S60001x3x64 S60001x3x3 where
  lhsContracting := [2]
  rhsContracting := [2]
  lhsNonContracting := [1]
  rhsNonContracting := [1]
  lhsBatch := [0]
  rhsBatch := [0]
  wf := dot_S60001x3x64_S60001x3x64_S60001x3x3_2_2_1_1_0_0_wf
def dot_S60001x3x3_S60001x3x64_S60001x3x64_2_1_1_2_0_0 : DotDims S60001x3x3 S60001x3x64 S60001x3x64 where
  lhsContracting := [2]
  rhsContracting := [1]
  lhsNonContracting := [1]
  rhsNonContracting := [2]
  lhsBatch := [0]
  rhsBatch := [0]
  wf := dot_S60001x3x3_S60001x3x64_S60001x3x64_2_1_1_2_0_0_wf
def scatter_S40001_S600000x1_S600000_n_0_0_1 : ScatterDims S40001 S600000x1 S600000 where
  updateWindowDims := []
  insertedWindowDims := [0]
  scatterDimsToOperandDims := [0]
  indexVectorDim := 1
  wf := scatter_S40001_S600000x1_S600000_n_0_0_1_wf
def gather_S60001x64_S2048x1_S2048x64_1_0_n_n_0_1_164 : GatherDims S60001x64 S2048x1 S2048x64 where
  offsetDims := [1]
  collapsedSliceDims := [0]
  operandBatchingDims := []
  startIndicesBatchingDims := []
  startIndexMap := [0]
  indexVectorDim := 1
  sliceSizes := ![1, 64]
  wf := gather_S60001x64_S2048x1_S2048x64_1_0_n_n_0_1_164_wf
def gather_S40001x64_S2048x2x1_S2048x2x64_2_0_n_n_0_2_164 : GatherDims S40001x64 S2048x2x1 S2048x2x64 where
  offsetDims := [2]
  collapsedSliceDims := [0]
  operandBatchingDims := []
  startIndicesBatchingDims := []
  startIndexMap := [0]
  indexVectorDim := 2
  sliceSizes := ![1, 64]
  wf := gather_S40001x64_S2048x2x1_S2048x2x64_2_0_n_n_0_2_164_wf

class Facts : Prop extends Facts₀ where

variable [Facts]
-- ==== Proof.KPay.lean ====
/-
  What each kernel body stores into its output block, as ONE function of the blocks it loads.

  The attention body reads the 1024 x 192 block once, computes the three 64-wide behaviour slices, the nine lane
  sums of their pairwise products, the cleared scores and their softmax weights (the printed program cuts this
  into three parts that hand their values on), and stores the concatenation of the three fused slices; the value
  stored is therefore a function of the loaded block alone, written out here by threading the parts' results in the
  order the body passes them. The item body stores the weighted sum of the three slices of its first block by the
  three columns of its second.
-/
import proofs.«412432_j74655121539772_3_alg».proof.Proof.Gen.KernelIdeal.Skeleton

noncomputable section

namespace Cert.KernelIdeal.Body

open Cert.KernelIdeal Cert.KernelIdeal.Gen Idealize.ShloMosaic

variable {F : FTy → Type} [FloatOps F]

/-- The attention body's stored block from the loaded block `v0`. -/
def attStore (v0 : Vec F S1024x192 .f32) : FVec F S1024x192 .f32 :=
  k0_pay1 (k0_pay3 v0) (k0_pay4 v0) (k0_pay5 v0)
    (k0_pay30 (k0_pay3 v0) (k0_pay4 v0) (k0_pay5 v0)
      (k0_pay26 (k0_pay11 v0) (k0_pay12 v0) (k0_pay13 v0) (k0_pay14 v0))
      (k0_pay27 (k0_pay11 v0) (k0_pay12 v0) (k0_pay13 v0) (k0_pay14 v0))
      (k0_pay28 (k0_pay11 v0) (k0_pay12 v0) (k0_pay13 v0) (k0_pay14 v0))
      (k0_pay29 (k0_pay11 v0) (k0_pay12 v0) (k0_pay13 v0) (k0_pay14 v0)))
    (k0_pay31 (k0_pay3 v0) (k0_pay4 v0) (k0_pay5 v0)
      (k0_pay16 (k0_pay6 v0) (k0_pay9 v0)) (k0_pay17 (k0_pay7 v0) (k0_pay10 v0)) (k0_pay18 (k0_pay8 v0) (k0_pay11 v0)))
    (k0_pay36 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay37 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay38 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay39 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))

/-- The item body's stored block from the loaded item block `v0` and weight block `v2`. -/
def iwStore (v0 : Vec F S1024x192 .f32) (v2 : Vec F S1024x3 .f32) : FVec F S1024x64 .f32 := k1_pay1 v0 v2

end Cert.KernelIdeal.Body

end
-- ==== Proof.KRun.lean ====
/-
  The run of the program's @main: host operations, the attention region, host operations, the item-weighting
  region, host operations to the scalar result.

  Each region is a pipeline over a grid of row blocks (6 blocks of 1024 user rows; 12 blocks of 1024 item rows):
  at a grid point the body loads its input blocks whole, computes, and stores its output block whole, so after the
  body the output's staging buffer holds one function of the input blocks (`out0`, `out1`: the single store as a
  piece covering the block). Between the regions the host operations act on the device's buffers as a fold
  (`StableHlo.after`); a region replaces its arrays by what its write-backs leave and keeps every other buffer.
  The buffer contents at the eight segment boundaries are named `W0` … `W8`; the run ends with EVERY unscoped buffer
  at `W8`, which gives both the frame (no segment writes an argument) and the value of the result buffer.
-/
import proofs.«412432_j74655121539772_3_alg».proof.Proof.Gen.KernelIdeal.Launch
import proofs.«412432_j74655121539772_3_alg».proof.Proof.Gen.KernelIdeal.Skeleton
import proofs.«412432_j74655121539772_3_alg».proof.Proof.Gen.KernelIdeal.Points
import proofs.«412432_j74655121539772_3_alg».proof.Proof.KPay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

-- the device's buffer contents when a region is entered
variable (V : (c : Dev nD) → (b : Ref sig .tc) → Buf (Elt F) ((c : Thread nD τ).loc b))

/-! # The attention region -/

/-- Window `w`'s block of rows at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 192 block as a rectangle: what the body loads and what it stores. -/
abbrev r0 : Rect S1024x192 := Rect.unit (s := S1024x192) ![0, 0] S1024x192.size inb_S1024x192_S1024x192_0_0

/-- The output's staging buffer after the body: its one store, of the fused block. -/
def out0 (x0 : Vec F S1024x192 .f32) : Vec F S1024x192 .f32 :=
  View.canon [⟨r0, attStore (View.ld x0 r0)⟩]

theorem cover0 (p0 : Vec F S1024x192 .f32) (y : S1024x192.Idx) :
    ∃ pc ∈ ([⟨r0, p0⟩] : List (View.Piece (Elt F) S1024x192 .f32)), y ∈ pc.1.set :=
  View.cover_of_tiled [⟨r0, p0⟩] S1024x192.size (by rfl) y

set_option maxHeartbeats 4000000 in
/-- The attention body on whole staging memrefs: the input's block is read and kept, the output's buffer ends at `out0`. -/
theorem sound_kernel0 (c : Dev nD) (E : Set ℕ) (i : grid0.Coords) (arg0 : Memref sig .tc .vmem S1024x192 .f32) (harg0 : arg0.IsWhole)
    (arg1 : Memref sig .tc .vmem S1024x192 .f32) (harg1 : arg1.IsWhole)
    (x0 : Vec F S1024x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0 x0)) -∗ K ⟨⟩))
      ⊢ wp frame (wpE (defs₀ (F := F)) Variants.none c none) E (cc0__attention_kernel i arg0 harg0 arg1 harg1) K := by
  simp only [cc0__attention_kernel_eq_skeleton]; unfold cc0__attention_kernel_skel
  simp only [k0_part1_eq_skeleton, k0_part2_eq_skeleton, k0_part3_eq_skeleton]
  unfold k0_part1_skel k0_part2_skel k0_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-! # The item-weighting region -/

/-- Window `w`'s block of rows at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 x 3 weight block and the whole 1024 x 64 output block as rectangles. -/
abbrev r1w : Rect S1024x3 := Rect.unit (s := S1024x3) ![0, 0] S1024x3.size inb_S1024x3_S1024x3_0_0
abbrev r1o : Rect S1024x64 := Rect.unit (s := S1024x64) ![0, 0] S1024x64.size inb_S1024x64_S1024x64_0_0

/-- The output's staging buffer after the body: its one store, of the weighted sum. -/
def out1 (x0 : Vec F S1024x192 .f32) (x1 : Vec F S1024x3 .f32) : Vec F S1024x64 .f32 :=
  View.canon [⟨r1o, iwStore (View.ld x0 r0) (View.ld x1 r1w)⟩]

theorem cover1 (p0 : Vec F S1024x64 .f32) (y : S1024x64.Idx) :
    ∃ pc ∈ ([⟨r1o, p0⟩] : List (View.Piece (Elt F) S1024x64 .f32)), y ∈ pc.1.set :=
  View.cover_of_tiled [⟨r1o, p0⟩] S1024x64.size (by rfl) y

set_option maxHeartbeats 4000000 in
/-- The item body on whole staging memrefs: both inputs' blocks are read and kept, the output's buffer ends at `out1`. -/
theorem sound_kernel1 (c : Dev nD) (E : Set ℕ) (i : grid1.Coords) (arg0 : Memref sig .tc .vmem S1024x192 .f32) (harg0 : arg0.IsWhole)
    (arg1 : Memref sig .tc .vmem S1024x3 .f32) (harg1 : arg1.IsWhole) (arg2 : Memref sig .tc .vmem S1024x64 .f32) (harg2 : arg2.IsWhole)
    (x0 : Vec F S1024x192 .f32) (x1 : Vec F S1024x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1 x0 x1)) -∗ K ⟨⟩))
      ⊢ wp frame (wpE (defs₀ (F := F)) Variants.none c none) E (cc1__item_weight_kernel i arg0 harg0 arg1 harg1 arg2 harg2) K := by
  simp only [cc1__item_weight_kernel_eq_skeleton]; unfold cc1__item_weight_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! # The regions' proof data and body obligations -/

/-- The attention pipeline on core `c`: the arrays as found; after the body the input's buffer at its block and the
    output's at `out0` of it; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-- The item pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

/-! # The run: @main's eight segments from the launch to the return

## The buffer contents at each segment boundary -/

/-- Core `c`'s buffers at launch. -/
abbrev W0 : Dev nD → Valuation τ sig (Elt F) := fun c b => (s₀ m ρ).mem ((c : Dev nD), b)
/-- After the first host stretch (the attention region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the attention region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the item region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the item region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the loss's host operations, the two norm calls, and the closing six operations. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)

/-! ## The proof data family and the thread state -/

abbrev adm : (p : Fin 2) → (pcfgs (F := F) p).Adm := fun p => (cfgs p).toPCfg_adm
/-- Every pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 1000000 in
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The attention region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The item region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main terminates, nothing faulting, and the final
    memory holds every unscoped buffer of every core at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Run

end
-- ==== Proof.KArgs.lean ====
/-
  No segment of @main writes an argument array: a host operation writes only its own result buffer, which is never an
  argument, and each region's arrays are host results, not arguments. So the contents at the last boundary, read at an
  argument, walk back through the eight segments to the launch memory.
-/
import proofs.«412432_j74655121539772_3_alg».proof.Proof.KRun

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-- The six argument arrays. -/
def IsArg (b : Ref sig .tc) : Prop := b = main_arg0 ∨ b = main_arg1 ∨ b = main_arg2 ∨ b = main_arg3 ∨ b = main_arg4 ∨ b = main_arg5

set_option maxHeartbeats 16000000 in
/-- No operation of `hostOps0` writes an argument. -/
theorem hostOps0_keeps (b : Ref sig .tc) (hb : IsArg b) :
    (hostOps0 : List (HloOp τ sig (Elt F))).Forall fun op => Proc.devRef .tc b ∉ op.writes := by
  rcases hb with rfl | rfl | rfl | rfl | rfl | rfl <;>
  · simp only [hostOps0, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps1` writes an argument. -/
theorem hostOps1_keeps (b : Ref sig .tc) (hb : IsArg b) :
    (hostOps1 : List (HloOp τ sig (Elt F))).Forall fun op => Proc.devRef .tc b ∉ op.writes := by
  rcases hb with rfl | rfl | rfl | rfl | rfl | rfl <;>
  · simp only [hostOps1, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2` writes an argument. -/
theorem hostOps2_keeps (b : Ref sig .tc) (hb : IsArg b) :
    (hostOps2 : List (HloOp τ sig (Elt F))).Forall fun op => Proc.devRef .tc b ∉ op.writes := by
  rcases hb with rfl | rfl | rfl | rfl | rfl | rfl <;>
  · simp only [hostOps2, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_1` writes an argument. -/
theorem hostOps2_1_keeps (b : Ref sig .tc) (hb : IsArg b) :
    (hostOps2_1 : List (HloOp τ sig (Elt F))).Forall fun op => Proc.devRef .tc b ∉ op.writes := by
  rcases hb with rfl | rfl | rfl | rfl | rfl | rfl <;>
  · simp only [hostOps2_1, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_2` writes an argument. -/
theorem hostOps2_2_keeps (b : Ref sig .tc) (hb : IsArg b) :
    (hostOps2_2 : List (HloOp τ sig (Elt F))).Forall fun op => Proc.devRef .tc b ∉ op.writes := by
  rcases hb with rfl | rfl | rfl | rfl | rfl | rfl <;>
  · simp only [hostOps2_2, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_3` writes an argument. -/
theorem hostOps2_3_keeps (b : Ref sig .tc) (hb : IsArg b) :
    (hostOps2_3 : List (HloOp τ sig (Elt F))).Forall fun op => Proc.devRef .tc b ∉ op.writes := by
  rcases hb with rfl | rfl | rfl | rfl | rfl | rfl <;>
  · simp only [hostOps2_3, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

variable (m : (ℓ : Loc nD τ sig) → Buf (Elt F) ℓ) (ρ : Dev nD → PrngReg)

/-- The last boundary's contents at an argument are the launch memory's. -/
theorem W8_arg (c : Dev nD) (b : Ref sig .tc) (hb : IsArg b) : W8 m ρ c (Proc.devRef .tc b) = m ((c : Thread nD τ).loc b) :=
  calc W8 m ρ c (Proc.devRef .tc b)
    _ = W7 m ρ c (Proc.devRef .tc b) := StableHlo.after_of_forall_not_mem (b := Proc.devRef .tc b) _ _ (List.forall_iff_forall_mem.mp (hostOps2_3_keeps b hb))
    _ = W6 m ρ c (Proc.devRef .tc b) := StableHlo.after_of_forall_not_mem (b := Proc.devRef .tc b) _ _ (List.forall_iff_forall_mem.mp (hostOps2_2_keeps b hb))
    _ = W5 m ρ c (Proc.devRef .tc b) := StableHlo.after_of_forall_not_mem (b := Proc.devRef .tc b) _ _ (List.forall_iff_forall_mem.mp (hostOps2_1_keeps b hb))
    _ = W4 m ρ c (Proc.devRef .tc b) := StableHlo.after_of_forall_not_mem (b := Proc.devRef .tc b) _ _ (List.forall_iff_forall_mem.mp (hostOps2_keeps b hb))
    _ = W3 m ρ c (Proc.devRef .tc b) := W4_of_ne m ρ c b (by rcases hb with rfl | rfl | rfl | rfl | rfl | rfl <;> decide)
    _ = W2 m ρ c (Proc.devRef .tc b) := StableHlo.after_of_forall_not_mem (b := Proc.devRef .tc b) _ _ (List.forall_iff_forall_mem.mp (hostOps1_keeps b hb))
    _ = W1 m ρ c (Proc.devRef .tc b) := W2_of_ne m ρ c b (by rcases hb with rfl | rfl | rfl | rfl | rfl | rfl <;> decide)
    _ = W0 m ρ c (Proc.devRef .tc b) := StableHlo.after_of_forall_not_mem (b := Proc.devRef .tc b) _ _ (List.forall_iff_forall_mem.mp (hostOps0_keeps b hb))
    _ = m ((c : Thread nD τ).loc b) := rfl

end Cert.KernelIdeal.Run

end
-- ==== Proof.KPayBits.lean ====
/-
  What each kernel body stores into its output block, as ONE function of the blocks it loads.

  The attention body reads the 1024 x 192 block once, computes the three 64-wide behaviour slices, the nine lane
  sums of their pairwise products, the cleared scores and their softmax weights (the printed program cuts this
  into three parts that hand their values on), and stores the concatenation of the three fused slices; the value
  stored is therefore a function of the loaded block alone, written out here by threading the parts' results in the
  order the body passes them. The item body stores the weighted sum of the three slices of its first block by the
  three columns of its second.
-/
import proofs.«412432_j74655121539772_3_alg».proof.Proof.Gen.Kernel.Skeleton

noncomputable section

namespace Cert.Kernel.Body

open Cert.Kernel Cert.Kernel.Gen Idealize.ShloMosaic

variable {F : FTy → Type} [FloatOps F]

/-- The attention body's stored block from the loaded block `v0`. -/
def attStore (v0 : Vec F S1024x192 .f32) : FVec F S1024x192 .f32 :=
  k0_pay1 (k0_pay3 v0) (k0_pay4 v0) (k0_pay5 v0)
    (k0_pay30 (k0_pay3 v0) (k0_pay4 v0) (k0_pay5 v0)
      (k0_pay26 (k0_pay11 v0) (k0_pay12 v0) (k0_pay13 v0) (k0_pay14 v0))
      (k0_pay27 (k0_pay11 v0) (k0_pay12 v0) (k0_pay13 v0) (k0_pay14 v0))
      (k0_pay28 (k0_pay11 v0) (k0_pay12 v0) (k0_pay13 v0) (k0_pay14 v0))
      (k0_pay29 (k0_pay11 v0) (k0_pay12 v0) (k0_pay13 v0) (k0_pay14 v0)))
    (k0_pay31 (k0_pay3 v0) (k0_pay4 v0) (k0_pay5 v0)
      (k0_pay16 (k0_pay6 v0) (k0_pay9 v0)) (k0_pay17 (k0_pay7 v0) (k0_pay10 v0)) (k0_pay18 (k0_pay8 v0) (k0_pay11 v0)))
    (k0_pay36 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay37 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay38 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))
    (k0_pay39 (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)))

/-- The item body's stored block from the loaded item block `v0` and weight block `v2`. -/
def iwStore (v0 : Vec F S1024x192 .f32) (v2 : Vec F S1024x3 .f32) : FVec F S1024x64 .f32 := k1_pay1 v0 v2

end Cert.Kernel.Body

end
-- ==== Proof.KRunBits.lean ====
/-
  The run of the program's @main: host operations, the attention region, host operations, the item-weighting
  region, host operations to the scalar result.

  Each region is a pipeline over a grid of row blocks (6 blocks of 1024 user rows; 12 blocks of 1024 item rows):
  at a grid point the body loads its input blocks whole, computes, and stores its output block whole, so after the
  body the output's staging buffer holds one function of the input blocks (`out0`, `out1`: the single store as a
  piece covering the block). Between the regions the host operations act on the device's buffers as a fold
  (`StableHlo.after`); a region replaces its arrays by what its write-backs leave and keeps every other buffer.
  The buffer contents at the eight segment boundaries are named `W0` … `W8`; the run ends with EVERY unscoped buffer
  at `W8`, which gives both the frame (no segment writes an argument) and the value of the result buffer.
-/
import proofs.«412432_j74655121539772_3_alg».proof.Proof.Gen.Kernel.Launch
import proofs.«412432_j74655121539772_3_alg».proof.Proof.Gen.Kernel.Skeleton
import proofs.«412432_j74655121539772_3_alg».proof.Proof.Gen.Kernel.Points
import proofs.«412432_j74655121539772_3_alg».proof.Proof.KPayBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

-- the device's buffer contents when a region is entered
variable (V : (c : Dev nD) → (b : Ref sig .tc) → Buf (Elt F) ((c : Thread nD τ).loc b))

/-! # The attention region -/

/-- Window `w`'s block of rows at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 192 block as a rectangle: what the body loads and what it stores. -/
abbrev r0 : Rect S1024x192 := Rect.unit (s := S1024x192) ![0, 0] S1024x192.size inb_S1024x192_S1024x192_0_0

/-- The output's staging buffer after the body: its one store, of the fused block. -/
def out0 (x0 : Vec F S1024x192 .f32) : Vec F S1024x192 .f32 :=
  View.canon [⟨r0, attStore (View.ld x0 r0)⟩]

theorem cover0 (p0 : Vec F S1024x192 .f32) (y : S1024x192.Idx) :
    ∃ pc ∈ ([⟨r0, p0⟩] : List (View.Piece (Elt F) S1024x192 .f32)), y ∈ pc.1.set :=
  View.cover_of_tiled [⟨r0, p0⟩] S1024x192.size (by rfl) y

set_option maxHeartbeats 4000000 in
/-- The attention body on whole staging memrefs: the input's block is read and kept, the output's buffer ends at `out0`. -/
theorem sound_kernel0 (c : Dev nD) (E : Set ℕ) (i : grid0.Coords) (arg0 : Memref sig .tc .vmem S1024x192 .f32) (harg0 : arg0.IsWhole)
    (arg1 : Memref sig .tc .vmem S1024x192 .f32) (harg1 : arg1.IsWhole)
    (x0 : Vec F S1024x192 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0 x0)) -∗ K ⟨⟩))
      ⊢ wp frame (wpE (defs₀ (F := F)) Variants.none c none) E (cc0__attention_kernel i arg0 harg0 arg1 harg1) K := by
  simp only [cc0__attention_kernel_eq_skeleton]; unfold cc0__attention_kernel_skel
  simp only [k0_part1_eq_skeleton, k0_part2_eq_skeleton, k0_part3_eq_skeleton]
  unfold k0_part1_skel k0_part2_skel k0_part3_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-! # The item-weighting region -/

/-- Window `w`'s block of rows at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 x 3 weight block and the whole 1024 x 64 output block as rectangles. -/
abbrev r1w : Rect S1024x3 := Rect.unit (s := S1024x3) ![0, 0] S1024x3.size inb_S1024x3_S1024x3_0_0
abbrev r1o : Rect S1024x64 := Rect.unit (s := S1024x64) ![0, 0] S1024x64.size inb_S1024x64_S1024x64_0_0

/-- The output's staging buffer after the body: its one store, of the weighted sum. -/
def out1 (x0 : Vec F S1024x192 .f32) (x1 : Vec F S1024x3 .f32) : Vec F S1024x64 .f32 :=
  View.canon [⟨r1o, iwStore (View.ld x0 r0) (View.ld x1 r1w)⟩]

theorem cover1 (p0 : Vec F S1024x64 .f32) (y : S1024x64.Idx) :
    ∃ pc ∈ ([⟨r1o, p0⟩] : List (View.Piece (Elt F) S1024x64 .f32)), y ∈ pc.1.set :=
  View.cover_of_tiled [⟨r1o, p0⟩] S1024x64.size (by rfl) y

set_option maxHeartbeats 4000000 in
/-- The item body on whole staging memrefs: both inputs' blocks are read and kept, the output's buffer ends at `out1`. -/
theorem sound_kernel1 (c : Dev nD) (E : Set ℕ) (i : grid1.Coords) (arg0 : Memref sig .tc .vmem S1024x192 .f32) (harg0 : arg0.IsWhole)
    (arg1 : Memref sig .tc .vmem S1024x3 .f32) (harg1 : arg1.IsWhole) (arg2 : Memref sig .tc .vmem S1024x64 .f32) (harg2 : arg2.IsWhole)
    (x0 : Vec F S1024x192 .f32) (x1 : Vec F S1024x3 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1 x0 x1)) -∗ K ⟨⟩))
      ⊢ wp frame (wpE (defs₀ (F := F)) Variants.none c none) E (cc1__item_weight_kernel i arg0 harg0 arg1 harg1 arg2 harg2) K := by
  simp only [cc1__item_weight_kernel_eq_skeleton]; unfold cc1__item_weight_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! # The regions' proof data and body obligations -/

/-- The attention pipeline on core `c`: the arrays as found; after the body the input's buffer at its block and the
    output's at `out0` of it; the invariant untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-- The item pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

/-! # The run: @main's eight segments from the launch to the return

## The buffer contents at each segment boundary -/

/-- Core `c`'s buffers at launch. -/
abbrev W0 : Dev nD → Valuation τ sig (Elt F) := fun c b => (s₀ m ρ).mem ((c : Dev nD), b)
/-- After the first host stretch (the attention region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the attention region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the item region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the item region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the loss's host operations, the two norm calls, and the closing six operations. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)

/-! ## The proof data family and the thread state -/

abbrev adm : (p : Fin 2) → (pcfgs (F := F) p).Adm := fun p => (cfgs p).toPCfg_adm
/-- Every pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
set_option maxHeartbeats 1000000 in
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The attention region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The item region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- From any memory with zero counters every weakly fair execution of @main terminates, nothing faulting, and the final
    memory holds every unscoped buffer of every core at the last boundary's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Run

end
-- ==== Proof.KArgsBits.lean ====
/-
  No segment of @main writes an argument array: a host operation writes only its own result buffer, which is never an
  argument, and each region's arrays are host results, not arguments. So the contents at the last boundary, read at an
  argument, walk back through the eight segments to the launch memory.
-/
import proofs.«412432_j74655121539772_3_alg».proof.Proof.KRunBits

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]

/-- The six argument arrays. -/
def IsArg (b : Ref sig .tc) : Prop := b = main_arg0 ∨ b = main_arg1 ∨ b = main_arg2 ∨ b = main_arg3 ∨ b = main_arg4 ∨ b = main_arg5

set_option maxHeartbeats 16000000 in
/-- No operation of `hostOps0` writes an argument. -/
theorem hostOps0_keeps (b : Ref sig .tc) (hb : IsArg b) :
    (hostOps0 : List (HloOp τ sig (Elt F))).Forall fun op => Proc.devRef .tc b ∉ op.writes := by
  rcases hb with rfl | rfl | rfl | rfl | rfl | rfl <;>
  · simp only [hostOps0, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps1` writes an argument. -/
theorem hostOps1_keeps (b : Ref sig .tc) (hb : IsArg b) :
    (hostOps1 : List (HloOp τ sig (Elt F))).Forall fun op => Proc.devRef .tc b ∉ op.writes := by
  rcases hb with rfl | rfl | rfl | rfl | rfl | rfl <;>
  · simp only [hostOps1, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2` writes an argument. -/
theorem hostOps2_keeps (b : Ref sig .tc) (hb : IsArg b) :
    (hostOps2 : List (HloOp τ sig (Elt F))).Forall fun op => Proc.devRef .tc b ∉ op.writes := by
  rcases hb with rfl | rfl | rfl | rfl | rfl | rfl <;>
  · simp only [hostOps2, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_1` writes an argument. -/
theorem hostOps2_1_keeps (b : Ref sig .tc) (hb : IsArg b) :
    (hostOps2_1 : List (HloOp τ sig (Elt F))).Forall fun op => Proc.devRef .tc b ∉ op.writes := by
  rcases hb with rfl | rfl | rfl | rfl | rfl | rfl <;>
  · simp only [hostOps2_1, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_2` writes an argument. -/
theorem hostOps2_2_keeps (b : Ref sig .tc) (hb : IsArg b) :
    (hostOps2_2 : List (HloOp τ sig (Elt F))).Forall fun op => Proc.devRef .tc b ∉ op.writes := by
  rcases hb with rfl | rfl | rfl | rfl | rfl | rfl <;>
  · simp only [hostOps2_2, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

set_option maxHeartbeats 16000000 in
/-- No operation of `hostOps2_3` writes an argument. -/
theorem hostOps2_3_keeps (b : Ref sig .tc) (hb : IsArg b) :
    (hostOps2_3 : List (HloOp τ sig (Elt F))).Forall fun op => Proc.devRef .tc b ∉ op.writes := by
  rcases hb with rfl | rfl | rfl | rfl | rfl | rfl <;>
  · simp only [hostOps2_3, List.Forall, StableHlo.nullary_writes, StableHlo.unary_writes, StableHlo.binary_writes, StableHlo.ternary_writes,
      StableHlo.quaternary_writes, StableHlo.reshape_writes, StableHlo.nary_writes, StableHlo.binaryIndexed_writes, Finset.mem_singleton]
    repeat' apply And.intro
    all_goals exact StableHlo.devRef_ne_of_ne (by decide)

variable (m : (ℓ : Loc nD τ sig) → Buf (Elt F) ℓ) (ρ : Dev nD → PrngReg)

/-- The last boundary's contents at an argument are the launch memory's. -/
theorem W8_arg (c : Dev nD) (b : Ref sig .tc) (hb : IsArg b) : W8 m ρ c (Proc.devRef .tc b) = m ((c : Thread nD τ).loc b) :=
  calc W8 m ρ c (Proc.devRef .tc b)
    _ = W7 m ρ c (Proc.devRef .tc b) := StableHlo.after_of_forall_not_mem (b := Proc.devRef .tc b) _ _ (List.forall_iff_forall_mem.mp (hostOps2_3_keeps b hb))
    _ = W6 m ρ c (Proc.devRef .tc b) := StableHlo.after_of_forall_not_mem (b := Proc.devRef .tc b) _ _ (List.forall_iff_forall_mem.mp (hostOps2_2_keeps b hb))
    _ = W5 m ρ c (Proc.devRef .tc b) := StableHlo.after_of_forall_not_mem (b := Proc.devRef .tc b) _ _ (List.forall_iff_forall_mem.mp (hostOps2_1_keeps b hb))
    _ = W4 m ρ c (Proc.devRef .tc b) := StableHlo.after_of_forall_not_mem (b := Proc.devRef .tc b) _ _ (List.forall_iff_forall_mem.mp (hostOps2_keeps b hb))
    _ = W3 m ρ c (Proc.devRef .tc b) := W4_of_ne m ρ c b (by rcases hb with rfl | rfl | rfl | rfl | rfl | rfl <;> decide)
    _ = W2 m ρ c (Proc.devRef .tc b) := StableHlo.after_of_forall_not_mem (b := Proc.devRef .tc b) _ _ (List.forall_iff_forall_mem.mp (hostOps1_keeps b hb))
    _ = W1 m ρ c (Proc.devRef .tc b) := W2_of_ne m ρ c b (by rcases hb with rfl | rfl | rfl | rfl | rfl | rfl <;> decide)
    _ = W0 m ρ c (Proc.devRef .tc b) := StableHlo.after_of_forall_not_mem (b := Proc.devRef .tc b) _ _ (List.forall_iff_forall_mem.mp (hostOps0_keeps b hb))
    _ = m ((c : Thread nD τ).loc b) := rfl

end Cert.Kernel.Run

end
-- ==== Proof.RefRun.lean ====
import Idealize.ShloMosaic.Lib.Pipeline.Frame
import proofs.«412432_j74655121539772_3_alg».proof.Proof.RefRunC0
import proofs.«412432_j74655121539772_3_alg».proof.Proof.RefRunC1
import proofs.«412432_j74655121539772_3_alg».proof.Proof.RefRunC2
import proofs.«412432_j74655121539772_3_alg».proof.Proof.RefRunC3
import proofs.«412432_j74655121539772_3_alg».proof.Proof.RefRunC4
import proofs.«412432_j74655121539772_3_alg».proof.Proof.RefRunC5
import proofs.«412432_j74655121539772_3_alg».proof.Proof.RefRunC6
import proofs.«412432_j74655121539772_3_alg».proof.Proof.RefRunC7
import proofs.«412432_j74655121539772_3_alg».proof.Proof.RefRunC8
import proofs.«412432_j74655121539772_3_alg».proof.Proof.RefRunC9

/-!
# The reference program's run

`@main` of the reference is a straight line of 573 host operations.  The line is held as 39 consecutive
chunks `opsC0 … opsC38` (at most 45 operations each; a chunk starts before every concatenate, so that a
concatenate reads its operands from the contents the chunk starts from).  Here the chunks are joined:

* `ops` is their concatenation (nested to the right), and `main c = seq ops`: each window `main_partK` of `@main` is the line of
  its own chunks, and two lines run one after the other are their concatenation run as one (`seq_append`);
* `run`: every weakly fair execution of `@main` terminates with every buffer at the fold of `ops` over the
  launch contents (`run_seq`), the side facts (every buffer an operation touches is a TensorCore reference; no
  operation allocates) being the conjunction of the chunks' own;
* `args_keptK`: no operation writes an argument, so the fold leaves it at its launch contents (chunk by chunk,
  `after_append`), and `run_args` states the six arguments unchanged at the end of the run.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 573 operations, in order: the chunks one after the other (nested to the right, so that the head of the
    list is found in the first chunk without looking through the others). -/
abbrev ops : List (HloOp τ sig (Elt F)) :=
  opsC0 ++ (opsC1 ++ (opsC2 ++ (opsC3 ++ (opsC4 ++ (opsC5 ++ (opsC6 ++ (opsC7 ++ (opsC8 ++ (opsC9 ++ (opsC10 ++ (opsC11 ++ (opsC12 ++ (
  opsC13 ++ (opsC14 ++ (opsC15 ++ (opsC16 ++ (opsC17 ++ (opsC18 ++ (opsC19 ++ (opsC20 ++ (opsC21 ++ (opsC22 ++ (opsC23 ++ (opsC24 ++ (
  opsC25 ++ (opsC26 ++ (opsC27 ++ (opsC28 ++ (opsC29 ++ (opsC30 ++ (opsC31 ++ (opsC32 ++ (opsC33 ++ (opsC34 ++ (opsC35 ++ (opsC36 ++ (
  opsC37 ++ (opsC38))))))))))))))))))))))))))))))))))))))

/-- @main runs its ten windows in order; each is the line of its chunks, and lines in a row are one line. -/
theorem main_eq (c : Dev nD) : main (F := F) c = seq ops := by
  unfold main
  simp only [main_part0_eq, main_part1_eq, main_part2_eq, main_part3_eq, main_part4_eq, main_part5_eq, main_part6_eq,
    main_part7_eq, main_part8_eq, main_part9_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every buffer an operation of the line touches is a TensorCore reference: chunk by chunk. -/
theorem ops_sub : (ops : List (HloOp τ sig (Elt F))).Forall fun op => op.bufs ⊆ tcRefs τ sig := by
  simp only [ops, List.forall_append, and_assoc]
  exact ⟨opsC0_sub, opsC1_sub, opsC2_sub, opsC3_sub, opsC4_sub, opsC5_sub, opsC6_sub, opsC7_sub, opsC8_sub, opsC9_sub, opsC10_sub, opsC11_sub, opsC12_sub,
    opsC13_sub, opsC14_sub, opsC15_sub, opsC16_sub, opsC17_sub, opsC18_sub, opsC19_sub, opsC20_sub, opsC21_sub, opsC22_sub, opsC23_sub, opsC24_sub,
    opsC25_sub, opsC26_sub, opsC27_sub, opsC28_sub, opsC29_sub, opsC30_sub, opsC31_sub, opsC32_sub, opsC33_sub, opsC34_sub, opsC35_sub, opsC36_sub,
    opsC37_sub, opsC38_sub⟩

/-- No operation of the line allocates a buffer: chunk by chunk. -/
theorem ops_fresh : (ops : List (HloOp τ sig (Elt F))).Forall fun op => op.fresh = ∅ := by
  simp only [ops, List.forall_append, and_assoc]
  exact ⟨opsC0_fresh, opsC1_fresh, opsC2_fresh, opsC3_fresh, opsC4_fresh, opsC5_fresh, opsC6_fresh, opsC7_fresh, opsC8_fresh, opsC9_fresh, opsC10_fresh,
    opsC11_fresh, opsC12_fresh, opsC13_fresh, opsC14_fresh, opsC15_fresh, opsC16_fresh, opsC17_fresh, opsC18_fresh, opsC19_fresh, opsC20_fresh,
    opsC21_fresh, opsC22_fresh, opsC23_fresh, opsC24_fresh, opsC25_fresh, opsC26_fresh, opsC27_fresh, opsC28_fresh, opsC29_fresh, opsC30_fresh,
    opsC31_fresh, opsC32_fresh, opsC33_fresh, opsC34_fresh, opsC35_fresh, opsC36_fresh, opsC37_fresh, opsC38_fresh⟩

/-- On every device, from any memory with zero counters: every weakly fair execution of @main terminates with every
    buffer at the fold of the operation list from the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ
    (fun _ => List.forall_iff_forall_mem.mp ops_fresh)

/-- No operation writes `%arg0`: it keeps its contents through the whole line. -/
theorem args_kept0 (V : Valuation τ sig (Elt F)) :
    after (ops (F := F)) V (Proc.devRef .tc main_arg0) = V (Proc.devRef .tc main_arg0) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- No operation writes `%arg1`: it keeps its contents through the whole line. -/
theorem args_kept1 (V : Valuation τ sig (Elt F)) :
    after (ops (F := F)) V (Proc.devRef .tc main_arg1) = V (Proc.devRef .tc main_arg1) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- No operation writes `%arg2`: it keeps its contents through the whole line. -/
theorem args_kept2 (V : Valuation τ sig (Elt F)) :
    after (ops (F := F)) V (Proc.devRef .tc main_arg2) = V (Proc.devRef .tc main_arg2) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- No operation writes `%arg3`: it keeps its contents through the whole line. -/
theorem args_kept3 (V : Valuation τ sig (Elt F)) :
    after (ops (F := F)) V (Proc.devRef .tc main_arg3) = V (Proc.devRef .tc main_arg3) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- No operation writes `%arg4`: it keeps its contents through the whole line. -/
theorem args_kept4 (V : Valuation τ sig (Elt F)) :
    after (ops (F := F)) V (Proc.devRef .tc main_arg4) = V (Proc.devRef .tc main_arg4) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- No operation writes `%arg5`: it keeps its contents through the whole line. -/
theorem args_kept5 (V : Valuation τ sig (Elt F)) :
    after (ops (F := F)) V (Proc.devRef .tc main_arg5) = V (Proc.devRef .tc main_arg5) := by
  simp only [ops, StableHlo.after_append]
  rw [opsC38_keep _ _ (by decide), opsC37_keep _ _ (by decide), opsC36_keep _ _ (by decide), opsC35_keep _ _ (by decide), opsC34_keep _ _ (by decide),
    opsC33_keep _ _ (by decide), opsC32_keep _ _ (by decide), opsC31_keep _ _ (by decide), opsC30_keep _ _ (by decide), opsC29_keep _ _ (by decide),
    opsC28_keep _ _ (by decide), opsC27_keep _ _ (by decide), opsC26_keep _ _ (by decide), opsC25_keep _ _ (by decide), opsC24_keep _ _ (by decide),
    opsC23_keep _ _ (by decide), opsC22_keep _ _ (by decide), opsC21_keep _ _ (by decide), opsC20_keep _ _ (by decide), opsC19_keep _ _ (by decide),
    opsC18_keep _ _ (by decide), opsC17_keep _ _ (by decide), opsC16_keep _ _ (by decide), opsC15_keep _ _ (by decide), opsC14_keep _ _ (by decide),
    opsC13_keep _ _ (by decide), opsC12_keep _ _ (by decide), opsC11_keep _ _ (by decide), opsC10_keep _ _ (by decide), opsC9_keep _ _ (by decide),
    opsC8_keep _ _ (by decide), opsC7_keep _ _ (by decide), opsC6_keep _ _ (by decide), opsC5_keep _ _ (by decide), opsC4_keep _ _ (by decide),
    opsC3_keep _ _ (by decide), opsC2_keep _ _ (by decide), opsC1_keep _ _ (by decide), opsC0_keep _ _ (by decide)]

/-- The run ends with the six arguments at their launch contents. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_arg0).trans (args_kept0 _), (h c main_arg1).trans (args_kept1 _), (h c main_arg2).trans (args_kept2 _),
      (h c main_arg3).trans (args_kept3 _), (h c main_arg4).trans (args_kept4 _), (h c main_arg5).trans (args_kept5 _)⟩)
    (run m ρ)

end Cert.ReferenceIdeal.RefRun

end
-- ==== Proof.KTail.lean ====
/-
  The tail of the kernel program's @main: the pairwise ranking loss of the three behaviours and the
  regulariser.

  For behaviour b the program takes the user block uf_b : f32[2048,64] (the diagonal entry (b,b) of the fused
  user table, batch row by batch row) and the item block itf_b : f32[2048,2,64] (the positive and the negative
  item of the batch row), forms the two scores s_j(n) = Σ_d uf_b(n,d) · itf_b(n,j,d), and averages
  log(1e-10 + 1 / (1 + exp(-(s_0(n) - s_1(n))))) over the batch ('lossB'). The running total starts at 0 and
  subtracts the three means ('total'); the regulariser is 0.001 · (‖E_user‖ + ‖E_item‖) / 40001 ('reg'); the
  program's result is their sum ('shell').

  Every definition here is the composition of the operations exactly as the program states them; the theorem
  'kernel_tail' says that running the tail's host operations from any buffer contents leaves 'shell' of the
  sliced blocks in the result buffer, and 'xk_apply' / 'yk_apply' read the blocks at an index.
-/
import proofs.«412432_j74655121539772_3_alg».proof.Proof.Gen.KernelIdeal.Launch
import Idealize.ShloMosaic.Lib.StableHlo.Run
import Idealize.ShloMosaic.Lib.ValueIdx
import Idealize.ShloMosaic.Lib.ValueLayout

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-! ## The loss as a function of the blocks -/

/-- The scores s_j(n) = Σ_d uf(n,d) · itf(n,j,d): the user row broadcast along the pair axis, times the item rows,
    summed over the feature axis. -/
def scores (uf : FVec F S2048x64 .f32) (itf : FVec F S2048x2x64 .f32) : FVec F S2048x2 .f32 :=
  Host.reduceAdd
    (mulf (broadcastInDim S2048x2x64 ![0, 1, 2] bcast_S2048x1x64_S2048x2x64_0_1_2
            (broadcastInDim S2048x1x64 ![0, 2] bcast_S2048x64_S2048x1x64_0_2 uf)) itf)
    (constant S_ .f32 0x00000000#32) reducesTo_S2048x2x64_S2048x2_d2 h_S_

/-- Column j of the score table as a vector over the batch. -/
def col0 (s : FVec F S2048x2 .f32) : FVec F S2048 .f32 :=
  shapeCast S2048 (extractStridedSlice S2048x1 ![0, 0] s slices_S2048x2_S2048x1_0_0) shapeCasts_S2048x1_S2048
@[inherit_doc col0]
def col1 (s : FVec F S2048x2 .f32) : FVec F S2048 .f32 :=
  shapeCast S2048 (extractStridedSlice S2048x1 ![0, 1] s slices_S2048x2_S2048x1_0_1) shapeCasts_S2048x1_S2048

/-- log(1e-10 + 1 / (1 + exp(-x))) entrywise. -/
def logSig (x : FVec F S2048 .f32) : FVec F S2048 .f32 :=
  Host.log
    (addf (broadcastInDim S2048 ![] bcast_S_S2048 (constant S_ .f32 0x2EDBE6FF#32))
      (Host.divf (broadcastInDim S2048 ![] bcast_S_S2048 (constant S_ .f32 0x3F800000#32))
        (addf (broadcastInDim S2048 ![] bcast_S_S2048 (constant S_ .f32 0x3F800000#32))
          (Host.exp (Host.negf x)))))

/-- One behaviour's mean of log σ(s_0 - s_1) over the 2048 batch rows. -/
def lossB (uf : FVec F S2048x64 .f32) (itf : FVec F S2048x2x64 .f32) : FVec F S_ .f32 :=
  Host.divf
    (Host.reduceAdd (logSig (subf (col0 (scores uf itf)) (col1 (scores uf itf))))
      (constant S_ .f32 0x00000000#32) reducesTo_S2048_S_d0 h_S_)
    (constant S_ .f32 0x45000000#32)

/-- The running total: 0 - l0 - l1 - l2. -/
def total (l0 l1 l2 : FVec F S_ .f32) : FVec F S_ .f32 :=
  subf (subf (subf (constant S_ .f32 0x00000000#32) l0) l1) l2

/-- The Euclidean norm of a table: the square root of the sum of its squared entries. -/
def normU (a : FVec F S60001x64 .f32) : FVec F S_ .f32 :=
  Host.sqrt (Host.reduceAdd (mulf a a) (constant S_ .f32 0x00000000#32) reducesTo_S60001x64_S_d0_1 h_S_)
@[inherit_doc normU]
def normI (a : FVec F S40001x64 .f32) : FVec F S_ .f32 :=
  Host.sqrt (Host.reduceAdd (mulf a a) (constant S_ .f32 0x00000000#32) reducesTo_S40001x64_S_d0_1 h_S_)

/-- The regulariser 0.001 · ((‖a0‖ + ‖a1‖) / 40001). -/
def reg (a0 : FVec F S60001x64 .f32) (a1 : FVec F S40001x64 .f32) : FVec F S_ .f32 :=
  mulf (constant S_ .f32 0x3A83126F#32)
    (Host.divf (addf (normU a0) (normI a1)) (constant S_ .f32 0x471C4100#32))

/-- The program's result as a function of the three user blocks, the three item blocks and the two tables. -/
def shell (x0 : FVec F S2048x64 .f32) (y0 : FVec F S2048x2x64 .f32) (x1 : FVec F S2048x64 .f32) (y1 : FVec F S2048x2x64 .f32)
    (x2 : FVec F S2048x64 .f32) (y2 : FVec F S2048x2x64 .f32) (a0 : FVec F S60001x64 .f32) (a1 : FVec F S40001x64 .f32) :
    FVec F S_ .f32 :=
  addf (total (lossB x0 y0) (lossB x1 y1) (lossB x2 y2)) (reg a0 a1)

/-! ## The blocks the program slices -/

/-- The (b,b) entry of the fused user table, row by row, for b = 0, 1, 2. -/
def xsel0 (u : FVec F S2048x3x3x64 .f32) : FVec F S2048x64 .f32 :=
  shapeCast S2048x64 (extractStridedSlice S2048x1x1x64 ![0, 0, 0, 0] u slices_S2048x3x3x64_S2048x1x1x64_0_0_0_0) shapeCasts_S2048x1x1x64_S2048x64
@[inherit_doc xsel0]
def xsel1 (u : FVec F S2048x3x3x64 .f32) : FVec F S2048x64 .f32 :=
  shapeCast S2048x64 (extractStridedSlice S2048x1x1x64 ![0, 1, 1, 0] u slices_S2048x3x3x64_S2048x1x1x64_0_1_1_0) shapeCasts_S2048x1x1x64_S2048x64
@[inherit_doc xsel0]
def xsel2 (u : FVec F S2048x3x3x64 .f32) : FVec F S2048x64 .f32 :=
  shapeCast S2048x64 (extractStridedSlice S2048x1x1x64 ![0, 2, 2, 0] u slices_S2048x3x3x64_S2048x1x1x64_0_2_2_0) shapeCasts_S2048x1x1x64_S2048x64

/-- Behaviour b's positive and negative item rows of the weighted item table, for b = 0, 1, 2. -/
def ysel0 (w : FVec F S2048x3x2x64 .f32) : FVec F S2048x2x64 .f32 :=
  shapeCast S2048x2x64 (extractStridedSlice S2048x1x2x64 ![0, 0, 0, 0] w slices_S2048x3x2x64_S2048x1x2x64_0_0_0_0) shapeCasts_S2048x1x2x64_S2048x2x64
@[inherit_doc ysel0]
def ysel1 (w : FVec F S2048x3x2x64 .f32) : FVec F S2048x2x64 .f32 :=
  shapeCast S2048x2x64 (extractStridedSlice S2048x1x2x64 ![0, 1, 0, 0] w slices_S2048x3x2x64_S2048x1x2x64_0_1_0_0) shapeCasts_S2048x1x2x64_S2048x2x64
@[inherit_doc ysel0]
def ysel2 (w : FVec F S2048x3x2x64 .f32) : FVec F S2048x2x64 .f32 :=
  shapeCast S2048x2x64 (extractStridedSlice S2048x1x2x64 ![0, 2, 0, 0] w slices_S2048x3x2x64_S2048x1x2x64_0_2_0_0) shapeCasts_S2048x1x2x64_S2048x2x64

/-- The user block of behaviour b. -/
def xkOf (u : FVec F S2048x3x3x64 .f32) : Fin 3 → FVec F S2048x64 .f32
  | 0 => xsel0 u
  | 1 => xsel1 u
  | 2 => xsel2 u

/-- The item block of behaviour b. -/
def ykOf (w : FVec F S2048x3x2x64 .f32) : Fin 3 → FVec F S2048x2x64 .f32
  | 0 => ysel0 w
  | 1 => ysel1 w
  | 2 => ysel2 w

section Run

variable (V : Valuation τ sig (Elt F))

/-- The user block of behaviour b, read off the buffer of the fused user table. -/
def xk (b : Fin 3) : FVec F S2048x64 .f32 := xkOf (V (Proc.devRef .tc main_v286)) b

/-- The weighted item rows (12288 = 2048 · 3 · 2 of them) as a table over (batch row, behaviour, pair member). -/
def itemRows : FVec F S2048x3x2x64 .f32 :=
  shapeCast S2048x3x2x64 (V (Proc.devRef .tc main_v313) : S12288x64.Idx → F .f32) shapeCasts_S12288x64_S2048x3x2x64

/-- The item block of behaviour b, read off the buffer of the weighted item rows. -/
def yk (b : Fin 3) : FVec F S2048x2x64 .f32 := ykOf (itemRows V) b

theorem xk_zero : xk V 0 = xsel0 (V (Proc.devRef .tc main_v286)) := rfl
theorem xk_one : xk V 1 = xsel1 (V (Proc.devRef .tc main_v286)) := rfl
theorem xk_two : xk V 2 = xsel2 (V (Proc.devRef .tc main_v286)) := rfl
theorem yk_zero : yk V 0 = ysel0 (itemRows V) := rfl
theorem yk_one : yk V 1 = ysel1 (itemRows V) := rfl
theorem yk_two : yk V 2 = ysel2 (itemRows V) := rfl

/-! ## The host operations, behaviour by behaviour -/

/-- Behaviour 0: the 33 operations that write `main_v314` … `main_v339`. -/
abbrev opsA : List (HloOp τ sig (Elt F)) :=
  [ StableHlo.reshape main_v313 main_v314 rfl shapeCasts_S12288x64_S2048x3x2x64,
    StableHlo.unary main_v286 main_v315 ((extractStridedSlice S2048x1x1x64 ![0, 0, 0, 0] · slices_S2048x3x3x64_S2048x1x1x64_0_0_0_0) : (⟨S2048x3x3x64, .f32⟩ : BufTy).Contents (Elt F) → (⟨S2048x1x1x64, .f32⟩ : BufTy).Contents (Elt F)),
    StableHlo.reshape main_v315 main_v316 rfl shapeCasts_S2048x1x1x64_S2048x64,
    StableHlo.unary main_v316 main_v317 (broadcastInDim S2048x1x64 ![0, 2] bcast_S2048x64_S2048x1x64_0_2 : (⟨S2048x64, .f32⟩ : BufTy).Contents (Elt F) → (⟨S2048x1x64, .f32⟩ : BufTy).Contents (Elt F)),
    StableHlo.unary main_v314 main_v318 ((extractStridedSlice S2048x1x2x64 ![0, 0, 0, 0] · slices_S2048x3x2x64_S2048x1x2x64_0_0_0_0) : (⟨S2048x3x2x64, .f32⟩ : BufTy).Contents (Elt F) → (⟨S2048x1x2x64, .f32⟩ : BufTy).Contents (Elt F)),
    StableHlo.reshape main_v318 main_v319 rfl shapeCasts_S2048x1x2x64_S2048x2x64,
    StableHlo.unary main_v317 main_v320 (broadcastInDim S2048x2x64 ![0, 1, 2] bcast_S2048x1x64_S2048x2x64_0_1_2 : (⟨S2048x1x64, .f32⟩ : BufTy).Contents (Elt F) → (⟨S2048x2x64, .f32⟩ : BufTy).Contents (Elt F)),
    StableHlo.binary main_v320 main_v319 main_v321 (mulf : (⟨S2048x2x64, .f32⟩ : BufTy).Contents (Elt F) → (⟨S2048x2x64, .f32⟩ : BufTy).Contents (Elt F) → (⟨S2048x2x64, .f32⟩ : BufTy).Contents (Elt F)),
    StableHlo.nullary main_cst_70 (constant S_ .f32 0x00000000#32),
    StableHlo.binary main_v321 main_cst_70 main_v322 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    StableHlo.unary main_v322 main_v323 ((extractStridedSlice S2048x1 ![0, 0] · slices_S2048x2_S2048x1_0_0) : (⟨S2048x2, .f32⟩ : BufTy).Contents (Elt F) → (⟨S2048x1, .f32⟩ : BufTy).Contents (Elt F)),
    StableHlo.reshape main_v323 main_v324 rfl shapeCasts_S2048x1_S2048,
    StableHlo.unary main_v322 main_v325 ((extractStridedSlice S2048x1 ![0, 1] · slices_S2048x2_S2048x1_0_1) : (⟨S2048x2, .f32⟩ : BufTy).Contents (Elt F) → (⟨S2048x1, .f32⟩ : BufTy).Contents (Elt F)),
    StableHlo.reshape main_v325 main_v326 rfl shapeCasts_S2048x1_S2048,
    StableHlo.binary main_v324 main_v326 main_v327 (subf : (⟨S2048, .f32⟩ : BufTy).Contents (Elt F) → (⟨S2048, .f32⟩ : BufTy).Contents (Elt F) → (⟨S2048, .f32⟩ : BufTy).Contents (Elt F)),
    StableHlo.unary main_v327 main_v328 (Host.negf : (⟨S2048, .f32⟩ : BufTy).Contents (Elt F) → (⟨S2048, .f32⟩ : BufTy).Contents (Elt F)),
    StableHlo.unary main_v328 main_v329 (Host.exp : (⟨S2048, .f32⟩ : BufTy).Contents (Elt F) → (⟨S2048, .f32⟩ : BufTy).Contents (Elt F)),
    StableHlo.nullary main_cst_71 (constant S_ .f32 0x3F800000#32),
    StableHlo.unary main_cst_71 main_v330 (broadcastInDim S2048 ![] bcast_S_S2048 : (⟨S_, .f32⟩ : BufTy).Contents (Elt F) → (⟨S2048, .f32⟩ : BufTy).Contents (Elt F)),
    StableHlo.binary main_v330 main_v329 main_v331 (addf : (⟨S2048, .f32⟩ : BufTy).Contents (Elt F) → (⟨S2048, .f32⟩ : BufTy).Contents (Elt F) → (⟨S2048, .f32⟩ : BufTy).Contents (Elt F)),
    StableHlo.nullary main_cst_72 (constant S_ .f32 0x3F800000#32),
    StableHlo.unary main_cst_72 main_v332 (broadcastInDim S2048 ![] bcast_S_S2048 : (⟨S_, .f32⟩ : BufTy).Contents (Elt F) → (⟨S2048, .f32⟩ : BufTy).Contents (Elt F)),
    StableHlo.binary main_v332 main_v331 main_v333 (Host.divf : (⟨S2048, .f32⟩ : BufTy).Contents (Elt F) → (⟨S2048, .f32⟩ : BufTy).Contents (Elt F) → (⟨S2048, .f32⟩ : BufTy).Contents (Elt F)),
    StableHlo.nullary main_cst_73 (constant S_ .f32 0x2EDBE6FF#32),
    StableHlo.unary main_cst_73 main_v334 (broadcastInDim S2048 ![] bcast_S_S2048 : (⟨S_, .f32⟩ : BufTy).Contents (Elt F) → (⟨S2048, .f32⟩ : BufTy).Contents (Elt F)),
    StableHlo.binary main_v334 main_v333 main_v335 (addf : (⟨S2048, .f32⟩ : BufTy).Contents (Elt F) → (⟨S2048, .f32⟩ : BufTy).Contents (Elt F) → (⟨S2048, .f32⟩ : BufTy).Contents (Elt F)),
    StableHlo.unary main_v335 main_v336 (Host.log : (⟨S2048, .f32⟩ : BufTy).Contents (Elt F) → (⟨S2048, .f32⟩ : BufTy).Contents (Elt F)),
    StableHlo.nullary main_cst_74 (constant S_ .f32 0x00000000#32),
    StableHlo.binary main_v336 main_cst_74 main_v337 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_75 (constant S_ .f32 0x45000000#32),
    StableHlo.binary main_v337 main_cst_75 main_v338 (Host.divf : (⟨S_, .f32⟩ : BufTy).Contents (Elt F) → (⟨S_, .f32⟩ : BufTy).Contents (Elt F) → (⟨S_, .f32⟩ : BufTy).Contents (Elt F)),
    StableHlo.nullary main_cst_76 (constant S_ .f32 0x00000000#32),
    StableHlo.binary main_cst_76 main_v338 main_v339 (subf : (⟨S_, .f32⟩ : BufTy).Contents (Elt F) → (⟨S_, .f32⟩ : BufTy).Contents (Elt F) → (⟨S_, .f32⟩ : BufTy).Contents (Elt F)) ]

/-- Behaviour 1: the 31 operations that write `main_v340` … `main_v364`. -/
abbrev opsB : List (HloOp τ sig (Elt F)) :=
  [ StableHlo.unary main_v286 main_v340 ((extractStridedSlice S2048x1x1x64 ![0, 1, 1, 0] · slices_S2048x3x3x64_S2048x1x1x64_0_1_1_0) : (⟨S2048x3x3x64, .f32⟩ : BufTy).Contents (Elt F) → (⟨S2048x1x1x64, .f32⟩ : BufTy).Contents (Elt F)),
    StableHlo.reshape main_v340 main_v341 rfl shapeCasts_S2048x1x1x64_S2048x64,
    StableHlo.unary main_v341 main_v342 (broadcastInDim S2048x1x64 ![0, 2] bcast_S2048x64_S2048x1x64_0_2 : (⟨S2048x64, .f32⟩ : BufTy).Contents (Elt F) → (⟨S2048x1x64, .f32⟩ : BufTy).Contents (Elt F)),
    StableHlo.unary main_v314 main_v343 ((extractStridedSlice S2048x1x2x64 ![0, 1, 0, 0] · slices_S2048x3x2x64_S2048x1x2x64_0_1_0_0) : (⟨S2048x3x2x64, .f32⟩ : BufTy).Contents (Elt F) → (⟨S2048x1x2x64, .f32⟩ : BufTy).Contents (Elt F)),
    StableHlo.reshape main_v343 main_v344 rfl shapeCasts_S2048x1x2x64_S2048x2x64,
    StableHlo.unary main_v342 main_v345 (broadcastInDim S2048x2x64 ![0, 1, 2] bcast_S2048x1x64_S2048x2x64_0_1_2 : (⟨S2048x1x64, .f32⟩ : BufTy).Contents (Elt F) → (⟨S2048x2x64, .f32⟩ : BufTy).Contents (Elt F)),
    StableHlo.binary main_v345 main_v344 main_v346 (mulf : (⟨S2048x2x64, .f32⟩ : BufTy).Contents (Elt F) → (⟨S2048x2x64, .f32⟩ : BufTy).Contents (Elt F) → (⟨S2048x2x64, .f32⟩ : BufTy).Contents (Elt F)),
    StableHlo.nullary main_cst_77 (constant S_ .f32 0x00000000#32),
    StableHlo.binary main_v346 main_cst_77 main_v347 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    StableHlo.unary main_v347 main_v348 ((extractStridedSlice S2048x1 ![0, 0] · slices_S2048x2_S2048x1_0_0) : (⟨S2048x2, .f32⟩ : BufTy).Contents (Elt F) → (⟨S2048x1, .f32⟩ : BufTy).Contents (Elt F)),
    StableHlo.reshape main_v348 main_v349 rfl shapeCasts_S2048x1_S2048,
    StableHlo.unary main_v347 main_v350 ((extractStridedSlice S2048x1 ![0, 1] · slices_S2048x2_S2048x1_0_1) : (⟨S2048x2, .f32⟩ : BufTy).Contents (Elt F) → (⟨S2048x1, .f32⟩ : BufTy).Contents (Elt F)),
    StableHlo.reshape main_v350 main_v351 rfl shapeCasts_S2048x1_S2048,
    StableHlo.binary main_v349 main_v351 main_v352 (subf : (⟨S2048, .f32⟩ : BufTy).Contents (Elt F) → (⟨S2048, .f32⟩ : BufTy).Contents (Elt F) → (⟨S2048, .f32⟩ : BufTy).Contents (Elt F)),
    StableHlo.unary main_v352 main_v353 (Host.negf : (⟨S2048, .f32⟩ : BufTy).Contents (Elt F) → (⟨S2048, .f32⟩ : BufTy).Contents (Elt F)),
    StableHlo.unary main_v353 main_v354 (Host.exp : (⟨S2048, .f32⟩ : BufTy).Contents (Elt F) → (⟨S2048, .f32⟩ : BufTy).Contents (Elt F)),
    StableHlo.nullary main_cst_78 (constant S_ .f32 0x3F800000#32),
    StableHlo.unary main_cst_78 main_v355 (broadcastInDim S2048 ![] bcast_S_S2048 : (⟨S_, .f32⟩ : BufTy).Contents (Elt F) → (⟨S2048, .f32⟩ : BufTy).Contents (Elt F)),
    StableHlo.binary main_v355 main_v354 main_v356 (addf : (⟨S2048, .f32⟩ : BufTy).Contents (Elt F) → (⟨S2048, .f32⟩ : BufTy).Contents (Elt F) → (⟨S2048, .f32⟩ : BufTy).Contents (Elt F)),
    StableHlo.nullary main_cst_79 (constant S_ .f32 0x3F800000#32),
    StableHlo.unary main_cst_79 main_v357 (broadcastInDim S2048 ![] bcast_S_S2048 : (⟨S_, .f32⟩ : BufTy).Contents (Elt F) → (⟨S2048, .f32⟩ : BufTy).Contents (Elt F)),
    StableHlo.binary main_v357 main_v356 main_v358 (Host.divf : (⟨S2048, .f32⟩ : BufTy).Contents (Elt F) → (⟨S2048, .f32⟩ : BufTy).Contents (Elt F) → (⟨S2048, .f32⟩ : BufTy).Contents (Elt F)),
    StableHlo.nullary main_cst_80 (constant S_ .f32 0x2EDBE6FF#32),
    StableHlo.unary main_cst_80 main_v359 (broadcastInDim S2048 ![] bcast_S_S2048 : (⟨S_, .f32⟩ : BufTy).Contents (Elt F) → (⟨S2048, .f32⟩ : BufTy).Contents (Elt F)),
    StableHlo.binary main_v359 main_v358 main_v360 (addf : (⟨S2048, .f32⟩ : BufTy).Contents (Elt F) → (⟨S2048, .f32⟩ : BufTy).Contents (Elt F) → (⟨S2048, .f32⟩ : BufTy).Contents (Elt F)),
    StableHlo.unary main_v360 main_v361 (Host.log : (⟨S2048, .f32⟩ : BufTy).Contents (Elt F) → (⟨S2048, .f32⟩ : BufTy).Contents (Elt F)),
    StableHlo.nullary main_cst_81 (constant S_ .f32 0x00000000#32),
    StableHlo.binary main_v361 main_cst_81 main_v362 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_82 (constant S_ .f32 0x45000000#32),
    StableHlo.binary main_v362 main_cst_82 main_v363 (Host.divf : (⟨S_, .f32⟩ : BufTy).Contents (Elt F) → (⟨S_, .f32⟩ : BufTy).Contents (Elt F) → (⟨S_, .f32⟩ : BufTy).Contents (Elt F)),
    StableHlo.binary main_v339 main_v363 main_v364 (subf : (⟨S_, .f32⟩ : BufTy).Contents (Elt F) → (⟨S_, .f32⟩ : BufTy).Contents (Elt F) → (⟨S_, .f32⟩ : BufTy).Contents (Elt F)) ]

/-- Behaviour 2: the 31 operations that write `main_v365` … `main_v389`. -/
abbrev opsC : List (HloOp τ sig (Elt F)) :=
  [ StableHlo.unary main_v286 main_v365 ((extractStridedSlice S2048x1x1x64 ![0, 2, 2, 0] · slices_S2048x3x3x64_S2048x1x1x64_0_2_2_0) : (⟨S2048x3x3x64, .f32⟩ : BufTy).Contents (Elt F) → (⟨S2048x1x1x64, .f32⟩ : BufTy).Contents (Elt F)),
    StableHlo.reshape main_v365 main_v366 rfl shapeCasts_S2048x1x1x64_S2048x64,
    StableHlo.unary main_v366 main_v367 (broadcastInDim S2048x1x64 ![0, 2] bcast_S2048x64_S2048x1x64_0_2 : (⟨S2048x64, .f32⟩ : BufTy).Contents (Elt F) → (⟨S2048x1x64, .f32⟩ : BufTy).Contents (Elt F)),
    StableHlo.unary main_v314 main_v368 ((extractStridedSlice S2048x1x2x64 ![0, 2, 0, 0] · slices_S2048x3x2x64_S2048x1x2x64_0_2_0_0) : (⟨S2048x3x2x64, .f32⟩ : BufTy).Contents (Elt F) → (⟨S2048x1x2x64, .f32⟩ : BufTy).Contents (Elt F)),
    StableHlo.reshape main_v368 main_v369 rfl shapeCasts_S2048x1x2x64_S2048x2x64,
    StableHlo.unary main_v367 main_v370 (broadcastInDim S2048x2x64 ![0, 1, 2] bcast_S2048x1x64_S2048x2x64_0_1_2 : (⟨S2048x1x64, .f32⟩ : BufTy).Contents (Elt F) → (⟨S2048x2x64, .f32⟩ : BufTy).Contents (Elt F)),
    StableHlo.binary main_v370 main_v369 main_v371 (mulf : (⟨S2048x2x64, .f32⟩ : BufTy).Contents (Elt F) → (⟨S2048x2x64, .f32⟩ : BufTy).Contents (Elt F) → (⟨S2048x2x64, .f32⟩ : BufTy).Contents (Elt F)),
    StableHlo.nullary main_cst_83 (constant S_ .f32 0x00000000#32),
    StableHlo.binary main_v371 main_cst_83 main_v372 ((fun x v => Host.reduceAdd x v reducesTo_S2048x2x64_S2048x2_d2 h_S_) : (⟨S2048x2x64, .f32⟩ : BufTy).Contents (Elt F) → (⟨S_, .f32⟩ : BufTy).Contents (Elt F) → (⟨S2048x2, .f32⟩ : BufTy).Contents (Elt F)),
    StableHlo.unary main_v372 main_v373 ((extractStridedSlice S2048x1 ![0, 0] · slices_S2048x2_S2048x1_0_0) : (⟨S2048x2, .f32⟩ : BufTy).Contents (Elt F) → (⟨S2048x1, .f32⟩ : BufTy).Contents (Elt F)),
    StableHlo.reshape main_v373 main_v374 rfl shapeCasts_S2048x1_S2048,
    StableHlo.unary main_v372 main_v375 ((extractStridedSlice S2048x1 ![0, 1] · slices_S2048x2_S2048x1_0_1) : (⟨S2048x2, .f32⟩ : BufTy).Contents (Elt F) → (⟨S2048x1, .f32⟩ : BufTy).Contents (Elt F)),
    StableHlo.reshape main_v375 main_v376 rfl shapeCasts_S2048x1_S2048,
    StableHlo.binary main_v374 main_v376 main_v377 (subf : (⟨S2048, .f32⟩ : BufTy).Contents (Elt F) → (⟨S2048, .f32⟩ : BufTy).Contents (Elt F) → (⟨S2048, .f32⟩ : BufTy).Contents (Elt F)),
    StableHlo.unary main_v377 main_v378 (Host.negf : (⟨S2048, .f32⟩ : BufTy).Contents (Elt F) → (⟨S2048, .f32⟩ : BufTy).Contents (Elt F)),
    StableHlo.unary main_v378 main_v379 (Host.exp : (⟨S2048, .f32⟩ : BufTy).Contents (Elt F) → (⟨S2048, .f32⟩ : BufTy).Contents (Elt F)),
    StableHlo.nullary main_cst_84 (constant S_ .f32 0x3F800000#32),
    StableHlo.unary main_cst_84 main_v380 (broadcastInDim S2048 ![] bcast_S_S2048 : (⟨S_, .f32⟩ : BufTy).Contents (Elt F) → (⟨S2048, .f32⟩ : BufTy).Contents (Elt F)),
    StableHlo.binary main_v380 main_v379 main_v381 (addf : (⟨S2048, .f32⟩ : BufTy).Contents (Elt F) → (⟨S2048, .f32⟩ : BufTy).Contents (Elt F) → (⟨S2048, .f32⟩ : BufTy).Contents (Elt F)),
    StableHlo.nullary main_cst_85 (constant S_ .f32 0x3F800000#32),
    StableHlo.unary main_cst_85 main_v382 (broadcastInDim S2048 ![] bcast_S_S2048 : (⟨S_, .f32⟩ : BufTy).Contents (Elt F) → (⟨S2048, .f32⟩ : BufTy).Contents (Elt F)),
    StableHlo.binary main_v382 main_v381 main_v383 (Host.divf : (⟨S2048, .f32⟩ : BufTy).Contents (Elt F) → (⟨S2048, .f32⟩ : BufTy).Contents (Elt F) → (⟨S2048, .f32⟩ : BufTy).Contents (Elt F)),
    StableHlo.nullary main_cst_86 (constant S_ .f32 0x2EDBE6FF#32),
    StableHlo.unary main_cst_86 main_v384 (broadcastInDim S2048 ![] bcast_S_S2048 : (⟨S_, .f32⟩ : BufTy).Contents (Elt F) → (⟨S2048, .f32⟩ : BufTy).Contents (Elt F)),
    StableHlo.binary main_v384 main_v383 main_v385 (addf : (⟨S2048, .f32⟩ : BufTy).Contents (Elt F) → (⟨S2048, .f32⟩ : BufTy).Contents (Elt F) → (⟨S2048, .f32⟩ : BufTy).Contents (Elt F)),
    StableHlo.unary main_v385 main_v386 (Host.log : (⟨S2048, .f32⟩ : BufTy).Contents (Elt F) → (⟨S2048, .f32⟩ : BufTy).Contents (Elt F)),
    StableHlo.nullary main_cst_87 (constant S_ .f32 0x00000000#32),
    StableHlo.binary main_v386 main_cst_87 main_v387 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_88 (constant S_ .f32 0x45000000#32),
    StableHlo.binary main_v387 main_cst_88 main_v388 (Host.divf : (⟨S_, .f32⟩ : BufTy).Contents (Elt F) → (⟨S_, .f32⟩ : BufTy).Contents (Elt F) → (⟨S_, .f32⟩ : BufTy).Contents (Elt F)),
    StableHlo.binary main_v364 main_v388 main_v389 (subf : (⟨S_, .f32⟩ : BufTy).Contents (Elt F) → (⟨S_, .f32⟩ : BufTy).Contents (Elt F) → (⟨S_, .f32⟩ : BufTy).Contents (Elt F)) ]

/-- The tail's first stretch is the three behaviours' operations in order. -/
theorem hostOps2_split : (hostOps2 : List (HloOp τ sig (Elt F))) = opsA ++ (opsB ++ opsC) := rfl

set_option maxHeartbeats 4000000 in
/-- Behaviour 0 leaves 0 minus its mean in the running total. -/
theorem opsA_v339 : after opsA V (Proc.devRef .tc main_v339) = subf (constant S_ .f32 0x00000000#32) (lossB (xsel0 (V (Proc.devRef .tc main_v286))) (ysel0 (itemRows V))) := by
  after_results
  rfl
theorem opsA_v286 : after opsA V (Proc.devRef .tc main_v286) = V (Proc.devRef .tc main_v286) := by after_results
theorem opsA_v314 : after opsA V (Proc.devRef .tc main_v314) = itemRows V := by
  after_results
  rfl
theorem opsA_arg0 : after opsA V (Proc.devRef .tc main_arg0) = V (Proc.devRef .tc main_arg0) := by after_results
theorem opsA_arg1 : after opsA V (Proc.devRef .tc main_arg1) = V (Proc.devRef .tc main_arg1) := by after_results

set_option maxHeartbeats 4000000 in
/-- Behaviour 1 subtracts its mean from the running total. -/
theorem opsB_v364 : after opsB V (Proc.devRef .tc main_v364)
    = subf (V (Proc.devRef .tc main_v339)) (lossB (xsel1 (V (Proc.devRef .tc main_v286))) (ysel1 (V (Proc.devRef .tc main_v314)))) := by
  after_results
  rfl
theorem opsB_v286 : after opsB V (Proc.devRef .tc main_v286) = V (Proc.devRef .tc main_v286) := by after_results
theorem opsB_v314 : after opsB V (Proc.devRef .tc main_v314) = V (Proc.devRef .tc main_v314) := by after_results
theorem opsB_arg0 : after opsB V (Proc.devRef .tc main_arg0) = V (Proc.devRef .tc main_arg0) := by after_results
theorem opsB_arg1 : after opsB V (Proc.devRef .tc main_arg1) = V (Proc.devRef .tc main_arg1) := by after_results

set_option maxHeartbeats 4000000 in
/-- Behaviour 2 subtracts its mean from the running total. -/
theorem opsC_v389 : after opsC V (Proc.devRef .tc main_v389)
    = subf (V (Proc.devRef .tc main_v364)) (lossB (xsel2 (V (Proc.devRef .tc main_v286))) (ysel2 (V (Proc.devRef .tc main_v314)))) := by
  after_results
  rfl
theorem opsC_arg0 : after opsC V (Proc.devRef .tc main_arg0) = V (Proc.devRef .tc main_arg0) := by after_results
theorem opsC_arg1 : after opsC V (Proc.devRef .tc main_arg1) = V (Proc.devRef .tc main_arg1) := by after_results

set_option maxHeartbeats 4000000 in
/-- The two norms and the last six operations add the regulariser to the running total. -/
theorem reg_v395 : after hostOps2_3 (after hostOps2_2 (after hostOps2_1 V)) (Proc.devRef .tc main_v395)
    = addf (V (Proc.devRef .tc main_v389)) (reg (V (Proc.devRef .tc main_arg0)) (V (Proc.devRef .tc main_arg1))) := by
  after_results
  rfl

/-- The tail of @main, run from any buffer contents, leaves 'shell' of the sliced blocks and the two tables in the result buffer. -/
theorem kernel_tail :
    after hostOps2_3 (after hostOps2_2 (after hostOps2_1 (after hostOps2 V))) (Proc.devRef .tc main_v395)
      = shell (xk V 0) (yk V 0) (xk V 1) (yk V 1) (xk V 2) (yk V 2) (V (Proc.devRef .tc main_arg0)) (V (Proc.devRef .tc main_arg1)) := by
  rw [reg_v395, hostOps2_split, after_append, after_append, opsC_v389, opsC_arg0, opsC_arg1, opsB_v364, opsB_v286, opsB_v314,
    opsB_arg0, opsB_arg1, opsA_v339, opsA_v286, opsA_v314, opsA_arg0, opsA_arg1, xk_zero, xk_one, xk_two, yk_zero, yk_one, yk_two]
  rfl

end Run

/-! ## The blocks at an index -/

section Apply
open Idealize.ShloMosaic.ValueIdx

/-- The (o1, o2) entry of a [2048,3,3,64] table, sliced out and flattened to [2048,64], at (n, d). -/
theorem diag_apply {α : Type} (u : S2048x3x3x64.Idx → α) (o1 o2 : Nat)
    (h : S2048x3x3x64.Slices ![0, o1, o2, 0] S2048x1x1x64) (h' : S2048x1x1x64.ShapeCasts S2048x64)
    (b1 b2 : Fin 3) (hb1 : b1.val = o1) (hb2 : b2.val = o2) (n : Fin 2048) (d : Fin 64) :
    shapeCast S2048x64 (extractStridedSlice S2048x1x1x64 ![0, o1, o2, 0] u h) h' (ix2 n d) = u (ix4 n b1 b2 d) := by
  refine (shapeCast_apply _ h' (ix2 n d) (ix4 n (0 : Fin 1) (0 : Fin 1) d) ?_).trans ?_
  · rw [Shape.rowMajor_val_four, Shape.rowMajor_val_two]
    show ((n.val * 1 + 0) * 1 + 0) * 64 + d.val = n.val * 64 + d.val
    omega
  · refine extractStridedSlice_apply _ u h _ (ix4 n b1 b2 d) fun a => ?_
    match a with
    | ⟨0, _⟩ => exact (Nat.zero_add _).symm
    | ⟨1, _⟩ => show b1.val = o1 + 0; omega
    | ⟨2, _⟩ => show b2.val = o2 + 0; omega
    | ⟨3, _⟩ => exact (Nat.zero_add _).symm

/-- Behaviour o's pair of a [2048,3,2,64] table, sliced out and flattened to [2048,2,64], at (n, j, d). -/
theorem pair_apply {α : Type} (w : S2048x3x2x64.Idx → α) (o : Nat)
    (h : S2048x3x2x64.Slices ![0, o, 0, 0] S2048x1x2x64) (h' : S2048x1x2x64.ShapeCasts S2048x2x64)
    (b : Fin 3) (hb : b.val = o) (n : Fin 2048) (j : Fin 2) (d : Fin 64) :
    shapeCast S2048x2x64 (extractStridedSlice S2048x1x2x64 ![0, o, 0, 0] w h) h' (ix3 n j d) = w (ix4 n b j d) := by
  refine (shapeCast_apply _ h' (ix3 n j d) (ix4 n (0 : Fin 1) j d) ?_).trans ?_
  · rw [Shape.rowMajor_val_four, Shape.rowMajor_val_three]
    show ((n.val * 1 + 0) * 2 + j.val) * 64 + d.val = (n.val * 2 + j.val) * 64 + d.val
    omega
  · refine extractStridedSlice_apply _ w h _ (ix4 n b j d) fun a => ?_
    match a with
    | ⟨0, _⟩ => exact (Nat.zero_add _).symm
    | ⟨1, _⟩ => show b.val = o + 0; omega
    | ⟨2, _⟩ => exact (Nat.zero_add _).symm
    | ⟨3, _⟩ => exact (Nat.zero_add _).symm

variable (V : Valuation τ sig (Elt F))

/-- The user block of behaviour b at (n, d) is the fused user table at (n, b, b, d). -/
theorem xk_apply (b : Fin 3) (n : Fin 2048) (d : Fin 64) :
    xk V b (ix2 n d) = (V (Proc.devRef .tc main_v286) : S2048x3x3x64.Idx → F .f32) (ix4 n b b d) := by
  match b with
  | 0 => exact diag_apply _ 0 0 slices_S2048x3x3x64_S2048x1x1x64_0_0_0_0 shapeCasts_S2048x1x1x64_S2048x64 0 0 rfl rfl n d
  | 1 => exact diag_apply _ 1 1 slices_S2048x3x3x64_S2048x1x1x64_0_1_1_0 shapeCasts_S2048x1x1x64_S2048x64 1 1 rfl rfl n d
  | 2 => exact diag_apply _ 2 2 slices_S2048x3x3x64_S2048x1x1x64_0_2_2_0 shapeCasts_S2048x1x1x64_S2048x64 2 2 rfl rfl n d

/-- The table of weighted item rows at (n, b, j, d) is row 6 n + 2 b + j of the buffer. -/
theorem itemRows_apply (n : Fin 2048) (b : Fin 3) (j : Fin 2) (d : Fin 64) :
    itemRows V (ix4 n b j d)
      = (V (Proc.devRef .tc main_v313) : S12288x64.Idx → F .f32)
          (ix2 (⟨6 * n.val + 2 * b.val + j.val, by omega⟩ : Fin 12288) d) := by
  refine shapeCast_apply (s := S12288x64) (t := S2048x3x2x64) _ shapeCasts_S12288x64_S2048x3x2x64 (ix4 n b j d)
    (ix2 (⟨6 * n.val + 2 * b.val + j.val, by omega⟩ : Fin 12288) d) ?_
  rw [Shape.rowMajor_val_four, Shape.rowMajor_val_two]
  show (6 * n.val + 2 * b.val + j.val) * 64 + d.val = ((n.val * 3 + b.val) * 2 + j.val) * 64 + d.val
  omega

/-- The item block of behaviour b at (n, j, d) is row 6 n + 2 b + j of the weighted item rows, at feature d. -/
theorem yk_apply (b : Fin 3) (n : Fin 2048) (j : Fin 2) (d : Fin 64) :
    yk V b (ix3 n j d)
      = (V (Proc.devRef .tc main_v313) : S12288x64.Idx → F .f32)
          (ix2 (⟨6 * n.val + 2 * b.val + j.val, by omega⟩ : Fin 12288) d) := by
  rw [← itemRows_apply V n b j d]
  match b with
  | 0 => exact pair_apply (itemRows V) 0 slices_S2048x3x2x64_S2048x1x2x64_0_0_0_0 shapeCasts_S2048x1x2x64_S2048x2x64 0 rfl n j d
  | 1 => exact pair_apply (itemRows V) 1 slices_S2048x3x2x64_S2048x1x2x64_0_1_0_0 shapeCasts_S2048x1x2x64_S2048x2x64 1 rfl n j d
  | 2 => exact pair_apply (itemRows V) 2 slices_S2048x3x2x64_S2048x1x2x64_0_2_0_0 shapeCasts_S2048x1x2x64_S2048x2x64 2 rfl n j d

end Apply

end Cert.KernelIdeal.Tail
-- ==== Proof.KKeep.lean ====
/-
  The argument arrays at the intermediate segment boundaries: as at launch (the same walk back as for the last one).
-/
import proofs.«412432_j74655121539772_3_alg».proof.Proof.KArgs

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem W0_arg (c : Dev nD) (b : Ref sig .tc) : W0 m ρ c (Proc.devRef .tc b) = m ((c : Thread nD τ).loc b) := rfl

theorem W1_arg (c : Dev nD) (b : Ref sig .tc) (hb : IsArg b) : W1 m ρ c (Proc.devRef .tc b) = m ((c : Thread nD τ).loc b) :=
  StableHlo.after_of_forall_not_mem (b := Proc.devRef .tc b) _ _ (List.forall_iff_forall_mem.mp (hostOps0_keeps b hb))

theorem W2_arg (c : Dev nD) (b : Ref sig .tc) (hb : IsArg b) : W2 m ρ c (Proc.devRef .tc b) = m ((c : Thread nD τ).loc b) :=
  (W2_of_ne m ρ c b (by rcases hb with rfl | rfl | rfl | rfl | rfl | rfl <;> decide)).trans (W1_arg m ρ c b hb)

theorem W3_arg (c : Dev nD) (b : Ref sig .tc) (hb : IsArg b) : W3 m ρ c (Proc.devRef .tc b) = m ((c : Thread nD τ).loc b) :=
  (StableHlo.after_of_forall_not_mem (b := Proc.devRef .tc b) _ _ (List.forall_iff_forall_mem.mp (hostOps1_keeps b hb))).trans (W2_arg m ρ c b hb)

theorem W4_arg (c : Dev nD) (b : Ref sig .tc) (hb : IsArg b) : W4 m ρ c (Proc.devRef .tc b) = m ((c : Thread nD τ).loc b) :=
  (W4_of_ne m ρ c b (by rcases hb with rfl | rfl | rfl | rfl | rfl | rfl <;> decide)).trans (W3_arg m ρ c b hb)

end Cert.KernelIdeal.Run

end
-- ==== Proof.KRegionValue.lean ====
/-
  From blocks to arrays: what each region leaves in its output array.

  A region runs its body once per block of 1024 consecutive rows: grid point t reads rows 1024 t … 1024 t + 1023 of
  each input array, and what the body stores is written back to the same rows of the output array. If the stored
  block is ROW-LOCAL — row r' of it is one function G of row r' of each loaded block — then what point t writes back
  is rows 1024 t … of the array whose every row is G of the same row of the input arrays. Every row r lies in the
  block of point r / 1024, so the blocks cover the output array, and after the region the output array is that array:
  row r of the output is G of row r of the inputs.
-/
import proofs.«412432_j74655121539772_3_alg».proof.Proof.KRun
import Idealize.ShloMosaic.Lib.Pipeline.Value
import Idealize.ShloMosaic.Lib.ValueIdx

noncomputable section

namespace Cert.KernelIdeal.RegionValue

open Cert.KernelIdeal Cert.KernelIdeal.Gen Cert.KernelIdeal.Body Cert.KernelIdeal.Run
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- The zero offsets of a whole-block rectangle, as the constant function. -/
theorem zeroOff : (![0, 0] : Fin 2 → Nat) = fun _ => 0 := funext fun a => by fin_cases a <;> rfl

/-! ## The attention region: 6 blocks of 1024 rows -/

/-- Both index maps send grid point t to block (t, 0). -/
theorem attIndex : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- An array whose every row is one function `G` of the same row of `A`. -/
def attRows (G : (Fin 192 → F .f32) → Fin 192 → F .f32) (A : S6144x192.Idx → F .f32) : S6144x192.Idx → F .f32 :=
  fun i => G (fun col' => A (ix2 (i 0) col')) (i 1)

/-- Row r' of the input's block at point t is row 1024 t + r' of the input array. -/
theorem iblk0_apply (c : Dev nD) (t : Fin cfg0.N) (r' : Fin 1024) (col : Fin 192) (k : Fin 6144)
    (hk : k.val = 1024 * t.val + r'.val) :
    (iblk0 V c 0 t : Vec F S1024x192 .f32) (ix2 r' col) = (V c main_v283 : S6144x192.Idx → F .f32) (ix2 k col) := by
  obtain ⟨e0, e1, -, -⟩ := attIndex t
  unfold iblk0
  rw [View.read_apply]
  show (V c main_v283 : S6144x192.Idx → F .f32) _ = _
  congr 1
  funext a
  apply Fin.ext
  match a with
  | ⟨0, _⟩ => show win0_0.index t 0 * 1024 + 1 * r'.val = k.val; rw [e0, hk]; omega
  | ⟨1, _⟩ => show win0_0.index t 1 * 192 + 1 * col.val = col.val; rw [e1]; omega

/-- A row-local stored block, read at any index of the block. -/
theorem attStore_at (G : (Fin 192 → F .f32) → Fin 192 → F .f32)
    (hG : ∀ (x : Vec F S1024x192 .f32) (r' : Fin 1024) (col : Fin 192),
      attStore x (ix2 r' col) = G (fun col' => x (ix2 r' col')) col)
    (x : Vec F S1024x192 .f32) (y : S1024x192.Idx) : attStore x y = G (fun col' => x (ix2 (y 0) col')) (y 1) :=
  (congrArg (attStore x) (eq_ix2 y)).trans (hG x (y 0) (y 1))

/-- What point t writes back is block t of the row-by-row image of the input array. -/
theorem flushed0_eq (G : (Fin 192 → F .f32) → Fin 192 → F .f32)
    (hG : ∀ (x : Vec F S1024x192 .f32) (r' : Fin 1024) (col : Fin 192),
      attStore x (ix2 r' col) = G (fun col' => x (ix2 r' col')) col)
    (c : Dev nD) (t : Fin cfg0.N) :
    (dat0 V c).flushed 1 t = ((cfg0.win 1).blk t).view.read (Elt F) (attRows G (V c main_v283)) := by
  show (cfg0.win 1).cut (grid0.coords t) ((dat0 V c).after 1 t) = _
  rw [after0_1]
  unfold out0
  rw [View.canon_unit_zero zeroOff]
  simp only [View.ld_unit_zero (S := S1024x192) zeroOff]
  obtain ⟨-, -, e0, e1⟩ := attIndex t
  funext j
  rw [View.read_apply]
  have hj0 : (j 0).val < 1024 := (j 0).isLt
  have hj1 : (j 1).val < 192 := (j 1).isLt
  refine (attStore_at G hG (iblk0 V c 0 t) ((cfg0.win 1).xinj (grid0.coords t) j)).trans ?_
  unfold attRows
  refine congrArg₂ G (funext fun col' => ?_) (Fin.ext ?_)
  · refine iblk0_apply V c t _ col' _ ?_
    show win0_1.index t 0 * 1024 + 1 * (j 0).val = 1024 * t.val + (j 0).val
    rw [e0]; omega
  · show (j 1).val = win0_1.index t 1 * 192 + 1 * (j 1).val
    rw [e1]; omega

/-- An index of the output array is in point t's block iff each coordinate is in the block's range on its axis. -/
theorem mem_blk0 (t : Fin cfg0.N) (i : S6144x192.Idx) :
    i ∈ ((cfg0.win 1).blk t).view.set ↔ ∀ a : Fin 2, win0_1.index t a * S1024x192.size a ≤ (i a).val
      ∧ (i a).val < win0_1.index t a * S1024x192.size a + S1024x192.size a := by
  show i ∈ ((View.whole main_v284).slice (win0_1.rect t)).set ↔ _
  rw [View.set_slice_whole, Rect.mem_set_unit]
  exact Iff.rfl

/-- Row r of the output array is written back by point r / 1024. -/
theorem covered0 (i : S6144x192.Idx) :
    ∃ t : Fin cfg0.N, (cfg0.win 1).flush t = true ∧ i ∈ ((cfg0.win 1).blk t).view.set := by
  have hi0 : (i 0).val < 6144 := (i 0).isLt
  have hi1 : (i 1).val < 192 := (i 1).isLt
  have ht : (i 0).val / 1024 < cfg0.N := by show _ < grid0.N; rw [N_0]; omega
  obtain ⟨-, -, e0, e1⟩ := attIndex ⟨(i 0).val / 1024, ht⟩
  refine ⟨⟨(i 0).val / 1024, ht⟩, flush0_1 _, ?_⟩
  rw [mem_blk0]
  intro a
  match a with
  | ⟨0, _⟩ =>
    show win0_1.index ⟨(i 0).val / 1024, ht⟩ 0 * 1024 ≤ (i 0).val ∧ (i 0).val < win0_1.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win0_1.index ⟨(i 0).val / 1024, ht⟩ 1 * 192 ≤ (i 1).val ∧ (i 1).val < win0_1.index ⟨(i 0).val / 1024, ht⟩ 1 * 192 + 192
    rw [e1]; omega

/-- After the attention region every row of the output array is the row function of the same row of the input
    array, when the stored block is that row function of each row of the loaded block. -/
theorem att_array (c : Dev nD) (G : (Fin 192 → F .f32) → Fin 192 → F .f32)
    (hG : ∀ (x : Vec F S1024x192 .f32) (r' : Fin 1024) (col : Fin 192),
      Cert.KernelIdeal.Body.attStore x (ValueIdx.ix2 r' col) = G (fun col' => x (ValueIdx.ix2 r' col')) col)
    (r : Fin 6144) (col : Fin 192) :
    ((Cert.KernelIdeal.Run.dat0 V c).arrAt 1 cfg0.N : S6144x192.Idx → F .f32) (ValueIdx.ix2 r col)
      = G (fun col' => (V c main_v283 : S6144x192.Idx → F .f32) (ValueIdx.ix2 r col')) col := by
  rw [(dat0 V c).arrAt_eq_of_cover 1 (attRows G (V c main_v283)) (fun t _ => flushed0_eq V G hG c t) covered0]
  rfl

/-! ## The item region: 12 blocks of 1024 rows -/

/-- All three index maps send grid point t to block (t, 0). -/
theorem itemIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An array whose every row is one function `G` of the same rows of `A` and of `Wt`. -/
def itemRows (G : (Fin 192 → F .f32) → (Fin 3 → F .f32) → Fin 64 → F .f32) (A : S12288x192.Idx → F .f32)
    (Wt : S12288x3.Idx → F .f32) : S12288x64.Idx → F .f32 :=
  fun i => G (fun col' => A (ix2 (i 0) col')) (fun k => Wt (ix2 (i 0) k)) (i 1)

/-- Row r' of the item block at point t is row 1024 t + r' of the item array. -/
theorem iblk1_0_apply (c : Dev nD) (t : Fin cfg1.N) (r' : Fin 1024) (col : Fin 192) (k : Fin 12288)
    (hk : k.val = 1024 * t.val + r'.val) :
    (iblk1 V c 0 t : Vec F S1024x192 .f32) (ix2 r' col) = (V c main_v312 : S12288x192.Idx → F .f32) (ix2 k col) := by
  obtain ⟨e0, e1, -, -, -, -⟩ := itemIndex t
  unfold iblk1
  rw [View.read_apply]
  show (V c main_v312 : S12288x192.Idx → F .f32) _ = _
  congr 1
  funext a
  apply Fin.ext
  match a with
  | ⟨0, _⟩ => show win1_0.index t 0 * 1024 + 1 * r'.val = k.val; rw [e0, hk]; omega
  | ⟨1, _⟩ => show win1_0.index t 1 * 192 + 1 * col.val = col.val; rw [e1]; omega

/-- Row r' of the weight block at point t is row 1024 t + r' of the weight array. -/
theorem iblk1_1_apply (c : Dev nD) (t : Fin cfg1.N) (r' : Fin 1024) (i : Fin 3) (k : Fin 12288)
    (hk : k.val = 1024 * t.val + r'.val) :
    (iblk1 V c 1 t : Vec F S1024x3 .f32) (ix2 r' i) = (V c main_v311 : S12288x3.Idx → F .f32) (ix2 k i) := by
  obtain ⟨-, -, e0, e1, -, -⟩ := itemIndex t
  unfold iblk1
  rw [View.read_apply]
  show (V c main_v311 : S12288x3.Idx → F .f32) _ = _
  congr 1
  funext a
  apply Fin.ext
  match a with
  | ⟨0, _⟩ => show win1_1.index t 0 * 1024 + 1 * r'.val = k.val; rw [e0, hk]; omega
  | ⟨1, _⟩ => show win1_1.index t 1 * 3 + 1 * i.val = i.val; rw [e1]; omega

/-- A row-local stored block, read at any index of the block. -/
theorem iwStore_at (G : (Fin 192 → F .f32) → (Fin 3 → F .f32) → Fin 64 → F .f32)
    (hG : ∀ (x : Vec F S1024x192 .f32) (w : Vec F S1024x3 .f32) (r' : Fin 1024) (d : Fin 64),
      iwStore x w (ix2 r' d) = G (fun col' => x (ix2 r' col')) (fun i => w (ix2 r' i)) d)
    (x : Vec F S1024x192 .f32) (w : Vec F S1024x3 .f32) (y : S1024x64.Idx) :
    iwStore x w y = G (fun col' => x (ix2 (y 0) col')) (fun i => w (ix2 (y 0) i)) (y 1) :=
  (congrArg (iwStore x w) (eq_ix2 y)).trans (hG x w (y 0) (y 1))

/-- What point t writes back is block t of the row-by-row image of the two input arrays. -/
theorem flushed1_eq (G : (Fin 192 → F .f32) → (Fin 3 → F .f32) → Fin 64 → F .f32)
    (hG : ∀ (x : Vec F S1024x192 .f32) (w : Vec F S1024x3 .f32) (r' : Fin 1024) (d : Fin 64),
      iwStore x w (ix2 r' d) = G (fun col' => x (ix2 r' col')) (fun i => w (ix2 r' i)) d)
    (c : Dev nD) (t : Fin cfg1.N) :
    (dat1 V c).flushed 2 t
      = ((cfg1.win 2).blk t).view.read (Elt F) (itemRows G (V c main_v312) (V c main_v311)) := by
  show (cfg1.win 2).cut (grid1.coords t) ((dat1 V c).after 2 t) = _
  rw [after1_2]
  unfold out1
  rw [View.canon_unit_zero zeroOff]
  simp only [View.ld_unit_zero (S := S1024x192) zeroOff, View.ld_unit_zero (S := S1024x3) zeroOff]
  obtain ⟨-, -, -, -, e0, e1⟩ := itemIndex t
  funext j
  rw [View.read_apply]
  have hj0 : (j 0).val < 1024 := (j 0).isLt
  have hj1 : (j 1).val < 64 := (j 1).isLt
  refine (iwStore_at G hG (iblk1 V c 0 t) (iblk1 V c 1 t) ((cfg1.win 2).xinj (grid1.coords t) j)).trans ?_
  unfold itemRows
  refine congr (congrArg₂ G (funext fun col' => ?_) (funext fun k => ?_)) (Fin.ext ?_)
  · refine iblk1_0_apply V c t _ col' _ ?_
    show win1_2.index t 0 * 1024 + 1 * (j 0).val = 1024 * t.val + (j 0).val
    rw [e0]; omega
  · refine iblk1_1_apply V c t _ k _ ?_
    show win1_2.index t 0 * 1024 + 1 * (j 0).val = 1024 * t.val + (j 0).val
    rw [e0]; omega
  · show (j 1).val = win1_2.index t 1 * 64 + 1 * (j 1).val
    rw [e1]; omega

/-- An index of the output array is in point t's block iff each coordinate is in the block's range on its axis. -/
theorem mem_blk1 (t : Fin cfg1.N) (i : S12288x64.Idx) :
    i ∈ ((cfg1.win 2).blk t).view.set ↔ ∀ a : Fin 2, win1_2.index t a * S1024x64.size a ≤ (i a).val
      ∧ (i a).val < win1_2.index t a * S1024x64.size a + S1024x64.size a := by
  show i ∈ ((View.whole main_v313).slice (win1_2.rect t)).set ↔ _
  rw [View.set_slice_whole, Rect.mem_set_unit]
  exact Iff.rfl

/-- Row r of the output array is written back by point r / 1024. -/
theorem covered1 (i : S12288x64.Idx) :
    ∃ t : Fin cfg1.N, (cfg1.win 2).flush t = true ∧ i ∈ ((cfg1.win 2).blk t).view.set := by
  have hi0 : (i 0).val < 12288 := (i 0).isLt
  have hi1 : (i 1).val < 64 := (i 1).isLt
  have ht : (i 0).val / 1024 < cfg1.N := by show _ < grid1.N; rw [N_1]; omega
  obtain ⟨-, -, -, -, e0, e1⟩ := itemIndex ⟨(i 0).val / 1024, ht⟩
  refine ⟨⟨(i 0).val / 1024, ht⟩, flush1_2 _, ?_⟩
  rw [mem_blk1]
  intro a
  match a with
  | ⟨0, _⟩ =>
    show win1_2.index ⟨(i 0).val / 1024, ht⟩ 0 * 1024 ≤ (i 0).val ∧ (i 0).val < win1_2.index ⟨(i 0).val / 1024, ht⟩ 0 * 1024 + 1024
    rw [e0]; show (i 0).val / 1024 * 1024 ≤ (i 0).val ∧ (i 0).val < (i 0).val / 1024 * 1024 + 1024; omega
  | ⟨1, _⟩ =>
    show win1_2.index ⟨(i 0).val / 1024, ht⟩ 1 * 64 ≤ (i 1).val ∧ (i 1).val < win1_2.index ⟨(i 0).val / 1024, ht⟩ 1 * 64 + 64
    rw [e1]; omega

/-- After the item region every row of the output array is the row function of the same rows of the two input
    arrays, when the stored block is that row function of each row of the loaded blocks. -/
theorem item_array (c : Dev nD) (G : (Fin 192 → F .f32) → (Fin 3 → F .f32) → Fin 64 → F .f32)
    (hG : ∀ (x : Vec F S1024x192 .f32) (w : Vec F S1024x3 .f32) (r' : Fin 1024) (d : Fin 64),
      Cert.KernelIdeal.Body.iwStore x w (ValueIdx.ix2 r' d)
        = G (fun col' => x (ValueIdx.ix2 r' col')) (fun i => w (ValueIdx.ix2 r' i)) d)
    (r : Fin 12288) (d : Fin 64) :
    ((Cert.KernelIdeal.Run.dat1 V c).arrAt 2 cfg1.N : S12288x64.Idx → F .f32) (ValueIdx.ix2 r d)
      = G (fun col' => (V c main_v312 : S12288x192.Idx → F .f32) (ValueIdx.ix2 r col'))
          (fun i => (V c main_v311 : S12288x3.Idx → F .f32) (ValueIdx.ix2 r i)) d := by
  rw [(dat1 V c).arrAt_eq_of_cover 2 (itemRows G (V c main_v312) (V c main_v311))
    (fun t _ => flushed1_eq V G hG c t) covered1]
  rfl

end Cert.KernelIdeal.RegionValue

end
-- ==== Proof.Spec.lean ====
/-
  The mathematics both programs compute on ONE row, on the extended reals.

  A user row is three behaviour vectors f 0, f 1, f 2 of 64 entries. Its Gram matrix is
  S i j = ∑ d, f i d * f j d; the last row of S "clears" the first two,
  clear i j = ((S 2 j * S i j) * S 2 j) / (S 2 j * S 2 j + ε), and the third score row is the column sum of the
  cleared rows plus the last row itself. Each score row, scaled by 1/8 (= 1/√64), goes through a softmax
  (shifted by its maximum), and the row's result is the softmax-weighted sum of the three vectors.
  An item row is three vectors weighted by three numbers and summed.
  Both programs compute exactly these expressions; only the order of the evaluation over the rows of the tables
  differs (one gathers the rows the batch names first, the other last).
-/
import Idealize.ShloMosaic.PureOps.Ideal
import Mathlib.Algebra.BigOperators.Fin

noncomputable section

namespace Cert.Spec

open Idealize.ShloMosaic

/-- The clearing denominator's ε: the f32 word 0x2B8CBCCC (9.99999996e-13), the same word in both programs. -/
def epsC : EReal := Ideal.ofBits .f32 0x2B8CBCCC#32

/-- The softmax scale: the f32 word 0x3E000000, exactly 1/8. -/
def eighth : EReal := Ideal.ofBits .f32 0x3E000000#32

/-- The Gram matrix of a row's three vectors. -/
def gram (f : Fin 3 → Fin 64 → EReal) (i j : Fin 3) : EReal := ∑ d : Fin 64, f i d * f j d

/-- A score of the first two rows, cleared by the last row. -/
def clearS (f : Fin 3 → Fin 64 → EReal) (i j : Fin 3) : EReal :=
  Ideal.div ((gram f 2 j * gram f i j) * gram f 2 j) (gram f 2 j * gram f 2 j + epsC)

/-- The three score rows: the two cleared rows, then their column sum plus the last Gram row. -/
def rowS (f : Fin 3 → Fin 64 → EReal) (i j : Fin 3) : EReal :=
  if i = 2 then (clearS f 0 j + clearS f 1 j) + gram f 2 j else clearS f i j

/-- A score scaled by 1/8. -/
def scaled (f : Fin 3 → Fin 64 → EReal) (i j : Fin 3) : EReal := rowS f i j * eighth

/-- The maximum of a scaled score row. -/
def smax (f : Fin 3 → Fin 64 → EReal) (i : Fin 3) : EReal := max (max (scaled f i 0) (scaled f i 1)) (scaled f i 2)

/-- The shifted exponentials of a score row, -/
def sexp (f : Fin 3 → Fin 64 → EReal) (i j : Fin 3) : EReal := Ideal.exp (scaled f i j - smax f i)

/-- their sum, -/
def ssum (f : Fin 3 → Fin 64 → EReal) (i : Fin 3) : EReal := (sexp f i 0 + sexp f i 1) + sexp f i 2

/-- and the softmax weights. -/
def att (f : Fin 3 → Fin 64 → EReal) (i j : Fin 3) : EReal := Ideal.div (sexp f i j) (ssum f i)

/-- The fused user row: behaviour i's softmax-weighted sum of the three vectors. -/
def attRow (f : Fin 3 → Fin 64 → EReal) (i : Fin 3) (d : Fin 64) : EReal :=
  (att f i 0 * f 0 d + att f i 1 * f 1 d) + att f i 2 * f 2 d

/-- The fused item row: the three behaviour vectors weighted and summed. -/
def iwRow (it : Fin 3 → Fin 64 → EReal) (w : Fin 3 → EReal) (d : Fin 64) : EReal :=
  (it 0 d * w 0 + it 1 d * w 1) + it 2 d * w 2

end Cert.Spec

end
-- ==== Proof.KAttValue.lean ====
/-
  The value the attention kernel body stores, read at one element.

  The body loads a 1024 x 192 block. Row r of the block is three 64-lane vectors f 0, f 1, f 2 (lanes 64 i … 64 i + 63
  hold f i). The body forms the nine lane sums S i j = ∑ d, f i d * f j d (each kept as a 1024 x 1 column), clears the
  first two score rows by the last one, adds the cleared rows' column sums to the last Gram row for the third score
  row, scales every score by 1/8, and takes each score row's softmax shifted by its maximum; each weight is broadcast
  along the 64 lanes, each fused slice is the weighted sum of the three vectors, and the three fused slices are
  concatenated along the lanes. Every step is pointwise in the row r, so the stored block at row r, lane 64 i + d, is
  the fused row `Cert.Spec.attRow` of the three vectors of row r, at behaviour i and lane d (`attStore_apply`).

  The proof reads each named value of the body at an index, innermost first: the three slices; a lane sum of a product
  of two slices is a Gram entry; the cleared scores; the third score row (the body starts that sum from the zero word,
  which adds nothing); the scaled scores, their maximum, the shifted exponentials and their sum for each score row; the
  fused slices; and last the concatenation, which at lane 64 k + d reads piece k at lane d.
-/
import proofs.«412432_j74655121539772_3_alg».proof.Proof.KPay
import proofs.«412432_j74655121539772_3_alg».proof.Proof.Spec
import Idealize.ShloMosaic.Lib.ValueIdx
import Idealize.ShloMosaic.Lib.ValueLayout
import Idealize.ShloMosaic.PureOps.Ideal.Laws

noncomputable section

namespace Cert.KernelIdeal.AttValue

open Cert.KernelIdeal Cert.KernelIdeal.Gen Idealize.ShloMosaic Idealize.ShloMosaic.ValueIdx
open Cert.Spec

/-- The three 64-entry vectors of row `r` of a 1024 x 192 block: vector `i` occupies lanes 64 i … 64 i + 63. -/
def fv (v0 : Vec Ideal S1024x192 .f32) (r : Fin 1024) : Fin 3 → Fin 64 → EReal :=
  fun i d => v0 (ix2 r ⟨64 * i.val + d.val, by omega⟩)

theorem pay3_apply (v0 : Vec Ideal S1024x192 .f32) (r : Fin 1024) (d : Fin 64) :
    k0_pay3 (F := Ideal) v0 (ix2 r d) = fv v0 r 0 d := by
  unfold k0_pay3 k0_pay2
  show extractStridedSlice S1024x64 ![0, 0] (shapeCast S1024x192 v0 _) _ (ix2 r d) = _
  rw [slice2_axis1_eq, shapeCast_self]
  exact congrArg v0 (congrArg (ix2 r) (Fin.ext (by show 0 + d.val = 64 * 0 + d.val; omega)))

theorem pay4_apply (v0 : Vec Ideal S1024x192 .f32) (r : Fin 1024) (d : Fin 64) :
    k0_pay4 (F := Ideal) v0 (ix2 r d) = fv v0 r 1 d := by
  unfold k0_pay4 k0_pay2
  show extractStridedSlice S1024x64 ![0, 64] (shapeCast S1024x192 v0 _) _ (ix2 r d) = _
  rw [slice2_axis1_eq, shapeCast_self]
  exact congrArg v0 (congrArg (ix2 r) (Fin.ext (by show 64 + d.val = 64 * 1 + d.val; omega)))

theorem pay5_apply (v0 : Vec Ideal S1024x192 .f32) (r : Fin 1024) (d : Fin 64) :
    k0_pay5 (F := Ideal) v0 (ix2 r d) = fv v0 r 2 d := by
  unfold k0_pay5 k0_pay2
  show extractStridedSlice S1024x64 ![0, 128] (shapeCast S1024x192 v0 _) _ (ix2 r d) = _
  rw [slice2_axis1_eq, shapeCast_self]
  exact congrArg v0 (congrArg (ix2 r) (Fin.ext (by show 128 + d.val = 64 * 2 + d.val; omega)))

/-- A `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` lanes reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) (u : Fin 1) :
    broadcastTo ⟨2, ![a, b]⟩ v h (ix2 i c) = v (ix2 i u) := by
  refine broadcastTo_apply v h (ix2 i c) (ix2 i u) fun ax => ?_
  match ax with
  | ⟨0, _⟩ =>
    show i.val = if a = 1 then 0 else i.val
    split
    · have := i.isLt; omega
    · rfl
  | ⟨1, _⟩ =>
    show u.val = if (1 : ℕ) = 1 then 0 else c.val
    rw [if_pos rfl]; omega

/-- The lane sum of a product of two 1024 x 64 blocks, kept as a column, at row `r`. -/
theorem laneSum_apply (a b : FVec Ideal S1024x64 .f32) (h : S1024x64.Reduces [1] S1024) (h' : S1024.ShapeCasts S1024x1)
    (hφ : FKind.Formats .f32) (hacc : (0x00000000#32 : BitVec 32) = 0x00000000#32) (r : Fin 1024) (u : Fin 1) :
    shapeCast S1024x1 (multiReduction (F := Ideal) .add [1] S1024 (mulf a b) 0x00000000#32 h hφ hacc) h' (ix2 r u)
      = ∑ d : Fin 64, a (ix2 r d) * b (ix2 r d) := by
  rw [shapeCast_a_a1_apply]
  refine (Ideal.multiReduction_add_single (mulf a b) 0x00000000#32 h hφ hacc (ix1 r)).trans ?_
  show ∑ k : Fin 64, mulf a b (h.lift (ix1 r) k) = _
  refine Finset.sum_congr rfl fun k _ => ?_
  have hk : h.lift (ix1 r) k = ix2 r k := by
    funext ax; match ax with | ⟨0, _⟩ => rfl | ⟨1, _⟩ => rfl
  rw [hk, mulf_apply]

variable (v0 : Vec Ideal S1024x192 .f32) (r : Fin 1024) (u : Fin 1)

/-- The lane sum of two of the three slices is a Gram entry of the row. -/
theorem pay6_apply : k0_pay6 (F := Ideal) v0 (ix2 r u) = gram (fv v0 r) 1 0 := by
  unfold k0_pay6
  show shapeCast S1024x1 (multiReduction (F := Ideal) .add [1] S1024 (mulf (k0_pay4 v0) (k0_pay3 v0)) 0x00000000#32 _ _ _) _ (ix2 r u) = _
  rw [laneSum_apply]
  exact Finset.sum_congr rfl fun d _ => by rw [pay4_apply, pay3_apply]

theorem pay7_apply : k0_pay7 (F := Ideal) v0 (ix2 r u) = gram (fv v0 r) 1 1 := by
  unfold k0_pay7
  show shapeCast S1024x1 (multiReduction (F := Ideal) .add [1] S1024 (mulf (k0_pay4 v0) (k0_pay4 v0)) 0x00000000#32 _ _ _) _ (ix2 r u) = _
  rw [laneSum_apply]
  exact Finset.sum_congr rfl fun d _ => by rw [pay4_apply]

theorem pay8_apply : k0_pay8 (F := Ideal) v0 (ix2 r u) = gram (fv v0 r) 1 2 := by
  unfold k0_pay8
  show shapeCast S1024x1 (multiReduction (F := Ideal) .add [1] S1024 (mulf (k0_pay4 v0) (k0_pay5 v0)) 0x00000000#32 _ _ _) _ (ix2 r u) = _
  rw [laneSum_apply]
  exact Finset.sum_congr rfl fun d _ => by rw [pay4_apply, pay5_apply]

theorem pay9_apply : k0_pay9 (F := Ideal) v0 (ix2 r u) = gram (fv v0 r) 2 0 := by
  unfold k0_pay9
  show shapeCast S1024x1 (multiReduction (F := Ideal) .add [1] S1024 (mulf (k0_pay5 v0) (k0_pay3 v0)) 0x00000000#32 _ _ _) _ (ix2 r u) = _
  rw [laneSum_apply]
  exact Finset.sum_congr rfl fun d _ => by rw [pay5_apply, pay3_apply]

theorem pay10_apply : k0_pay10 (F := Ideal) v0 (ix2 r u) = gram (fv v0 r) 2 1 := by
  unfold k0_pay10
  show shapeCast S1024x1 (multiReduction (F := Ideal) .add [1] S1024 (mulf (k0_pay5 v0) (k0_pay4 v0)) 0x00000000#32 _ _ _) _ (ix2 r u) = _
  rw [laneSum_apply]
  exact Finset.sum_congr rfl fun d _ => by rw [pay5_apply, pay4_apply]

theorem pay11_apply : k0_pay11 (F := Ideal) v0 (ix2 r u) = gram (fv v0 r) 2 2 := by
  unfold k0_pay11
  show shapeCast S1024x1 (multiReduction (F := Ideal) .add [1] S1024 (mulf (k0_pay5 v0) (k0_pay5 v0)) 0x00000000#32 _ _ _) _ (ix2 r u) = _
  rw [laneSum_apply]
  exact Finset.sum_congr rfl fun d _ => by rw [pay5_apply]

/-- The first cleared score of the first row, computed whole in the first part. -/
theorem pay12_apply : k0_pay12 (F := Ideal) v0 (ix2 r u) = clearS (fv v0 r) 0 0 := by
  unfold k0_pay12
  show Ideal.div
      ((k0_pay9 (F := Ideal) v0 (ix2 r u)
          * shapeCast S1024x1 (multiReduction (F := Ideal) .add [1] S1024 (mulf (k0_pay3 v0) (k0_pay3 v0)) 0x00000000#32 _ _ _) _ (ix2 r u))
        * k0_pay9 (F := Ideal) v0 (ix2 r u))
      (k0_pay9 (F := Ideal) v0 (ix2 r u) * k0_pay9 (F := Ideal) v0 (ix2 r u) + Ideal.ofBits .f32 0x2B8CBCCC#32) = _
  rw [laneSum_apply, pay9_apply]
  have h00 : (∑ d : Fin 64, k0_pay3 (F := Ideal) v0 (ix2 r d) * k0_pay3 (F := Ideal) v0 (ix2 r d)) = gram (fv v0 r) 0 0 :=
    Finset.sum_congr rfl fun d _ => by rw [pay3_apply]
  rw [h00]
  rfl

theorem pay13_apply : k0_pay13 (F := Ideal) v0 (ix2 r u) = clearS (fv v0 r) 0 1 := by
  unfold k0_pay13
  show Ideal.div
      ((k0_pay10 (F := Ideal) v0 (ix2 r u)
          * shapeCast S1024x1 (multiReduction (F := Ideal) .add [1] S1024 (mulf (k0_pay3 v0) (k0_pay4 v0)) 0x00000000#32 _ _ _) _ (ix2 r u))
        * k0_pay10 (F := Ideal) v0 (ix2 r u))
      (k0_pay10 (F := Ideal) v0 (ix2 r u) * k0_pay10 (F := Ideal) v0 (ix2 r u) + Ideal.ofBits .f32 0x2B8CBCCC#32) = _
  rw [laneSum_apply, pay10_apply]
  have h01 : (∑ d : Fin 64, k0_pay3 (F := Ideal) v0 (ix2 r d) * k0_pay4 (F := Ideal) v0 (ix2 r d)) = gram (fv v0 r) 0 1 :=
    Finset.sum_congr rfl fun d _ => by rw [pay3_apply, pay4_apply]
  rw [h01]
  rfl

/-- The numerator of the third cleared score of the first row. -/
theorem pay14_apply : k0_pay14 (F := Ideal) v0 (ix2 r u)
    = (gram (fv v0 r) 2 2 * gram (fv v0 r) 0 2) * gram (fv v0 r) 2 2 := by
  unfold k0_pay14
  show (k0_pay11 (F := Ideal) v0 (ix2 r u)
          * shapeCast S1024x1 (multiReduction (F := Ideal) .add [1] S1024 (mulf (k0_pay3 v0) (k0_pay5 v0)) 0x00000000#32 _ _ _) _ (ix2 r u))
        * k0_pay11 (F := Ideal) v0 (ix2 r u) = _
  rw [laneSum_apply, pay11_apply]
  have h02 : (∑ d : Fin 64, k0_pay3 (F := Ideal) v0 (ix2 r d) * k0_pay5 (F := Ideal) v0 (ix2 r d)) = gram (fv v0 r) 0 2 :=
    Finset.sum_congr rfl fun d _ => by rw [pay3_apply, pay5_apply]
  rw [h02]

/-- The exponential of a block reads pointwise. -/
theorem exp_apply {s : Shape} {φ : FTy} (a : FVec Ideal s φ) (i : s.Idx) : exp a i = Ideal.exp (a i) := rfl

/-- A column broadcast along the lanes, read at lane `c` of row `i`, is the column's entry of row `i`. -/
theorem broadcastTo_col_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) :=
  broadcastTo_a1_ab_apply v h i c 0

theorem rowS_zero (f : Fin 3 → Fin 64 → EReal) (j : Fin 3) : rowS f 0 j = clearS f 0 j := rfl
theorem rowS_one (f : Fin 3 → Fin 64 → EReal) (j : Fin 3) : rowS f 1 j = clearS f 1 j := rfl
theorem rowS_two (f : Fin 3 → Fin 64 → EReal) (j : Fin 3) : rowS f 2 j = (clearS f 0 j + clearS f 1 j) + gram f 2 j := rfl

/-! ### The cleared scores -/

theorem cl02 : k0_pay15 (F := Ideal) (k0_pay11 v0) (k0_pay14 v0) (ix2 r u) = clearS (fv v0 r) 0 2 := by
  unfold k0_pay15
  simp only [mulf_apply, addf_apply, divf_apply, broadcast_apply, pay11_apply, pay14_apply]
  rfl

theorem cl10 : k0_pay16 (F := Ideal) (k0_pay6 v0) (k0_pay9 v0) (ix2 r u) = clearS (fv v0 r) 1 0 := by
  unfold k0_pay16
  simp only [mulf_apply, addf_apply, divf_apply, broadcast_apply, pay6_apply, pay9_apply]
  rfl

theorem cl11 : k0_pay17 (F := Ideal) (k0_pay7 v0) (k0_pay10 v0) (ix2 r u) = clearS (fv v0 r) 1 1 := by
  unfold k0_pay17
  simp only [mulf_apply, addf_apply, divf_apply, broadcast_apply, pay7_apply, pay10_apply]
  rfl

theorem cl12 : k0_pay18 (F := Ideal) (k0_pay8 v0) (k0_pay11 v0) (ix2 r u) = clearS (fv v0 r) 1 2 := by
  unfold k0_pay18
  simp only [mulf_apply, addf_apply, divf_apply, broadcast_apply, pay8_apply, pay11_apply]
  rfl

/-! ### The third score row: the column sums of the cleared rows plus the last Gram row -/

theorem row20 : k0_pay19 (F := Ideal) (k0_pay6 v0) (k0_pay9 v0) (k0_pay12 v0) (ix2 r u) = rowS (fv v0 r) 2 0 := by
  unfold k0_pay19
  simp only [addf_apply, broadcast_apply, cl10, pay9_apply, pay12_apply, Ideal.ofBits_def, Ideal.ofBits_zero_f32, zero_add]
  rfl

theorem row21 : k0_pay20 (F := Ideal) (k0_pay7 v0) (k0_pay10 v0) (k0_pay13 v0) (ix2 r u) = rowS (fv v0 r) 2 1 := by
  unfold k0_pay20
  simp only [addf_apply, broadcast_apply, cl11, pay10_apply, pay13_apply, Ideal.ofBits_def, Ideal.ofBits_zero_f32, zero_add]
  rfl

theorem row22 : k0_pay21 (F := Ideal) (k0_pay8 v0) (k0_pay11 v0) (k0_pay14 v0) (ix2 r u) = rowS (fv v0 r) 2 2 := by
  unfold k0_pay21
  simp only [addf_apply, broadcast_apply, cl02, cl12, pay11_apply, Ideal.ofBits_def, Ideal.ofBits_zero_f32, zero_add]
  rfl

/-! ### The first score row: scaled scores, their maximum, the shifted exponentials and their sum -/

theorem sc00 : k0_pay22 (F := Ideal) (k0_pay12 v0) (ix2 r u) = scaled (fv v0 r) 0 0 := by
  unfold k0_pay22
  simp only [mulf_apply, broadcast_apply, pay12_apply, Ideal.ofBits_def]
  rfl

theorem sc01 : k0_pay23 (F := Ideal) (k0_pay13 v0) (ix2 r u) = scaled (fv v0 r) 0 1 := by
  unfold k0_pay23
  simp only [mulf_apply, broadcast_apply, pay13_apply, Ideal.ofBits_def]
  rfl

theorem sc02 : k0_pay24 (F := Ideal) (k0_pay11 v0) (k0_pay14 v0) (ix2 r u) = scaled (fv v0 r) 0 2 := by
  unfold k0_pay24
  simp only [mulf_apply, broadcast_apply, cl02, Ideal.ofBits_def]
  rfl

theorem mx0 : k0_pay25 (F := Ideal) (k0_pay11 v0) (k0_pay12 v0) (k0_pay13 v0) (k0_pay14 v0) (ix2 r u) = smax (fv v0 r) 0 := by
  unfold k0_pay25
  simp only [maximumf_apply, sc00, sc01, sc02]
  rfl

theorem ex00 : k0_pay26 (F := Ideal) (k0_pay11 v0) (k0_pay12 v0) (k0_pay13 v0) (k0_pay14 v0) (ix2 r u) = sexp (fv v0 r) 0 0 := by
  unfold k0_pay26
  simp only [subf_apply, exp_apply, sc00, mx0]
  rfl

theorem ex01 : k0_pay27 (F := Ideal) (k0_pay11 v0) (k0_pay12 v0) (k0_pay13 v0) (k0_pay14 v0) (ix2 r u) = sexp (fv v0 r) 0 1 := by
  unfold k0_pay27
  simp only [subf_apply, exp_apply, sc01, mx0]
  rfl

theorem ex02 : k0_pay28 (F := Ideal) (k0_pay11 v0) (k0_pay12 v0) (k0_pay13 v0) (k0_pay14 v0) (ix2 r u) = sexp (fv v0 r) 0 2 := by
  unfold k0_pay28
  simp only [subf_apply, exp_apply, sc02, mx0]
  rfl

theorem sm0 : k0_pay29 (F := Ideal) (k0_pay11 v0) (k0_pay12 v0) (k0_pay13 v0) (k0_pay14 v0) (ix2 r u) = ssum (fv v0 r) 0 := by
  unfold k0_pay29
  simp only [addf_apply, ex00, ex01, ex02]
  rfl

/-- The first fused slice: the softmax weights of the first score row, each broadcast along the 64 lanes. -/
theorem fused0 (d : Fin 64) :
    k0_pay30 (F := Ideal) (k0_pay3 v0) (k0_pay4 v0) (k0_pay5 v0)
      (k0_pay26 (k0_pay11 v0) (k0_pay12 v0) (k0_pay13 v0) (k0_pay14 v0)) (k0_pay27 (k0_pay11 v0) (k0_pay12 v0) (k0_pay13 v0) (k0_pay14 v0)) (k0_pay28 (k0_pay11 v0) (k0_pay12 v0) (k0_pay13 v0) (k0_pay14 v0)) (k0_pay29 (k0_pay11 v0) (k0_pay12 v0) (k0_pay13 v0) (k0_pay14 v0)) (ix2 r d)
      = attRow (fv v0 r) 0 d := by
  unfold k0_pay30
  simp only [mulf_apply, addf_apply, divf_apply, broadcastTo_col_apply, pay3_apply, pay4_apply, pay5_apply,
    ex00, ex01, ex02, sm0]
  rfl

/-! ### The second score row, computed whole in the last part -/

theorem fused1 (d : Fin 64) :
    k0_pay31 (F := Ideal) (k0_pay3 v0) (k0_pay4 v0) (k0_pay5 v0) (k0_pay16 (k0_pay6 v0) (k0_pay9 v0)) (k0_pay17 (k0_pay7 v0) (k0_pay10 v0)) (k0_pay18 (k0_pay8 v0) (k0_pay11 v0)) (ix2 r d) = attRow (fv v0 r) 1 d := by
  unfold k0_pay31
  simp only [mulf_apply, addf_apply, subf_apply, divf_apply, maximumf_apply, exp_apply, broadcast_apply,
    broadcastTo_col_apply, pay3_apply, pay4_apply, pay5_apply, cl10, cl11, cl12, Ideal.ofBits_def]
  rfl

/-! ### The third score row -/

theorem sc20 : k0_pay32 (F := Ideal) (k0_pay19 (k0_pay6 v0) (k0_pay9 v0) (k0_pay12 v0)) (ix2 r u) = scaled (fv v0 r) 2 0 := by
  unfold k0_pay32
  simp only [mulf_apply, broadcast_apply, row20, Ideal.ofBits_def]
  rfl

theorem sc21 : k0_pay33 (F := Ideal) (k0_pay20 (k0_pay7 v0) (k0_pay10 v0) (k0_pay13 v0)) (ix2 r u) = scaled (fv v0 r) 2 1 := by
  unfold k0_pay33
  simp only [mulf_apply, broadcast_apply, row21, Ideal.ofBits_def]
  rfl

theorem sc22 : k0_pay34 (F := Ideal) (k0_pay21 (k0_pay8 v0) (k0_pay11 v0) (k0_pay14 v0)) (ix2 r u) = scaled (fv v0 r) 2 2 := by
  unfold k0_pay34
  simp only [mulf_apply, broadcast_apply, row22, Ideal.ofBits_def]
  rfl

theorem mx2 : k0_pay35 (F := Ideal) (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)) (ix2 r u) = smax (fv v0 r) 2 := by
  unfold k0_pay35
  simp only [maximumf_apply, sc20, sc21, sc22]
  rfl

theorem ex20 : k0_pay36 (F := Ideal) (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)) (ix2 r u) = sexp (fv v0 r) 2 0 := by
  unfold k0_pay36
  simp only [subf_apply, exp_apply, sc20, mx2]
  rfl

theorem ex21 : k0_pay37 (F := Ideal) (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)) (ix2 r u) = sexp (fv v0 r) 2 1 := by
  unfold k0_pay37
  simp only [subf_apply, exp_apply, sc21, mx2]
  rfl

theorem ex22 : k0_pay38 (F := Ideal) (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)) (ix2 r u) = sexp (fv v0 r) 2 2 := by
  unfold k0_pay38
  simp only [subf_apply, exp_apply, sc22, mx2]
  rfl

theorem sm2 : k0_pay39 (F := Ideal) (k0_pay19 (k0_pay6 v0) (k0_pay9 v0) (k0_pay12 v0)) (k0_pay20 (k0_pay7 v0) (k0_pay10 v0) (k0_pay13 v0)) (k0_pay21 (k0_pay8 v0) (k0_pay11 v0) (k0_pay14 v0)) (ix2 r u) = ssum (fv v0 r) 2 := by
  unfold k0_pay39
  simp only [addf_apply, ex20, ex21, ex22]
  rfl

/-! ### The concatenation along the lanes: lane `64 k + d` reads piece `k` at lane `d` -/

theorem concat3_apply0 (x0 x1 x2 : FVec Ideal S1024x64 .f32)
    (h : Shape.Concatenates [S1024x64, S1024x64, S1024x64] S1024x192 1) (r : Fin 1024) (d : Fin 64) :
    concatenate S1024x192 1 [⟨S1024x64, x0⟩, ⟨S1024x64, x1⟩, ⟨S1024x64, x2⟩] h (ix2 r ⟨64 * 0 + d.val, by omega⟩)
      = x0 (ix2 r d) :=
  concatenate_apply_piece (1 : Fin S1024x192.rank) [⟨S1024x64, x0⟩, ⟨S1024x64, x1⟩, ⟨S1024x64, x2⟩] h _ 0 (by show (0 : ℕ) < 3; omega) S1024x64 x0 rfl rfl 0 rfl (ix2 r d)
    (fun b => match b with
      | ⟨0, _⟩ => fun _ => rfl
      | ⟨1, _⟩ => fun hb => absurd rfl hb)
    (by show 0 + d.val = 64 * 0 + d.val; omega)

theorem concat3_apply1 (x0 x1 x2 : FVec Ideal S1024x64 .f32)
    (h : Shape.Concatenates [S1024x64, S1024x64, S1024x64] S1024x192 1) (r : Fin 1024) (d : Fin 64) :
    concatenate S1024x192 1 [⟨S1024x64, x0⟩, ⟨S1024x64, x1⟩, ⟨S1024x64, x2⟩] h (ix2 r ⟨64 * 1 + d.val, by omega⟩)
      = x1 (ix2 r d) :=
  concatenate_apply_piece (1 : Fin S1024x192.rank) [⟨S1024x64, x0⟩, ⟨S1024x64, x1⟩, ⟨S1024x64, x2⟩] h _ 1 (by show (1 : ℕ) < 3; omega) S1024x64 x1 rfl rfl 64 rfl (ix2 r d)
    (fun b => match b with
      | ⟨0, _⟩ => fun _ => rfl
      | ⟨1, _⟩ => fun hb => absurd rfl hb)
    (by show 64 + d.val = 64 * 1 + d.val; omega)

theorem concat3_apply2 (x0 x1 x2 : FVec Ideal S1024x64 .f32)
    (h : Shape.Concatenates [S1024x64, S1024x64, S1024x64] S1024x192 1) (r : Fin 1024) (d : Fin 64) :
    concatenate S1024x192 1 [⟨S1024x64, x0⟩, ⟨S1024x64, x1⟩, ⟨S1024x64, x2⟩] h (ix2 r ⟨64 * 2 + d.val, by omega⟩)
      = x2 (ix2 r d) :=
  concatenate_apply_piece (1 : Fin S1024x192.rank) [⟨S1024x64, x0⟩, ⟨S1024x64, x1⟩, ⟨S1024x64, x2⟩] h _ 2 (by show (2 : ℕ) < 3; omega) S1024x64 x2 rfl rfl 128 rfl (ix2 r d)
    (fun b => match b with
      | ⟨0, _⟩ => fun _ => rfl
      | ⟨1, _⟩ => fun hb => absurd rfl hb)
    (by show 128 + d.val = 64 * 2 + d.val; omega)

/-! ### The stored block, slice by slice -/

theorem attStore_apply0 (d : Fin 64) :
    Body.attStore (F := Ideal) v0 (ix2 r ⟨64 * 0 + d.val, by omega⟩) = attRow (fv v0 r) 0 d := by
  unfold Body.attStore k0_pay1
  show concatenate S1024x192 1 [⟨S1024x64, _⟩, ⟨S1024x64, _⟩, ⟨S1024x64, _⟩] _ _ = _
  rw [concat3_apply0, fused0]

theorem attStore_apply1 (d : Fin 64) :
    Body.attStore (F := Ideal) v0 (ix2 r ⟨64 * 1 + d.val, by omega⟩) = attRow (fv v0 r) 1 d := by
  unfold Body.attStore k0_pay1
  show concatenate S1024x192 1 [⟨S1024x64, _⟩, ⟨S1024x64, _⟩, ⟨S1024x64, _⟩] _ _ = _
  rw [concat3_apply1, fused1]

theorem attStore_apply2 (d : Fin 64) :
    Body.attStore (F := Ideal) v0 (ix2 r ⟨64 * 2 + d.val, by omega⟩) = attRow (fv v0 r) 2 d := by
  unfold Body.attStore k0_pay1
  show concatenate S1024x192 1 [⟨S1024x64, _⟩, ⟨S1024x64, _⟩, ⟨S1024x64, _⟩] _ _ = _
  rw [concat3_apply2]
  simp only [mulf_apply, addf_apply, divf_apply, broadcastTo_col_apply, pay3_apply, pay4_apply, pay5_apply,
    ex20, ex21, ex22, sm2]
  rfl

/-- **The attention body's stored block at row `r`, lane `64 i + d`**: the fused row of the three 64-lane vectors of
    row `r` of the loaded block. -/
theorem attStore_apply (v0 : Vec Ideal S1024x192 .f32) (r : Fin 1024) (i : Fin 3) (d : Fin 64) :
    Cert.KernelIdeal.Body.attStore (F := Ideal) v0 (ix2 r ⟨64 * i.val + d.val, by omega⟩)
      = Cert.Spec.attRow (fun i' d' => v0 (ix2 r ⟨64 * i'.val + d'.val, by omega⟩)) i d :=
  match i with
  | ⟨0, _⟩ => attStore_apply0 v0 r d
  | ⟨1, _⟩ => attStore_apply1 v0 r d
  | ⟨2, _⟩ => attStore_apply2 v0 r d

end Cert.KernelIdeal.AttValue

end
-- ==== Proof.KItemValue.lean ====
/-
  The item body's stored block read at one entry.

  The body cuts the 192 lanes of its first block into three 64-lane slices (at lanes 0, 64 and 128), cuts the three
  columns out of its second block, copies each column along 64 lanes, multiplies slice by column and adds the three
  products from the left. Read at row r and lane d every step is a statement about single entries: a slice at lane d
  is the block at lane 64 i + d, a copied column is the column's one entry, and a product or a sum of vectors is the
  product or the sum of the entries. What is left is the weighted sum of the three vectors of the row.
-/
import proofs.«412432_j74655121539772_3_alg».proof.Proof.KPay
import proofs.«412432_j74655121539772_3_alg».proof.Proof.Spec
import Idealize.ShloMosaic.Lib.ValueIdx
import Idealize.ShloMosaic.Lib.ValueLayout
import Idealize.ShloMosaic.Lib.Pipeline.Value

noncomputable section

namespace Cert.KernelIdeal.ItemValue

open Cert.KernelIdeal Cert.KernelIdeal.Gen Idealize.ShloMosaic Idealize.ShloMosaic.ValueIdx

/-- A column of 1024 entries copied along 64 lanes reads, at row r and any lane, the column's entry of row r. -/
theorem bcastCol_apply (c : FVec Ideal S1024x1 .f32) (h : S1024x1.Broadcasts S1024x64) (r : Fin 1024) (d : Fin 64) :
    broadcastTo S1024x64 c h (ix2 r d) = c (ix2 r (0 : Fin 1)) := by
  refine broadcastTo_apply c h (ix2 r d) (ix2 r (0 : Fin 1)) fun ax => ?_
  match ax with
  | ⟨0, _⟩ => rfl
  | ⟨1, _⟩ => rfl

/-- The stored block at (r, d) is the row's three 64-lane vectors weighted by the row's three weights and summed. -/
theorem iwStore_apply (v0 : Vec Ideal S1024x192 .f32) (v2 : Vec Ideal S1024x3 .f32) (r : Fin 1024) (d : Fin 64) :
    Cert.KernelIdeal.Body.iwStore (F := Ideal) v0 v2 (ValueIdx.ix2 r d)
      = Cert.Spec.iwRow (fun i d' => v0 (ValueIdx.ix2 r ⟨64 * i.val + d'.val, by omega⟩))
          (fun i => v2 (ValueIdx.ix2 r i)) d := by
  unfold Cert.KernelIdeal.Body.iwStore k1_pay1 Cert.Spec.iwRow
  simp only [shapeCast_self]
  rw [addf_apply, addf_apply, mulf_apply, mulf_apply, mulf_apply,
    bcastCol_apply, bcastCol_apply, bcastCol_apply,
    slice2_axis1_eq, slice2_axis1_eq, slice2_axis1_eq,
    slice2_axis1_eq, slice2_axis1_eq, slice2_axis1_eq]
  rfl

end Cert.KernelIdeal.ItemValue

end
-- ==== Proof.KSem.lean ====
/-
  The two regions' output arrays, row by row, in the specification's terms: row r of the attention region's output is
  the fused user row of row r of its input (three 64-lane slices in, three out); row r of the item region's output is
  the weighted sum of the three 64-lane slices of row r of its first input by row r of its second.
-/
import proofs.«412432_j74655121539772_3_alg».proof.Proof.KRegionValue
import proofs.«412432_j74655121539772_3_alg».proof.Proof.KAttValue
import proofs.«412432_j74655121539772_3_alg».proof.Proof.KItemValue

noncomputable section

namespace Cert.KernelIdeal.Sem

open Cert.KernelIdeal Cert.KernelIdeal.Gen Idealize.ShloMosaic Idealize.ShloMosaic.ValueIdx Idealize.ShloMosaic.TcCoe
open Idealize.SL Idealize.SL.Sem

/-- A 192-lane row as three 64-lane vectors. -/
def lanes (row : Fin 192 → EReal) (i : Fin 3) (d : Fin 64) : EReal := row ⟨64 * i.val + d.val, by omega⟩

/-- The fused user row as a function of the 192-lane row, at a lane. -/
def attG (row : Fin 192 → EReal) (col : Fin 192) : EReal :=
  Cert.Spec.attRow (lanes row) ⟨col.val / 64, by omega⟩ ⟨col.val % 64, Nat.mod_lt _ (by norm_num)⟩

theorem attG_lane (row : Fin 192 → EReal) (i : Fin 3) (d : Fin 64) :
    attG row ⟨64 * i.val + d.val, by omega⟩ = Cert.Spec.attRow (lanes row) i d := by
  unfold attG
  have h1 : (64 * i.val + d.val) / 64 = i.val := by omega
  have h2 : (64 * i.val + d.val) % 64 = d.val := by omega
  congr 1 <;> exact Fin.ext (by simp only [h1, h2])

/-- The attention body's stored block is row-local. -/
theorem attStore_row (x : Vec Ideal S1024x192 .f32) (r' : Fin 1024) (col : Fin 192) :
    Cert.KernelIdeal.Body.attStore (F := Ideal) x (ix2 r' col) = attG (fun col' => x (ix2 r' col')) col := by
  have hc : col = ⟨64 * (⟨col.val / 64, by omega⟩ : Fin 3).val + (⟨col.val % 64, Nat.mod_lt _ (by norm_num)⟩ : Fin 64).val, by
      have := col.isLt; omega⟩ := Fin.ext (by simp only; omega)
  rw [hc, Cert.KernelIdeal.AttValue.attStore_apply, attG_lane]
  rfl

/-- Row `r` of the attention region's output array, lane `64 i + d`. -/
theorem att_array_sem (V : (c : Dev nD) → (b : Ref sig .tc) → Buf (Elt Ideal) ((c : Thread nD τ).loc b)) (c : Dev nD)
    (r : Fin 6144) (i : Fin 3) (d : Fin 64) :
    ((Cert.KernelIdeal.Run.dat0 V c).arrAt 1 cfg0.N : S6144x192.Idx → EReal) (ix2 r ⟨64 * i.val + d.val, by omega⟩)
      = Cert.Spec.attRow (fun i' d' => (V c main_v283 : S6144x192.Idx → EReal) (ix2 r ⟨64 * i'.val + d'.val, by omega⟩)) i d := by
  rw [Cert.KernelIdeal.RegionValue.att_array V c attG attStore_row r, attG_lane]
  rfl

/-- The item body's stored block is row-local. -/
def iwG (row : Fin 192 → EReal) (w : Fin 3 → EReal) (d : Fin 64) : EReal := Cert.Spec.iwRow (lanes row) w d

theorem iwStore_row (x : Vec Ideal S1024x192 .f32) (w : Vec Ideal S1024x3 .f32) (r' : Fin 1024) (d : Fin 64) :
    Cert.KernelIdeal.Body.iwStore (F := Ideal) x w (ix2 r' d) = iwG (fun col' => x (ix2 r' col')) (fun i => w (ix2 r' i)) d := by
  rw [Cert.KernelIdeal.ItemValue.iwStore_apply]
  rfl

/-- Row `r` of the item region's output array. -/
theorem item_array_sem (V : (c : Dev nD) → (b : Ref sig .tc) → Buf (Elt Ideal) ((c : Thread nD τ).loc b)) (c : Dev nD)
    (r : Fin 12288) (d : Fin 64) :
    ((Cert.KernelIdeal.Run.dat1 V c).arrAt 2 cfg1.N : S12288x64.Idx → EReal) (ix2 r d)
      = Cert.Spec.iwRow (fun i d' => (V c main_v312 : S12288x192.Idx → EReal) (ix2 r ⟨64 * i.val + d'.val, by omega⟩))
          (fun i => (V c main_v311 : S12288x3.Idx → EReal) (ix2 r i)) d := by
  rw [Cert.KernelIdeal.RegionValue.item_array V c iwG iwStore_row r d]
  rfl

end Cert.KernelIdeal.Sem

end
-- ==== Proof.SpecIdx.lean ====
/-
  The row an indexed read takes from a table, as a function of the 32-bit index word.

  An index `x` into a table of `N` rows is read as a signed integer; a negative index counts from the table's end
  (`x + N`, in 32-bit arithmetic), and the row read is that integer clamped into `0 … N - 1`. Both programs index
  their tables this way, so both sides' gathered rows are written with this one function.
-/
import Idealize.ShloMosaic.PureOps.Dims

namespace Cert.Spec

/-- The row of an `N`-row table that the signed 32-bit index `x` reads. -/
def gRow (N : Nat) (x : BitVec 32) : Nat :=
  min ((if x.slt 0 then x + BitVec.ofNat 32 N else x).toInt.toNat) (N - 1)

/-- It is a row of the table. -/
theorem gRow_lt {N : Nat} (hN : 0 < N) (x : BitVec 32) : gRow N x < N :=
  Nat.lt_of_le_of_lt (Nat.min_le_right _ _) (Nat.sub_lt hN Nat.one_pos)

end Cert.Spec
-- ==== Proof.KUserRows.lean ====
/-
  The batch's user rows, as the kernel program's first host stretch gathers them.

  The last operations of the stretch take column 0 of the `[2048, 3, 3]` index array (the batch's user indices), flatten
  it to `[6144]` (entry `r` is `(r / 3, r % 3, 0)`), count a negative index from the end of the 60001-row table, gather
  the table's `[3, 64]` rows at those indices (each index read signed and clamped into the table), and lay each gathered
  row's three 64-entry vectors side by side along 192 lanes. So row `r`, lane `64 i + d` of the gathered block is the
  table at (the row index `r` names, `i`, `d`): `user_rows`, for any contents the stretch starts from.

  The proof cuts the stretch into the operations before the first of those and the fourteen from it on; reads the
  fourteen's composed value at an index, operation by operation (a slice, two reshapes, a compare / add / select on one
  word, a broadcast to a column, the gather, a reshape); and checks that the table is not written by the fourteen and
  the index array by no operation of the stretch.
-/
import proofs.«412432_j74655121539772_3_alg».proof.Proof.Gen.KernelIdeal.Launch
import proofs.«412432_j74655121539772_3_alg».proof.Proof.SpecIdx
import Idealize.ShloMosaic.Lib.ValueIdx
import Idealize.ShloMosaic.Lib.ValueLayout

-- the 350-operation stretch's list recurses past the default depth
set_option maxRecDepth 5356

noncomputable section

namespace Cert.KernelIdeal.UserRows

open Cert.KernelIdeal Cert.KernelIdeal.Gen Idealize.ShloMosaic Idealize.ShloMosaic.ValueIdx

/-! ## The pure operations of the gather, each read at an index -/

/-- The printed form of "a negative index counts from the end" on one 32-bit index into a table of 60001 rows. -/
theorem select_neg_wrap (x : BitVec 32) :
    Scalar.select (IntOp.cmpi .slt x 0#32) (IntOp.addi x 60001#32) x
      = if x.slt 0 then x + BitVec.ofNat 32 60001 else x := by
  cases h : x.slt 0#32 <;> simp [Scalar.select, IntOp.cmpi, IntOp.addi, h]

/-- A `[a]` vector broadcast to the column `[a, 1]` reads, at `(i, u)`, the vector at `i`. -/
theorem broadcastInDim_a_a1_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A scalar broadcast to any shape reads the scalar everywhere. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

/-- The `[2048, 3, 3]` index array cut to its first column and flattened to `[6144]` reads, at `r`, entry
    `(r / 3, r % 3, 0)`. -/
theorem flat_col0_apply {α : Type} (a5 : S2048x3x3.Idx → α) (h1 : S2048x3x3.Slices ![0, 0, 0] S2048x3x1)
    (h2 : S2048x3x1.ShapeCasts S2048x3) (h3 : S2048x3.ShapeCasts S6144) (r : Fin 6144) :
    shapeCast S6144 (shapeCast S2048x3 (extractStridedSlice S2048x3x1 ![0, 0, 0] a5 h1) h2) h3 (ix1 r)
      = a5 (ix3 ⟨r.val / 3, by omega⟩ ⟨r.val % 3, by omega⟩ 0) := by
  refine (shapeCast_apply _ h3 (ix1 r) (ix2 (⟨r.val / 3, by omega⟩ : Fin 2048) (⟨r.val % 3, by omega⟩ : Fin 3)) (by
    rw [Shape.rowMajor_val_two, Shape.rowMajor_val_one]
    show r.val / 3 * 3 + r.val % 3 = r.val
    omega)).trans ?_
  refine (shapeCast_apply _ h2 _ (ix3 (⟨r.val / 3, by omega⟩ : Fin 2048) (⟨r.val % 3, by omega⟩ : Fin 3) (0 : Fin 1)) (by
    rw [Shape.rowMajor_val_three, Shape.rowMajor_val_two]
    show (r.val / 3 * 3 + r.val % 3) * 1 + 0 = r.val / 3 * 3 + r.val % 3
    omega)).trans ?_
  refine extractStridedSlice_apply _ a5 h1 _ (ix3 (⟨r.val / 3, by omega⟩ : Fin 2048) (⟨r.val % 3, by omega⟩ : Fin 3) (0 : Fin 3)) fun ax => ?_
  match ax with
  | ⟨0, _⟩ => exact (Nat.zero_add _).symm
  | ⟨1, _⟩ => exact (Nat.zero_add _).symm
  | ⟨2, _⟩ => exact (Nat.zero_add _).symm

/-- The `[6144, 3, 64]` array flattened to `[6144, 192]` reads, at `(r, 64 i + d)`, entry `(r, i, d)`. -/
theorem flat_lanes_apply {α : Type} (y : S6144x3x64.Idx → α) (h : S6144x3x64.ShapeCasts S6144x192)
    (r : Fin 6144) (i : Fin 3) (d : Fin 64) :
    shapeCast S6144x192 y h (ix2 r ⟨64 * i.val + d.val, by omega⟩) = y (ix3 r i d) :=
  shapeCast_apply y h _ _ (by
    rw [Shape.rowMajor_val_three, Shape.rowMajor_val_two]
    show (r.val * 3 + i.val) * 64 + d.val = r.val * 192 + (64 * i.val + d.val)
    omega)

/-- The gather's dimension numbers, under a short name. -/
local notation "GD" => gather_S60001x3x64_S6144x1_S6144x3x64_12_0_n_n_0_1_1364

/-- **The gather of whole rows read at `(r, i, d)`**: the table's row that start index `r` names — read signed and
    clamped into `0 … 60000` — at `(i, d)`. -/
theorem gather_rows_apply {α : Type} (x : S60001x3x64.Idx → α) (idx : IVec S6144x1 32) (r : Fin 6144) (i : Fin 3) (d : Fin 64) :
    Host.gather gather_S60001x3x64_S6144x1_S6144x3x64_12_0_n_n_0_1_1364 x idx (ix3 r i d)
      = x (ix3 ⟨min (idx (ix2 r (0 : Fin 1))).toInt.toNat (60001 - 1), by omega⟩ i d) := by
  unfold Host.gather
  congr 1
  funext a
  refine Fin.ext ?_
  show gather_S60001x3x64_S6144x1_S6144x3x64_12_0_n_n_0_1_1364.start (ix3 r i d) idx a
      + gather_S60001x3x64_S6144x1_S6144x3x64_12_0_n_n_0_1_1364.batchCoord (ix3 r i d) a
      + gather_S60001x3x64_S6144x1_S6144x3x64_12_0_n_n_0_1_1364.offCoord (ix3 r i d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S60001x3x64.rank) ∈ gather_S60001x3x64_S6144x1_S6144x3x64_12_0_n_n_0_1_1364.startIndexMap from List.mem_singleton.mpr rfl)]
    have hsi : gather_S60001x3x64_S6144x1_S6144x3x64_12_0_n_n_0_1_1364.siIdx (ix3 r i d)
        ⟨List.idxOf (⟨0, by decide⟩ : Fin S60001x3x64.rank) gather_S60001x3x64_S6144x1_S6144x3x64_12_0_n_n_0_1_1364.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : gather_S60001x3x64_S6144x1_S6144x3x64_12_0_n_n_0_1_1364.start (ix3 r i d) idx ⟨1, by decide⟩ = 0 := by
      unfold GatherDims.start
      rw [dif_neg (by decide)]
    have ho : gather_S60001x3x64_S6144x1_S6144x3x64_12_0_n_n_0_1_1364.offCoord (ix3 r i d) ⟨1, by decide⟩ = i.val := by
      unfold GatherDims.offCoord
      rw [dif_pos (by decide)]
      rfl
    rw [hs, ho, Nat.zero_add]
  | ⟨2, _⟩ =>
    have hs : gather_S60001x3x64_S6144x1_S6144x3x64_12_0_n_n_0_1_1364.start (ix3 r i d) idx ⟨2, by decide⟩ = 0 := by
      unfold GatherDims.start
      rw [dif_neg (by decide)]
    have ho : gather_S60001x3x64_S6144x1_S6144x3x64_12_0_n_n_0_1_1364.offCoord (ix3 r i d) ⟨2, by decide⟩ = d.val := by
      unfold GatherDims.offCoord
      rw [dif_pos (by decide)]
      rfl
    rw [hs, ho, Nat.zero_add]

/-! ## The tail of the first host stretch -/

variable {F : FTy → Type} [FloatOps F]

/-- The last fourteen operations of the first host stretch: the batch's user indices cut from the index array and
    flattened, a negative index wrapped, the table's rows gathered and each row's three vectors laid along the lanes. -/
abbrev tailOps : List (HloOp τ sig (Elt F)) :=
  ( StableHlo.unary main_arg5 main_v272 ((extractStridedSlice S2048x3x1 ![0, 0, 0] · slices_S2048x3x3_S2048x3x1_0_0_0) : (⟨S2048x3x3, .i32⟩ : BufTy).Contents (Elt F) → (⟨S2048x3x1, .i32⟩ : BufTy).Contents (Elt F))
  :: StableHlo.reshape main_v272 main_v273 rfl shapeCasts_S2048x3x1_S2048x3
  :: StableHlo.unary main_arg5 main_v274 ((extractStridedSlice S2048x3x2 ![0, 0, 1] · slices_S2048x3x3_S2048x3x2_0_0_1) : (⟨S2048x3x3, .i32⟩ : BufTy).Contents (Elt F) → (⟨S2048x3x2, .i32⟩ : BufTy).Contents (Elt F))
  :: StableHlo.reshape main_v273 main_v275 rfl shapeCasts_S2048x3_S6144
  :: StableHlo.nullary main_c_62 (constantI S_ 32 0#32)
  :: StableHlo.unary main_c_62 main_v276 (broadcastInDim S6144 ![] bcast_S_S6144 : (⟨S_, .i32⟩ : BufTy).Contents (Elt F) → (⟨S6144, .i32⟩ : BufTy).Contents (Elt F))
  :: StableHlo.binary main_v275 main_v276 main_v277 (cmpi .slt : (⟨S6144, .i32⟩ : BufTy).Contents (Elt F) → (⟨S6144, .i32⟩ : BufTy).Contents (Elt F) → (⟨S6144, .i1⟩ : BufTy).Contents (Elt F))
  :: StableHlo.nullary main_c_63 (constantI S_ 32 60001#32)
  :: StableHlo.unary main_c_63 main_v278 (broadcastInDim S6144 ![] bcast_S_S6144 : (⟨S_, .i32⟩ : BufTy).Contents (Elt F) → (⟨S6144, .i32⟩ : BufTy).Contents (Elt F))
  :: StableHlo.binary main_v275 main_v278 main_v279 (addi : (⟨S6144, .i32⟩ : BufTy).Contents (Elt F) → (⟨S6144, .i32⟩ : BufTy).Contents (Elt F) → (⟨S6144, .i32⟩ : BufTy).Contents (Elt F))
  :: StableHlo.ternary main_v277 main_v279 main_v275 main_v280 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F))
  :: StableHlo.unary main_v280 main_v281 (broadcastInDim S6144x1 ![0] bcast_S6144_S6144x1_0 : (⟨S6144, .i32⟩ : BufTy).Contents (Elt F) → (⟨S6144x1, .i32⟩ : BufTy).Contents (Elt F))
  :: StableHlo.binary main_v263 main_v281 main_v282 ((fun x i => Host.gather gather_S60001x3x64_S6144x1_S6144x3x64_12_0_n_n_0_1_1364 x i) : (⟨S60001x3x64, .f32⟩ : BufTy).Contents (Elt F) → (⟨S6144x1, .i32⟩ : BufTy).Contents (Elt F) → (⟨S6144x3x64, .f32⟩ : BufTy).Contents (Elt F))
  :: StableHlo.reshape main_v282 main_v283 rfl shapeCasts_S6144x3x64_S6144x192
  :: [] )

/-- The operations before them. -/
def headOps : List (HloOp τ sig (Elt F)) := hostOps0.take 336

/-- The first host stretch is its first 336 operations followed by those fourteen. -/
theorem hostOps0_split : (hostOps0 : List (HloOp τ sig (Elt F))) = headOps ++ tailOps :=
  (List.take_append_drop 336 _).symm.trans (congrArg (hostOps0.take 336 ++ ·) (rfl : (hostOps0 : List (HloOp τ sig (Elt F))).drop 336 = tailOps))

/-- The start-index column the gather reads, at row `r`: the batch's user index `(r / 3, r % 3, 0)`, a negative one
    counted from the table's end. -/
theorem rowIdx_apply (a5 : S2048x3x3.Idx → BitVec 32) (h1 : S2048x3x3.Slices ![0, 0, 0] S2048x3x1)
    (h2 : S2048x3x1.ShapeCasts S2048x3) (h3 : S2048x3.ShapeCasts S6144)
    (hb0 : S_.BroadcastsInDim S6144 ![]) (hb1 : S6144.BroadcastsInDim S6144x1 ![0]) (r : Fin 6144) (u : Fin 1) :
    broadcastInDim S6144x1 ![0] hb1
        (select
          (cmpi .slt (shapeCast S6144 (shapeCast S2048x3 (extractStridedSlice S2048x3x1 ![0, 0, 0] a5 h1) h2) h3)
            (broadcastInDim S6144 ![] hb0 (constantI S_ 32 0#32)))
          (addi (shapeCast S6144 (shapeCast S2048x3 (extractStridedSlice S2048x3x1 ![0, 0, 0] a5 h1) h2) h3)
            (broadcastInDim S6144 ![] hb0 (constantI S_ 32 60001#32)))
          (shapeCast S6144 (shapeCast S2048x3 (extractStridedSlice S2048x3x1 ![0, 0, 0] a5 h1) h2) h3)) (ix2 r u)
      = if (a5 (ix3 ⟨r.val / 3, by omega⟩ ⟨r.val % 3, by omega⟩ 0)).slt 0
          then a5 (ix3 ⟨r.val / 3, by omega⟩ ⟨r.val % 3, by omega⟩ 0) + BitVec.ofNat 32 60001
          else a5 (ix3 ⟨r.val / 3, by omega⟩ ⟨r.val % 3, by omega⟩ 0) := by
  rw [broadcastInDim_a_a1_apply]
  show Scalar.select
      (IntOp.cmpi .slt (shapeCast S6144 (shapeCast S2048x3 (extractStridedSlice S2048x3x1 ![0, 0, 0] a5 h1) h2) h3 (ix1 r))
        (broadcastInDim S6144 ![] hb0 (constantI S_ 32 0#32) (ix1 r)))
      (IntOp.addi (shapeCast S6144 (shapeCast S2048x3 (extractStridedSlice S2048x3x1 ![0, 0, 0] a5 h1) h2) h3 (ix1 r))
        (broadcastInDim S6144 ![] hb0 (constantI S_ 32 60001#32) (ix1 r)))
      (shapeCast S6144 (shapeCast S2048x3 (extractStridedSlice S2048x3x1 ![0, 0, 0] a5 h1) h2) h3 (ix1 r)) = _
  rw [flat_col0_apply, broadcastInDim_scalar_apply, broadcastInDim_scalar_apply]
  exact select_neg_wrap _

/-- **After the tail**, row `r`, lane `64 i + d` of the gathered block is the table at the row the batch's user index
    `(r / 3, r % 3, 0)` names, at `(i, d)`. -/
theorem tail_rows (V : Valuation τ sig (Elt F)) (r : Fin 6144) (i : Fin 3) (d : Fin 64) :
    (StableHlo.after tailOps V (Proc.devRef .tc main_v283) : S6144x192.Idx → F .f32) (ix2 r ⟨64 * i.val + d.val, by omega⟩)
      = (V (Proc.devRef .tc main_v263) : S60001x3x64.Idx → F .f32)
          (ix3 ⟨Cert.Spec.gRow 60001 ((V (Proc.devRef .tc main_arg5) : S2048x3x3.Idx → BitVec 32)
              (ix3 ⟨r.val / 3, by omega⟩ ⟨r.val % 3, by omega⟩ 0)), Cert.Spec.gRow_lt (by norm_num) _⟩ i d) := by
  have e : (StableHlo.after tailOps V (Proc.devRef .tc main_v283) : S6144x192.Idx → F .f32)
      = shapeCast S6144x192
          (Host.gather gather_S60001x3x64_S6144x1_S6144x3x64_12_0_n_n_0_1_1364
            (V (Proc.devRef .tc main_v263) : S60001x3x64.Idx → F .f32)
            (broadcastInDim S6144x1 ![0] bcast_S6144_S6144x1_0
              (select
                (cmpi .slt (shapeCast S6144 (shapeCast S2048x3 (extractStridedSlice S2048x3x1 ![0, 0, 0]
                    (V (Proc.devRef .tc main_arg5) : S2048x3x3.Idx → BitVec 32) slices_S2048x3x3_S2048x3x1_0_0_0)
                    shapeCasts_S2048x3x1_S2048x3) shapeCasts_S2048x3_S6144)
                  (broadcastInDim S6144 ![] bcast_S_S6144 (constantI S_ 32 0#32)))
                (addi (shapeCast S6144 (shapeCast S2048x3 (extractStridedSlice S2048x3x1 ![0, 0, 0]
                    (V (Proc.devRef .tc main_arg5) : S2048x3x3.Idx → BitVec 32) slices_S2048x3x3_S2048x3x1_0_0_0)
                    shapeCasts_S2048x3x1_S2048x3) shapeCasts_S2048x3_S6144)
                  (broadcastInDim S6144 ![] bcast_S_S6144 (constantI S_ 32 60001#32)))
                (shapeCast S6144 (shapeCast S2048x3 (extractStridedSlice S2048x3x1 ![0, 0, 0]
                    (V (Proc.devRef .tc main_arg5) : S2048x3x3.Idx → BitVec 32) slices_S2048x3x3_S2048x3x1_0_0_0)
                    shapeCasts_S2048x3x1_S2048x3) shapeCasts_S2048x3_S6144))))
          shapeCasts_S6144x3x64_S6144x192 := by
    dsimp only [tailOps]
    after_results_simp
    rfl
  rw [e, flat_lanes_apply, gather_rows_apply]
  refine congrArg _ (congrArg (fun k => ix3 k i d) (Fin.ext ?_))
  show min (BitVec.toInt _).toNat (60001 - 1) = Cert.Spec.gRow 60001 _
  rw [rowIdx_apply]
  rfl

/-! ## What the stretch leaves alone -/

/-- No operation of the first host stretch writes the index array: it is an argument of the program. -/
theorem hostOps0_not_writes_arg5 :
    (hostOps0 : List (HloOp τ sig (Elt F))).Forall fun op => Proc.devRef .tc main_arg5 ∉ op.writes := by
  repeat' apply And.intro
  all_goals exact fun h => absurd (Proc.devRef_injective _ (Finset.mem_singleton.mp h)) (by decide)

/-- So the index array is the same after the stretch as before it. -/
theorem hostOps0_keeps_arg5 (V : Valuation τ sig (Elt F)) :
    StableHlo.after hostOps0 V (Proc.devRef .tc main_arg5) = V (Proc.devRef .tc main_arg5) :=
  StableHlo.after_of_forall_not_mem _ V (List.forall_iff_forall_mem.mp hostOps0_not_writes_arg5)

/-- The same of the operations before the tail. -/
theorem headOps_keeps_arg5 (V : Valuation τ sig (Elt F)) :
    StableHlo.after headOps V (Proc.devRef .tc main_arg5) = V (Proc.devRef .tc main_arg5) :=
  StableHlo.after_of_forall_not_mem _ V fun op hop =>
    List.forall_iff_forall_mem.mp hostOps0_not_writes_arg5 op (List.mem_of_mem_take hop)

/-- The tail does not write the table of user rows. -/
theorem tailOps_keeps_v263 (V : Valuation τ sig (Elt F)) :
    StableHlo.after tailOps V (Proc.devRef .tc main_v263) = V (Proc.devRef .tc main_v263) := by
  refine StableHlo.after_of_forall_not_mem _ V (List.forall_iff_forall_mem.mp ?_)
  repeat' apply And.intro
  all_goals exact fun h => absurd (Proc.devRef_injective _ (Finset.mem_singleton.mp h)) (by decide)

/-! ## The batch's user rows -/

/-- **The gathered block after the first host stretch**: row `r`, lane `64 i + d` is the table of user rows at the row
    the batch's user index `(r / 3, r % 3, 0)` names, at `(i, d)`. -/
theorem user_rows (V : Valuation τ sig (Elt F)) (r : Fin 6144) (i : Fin 3) (d : Fin 64) :
    (StableHlo.after hostOps0 V (Proc.devRef .tc main_v283) : S6144x192.Idx → F .f32) (ix2 r ⟨64 * i.val + d.val, by omega⟩)
      = (StableHlo.after hostOps0 V (Proc.devRef .tc main_v263) : S60001x3x64.Idx → F .f32)
          (ix3 ⟨Cert.Spec.gRow 60001 ((V (Proc.devRef .tc main_arg5) : S2048x3x3.Idx → BitVec 32)
              (ix3 ⟨r.val / 3, by omega⟩ ⟨r.val % 3, by omega⟩ 0)), Cert.Spec.gRow_lt (by norm_num) _⟩ i d) := by
  rw [hostOps0_split, StableHlo.after_append, tail_rows, tailOps_keeps_v263, headOps_keeps_arg5]

end Cert.KernelIdeal.UserRows

end
-- ==== Proof.KMidRows.lean ====
/-
  Between the two regions: the fused user rows regrouped, and the batch's item rows and item weights read off their tables.

  The first region leaves one fused row of 192 = 3 x 64 entries for each of the 6144 = 2048 x 3 (example, behaviour) pairs;
  regrouped as [2048, 3, 3, 64], entry (n, b, i, d) is entry 64 i + d of row 3 n + b. The batch names 12288 = 2048 x 3 x 2
  items by 32-bit index words; word r (example r / 6, behaviour (r / 2) % 3, positive or negative item r % 2) reads row
  `itemRow r` of a 40001-row table: the word as a signed integer, a negative one counted from the table's end, clamped
  into the table. Two tables are read at these rows: the items' three behaviour vectors ([40001, 3, 64], flattened to
  rows of 192 entries) and the items' three behaviour weights ([40001, 3]). A weight is the item's degree under the
  behaviour times the behaviour's coefficient, divided by the sum of the three such products plus a small constant.
-/
import proofs.«412432_j74655121539772_3_alg».proof.Proof.Gen.KernelIdeal.Launch
import proofs.«412432_j74655121539772_3_alg».proof.Proof.SpecIdx
import Idealize.ShloMosaic.Lib.ValueIdx
import Idealize.ShloMosaic.Lib.Pipeline.Value
import Idealize.ShloMosaic.Lib.StableHlo.Run

set_option maxRecDepth 16384

noncomputable section

namespace Cert.KernelIdeal.MidRows

open Cert.KernelIdeal Cert.KernelIdeal.Gen
open Idealize.ShloMosaic Idealize.ShloMosaic.TcCoe Idealize.ShloMosaic.ValueIdx

variable {F : FTy → Type} [FloatOps F]

/-! ## The fused user rows, regrouped -/

section Regroup
variable {α : Type}

/-- [6144, 192] read as [6144, 3, 64] and then as [2048, 3, 3, 64]: entry (n, b, i, d) is entry 64 i + d of row 3 n + b. -/
theorem regroup_apply (x : S6144x192.Idx → α) (n : Fin 2048) (b i : Fin 3) (d : Fin 64) :
    shapeCast S2048x3x3x64 (shapeCast S6144x3x64 x shapeCasts_S6144x192_S6144x3x64) shapeCasts_S6144x3x64_S2048x3x3x64
        (ix4 n b i d)
      = x (ix2 ⟨3 * n.val + b.val, by omega⟩ ⟨64 * i.val + d.val, by omega⟩) := by
  refine (shapeCast_apply _ _ (ix4 n b i d) (ix3 ⟨3 * n.val + b.val, by omega⟩ i d) ?_).trans ?_
  · rw [Shape.rowMajor_val_three, Shape.rowMajor_val_four]
    show ((3 * n.val + b.val) * 3 + i.val) * 64 + d.val = ((n.val * 3 + b.val) * 3 + i.val) * 64 + d.val
    omega
  · refine shapeCast_apply _ _ _ _ ?_
    rw [Shape.rowMajor_val_two, Shape.rowMajor_val_three]
    show (3 * n.val + b.val) * 192 + (64 * i.val + d.val) = ((3 * n.val + b.val) * 3 + i.val) * 64 + d.val
    omega

end Regroup

/-- The regrouped rows after the stretch, entry by entry. -/
theorem att_rows (V : Valuation τ sig (Elt F)) (n : Fin 2048) (b i : Fin 3) (d : Fin 64) :
    (StableHlo.after hostOps1 V (Proc.devRef .tc main_v286) : S2048x3x3x64.Idx → F .f32) (ix4 n b i d)
      = (V (Proc.devRef .tc main_v284) : S6144x192.Idx → F .f32)
          (ix2 ⟨3 * n.val + b.val, by omega⟩ ⟨64 * i.val + d.val, by omega⟩) := by
  have e : (StableHlo.after hostOps1 V (Proc.devRef .tc main_v286) : S2048x3x3x64.Idx → F .f32)
      = shapeCast S2048x3x3x64 (shapeCast S6144x3x64 (V (Proc.devRef .tc main_v284) : S6144x192.Idx → F .f32)
          shapeCasts_S6144x192_S6144x3x64) shapeCasts_S6144x3x64_S2048x3x3x64 := by
    unfold hostOps1; after_results_simp; rfl
  rw [e]
  exact regroup_apply _ n b i d

/-! ## The item weights -/

/-- The item weights from the items' degrees `deg` under the three behaviours and the behaviours' coefficients `w`:
    each degree times its coefficient, divided by the row's sum of the three products plus a constant. -/
def wK (deg : FVec F S40001x3 .f32) (w : FVec F S3 .f32) : FVec F S40001x3 .f32 :=
  Host.divf
    (mulf deg
      (broadcastInDim S40001x3 ![0, 1] bcast_S1x3_S40001x3_0_1 (broadcastInDim S1x3 ![1] bcast_S3_S1x3_1 w)))
    (broadcastInDim S40001x3 ![0, 1] bcast_S40001x1_S40001x3_0_1
      (addf
        (broadcastInDim S40001x1 ![0] bcast_S40001_S40001x1_0
          (Host.reduceAdd
            (mulf deg
              (broadcastInDim S40001x3 ![0, 1] bcast_S1x3_S40001x3_0_1 (broadcastInDim S1x3 ![1] bcast_S3_S1x3_1 w)))
            (constant (F := F) S_ .f32 0x00000000#32) reducesTo_S40001x3_S40001_d1 h_S_))
        (broadcastInDim S40001x1 ![] bcast_S_S40001x1 (constant (F := F) S_ .f32 0x322BCC77#32))))

/-- The weight table after the stretch. -/
theorem weights_eq (V : Valuation τ sig (Elt F)) :
    (StableHlo.after hostOps1 V (Proc.devRef .tc main_v303) : S40001x3.Idx → F .f32)
      = wK (V (Proc.devRef .tc main_v271)) (V (Proc.devRef .tc main_arg2)) := by
  unfold hostOps1; after_results_simp; rfl

/-! ## The rows the batch reads -/

/-- The start indices both reads take: the index words in one column, a negative word moved up by the table's
    40001 rows. -/
def idxK (x : IVec S2048x3x2 32) : IVec S12288x1 32 :=
  broadcastInDim S12288x1 ![0] bcast_S12288_S12288x1_0
    (select
      (cmpi CmpIPredicate.slt (shapeCast S12288 x shapeCasts_S2048x3x2_S12288)
        (broadcastInDim S12288 ![] bcast_S_S12288 (constantI S_ 32 0#32)))
      (addi (shapeCast S12288 x shapeCasts_S2048x3x2_S12288)
        (broadcastInDim S12288 ![] bcast_S_S12288 (constantI S_ 32 40001#32)))
      (shapeCast S12288 x shapeCasts_S2048x3x2_S12288))

/-- Start index `r`, read signed and clamped into the table, is the row the `r`-th index word names. -/
theorem idxK_row (x : IVec S2048x3x2 32) (r : Fin 12288) :
    min (idxK x (ix2 r 0)).toInt.toNat 40000
      = Cert.Spec.gRow 40001 (x (ix3 ⟨r.val / 6, by omega⟩ ⟨(r.val / 2) % 3, by omega⟩ ⟨r.val % 2, by omega⟩)) := by
  have hc : shapeCast S12288 x shapeCasts_S2048x3x2_S12288 (ix1 r)
      = x (ix3 ⟨r.val / 6, by omega⟩ ⟨(r.val / 2) % 3, by omega⟩ ⟨r.val % 2, by omega⟩) :=
    shapeCast_apply x _ _ _ (by
      rw [Shape.rowMajor_val_three, Shape.rowMajor_val_one]
      show ((r.val / 6) * 3 + (r.val / 2) % 3) * 2 + r.val % 2 = r.val
      omega)
  have e1 : idxK x (ix2 r 0)
      = Scalar.select (IntOp.cmpi .slt (shapeCast S12288 x shapeCasts_S2048x3x2_S12288 (ix1 r)) 0#32)
          (IntOp.addi (shapeCast S12288 x shapeCasts_S2048x3x2_S12288 (ix1 r)) 40001#32)
          (shapeCast S12288 x shapeCasts_S2048x3x2_S12288 (ix1 r)) := by
    unfold idxK
    exact broadcastInDim_apply _ _ _ _ (ix1 r) (fun a => match a with | ⟨0, _⟩ => rfl)
  rw [e1, hc]
  generalize x (ix3 ⟨r.val / 6, _⟩ ⟨(r.val / 2) % 3, _⟩ ⟨r.val % 2, _⟩) = y
  unfold Cert.Spec.gRow Scalar.select IntOp.cmpi IntOp.addi
  cases h : y.slt 0 <;> simp [h]

section Gather
variable {α : Type}

local notation "d3" => gather_S40001x3x64_S12288x1_S12288x3x64_12_0_n_n_0_1_1364
local notation "d2" => gather_S40001x3_S12288x1_S12288x3_1_0_n_n_0_1_13

/-- A gather of whole [3, 64] rows of a [40001, 3, 64] table at a column of 12288 start indices: result row `r` is the
    table's row at start index `r`, read signed and clamped into the table. On the row axis the operand index is the
    clamped start; on the other two it is the result's own coordinate. -/
theorem gather_rows3 (x : S40001x3x64.Idx → α) (idx : IVec S12288x1 32) (r : Fin 12288) (i : Fin 3) (k : Fin 64) :
    Host.gather d3 x idx (ix3 r i k)
      = x (ix3 ⟨min (idx (ix2 r 0)).toInt.toNat 40000, by omega⟩ i k) := by
  unfold Host.gather
  congr 1
  funext a
  refine Fin.ext ?_
  show (d3).start (ix3 r i k) idx a + (d3).batchCoord (ix3 r i k) a + (d3).offCoord (ix3 r i k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    have hm : (⟨0, h0⟩ : Fin S40001x3x64.rank) ∈ (d3).startIndexMap := List.mem_singleton.mpr rfl
    unfold GatherDims.start
    rw [dif_pos hm]
    have hsi : (d3).siIdx (ix3 r i k) ⟨List.idxOf (⟨0, h0⟩ : Fin S40001x3x64.rank) (d3).startIndexMap,
          List.idxOf_lt_length_iff.2 hm⟩ = ix2 r 0 := by
      funext b; refine Fin.ext ?_
      match b with
      | ⟨0, _⟩ => rfl
      | ⟨1, _⟩ => rfl
    rw [hsi]
    rfl
  | ⟨1, h1⟩ =>
    have hs : (d3).start (ix3 r i k) idx ⟨1, h1⟩ = 0 := by
      unfold GatherDims.start; exact dif_neg (by decide : (1 : Fin 3) ∉ (d3).startIndexMap)
    have ho : (d3).offCoord (ix3 r i k) ⟨1, h1⟩ = i.val := by
      unfold GatherDims.offCoord
      have hk : (⟨1, h1⟩ : Fin S40001x3x64.rank) ∈ (d3).sKept := (by decide : (1 : Fin 3) ∈ (d3).sKept)
      rw [dif_pos hk]
      rfl
    rw [hs, ho]
    show 0 + 0 + i.val = i.val
    omega
  | ⟨2, h2⟩ =>
    have hs : (d3).start (ix3 r i k) idx ⟨2, h2⟩ = 0 := by
      unfold GatherDims.start; exact dif_neg (by decide : (2 : Fin 3) ∉ (d3).startIndexMap)
    have ho : (d3).offCoord (ix3 r i k) ⟨2, h2⟩ = k.val := by
      unfold GatherDims.offCoord
      have hk : (⟨2, h2⟩ : Fin S40001x3x64.rank) ∈ (d3).sKept := (by decide : (2 : Fin 3) ∈ (d3).sKept)
      rw [dif_pos hk]
      rfl
    rw [hs, ho]
    show 0 + 0 + k.val = k.val
    omega

/-- The same for whole rows of three entries of a [40001, 3] table. -/
theorem gather_rows2 (x : S40001x3.Idx → α) (idx : IVec S12288x1 32) (r : Fin 12288) (i : Fin 3) :
    Host.gather d2 x idx (ix2 r i)
      = x (ix2 ⟨min (idx (ix2 r 0)).toInt.toNat 40000, by omega⟩ i) := by
  unfold Host.gather
  congr 1
  funext a
  refine Fin.ext ?_
  show (d2).start (ix2 r i) idx a + (d2).batchCoord (ix2 r i) a + (d2).offCoord (ix2 r i) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    have hm : (⟨0, h0⟩ : Fin S40001x3.rank) ∈ (d2).startIndexMap := List.mem_singleton.mpr rfl
    unfold GatherDims.start
    rw [dif_pos hm]
    have hsi : (d2).siIdx (ix2 r i) ⟨List.idxOf (⟨0, h0⟩ : Fin S40001x3.rank) (d2).startIndexMap,
          List.idxOf_lt_length_iff.2 hm⟩ = ix2 r 0 := by
      funext b; refine Fin.ext ?_
      match b with
      | ⟨0, _⟩ => rfl
      | ⟨1, _⟩ => rfl
    rw [hsi]
    rfl
  | ⟨1, h1⟩ =>
    have hs : (d2).start (ix2 r i) idx ⟨1, h1⟩ = 0 := by
      unfold GatherDims.start; exact dif_neg (by decide : (1 : Fin 2) ∉ (d2).startIndexMap)
    have ho : (d2).offCoord (ix2 r i) ⟨1, h1⟩ = i.val := by
      unfold GatherDims.offCoord
      have hk : (⟨1, h1⟩ : Fin S40001x3.rank) ∈ (d2).sKept := (by decide : (1 : Fin 2) ∈ (d2).sKept)
      rw [dif_pos hk]
      rfl
    rw [hs, ho]
    show 0 + 0 + i.val = i.val
    omega

/-- The gathered [12288, 3, 64] rows flattened to [12288, 192], read at entry 64 i + d of row `r`. -/
theorem item_read (x : S40001x3x64.Idx → α) (w : IVec S2048x3x2 32) (r : Fin 12288) (i : Fin 3) (d : Fin 64) :
    shapeCast S12288x192 (Host.gather d3 x (idxK w)) shapeCasts_S12288x3x64_S12288x192
        (ix2 r ⟨64 * i.val + d.val, by omega⟩)
      = x (ix3 ⟨Cert.Spec.gRow 40001
            (w (ix3 ⟨r.val / 6, by omega⟩ ⟨(r.val / 2) % 3, by omega⟩ ⟨r.val % 2, by omega⟩)),
          Cert.Spec.gRow_lt (by decide) _⟩ i d) := by
  refine (shapeCast_apply _ _ _ (ix3 r i d) ?_).trans ?_
  · rw [Shape.rowMajor_val_three, Shape.rowMajor_val_two]
    show (r.val * 3 + i.val) * 64 + d.val = r.val * 192 + (64 * i.val + d.val)
    omega
  · rw [gather_rows3]
    exact congrArg (fun m : Fin 40001 => x (ix3 m i d)) (Fin.ext (idxK_row w r))

/-- The gathered weights, read at behaviour `i` of row `r`. -/
theorem weight_read (x : S40001x3.Idx → α) (w : IVec S2048x3x2 32) (r : Fin 12288) (i : Fin 3) :
    Host.gather d2 x (idxK w) (ix2 r i)
      = x (ix2 ⟨Cert.Spec.gRow 40001
            (w (ix3 ⟨r.val / 6, by omega⟩ ⟨(r.val / 2) % 3, by omega⟩ ⟨r.val % 2, by omega⟩)),
          Cert.Spec.gRow_lt (by decide) _⟩ i) := by
  rw [gather_rows2]
  exact congrArg (fun m : Fin 40001 => x (ix2 m i)) (Fin.ext (idxK_row w r))

end Gather

/-- The item row the batch's `r`-th index word reads: word `r` belongs to example `r / 6`, behaviour `(r / 2) % 3`,
    and is the positive (0) or the negative (1) item. -/
def itemRow (V : Valuation τ sig (Elt F)) (r : Fin 12288) : Nat :=
  Cert.Spec.gRow 40001 ((V (Proc.devRef .tc main_v274) : S2048x3x2.Idx → BitVec 32)
    (ix3 ⟨r.val / 6, by omega⟩ ⟨(r.val / 2) % 3, by omega⟩ ⟨r.val % 2, by omega⟩))

theorem itemRow_lt (V : Valuation τ sig (Elt F)) (r : Fin 12288) : itemRow V r < 40001 :=
  Cert.Spec.gRow_lt (by decide) _

/-- The item rows after the stretch: entry 64 i + d of row `r` is entry (i, d) of the table's row `itemRow r`. -/
theorem item_rows (V : Valuation τ sig (Elt F)) (r : Fin 12288) (i : Fin 3) (d : Fin 64) :
    (StableHlo.after hostOps1 V (Proc.devRef .tc main_v312) : S12288x192.Idx → F .f32)
        (ix2 r ⟨64 * i.val + d.val, by omega⟩)
      = (V (Proc.devRef .tc main_v267) : S40001x3x64.Idx → F .f32) (ix3 ⟨itemRow V r, itemRow_lt V r⟩ i d) := by
  have e : (StableHlo.after hostOps1 V (Proc.devRef .tc main_v312) : S12288x192.Idx → F .f32)
      = shapeCast S12288x192
          (Host.gather gather_S40001x3x64_S12288x1_S12288x3x64_12_0_n_n_0_1_1364
            (V (Proc.devRef .tc main_v267) : S40001x3x64.Idx → F .f32) (idxK (V (Proc.devRef .tc main_v274))))
          shapeCasts_S12288x3x64_S12288x192 := by
    unfold hostOps1; after_results_simp; rfl
  rw [e]
  exact item_read _ _ r i d

/-- The batch's item weights after the stretch: row `r` is the weight table's row `itemRow r`. -/
theorem weight_rows (V : Valuation τ sig (Elt F)) (r : Fin 12288) (i : Fin 3) :
    (StableHlo.after hostOps1 V (Proc.devRef .tc main_v311) : S12288x3.Idx → F .f32) (ix2 r i)
      = wK (V (Proc.devRef .tc main_v271)) (V (Proc.devRef .tc main_arg2)) (ix2 ⟨itemRow V r, itemRow_lt V r⟩ i) := by
  have e : (StableHlo.after hostOps1 V (Proc.devRef .tc main_v311) : S12288x3.Idx → F .f32)
      = Host.gather gather_S40001x3_S12288x1_S12288x3_1_0_n_n_0_1_13
          (wK (V (Proc.devRef .tc main_v271)) (V (Proc.devRef .tc main_arg2)))
          (idxK (V (Proc.devRef .tc main_v274))) := by
    unfold hostOps1; after_results_simp; rfl
  rw [e]
  exact weight_read _ _ r i

end Cert.KernelIdeal.MidRows

end
-- ==== Proof.KGlue.lean ====
/-
  What the first host stretch leaves in four of its buffers, read at an entry.

  The stretch's last operations copy the three degree vectors of the items side by side as the three columns of one
  array, and cut the two item columns out of the batch's index triples; read at an entry, a column of the stacked array
  is the degree vector it was copied from, and a cut column is the batch array's column one further on. The three
  rows of an edge array, each cut out and flattened to a vector, read at an entry as the array's row.
-/
import proofs.«412432_j74655121539772_3_alg».proof.Proof.KArgs
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueIdxRank1
import Idealize.ShloMosaic.Lib.ValueLayout

set_option maxRecDepth 16384

noncomputable section

namespace Cert.KernelIdeal.Glue

open Cert.KernelIdeal Cert.KernelIdeal.Gen Cert.KernelIdeal.Run
open Idealize.ShloMosaic Idealize.ShloMosaic.TcCoe Idealize.ShloMosaic.ValueIdx

variable {F : FTy → Type} [FloatOps F]

/-- The last eighteen operations of the first host stretch: the three degree vectors stacked as columns, the batch's
    index columns cut out, and the gather of the user rows. -/
abbrev tail0 : List (HloOp τ sig (Elt F)) :=
  ( StableHlo.unary main_v125 main_v268 (broadcastInDim S40001x1 ![0] bcast_S40001_S40001x1_0 : (⟨S40001, .f32⟩ : BufTy).Contents (Elt F) → (⟨S40001x1, .f32⟩ : BufTy).Contents (Elt F))
  :: StableHlo.unary main_v191 main_v269 (broadcastInDim S40001x1 ![0] bcast_S40001_S40001x1_0 : (⟨S40001, .f32⟩ : BufTy).Contents (Elt F) → (⟨S40001x1, .f32⟩ : BufTy).Contents (Elt F))
  :: StableHlo.unary main_v257 main_v270 (broadcastInDim S40001x1 ![0] bcast_S40001_S40001x1_0 : (⟨S40001, .f32⟩ : BufTy).Contents (Elt F) → (⟨S40001x1, .f32⟩ : BufTy).Contents (Elt F))
  :: StableHlo.nary ![main_v268, main_v269, main_v270] main_v271 (fun u => concatenate S40001x3 1 [⟨S40001x1, u 0⟩, ⟨S40001x1, u 1⟩, ⟨S40001x1, u 2⟩] concatenates_S40001x1_S40001x1_S40001x1_S40001x3_d1)
  :: StableHlo.unary main_arg5 main_v272 ((extractStridedSlice S2048x3x1 ![0, 0, 0] · slices_S2048x3x3_S2048x3x1_0_0_0) : (⟨S2048x3x3, .i32⟩ : BufTy).Contents (Elt F) → (⟨S2048x3x1, .i32⟩ : BufTy).Contents (Elt F))
  :: StableHlo.reshape main_v272 main_v273 rfl shapeCasts_S2048x3x1_S2048x3
  :: StableHlo.unary main_arg5 main_v274 ((extractStridedSlice S2048x3x2 ![0, 0, 1] · slices_S2048x3x3_S2048x3x2_0_0_1) : (⟨S2048x3x3, .i32⟩ : BufTy).Contents (Elt F) → (⟨S2048x3x2, .i32⟩ : BufTy).Contents (Elt F))
  :: StableHlo.reshape main_v273 main_v275 rfl shapeCasts_S2048x3_S6144
  :: StableHlo.nullary main_c_62 (constantI S_ 32 0#32)
  :: StableHlo.unary main_c_62 main_v276 (broadcastInDim S6144 ![] bcast_S_S6144 : (⟨S_, .i32⟩ : BufTy).Contents (Elt F) → (⟨S6144, .i32⟩ : BufTy).Contents (Elt F))
  :: StableHlo.binary main_v275 main_v276 main_v277 (cmpi .slt : (⟨S6144, .i32⟩ : BufTy).Contents (Elt F) → (⟨S6144, .i32⟩ : BufTy).Contents (Elt F) → (⟨S6144, .i1⟩ : BufTy).Contents (Elt F))
  :: StableHlo.nullary main_c_63 (constantI S_ 32 60001#32)
  :: StableHlo.unary main_c_63 main_v278 (broadcastInDim S6144 ![] bcast_S_S6144 : (⟨S_, .i32⟩ : BufTy).Contents (Elt F) → (⟨S6144, .i32⟩ : BufTy).Contents (Elt F))
  :: StableHlo.binary main_v275 main_v278 main_v279 (addi : (⟨S6144, .i32⟩ : BufTy).Contents (Elt F) → (⟨S6144, .i32⟩ : BufTy).Contents (Elt F) → (⟨S6144, .i32⟩ : BufTy).Contents (Elt F))
  :: StableHlo.ternary main_v277 main_v279 main_v275 main_v280 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F))
  :: StableHlo.unary main_v280 main_v281 (broadcastInDim S6144x1 ![0] bcast_S6144_S6144x1_0 : (⟨S6144, .i32⟩ : BufTy).Contents (Elt F) → (⟨S6144x1, .i32⟩ : BufTy).Contents (Elt F))
  :: StableHlo.binary main_v263 main_v281 main_v282 ((fun x i => Host.gather gather_S60001x3x64_S6144x1_S6144x3x64_12_0_n_n_0_1_1364 x i) : (⟨S60001x3x64, .f32⟩ : BufTy).Contents (Elt F) → (⟨S6144x1, .i32⟩ : BufTy).Contents (Elt F) → (⟨S6144x3x64, .f32⟩ : BufTy).Contents (Elt F))
  :: StableHlo.reshape main_v282 main_v283 rfl shapeCasts_S6144x3x64_S6144x192
  :: [] )

/-- The stretch is its first 332 operations followed by those eighteen. -/
theorem hostOps0_split : (hostOps0 : List (HloOp τ sig (Elt F))) = hostOps0.take 332 ++ tail0 :=
  (List.take_append_drop 332 hostOps0).symm.trans (congrArg (hostOps0.take 332 ++ ·) (rfl : hostOps0.drop 332 = (tail0 : List (HloOp τ sig (Elt F)))))

/-- So the stretch's contents are the eighteen operations' contents from what the first 332 leave. -/
theorem after_split (V : Valuation τ sig (Elt F)) :
    StableHlo.after hostOps0 V = StableHlo.after tail0 (StableHlo.after (hostOps0.take 332) V) := by
  rw [show StableHlo.after (hostOps0 : List (HloOp τ sig (Elt F))) V = StableHlo.after (hostOps0.take 332 ++ tail0) V from
    congrArg (StableHlo.after · V) hostOps0_split, StableHlo.after_append]

/-- The first 332 operations write no argument. -/
theorem take_arg (V : Valuation τ sig (Elt F)) (b : Ref sig .tc) (hb : IsArg b) :
    StableHlo.after (hostOps0.take 332) V (Proc.devRef .tc b) = V (Proc.devRef .tc b) :=
  StableHlo.after_of_forall_not_mem _ _ fun op hop =>
    (List.forall_iff_forall_mem.mp (hostOps0_keeps (F := F) b hb)) op (List.mem_of_mem_take hop)

/-! ## The batch's item columns -/

/-- The cut of the batch array's last two columns, after the eighteen operations. -/
theorem tail_v274 (W : Valuation τ sig (Elt F)) :
    StableHlo.after tail0 W (Proc.devRef .tc main_v274)
      = extractStridedSlice S2048x3x2 ![0, 0, 1] (W (Proc.devRef .tc main_arg5)) slices_S2048x3x3_S2048x3x2_0_0_1 := by
  simp (disch := decide) only [tail0, StableHlo.after_cons, StableHlo.after_nil,
    StableHlo.nullary_result', StableHlo.unary_result', StableHlo.binary_result', StableHlo.ternary_result',
    StableHlo.reshape_result', StableHlo.nullary_result_ne', StableHlo.unary_result_ne', StableHlo.binary_result_ne',
    StableHlo.ternary_result_ne', StableHlo.reshape_result_ne', StableHlo.nary_result_ne']

/-- Entry (n, b, j) of the cut columns is entry (n, b, 1 + j) of the batch array. -/
theorem items_cols (V : Valuation τ sig (Elt F)) (n : Fin 2048) (b : Fin 3) (j : Fin 2) :
    (StableHlo.after hostOps0 V (Proc.devRef .tc main_v274) : S2048x3x2.Idx → BitVec 32) (ValueIdx.ix3 n b j)
      = (V (Proc.devRef .tc main_arg5) : S2048x3x3.Idx → BitVec 32) (ValueIdx.ix3 n b ⟨1 + j.val, by omega⟩) := by
  rw [after_split, tail_v274, take_arg V main_arg5 (.inr (.inr (.inr (.inr (.inr rfl)))))]
  exact extractStridedSlice_apply _ _ _ _ _ fun a => by
    match a with
    | ⟨0, _⟩ => exact (Nat.zero_add _).symm
    | ⟨1, _⟩ => exact (Nat.zero_add _).symm
    | ⟨2, _⟩ => rfl

/-! ## The stacked degree vectors -/

/-- A three-operand operation's result with each operand's contents at its own reference. -/
theorem nary3_result' {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- The three degree vectors, each as a one-column array, side by side: after the eighteen operations. -/
theorem tail_v271 (W : Valuation τ sig (Elt F)) :
    StableHlo.after tail0 W (Proc.devRef .tc main_v271)
      = concatenate S40001x3 1
          [⟨S40001x1, broadcastInDim S40001x1 ![0] bcast_S40001_S40001x1_0 (W (Proc.devRef .tc main_v125))⟩,
           ⟨S40001x1, broadcastInDim S40001x1 ![0] bcast_S40001_S40001x1_0 (W (Proc.devRef .tc main_v191))⟩,
           ⟨S40001x1, broadcastInDim S40001x1 ![0] bcast_S40001_S40001x1_0 (W (Proc.devRef .tc main_v257))⟩]
          concatenates_S40001x1_S40001x1_S40001x1_S40001x3_d1 := by
  simp (disch := decide) only [tail0, StableHlo.after_cons, StableHlo.after_nil,
    StableHlo.nullary_result', StableHlo.unary_result', StableHlo.binary_result', StableHlo.ternary_result',
    StableHlo.reshape_result', nary3_result', StableHlo.nullary_result_ne', StableHlo.unary_result_ne',
    StableHlo.binary_result_ne', StableHlo.ternary_result_ne', StableHlo.reshape_result_ne', StableHlo.nary_result_ne']
  rfl

/-- The eighteen operations write none of the three degree vectors. -/
theorem tail_keeps (W : Valuation τ sig (Elt F)) (r : Ref sig .tc) (hr : r = main_v125 ∨ r = main_v191 ∨ r = main_v257) :
    StableHlo.after tail0 W (Proc.devRef .tc r) = W (Proc.devRef .tc r) := by
  rcases hr with rfl | rfl | rfl <;>
  simp (disch := decide) only [tail0, StableHlo.after_cons, StableHlo.after_nil,
    StableHlo.nullary_result_ne', StableHlo.unary_result_ne', StableHlo.binary_result_ne',
    StableHlo.ternary_result_ne', StableHlo.reshape_result_ne', StableHlo.nary_result_ne']

/-- A vector copied as a one-column array reads, at (k, 0), the vector's entry k. -/
theorem col_apply {α : Type} (x : S40001.Idx → α) (k : Fin 40001) :
    broadcastInDim S40001x1 ![0] bcast_S40001_S40001x1_0 x (ix2 k (0 : Fin 1)) = x (ix1 k) :=
  broadcastInDim_apply _ _ _ _ (ix1 k) fun a => by
    match a with
    | ⟨0, _⟩ => rfl

/-- Three one-column arrays side by side read, in column 0, the first, -/
theorem cat3_col0 {α : Type} (u0 u1 u2 : S40001x1.Idx → α) (k : Fin 40001) :
    concatenate S40001x3 1 [⟨S40001x1, u0⟩, ⟨S40001x1, u1⟩, ⟨S40001x1, u2⟩] concatenates_S40001x1_S40001x1_S40001x1_S40001x3_d1
      (ix2 k (0 : Fin 3)) = u0 (ix2 k (0 : Fin 1)) := by
  refine concatenate_apply_piece (t := S40001x3) (1 : Fin 2) [⟨S40001x1, u0⟩, ⟨S40001x1, u1⟩, ⟨S40001x1, u2⟩]
    concatenates_S40001x1_S40001x1_S40001x1_S40001x3_d1 (ix2 k (0 : Fin 3)) 0 (by show (0 : ℕ) < 3; decide) S40001x1 u0 rfl rfl 0 rfl
    (ix2 k (0 : Fin 1)) ?_ ?_
  · intro b hb
    match b with
    | ⟨0, _⟩ => rfl
    | ⟨1, _⟩ => exact absurd rfl hb
  · rfl

/-- in column 1 the second, -/
theorem cat3_col1 {α : Type} (u0 u1 u2 : S40001x1.Idx → α) (k : Fin 40001) :
    concatenate S40001x3 1 [⟨S40001x1, u0⟩, ⟨S40001x1, u1⟩, ⟨S40001x1, u2⟩] concatenates_S40001x1_S40001x1_S40001x1_S40001x3_d1
      (ix2 k (1 : Fin 3)) = u1 (ix2 k (0 : Fin 1)) := by
  refine concatenate_apply_piece (t := S40001x3) (1 : Fin 2) [⟨S40001x1, u0⟩, ⟨S40001x1, u1⟩, ⟨S40001x1, u2⟩]
    concatenates_S40001x1_S40001x1_S40001x1_S40001x3_d1 (ix2 k (1 : Fin 3)) 1 (by show (1 : ℕ) < 3; decide) S40001x1 u1 rfl rfl 1 rfl
    (ix2 k (0 : Fin 1)) ?_ ?_
  · intro b hb
    match b with
    | ⟨0, _⟩ => rfl
    | ⟨1, _⟩ => exact absurd rfl hb
  · rfl

/-- in column 2 the third. -/
theorem cat3_col2 {α : Type} (u0 u1 u2 : S40001x1.Idx → α) (k : Fin 40001) :
    concatenate S40001x3 1 [⟨S40001x1, u0⟩, ⟨S40001x1, u1⟩, ⟨S40001x1, u2⟩] concatenates_S40001x1_S40001x1_S40001x1_S40001x3_d1
      (ix2 k (2 : Fin 3)) = u2 (ix2 k (0 : Fin 1)) := by
  refine concatenate_apply_piece (t := S40001x3) (1 : Fin 2) [⟨S40001x1, u0⟩, ⟨S40001x1, u1⟩, ⟨S40001x1, u2⟩]
    concatenates_S40001x1_S40001x1_S40001x1_S40001x3_d1 (ix2 k (2 : Fin 3)) 2 (by show (2 : ℕ) < 3; decide) S40001x1 u2 rfl rfl 2 rfl
    (ix2 k (0 : Fin 1)) ?_ ?_
  · intro b hb
    match b with
    | ⟨0, _⟩ => rfl
    | ⟨1, _⟩ => exact absurd rfl hb
  · rfl

/-- Column 0 of the stacked array is the first degree vector. -/
theorem degree_stack0 (V : Valuation τ sig (Elt F)) (k : Fin 40001) :
    (StableHlo.after hostOps0 V (Proc.devRef .tc main_v271) : S40001x3.Idx → F .f32) (ValueIdx.ix2 k (0 : Fin 3))
      = (StableHlo.after hostOps0 V (Proc.devRef .tc main_v125) : S40001.Idx → F .f32) (ValueIdx.ix1 k) := by
  rw [after_split]
  generalize StableHlo.after (List.take 332 hostOps0) V = W
  rw [tail_v271, tail_keeps W main_v125 (.inl rfl)]
  exact (cat3_col0 _ _ _ k).trans (col_apply _ k)

/-- Column 1 of the stacked array is the second degree vector. -/
theorem degree_stack1 (V : Valuation τ sig (Elt F)) (k : Fin 40001) :
    (StableHlo.after hostOps0 V (Proc.devRef .tc main_v271) : S40001x3.Idx → F .f32) (ValueIdx.ix2 k (1 : Fin 3))
      = (StableHlo.after hostOps0 V (Proc.devRef .tc main_v191) : S40001.Idx → F .f32) (ValueIdx.ix1 k) := by
  rw [after_split]
  generalize StableHlo.after (List.take 332 hostOps0) V = W
  rw [tail_v271, tail_keeps W main_v191 (.inr (.inl rfl))]
  exact (cat3_col1 _ _ _ k).trans (col_apply _ k)

/-- Column 2 of the stacked array is the third degree vector. -/
theorem degree_stack2 (V : Valuation τ sig (Elt F)) (k : Fin 40001) :
    (StableHlo.after hostOps0 V (Proc.devRef .tc main_v271) : S40001x3.Idx → F .f32) (ValueIdx.ix2 k (2 : Fin 3))
      = (StableHlo.after hostOps0 V (Proc.devRef .tc main_v257) : S40001.Idx → F .f32) (ValueIdx.ix1 k) := by
  rw [after_split]
  generalize StableHlo.after (List.take 332 hostOps0) V = W
  rw [tail_v271, tail_keeps W main_v257 (.inr (.inr rfl))]
  exact (cat3_col2 _ _ _ k).trans (col_apply _ k)

/-! ## The rows of an edge array -/

/-- Row 0 of a 3 x 600000 array, cut out and flattened, reads at j the array's entry (0, j). -/
theorem edge_row0 (a : IVec S3x600000 32) (j : Fin 600000) :
    shapeCast S600000 (extractStridedSlice S1x600000 ![0, 0] a slices_S3x600000_S1x600000_0_0) shapeCasts_S1x600000_S600000
      (ValueIdx.ix1 j) = a (ValueIdx.ix2 (0 : Fin 3) j) :=
  (shapeCast_1a_a_apply _ _ j).trans (slice2_axis0_apply 0 a _ (0 : Fin 1) j (0 : Fin 3) rfl)

/-- Row 1 likewise. -/
theorem edge_row1 (a : IVec S3x600000 32) (j : Fin 600000) :
    shapeCast S600000 (extractStridedSlice S1x600000 ![1, 0] a slices_S3x600000_S1x600000_1_0) shapeCasts_S1x600000_S600000
      (ValueIdx.ix1 j) = a (ValueIdx.ix2 (1 : Fin 3) j) :=
  (shapeCast_1a_a_apply _ _ j).trans (slice2_axis0_apply 1 a _ (0 : Fin 1) j (1 : Fin 3) rfl)

/-- Row 2 likewise. -/
theorem edge_row2 (a : IVec S3x600000 32) (j : Fin 600000) :
    shapeCast S600000 (extractStridedSlice S1x600000 ![2, 0] a slices_S3x600000_S1x600000_2_0) shapeCasts_S1x600000_S600000
      (ValueIdx.ix1 j) = a (ValueIdx.ix2 (2 : Fin 3) j) :=
  (shapeCast_1a_a_apply _ _ j).trans (slice2_axis0_apply 2 a _ (0 : Fin 1) j (2 : Fin 3) rfl)

end Cert.KernelIdeal.Glue

end
-- ==== Proof.KValue.lean ====
/-
  The two arrays the loss reads, in the specification's terms, on the kernel program's side.

  The program runs: host operations that propagate the embeddings and gather the batch's user rows; the attention
  region, which fuses every gathered row; host operations that regroup the fused rows and gather the batch's item rows
  and item weights; the item region, which weights and sums every gathered item row. Walking back from the contents at
  the item region's exit:
  • entry (n, b, b, d) of the regrouped fused rows is the region's output row 3 n + b at lane 64 b + d, which is the fused
    row of that row of the region's input, which is the table's row that the batch's user index (n, b, 0) names (`kx`);
  • row 6 n + 2 b + j of the item region's output is the weighted sum of row 6 n + 2 b + j of its two inputs, which are
    the item table's and the weight table's rows that the batch's index word (n, b, 1 + j) names (`ky`).
  The tables and the index array are the same at every boundary in between: no operation after the first host stretch
  writes them, and the index array is an argument.
-/
import proofs.«412432_j74655121539772_3_alg».proof.Proof.KRun
import proofs.«412432_j74655121539772_3_alg».proof.Proof.KKeep
import proofs.«412432_j74655121539772_3_alg».proof.Proof.KSem
import proofs.«412432_j74655121539772_3_alg».proof.Proof.KUserRows
import proofs.«412432_j74655121539772_3_alg».proof.Proof.KMidRows
import proofs.«412432_j74655121539772_3_alg».proof.Proof.KGlue
set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- **The fused user rows the loss reads.** Entry `(n, b, b, d)` of the regrouped output of the attention region is the
    fused row, at behaviour `b` and lane `d`, of the three vectors of the user row that the batch's user index
    `(n, b, 0)` names in the table of propagated user rows. -/
theorem kx (c : Dev nD) (n : Fin 2048) (b : Fin 3) (d : Fin 64) :
    (Run.W4 m ρ c (Proc.devRef .tc main_v286) : S2048x3x3x64.Idx → EReal) (ix4 n b b d)
      = Cert.Spec.attRow (fun i' d' => (Run.W1 m ρ c (Proc.devRef .tc main_v263) : S60001x3x64.Idx → EReal)
          (ix3 ⟨Cert.Spec.gRow 60001 ((m ((c : Thread nD τ).loc main_arg5) : S2048x3x3.Idx → BitVec 32) (ix3 n b 0)),
            Cert.Spec.gRow_lt (by norm_num) _⟩ i' d')) b d := by
  rw [Run.W4_of_ne m ρ c main_v286 (by decide)]
  show (StableHlo.after hostOps1 (Run.W2 m ρ c) (Proc.devRef .tc main_v286) : S2048x3x3x64.Idx → EReal) (ix4 n b b d) = _
  rw [MidRows.att_rows,
    show Run.W2 m ρ c (Proc.devRef .tc main_v284) = (Run.dat0 (Run.V1 m ρ) c).arrAt 1 cfg0.N from Run.W2_arr m ρ c 1,
    Sem.att_array_sem]
  refine congrArg (fun f => Cert.Spec.attRow f b d) (funext fun i' => funext fun d' => ?_)
  show (StableHlo.after hostOps0 (Run.W0 m ρ c) (Proc.devRef .tc main_v283) : S6144x192.Idx → EReal)
      (ix2 (⟨3 * n.val + b.val, by omega⟩ : Fin 6144) ⟨64 * i'.val + d'.val, by omega⟩) = _
  rw [UserRows.user_rows]
  have key : ∀ (p : Fin 2048) (q : Fin 3), p = n → q = b →
      (StableHlo.after hostOps0 (Run.W0 m ρ c) (Proc.devRef .tc main_v263) : S60001x3x64.Idx → EReal)
          (ix3 ⟨Cert.Spec.gRow 60001 ((Run.W0 m ρ c (Proc.devRef .tc main_arg5) : S2048x3x3.Idx → BitVec 32) (ix3 p q 0)),
            Cert.Spec.gRow_lt (by norm_num) _⟩ i' d')
        = (Run.W1 m ρ c (Proc.devRef .tc main_v263) : S60001x3x64.Idx → EReal)
          (ix3 ⟨Cert.Spec.gRow 60001 ((m ((c : Thread nD τ).loc main_arg5) : S2048x3x3.Idx → BitVec 32) (ix3 n b 0)),
            Cert.Spec.gRow_lt (by norm_num) _⟩ i' d') := by
    rintro _ _ rfl rfl; rfl
  exact key ⟨_, _⟩ ⟨_, _⟩ (Fin.ext (by show (3 * n.val + b.val) / 3 = n.val; omega))
    (Fin.ext (by show (3 * n.val + b.val) % 3 = b.val; omega))

/-- The item row the batch's index word `(n, b, 1 + j)` names, seen from the item region's entry: word
    `6 n + 2 b + j` of the flattened item indices. -/
theorem itemRow_eq (c : Dev nD) (n : Fin 2048) (b : Fin 3) (j : Fin 2) :
    MidRows.itemRow (Run.W2 m ρ c) ⟨6 * n.val + 2 * b.val + j.val, by omega⟩
      = Cert.Spec.gRow 40001 ((m ((c : Thread nD τ).loc main_arg5) : S2048x3x3.Idx → BitVec 32)
          (ix3 n b ⟨1 + j.val, by omega⟩)) := by
  unfold MidRows.itemRow
  rw [Run.W2_of_ne m ρ c main_v274 (by decide)]
  have key : ∀ (p : Fin 2048) (q : Fin 3) (s : Fin 2), p = n → q = b → s = j →
      (Run.W1 m ρ c (Proc.devRef .tc main_v274) : S2048x3x2.Idx → BitVec 32) (ix3 p q s)
        = (m ((c : Thread nD τ).loc main_arg5) : S2048x3x3.Idx → BitVec 32) (ix3 n b ⟨1 + j.val, by omega⟩) := by
    rintro _ _ _ rfl rfl rfl
    show (StableHlo.after hostOps0 (Run.W0 m ρ c) (Proc.devRef .tc main_v274) : S2048x3x2.Idx → BitVec 32) (ix3 _ _ _) = _
    rw [Glue.items_cols]
  exact congrArg (Cert.Spec.gRow 40001) (key ⟨_, _⟩ ⟨_, _⟩ ⟨_, _⟩
    (Fin.ext (by show (6 * n.val + 2 * b.val + j.val) / 6 = n.val; omega))
    (Fin.ext (by show (6 * n.val + 2 * b.val + j.val) / 2 % 3 = b.val; omega))
    (Fin.ext (by show (6 * n.val + 2 * b.val + j.val) % 2 = j.val; omega)))

/-- **The weighted item rows the loss reads.** Row `6 n + 2 b + j` of the item region's output is the weighted sum of the
    three behaviour vectors of the item the batch's index word `(n, b, 1 + j)` names, by that item's three weights. -/
theorem ky (c : Dev nD) (n : Fin 2048) (b : Fin 3) (j : Fin 2) (d : Fin 64) :
    (Run.W4 m ρ c (Proc.devRef .tc main_v313) : S12288x64.Idx → EReal) (ix2 ⟨6 * n.val + 2 * b.val + j.val, by omega⟩ d)
      = Cert.Spec.iwRow
          (fun i d' => (Run.W1 m ρ c (Proc.devRef .tc main_v267) : S40001x3x64.Idx → EReal)
            (ix3 ⟨Cert.Spec.gRow 40001 ((m ((c : Thread nD τ).loc main_arg5) : S2048x3x3.Idx → BitVec 32)
                (ix3 n b ⟨1 + j.val, by omega⟩)), Cert.Spec.gRow_lt (by norm_num) _⟩ i d'))
          (fun i => MidRows.wK (F := Ideal) (Run.W1 m ρ c (Proc.devRef .tc main_v271)) (m ((c : Thread nD τ).loc main_arg2))
            (ix2 ⟨Cert.Spec.gRow 40001 ((m ((c : Thread nD τ).loc main_arg5) : S2048x3x3.Idx → BitVec 32)
                (ix3 n b ⟨1 + j.val, by omega⟩)), Cert.Spec.gRow_lt (by norm_num) _⟩ i)) d := by
  rw [show Run.W4 m ρ c (Proc.devRef .tc main_v313) = (Run.dat1 (Run.V3 m ρ) c).arrAt 2 cfg1.N from Run.W4_arr m ρ c 2,
    Sem.item_array_sem]
  have hrow : (⟨MidRows.itemRow (Run.W2 m ρ c) ⟨6 * n.val + 2 * b.val + j.val, by omega⟩, MidRows.itemRow_lt _ _⟩ : Fin 40001)
      = ⟨Cert.Spec.gRow 40001 ((m ((c : Thread nD τ).loc main_arg5) : S2048x3x3.Idx → BitVec 32)
          (ix3 n b ⟨1 + j.val, by omega⟩)), Cert.Spec.gRow_lt (by norm_num) _⟩ := Fin.ext (itemRow_eq m ρ c n b j)
  have h1 : (fun (i : Fin 3) (d' : Fin 64) => (Run.V3 m ρ c main_v312 : S12288x192.Idx → EReal)
        (ix2 (⟨6 * n.val + 2 * b.val + j.val, by omega⟩ : Fin 12288) ⟨64 * i.val + d'.val, by omega⟩))
      = fun i d' => (Run.W1 m ρ c (Proc.devRef .tc main_v267) : S40001x3x64.Idx → EReal)
          (ix3 ⟨Cert.Spec.gRow 40001 ((m ((c : Thread nD τ).loc main_arg5) : S2048x3x3.Idx → BitVec 32)
              (ix3 n b ⟨1 + j.val, by omega⟩)), Cert.Spec.gRow_lt (by norm_num) _⟩ i d') := by
    funext i d'
    show (StableHlo.after hostOps1 (Run.W2 m ρ c) (Proc.devRef .tc main_v312) : S12288x192.Idx → EReal) (ix2 _ _) = _
    rw [MidRows.item_rows, Run.W2_of_ne m ρ c main_v267 (by decide), hrow]
  have h2 : (fun (i : Fin 3) => (Run.V3 m ρ c main_v311 : S12288x3.Idx → EReal)
        (ix2 (⟨6 * n.val + 2 * b.val + j.val, by omega⟩ : Fin 12288) i))
      = fun i => MidRows.wK (F := Ideal) (Run.W1 m ρ c (Proc.devRef .tc main_v271)) (m ((c : Thread nD τ).loc main_arg2))
          (ix2 ⟨Cert.Spec.gRow 40001 ((m ((c : Thread nD τ).loc main_arg5) : S2048x3x3.Idx → BitVec 32)
              (ix3 n b ⟨1 + j.val, by omega⟩)), Cert.Spec.gRow_lt (by norm_num) _⟩ i) := by
    funext i
    show (StableHlo.after hostOps1 (Run.W2 m ρ c) (Proc.devRef .tc main_v311) : S12288x3.Idx → EReal) (ix2 _ _) = _
    rw [MidRows.weight_rows, Run.W2_of_ne m ρ c main_v271 (by decide),
      Run.W2_arg m ρ c main_arg2 (Or.inr (Or.inr (Or.inl rfl))), hrow]
  rw [h1, h2]

end Cert.KernelIdeal.Value

end
-- ==== Proof.KFinal.lean ====
/-
  The kernel program's result, in the specification's terms: the scalar at the last boundary is the loss shell applied
  to three user blocks and three item blocks, the arguments' norms aside; entry (n, d) of behaviour b's user block is the
  fused user row of the user the batch names, and entry (n, j, d) of its item block the fused item row of the j-th item
  the batch names, both read off the tables the propagation left at the attention region's entry.
-/
import proofs.«412432_j74655121539772_3_alg».proof.Proof.KTail
import proofs.«412432_j74655121539772_3_alg».proof.Proof.KValue

noncomputable section

namespace Cert.KernelIdeal.Final

open Cert.KernelIdeal Cert.KernelIdeal.Gen Idealize.ShloMosaic Idealize.ShloMosaic.ValueIdx Idealize.ShloMosaic.TcCoe
open Idealize.SL Idealize.SL.Sem

variable (m : (ℓ : Loc nD τ sig) → Buf (Elt Ideal) ℓ) (ρ : Dev nD → PrngReg)

/-- The result buffer at the last boundary: the shell of the blocks read at the item region's exit. -/
theorem kernel_value (c : Dev nD) :
    Run.W8 m ρ c (Proc.devRef .tc main_v395)
      = Tail.shell (Tail.xk (Run.W4 m ρ c) 0) (Tail.yk (Run.W4 m ρ c) 0) (Tail.xk (Run.W4 m ρ c) 1) (Tail.yk (Run.W4 m ρ c) 1)
          (Tail.xk (Run.W4 m ρ c) 2) (Tail.yk (Run.W4 m ρ c) 2)
          (m ((c : Thread nD τ).loc main_arg0)) (m ((c : Thread nD τ).loc main_arg1)) := by
  have h := Tail.kernel_tail (F := Ideal) (Run.W4 m ρ c)
  rw [Run.W4_arg m ρ c main_arg0 (Or.inl rfl), Run.W4_arg m ρ c main_arg1 (Or.inr (Or.inl rfl))] at h
  exact h

/-- Behaviour `b`'s user block at (n, d): the fused row of the user the batch names. -/
theorem xk_sem (c : Dev nD) (b : Fin 3) (n : Fin 2048) (d : Fin 64) :
    Tail.xk (Run.W4 m ρ c) b (ix2 n d)
      = Cert.Spec.attRow (fun i' d' => (Run.W1 m ρ c (Proc.devRef .tc main_v263) : S60001x3x64.Idx → EReal)
          (ix3 ⟨Cert.Spec.gRow 60001 ((m ((c : Thread nD τ).loc main_arg5) : S2048x3x3.Idx → BitVec 32) (ix3 n b 0)),
            Cert.Spec.gRow_lt (by norm_num) _⟩ i' d')) b d :=
  (Tail.xk_apply (Run.W4 m ρ c) b n d).trans (Value.kx m ρ c n b d)

/-- Behaviour `b`'s item block at (n, j, d): the fused row of the j-th item the batch names. -/
theorem yk_sem (c : Dev nD) (b : Fin 3) (n : Fin 2048) (j : Fin 2) (d : Fin 64) :
    Tail.yk (Run.W4 m ρ c) b (ix3 n j d)
      = Cert.Spec.iwRow (fun i d' => (Run.W1 m ρ c (Proc.devRef .tc main_v267) : S40001x3x64.Idx → EReal)
          (ix3 ⟨Cert.Spec.gRow 40001 ((m ((c : Thread nD τ).loc main_arg5) : S2048x3x3.Idx → BitVec 32) (ix3 n b ⟨1 + j.val, by omega⟩)),
            Cert.Spec.gRow_lt (by norm_num) _⟩ i d'))
        (fun i => Cert.KernelIdeal.MidRows.wK (F := Ideal) (Run.W1 m ρ c (Proc.devRef .tc main_v271)) (m ((c : Thread nD τ).loc main_arg2))
          (ix2 ⟨Cert.Spec.gRow 40001 ((m ((c : Thread nD τ).loc main_arg5) : S2048x3x3.Idx → BitVec 32) (ix3 n b ⟨1 + j.val, by omega⟩)),
            Cert.Spec.gRow_lt (by norm_num) _⟩ i)) d :=
  (Tail.yk_apply (Run.W4 m ρ c) b n j d).trans (Value.ky m ρ c n b j d)

end Cert.KernelIdeal.Final

end
-- ==== Proof.RAttValue.lean ====
/-
  The reference's fusion of the user rows, read at one element.

  The reference takes the whole table A of user rows (60001 rows, each three behaviour vectors of 64 entries) through
  the Gram matrix of each row, the clearing of the first two score rows by the last, the column sum that makes
  the third score row, the scaling by 1/8, a softmax along each score row and the weighted sum of the three
  vectors. Every operation acts row by row, so the result at row u, behaviour i, entry d depends on row u alone:
  it is the row expression of the shared mathematics evaluated at the three vectors of row u.

  The composition is written out operation by operation, each a small definition, and each is read at an index built
  from its coordinates. The only arithmetic used is that adding to zero changes nothing, that the maximum with minus
  infinity changes nothing, that the maximum is associative, and that dividing by the real 8 is multiplying by 1/8
  (on every extended real); no distributivity and no cancellation.
-/
import proofs.«412432_j74655121539772_3_alg».proof.ReferenceIdeal
import proofs.«412432_j74655121539772_3_alg».proof.Proof.Spec
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws
import Idealize.ShloMosaic.PureOps.Reduce
import Mathlib.Algebra.BigOperators.Fin

noncomputable section

namespace Cert.ReferenceIdeal.AttValue

open Idealize.ShloMosaic Idealize.ShloMosaic.ValueIdx
open Cert.ReferenceIdeal Cert.ReferenceIdeal.Facts₀ Cert.ReferenceIdeal.Facts

variable [Facts]

/-! ## The composition, one definition per operation -/

/-- The Gram matrices: each row's three vectors against themselves, summed over the 64 entries. -/
def refAtt_v265 (A : FVec Ideal S60001x3x64 .f32) : FVec Ideal S60001x3x3 .f32 :=
  Host.dotGeneral dot_S60001x3x64_S60001x3x64_S60001x3x3_2_2_1_1_0_0 none A A
/-- The last row of each Gram matrix. -/
def refAtt_v266 (A : FVec Ideal S60001x3x64 .f32) : FVec Ideal S60001x1x3 .f32 :=
  extractStridedSlice S60001x1x3 ![0, 2, 0] (refAtt_v265 A) slices_S60001x3x3_S60001x1x3_0_2_0
/-- The first two rows of each Gram matrix. -/
def refAtt_v267 (A : FVec Ideal S60001x3x64 .f32) : FVec Ideal S60001x2x3 .f32 :=
  extractStridedSlice S60001x2x3 ![0, 0, 0] (refAtt_v265 A) slices_S60001x3x3_S60001x2x3_0_0_0
/-- The last row copied over the first two. -/
def refAtt_v268 (A : FVec Ideal S60001x3x64 .f32) : FVec Ideal S60001x2x3 .f32 :=
  broadcastInDim S60001x2x3 ![0, 1, 2] bcast_S60001x1x3_S60001x2x3_0_1_2 (refAtt_v266 A)
/-- last · proj. -/
def refAtt_v269 (A : FVec Ideal S60001x3x64 .f32) : FVec Ideal S60001x2x3 .f32 :=
  mulf (refAtt_v268 A) (refAtt_v267 A)
/-- The last row copied over the first two, again. -/
def refAtt_v270 (A : FVec Ideal S60001x3x64 .f32) : FVec Ideal S60001x2x3 .f32 :=
  broadcastInDim S60001x2x3 ![0, 1, 2] bcast_S60001x1x3_S60001x2x3_0_1_2 (refAtt_v266 A)
/-- (last · proj) · last. -/
def refAtt_v271 (A : FVec Ideal S60001x3x64 .f32) : FVec Ideal S60001x2x3 .f32 :=
  mulf (refAtt_v269 A) (refAtt_v270 A)
/-- last · last. -/
def refAtt_v272 (A : FVec Ideal S60001x3x64 .f32) : FVec Ideal S60001x1x3 .f32 :=
  mulf (refAtt_v266 A) (refAtt_v266 A)
/-- ε everywhere. -/
def refAtt_v273 : FVec Ideal S60001x1x3 .f32 :=
  broadcastInDim S60001x1x3 ![] bcast_S_S60001x1x3 (constant (F := Ideal) S_ .f32 0x2B8CBCCC#32)
/-- last · last + ε. -/
def refAtt_v274 (A : FVec Ideal S60001x3x64 .f32) : FVec Ideal S60001x1x3 .f32 :=
  addf (refAtt_v272 A) refAtt_v273
/-- The denominator copied over the first two rows. -/
def refAtt_v275 (A : FVec Ideal S60001x3x64 .f32) : FVec Ideal S60001x2x3 .f32 :=
  broadcastInDim S60001x2x3 ![0, 1, 2] bcast_S60001x1x3_S60001x2x3_0_1_2 (refAtt_v274 A)
/-- The cleared rows. -/
def refAtt_v276 (A : FVec Ideal S60001x3x64 .f32) : FVec Ideal S60001x2x3 .f32 :=
  Host.divf (refAtt_v271 A) (refAtt_v275 A)
/-- The column sums of the cleared rows, from zero. -/
def refAtt_v277 (A : FVec Ideal S60001x3x64 .f32) : FVec Ideal S60001x3 .f32 :=
  Host.reduceAdd (refAtt_v276 A) (constant (F := Ideal) S_ .f32 0x00000000#32) reducesTo_S60001x2x3_S60001x3_d1 h_S_
/-- The column sums as one row. -/
def refAtt_v278 (A : FVec Ideal S60001x3x64 .f32) : FVec Ideal S60001x1x3 .f32 :=
  broadcastInDim S60001x1x3 ![0, 2] bcast_S60001x3_S60001x1x3_0_2 (refAtt_v277 A)
/-- The third score row: the column sums plus the last Gram row. -/
def refAtt_v279 (A : FVec Ideal S60001x3x64 .f32) : FVec Ideal S60001x1x3 .f32 :=
  addf (refAtt_v278 A) (refAtt_v266 A)
/-- The three score rows. -/
def refAtt_v280 (A : FVec Ideal S60001x3x64 .f32) : FVec Ideal S60001x3x3 .f32 :=
  concatenate S60001x3x3 1 [⟨S60001x2x3, refAtt_v276 A⟩, ⟨S60001x1x3, refAtt_v279 A⟩]
    concatenates_S60001x2x3_S60001x1x3_S60001x3x3_d1
/-- 8 everywhere. -/
def refAtt_v281 : FVec Ideal S60001x3x3 .f32 :=
  broadcastInDim S60001x3x3 ![] bcast_S_S60001x3x3 (constant (F := Ideal) S_ .f32 0x41000000#32)
/-- The scores over 8. -/
def refAtt_v282 (A : FVec Ideal S60001x3x64 .f32) : FVec Ideal S60001x3x3 .f32 :=
  Host.divf (refAtt_v280 A) refAtt_v281
/-- Each score row's maximum, from minus infinity. -/
def refAtt_v283 (A : FVec Ideal S60001x3x64 .f32) : FVec Ideal S60001x3 .f32 :=
  Host.reduce FloatOps.maximumf (refAtt_v282 A) (constant (F := Ideal) S_ .f32 0xFF800000#32)
    reducesTo_S60001x3x3_S60001x3_d2 h_S_
/-- Minus infinity everywhere. -/
def refAtt_v284 : FVec Ideal S60001x3 .f32 :=
  broadcastInDim S60001x3 ![] bcast_S_S60001x3 (constant (F := Ideal) S_ .f32 0xFF800000#32)
/-- The maximum again against minus infinity. -/
def refAtt_v285 (A : FVec Ideal S60001x3x64 .f32) : FVec Ideal S60001x3 .f32 :=
  maximumf refAtt_v284 (refAtt_v283 A)
/-- The maxima as a column. -/
def refAtt_v286 (A : FVec Ideal S60001x3x64 .f32) : FVec Ideal S60001x3x1 .f32 :=
  broadcastInDim S60001x3x1 ![0, 1] bcast_S60001x3_S60001x3x1_0_1 (refAtt_v285 A)
/-- The maxima copied along each score row. -/
def refAtt_v287 (A : FVec Ideal S60001x3x64 .f32) : FVec Ideal S60001x3x3 .f32 :=
  broadcastInDim S60001x3x3 ![0, 1, 2] bcast_S60001x3x1_S60001x3x3_0_1_2 (refAtt_v286 A)
/-- The shifted scores. -/
def refAtt_v288 (A : FVec Ideal S60001x3x64 .f32) : FVec Ideal S60001x3x3 .f32 :=
  subf (refAtt_v282 A) (refAtt_v287 A)
/-- Their exponentials. -/
def refAtt_v289 (A : FVec Ideal S60001x3x64 .f32) : FVec Ideal S60001x3x3 .f32 :=
  Host.exp (refAtt_v288 A)
/-- Each row's sum of exponentials, from zero. -/
def refAtt_v290 (A : FVec Ideal S60001x3x64 .f32) : FVec Ideal S60001x3 .f32 :=
  Host.reduceAdd (refAtt_v289 A) (constant (F := Ideal) S_ .f32 0x00000000#32) reducesTo_S60001x3x3_S60001x3_d2 h_S_
/-- The sums as a column. -/
def refAtt_v291 (A : FVec Ideal S60001x3x64 .f32) : FVec Ideal S60001x3x1 .f32 :=
  broadcastInDim S60001x3x1 ![0, 1] bcast_S60001x3_S60001x3x1_0_1 (refAtt_v290 A)
/-- The sums copied along each score row. -/
def refAtt_v292 (A : FVec Ideal S60001x3x64 .f32) : FVec Ideal S60001x3x3 .f32 :=
  broadcastInDim S60001x3x3 ![0, 1, 2] bcast_S60001x3x1_S60001x3x3_0_1_2 (refAtt_v291 A)
/-- The softmax weights. -/
def refAtt_v293 (A : FVec Ideal S60001x3x64 .f32) : FVec Ideal S60001x3x3 .f32 :=
  Host.divf (refAtt_v289 A) (refAtt_v292 A)
/-- The weighted sums of each row's three vectors. -/
def refAtt_v294 (A : FVec Ideal S60001x3x64 .f32) : FVec Ideal S60001x3x64 .f32 :=
  Host.dotGeneral dot_S60001x3x3_S60001x3x64_S60001x3x64_2_1_1_2_0_0 none (refAtt_v293 A) A

/-- The reference's fusion of every user row: the composition of the operations above. -/
def refAtt (A : FVec Ideal S60001x3x64 .f32) : FVec Ideal S60001x3x64 .f32 := refAtt_v294 A

/-- The three vectors of row u. -/
abbrev rowOf (A : FVec Ideal S60001x3x64 .f32) (u : Fin 60001) : Fin 3 → Fin 64 → EReal :=
  fun i' d' => A (ix3 u i' d')

/-! ## The constants -/

/-- The word 0x41000000 is the real 8. -/
theorem ofBits_eight : Ideal.ofBits .f32 0x41000000#32 = ((8 : ℝ) : EReal) := by
  simp [Ideal.ofBits, Ideal.ieee, -EReal.coe_mul]; norm_num

/-- The word 0x3E000000 is the real 1/8. -/
theorem ofBits_eighth : Ideal.ofBits .f32 0x3E000000#32 = (((1 : ℝ) / 8 : ℝ) : EReal) := by
  simp [Ideal.ofBits, Ideal.ieee, -EReal.coe_mul]; norm_num

/-- The word 0xFF800000 is minus infinity. -/
theorem ofBits_neg_inf : Ideal.ofBits .f32 0xFF800000#32 = ⊥ := by
  simp [Ideal.ofBits, Ideal.ieee]

/-- Dividing by the word of 8 is multiplying by the word of 1/8, on every extended real. -/
theorem div_eight (x : EReal) : Ideal.div x (Ideal.ofBits .f32 0x41000000#32) = x * Spec.eighth := by
  rw [ofBits_eight, Ideal.div_coe (by norm_num), Spec.eighth, ofBits_eighth]

/-- The fold of the maximum over three positions, from any start. -/
theorem fold_max_fin3 (b : EReal) (g : Fin 3 → EReal) :
    (Finset.univ : Finset (Fin 3)).fold max b g = max (g 0) (max (g 1) (max (g 2) b)) := by
  have e : (Finset.univ : Finset (Fin 3)) = insert 0 (insert 1 (insert 2 ∅)) := by decide
  rw [e, Finset.fold_insert (by decide), Finset.fold_insert (by decide), Finset.fold_insert (by decide),
    Finset.fold_empty]

/-- From minus infinity, and against minus infinity once more, it is the maximum of the three. -/
theorem max_bot_fold_fin3 (g : Fin 3 → EReal) :
    max ⊥ ((Finset.univ : Finset (Fin 3)).fold max ⊥ g) = max (max (g 0) (g 1)) (g 2) := by
  rw [fold_max_fin3, max_bot_left, max_bot_right, max_assoc]

/-! ## A product of two stacks along their last axes, read at an index -/

/-- dot_general over [G, m, k] and [G, n, k] with batch axes 0 and 0 and contracting axes 2 and 2 (each member of the
    first stack against the transpose of the same member of the second), at the ideal values: at (g, a, b) it is the
    sum over the contracted coordinate c of A (g, a, c) · B (g, b, c). The contraction's one-axis index is re-indexed
    by its coordinate, and each operand index is then named coordinate by coordinate. -/
theorem dotGeneral_lastAxes_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have hc := contrEquiv1_symm_val
    (⟨[2], [2], [1], [1], [0], [0], w⟩ : DotDims ⟨3, ![G, m, k]⟩ ⟨3, ![G, n, k]⟩ ⟨3, ![G, m, n]⟩) k rfl rfl c
  have hl : (⟨[2], [2], [1], [1], [0], [0], w⟩ : DotDims ⟨3, ![G, m, k]⟩ ⟨3, ![G, n, k]⟩ ⟨3, ![G, m, n]⟩).lhsIdx
      (ix3 g a b) ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [2], [1], [1], [0], [0], w⟩ : DotDims ⟨3, ![G, m, k]⟩ ⟨3, ![G, n, k]⟩ ⟨3, ![G, m, n]⟩).rhsIdx
      (ix3 g a b) ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [hl, hr]

/-! ## Each operation read at an index -/

section Read
variable (A : FVec Ideal S60001x3x64 .f32) (u : Fin 60001)

/-- The Gram matrix of row u. -/
theorem v265_apply (i j : Fin 3) : refAtt_v265 A (ix3 u i j) = Spec.gram (rowOf A u) i j := by
  unfold refAtt_v265 dot_S60001x3x64_S60001x3x64_S60001x3x3_2_2_1_1_0_0
  exact dotGeneral_lastAxes_apply _ none A A u i j

/-- Its last row. -/
theorem v266_apply (j : Fin 3) : refAtt_v266 A (ix3 u (0 : Fin 1) j) = Spec.gram (rowOf A u) 2 j := by
  unfold refAtt_v266
  refine (extractStridedSlice_apply _ _ _ _ (ix3 u (2 : Fin 3) j) fun a => ?_).trans (v265_apply A u 2 j)
  match a with
  | ⟨0, _⟩ => exact (Nat.zero_add u.val).symm
  | ⟨1, _⟩ => rfl
  | ⟨2, _⟩ => exact (Nat.zero_add j.val).symm

/-- Its first two rows. -/
theorem v267_apply (i : Fin 2) (j : Fin 3) :
    refAtt_v267 A (ix3 u i j) = Spec.gram (rowOf A u) ⟨i.val, by omega⟩ j := by
  unfold refAtt_v267
  refine (extractStridedSlice_apply _ _ _ _ (ix3 u (⟨i.val, by omega⟩ : Fin 3) j) fun a => ?_).trans
    (v265_apply A u ⟨i.val, by omega⟩ j)
  match a with
  | ⟨0, _⟩ => exact (Nat.zero_add u.val).symm
  | ⟨1, _⟩ => exact (Nat.zero_add i.val).symm
  | ⟨2, _⟩ => exact (Nat.zero_add j.val).symm

/-- The last row over the first two. -/
theorem v268_apply (i : Fin 2) (j : Fin 3) : refAtt_v268 A (ix3 u i j) = Spec.gram (rowOf A u) 2 j := by
  unfold refAtt_v268
  refine (broadcastInDim_apply _ _ _ _ (ix3 u (0 : Fin 1) j) fun a => ?_).trans (v266_apply A u j)
  match a with
  | ⟨0, _⟩ => rfl
  | ⟨1, _⟩ => rfl
  | ⟨2, _⟩ => rfl

theorem v270_apply (i : Fin 2) (j : Fin 3) : refAtt_v270 A (ix3 u i j) = Spec.gram (rowOf A u) 2 j :=
  v268_apply A u i j

theorem v269_apply (i : Fin 2) (j : Fin 3) :
    refAtt_v269 A (ix3 u i j) = Spec.gram (rowOf A u) 2 j * Spec.gram (rowOf A u) ⟨i.val, by omega⟩ j := by
  unfold refAtt_v269
  rw [mulf_apply, v268_apply, v267_apply]

theorem v271_apply (i : Fin 2) (j : Fin 3) :
    refAtt_v271 A (ix3 u i j)
      = (Spec.gram (rowOf A u) 2 j * Spec.gram (rowOf A u) ⟨i.val, by omega⟩ j) * Spec.gram (rowOf A u) 2 j := by
  unfold refAtt_v271
  rw [mulf_apply, v269_apply, v270_apply]

theorem v272_apply (j : Fin 3) :
    refAtt_v272 A (ix3 u (0 : Fin 1) j) = Spec.gram (rowOf A u) 2 j * Spec.gram (rowOf A u) 2 j := by
  unfold refAtt_v272
  rw [mulf_apply, v266_apply]

theorem v273_apply (x : S60001x1x3.Idx) : refAtt_v273 x = Spec.epsC := by
  unfold refAtt_v273
  rw [broadcastInDim_scalar_apply]
  rfl

theorem v274_apply (j : Fin 3) :
    refAtt_v274 A (ix3 u (0 : Fin 1) j)
      = Spec.gram (rowOf A u) 2 j * Spec.gram (rowOf A u) 2 j + Spec.epsC := by
  unfold refAtt_v274
  rw [addf_apply, v272_apply, v273_apply]

theorem v275_apply (i : Fin 2) (j : Fin 3) :
    refAtt_v275 A (ix3 u i j)
      = Spec.gram (rowOf A u) 2 j * Spec.gram (rowOf A u) 2 j + Spec.epsC := by
  unfold refAtt_v275
  refine (broadcastInDim_apply _ _ _ _ (ix3 u (0 : Fin 1) j) fun a => ?_).trans (v274_apply A u j)
  match a with
  | ⟨0, _⟩ => rfl
  | ⟨1, _⟩ => rfl
  | ⟨2, _⟩ => rfl

/-- The cleared rows. -/
theorem v276_apply (i : Fin 2) (j : Fin 3) :
    refAtt_v276 A (ix3 u i j) = Spec.clearS (rowOf A u) ⟨i.val, by omega⟩ j := by
  unfold refAtt_v276
  rw [hostDivf_apply, v271_apply, v275_apply]
  rfl

end Read

/-! ## The reductions' shape facts, and the index a reduced index lifts to -/

/-- Summing the [60001, 2, 3] array over its middle axis leaves [60001, 3]. -/
theorem red_d1 : S60001x2x3.Reduces [1] S60001x3 := by decide

/-- Reducing the [60001, 3, 3] array over its last axis leaves [60001, 3]. -/
theorem red_d2 : S60001x3x3.Reduces [2] S60001x3 := by decide

/-- (u, j) with k inserted on the middle axis is (u, k, j). -/
theorem lift_d1 (u : Fin 60001) (j : Fin 3) (k : Fin 2) : red_d1.lift (ix2 u j) k = ix3 u k j := by
  funext a; apply Fin.ext
  match a with
  | ⟨0, _⟩ => rfl
  | ⟨1, _⟩ => rfl
  | ⟨2, _⟩ => rfl

/-- (u, i) with k inserted on the last axis is (u, i, k). -/
theorem lift_d2 (u : Fin 60001) (i : Fin 3) (k : Fin 3) : red_d2.lift (ix2 u i) k = ix3 u i k := by
  funext a; apply Fin.ext
  match a with
  | ⟨0, _⟩ => rfl
  | ⟨1, _⟩ => rfl
  | ⟨2, _⟩ => rfl

section Read2
variable (A : FVec Ideal S60001x3x64 .f32) (u : Fin 60001)

/-- The column sums of the two cleared rows. -/
theorem v277_apply (j : Fin 3) :
    refAtt_v277 A (ix2 u j) = Spec.clearS (rowOf A u) 0 j + Spec.clearS (rowOf A u) 1 j := by
  unfold refAtt_v277
  rw [hostReduceAdd_apply]
  refine (Ideal.hostReduceAdd_single _ red_d1 _ _ _).trans ?_
  rw [constant_apply, Ideal.ofBits_zero_f32, zero_add]
  refine (Fin.sum_univ_two (fun k : Fin 2 => refAtt_v276 A (red_d1.lift (ix2 u j) k))).trans ?_
  rw [lift_d1, lift_d1, v276_apply, v276_apply]
  rfl

theorem v278_apply (j : Fin 3) :
    refAtt_v278 A (ix3 u (0 : Fin 1) j) = Spec.clearS (rowOf A u) 0 j + Spec.clearS (rowOf A u) 1 j := by
  unfold refAtt_v278
  refine (broadcastInDim_apply _ _ _ _ (ix2 u j) fun a => ?_).trans (v277_apply A u j)
  match a with
  | ⟨0, _⟩ => rfl
  | ⟨1, _⟩ => rfl

/-- The third score row. -/
theorem v279_apply (j : Fin 3) :
    refAtt_v279 A (ix3 u (0 : Fin 1) j)
      = (Spec.clearS (rowOf A u) 0 j + Spec.clearS (rowOf A u) 1 j) + Spec.gram (rowOf A u) 2 j := by
  unfold refAtt_v279
  rw [addf_apply, v278_apply, v266_apply]

/-- The three score rows. -/
theorem v280_apply (i j : Fin 3) : refAtt_v280 A (ix3 u i j) = Spec.rowS (rowOf A u) i j := by
  unfold refAtt_v280
  by_cases hi : i.val < 2
  · have hne : i ≠ 2 := fun e => by rw [e] at hi; exact absurd hi (by decide)
    refine (concatenate_pair_apply_left (t := S60001x3x3) (s₁ := S60001x2x3) (s₂ := S60001x1x3) (1 : Fin 3)
      (refAtt_v276 A) (refAtt_v279 A) _ (ix3 u i j) rfl (ix3 u (⟨i.val, hi⟩ : Fin 2) j) fun b => ?_).trans ?_
    · match b with
      | ⟨0, _⟩ => rfl
      | ⟨1, _⟩ => rfl
      | ⟨2, _⟩ => rfl
    · rw [v276_apply, Spec.rowS, if_neg hne]
  · have he : i = 2 := Fin.ext (by have := i.isLt; omega)
    subst he
    refine (concatenate_pair_apply_right (t := S60001x3x3) (s₁ := S60001x2x3) (s₂ := S60001x1x3) (1 : Fin 3)
      (refAtt_v276 A) (refAtt_v279 A) _ (ix3 u (2 : Fin 3) j) rfl rfl (ix3 u (0 : Fin 1) j)
      (fun b hb => ?_) rfl).trans ?_
    · match b with
      | ⟨0, _⟩ => rfl
      | ⟨1, _⟩ => exact absurd rfl hb
      | ⟨2, _⟩ => rfl
    · rw [v279_apply, Spec.rowS, if_pos rfl]

theorem v281_apply (x : S60001x3x3.Idx) : refAtt_v281 x = Ideal.ofBits .f32 0x41000000#32 := by
  unfold refAtt_v281
  rw [broadcastInDim_scalar_apply]
  rfl

/-- The scaled scores. -/
theorem v282_apply (i j : Fin 3) : refAtt_v282 A (ix3 u i j) = Spec.scaled (rowOf A u) i j := by
  unfold refAtt_v282
  rw [hostDivf_apply, v280_apply, v281_apply, div_eight]
  rfl

/-- A scaled score row's maximum, folded from minus infinity. -/
theorem v283_apply (i : Fin 3) :
    refAtt_v283 A (ix2 u i)
      = (Finset.univ : Finset (Fin 3)).fold max ⊥ (fun k => Spec.scaled (rowOf A u) i k) := by
  unfold refAtt_v283
  refine (Host.reduce_eq_fold_single FloatOps.maximumf (refAtt_v282 A) _ _ red_d2 _ (ix2 u i)).trans ?_
  rw [constant_apply, ofBits_neg_inf]
  have e : (refAtt_v282 A ∘ red_d2.lift (ix2 u i)) = fun k : Fin 3 => Spec.scaled (rowOf A u) i k := by
    funext k
    exact (congrArg (refAtt_v282 A) (lift_d2 u i k)).trans (v282_apply A u i k)
  rw [e]
  rfl

theorem v284_apply (x : S60001x3.Idx) : refAtt_v284 x = ⊥ := by
  unfold refAtt_v284
  rw [broadcastInDim_scalar_apply, constant_apply, ofBits_neg_inf]

/-- The row's maximum. -/
theorem v285_apply (i : Fin 3) : refAtt_v285 A (ix2 u i) = Spec.smax (rowOf A u) i := by
  unfold refAtt_v285
  rw [maximumf_apply, v284_apply, v283_apply, max_bot_fold_fin3]
  rfl

theorem v286_apply (i : Fin 3) : refAtt_v286 A (ix3 u i (0 : Fin 1)) = Spec.smax (rowOf A u) i := by
  unfold refAtt_v286
  refine (broadcastInDim_apply _ _ _ _ (ix2 u i) fun a => ?_).trans (v285_apply A u i)
  match a with
  | ⟨0, _⟩ => rfl
  | ⟨1, _⟩ => rfl

theorem v287_apply (i j : Fin 3) : refAtt_v287 A (ix3 u i j) = Spec.smax (rowOf A u) i := by
  unfold refAtt_v287
  refine (broadcastInDim_apply _ _ _ _ (ix3 u i (0 : Fin 1)) fun a => ?_).trans (v286_apply A u i)
  match a with
  | ⟨0, _⟩ => rfl
  | ⟨1, _⟩ => rfl
  | ⟨2, _⟩ => rfl

theorem v288_apply (i j : Fin 3) :
    refAtt_v288 A (ix3 u i j) = Spec.scaled (rowOf A u) i j - Spec.smax (rowOf A u) i := by
  unfold refAtt_v288
  rw [subf_apply, v282_apply, v287_apply]

/-- The shifted exponentials. -/
theorem v289_apply (i j : Fin 3) : refAtt_v289 A (ix3 u i j) = Spec.sexp (rowOf A u) i j := by
  unfold refAtt_v289
  show Ideal.exp (refAtt_v288 A (ix3 u i j)) = _
  rw [v288_apply]
  rfl

/-- Their sum along the row. -/
theorem v290_apply (i : Fin 3) : refAtt_v290 A (ix2 u i) = Spec.ssum (rowOf A u) i := by
  unfold refAtt_v290
  rw [hostReduceAdd_apply]
  refine (Ideal.hostReduceAdd_single _ red_d2 _ _ _).trans ?_
  rw [constant_apply, Ideal.ofBits_zero_f32, zero_add]
  refine (Fin.sum_univ_three (fun k : Fin 3 => refAtt_v289 A (red_d2.lift (ix2 u i) k))).trans ?_
  rw [lift_d2, lift_d2, lift_d2, v289_apply, v289_apply, v289_apply]
  rfl

theorem v291_apply (i : Fin 3) : refAtt_v291 A (ix3 u i (0 : Fin 1)) = Spec.ssum (rowOf A u) i := by
  unfold refAtt_v291
  refine (broadcastInDim_apply _ _ _ _ (ix2 u i) fun a => ?_).trans (v290_apply A u i)
  match a with
  | ⟨0, _⟩ => rfl
  | ⟨1, _⟩ => rfl

theorem v292_apply (i j : Fin 3) : refAtt_v292 A (ix3 u i j) = Spec.ssum (rowOf A u) i := by
  unfold refAtt_v292
  refine (broadcastInDim_apply _ _ _ _ (ix3 u i (0 : Fin 1)) fun a => ?_).trans (v291_apply A u i)
  match a with
  | ⟨0, _⟩ => rfl
  | ⟨1, _⟩ => rfl
  | ⟨2, _⟩ => rfl

/-- The softmax weights. -/
theorem v293_apply (i j : Fin 3) : refAtt_v293 A (ix3 u i j) = Spec.att (rowOf A u) i j := by
  unfold refAtt_v293
  rw [hostDivf_apply, v289_apply, v292_apply]
  rfl

/-- The weighted sum of the row's three vectors. -/
theorem v294_apply (i : Fin 3) (d : Fin 64) : refAtt_v294 A (ix3 u i d) = Spec.attRow (rowOf A u) i d := by
  unfold refAtt_v294 dot_S60001x3x3_S60001x3x64_S60001x3x64_2_1_1_2_0_0
  refine (StackMember.dotGeneral_stack_apply _ none (refAtt_v293 A) A u i d).trans ?_
  refine (Fin.sum_univ_three (fun c : Fin 3 => refAtt_v293 A (ix3 u i c) * A (ix3 u c d))).trans ?_
  rw [v293_apply, v293_apply, v293_apply]
  rfl

end Read2

/-! ## The result -/

/-- THE REFERENCE'S FUSION AT ONE ELEMENT: at row u, behaviour i, entry d it is the row expression of the shared
    mathematics at the three vectors of row u. -/
theorem refAtt_apply (A : FVec Ideal S60001x3x64 .f32) (u : Fin 60001) (i : Fin 3) (d : Fin 64) :
    refAtt A (ix3 u i d) = Cert.Spec.attRow (fun i' d' => A (ix3 u i' d')) i d :=
  v294_apply A u i d

end Cert.ReferenceIdeal.AttValue

end
-- ==== Proof.RItemValue.lean ====
/-
  The reference's fused item rows read at one entry.

  The reference copies the item weights, one triple per item, along a new last axis of length one and then along 64
  entries, multiplies the three behaviour vectors of every item by them entry by entry, and sums over the behaviour
  axis starting from zero. Read at item k and entry d, a copied weight is the weight itself, a product of arrays is the
  product of the entries, and the sum over the behaviour axis from zero is the sum of the three products, which added
  up from the left is the weighted sum of the item's three vectors.
-/
import proofs.«412432_j74655121539772_3_alg».proof.ReferenceIdeal
import proofs.«412432_j74655121539772_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Algebra.BigOperators.Fin

noncomputable section

namespace Cert.ReferenceIdeal.ItemValue

open Cert.ReferenceIdeal Idealize.ShloMosaic Idealize.ShloMosaic.ValueIdx

variable [Cert.ReferenceIdeal.Facts]
open Cert.ReferenceIdeal.Facts₀ Cert.ReferenceIdeal.Facts

/-- The fused item rows of all items from the behaviour vectors `B` and the weights `Wt`: the weights copied along
    64 entries, the entrywise product, and the sum over the behaviour axis from zero. -/
def refItem (B : FVec Ideal S40001x3x64 .f32) (Wt : FVec Ideal S40001x3 .f32) : FVec Ideal S40001x64 .f32 :=
  Host.reduceAdd
    (mulf B
      (broadcastInDim S40001x3x64 ![0, 1, 2] bcast_S40001x3x1_S40001x3x64_0_1_2
        (broadcastInDim S40001x3x1 ![0, 1] bcast_S40001x3_S40001x3x1_0_1 Wt)))
    (constant (F := Ideal) S_ .f32 0x00000000#32) reducesTo_S40001x3x64_S40001x64_d1 h_S_

/-- The weights copied twice read, at (k, i, d), the weight i of item k. -/
theorem bcastW_apply (Wt : FVec Ideal S40001x3 .f32) (k : Fin 40001) (i : Fin 3) (d : Fin 64) :
    broadcastInDim S40001x3x64 ![0, 1, 2] bcast_S40001x3x1_S40001x3x64_0_1_2
        (broadcastInDim S40001x3x1 ![0, 1] bcast_S40001x3_S40001x3x1_0_1 Wt) (ix3 k i d) = Wt (ix2 k i) := by
  refine (broadcastInDim_apply _ _ _ (ix3 k i d) (ix3 k i (0 : Fin 1)) fun ax => ?_).trans ?_
  · match ax with
    | ⟨0, _⟩ => rfl
    | ⟨1, _⟩ => rfl
    | ⟨2, _⟩ => rfl
  · refine broadcastInDim_apply _ _ _ (ix3 k i (0 : Fin 1)) (ix2 k i) fun ax => ?_
    match ax with
    | ⟨0, _⟩ => rfl
    | ⟨1, _⟩ => rfl

/-- The reference's fused item row of item k at entry d is the weighted sum of the item's three vectors. -/
theorem refItem_apply (B : FVec Ideal S40001x3x64 .f32) (Wt : FVec Ideal S40001x3 .f32) (k : Fin 40001) (d : Fin 64) :
    refItem B Wt (ValueIdx.ix2 k d)
      = Cert.Spec.iwRow (fun i d' => B (ValueIdx.ix3 k i d')) (fun i => Wt (ValueIdx.ix2 k i)) d := by
  have hR : S40001x3x64.Reduces [1] S40001x64 := by decide
  unfold refItem Cert.Spec.iwRow
  rw [hostReduceAdd_apply, Ideal.hostReduceAdd_single _ hR, constant_apply, Ideal.ofBits_zero_f32, zero_add]
  show ∑ i : Fin 3, mulf B _ (hR.lift (ix2 k d) i) = _
  rw [Fin.sum_univ_three]
  have hl : ∀ i : Fin 3, hR.lift (ix2 k d) i = ix3 k i d := fun i => by
    funext ax
    match ax with
    | ⟨0, _⟩ => rfl
    | ⟨1, _⟩ => rfl
    | ⟨2, _⟩ => rfl
  rw [hl, hl, hl, mulf_apply, mulf_apply, mulf_apply, bcastW_apply, bcastW_apply, bcastW_apply]

end Cert.ReferenceIdeal.ItemValue

end
-- ==== Proof.RMidValue.lean ====
/-
  The middle of the reference program, read as functions of what it starts from.

  Three stretches of the reference's line of operations are read here. The first takes the table of user rows through
  the Gram matrices, the cleared scores, the softmax and the weighted sums: what it leaves in the fused user table is
  the composition of those operations applied to the table it started from. The second counts, for each of the three
  behaviours, how many edges name each item (a scatter of ones into zeros), stacks the three counts as the columns of
  one array, and normalises each item's three counts, weighted by the three behaviour weights, by their sum plus a
  small constant. The third multiplies every item's three vectors by its three weights and sums them. Each stretch
  writes only its own intermediate arrays, so the arrays the later stretches read are still what the earlier ones
  left.
-/
import proofs.«412432_j74655121539772_3_alg».proof.Proof.RefRunC5
import proofs.«412432_j74655121539772_3_alg».proof.Proof.RefRunC6
import proofs.«412432_j74655121539772_3_alg».proof.Proof.RAttValue
import proofs.«412432_j74655121539772_3_alg».proof.Proof.RItemValue
import Idealize.ShloMosaic.Lib.Pipeline.Frame
import Idealize.ShloMosaic.Lib.Pipeline.Value
import Idealize.ShloMosaic.Lib.ValueIdx
import Idealize.ShloMosaic.Lib.IdealHost

noncomputable section

namespace Cert.ReferenceIdeal.MidValue

open Cert.ReferenceIdeal Cert.ReferenceIdeal.RefRun
open Idealize.ShloMosaic Idealize.ShloMosaic.TcCoe Idealize.SL.Sem Idealize.ShloMosaic.StableHlo Idealize.ShloMosaic.ValueIdx
open Cert.ReferenceIdeal.Facts₀ Cert.ReferenceIdeal.Facts

/-! ## The fused user table -/

section Att
open Cert.ReferenceIdeal.AttValue

/-- What the first seventeen operations leave in the cleared rows. -/
theorem c25_v276 (V : Valuation τ sig (Elt Ideal)) :
    (after (opsC25 (F := Ideal)) V (Proc.devRef .tc main_v276) : FVec Ideal S60001x2x3 .f32)
      = refAtt_v276 (V (Proc.devRef .tc main_v260)) := by
  unfold opsC25
  after_results_simp
  rfl

/-- … and in the third score row. -/
theorem c25_v279 (V : Valuation τ sig (Elt Ideal)) :
    (after (opsC25 (F := Ideal)) V (Proc.devRef .tc main_v279) : FVec Ideal S60001x1x3 .f32)
      = refAtt_v279 (V (Proc.devRef .tc main_v260)) := by
  unfold opsC25
  after_results_simp
  rfl

/-- The next fourteen operations, from the cleared rows and the third score row of a table A, leave the shifted
    exponentials of A's scores. -/
theorem c26_v289 (V : Valuation τ sig (Elt Ideal)) (A : FVec Ideal S60001x3x64 .f32)
    (h276 : (V (Proc.devRef .tc main_v276) : FVec Ideal S60001x2x3 .f32) = refAtt_v276 A)
    (h279 : (V (Proc.devRef .tc main_v279) : FVec Ideal S60001x1x3 .f32) = refAtt_v279 A) :
    (after (opsC26 (F := Ideal)) V (Proc.devRef .tc main_v289) : FVec Ideal S60001x3x3 .f32) = refAtt_v289 A := by
  unfold opsC26
  after_results_simp
  rw [h276, h279]
  rfl

/-- … and the zero the row sums start from. -/
theorem c26_cst67 (V : Valuation τ sig (Elt Ideal)) :
    (after (opsC26 (F := Ideal)) V (Proc.devRef .tc main_cst_67) : FVec Ideal S_ .f32)
      = constant (F := Ideal) S_ .f32 0x00000000#32 := by
  unfold opsC26
  after_results_simp

/-- The last five operations, from the shifted exponentials of A, that zero and A itself, leave A's fused rows. -/
theorem c27_v294 (V : Valuation τ sig (Elt Ideal)) (A : FVec Ideal S60001x3x64 .f32)
    (h289 : (V (Proc.devRef .tc main_v289) : FVec Ideal S60001x3x3 .f32) = refAtt_v289 A)
    (h67 : (V (Proc.devRef .tc main_cst_67) : FVec Ideal S_ .f32) = constant (F := Ideal) S_ .f32 0x00000000#32)
    (h260 : (V (Proc.devRef .tc main_v260) : FVec Ideal S60001x3x64 .f32) = A) :
    (after (opsC27 (F := Ideal)) V (Proc.devRef .tc main_v294) : FVec Ideal S60001x3x64 .f32) = refAtt_v294 A := by
  unfold opsC27
  after_results_simp
  rw [h289, h67, h260]
  rfl

/-- THE FUSED USER TABLE: the thirty-six operations from the Gram matrices to the weighted sums leave, in the fused
    user table, the composition of the reference's fusion applied to the table of user rows they started from. -/
theorem att_table (V : Valuation τ sig (Elt Ideal)) :
    (after (opsC25 ++ opsC26 ++ opsC27 : List (HloOp τ sig (Elt Ideal))) V (Proc.devRef .tc main_v294)
        : FVec Ideal S60001x3x64 .f32)
      = refAtt (V (Proc.devRef .tc main_v260)) := by
  rw [StableHlo.after_append, StableHlo.after_append]
  exact c27_v294 _ _ (c26_v289 _ _ (c25_v276 V) (c25_v279 V)) (c26_cst67 _)
    (by rw [opsC26_keep _ _ (by decide), opsC25_keep _ _ (by decide)])

end Att

/-! ## The item weights -/

section Weights

/-- The weighted counts: every item's three counts times the three behaviour weights (the weights copied to one
    row, then to every item). -/
def wR_v317 (deg : FVec Ideal S40001x3 .f32) (w : FVec Ideal S3 .f32) : FVec Ideal S40001x3 .f32 :=
  mulf deg (broadcastInDim S40001x3 ![0, 1] bcast_S1x3_S40001x3_0_1 (broadcastInDim S1x3 ![1] bcast_S3_S1x3_1 w))

/-- The item weights from the stacked counts and the behaviour weights: the weighted counts over their sum along
    each item (from zero) plus the small constant, the sum copied back over the three columns. -/
def wR (deg : FVec Ideal S40001x3 .f32) (w : FVec Ideal S3 .f32) : FVec Ideal S40001x3 .f32 :=
  Host.divf (wR_v317 deg w)
    (broadcastInDim S40001x3 ![0, 1] bcast_S40001x1_S40001x3_0_1
      (addf
        (broadcastInDim S40001x1 ![0] bcast_S40001_S40001x1_0
          (Host.reduceAdd (wR_v317 deg w) (constant (F := Ideal) S_ .f32 0x00000000#32)
            reducesTo_S40001x3_S40001_d1 h_S_))
        (broadcastInDim S40001x1 ![] bcast_S_S40001x1 (constant (F := Ideal) S_ .f32 0x322BCC77#32))))

/-- The eleven normalising operations leave the item weights of the stacked counts and the behaviour weights they
    started from. -/
theorem c30_v323 (V : Valuation τ sig (Elt Ideal)) :
    (after (opsC30 (F := Ideal)) V (Proc.devRef .tc main_v323) : FVec Ideal S40001x3 .f32)
      = wR (V (Proc.devRef .tc main_v314)) (V (Proc.devRef .tc main_arg2)) := by
  unfold opsC30
  after_results_simp
  rfl

/-- The count of behaviour 0: ones scattered into zeros at the items the first row of the edge array names. -/
def degR0 (E : IVec S3x600000 32) : FVec Ideal S40001 .f32 :=
  Host.scatterAdd scatter_S40001_S600000x1_S600000_n_0_0_1
    (broadcastInDim S40001 ![] bcast_S_S40001 (constant (F := Ideal) S_ .f32 0x00000000#32))
    (broadcastInDim S600000x1 ![0] bcast_S600000_S600000x1_0
      (shapeCast S600000 (extractStridedSlice S1x600000 ![0, 0] E slices_S3x600000_S1x600000_0_0)
        shapeCasts_S1x600000_S600000))
    (broadcastInDim S600000 ![] bcast_S_S600000 (constant (F := Ideal) S_ .f32 0x3F800000#32))

/-- The count of behaviour 1: the same over the second row. -/
def degR1 (E : IVec S3x600000 32) : FVec Ideal S40001 .f32 :=
  Host.scatterAdd scatter_S40001_S600000x1_S600000_n_0_0_1
    (broadcastInDim S40001 ![] bcast_S_S40001 (constant (F := Ideal) S_ .f32 0x00000000#32))
    (broadcastInDim S600000x1 ![0] bcast_S600000_S600000x1_0
      (shapeCast S600000 (extractStridedSlice S1x600000 ![1, 0] E slices_S3x600000_S1x600000_1_0)
        shapeCasts_S1x600000_S600000))
    (broadcastInDim S600000 ![] bcast_S_S600000 (constant (F := Ideal) S_ .f32 0x3F800000#32))

/-- The count of behaviour 2: the same over the third row. -/
def degR2 (E : IVec S3x600000 32) : FVec Ideal S40001 .f32 :=
  Host.scatterAdd scatter_S40001_S600000x1_S600000_n_0_0_1
    (broadcastInDim S40001 ![] bcast_S_S40001 (constant (F := Ideal) S_ .f32 0x00000000#32))
    (broadcastInDim S600000x1 ![0] bcast_S600000_S600000x1_0
      (shapeCast S600000 (extractStridedSlice S1x600000 ![2, 0] E slices_S3x600000_S1x600000_2_0)
        shapeCasts_S1x600000_S600000))
    (broadcastInDim S600000 ![] bcast_S_S600000 (constant (F := Ideal) S_ .f32 0x3F800000#32))

/-- The three counts by behaviour. -/
def degR (E : IVec S3x600000 32) (b : Fin 3) : FVec Ideal S40001 .f32 := ![degR0 E, degR1 E, degR2 E] b

/-- The twenty-three counting operations leave each count as a one-column array. -/
theorem c28_v311 (V : Valuation τ sig (Elt Ideal)) :
    (after (opsC28 (F := Ideal)) V (Proc.devRef .tc main_v311) : FVec Ideal S40001x1 .f32)
      = broadcastInDim S40001x1 ![0] bcast_S40001_S40001x1_0 (degR0 (V (Proc.devRef .tc main_arg4))) := by
  unfold opsC28
  after_results_simp
  rfl

theorem c28_v312 (V : Valuation τ sig (Elt Ideal)) :
    (after (opsC28 (F := Ideal)) V (Proc.devRef .tc main_v312) : FVec Ideal S40001x1 .f32)
      = broadcastInDim S40001x1 ![0] bcast_S40001_S40001x1_0 (degR1 (V (Proc.devRef .tc main_arg4))) := by
  unfold opsC28
  after_results_simp
  rfl

theorem c28_v313 (V : Valuation τ sig (Elt Ideal)) :
    (after (opsC28 (F := Ideal)) V (Proc.devRef .tc main_v313) : FVec Ideal S40001x1 .f32)
      = broadcastInDim S40001x1 ![0] bcast_S40001_S40001x1_0 (degR2 (V (Proc.devRef .tc main_arg4))) := by
  unfold opsC28
  after_results_simp
  rfl

/-- The stacking operation leaves the three one-column arrays side by side. -/
theorem c29_v314 (V : Valuation τ sig (Elt Ideal)) :
    (after (opsC29 (F := Ideal)) V (Proc.devRef .tc main_v314) : FVec Ideal S40001x3 .f32)
      = concatenate S40001x3 1 [⟨S40001x1, V (Proc.devRef .tc main_v311)⟩, ⟨S40001x1, V (Proc.devRef .tc main_v312)⟩,
          ⟨S40001x1, V (Proc.devRef .tc main_v313)⟩] concatenates_S40001x1_S40001x1_S40001x1_S40001x3_d1 := by
  unfold opsC29
  after_results_simp
  rfl

end Weights

/-! ## What the stretches do not write -/

section Keep
variable {F : FTy → Type} [FloatOps F]

/-- An array none of the thirty-six fusion operations writes is left as it was. -/
theorem keep25_27 (V : Valuation τ sig (Elt F)) (r : Ref sig .tc) (h25 : r ∉ opsC25_W) (h26 : r ∉ opsC26_W)
    (h27 : r ∉ opsC27_W) :
    after (opsC25 ++ opsC26 ++ opsC27 : List (HloOp τ sig (Elt F))) V (Proc.devRef .tc r) = V (Proc.devRef .tc r) := by
  rw [StableHlo.after_append, StableHlo.after_append, opsC27_keep _ _ h27, opsC26_keep _ _ h26, opsC25_keep _ _ h25]

/-- An array the counting and stacking operations do not write is left as it was. -/
theorem keep28_29 (V : Valuation τ sig (Elt F)) (r : Ref sig .tc) (h28 : r ∉ opsC28_W) (h29 : r ∉ opsC29_W) :
    after (opsC28 ++ opsC29 : List (HloOp τ sig (Elt F))) V (Proc.devRef .tc r) = V (Proc.devRef .tc r) := by
  rw [StableHlo.after_append, opsC29_keep _ _ h29, opsC28_keep _ _ h28]

/-- … nor by the normalising operations after them. -/
theorem keep28_30 (V : Valuation τ sig (Elt F)) (r : Ref sig .tc) (h28 : r ∉ opsC28_W) (h29 : r ∉ opsC29_W)
    (h30 : r ∉ opsC30_W) :
    after (opsC28 ++ opsC29 ++ opsC30 : List (HloOp τ sig (Elt F))) V (Proc.devRef .tc r) = V (Proc.devRef .tc r) := by
  rw [StableHlo.after_append, opsC30_keep _ _ h30, keep28_29 V r h28 h29]

/-- … nor by the item fusion after those. -/
theorem keep28_31 (V : Valuation τ sig (Elt F)) (r : Ref sig .tc) (h28 : r ∉ opsC28_W) (h29 : r ∉ opsC29_W)
    (h30 : r ∉ opsC30_W) (h31 : r ∉ opsC31_W) :
    after (opsC28 ++ opsC29 ++ opsC30 ++ opsC31 : List (HloOp τ sig (Elt F))) V (Proc.devRef .tc r)
      = V (Proc.devRef .tc r) := by
  rw [StableHlo.after_append, opsC31_keep _ _ h31, keep28_30 V r h28 h29 h30]

/-- The user-row table, the item-row table, the behaviour weights, the edge array and the batch are not written by
    the fusion of the user rows. -/
theorem att_keep_v260 (V : Valuation τ sig (Elt F)) :
    after (opsC25 ++ opsC26 ++ opsC27 : List (HloOp τ sig (Elt F))) V (Proc.devRef .tc main_v260)
      = V (Proc.devRef .tc main_v260) := keep25_27 V _ (by decide) (by decide) (by decide)
theorem att_keep_v264 (V : Valuation τ sig (Elt F)) :
    after (opsC25 ++ opsC26 ++ opsC27 : List (HloOp τ sig (Elt F))) V (Proc.devRef .tc main_v264)
      = V (Proc.devRef .tc main_v264) := keep25_27 V _ (by decide) (by decide) (by decide)
theorem att_keep_arg2 (V : Valuation τ sig (Elt F)) :
    after (opsC25 ++ opsC26 ++ opsC27 : List (HloOp τ sig (Elt F))) V (Proc.devRef .tc main_arg2)
      = V (Proc.devRef .tc main_arg2) := keep25_27 V _ (by decide) (by decide) (by decide)
theorem att_keep_arg4 (V : Valuation τ sig (Elt F)) :
    after (opsC25 ++ opsC26 ++ opsC27 : List (HloOp τ sig (Elt F))) V (Proc.devRef .tc main_arg4)
      = V (Proc.devRef .tc main_arg4) := keep25_27 V _ (by decide) (by decide) (by decide)
theorem att_keep_arg5 (V : Valuation τ sig (Elt F)) :
    after (opsC25 ++ opsC26 ++ opsC27 : List (HloOp τ sig (Elt F))) V (Proc.devRef .tc main_arg5)
      = V (Proc.devRef .tc main_arg5) := keep25_27 V _ (by decide) (by decide) (by decide)

/-- The same arrays, and the fused user table, are not written by the counting, stacking, normalising and item
    fusion operations. -/
theorem item_keep_v260 (V : Valuation τ sig (Elt F)) :
    after (opsC28 ++ opsC29 ++ opsC30 ++ opsC31 : List (HloOp τ sig (Elt F))) V (Proc.devRef .tc main_v260)
      = V (Proc.devRef .tc main_v260) := keep28_31 V _ (by decide) (by decide) (by decide) (by decide)
theorem item_keep_v264 (V : Valuation τ sig (Elt F)) :
    after (opsC28 ++ opsC29 ++ opsC30 ++ opsC31 : List (HloOp τ sig (Elt F))) V (Proc.devRef .tc main_v264)
      = V (Proc.devRef .tc main_v264) := keep28_31 V _ (by decide) (by decide) (by decide) (by decide)
theorem item_keep_v294 (V : Valuation τ sig (Elt F)) :
    after (opsC28 ++ opsC29 ++ opsC30 ++ opsC31 : List (HloOp τ sig (Elt F))) V (Proc.devRef .tc main_v294)
      = V (Proc.devRef .tc main_v294) := keep28_31 V _ (by decide) (by decide) (by decide) (by decide)
theorem item_keep_arg2 (V : Valuation τ sig (Elt F)) :
    after (opsC28 ++ opsC29 ++ opsC30 ++ opsC31 : List (HloOp τ sig (Elt F))) V (Proc.devRef .tc main_arg2)
      = V (Proc.devRef .tc main_arg2) := keep28_31 V _ (by decide) (by decide) (by decide) (by decide)
theorem item_keep_arg4 (V : Valuation τ sig (Elt F)) :
    after (opsC28 ++ opsC29 ++ opsC30 ++ opsC31 : List (HloOp τ sig (Elt F))) V (Proc.devRef .tc main_arg4)
      = V (Proc.devRef .tc main_arg4) := keep28_31 V _ (by decide) (by decide) (by decide) (by decide)
theorem item_keep_arg5 (V : Valuation τ sig (Elt F)) :
    after (opsC28 ++ opsC29 ++ opsC30 ++ opsC31 : List (HloOp τ sig (Elt F))) V (Proc.devRef .tc main_arg5)
      = V (Proc.devRef .tc main_arg5) := keep28_31 V _ (by decide) (by decide) (by decide) (by decide)

end Keep

/-! ## The tables -/

section Tables

/-- THE ITEM WEIGHTS: the counting, stacking and normalising operations leave the item weights of the stacked counts
    and of the behaviour weights they started from. -/
theorem weights_table (V : Valuation τ sig (Elt Ideal)) :
    (after (opsC28 ++ opsC29 ++ opsC30 : List (HloOp τ sig (Elt Ideal))) V (Proc.devRef .tc main_v323)
        : FVec Ideal S40001x3 .f32)
      = wR (after (opsC28 ++ opsC29 : List (HloOp τ sig (Elt Ideal))) V (Proc.devRef .tc main_v314))
          (V (Proc.devRef .tc main_arg2)) := by
  rw [StableHlo.after_append (opsC28 ++ opsC29) opsC30]
  refine (c30_v323 _).trans ?_
  rw [keep28_29 V main_arg2 (by decide) (by decide)]

/-- A one-column copy of an array over the items reads, at (k, 0), the array at k. -/
theorem col_apply (x : FVec Ideal S40001 .f32) (k : Fin 40001) :
    broadcastInDim S40001x1 ![0] bcast_S40001_S40001x1_0 x (ix2 k (0 : Fin 1)) = x (ix1 k) := by
  refine broadcastInDim_apply _ _ _ (ix2 k (0 : Fin 1)) (ix1 k) fun a => ?_
  match a with
  | ⟨0, _⟩ => rfl

/-- Three one-column arrays side by side read, at column 0, the first … -/
theorem stack3_apply0 (x0 x1 x2 : FVec Ideal S40001x1 .f32) (k : Fin 40001) :
    concatenate S40001x3 1 [⟨S40001x1, x0⟩, ⟨S40001x1, x1⟩, ⟨S40001x1, x2⟩]
        concatenates_S40001x1_S40001x1_S40001x1_S40001x3_d1 (ix2 k (0 : Fin 3)) = x0 (ix2 k (0 : Fin 1)) := by
  refine concatenate_apply_piece (t := S40001x3) (1 : Fin 2) [⟨S40001x1, x0⟩, ⟨S40001x1, x1⟩, ⟨S40001x1, x2⟩] _
    (ix2 k (0 : Fin 3)) 0 (show 0 < 3 by decide) S40001x1 x0 rfl rfl 0 rfl (ix2 k (0 : Fin 1)) (fun a ha => ?_) rfl
  match a with
  | ⟨0, _⟩ => rfl
  | ⟨1, _⟩ => exact absurd rfl ha

/-- … at column 1 the second … -/
theorem stack3_apply1 (x0 x1 x2 : FVec Ideal S40001x1 .f32) (k : Fin 40001) :
    concatenate S40001x3 1 [⟨S40001x1, x0⟩, ⟨S40001x1, x1⟩, ⟨S40001x1, x2⟩]
        concatenates_S40001x1_S40001x1_S40001x1_S40001x3_d1 (ix2 k (1 : Fin 3)) = x1 (ix2 k (0 : Fin 1)) := by
  refine concatenate_apply_piece (t := S40001x3) (1 : Fin 2) [⟨S40001x1, x0⟩, ⟨S40001x1, x1⟩, ⟨S40001x1, x2⟩] _
    (ix2 k (1 : Fin 3)) 1 (show 1 < 3 by decide) S40001x1 x1 rfl rfl 1 rfl (ix2 k (0 : Fin 1)) (fun a ha => ?_) rfl
  match a with
  | ⟨0, _⟩ => rfl
  | ⟨1, _⟩ => exact absurd rfl ha

/-- … and at column 2 the third. -/
theorem stack3_apply2 (x0 x1 x2 : FVec Ideal S40001x1 .f32) (k : Fin 40001) :
    concatenate S40001x3 1 [⟨S40001x1, x0⟩, ⟨S40001x1, x1⟩, ⟨S40001x1, x2⟩]
        concatenates_S40001x1_S40001x1_S40001x1_S40001x3_d1 (ix2 k (2 : Fin 3)) = x2 (ix2 k (0 : Fin 1)) := by
  refine concatenate_apply_piece (t := S40001x3) (1 : Fin 2) [⟨S40001x1, x0⟩, ⟨S40001x1, x1⟩, ⟨S40001x1, x2⟩] _
    (ix2 k (2 : Fin 3)) 2 (show 2 < 3 by decide) S40001x1 x2 rfl rfl 2 rfl (ix2 k (0 : Fin 1)) (fun a ha => ?_) rfl
  match a with
  | ⟨0, _⟩ => rfl
  | ⟨1, _⟩ => exact absurd rfl ha

/-- Three arrays over the items, each copied to one column and the columns put side by side, read at (k, b) the
    b-th array at k. -/
theorem stack_cols (d0 d1 d2 : FVec Ideal S40001 .f32) (k : Fin 40001) (b : Fin 3) :
    concatenate S40001x3 1
        [⟨S40001x1, broadcastInDim S40001x1 ![0] bcast_S40001_S40001x1_0 d0⟩,
          ⟨S40001x1, broadcastInDim S40001x1 ![0] bcast_S40001_S40001x1_0 d1⟩,
          ⟨S40001x1, broadcastInDim S40001x1 ![0] bcast_S40001_S40001x1_0 d2⟩]
        concatenates_S40001x1_S40001x1_S40001x1_S40001x3_d1 (ix2 k b)
      = (![d0, d1, d2] : Fin 3 → FVec Ideal S40001 .f32) b (ix1 k) := by
  match b with
  | ⟨0, _⟩ => exact (stack3_apply0 _ _ _ k).trans (col_apply d0 k)
  | ⟨1, _⟩ => exact (stack3_apply1 _ _ _ k).trans (col_apply d1 k)
  | ⟨2, _⟩ => exact (stack3_apply2 _ _ _ k).trans (col_apply d2 k)

/-- THE STACKED COUNTS: column b of the stacked array at item k is the count of behaviour b at item k, a function of
    the edge array alone. -/
theorem degree_stack (V : Valuation τ sig (Elt Ideal)) (k : Fin 40001) (b : Fin 3) :
    (after (opsC28 ++ opsC29 : List (HloOp τ sig (Elt Ideal))) V (Proc.devRef .tc main_v314)
        : FVec Ideal S40001x3 .f32) (ix2 k b)
      = degR (V (Proc.devRef .tc main_arg4)) b (ix1 k) := by
  rw [StableHlo.after_append]
  refine (congrFun (c29_v314 _) (ix2 k b)).trans ?_
  rw [c28_v311, c28_v312, c28_v313]
  unfold degR
  generalize degR0 (V (Proc.devRef .tc main_arg4)) = d0
  generalize degR1 (V (Proc.devRef .tc main_arg4)) = d1
  generalize degR2 (V (Proc.devRef .tc main_arg4)) = d2
  exact stack_cols d0 d1 d2 k b

/-- The five item-fusion operations leave the fused item rows of the item table and the item weights they started
    from. -/
theorem c31_v327 (V : Valuation τ sig (Elt Ideal)) :
    (after (opsC31 (F := Ideal)) V (Proc.devRef .tc main_v327) : FVec Ideal S40001x64 .f32)
      = ItemValue.refItem (V (Proc.devRef .tc main_v264)) (V (Proc.devRef .tc main_v323)) := by
  unfold opsC31
  after_results_simp
  rfl

/-- THE FUSED ITEM TABLE: after the counting, stacking, normalising and item-fusion operations the fused item table is
    the reference's item fusion of the item table they started from and of the item weights the first three stretches
    leave. -/
theorem item_table (V : Valuation τ sig (Elt Ideal)) :
    (after (opsC28 ++ opsC29 ++ opsC30 ++ opsC31 : List (HloOp τ sig (Elt Ideal))) V (Proc.devRef .tc main_v327)
        : FVec Ideal S40001x64 .f32)
      = ItemValue.refItem (V (Proc.devRef .tc main_v264))
          (after (opsC28 ++ opsC29 ++ opsC30 : List (HloOp τ sig (Elt Ideal))) V (Proc.devRef .tc main_v323)) := by
  rw [StableHlo.after_append (opsC28 ++ opsC29 ++ opsC30) opsC31]
  refine (c31_v327 _).trans ?_
  rw [keep28_30 V main_v264 (by decide) (by decide) (by decide)]

end Tables

/-! ## The item weights read at an index -/

section WeightsRead

/-- Summing the [40001, 3] array over its second axis leaves [40001]. -/
theorem red_w : S40001x3.Reduces [1] S40001 := by decide

/-- (k) with b inserted on the second axis is (k, b). -/
theorem lift_w (k : Fin 40001) (b : Fin 3) : red_w.lift (ix1 k) b = ix2 k b := by
  funext a; apply Fin.ext
  match a with
  | ⟨0, _⟩ => rfl
  | ⟨1, _⟩ => rfl

/-- A weighted count at (k, b): the count times the weight of behaviour b. -/
theorem wR_v317_apply (deg : FVec Ideal S40001x3 .f32) (w : FVec Ideal S3 .f32) (k : Fin 40001) (b : Fin 3) :
    wR_v317 deg w (ix2 k b) = deg (ix2 k b) * w (ix1 b) := by
  unfold wR_v317
  rw [mulf_apply]
  refine congrArg (deg (ix2 k b) * ·) ?_
  refine (broadcastInDim_apply _ _ _ (ix2 k b) (ix2 (0 : Fin 1) b) fun a => ?_).trans ?_
  · match a with
    | ⟨0, _⟩ => rfl
    | ⟨1, _⟩ => rfl
  · refine broadcastInDim_apply _ _ _ (ix2 (0 : Fin 1) b) (ix1 b) fun a => ?_
    match a with
    | ⟨0, _⟩ => rfl

/-- An item weight at (k, b): the weighted count over the sum of item k's three weighted counts plus the small
    constant (the f32 word 0x322BCC77). -/
theorem wR_apply (deg : FVec Ideal S40001x3 .f32) (w : FVec Ideal S3 .f32) (k : Fin 40001) (b : Fin 3) :
    wR deg w (ix2 k b)
      = Ideal.div (deg (ix2 k b) * w (ix1 b))
          (((deg (ix2 k (0 : Fin 3)) * w (ix1 (0 : Fin 3)) + deg (ix2 k (1 : Fin 3)) * w (ix1 (1 : Fin 3)))
              + deg (ix2 k (2 : Fin 3)) * w (ix1 (2 : Fin 3)))
            + Ideal.ofBits .f32 0x322BCC77#32) := by
  unfold wR
  rw [hostDivf_apply, wR_v317_apply]
  refine congrArg (Ideal.div (deg (ix2 k b) * w (ix1 b))) ?_
  refine (broadcastInDim_apply _ _ _ (ix2 k b) (ix2 k (0 : Fin 1)) fun a => ?_).trans ?_
  · match a with
    | ⟨0, _⟩ => rfl
    | ⟨1, _⟩ => rfl
  rw [addf_apply]
  refine congrArg₂ (· + ·) ?_ ?_
  · refine (broadcastInDim_apply _ _ _ (ix2 k (0 : Fin 1)) (ix1 k) fun a => ?_).trans ?_
    · match a with
      | ⟨0, _⟩ => rfl
    rw [hostReduceAdd_apply]
    refine (Ideal.hostReduceAdd_single _ red_w _ _ _).trans ?_
    rw [constant_apply, Ideal.ofBits_zero_f32, zero_add]
    refine (Fin.sum_univ_three (fun b' : Fin 3 => wR_v317 deg w (red_w.lift (ix1 k) b'))).trans ?_
    rw [lift_w, lift_w, lift_w, wR_v317_apply, wR_v317_apply, wR_v317_apply]
  · rw [broadcastInDim_scalar_apply]
    rfl

end WeightsRead

end Cert.ReferenceIdeal.MidValue

end
-- ==== Proof.RTail.lean ====
/-
  The tail of the reference program's @main: the pairwise ranking loss of the three behaviours and the
  regulariser.

  For behaviour b the program gathers the user block uf_b : f32[2048,64] (column b of the fused user table at the
  batch's users) and the item block itf_b : f32[2048,2,64] (the fused item table at the batch row's positive and
  negative item), forms the two scores s_j(n) = Σ_d uf_b(n,d) · itf_b(n,j,d), and averages
  log(1e-10 + 1 / (1 + exp(-(s_0(n) - s_1(n))))) over the batch ('lossB'). The running total starts at 0 and
  subtracts the three means ('total'); the regulariser is 0.001 · (‖E_user‖ + ‖E_item‖) / 40001 ('reg'); the
  program's result is their sum ('shell').

  Every definition here is the composition of the operations exactly as the program states them. An index into a
  table is read as a signed integer, a negative one counted from the table's end, and clamped into the table
  (`Cert.Spec.gRow`): 'xr_apply' / 'yr_apply' read the gathered blocks at an index, and 'reference_tail' says that
  running the tail's host operations from any buffer contents leaves 'shell' of the gathered blocks in the result
  buffer.
-/
import proofs.«412432_j74655121539772_3_alg».proof.Proof.RefRunC6
import proofs.«412432_j74655121539772_3_alg».proof.Proof.RefRunC7
import proofs.«412432_j74655121539772_3_alg».proof.Proof.RefRunC8
import proofs.«412432_j74655121539772_3_alg».proof.Proof.RefRunC9
import proofs.«412432_j74655121539772_3_alg».proof.Proof.SpecIdx
import Idealize.ShloMosaic.Lib.Pipeline.Frame
import Idealize.ShloMosaic.Lib.ValueIdx
import Idealize.ShloMosaic.Lib.ValueLayout

set_option maxRecDepth 16384

noncomputable section

namespace Cert.ReferenceIdeal.Tail

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

variable {F : FTy → Type} [FloatOps F]

/-! ## The loss as a function of the blocks -/

/-- The scores s_j(n) = Σ_d uf(n,d) · itf(n,j,d): the user row broadcast along the pair axis, times the item rows,
    summed over the feature axis. -/
def scores (uf : FVec F S2048x64 .f32) (itf : FVec F S2048x2x64 .f32) : FVec F S2048x2 .f32 :=
  Host.reduceAdd
    (mulf (broadcastInDim S2048x2x64 ![0, 1, 2] bcast_S2048x1x64_S2048x2x64_0_1_2
            (broadcastInDim S2048x1x64 ![0, 2] bcast_S2048x64_S2048x1x64_0_2 uf)) itf)
    (constant S_ .f32 0x00000000#32) reducesTo_S2048x2x64_S2048x2_d2 h_S_

/-- Column j of the score table as a vector over the batch. -/
def col0 (s : FVec F S2048x2 .f32) : FVec F S2048 .f32 :=
  shapeCast S2048 (extractStridedSlice S2048x1 ![0, 0] s slices_S2048x2_S2048x1_0_0) shapeCasts_S2048x1_S2048
@[inherit_doc col0]
def col1 (s : FVec F S2048x2 .f32) : FVec F S2048 .f32 :=
  shapeCast S2048 (extractStridedSlice S2048x1 ![0, 1] s slices_S2048x2_S2048x1_0_1) shapeCasts_S2048x1_S2048

/-- log(1e-10 + 1 / (1 + exp(-x))) entrywise. -/
def logSig (x : FVec F S2048 .f32) : FVec F S2048 .f32 :=
  Host.log
    (addf (broadcastInDim S2048 ![] bcast_S_S2048 (constant S_ .f32 0x2EDBE6FF#32))
      (Host.divf (broadcastInDim S2048 ![] bcast_S_S2048 (constant S_ .f32 0x3F800000#32))
        (addf (broadcastInDim S2048 ![] bcast_S_S2048 (constant S_ .f32 0x3F800000#32))
          (Host.exp (Host.negf x)))))

/-- One behaviour's mean of log σ(s_0 - s_1) over the 2048 batch rows. -/
def lossB (uf : FVec F S2048x64 .f32) (itf : FVec F S2048x2x64 .f32) : FVec F S_ .f32 :=
  Host.divf
    (Host.reduceAdd (logSig (subf (col0 (scores uf itf)) (col1 (scores uf itf))))
      (constant S_ .f32 0x00000000#32) reducesTo_S2048_S_d0 h_S_)
    (constant S_ .f32 0x45000000#32)

/-- The running total: 0 - l0 - l1 - l2. -/
def total (l0 l1 l2 : FVec F S_ .f32) : FVec F S_ .f32 :=
  subf (subf (subf (constant S_ .f32 0x00000000#32) l0) l1) l2

/-- The Euclidean norm of a table: the square root of the sum of its squared entries. -/
def normU (a : FVec F S60001x64 .f32) : FVec F S_ .f32 :=
  Host.sqrt (Host.reduceAdd (mulf a a) (constant S_ .f32 0x00000000#32) reducesTo_S60001x64_S_d0_1 h_S_)
@[inherit_doc normU]
def normI (a : FVec F S40001x64 .f32) : FVec F S_ .f32 :=
  Host.sqrt (Host.reduceAdd (mulf a a) (constant S_ .f32 0x00000000#32) reducesTo_S40001x64_S_d0_1 h_S_)

/-- The regulariser 0.001 · ((‖a0‖ + ‖a1‖) / 40001). -/
def reg (a0 : FVec F S60001x64 .f32) (a1 : FVec F S40001x64 .f32) : FVec F S_ .f32 :=
  mulf (constant S_ .f32 0x3A83126F#32)
    (Host.divf (addf (normU a0) (normI a1)) (constant S_ .f32 0x471C4100#32))

/-- The program's result as a function of the three user blocks, the three item blocks and the two tables. -/
def shell (x0 : FVec F S2048x64 .f32) (y0 : FVec F S2048x2x64 .f32) (x1 : FVec F S2048x64 .f32) (y1 : FVec F S2048x2x64 .f32)
    (x2 : FVec F S2048x64 .f32) (y2 : FVec F S2048x2x64 .f32) (a0 : FVec F S60001x64 .f32) (a1 : FVec F S40001x64 .f32) :
    FVec F S_ .f32 :=
  addf (total (lossB x0 y0) (lossB x1 y1) (lossB x2 y2)) (reg a0 a1)

/-! ## The blocks the program gathers -/

/-- The batch's user indices of one behaviour (column `o`, entry 0 of the index array), a negative index counted from
    the end of the 60001-row table, as the column of start indices a gather reads. -/
def userIdx (a5 : IVec S2048x3x3 32) (o : Nat) (h : S2048x3x3.Slices ![0, o, 0] S2048x1x1) : IVec S2048x1 32 :=
  broadcastInDim S2048x1 ![0] bcast_S2048_S2048x1_0
    (select
      (cmpi .slt (shapeCast S2048 (extractStridedSlice S2048x1x1 ![0, o, 0] a5 h) shapeCasts_S2048x1x1_S2048)
        (broadcastInDim S2048 ![] bcast_S_S2048 (constantI S_ 32 0#32)))
      (addi (shapeCast S2048 (extractStridedSlice S2048x1x1 ![0, o, 0] a5 h) shapeCasts_S2048x1x1_S2048)
        (broadcastInDim S2048 ![] bcast_S_S2048 (constantI S_ 32 60001#32)))
      (shapeCast S2048 (extractStridedSlice S2048x1x1 ![0, o, 0] a5 h) shapeCasts_S2048x1x1_S2048))

/-- Column `o` of the fused user table as a table of 64-entry rows. -/
def userCol (t : FVec F S60001x3x64 .f32) (o : Nat) (h : S60001x3x64.Slices ![0, o, 0] S60001x1x64) : FVec F S60001x64 .f32 :=
  shapeCast S60001x64 (extractStridedSlice S60001x1x64 ![0, o, 0] t h) shapeCasts_S60001x1x64_S60001x64

/-- The batch's two item indices of one behaviour (column `o`, entries 1 and 2 of the index array), a negative index
    counted from the end of the 40001-row table, as the start indices a gather reads. -/
def itemIdx (a5 : IVec S2048x3x3 32) (o : Nat) (h : S2048x3x3.Slices ![0, o, 1] S2048x1x2) : IVec S2048x2x1 32 :=
  broadcastInDim S2048x2x1 ![0, 1] bcast_S2048x2_S2048x2x1_0_1
    (select
      (cmpi .slt (shapeCast S2048x2 (extractStridedSlice S2048x1x2 ![0, o, 1] a5 h) shapeCasts_S2048x1x2_S2048x2)
        (broadcastInDim S2048x2 ![] bcast_S_S2048x2 (constantI S_ 32 0#32)))
      (addi (shapeCast S2048x2 (extractStridedSlice S2048x1x2 ![0, o, 1] a5 h) shapeCasts_S2048x1x2_S2048x2)
        (broadcastInDim S2048x2 ![] bcast_S_S2048x2 (constantI S_ 32 40001#32)))
      (shapeCast S2048x2 (extractStridedSlice S2048x1x2 ![0, o, 1] a5 h) shapeCasts_S2048x1x2_S2048x2))

/-- The user block of behaviour `b` from the fused user table `t` and the index array `a5`: column `b` of the table at
    the batch's users. -/
def xrOf (t : FVec F S60001x3x64 .f32) (a5 : IVec S2048x3x3 32) : Fin 3 → FVec F S2048x64 .f32
  | 0 => Host.gather gather_S60001x64_S2048x1_S2048x64_1_0_n_n_0_1_164
      (userCol t 0 slices_S60001x3x64_S60001x1x64_0_0_0) (userIdx a5 0 slices_S2048x3x3_S2048x1x1_0_0_0)
  | 1 => Host.gather gather_S60001x64_S2048x1_S2048x64_1_0_n_n_0_1_164
      (userCol t 1 slices_S60001x3x64_S60001x1x64_0_1_0) (userIdx a5 1 slices_S2048x3x3_S2048x1x1_0_1_0)
  | 2 => Host.gather gather_S60001x64_S2048x1_S2048x64_1_0_n_n_0_1_164
      (userCol t 2 slices_S60001x3x64_S60001x1x64_0_2_0) (userIdx a5 2 slices_S2048x3x3_S2048x1x1_0_2_0)

/-- The item block of behaviour `b` from the fused item table `t` and the index array `a5`: the table at the batch's
    positive and negative items. -/
def yrOf (t : FVec F S40001x64 .f32) (a5 : IVec S2048x3x3 32) : Fin 3 → FVec F S2048x2x64 .f32
  | 0 => Host.gather gather_S40001x64_S2048x2x1_S2048x2x64_2_0_n_n_0_2_164 t (itemIdx a5 0 slices_S2048x3x3_S2048x1x2_0_0_1)
  | 1 => Host.gather gather_S40001x64_S2048x2x1_S2048x2x64_2_0_n_n_0_2_164 t (itemIdx a5 1 slices_S2048x3x3_S2048x1x2_0_1_1)
  | 2 => Host.gather gather_S40001x64_S2048x2x1_S2048x2x64_2_0_n_n_0_2_164 t (itemIdx a5 2 slices_S2048x3x3_S2048x1x2_0_2_1)

/-- The user block of behaviour `b`, read off the buffers of the fused user table and of the index array. -/
def xr (V : Valuation τ sig (Elt F)) (b : Fin 3) : FVec F S2048x64 .f32 :=
  xrOf (V (Proc.devRef .tc main_v294)) (V (Proc.devRef .tc main_arg5)) b

/-- The item block of behaviour `b`, read off the buffers of the fused item table and of the index array. -/
def yr (V : Valuation τ sig (Elt F)) (b : Fin 3) : FVec F S2048x2x64 .f32 :=
  yrOf (V (Proc.devRef .tc main_v327)) (V (Proc.devRef .tc main_arg5)) b

/-! ## The gathers read at an index -/

section Read
variable {α : Type}

/-- The printed form of "a negative index counts from the end" on one 32-bit index into a table of `N` rows. -/
theorem select_wrap (N : Nat) (x : BitVec 32) :
    Scalar.select (IntOp.cmpi .slt x 0#32) (IntOp.addi x (BitVec.ofNat 32 N)) x
      = if x.slt 0 then x + BitVec.ofNat 32 N else x := by
  cases h : x.slt 0#32 <;> simp [Scalar.select, IntOp.cmpi, IntOp.addi, h]

/-- A scalar broadcast to any shape reads the scalar everywhere. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

/-- A gather of whole 64-entry rows of a [60001, 64] table at a column of 2048 start indices: result row `n` is the
    table's row at start index `n`, read signed and clamped into the table. -/
theorem gather_user_apply (x : S60001x64.Idx → α) (idx : IVec S2048x1 32) (n : Fin 2048) (d : Fin 64) :
    Host.gather gather_S60001x64_S2048x1_S2048x64_1_0_n_n_0_1_164 x idx (ix2 n d)
      = x (ix2 ⟨min (idx (ix2 n (0 : Fin 1))).toInt.toNat (60001 - 1), by omega⟩ d) := by
  unfold Host.gather
  congr 1
  funext a
  refine Fin.ext ?_
  show gather_S60001x64_S2048x1_S2048x64_1_0_n_n_0_1_164.start (ix2 n d) idx a
      + gather_S60001x64_S2048x1_S2048x64_1_0_n_n_0_1_164.batchCoord (ix2 n d) a
      + gather_S60001x64_S2048x1_S2048x64_1_0_n_n_0_1_164.offCoord (ix2 n d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S60001x64.rank) ∈ gather_S60001x64_S2048x1_S2048x64_1_0_n_n_0_1_164.startIndexMap from List.mem_singleton.mpr rfl)]
    have hsi : gather_S60001x64_S2048x1_S2048x64_1_0_n_n_0_1_164.siIdx (ix2 n d)
        ⟨List.idxOf (⟨0, by decide⟩ : Fin S60001x64.rank) gather_S60001x64_S2048x1_S2048x64_1_0_n_n_0_1_164.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    have hs : gather_S60001x64_S2048x1_S2048x64_1_0_n_n_0_1_164.start (ix2 n d) idx ⟨1, by decide⟩ = 0 := by
      unfold GatherDims.start
      rw [dif_neg (by decide)]
    have ho : gather_S60001x64_S2048x1_S2048x64_1_0_n_n_0_1_164.offCoord (ix2 n d) ⟨1, by decide⟩ = d.val := by
      unfold GatherDims.offCoord
      rw [dif_pos (by decide)]
      rfl
    rw [hs, ho, Nat.zero_add]

/-- A gather of whole 64-entry rows of a [40001, 64] table at a [2048, 2] array of start indices: result row `(n, j)`
    is the table's row at start index `(n, j)`, read signed and clamped into the table. -/
theorem gather_item_apply (x : S40001x64.Idx → α) (idx : IVec S2048x2x1 32) (n : Fin 2048) (j : Fin 2) (d : Fin 64) :
    Host.gather gather_S40001x64_S2048x2x1_S2048x2x64_2_0_n_n_0_2_164 x idx (ix3 n j d)
      = x (ix2 ⟨min (idx (ix3 n j (0 : Fin 1))).toInt.toNat (40001 - 1), by omega⟩ d) := by
  unfold Host.gather
  congr 1
  funext a
  refine Fin.ext ?_
  show gather_S40001x64_S2048x2x1_S2048x2x64_2_0_n_n_0_2_164.start (ix3 n j d) idx a
      + gather_S40001x64_S2048x2x1_S2048x2x64_2_0_n_n_0_2_164.batchCoord (ix3 n j d) a
      + gather_S40001x64_S2048x2x1_S2048x2x64_2_0_n_n_0_2_164.offCoord (ix3 n j d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S40001x64.rank) ∈ gather_S40001x64_S2048x2x1_S2048x2x64_2_0_n_n_0_2_164.startIndexMap from List.mem_singleton.mpr rfl)]
    have hsi : gather_S40001x64_S2048x2x1_S2048x2x64_2_0_n_n_0_2_164.siIdx (ix3 n j d)
        ⟨List.idxOf (⟨0, by decide⟩ : Fin S40001x64.rank) gather_S40001x64_S2048x2x1_S2048x2x64_2_0_n_n_0_2_164.startIndexMap,
          List.idxOf_lt_length_iff.2 (List.mem_singleton.mpr rfl)⟩ = ix3 n j (0 : Fin 1) := by
      funext b; refine Fin.ext ?_
      match b with
      | ⟨0, _⟩ => rfl
      | ⟨1, _⟩ => rfl
      | ⟨2, _⟩ => rfl
    rw [hsi]
    rfl
  | ⟨1, _⟩ =>
    have hs : gather_S40001x64_S2048x2x1_S2048x2x64_2_0_n_n_0_2_164.start (ix3 n j d) idx ⟨1, by decide⟩ = 0 := by
      unfold GatherDims.start
      rw [dif_neg (by decide)]
    have ho : gather_S40001x64_S2048x2x1_S2048x2x64_2_0_n_n_0_2_164.offCoord (ix3 n j d) ⟨1, by decide⟩ = d.val := by
      unfold GatherDims.offCoord
      rw [dif_pos (by decide)]
      rfl
    rw [hs, ho, Nat.zero_add]

/-- Column `o` of a [60001, 3, 64] table, as a table of rows, reads entry `(k, o, d)` at `(k, d)`. -/
theorem userCol_apply (t : FVec F S60001x3x64 .f32) (o : Nat) (ho : o < 3) (h : S60001x3x64.Slices ![0, o, 0] S60001x1x64)
    (k : Fin 60001) (d : Fin 64) : userCol t o h (ix2 k d) = t (ix3 k ⟨o, ho⟩ d) := by
  unfold userCol
  refine (shapeCast_apply _ _ (ix2 k d) (ix3 k (0 : Fin 1) d) (by
    rw [Shape.rowMajor_val_three, Shape.rowMajor_val_two]
    show (k.val * 1 + 0) * 64 + d.val = k.val * 64 + d.val
    omega)).trans ?_
  refine extractStridedSlice_apply _ t h _ (ix3 k (⟨o, ho⟩ : Fin 3) d) fun ax => ?_
  match ax with
  | ⟨0, _⟩ => exact (Nat.zero_add _).symm
  | ⟨1, _⟩ => rfl
  | ⟨2, _⟩ => exact (Nat.zero_add _).symm

/-- The start index of batch row `n` for the users of behaviour `o`. -/
theorem userIdx_apply (a5 : IVec S2048x3x3 32) (o : Nat) (ho : o < 3) (h : S2048x3x3.Slices ![0, o, 0] S2048x1x1)
    (n : Fin 2048) (u : Fin 1) :
    userIdx a5 o h (ix2 n u)
      = if (a5 (ix3 n ⟨o, ho⟩ 0)).slt 0 then a5 (ix3 n ⟨o, ho⟩ 0) + BitVec.ofNat 32 60001 else a5 (ix3 n ⟨o, ho⟩ 0) := by
  have hc : shapeCast S2048 (extractStridedSlice S2048x1x1 ![0, o, 0] a5 h) shapeCasts_S2048x1x1_S2048 (ix1 n)
      = a5 (ix3 n ⟨o, ho⟩ 0) := by
    refine (shapeCast_apply _ _ (ix1 n) (ix3 n (0 : Fin 1) (0 : Fin 1)) (by
      rw [Shape.rowMajor_val_three, Shape.rowMajor_val_one]
      show (n.val * 1 + 0) * 1 + 0 = n.val
      omega)).trans ?_
    refine extractStridedSlice_apply _ a5 h _ (ix3 n (⟨o, ho⟩ : Fin 3) (0 : Fin 3)) fun ax => ?_
    match ax with
    | ⟨0, _⟩ => exact (Nat.zero_add _).symm
    | ⟨1, _⟩ => rfl
    | ⟨2, _⟩ => rfl
  have e1 : userIdx a5 o h (ix2 n u)
      = Scalar.select
          (IntOp.cmpi .slt (shapeCast S2048 (extractStridedSlice S2048x1x1 ![0, o, 0] a5 h) shapeCasts_S2048x1x1_S2048 (ix1 n))
            (broadcastInDim S2048 ![] bcast_S_S2048 (constantI S_ 32 0#32) (ix1 n)))
          (IntOp.addi (shapeCast S2048 (extractStridedSlice S2048x1x1 ![0, o, 0] a5 h) shapeCasts_S2048x1x1_S2048 (ix1 n))
            (broadcastInDim S2048 ![] bcast_S_S2048 (constantI S_ 32 60001#32) (ix1 n)))
          (shapeCast S2048 (extractStridedSlice S2048x1x1 ![0, o, 0] a5 h) shapeCasts_S2048x1x1_S2048 (ix1 n)) := by
    unfold userIdx
    exact broadcastInDim_apply _ _ _ _ (ix1 n) (fun a => match a with | ⟨0, _⟩ => rfl)
  rw [e1, hc, broadcastInDim_scalar_apply, broadcastInDim_scalar_apply]
  exact select_wrap 60001 _

/-- The start index of batch row `n`, pair member `j`, for the items of behaviour `o`. -/
theorem itemIdx_apply (a5 : IVec S2048x3x3 32) (o : Nat) (ho : o < 3) (h : S2048x3x3.Slices ![0, o, 1] S2048x1x2)
    (n : Fin 2048) (j : Fin 2) (u : Fin 1) :
    itemIdx a5 o h (ix3 n j u)
      = if (a5 (ix3 n ⟨o, ho⟩ ⟨1 + j.val, by omega⟩)).slt 0
          then a5 (ix3 n ⟨o, ho⟩ ⟨1 + j.val, by omega⟩) + BitVec.ofNat 32 40001
          else a5 (ix3 n ⟨o, ho⟩ ⟨1 + j.val, by omega⟩) := by
  have hc : shapeCast S2048x2 (extractStridedSlice S2048x1x2 ![0, o, 1] a5 h) shapeCasts_S2048x1x2_S2048x2 (ix2 n j)
      = a5 (ix3 n ⟨o, ho⟩ ⟨1 + j.val, by omega⟩) := by
    refine (shapeCast_apply _ _ (ix2 n j) (ix3 n (0 : Fin 1) j) (by
      rw [Shape.rowMajor_val_three, Shape.rowMajor_val_two]
      show (n.val * 1 + 0) * 2 + j.val = n.val * 2 + j.val
      omega)).trans ?_
    refine extractStridedSlice_apply _ a5 h _ (ix3 n (⟨o, ho⟩ : Fin 3) (⟨1 + j.val, by omega⟩ : Fin 3)) fun ax => ?_
    match ax with
    | ⟨0, _⟩ => exact (Nat.zero_add _).symm
    | ⟨1, _⟩ => rfl
    | ⟨2, _⟩ => rfl
  have e1 : itemIdx a5 o h (ix3 n j u)
      = Scalar.select
          (IntOp.cmpi .slt (shapeCast S2048x2 (extractStridedSlice S2048x1x2 ![0, o, 1] a5 h) shapeCasts_S2048x1x2_S2048x2 (ix2 n j))
            (broadcastInDim S2048x2 ![] bcast_S_S2048x2 (constantI S_ 32 0#32) (ix2 n j)))
          (IntOp.addi (shapeCast S2048x2 (extractStridedSlice S2048x1x2 ![0, o, 1] a5 h) shapeCasts_S2048x1x2_S2048x2 (ix2 n j))
            (broadcastInDim S2048x2 ![] bcast_S_S2048x2 (constantI S_ 32 40001#32) (ix2 n j)))
          (shapeCast S2048x2 (extractStridedSlice S2048x1x2 ![0, o, 1] a5 h) shapeCasts_S2048x1x2_S2048x2 (ix2 n j)) := by
    unfold itemIdx
    exact broadcastInDim_apply _ _ _ _ (ix2 n j) (fun a => match a with | ⟨0, _⟩ => rfl | ⟨1, _⟩ => rfl)
  rw [e1, hc, broadcastInDim_scalar_apply, broadcastInDim_scalar_apply]
  exact select_wrap 40001 _

end Read

/-- A user block's entry: column `o` of the table's row that the batch's user index `(n, o, 0)` names. -/
theorem xr_core (t : FVec F S60001x3x64 .f32) (a5 : IVec S2048x3x3 32) (o : Nat) (ho : o < 3)
    (h1 : S60001x3x64.Slices ![0, o, 0] S60001x1x64) (h2 : S2048x3x3.Slices ![0, o, 0] S2048x1x1) (n : Fin 2048) (d : Fin 64) :
    Host.gather gather_S60001x64_S2048x1_S2048x64_1_0_n_n_0_1_164 (userCol t o h1) (userIdx a5 o h2) (ix2 n d)
      = t (ix3 ⟨Cert.Spec.gRow 60001 (a5 (ix3 n ⟨o, ho⟩ 0)), Cert.Spec.gRow_lt (by norm_num) _⟩ ⟨o, ho⟩ d) := by
  rw [gather_user_apply, userCol_apply t o ho]
  refine congrArg (fun k => t (ix3 k ⟨o, ho⟩ d)) (Fin.ext ?_)
  show min (BitVec.toInt _).toNat (60001 - 1) = Cert.Spec.gRow 60001 _
  rw [userIdx_apply a5 o ho]
  rfl

/-- An item block's entry: the table's row that the batch's index word `(n, o, 1 + j)` names. -/
theorem yr_core (t : FVec F S40001x64 .f32) (a5 : IVec S2048x3x3 32) (o : Nat) (ho : o < 3)
    (h2 : S2048x3x3.Slices ![0, o, 1] S2048x1x2) (n : Fin 2048) (j : Fin 2) (d : Fin 64) :
    Host.gather gather_S40001x64_S2048x2x1_S2048x2x64_2_0_n_n_0_2_164 t (itemIdx a5 o h2) (ix3 n j d)
      = t (ix2 ⟨Cert.Spec.gRow 40001 (a5 (ix3 n ⟨o, ho⟩ ⟨1 + j.val, by omega⟩)), Cert.Spec.gRow_lt (by norm_num) _⟩ d) := by
  rw [gather_item_apply]
  refine congrArg (fun k => t (ix2 k d)) (Fin.ext ?_)
  show min (BitVec.toInt _).toNat (40001 - 1) = Cert.Spec.gRow 40001 _
  rw [itemIdx_apply a5 o ho]
  rfl

/-- **The user block of behaviour `b`, read at `(n, d)`.** -/
theorem xr_apply (V : Valuation τ sig (Elt F)) (b : Fin 3) (n : Fin 2048) (d : Fin 64) :
    xr V b (ix2 n d)
      = (V (Proc.devRef .tc main_v294) : S60001x3x64.Idx → F .f32)
          (ix3 ⟨Cert.Spec.gRow 60001 ((V (Proc.devRef .tc main_arg5) : S2048x3x3.Idx → BitVec 32) (ix3 n b 0)),
            Cert.Spec.gRow_lt (by norm_num) _⟩ b d) :=
  match b with
  | ⟨0, _⟩ => xr_core _ _ 0 (by norm_num) slices_S60001x3x64_S60001x1x64_0_0_0 slices_S2048x3x3_S2048x1x1_0_0_0 n d
  | ⟨1, _⟩ => xr_core _ _ 1 (by norm_num) slices_S60001x3x64_S60001x1x64_0_1_0 slices_S2048x3x3_S2048x1x1_0_1_0 n d
  | ⟨2, _⟩ => xr_core _ _ 2 (by norm_num) slices_S60001x3x64_S60001x1x64_0_2_0 slices_S2048x3x3_S2048x1x1_0_2_0 n d

/-- **The item block of behaviour `b`, read at `(n, j, d)`.** -/
theorem yr_apply (V : Valuation τ sig (Elt F)) (b : Fin 3) (n : Fin 2048) (j : Fin 2) (d : Fin 64) :
    yr V b (ix3 n j d)
      = (V (Proc.devRef .tc main_v327) : S40001x64.Idx → F .f32)
          (ix2 ⟨Cert.Spec.gRow 40001 ((V (Proc.devRef .tc main_arg5) : S2048x3x3.Idx → BitVec 32)
              (ix3 n b ⟨1 + j.val, by omega⟩)), Cert.Spec.gRow_lt (by norm_num) _⟩ d) :=
  match b with
  | ⟨0, _⟩ => yr_core _ _ 0 (by norm_num) slices_S2048x3x3_S2048x1x2_0_0_1 n j d
  | ⟨1, _⟩ => yr_core _ _ 1 (by norm_num) slices_S2048x3x3_S2048x1x2_0_1_1 n j d
  | ⟨2, _⟩ => yr_core _ _ 2 (by norm_num) slices_S2048x3x3_S2048x1x2_0_2_1 n j d

/-! ## The tail's host operations -/

/-- The blocks depend on the contents only through the two tables and the index array. -/
theorem xr_congr {V W : Valuation τ sig (Elt F)} (h1 : W (Proc.devRef .tc main_v294) = V (Proc.devRef .tc main_v294))
    (h2 : W (Proc.devRef .tc main_arg5) = V (Proc.devRef .tc main_arg5)) (b : Fin 3) : xr W b = xr V b := by
  unfold xr; rw [h1, h2]

@[inherit_doc xr_congr]
theorem yr_congr {V W : Valuation τ sig (Elt F)} (h1 : W (Proc.devRef .tc main_v327) = V (Proc.devRef .tc main_v327))
    (h2 : W (Proc.devRef .tc main_arg5) = V (Proc.devRef .tc main_arg5)) (b : Fin 3) : yr W b = yr V b := by
  unfold yr; rw [h1, h2]

/-- The first behaviour: the running total after it is 0 less its mean. -/
theorem beh0 (W : Valuation τ sig (Elt F)) :
    (after opsC33 (after opsC32 W) (Proc.devRef .tc main_v368) : S_.Idx → F .f32)
      = subf (constant (F := F) S_ .f32 0x00000000#32) (lossB (xr W 0) (yr W 0)) := by
  unfold opsC32 opsC33; after_results_simp; rfl

/-- The second behaviour: its mean is taken off the running total. -/
theorem beh1 (W : Valuation τ sig (Elt F)) :
    (after opsC35 (after opsC34 W) (Proc.devRef .tc main_v409) : S_.Idx → F .f32)
      = subf (W (Proc.devRef .tc main_v368) : S_.Idx → F .f32) (lossB (xr W 1) (yr W 1)) := by
  unfold opsC34 opsC35; after_results_simp; rfl

/-- The third behaviour. -/
theorem beh2 (W : Valuation τ sig (Elt F)) :
    (after opsC37 (after opsC36 W) (Proc.devRef .tc main_v450) : S_.Idx → F .f32)
      = subf (W (Proc.devRef .tc main_v409) : S_.Idx → F .f32) (lossB (xr W 2) (yr W 2)) := by
  unfold opsC36 opsC37; after_results_simp; rfl

/-- The closing operations: the regulariser of the two embedding tables is added to the total. -/
theorem closing (W : Valuation τ sig (Elt F)) :
    (after opsC38 W (Proc.devRef .tc main_v456) : S_.Idx → F .f32)
      = addf (W (Proc.devRef .tc main_v450) : S_.Idx → F .f32)
          (reg (W (Proc.devRef .tc main_arg0)) (W (Proc.devRef .tc main_arg1))) := by
  unfold opsC38; after_results_simp; rfl

/-- **The tail's host operations leave `shell` of the gathered blocks in the result buffer.** -/
theorem reference_tail (V : Valuation τ sig (Elt F)) :
    (after (opsC32 ++ opsC33 ++ opsC34 ++ opsC35 ++ opsC36 ++ opsC37 ++ opsC38) V (Proc.devRef .tc main_v456) : S_.Idx → F .f32)
      = shell (xr V 0) (yr V 0) (xr V 1) (yr V 1) (xr V 2) (yr V 2)
          (V (Proc.devRef .tc main_arg0)) (V (Proc.devRef .tc main_arg1)) := by
  have a2 : ∀ r : Ref sig .tc, r ∉ opsC32_W → r ∉ opsC33_W →
      after opsC33 (after opsC32 V) (Proc.devRef .tc r) = V (Proc.devRef .tc r) :=
    fun r h1 h2 => (opsC33_keep _ r h2).trans (opsC32_keep _ r h1)
  have a4 : ∀ r : Ref sig .tc, r ∉ opsC32_W → r ∉ opsC33_W → r ∉ opsC34_W → r ∉ opsC35_W →
      after opsC35 (after opsC34 (after opsC33 (after opsC32 V))) (Proc.devRef .tc r) = V (Proc.devRef .tc r) :=
    fun r h1 h2 h3 h4 => (opsC35_keep _ r h4).trans ((opsC34_keep _ r h3).trans (a2 r h1 h2))
  have a6 : ∀ r : Ref sig .tc, r ∉ opsC32_W → r ∉ opsC33_W → r ∉ opsC34_W → r ∉ opsC35_W → r ∉ opsC36_W → r ∉ opsC37_W →
      after opsC37 (after opsC36 (after opsC35 (after opsC34 (after opsC33 (after opsC32 V))))) (Proc.devRef .tc r)
        = V (Proc.devRef .tc r) :=
    fun r h1 h2 h3 h4 h5 h6 => (opsC37_keep _ r h6).trans ((opsC36_keep _ r h5).trans (a4 r h1 h2 h3 h4))
  simp only [after_append]
  rw [closing, beh2, beh1, beh0,
    xr_congr (a2 main_v294 (by decide) (by decide)) (a2 main_arg5 (by decide) (by decide)) 1,
    yr_congr (a2 main_v327 (by decide) (by decide)) (a2 main_arg5 (by decide) (by decide)) 1,
    xr_congr (a4 main_v294 (by decide) (by decide) (by decide) (by decide))
      (a4 main_arg5 (by decide) (by decide) (by decide) (by decide)) 2,
    yr_congr (a4 main_v327 (by decide) (by decide) (by decide) (by decide))
      (a4 main_arg5 (by decide) (by decide) (by decide) (by decide)) 2,
    a6 main_arg0 (by decide) (by decide) (by decide) (by decide) (by decide) (by decide),
    a6 main_arg1 (by decide) (by decide) (by decide) (by decide) (by decide) (by decide)]
  rfl

end Cert.ReferenceIdeal.Tail

end
-- ==== Proof.RValue.lean ====
/-
  The reference's result, composed: its line of 573 host operations read as three parts.

  The first part (the propagation) ends with the two tables of rows the fusions start from: three behaviour vectors of
  64 entries for every user and for every item. The second part fuses every row of both tables: a user row by the 3 x 3
  mutual attention of its vectors, an item row by the weighted sum of its vectors, the weights computed from the items'
  degrees under the three behaviours and the behaviours' coefficients. The third part reads, for every example of the
  batch, the fused rows its index words name, and computes the loss from them. Since the fusions act row by row, a
  fused row the batch reads is the fusion of the unfused row with the same index: the reference's "fuse every row, then
  read" is "read, then fuse" on the rows read.
-/
import proofs.«412432_j74655121539772_3_alg».proof.Proof.RefRunC0
import proofs.«412432_j74655121539772_3_alg».proof.Proof.RefRunC1
import proofs.«412432_j74655121539772_3_alg».proof.Proof.RefRunC2
import proofs.«412432_j74655121539772_3_alg».proof.Proof.RefRunC3
import proofs.«412432_j74655121539772_3_alg».proof.Proof.RefRunC4
import proofs.«412432_j74655121539772_3_alg».proof.Proof.RefRunC5
import proofs.«412432_j74655121539772_3_alg».proof.Proof.RefRunC6
import proofs.«412432_j74655121539772_3_alg».proof.Proof.RefRunC7
import proofs.«412432_j74655121539772_3_alg».proof.Proof.RefRunC8
import proofs.«412432_j74655121539772_3_alg».proof.Proof.RefRunC9
import proofs.«412432_j74655121539772_3_alg».proof.Proof.RefRun
import proofs.«412432_j74655121539772_3_alg».proof.Proof.RMidValue
import proofs.«412432_j74655121539772_3_alg».proof.Proof.RTail
import proofs.«412432_j74655121539772_3_alg».proof.Proof.RAttValue
import proofs.«412432_j74655121539772_3_alg».proof.Proof.RItemValue
import proofs.«412432_j74655121539772_3_alg».proof.Proof.SpecIdx
import Idealize.ShloMosaic.Lib.Pipeline.Frame
import Idealize.ShloMosaic.Lib.ValueIdx

noncomputable section

namespace Cert.ReferenceIdeal.Value

open Cert.ReferenceIdeal Cert.ReferenceIdeal.RefRun
open Idealize.ShloMosaic Idealize.ShloMosaic.TcCoe Idealize.SL.Sem Idealize.ShloMosaic.StableHlo Idealize.ShloMosaic.ValueIdx

/-! ## The line in three parts -/

/-- The propagation: everything up to the two tables of rows (users', items') the fusions start from. -/
abbrev P : List (HloOp τ sig (Elt Ideal)) :=
  opsC0 ++ opsC1 ++ opsC2 ++ opsC3 ++ opsC4 ++ opsC5 ++ opsC6 ++ opsC7 ++ opsC8 ++ opsC9 ++ opsC10 ++ opsC11 ++ opsC12 ++ opsC13 ++ opsC14 ++ opsC15 ++ opsC16 ++ opsC17 ++ opsC18 ++ opsC19 ++ opsC20 ++ opsC21 ++ opsC22 ++ opsC23 ++ opsC24

/-- The two fusions: the users' (three stretches), then the items' (the degree counts, their stack, the weights, the sum). -/
abbrev M : List (HloOp τ sig (Elt Ideal)) :=
  (opsC25 ++ opsC26 ++ opsC27) ++ (opsC28 ++ opsC29 ++ opsC30 ++ opsC31)

/-- The batch's reads of the fused tables and the loss. -/
abbrev T : List (HloOp τ sig (Elt Ideal)) :=
  opsC32 ++ opsC33 ++ opsC34 ++ opsC35 ++ opsC36 ++ opsC37 ++ opsC38

/-- An array none of the propagation's stretches writes is left as it was. -/
theorem P_keep (V : Valuation τ sig (Elt Ideal)) (r : Ref sig .tc)
    (h0 : r ∉ opsC0_W) (h1 : r ∉ opsC1_W) (h2 : r ∉ opsC2_W) (h3 : r ∉ opsC3_W) (h4 : r ∉ opsC4_W) (h5 : r ∉ opsC5_W) (h6 : r ∉ opsC6_W) (h7 : r ∉ opsC7_W) (h8 : r ∉ opsC8_W) (h9 : r ∉ opsC9_W) (h10 : r ∉ opsC10_W) (h11 : r ∉ opsC11_W) (h12 : r ∉ opsC12_W) (h13 : r ∉ opsC13_W) (h14 : r ∉ opsC14_W) (h15 : r ∉ opsC15_W) (h16 : r ∉ opsC16_W) (h17 : r ∉ opsC17_W) (h18 : r ∉ opsC18_W) (h19 : r ∉ opsC19_W) (h20 : r ∉ opsC20_W) (h21 : r ∉ opsC21_W) (h22 : r ∉ opsC22_W) (h23 : r ∉ opsC23_W) (h24 : r ∉ opsC24_W) :
    after P V (Proc.devRef .tc r) = V (Proc.devRef .tc r) := by
  simp only [P, StableHlo.after_append]
  rw [opsC24_keep _ _ h24, opsC23_keep _ _ h23, opsC22_keep _ _ h22, opsC21_keep _ _ h21, opsC20_keep _ _ h20, opsC19_keep _ _ h19, opsC18_keep _ _ h18, opsC17_keep _ _ h17, opsC16_keep _ _ h16, opsC15_keep _ _ h15, opsC14_keep _ _ h14, opsC13_keep _ _ h13, opsC12_keep _ _ h12, opsC11_keep _ _ h11, opsC10_keep _ _ h10, opsC9_keep _ _ h9, opsC8_keep _ _ h8, opsC7_keep _ _ h7, opsC6_keep _ _ h6, opsC5_keep _ _ h5, opsC4_keep _ _ h4, opsC3_keep _ _ h3, opsC2_keep _ _ h2, opsC1_keep _ _ h1, opsC0_keep _ _ h0]

/-- The two fusions after the propagation, stretch group by stretch group. -/
theorem after_PM (L : Valuation τ sig (Elt Ideal)) :
    after (P ++ M) L
      = after (opsC28 ++ opsC29 ++ opsC30 ++ opsC31) (after (opsC25 ++ opsC26 ++ opsC27) (after P L)) := by
  rw [StableHlo.after_append P M, StableHlo.after_append (opsC25 ++ opsC26 ++ opsC27) (opsC28 ++ opsC29 ++ opsC30 ++ opsC31)]

/-- An array neither fusion writes is left as it was. -/
theorem M_keep (V : Valuation τ sig (Elt Ideal)) (r : Ref sig .tc)
    (h25 : r ∉ opsC25_W) (h26 : r ∉ opsC26_W) (h27 : r ∉ opsC27_W) (h28 : r ∉ opsC28_W) (h29 : r ∉ opsC29_W) (h30 : r ∉ opsC30_W) (h31 : r ∉ opsC31_W) :
    after M V (Proc.devRef .tc r) = V (Proc.devRef .tc r) := by
  simp only [M, StableHlo.after_append]
  rw [opsC31_keep _ _ h31, opsC30_keep _ _ h30, opsC29_keep _ _ h29, opsC28_keep _ _ h28, opsC27_keep _ _ h27, opsC26_keep _ _ h26, opsC25_keep _ _ h25]

/-- No stretch of the propagation or of the fusions writes an argument. -/
theorem PM_keep_arg0 (L : Valuation τ sig (Elt Ideal)) :
    after (P ++ M) L (Proc.devRef .tc main_arg0) = L (Proc.devRef .tc main_arg0) := by
  rw [StableHlo.after_append P M, M_keep _ _ (by decide) (by decide) (by decide) (by decide) (by decide) (by decide) (by decide), P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
theorem PM_keep_arg1 (L : Valuation τ sig (Elt Ideal)) :
    after (P ++ M) L (Proc.devRef .tc main_arg1) = L (Proc.devRef .tc main_arg1) := by
  rw [StableHlo.after_append P M, M_keep _ _ (by decide) (by decide) (by decide) (by decide) (by decide) (by decide) (by decide), P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
theorem PM_keep_arg5 (L : Valuation τ sig (Elt Ideal)) :
    after (P ++ M) L (Proc.devRef .tc main_arg5) = L (Proc.devRef .tc main_arg5) := by
  rw [StableHlo.after_append P M, M_keep _ _ (by decide) (by decide) (by decide) (by decide) (by decide) (by decide) (by decide), P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]
theorem P_keep_arg2 (L : Valuation τ sig (Elt Ideal)) :
    after P L (Proc.devRef .tc main_arg2) = L (Proc.devRef .tc main_arg2) :=
  P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-! ## The two fused tables after the propagation and the fusions -/

section Tables
open Cert.ReferenceIdeal.MidValue Cert.ReferenceIdeal.AttValue Cert.ReferenceIdeal.ItemValue

/-- The fused user table is the user fusion of the propagation's table of user rows: the item stretches do not write
    it, and the user stretches compute it from that table. -/
theorem user_table (L : Valuation τ sig (Elt Ideal)) :
    (after (P ++ M) L (Proc.devRef .tc main_v294) : FVec Ideal S60001x3x64 .f32)
      = refAtt (after P L (Proc.devRef .tc main_v260)) := by
  rw [after_PM, item_keep_v294, att_table]

/-- The fused item table is the item fusion of the propagation's table of item rows and of the item weights, which
    are the weights of the stacked item degrees and of the behaviours' coefficients. -/
theorem item_table_PM (L : Valuation τ sig (Elt Ideal)) :
    (after (P ++ M) L (Proc.devRef .tc main_v327) : FVec Ideal S40001x64 .f32)
      = refItem (after P L (Proc.devRef .tc main_v264))
          (wR (after (P ++ opsC25 ++ opsC26 ++ opsC27 ++ opsC28 ++ opsC29) L (Proc.devRef .tc main_v314))
            (L (Proc.devRef .tc main_arg2))) := by
  have e : after (P ++ opsC25 ++ opsC26 ++ opsC27 ++ opsC28 ++ opsC29) L
      = after (opsC28 ++ opsC29) (after (opsC25 ++ opsC26 ++ opsC27) (after P L)) := by
    simp only [StableHlo.after_append]
  rw [after_PM, item_table, weights_table, att_keep_v264, att_keep_arg2, P_keep_arg2, e]

/-! ## The rows the batch reads -/

/-- The fused user row of example `n` and behaviour `b`, entry `d`: the row expression of the shared mathematics at the
    three vectors of the propagation's user row the batch's index word names. -/
theorem rx (L : Valuation τ sig (Elt Ideal)) (n : Fin 2048) (b : Fin 3) (d : Fin 64) :
    (after (P ++ M) L (Proc.devRef .tc main_v294) : FVec Ideal S60001x3x64 .f32)
        (ix3 ⟨Cert.Spec.gRow 60001 ((after (P ++ M) L (Proc.devRef .tc main_arg5) : IVec S2048x3x3 32) (ix3 n b 0)),
          Cert.Spec.gRow_lt (by decide) _⟩ b d)
      = Cert.Spec.attRow (fun i' d' => (after P L (Proc.devRef .tc main_v260) : FVec Ideal S60001x3x64 .f32)
          (ix3 ⟨Cert.Spec.gRow 60001 ((L (Proc.devRef .tc main_arg5) : IVec S2048x3x3 32) (ix3 n b 0)),
            Cert.Spec.gRow_lt (by decide) _⟩ i' d')) b d := by
  rw [PM_keep_arg5, user_table, refAtt_apply]

/-- The fused item row of example `n`, behaviour `b` and item `j` (positive or negative), entry `d`: the weighted sum of
    the three vectors of the propagation's item row the index word names, by that item's weights. -/
theorem ry (L : Valuation τ sig (Elt Ideal)) (n : Fin 2048) (b : Fin 3) (j : Fin 2) (d : Fin 64) :
    (after (P ++ M) L (Proc.devRef .tc main_v327) : FVec Ideal S40001x64 .f32)
        (ix2 ⟨Cert.Spec.gRow 40001 ((after (P ++ M) L (Proc.devRef .tc main_arg5) : IVec S2048x3x3 32)
            (ix3 n b ⟨1 + j.val, by omega⟩)), Cert.Spec.gRow_lt (by decide) _⟩ d)
      = Cert.Spec.iwRow
          (fun i d' => (after P L (Proc.devRef .tc main_v264) : FVec Ideal S40001x3x64 .f32)
            (ix3 ⟨Cert.Spec.gRow 40001 ((L (Proc.devRef .tc main_arg5) : IVec S2048x3x3 32) (ix3 n b ⟨1 + j.val, by omega⟩)),
              Cert.Spec.gRow_lt (by decide) _⟩ i d'))
          (fun i => wR (after (P ++ opsC25 ++ opsC26 ++ opsC27 ++ opsC28 ++ opsC29) L (Proc.devRef .tc main_v314))
            (L (Proc.devRef .tc main_arg2))
            (ix2 ⟨Cert.Spec.gRow 40001 ((L (Proc.devRef .tc main_arg5) : IVec S2048x3x3 32) (ix3 n b ⟨1 + j.val, by omega⟩)),
              Cert.Spec.gRow_lt (by decide) _⟩ i)) d := by
  rw [PM_keep_arg5, item_table_PM, refItem_apply]

end Tables

/-! ## The whole line -/

section Whole
open Cert.ReferenceIdeal.MidValue

/-- The user block the loss reads for behaviour `b`, at example `n` and entry `d`: the row expression of the shared
    mathematics at the three vectors of the propagation's user row the batch names. -/
theorem xr_value (L : Valuation τ sig (Elt Ideal)) (b : Fin 3) (n : Fin 2048) (d : Fin 64) :
    Tail.xr (after (P ++ M) L) b (ix2 n d)
      = Cert.Spec.attRow (fun i' d' => (after P L (Proc.devRef .tc main_v260) : FVec Ideal S60001x3x64 .f32)
          (ix3 ⟨Cert.Spec.gRow 60001 ((L (Proc.devRef .tc main_arg5) : IVec S2048x3x3 32) (ix3 n b 0)),
            Cert.Spec.gRow_lt (by decide) _⟩ i' d')) b d :=
  (Tail.xr_apply (after (P ++ M) L) b n d).trans (rx L n b d)

/-- The item block the loss reads for behaviour `b`, at example `n`, item `j` and entry `d`: the weighted sum of the
    three vectors of the propagation's item row the batch names, by that item's weights. -/
theorem yr_value (L : Valuation τ sig (Elt Ideal)) (b : Fin 3) (n : Fin 2048) (j : Fin 2) (d : Fin 64) :
    Tail.yr (after (P ++ M) L) b (ix3 n j d)
      = Cert.Spec.iwRow
          (fun i d' => (after P L (Proc.devRef .tc main_v264) : FVec Ideal S40001x3x64 .f32)
            (ix3 ⟨Cert.Spec.gRow 40001 ((L (Proc.devRef .tc main_arg5) : IVec S2048x3x3 32) (ix3 n b ⟨1 + j.val, by omega⟩)),
              Cert.Spec.gRow_lt (by decide) _⟩ i d'))
          (fun i => wR (after (P ++ opsC25 ++ opsC26 ++ opsC27 ++ opsC28 ++ opsC29) L (Proc.devRef .tc main_v314))
            (L (Proc.devRef .tc main_arg2))
            (ix2 ⟨Cert.Spec.gRow 40001 ((L (Proc.devRef .tc main_arg5) : IVec S2048x3x3 32) (ix3 n b ⟨1 + j.val, by omega⟩)),
              Cert.Spec.gRow_lt (by decide) _⟩ i)) d :=
  (Tail.yr_apply (after (P ++ M) L) b n j d).trans (ry L n b j d)

/-- THE REFERENCE'S RESULT: the loss of the three user blocks and the three item blocks read after the propagation and
    the fusions, and of the two embedding tables the program was given. -/
theorem reference_value (L : Valuation τ sig (Elt Ideal)) :
    (after (P ++ M ++ T) L (Proc.devRef .tc main_v456) : FVec Ideal S_ .f32)
      = Tail.shell (Tail.xr (after (P ++ M) L) 0) (Tail.yr (after (P ++ M) L) 0)
          (Tail.xr (after (P ++ M) L) 1) (Tail.yr (after (P ++ M) L) 1)
          (Tail.xr (after (P ++ M) L) 2) (Tail.yr (after (P ++ M) L) 2)
          (L (Proc.devRef .tc main_arg0)) (L (Proc.devRef .tc main_arg1)) := by
  rw [StableHlo.after_append (P ++ M) T, Tail.reference_tail, PM_keep_arg0, PM_keep_arg1]

end Whole

/-! ## The stacked item degrees -/

section Degrees
open Cert.ReferenceIdeal.MidValue

/-- The propagation does not write the items' edge array. -/
theorem P_keep_arg4 (L : Valuation τ sig (Elt Ideal)) :
    after P L (Proc.devRef .tc main_arg4) = L (Proc.devRef .tc main_arg4) :=
  P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

/-- The stacked item degrees the weights are computed from: column `b` at item `k` is the count of behaviour `b` at
    item `k`, a function of the edge array the program was given. -/
theorem degree_value (L : Valuation τ sig (Elt Ideal)) (k : Fin 40001) (b : Fin 3) :
    (after (P ++ opsC25 ++ opsC26 ++ opsC27 ++ opsC28 ++ opsC29) L (Proc.devRef .tc main_v314)
        : FVec Ideal S40001x3 .f32) (ix2 k b)
      = degR (L (Proc.devRef .tc main_arg4)) b (ix1 k) := by
  have e : after (P ++ opsC25 ++ opsC26 ++ opsC27 ++ opsC28 ++ opsC29) L
      = after (opsC28 ++ opsC29) (after (opsC25 ++ opsC26 ++ opsC27) (after P L)) := by
    simp only [StableHlo.after_append]
  rw [e, degree_stack, att_keep_arg4, P_keep_arg4]

end Degrees

/-! ## The line as written -/

section Line
open Cert.ReferenceIdeal.MidValue

/-- The line of all 573 operations is the propagation, then the fusions, then the batch's reads and the loss. -/
theorem ops_split : (ops : List (HloOp τ sig (Elt Ideal))) = P ++ M ++ T := by
  simp only [ops, P, M, T, List.append_assoc]

/-- The reference's result, over the line as written. -/
theorem reference_value_ops (L : Valuation τ sig (Elt Ideal)) :
    (after ops L (Proc.devRef .tc main_v456) : FVec Ideal S_ .f32)
      = Tail.shell (Tail.xr (after (P ++ M) L) 0) (Tail.yr (after (P ++ M) L) 0)
          (Tail.xr (after (P ++ M) L) 1) (Tail.yr (after (P ++ M) L) 1)
          (Tail.xr (after (P ++ M) L) 2) (Tail.yr (after (P ++ M) L) 2)
          (L (Proc.devRef .tc main_arg0)) (L (Proc.devRef .tc main_arg1)) := by
  rw [ops_split]
  exact reference_value L

end Line

end Cert.ReferenceIdeal.Value

end
-- ==== Proof.TailEq.lean ====
/-
  The two programs end with the same loss. Each program's tail is the composition 'shell' of its own operations:
  per behaviour the scores of the user row against the positive and the negative item row, the mean of
  log(1e-10 + 1 / (1 + exp(-(s_0 - s_1)))) over the batch, the three means subtracted from 0, and the regulariser
  0.001 · (‖E_user‖ + ‖E_item‖) / 40001 added. The two compositions are built from the same operations at the
  same shapes with the same constants, so as functions of the blocks and the tables they are one function: the
  equality holds by unfolding both, for any float instance.
-/
import proofs.«412432_j74655121539772_3_alg».proof.Proof.KTail
import proofs.«412432_j74655121539772_3_alg».proof.Proof.RTail

noncomputable section

namespace Cert.Proof.TailEq

open Idealize.ShloMosaic

variable {F : FTy → Type} [FloatOps F]

/-- The kernel's and the reference's loss tails are the same function of the three user blocks, the three item
    blocks and the two embedding tables. -/
theorem shell_eq : (Cert.KernelIdeal.Tail.shell (F := F)) = Cert.ReferenceIdeal.Tail.shell := by
  funext x0 y0 x1 y1 x2 y2 a0 a1
  rfl

end Cert.Proof.TailEq
-- ==== Proof.ValueCore.lean ====
/-
  The two results are one scalar, GIVEN that the tables the rows are read from agree.

  Kernel side: the loss shell of blocks whose entries are fused rows of the propagation's tables at the rows the batch
  names (the kernel gathers, then fuses). Reference side: the same shell of blocks whose entries are rows of the fused
  tables at the same indices (the reference fuses, then gathers). Fusing is row by row, so the blocks agree entry by
  entry as soon as the two propagations' tables, the item weights and the batch's index words agree; the shells are the
  same chain of operations.
-/
import proofs.«412432_j74655121539772_3_alg».proof.Proof.KFinal
import proofs.«412432_j74655121539772_3_alg».proof.Proof.RValue
import proofs.«412432_j74655121539772_3_alg».proof.Proof.RTail
import proofs.«412432_j74655121539772_3_alg».proof.Proof.TailEq

noncomputable section

namespace Cert.Proof.ValueCore

open Idealize.ShloMosaic Idealize.ShloMosaic.ValueIdx Idealize.ShloMosaic.TcCoe Idealize.ShloMosaic.StableHlo
open Idealize.SL Idealize.SL.Sem
open Cert.ReferenceIdeal.RefRun Cert.ReferenceIdeal.Value

/-- The reference's result after its three parts: the shell of the blocks read after the fusions. -/
theorem reference_value (L : Valuation Cert.ReferenceIdeal.τ Cert.ReferenceIdeal.sig (Elt Ideal)) :
    (after ((P ++ Cert.ReferenceIdeal.Value.M) ++ Cert.ReferenceIdeal.Value.T) L (Proc.devRef .tc Cert.ReferenceIdeal.main_v456) : Cert.ReferenceIdeal.S_.Idx → EReal)
      = Cert.ReferenceIdeal.Tail.shell (F := Ideal)
          (Cert.ReferenceIdeal.Tail.xr (after (P ++ Cert.ReferenceIdeal.Value.M) L) 0) (Cert.ReferenceIdeal.Tail.yr (after (P ++ Cert.ReferenceIdeal.Value.M) L) 0)
          (Cert.ReferenceIdeal.Tail.xr (after (P ++ Cert.ReferenceIdeal.Value.M) L) 1) (Cert.ReferenceIdeal.Tail.yr (after (P ++ Cert.ReferenceIdeal.Value.M) L) 1)
          (Cert.ReferenceIdeal.Tail.xr (after (P ++ Cert.ReferenceIdeal.Value.M) L) 2) (Cert.ReferenceIdeal.Tail.yr (after (P ++ Cert.ReferenceIdeal.Value.M) L) 2)
          (L (Proc.devRef .tc Cert.ReferenceIdeal.main_arg0)) (L (Proc.devRef .tc Cert.ReferenceIdeal.main_arg1)) := by
  rw [StableHlo.after_append (P ++ Cert.ReferenceIdeal.Value.M) Cert.ReferenceIdeal.Value.T]
  have h := Cert.ReferenceIdeal.Tail.reference_tail (F := Ideal) (after (P ++ Cert.ReferenceIdeal.Value.M) L)
  rw [PM_keep_arg0, PM_keep_arg1] at h
  exact h

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (L : Valuation Cert.ReferenceIdeal.τ Cert.ReferenceIdeal.sig (Elt Ideal))

/-- Given equal tables, weights, index words and embedding arguments, the two programs' results are equal. -/
theorem value_core
    (h0 : (m ((c : Thread Cert.KernelIdeal.nD Cert.KernelIdeal.τ).loc Cert.KernelIdeal.main_arg0) : Cert.KernelIdeal.S60001x64.Idx → EReal)
      = L (Proc.devRef .tc Cert.ReferenceIdeal.main_arg0))
    (h1 : (m ((c : Thread Cert.KernelIdeal.nD Cert.KernelIdeal.τ).loc Cert.KernelIdeal.main_arg1) : Cert.KernelIdeal.S40001x64.Idx → EReal)
      = L (Proc.devRef .tc Cert.ReferenceIdeal.main_arg1))
    (h5 : (m ((c : Thread Cert.KernelIdeal.nD Cert.KernelIdeal.τ).loc Cert.KernelIdeal.main_arg5) : Cert.KernelIdeal.S2048x3x3.Idx → BitVec 32)
      = L (Proc.devRef .tc Cert.ReferenceIdeal.main_arg5))
    (hA : (Cert.KernelIdeal.Run.W1 m ρ c (Proc.devRef .tc Cert.KernelIdeal.main_v263) : Cert.KernelIdeal.S60001x3x64.Idx → EReal)
      = after P L (Proc.devRef .tc Cert.ReferenceIdeal.main_v260))
    (hB : (Cert.KernelIdeal.Run.W1 m ρ c (Proc.devRef .tc Cert.KernelIdeal.main_v267) : Cert.KernelIdeal.S40001x3x64.Idx → EReal)
      = after P L (Proc.devRef .tc Cert.ReferenceIdeal.main_v264))
    (hW : Cert.KernelIdeal.MidRows.wK (F := Ideal) (Cert.KernelIdeal.Run.W1 m ρ c (Proc.devRef .tc Cert.KernelIdeal.main_v271))
        (m ((c : Thread Cert.KernelIdeal.nD Cert.KernelIdeal.τ).loc Cert.KernelIdeal.main_arg2))
      = Cert.ReferenceIdeal.MidValue.wR (after (P ++ opsC25 ++ opsC26 ++ opsC27 ++ opsC28 ++ opsC29) L (Proc.devRef .tc Cert.ReferenceIdeal.main_v314))
        (L (Proc.devRef .tc Cert.ReferenceIdeal.main_arg2))) :
    (after ((P ++ Cert.ReferenceIdeal.Value.M) ++ Cert.ReferenceIdeal.Value.T) L (Proc.devRef .tc Cert.ReferenceIdeal.main_v456) : Cert.ReferenceIdeal.S_.Idx → EReal)
      = Cert.KernelIdeal.Run.W8 m ρ c (Proc.devRef .tc Cert.KernelIdeal.main_v395) := by
  have hx : ∀ b : Fin 3, Cert.ReferenceIdeal.Tail.xr (F := Ideal) (after (P ++ Cert.ReferenceIdeal.Value.M) L) b
      = Cert.KernelIdeal.Tail.xk (F := Ideal) (Cert.KernelIdeal.Run.W4 m ρ c) b := by
    intro b
    funext idx
    obtain ⟨n, d, rfl⟩ : ∃ (n : Fin 2048) (d : Fin 64), idx = ix2 n d := ⟨idx 0, idx 1, eq_ix2 idx⟩
    rw [Cert.ReferenceIdeal.Tail.xr_apply]
    refine (rx L n b d).trans ?_
    rw [Cert.KernelIdeal.Final.xk_sem m ρ c b n d, hA, h5]
  have hy : ∀ b : Fin 3, Cert.ReferenceIdeal.Tail.yr (F := Ideal) (after (P ++ Cert.ReferenceIdeal.Value.M) L) b
      = Cert.KernelIdeal.Tail.yk (F := Ideal) (Cert.KernelIdeal.Run.W4 m ρ c) b := by
    intro b
    funext idx
    obtain ⟨n, j, d, rfl⟩ : ∃ (n : Fin 2048) (j : Fin 2) (d : Fin 64), idx = ix3 n j d := ⟨idx 0, idx 1, idx 2, eq_ix3 idx⟩
    rw [Cert.ReferenceIdeal.Tail.yr_apply]
    refine (ry L n b j d).trans ?_
    rw [Cert.KernelIdeal.Final.yk_sem m ρ c b n j d, hB, hW, h5]
  rw [reference_value L, Cert.KernelIdeal.Final.kernel_value m ρ c, Cert.Proof.TailEq.shell_eq (F := Ideal),
    hx 0, hx 1, hx 2, hy 0, hy 1, hy 2, h0, h1]

end Cert.Proof.ValueCore

end
-- ==== Proof.ItemDegree.lean ====
/-
  The item degrees, and the range of the user ids.

  For one behaviour the first program takes the items' degrees as rows 60001 … 100001 of a degree vector over all
  100002 nodes: the scatter-add of 1200000 ones at the node ids  eu ++ (ei + 60001)  (user ids, then item ids moved
  past the 60001 user nodes). The second program scatter-adds 600000 ones at  ei  into 40001 items. On the extended
  reals a scatter-add is, at each row, the operand's entry plus the SUM of the updates whose index reads that row
  (read signed, not clamped; an index outside the rows lands nowhere).

  Row 60001 + k of the first therefore counts the positions of the joined id list that read 60001 + k. A user id
  reads at most 60000 (the precondition), so no position of the first half counts. In the second half, position
  600000 + j holds  ei j + 60001  in 32-bit arithmetic; adding a constant is injective on words and 60001 + k
  (k ≤ 40000) does not wrap, so that word reads 60001 + k exactly when  ei j  reads k — for every word  ei j,
  in range or not. So  j ↦ 600000 + j  is a bijection from the positions the second program counts at row k onto
  the positions the first counts at row 60001 + k, both add the same constant per position to the same constant,
  and the two vectors are equal. The count is proved once over arbitrary sizes (`degree_core`) and then read at
  the programs' sizes and printed operations (`item_degree_eq`).

  `users_in_range` opens the precondition: its last two conjuncts are  all (0 ≤ edge_users)  and
  all (edge_users ≤ 60000), signed.
-/
import proofs.«412432_j74655121539772_3_alg».proof.KernelIdeal
import proofs.«412432_j74655121539772_3_alg».proof.ReferenceIdeal
import proofs.«412432_j74655121539772_3_alg».proof.Pre_finite_inputs
import Idealize.ShloMosaic.Lib.ValueIdx
import Idealize.ShloMosaic.Lib.ReduceAll
import Idealize.ShloMosaic.Lib.Pipeline.Value

noncomputable section

namespace Cert.Proof.ItemDegree

open Idealize.ShloMosaic

/-! ## Where an update of a rank-1 scatter lands -/

section Scatter1
variable {N M w : Nat}

/-- The one coordinate of an index of a vector, as a number below the vector's length. -/
abbrev c0 {n : Nat} (j : (⟨1, ![n]⟩ : Shape).Idx) : Fin n := ⟨(j 0).val, (j 0).isLt⟩

/-- An index of a vector is its one coordinate. -/
theorem eq_ix1' {n : Nat} (j : (⟨1, ![n]⟩ : Shape).Idx) : j = ValueIdx.ix1 (c0 j) := by
  funext d
  match d with
  | ⟨0, _⟩ => rfl

/-- The rank-1 scatter's dimension numbers. -/
abbrev dims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The window start of update `j`: the index word at row `j` of the index column, read signed. -/
theorem start1 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (dims1 N M wf).start j idx 0 = (idx (ValueIdx.ix2 (c0 j) 0)).toInt := by
  unfold ScatterDims.start
  rw [dif_pos (show (0 : Fin 1) ∈ (dims1 N M wf).scatterDimsToOperandDims from List.mem_singleton.mpr rfl)]
  have hsi : (dims1 N M wf).siIdx j ⟨List.idxOf (0 : Fin 1) (dims1 N M wf).scatterDimsToOperandDims,
      List.idxOf_lt_length_iff.2 (List.mem_singleton.mpr rfl)⟩ = ValueIdx.ix2 (c0 j) 0 := by
    funext b; refine Fin.ext ?_
    match b with
    | ⟨0, _⟩ => rfl
    | ⟨1, _⟩ => rfl
  rw [hsi]

/-- The operand's one axis is an inserted window axis: the window coordinate is 0. -/
theorem window1 (wf : ScatterDims.WF ⟨1, ![N]⟩ ⟨2, ![M, 1]⟩ ⟨1, ![M]⟩ [] [0] [0] 1)
    (j : (⟨1, ![M]⟩ : Shape).Idx) :
    (dims1 N M wf).window j 0 = 0 := by
  unfold ScatterDims.window
  rw [dif_neg]
  simp [ScatterDims.sKept, Shape.kept]

/-- Update `j` lands on operand row `i` exactly when its index word reads `i` (signed); a word that reads
    outside the rows lands nowhere. -/
theorem resultIdx1 (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (dims1 N M wf).resultIdx? j idx = some i ↔ (idx (ValueIdx.ix2 (c0 j) 0)).toInt = ((c0 i).val : Int) := by
  show _ ↔ (idx (ValueIdx.ix2 (c0 j) 0)).toInt = (((i 0).val : Nat) : Int)
  unfold ScatterDims.resultIdx?
  have hs := start1 wf j idx
  have hw := window1 wf j
  constructor
  · intro h
    split at h
    · next hb =>
      have := congrFun (Option.some.inj h) 0
      have h2 := congrArg Fin.val this
      simp only [hs, hw] at h2 hb
      have hb0 : 0 ≤ (dims1 N M wf).start j idx 0 + (((dims1 N M wf).window j 0 : Nat) : Int) ∧
          (dims1 N M wf).start j idx 0 + (((dims1 N M wf).window j 0 : Nat) : Int) < (N : Int) := hb 0
      rw [hs, hw] at hb0
      omega
    · exact absurd h (by simp)
  · intro h
    have hall : ∀ a, 0 ≤ (dims1 N M wf).start j idx a + (dims1 N M wf).window j a ∧
        (dims1 N M wf).start j idx a + (dims1 N M wf).window j a < (⟨1, ![N]⟩ : Shape).size a := by
      intro a
      obtain rfl : a = 0 := Subsingleton.elim _ _
      rw [hs, hw, h]
      have hi : (i 0).val < N := (i 0).isLt
      constructor
      · omega
      · show ((i 0).val : Int) + ((0 : Nat) : Int) < ((N : Nat) : Int)
        omega
    rw [dif_pos hall]
    congr 1
    funext a
    obtain rfl : a = 0 := Subsingleton.elim _ _
    refine Fin.ext ?_
    show ((dims1 N M wf).start j idx 0 + (dims1 N M wf).window j 0).toNat = (i 0).val
    rw [hs, hw, h]
    omega

end Scatter1

/-- The same, when the operand index is given by its one coordinate. -/
theorem resultIdx1' {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) (a : Fin N) :
    (dims1 N M wf).resultIdx? j idx = some (ValueIdx.ix1 a) ↔ (idx (ValueIdx.ix2 (c0 j) 0)).toInt = (a.val : Int) :=
  resultIdx1 wf j idx (ValueIdx.ix1 a)

/-- Adding `U` to a 32-bit word is injective, and a small sum is read back without wrapping: when `U + I` fits
    in 31 bits and `k < I`, the sum reads `U + k` (signed) exactly when the word reads `k` — for EVERY word. -/
theorem shift_iff (x : BitVec 32) {U I : Nat} (hU : U + I ≤ 2 ^ 31) (k : Nat) (hk : k < I) :
    (x + BitVec.ofNat 32 U).toInt = ((U + k : Nat) : Int) ↔ x.toInt = (k : Int) := by
  rw [BitVec.toInt_eq_toNat_cond, BitVec.toInt_eq_toNat_cond, BitVec.toNat_add, BitVec.toNat_ofNat]
  have hx := x.isLt
  simp only [Nat.reducePow] at hx hU ⊢
  have hUm : U % 4294967296 = U := Nat.mod_eq_of_lt (by omega)
  rw [hUm]
  split_ifs <;> omega

section Reads
variable {α : Type}

/-- A vector laid out as a column reads, at row `p`, the vector at `p`. -/
theorem col_read {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ValueIdx.ix2 p 0) = v (ValueIdx.ix1 p) := by
  refine broadcastInDim_apply ![0] h v _ (ValueIdx.ix1 p) ?_
  intro a
  obtain rfl : a = 0 := Subsingleton.elim _ _
  have hp := p.isLt
  split_ifs with h1
  · change n = 1 at h1
    show p.val = 0
    omega
  · rfl

/-- Two vectors joined end to end read the first below its length. -/
theorem cat_left {n₁ n₂ n : Nat} (h : Shape.Concatenates [(⟨1, ![n₁]⟩ : Shape), ⟨1, ![n₂]⟩] ⟨1, ![n]⟩ 0)
    (x₁ : (⟨1, ![n₁]⟩ : Shape).Idx → α) (x₂ : (⟨1, ![n₂]⟩ : Shape).Idx → α) (p : Fin n) (hp : p.val < n₁) :
    concatenate ⟨1, ![n]⟩ 0 [⟨⟨1, ![n₁]⟩, x₁⟩, ⟨⟨1, ![n₂]⟩, x₂⟩] h (ValueIdx.ix1 p) = x₁ (ValueIdx.ix1 ⟨p.val, hp⟩) := by
  refine concatenate_pair_apply_left 0 x₁ x₂ h _ rfl _ ?_
  intro b
  obtain rfl : b = 0 := Subsingleton.elim _ _
  rfl

/-- … and the second from there on, the first's length less. -/
theorem cat_right {n₁ n₂ n : Nat} (h : Shape.Concatenates [(⟨1, ![n₁]⟩ : Shape), ⟨1, ![n₂]⟩] ⟨1, ![n]⟩ 0)
    (x₁ : (⟨1, ![n₁]⟩ : Shape).Idx → α) (x₂ : (⟨1, ![n₂]⟩ : Shape).Idx → α) (p : Fin n) (hp : n₁ ≤ p.val)
    (hp2 : p.val - n₁ < n₂) :
    concatenate ⟨1, ![n]⟩ 0 [⟨⟨1, ![n₁]⟩, x₁⟩, ⟨⟨1, ![n₂]⟩, x₂⟩] h (ValueIdx.ix1 p) = x₂ (ValueIdx.ix1 ⟨p.val - n₁, hp2⟩) := by
  refine concatenate_pair_apply_right 0 x₁ x₂ h _ rfl rfl _ ?_ ?_
  · intro b hb
    exact absurd (Subsingleton.elim _ _) hb
  · show (p.val - n₁) + n₁ = p.val
    omega

end Reads

/-- THE COUNT, over any sizes. `n` edges, `U` user nodes before `I` item nodes among `N` nodes (`U + I` within
    31 bits), user ids `eu` all reading below `U`, item ids `ei` ANY 32-bit words: rows `U … U + I - 1` of the
    scatter-add of `2 n` copies of a constant at the node ids `eu ++ (ei + U)` are the scatter-add of `n` copies
    of it at `ei` over `I` rows. Entry `k` on the left adds one copy for each position of the joined list that
    reads `U + k`: none in the first half (a user id reads below `U`), and position `n + j` of the second half
    exactly when `ei j` reads `k` (`shift_iff`; an id that reads outside the rows lands nowhere on either side).
    So `j ↦ n + j` is a bijection between the positions the right side adds over and those of the left side. -/
theorem degree_core {n M N I U : Nat} (hM : M = n + n) (hN : U + I ≤ N) (hU : U + I ≤ 2 ^ 31)
    (wfK : ScatterDims.WF ⟨1, ![N]⟩ ⟨2, ![M, 1]⟩ ⟨1, ![M]⟩ [] [0] [0] 1)
    (wfR : ScatterDims.WF ⟨1, ![I]⟩ ⟨2, ![n, 1]⟩ ⟨1, ![n]⟩ [] [0] [0] 1)
    (hbN : (⟨0, ![]⟩ : Shape).BroadcastsInDim ⟨1, ![N]⟩ ![])
    (hbMc : (⟨1, ![M]⟩ : Shape).BroadcastsInDim ⟨2, ![M, 1]⟩ ![0])
    (hcat : Shape.Concatenates [(⟨1, ![n]⟩ : Shape), ⟨1, ![n]⟩] ⟨1, ![M]⟩ 0)
    (hbn : (⟨0, ![]⟩ : Shape).BroadcastsInDim ⟨1, ![n]⟩ ![])
    (hbM : (⟨0, ![]⟩ : Shape).BroadcastsInDim ⟨1, ![M]⟩ ![])
    (hsl : (⟨1, ![N]⟩ : Shape).Slices ![U] ⟨1, ![I]⟩)
    (hbI : (⟨0, ![]⟩ : Shape).BroadcastsInDim ⟨1, ![I]⟩ ![])
    (hbnc : (⟨1, ![n]⟩ : Shape).BroadcastsInDim ⟨2, ![n, 1]⟩ ![0])
    (hbn' : (⟨0, ![]⟩ : Shape).BroadcastsInDim ⟨1, ![n]⟩ ![])
    (z o : BitVec 32)
    (eu ei : IVec ⟨1, ![n]⟩ 32) (heu : ∀ j, (eu j).toInt < (U : Int)) :
    extractStridedSlice ⟨1, ![I]⟩ ![U]
      (Host.scatterAdd (F := Ideal) (dims1 N M wfK)
        (broadcastInDim ⟨1, ![N]⟩ ![] hbN (constant (F := Ideal) ⟨0, ![]⟩ .f32 z))
        (broadcastInDim ⟨2, ![M, 1]⟩ ![0] hbMc
          (concatenate ⟨1, ![M]⟩ 0
            [⟨⟨1, ![n]⟩, eu⟩,
             ⟨⟨1, ![n]⟩, addi ei (broadcastInDim ⟨1, ![n]⟩ ![] hbn (constantI ⟨0, ![]⟩ 32 (BitVec.ofNat 32 U)))⟩] hcat))
        (broadcastInDim ⟨1, ![M]⟩ ![] hbM (constant (F := Ideal) ⟨0, ![]⟩ .f32 o)))
      hsl
    = Host.scatterAdd (F := Ideal) (dims1 I n wfR)
        (broadcastInDim ⟨1, ![I]⟩ ![] hbI (constant (F := Ideal) ⟨0, ![]⟩ .f32 z))
        (broadcastInDim ⟨2, ![n, 1]⟩ ![0] hbnc ei)
        (broadcastInDim ⟨1, ![n]⟩ ![] hbn' (constant (F := Ideal) ⟨0, ![]⟩ .f32 o)) := by
  funext k
  have hk : (c0 k).val < I := (c0 k).isLt
  -- the slice reads row U + k of the all-nodes vector
  rw [extractStridedSlice_apply ![U] _ hsl k (ValueIdx.ix1 ⟨U + (c0 k).val, by omega⟩) (by
    intro a
    obtain rfl : a = 0 := Subsingleton.elim _ _
    rfl)]
  -- both scatter-adds are: the operand's entry plus the sum of the updates that land on it
  unfold Host.scatterAdd
  rw [Ideal.hostScatterAdd_def, Ideal.hostScatterAdd_def]
  unfold Ideal.hostScatterAdd
  -- which positions the right side adds over
  have memR : ∀ j : (⟨1, ![n]⟩ : Shape).Idx,
      (dims1 I n wfR).resultIdx? j (broadcastInDim ⟨2, ![n, 1]⟩ ![0] hbnc ei) = some k
      ↔ (ei j).toInt = ((c0 k).val : Int) := by
    intro j
    rw [resultIdx1, col_read, ← eq_ix1' j]
  -- which positions the left side adds over
  have memK : ∀ j : (⟨1, ![M]⟩ : Shape).Idx,
      (dims1 N M wfK).resultIdx? j (broadcastInDim ⟨2, ![M, 1]⟩ ![0] hbMc
          (concatenate ⟨1, ![M]⟩ 0
            [⟨⟨1, ![n]⟩, eu⟩,
             ⟨⟨1, ![n]⟩, addi ei (broadcastInDim ⟨1, ![n]⟩ ![] hbn (constantI ⟨0, ![]⟩ 32 (BitVec.ofNat 32 U)))⟩] hcat))
        = some (ValueIdx.ix1 ⟨U + (c0 k).val, by omega⟩)
      ↔ ∃ j' : (⟨1, ![n]⟩ : Shape).Idx, (c0 j).val = n + (c0 j').val ∧ (ei j').toInt = ((c0 k).val : Int) := by
    intro j
    rw [resultIdx1', col_read]
    have hjM : (c0 j).val < M := (c0 j).isLt
    by_cases hlt : (c0 j).val < n
    · rw [cat_left hcat eu _ (c0 j) hlt]
      constructor
      · intro h
        have h1 := heu (ValueIdx.ix1 ⟨(c0 j).val, hlt⟩)
        exfalso
        rw [h] at h1
        simp only [Nat.cast_add] at h1
        omega
      · rintro ⟨j', hj', -⟩
        exfalso
        omega
    · have hge : n ≤ (c0 j).val := Nat.le_of_not_lt hlt
      have hp2 : (c0 j).val - n < n := by omega
      rw [cat_right hcat eu _ (c0 j) hge hp2]
      show (ei (ValueIdx.ix1 ⟨(c0 j).val - n, hp2⟩) + BitVec.ofNat 32 U).toInt = ((U + (c0 k).val : Nat) : Int) ↔ _
      rw [shift_iff _ hU _ hk]
      constructor
      · intro h
        exact ⟨ValueIdx.ix1 ⟨(c0 j).val - n, hp2⟩, by show (c0 j).val = n + ((c0 j).val - n); omega, h⟩
      · rintro ⟨j', hj', hj⟩
        have e : j' = ValueIdx.ix1 ⟨(c0 j).val - n, hp2⟩ := by
          rw [eq_ix1' j']
          congr 1
          refine Fin.ext ?_
          show (c0 j').val = (c0 j).val - n
          omega
        rw [← e]
        exact hj
  refine congrArg₂ (· + ·) ?_ ?_
  · -- the operands: one constant on both sides
    rfl
  · -- the sums
    symm
    refine Finset.sum_bij (fun j _ => (ValueIdx.ix1 ⟨n + (c0 j).val, by
        have hj : (c0 j).val < n := (c0 j).isLt
        omega⟩ : (⟨1, ![M]⟩ : Shape).Idx)) ?_ ?_ ?_ ?_
    · intro j hj
      rw [Finset.mem_filter] at hj ⊢
      exact ⟨Finset.mem_univ _, (memK _).2 ⟨j, rfl, (memR j).1 hj.2⟩⟩
    · intro a _ b _ hab
      have h0 : n + (c0 a).val = n + (c0 b).val := congrArg Fin.val (congrFun hab 0)
      rw [eq_ix1' a, eq_ix1' b]
      congr 1
      exact Fin.ext (by omega)
    · intro b hb
      rw [Finset.mem_filter] at hb
      obtain ⟨j, hbj, hj⟩ := (memK b).1 hb.2
      refine ⟨j, Finset.mem_filter.2 ⟨Finset.mem_univ _, (memR j).2 hj⟩, ?_⟩
      rw [eq_ix1' b]
      congr 1
      exact Fin.ext hbj.symm
    · intro j _
      rfl

/-- THE ITEM DEGREES of one behaviour, in the two programs' own operations. With user ids `eu` (each at most 60000,
    signed) and item ids `ei` (any 32-bit words): rows 60001 … 100001 of the all-nodes degree vector — the
    scatter-add of 1200000 ones into 100002 zeros at the node ids `eu ++ (ei + 60001)` — are the items' degree
    vector, the scatter-add of 600000 ones into 40001 zeros at `ei`. It is `degree_core` at n = 600000, U = 60001,
    I = 40001, N = 100002 (60001 + 40001 = 100002 nodes, far inside 31 bits). -/
theorem item_degree_eq [Cert.KernelIdeal.Facts] [Cert.ReferenceIdeal.Facts]
    (eu ei : IVec Cert.KernelIdeal.S600000 32) (heu : ∀ j, (eu j).toInt ≤ 60000) :
    extractStridedSlice Cert.KernelIdeal.S40001 ![60001]
      (Host.scatterAdd (F := Ideal) Cert.KernelIdeal.scatter_S100002_S1200000x1_S1200000_n_0_0_1
        (broadcastInDim Cert.KernelIdeal.S100002 ![] Cert.KernelIdeal.Facts₀.bcast_S_S100002
          (constant (F := Ideal) Cert.KernelIdeal.S_ .f32 0x00000000#32))
        (broadcastInDim Cert.KernelIdeal.S1200000x1 ![0] Cert.KernelIdeal.Facts₀.bcast_S1200000_S1200000x1_0
          (concatenate Cert.KernelIdeal.S1200000 0
            [⟨Cert.KernelIdeal.S600000, eu⟩,
             ⟨Cert.KernelIdeal.S600000, addi ei (broadcastInDim Cert.KernelIdeal.S600000 ![]
                Cert.KernelIdeal.Facts₀.bcast_S_S600000 (constantI Cert.KernelIdeal.S_ 32 60001#32))⟩]
            Cert.KernelIdeal.Facts₀.concatenates_S600000_S600000_S1200000_d0))
        (broadcastInDim Cert.KernelIdeal.S1200000 ![] Cert.KernelIdeal.Facts₀.bcast_S_S1200000
          (constant (F := Ideal) Cert.KernelIdeal.S_ .f32 0x3F800000#32)))
      Cert.KernelIdeal.Facts₀.slices_S100002_S40001_60001
    = Host.scatterAdd (F := Ideal) Cert.ReferenceIdeal.scatter_S40001_S600000x1_S600000_n_0_0_1
        (broadcastInDim Cert.ReferenceIdeal.S40001 ![] Cert.ReferenceIdeal.Facts₀.bcast_S_S40001
          (constant (F := Ideal) Cert.ReferenceIdeal.S_ .f32 0x00000000#32))
        (broadcastInDim Cert.ReferenceIdeal.S600000x1 ![0] Cert.ReferenceIdeal.Facts₀.bcast_S600000_S600000x1_0 ei)
        (broadcastInDim Cert.ReferenceIdeal.S600000 ![] Cert.ReferenceIdeal.Facts₀.bcast_S_S600000
          (constant (F := Ideal) Cert.ReferenceIdeal.S_ .f32 0x3F800000#32)) := by
  -- the two printed dimension records are the rank-1 record
  have hdK : Cert.KernelIdeal.scatter_S100002_S1200000x1_S1200000_n_0_0_1
      = dims1 100002 1200000 Cert.KernelIdeal.Facts₀.scatter_S100002_S1200000x1_S1200000_n_0_0_1_wf := rfl
  have hdR : Cert.ReferenceIdeal.scatter_S40001_S600000x1_S600000_n_0_0_1
      = dims1 40001 600000 Cert.ReferenceIdeal.Facts₀.scatter_S40001_S600000x1_S600000_n_0_0_1_wf := rfl
  rw [hdK, hdR]
  exact degree_core (n := 600000) (M := 1200000) (N := 100002) (I := 40001) (U := 60001) rfl (by decide) (by decide)
    Cert.KernelIdeal.Facts₀.scatter_S100002_S1200000x1_S1200000_n_0_0_1_wf
    Cert.ReferenceIdeal.Facts₀.scatter_S40001_S600000x1_S600000_n_0_0_1_wf
    Cert.KernelIdeal.Facts₀.bcast_S_S100002
    Cert.KernelIdeal.Facts₀.bcast_S1200000_S1200000x1_0
    Cert.KernelIdeal.Facts₀.concatenates_S600000_S600000_S1200000_d0
    Cert.KernelIdeal.Facts₀.bcast_S_S600000
    Cert.KernelIdeal.Facts₀.bcast_S_S1200000
    Cert.KernelIdeal.Facts₀.slices_S100002_S40001_60001
    Cert.ReferenceIdeal.Facts₀.bcast_S_S40001
    Cert.ReferenceIdeal.Facts₀.bcast_S600000_S600000x1_0
    Cert.ReferenceIdeal.Facts₀.bcast_S_S600000
    0x00000000#32 0x3F800000#32 eu ei (fun j => by have := heu j; omega)

/-! ## The user ids' range, from the precondition -/

instance : Subsingleton Cert.Pre_finite_inputs.S_.Idx := ⟨fun a b => funext fun d => d.elim0⟩

/-- What the precondition says of the user ids: its last two conjuncts are `all (0 ≤ edge_users)` and
    `all (edge_users ≤ 60000)`, both compares signed; an `all` that is 1 had a 1 at every entry, and a signed compare
    that is 1 says the order of the two words read signed. -/
theorem users_in_range [Cert.Pre_finite_inputs.Facts]
    {a0 : FVec Ideal Cert.Pre_finite_inputs.S60001x64 .f32} {a1 : FVec Ideal Cert.Pre_finite_inputs.S40001x64 .f32}
    {a2 : FVec Ideal Cert.Pre_finite_inputs.S3 .f32} {a3 a4 : IVec Cert.Pre_finite_inputs.S3x600000 32}
    {a5 : IVec Cert.Pre_finite_inputs.S2048x3x3 32}
    (h : Cert.Pre_finite_inputs.fn (F := Ideal) a0 a1 a2 a3 a4 a5 = fun _ => 1#1) :
    ∀ i : Cert.Pre_finite_inputs.S3x600000.Idx, 0 ≤ (a3 i).toInt ∧ (a3 i).toInt ≤ 60000 := by
  intro i
  have h0 := congrFun h ValueIdx.ix0
  dsimp only [Cert.Pre_finite_inputs.fn, Cert.Pre_finite_inputs.fn_part1] at h0
  obtain ⟨h17, h20⟩ := IntOp.andi_eq_one.1 h0
  obtain ⟨-, h16⟩ := IntOp.andi_eq_one.1 h17
  have hge := IntOp.cmpi_sge.1 (Host.reduce_andi_all _ _ _ _ _ h16 i)
  have hle := IntOp.cmpi_sle.1 (Host.reduce_andi_all _ _ _ _ _ h20 i)
  have z0 : (0#32 : BitVec 32).toInt = 0 := by decide
  have z1 : (60000#32 : BitVec 32).toInt = 60000 := by decide
  change (0#32 : BitVec 32).toInt ≤ (a3 i).toInt at hge
  change (a3 i).toInt ≤ (60000#32 : BitVec 32).toInt at hle
  rw [z0] at hge
  rw [z1] at hle
  exact ⟨hge, hle⟩

end Cert.Proof.ItemDegree
-- ==== Proof.KDegree.lean ====
/-
  The items' degree vectors inside the first host stretch.

  For each of the three behaviours the stretch cuts the behaviour's row out of the two edge arrays, moves the item ids
  past the 60001 user nodes, joins user ids and moved item ids into one list of 1200000 node ids, and adds a one at each
  of these ids into a vector of 100002 zeros; much later it cuts rows 60001 … 100001, the items' part, out of that
  vector. No operation in between writes the vector, and none after writes the cut, so at the end of the stretch the cut
  is that composed term of the two edge arrays as the stretch found them.
-/
import proofs.«412432_j74655121539772_3_alg».proof.Proof.KArgs
import Idealize.ShloMosaic.Lib.StableHlo.Run
import Idealize.ShloMosaic.Lib.Pipeline.Frame
import Idealize.ShloMosaic.Lib.Pipeline.Value
import Idealize.ShloMosaic.Lib.ValueIdx

set_option maxRecDepth 16384

noncomputable section

namespace Cert.KernelIdeal.Degree

open Cert.KernelIdeal Cert.KernelIdeal.Gen Cert.KernelIdeal.Run
open Idealize.ShloMosaic Idealize.ShloMosaic.TcCoe Idealize.ShloMosaic.ValueIdx

variable {F : FTy → Type} [FloatOps F]

/-! ## Reading one buffer after a long line of operations -/

/-- A prefix lengthened by operations that do not write `r` leaves the same contents at `r`. -/
theorem after_take_skip (ops : List (HloOp τ sig (Elt F))) (V : Valuation τ sig (Elt F)) (i n : Nat) (r : DevRef τ sig)
    (h : ((ops.drop i).take n).Forall fun op => r ∉ op.writes) :
    StableHlo.after (ops.take (i + n)) V r = StableHlo.after (ops.take i) V r := by
  rw [List.take_add, StableHlo.after_append]
  exact StableHlo.after_of_forall_not_mem _ _ (List.forall_iff_forall_mem.mp h)

/-- A prefix lengthened by the operations `S` leaves what `S` leaves from the prefix's contents. -/
theorem after_take_seg (ops : List (HloOp τ sig (Elt F))) (V : Valuation τ sig (Elt F)) (i n : Nat)
    (S : List (HloOp τ sig (Elt F))) (h : (ops.drop i).take n = S) :
    StableHlo.after (ops.take (i + n)) V = StableHlo.after S (StableHlo.after (ops.take i) V) := by
  rw [List.take_add, StableHlo.after_append, h]

/-- When operation `i` of the line computes `y` as `f` of `x` and no later operation writes `y`, the line leaves at `y`
    the function `f` of what the first `i` operations leave at `x`. -/
theorem after_unary_at (ops : List (HloOp τ sig (Elt F))) (V : Valuation τ sig (Elt F)) (i : Nat) (x y : Ref sig .tc)
    (f : x.ty.Contents (Elt F) → y.ty.Contents (Elt F)) (hx hy)
    (hop : (ops.drop i).take 1 = [StableHlo.unary x y f hx hy])
    (hC : (ops.drop (i + 1)).Forall fun op => Proc.devRef .tc y ∉ op.writes) :
    StableHlo.after ops V (Proc.devRef .tc y) = f (StableHlo.after (ops.take i) V (Proc.devRef .tc x)) :=
  calc StableHlo.after ops V (Proc.devRef .tc y)
      = StableHlo.after (ops.take (i + 1) ++ ops.drop (i + 1)) V (Proc.devRef .tc y) := by rw [List.take_append_drop]
    _ = StableHlo.after (ops.drop (i + 1)) (StableHlo.after (ops.take (i + 1)) V) (Proc.devRef .tc y) := by
        rw [StableHlo.after_append]
    _ = StableHlo.after (ops.take (i + 1)) V (Proc.devRef .tc y) :=
        StableHlo.after_of_forall_not_mem _ _ (List.forall_iff_forall_mem.mp hC)
    _ = StableHlo.after [StableHlo.unary x y f hx hy] (StableHlo.after (ops.take i) V) (Proc.devRef .tc y) := by
        rw [after_take_seg ops V i 1 _ hop]
    _ = f (StableHlo.after (ops.take i) V (Proc.devRef .tc x)) := by
        rw [StableHlo.after_cons, StableHlo.after_nil, StableHlo.unary_result]

/-- No prefix of the stretch writes an argument. -/
theorem take_arg (V : Valuation τ sig (Elt F)) (n : Nat) (b : Ref sig .tc) (hb : IsArg b) :
    StableHlo.after (hostOps0.take n) V (Proc.devRef .tc b) = V (Proc.devRef .tc b) :=
  StableHlo.after_of_forall_not_mem _ _ fun op hop =>
    (List.forall_iff_forall_mem.mp (hostOps0_keeps (F := F) b hb)) op (List.mem_of_mem_take hop)

/-! ## Behaviour 0 -/

/-- The degree computation of behaviour 0 as one term of the two edge arrays: the items' rows of the scatter-add of
    1200000 ones, into 100002 zeros, at the user ids of row 0 followed by its item ids moved up by 60001. -/
def degK0 (a3 a4 : IVec S3x600000 32) : FVec F S40001 .f32 :=
  extractStridedSlice S40001 ![60001]
    (Host.scatterAdd scatter_S100002_S1200000x1_S1200000_n_0_0_1
      (broadcastInDim S100002 ![] bcast_S_S100002 (constant (F := F) S_ .f32 0x00000000#32))
      (broadcastInDim S1200000x1 ![0] bcast_S1200000_S1200000x1_0
        (concatenate S1200000 0
          [⟨S600000, shapeCast S600000 (extractStridedSlice S1x600000 ![0, 0] a3 slices_S3x600000_S1x600000_0_0) shapeCasts_S1x600000_S600000⟩,
           ⟨S600000, addi (shapeCast S600000 (extractStridedSlice S1x600000 ![0, 0] a4 slices_S3x600000_S1x600000_0_0) shapeCasts_S1x600000_S600000)
              (broadcastInDim S600000 ![] bcast_S_S600000 (constantI S_ 32 60001#32))⟩]
          concatenates_S600000_S600000_S1200000_d0))
      (broadcastInDim S1200000 ![] bcast_S_S1200000 (constant (F := F) S_ .f32 0x3F800000#32)))
    slices_S100002_S40001_60001

/-- The 15 operations of behaviour 0 from the cut of the edge rows to the scatter-add. -/
abbrev seg0 : List (HloOp τ sig (Elt F)) :=
  ( StableHlo.unary main_arg3 main_v62 ((extractStridedSlice S1x600000 ![0, 0] · slices_S3x600000_S1x600000_0_0) : (⟨S3x600000, .i32⟩ : BufTy).Contents (Elt F) → (⟨S1x600000, .i32⟩ : BufTy).Contents (Elt F))
  :: StableHlo.reshape main_v62 main_v63 rfl shapeCasts_S1x600000_S600000
  :: StableHlo.unary main_arg4 main_v64 ((extractStridedSlice S1x600000 ![0, 0] · slices_S3x600000_S1x600000_0_0) : (⟨S3x600000, .i32⟩ : BufTy).Contents (Elt F) → (⟨S1x600000, .i32⟩ : BufTy).Contents (Elt F))
  :: StableHlo.reshape main_v64 main_v65 rfl shapeCasts_S1x600000_S600000
  :: StableHlo.nullary main_c_14 (constantI S_ 32 60001#32)
  :: StableHlo.unary main_c_14 main_v66 (broadcastInDim S600000 ![] bcast_S_S600000 : (⟨S_, .i32⟩ : BufTy).Contents (Elt F) → (⟨S600000, .i32⟩ : BufTy).Contents (Elt F))
  :: StableHlo.binary main_v65 main_v66 main_v67 (addi : (⟨S600000, .i32⟩ : BufTy).Contents (Elt F) → (⟨S600000, .i32⟩ : BufTy).Contents (Elt F) → (⟨S600000, .i32⟩ : BufTy).Contents (Elt F))
  :: StableHlo.binary main_v63 main_v67 main_v68 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.binary main_v67 main_v63 main_v69 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.nullary main_cst_15 (constant S_ .f32 0x3F800000#32)
  :: StableHlo.unary main_cst_15 main_v70 (broadcastInDim S1200000 ![] bcast_S_S1200000 : (⟨S_, .f32⟩ : BufTy).Contents (Elt F) → (⟨S1200000, .f32⟩ : BufTy).Contents (Elt F))
  :: StableHlo.nullary main_cst_16 (constant S_ .f32 0x00000000#32)
  :: StableHlo.unary main_cst_16 main_v71 (broadcastInDim S100002 ![] bcast_S_S100002 : (⟨S_, .f32⟩ : BufTy).Contents (Elt F) → (⟨S100002, .f32⟩ : BufTy).Contents (Elt F))
  :: StableHlo.unary main_v68 main_v72 (broadcastInDim S1200000x1 ![0] bcast_S1200000_S1200000x1_0 : (⟨S1200000, .i32⟩ : BufTy).Contents (Elt F) → (⟨S1200000x1, .i32⟩ : BufTy).Contents (Elt F))
  :: StableHlo.ternary main_v71 main_v72 main_v70 main_v73 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F))
  :: [] )

theorem seg0_eq : ((hostOps0 : List (HloOp τ sig (Elt F))).drop 78).take 15 = seg0 := rfl

/-- What they leave in the all-nodes degree vector. -/
theorem seg0_result (W : Valuation τ sig (Elt F)) :
    StableHlo.after seg0 W (Proc.devRef .tc main_v73)
      = Host.scatterAdd scatter_S100002_S1200000x1_S1200000_n_0_0_1
          (broadcastInDim S100002 ![] bcast_S_S100002 (constant (F := F) S_ .f32 0x00000000#32))
          (broadcastInDim S1200000x1 ![0] bcast_S1200000_S1200000x1_0
            (concatenate S1200000 0
              [⟨S600000, shapeCast S600000 (extractStridedSlice S1x600000 ![0, 0] (W (Proc.devRef .tc main_arg3)) slices_S3x600000_S1x600000_0_0) shapeCasts_S1x600000_S600000⟩,
               ⟨S600000, addi (shapeCast S600000 (extractStridedSlice S1x600000 ![0, 0] (W (Proc.devRef .tc main_arg4)) slices_S3x600000_S1x600000_0_0) shapeCasts_S1x600000_S600000)
                  (broadcastInDim S600000 ![] bcast_S_S600000 (constantI S_ 32 60001#32))⟩]
              concatenates_S600000_S600000_S1200000_d0))
          (broadcastInDim S1200000 ![] bcast_S_S1200000 (constant (F := F) S_ .f32 0x3F800000#32)) := by
  unfold seg0
  after_results_simp
  rfl

/-- The 64 operations between the scatter-add and the cut do not write the all-nodes degree vector. -/
theorem mid0_keeps : (((hostOps0 : List (HloOp τ sig (Elt F))).drop 93).take 64).Forall
    fun op => Proc.devRef .tc main_v73 ∉ op.writes := by
  repeat' apply And.intro
  all_goals exact fun h => absurd (Proc.devRef_injective _ (Finset.mem_singleton.mp h)) (by decide)

/-- The operations after the cut do not write it. -/
theorem rest0_keeps : ((hostOps0 : List (HloOp τ sig (Elt F))).drop (157 + 1)).Forall
    fun op => Proc.devRef .tc main_v125 ∉ op.writes := by
  repeat' apply And.intro
  all_goals exact fun h => absurd (Proc.devRef_injective _ (Finset.mem_singleton.mp h)) (by decide)

/-- At the end of the stretch the first items' degree vector is `degK0` of the two edge arrays as the stretch found them. -/
theorem degree_slice0 (V : Valuation τ sig (Elt F)) :
    (StableHlo.after hostOps0 V (Proc.devRef .tc main_v125) : S40001.Idx → F .f32)
      = degK0 (V (Proc.devRef .tc main_arg3)) (V (Proc.devRef .tc main_arg4)) := by
  rw [after_unary_at hostOps0 V 157 main_v73 main_v125 _ _ _ rfl rest0_keeps,
    show (157 : Nat) = 93 + 64 from rfl, after_take_skip hostOps0 V 93 64 _ mid0_keeps,
    show (93 : Nat) = 78 + 15 from rfl, after_take_seg hostOps0 V 78 15 _ seg0_eq, seg0_result,
    take_arg V 78 main_arg3 (.inr (.inr (.inr (.inl rfl)))), take_arg V 78 main_arg4 (.inr (.inr (.inr (.inr (.inl rfl)))))]
  rfl

/-! ## Behaviour 1 -/

/-- The degree computation of behaviour 1 as one term of the two edge arrays: the items' rows of the scatter-add of
    1200000 ones, into 100002 zeros, at the user ids of row 1 followed by its item ids moved up by 60001. -/
def degK1 (a3 a4 : IVec S3x600000 32) : FVec F S40001 .f32 :=
  extractStridedSlice S40001 ![60001]
    (Host.scatterAdd scatter_S100002_S1200000x1_S1200000_n_0_0_1
      (broadcastInDim S100002 ![] bcast_S_S100002 (constant (F := F) S_ .f32 0x00000000#32))
      (broadcastInDim S1200000x1 ![0] bcast_S1200000_S1200000x1_0
        (concatenate S1200000 0
          [⟨S600000, shapeCast S600000 (extractStridedSlice S1x600000 ![1, 0] a3 slices_S3x600000_S1x600000_1_0) shapeCasts_S1x600000_S600000⟩,
           ⟨S600000, addi (shapeCast S600000 (extractStridedSlice S1x600000 ![1, 0] a4 slices_S3x600000_S1x600000_1_0) shapeCasts_S1x600000_S600000)
              (broadcastInDim S600000 ![] bcast_S_S600000 (constantI S_ 32 60001#32))⟩]
          concatenates_S600000_S600000_S1200000_d0))
      (broadcastInDim S1200000 ![] bcast_S_S1200000 (constant (F := F) S_ .f32 0x3F800000#32)))
    slices_S100002_S40001_60001

/-- The 15 operations of behaviour 1 from the cut of the edge rows to the scatter-add. -/
abbrev seg1 : List (HloOp τ sig (Elt F)) :=
  ( StableHlo.unary main_arg3 main_v128 ((extractStridedSlice S1x600000 ![1, 0] · slices_S3x600000_S1x600000_1_0) : (⟨S3x600000, .i32⟩ : BufTy).Contents (Elt F) → (⟨S1x600000, .i32⟩ : BufTy).Contents (Elt F))
  :: StableHlo.reshape main_v128 main_v129 rfl shapeCasts_S1x600000_S600000
  :: StableHlo.unary main_arg4 main_v130 ((extractStridedSlice S1x600000 ![1, 0] · slices_S3x600000_S1x600000_1_0) : (⟨S3x600000, .i32⟩ : BufTy).Contents (Elt F) → (⟨S1x600000, .i32⟩ : BufTy).Contents (Elt F))
  :: StableHlo.reshape main_v130 main_v131 rfl shapeCasts_S1x600000_S600000
  :: StableHlo.nullary main_c_30 (constantI S_ 32 60001#32)
  :: StableHlo.unary main_c_30 main_v132 (broadcastInDim S600000 ![] bcast_S_S600000 : (⟨S_, .i32⟩ : BufTy).Contents (Elt F) → (⟨S600000, .i32⟩ : BufTy).Contents (Elt F))
  :: StableHlo.binary main_v131 main_v132 main_v133 (addi : (⟨S600000, .i32⟩ : BufTy).Contents (Elt F) → (⟨S600000, .i32⟩ : BufTy).Contents (Elt F) → (⟨S600000, .i32⟩ : BufTy).Contents (Elt F))
  :: StableHlo.binary main_v129 main_v133 main_v134 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.binary main_v133 main_v129 main_v135 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.nullary main_cst_31 (constant S_ .f32 0x3F800000#32)
  :: StableHlo.unary main_cst_31 main_v136 (broadcastInDim S1200000 ![] bcast_S_S1200000 : (⟨S_, .f32⟩ : BufTy).Contents (Elt F) → (⟨S1200000, .f32⟩ : BufTy).Contents (Elt F))
  :: StableHlo.nullary main_cst_32 (constant S_ .f32 0x00000000#32)
  :: StableHlo.unary main_cst_32 main_v137 (broadcastInDim S100002 ![] bcast_S_S100002 : (⟨S_, .f32⟩ : BufTy).Contents (Elt F) → (⟨S100002, .f32⟩ : BufTy).Contents (Elt F))
  :: StableHlo.unary main_v134 main_v138 (broadcastInDim S1200000x1 ![0] bcast_S1200000_S1200000x1_0 : (⟨S1200000, .i32⟩ : BufTy).Contents (Elt F) → (⟨S1200000x1, .i32⟩ : BufTy).Contents (Elt F))
  :: StableHlo.ternary main_v137 main_v138 main_v136 main_v139 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F))
  :: [] )

theorem seg1_eq : ((hostOps0 : List (HloOp τ sig (Elt F))).drop 160).take 15 = seg1 := rfl

/-- What they leave in the all-nodes degree vector. -/
theorem seg1_result (W : Valuation τ sig (Elt F)) :
    StableHlo.after seg1 W (Proc.devRef .tc main_v139)
      = Host.scatterAdd scatter_S100002_S1200000x1_S1200000_n_0_0_1
          (broadcastInDim S100002 ![] bcast_S_S100002 (constant (F := F) S_ .f32 0x00000000#32))
          (broadcastInDim S1200000x1 ![0] bcast_S1200000_S1200000x1_0
            (concatenate S1200000 0
              [⟨S600000, shapeCast S600000 (extractStridedSlice S1x600000 ![1, 0] (W (Proc.devRef .tc main_arg3)) slices_S3x600000_S1x600000_1_0) shapeCasts_S1x600000_S600000⟩,
               ⟨S600000, addi (shapeCast S600000 (extractStridedSlice S1x600000 ![1, 0] (W (Proc.devRef .tc main_arg4)) slices_S3x600000_S1x600000_1_0) shapeCasts_S1x600000_S600000)
                  (broadcastInDim S600000 ![] bcast_S_S600000 (constantI S_ 32 60001#32))⟩]
              concatenates_S600000_S600000_S1200000_d0))
          (broadcastInDim S1200000 ![] bcast_S_S1200000 (constant (F := F) S_ .f32 0x3F800000#32)) := by
  unfold seg1
  after_results_simp
  rfl

/-- The 64 operations between the scatter-add and the cut do not write the all-nodes degree vector. -/
theorem mid1_keeps : (((hostOps0 : List (HloOp τ sig (Elt F))).drop 175).take 64).Forall
    fun op => Proc.devRef .tc main_v139 ∉ op.writes := by
  repeat' apply And.intro
  all_goals exact fun h => absurd (Proc.devRef_injective _ (Finset.mem_singleton.mp h)) (by decide)

/-- The operations after the cut do not write it. -/
theorem rest1_keeps : ((hostOps0 : List (HloOp τ sig (Elt F))).drop (239 + 1)).Forall
    fun op => Proc.devRef .tc main_v191 ∉ op.writes := by
  repeat' apply And.intro
  all_goals exact fun h => absurd (Proc.devRef_injective _ (Finset.mem_singleton.mp h)) (by decide)

/-- At the end of the stretch the second items' degree vector is `degK1` of the two edge arrays as the stretch found them. -/
theorem degree_slice1 (V : Valuation τ sig (Elt F)) :
    (StableHlo.after hostOps0 V (Proc.devRef .tc main_v191) : S40001.Idx → F .f32)
      = degK1 (V (Proc.devRef .tc main_arg3)) (V (Proc.devRef .tc main_arg4)) := by
  rw [after_unary_at hostOps0 V 239 main_v139 main_v191 _ _ _ rfl rest1_keeps,
    show (239 : Nat) = 175 + 64 from rfl, after_take_skip hostOps0 V 175 64 _ mid1_keeps,
    show (175 : Nat) = 160 + 15 from rfl, after_take_seg hostOps0 V 160 15 _ seg1_eq, seg1_result,
    take_arg V 160 main_arg3 (.inr (.inr (.inr (.inl rfl)))), take_arg V 160 main_arg4 (.inr (.inr (.inr (.inr (.inl rfl)))))]
  rfl

/-! ## Behaviour 2 -/

/-- The degree computation of behaviour 2 as one term of the two edge arrays: the items' rows of the scatter-add of
    1200000 ones, into 100002 zeros, at the user ids of row 2 followed by its item ids moved up by 60001. -/
def degK2 (a3 a4 : IVec S3x600000 32) : FVec F S40001 .f32 :=
  extractStridedSlice S40001 ![60001]
    (Host.scatterAdd scatter_S100002_S1200000x1_S1200000_n_0_0_1
      (broadcastInDim S100002 ![] bcast_S_S100002 (constant (F := F) S_ .f32 0x00000000#32))
      (broadcastInDim S1200000x1 ![0] bcast_S1200000_S1200000x1_0
        (concatenate S1200000 0
          [⟨S600000, shapeCast S600000 (extractStridedSlice S1x600000 ![2, 0] a3 slices_S3x600000_S1x600000_2_0) shapeCasts_S1x600000_S600000⟩,
           ⟨S600000, addi (shapeCast S600000 (extractStridedSlice S1x600000 ![2, 0] a4 slices_S3x600000_S1x600000_2_0) shapeCasts_S1x600000_S600000)
              (broadcastInDim S600000 ![] bcast_S_S600000 (constantI S_ 32 60001#32))⟩]
          concatenates_S600000_S600000_S1200000_d0))
      (broadcastInDim S1200000 ![] bcast_S_S1200000 (constant (F := F) S_ .f32 0x3F800000#32)))
    slices_S100002_S40001_60001

/-- The 15 operations of behaviour 2 from the cut of the edge rows to the scatter-add. -/
abbrev seg2 : List (HloOp τ sig (Elt F)) :=
  ( StableHlo.unary main_arg3 main_v194 ((extractStridedSlice S1x600000 ![2, 0] · slices_S3x600000_S1x600000_2_0) : (⟨S3x600000, .i32⟩ : BufTy).Contents (Elt F) → (⟨S1x600000, .i32⟩ : BufTy).Contents (Elt F))
  :: StableHlo.reshape main_v194 main_v195 rfl shapeCasts_S1x600000_S600000
  :: StableHlo.unary main_arg4 main_v196 ((extractStridedSlice S1x600000 ![2, 0] · slices_S3x600000_S1x600000_2_0) : (⟨S3x600000, .i32⟩ : BufTy).Contents (Elt F) → (⟨S1x600000, .i32⟩ : BufTy).Contents (Elt F))
  :: StableHlo.reshape main_v196 main_v197 rfl shapeCasts_S1x600000_S600000
  :: StableHlo.nullary main_c_46 (constantI S_ 32 60001#32)
  :: StableHlo.unary main_c_46 main_v198 (broadcastInDim S600000 ![] bcast_S_S600000 : (⟨S_, .i32⟩ : BufTy).Contents (Elt F) → (⟨S600000, .i32⟩ : BufTy).Contents (Elt F))
  :: StableHlo.binary main_v197 main_v198 main_v199 (addi : (⟨S600000, .i32⟩ : BufTy).Contents (Elt F) → (⟨S600000, .i32⟩ : BufTy).Contents (Elt F) → (⟨S600000, .i32⟩ : BufTy).Contents (Elt F))
  :: StableHlo.binary main_v195 main_v199 main_v200 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.binary main_v199 main_v195 main_v201 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F))
  :: StableHlo.nullary main_cst_47 (constant S_ .f32 0x3F800000#32)
  :: StableHlo.unary main_cst_47 main_v202 (broadcastInDim S1200000 ![] bcast_S_S1200000 : (⟨S_, .f32⟩ : BufTy).Contents (Elt F) → (⟨S1200000, .f32⟩ : BufTy).Contents (Elt F))
  :: StableHlo.nullary main_cst_48 (constant S_ .f32 0x00000000#32)
  :: StableHlo.unary main_cst_48 main_v203 (broadcastInDim S100002 ![] bcast_S_S100002 : (⟨S_, .f32⟩ : BufTy).Contents (Elt F) → (⟨S100002, .f32⟩ : BufTy).Contents (Elt F))
  :: StableHlo.unary main_v200 main_v204 (broadcastInDim S1200000x1 ![0] bcast_S1200000_S1200000x1_0 : (⟨S1200000, .i32⟩ : BufTy).Contents (Elt F) → (⟨S1200000x1, .i32⟩ : BufTy).Contents (Elt F))
  :: StableHlo.ternary main_v203 main_v204 main_v202 main_v205 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F))
  :: [] )

theorem seg2_eq : ((hostOps0 : List (HloOp τ sig (Elt F))).drop 242).take 15 = seg2 := rfl

/-- What they leave in the all-nodes degree vector. -/
theorem seg2_result (W : Valuation τ sig (Elt F)) :
    StableHlo.after seg2 W (Proc.devRef .tc main_v205)
      = Host.scatterAdd scatter_S100002_S1200000x1_S1200000_n_0_0_1
          (broadcastInDim S100002 ![] bcast_S_S100002 (constant (F := F) S_ .f32 0x00000000#32))
          (broadcastInDim S1200000x1 ![0] bcast_S1200000_S1200000x1_0
            (concatenate S1200000 0
              [⟨S600000, shapeCast S600000 (extractStridedSlice S1x600000 ![2, 0] (W (Proc.devRef .tc main_arg3)) slices_S3x600000_S1x600000_2_0) shapeCasts_S1x600000_S600000⟩,
               ⟨S600000, addi (shapeCast S600000 (extractStridedSlice S1x600000 ![2, 0] (W (Proc.devRef .tc main_arg4)) slices_S3x600000_S1x600000_2_0) shapeCasts_S1x600000_S600000)
                  (broadcastInDim S600000 ![] bcast_S_S600000 (constantI S_ 32 60001#32))⟩]
              concatenates_S600000_S600000_S1200000_d0))
          (broadcastInDim S1200000 ![] bcast_S_S1200000 (constant (F := F) S_ .f32 0x3F800000#32)) := by
  unfold seg2
  after_results_simp
  rfl

/-- The 64 operations between the scatter-add and the cut do not write the all-nodes degree vector. -/
theorem mid2_keeps : (((hostOps0 : List (HloOp τ sig (Elt F))).drop 257).take 64).Forall
    fun op => Proc.devRef .tc main_v205 ∉ op.writes := by
  repeat' apply And.intro
  all_goals exact fun h => absurd (Proc.devRef_injective _ (Finset.mem_singleton.mp h)) (by decide)

/-- The operations after the cut do not write it. -/
theorem rest2_keeps : ((hostOps0 : List (HloOp τ sig (Elt F))).drop (321 + 1)).Forall
    fun op => Proc.devRef .tc main_v257 ∉ op.writes := by
  repeat' apply And.intro
  all_goals exact fun h => absurd (Proc.devRef_injective _ (Finset.mem_singleton.mp h)) (by decide)

/-- At the end of the stretch the third items' degree vector is `degK2` of the two edge arrays as the stretch found them. -/
theorem degree_slice2 (V : Valuation τ sig (Elt F)) :
    (StableHlo.after hostOps0 V (Proc.devRef .tc main_v257) : S40001.Idx → F .f32)
      = degK2 (V (Proc.devRef .tc main_arg3)) (V (Proc.devRef .tc main_arg4)) := by
  rw [after_unary_at hostOps0 V 321 main_v205 main_v257 _ _ _ rfl rest2_keeps,
    show (321 : Nat) = 257 + 64 from rfl, after_take_skip hostOps0 V 257 64 _ mid2_keeps,
    show (257 : Nat) = 242 + 15 from rfl, after_take_seg hostOps0 V 242 15 _ seg2_eq, seg2_result,
    take_arg V 242 main_arg3 (.inr (.inr (.inr (.inl rfl)))), take_arg V 242 main_arg4 (.inr (.inr (.inr (.inr (.inl rfl)))))]
  rfl

end Cert.KernelIdeal.Degree

end
-- ==== Proof.WeightsEq.lean ====
/-
  The item weights of the two programs are one array.

  Each program stacks the items' three degree vectors (one per behaviour) as the columns of a 40001 x 3 array and
  normalises every item's three degrees, weighted by the three behaviour coefficients, by their sum plus a small
  constant. The normalising chain is the same list of operations in both programs. The degree vectors are not computed
  the same way: one program counts, per behaviour, over all 100002 nodes (user ids, then item ids moved past the
  60001 users) and keeps the items' rows; the other counts over the 40001 items directly. That these agree — when
  every user id reads at most 60000 — is the count of the item-degree module, read here at the three rows of the
  two edge arrays; an entry of a row of an array is an entry of the array, so the bound on all user ids bounds each row.
  Column by column the two stacked arrays are therefore equal, and so are the weights computed from them.
-/
import proofs.«412432_j74655121539772_3_alg».proof.Proof.ItemDegree
import proofs.«412432_j74655121539772_3_alg».proof.Proof.KMidRows
import proofs.«412432_j74655121539772_3_alg».proof.Proof.KGlue
import proofs.«412432_j74655121539772_3_alg».proof.Proof.KDegree
import proofs.«412432_j74655121539772_3_alg».proof.Proof.RMidValue

noncomputable section

namespace Cert.Proof.WeightsEq

open Idealize.ShloMosaic Idealize.ShloMosaic.ValueIdx Idealize.ShloMosaic.TcCoe Idealize.SL.Sem

/-- An entry of a reshaped slice of an array is an entry of the array: a bound on all entries carries over. -/
theorem row_le {s t u : Shape} (a : IVec s 32) (c : Int) (h : ∀ i, (a i).toInt ≤ c) (off : Fin s.rank → Nat)
    (hs : s.Slices off t) (hc : t.ShapeCasts u) (j : u.Idx) :
    (shapeCast u (extractStridedSlice t off a hs) hc j).toInt ≤ c := h _

/-- The normalising chain is the same operations in the two programs. -/
theorem wK_eq_wR :
    (Cert.KernelIdeal.MidRows.wK (F := Ideal) : FVec Ideal Cert.KernelIdeal.S40001x3 .f32 →
      FVec Ideal Cert.KernelIdeal.S3 .f32 → FVec Ideal Cert.KernelIdeal.S40001x3 .f32)
      = Cert.ReferenceIdeal.MidValue.wR := by
  funext deg w
  unfold Cert.KernelIdeal.MidRows.wK Cert.ReferenceIdeal.MidValue.wR Cert.ReferenceIdeal.MidValue.wR_v317
  rfl

/-- The items' degrees under behaviour 0: the rows 60001 … of the count over all nodes are the count over the items. -/
theorem degK0_eq_degR0 (a3 a4 : IVec Cert.KernelIdeal.S3x600000 32) (h3 : ∀ i, (a3 i).toInt ≤ 60000) :
    Cert.KernelIdeal.Degree.degK0 (F := Ideal) a3 a4 = Cert.ReferenceIdeal.MidValue.degR0 a4 := by
  unfold Cert.KernelIdeal.Degree.degK0 Cert.ReferenceIdeal.MidValue.degR0
  exact Cert.Proof.ItemDegree.item_degree_eq _ _ (row_le a3 60000 h3 _ _ _)

/-- … under behaviour 1. -/
theorem degK1_eq_degR1 (a3 a4 : IVec Cert.KernelIdeal.S3x600000 32) (h3 : ∀ i, (a3 i).toInt ≤ 60000) :
    Cert.KernelIdeal.Degree.degK1 (F := Ideal) a3 a4 = Cert.ReferenceIdeal.MidValue.degR1 a4 := by
  unfold Cert.KernelIdeal.Degree.degK1 Cert.ReferenceIdeal.MidValue.degR1
  exact Cert.Proof.ItemDegree.item_degree_eq _ _ (row_le a3 60000 h3 _ _ _)

/-- … under behaviour 2. -/
theorem degK2_eq_degR2 (a3 a4 : IVec Cert.KernelIdeal.S3x600000 32) (h3 : ∀ i, (a3 i).toInt ≤ 60000) :
    Cert.KernelIdeal.Degree.degK2 (F := Ideal) a3 a4 = Cert.ReferenceIdeal.MidValue.degR2 a4 := by
  unfold Cert.KernelIdeal.Degree.degK2 Cert.ReferenceIdeal.MidValue.degR2
  exact Cert.Proof.ItemDegree.item_degree_eq _ _ (row_le a3 60000 h3 _ _ _)

/-! ## The stacked degrees, column by column -/

/-- The reference's count of behaviour 0 is the first of its three counts. -/
theorem degR_0 (E : IVec Cert.ReferenceIdeal.S3x600000 32) :
    Cert.ReferenceIdeal.MidValue.degR E 0 = Cert.ReferenceIdeal.MidValue.degR0 E := rfl

/-- Column 0 of the reference's stacked degrees. -/
theorem col0_R (VR : Valuation Cert.ReferenceIdeal.τ Cert.ReferenceIdeal.sig (Elt Ideal)) (k : Fin 40001) :
    (StableHlo.after (Cert.ReferenceIdeal.RefRun.opsC28 ++ Cert.ReferenceIdeal.RefRun.opsC29
          : List (HloOp Cert.ReferenceIdeal.τ Cert.ReferenceIdeal.sig (Elt Ideal))) VR
          (Proc.devRef .tc Cert.ReferenceIdeal.main_v314) : FVec Ideal Cert.ReferenceIdeal.S40001x3 .f32) (ix2 k (0 : Fin 3))
      = Cert.ReferenceIdeal.MidValue.degR0 (VR (Proc.devRef .tc Cert.ReferenceIdeal.main_arg4)) (ix1 k) :=
  (Cert.ReferenceIdeal.MidValue.degree_stack VR k 0).trans (congrFun (degR_0 _) (ix1 k))

/-- Column 0 of the kernel's stacked degrees, as the reference's count over the kernel's item-edge array. -/
theorem col0_K (VK : Valuation Cert.KernelIdeal.τ Cert.KernelIdeal.sig (Elt Ideal))
    (hrange : ∀ i, ((VK (Proc.devRef .tc Cert.KernelIdeal.main_arg3) : IVec Cert.KernelIdeal.S3x600000 32) i).toInt ≤ 60000)
    (k : Fin 40001) :
    (StableHlo.after Cert.KernelIdeal.Gen.hostOps0 VK (Proc.devRef .tc Cert.KernelIdeal.main_v271)
        : FVec Ideal Cert.KernelIdeal.S40001x3 .f32) (ix2 k (0 : Fin 3))
      = Cert.ReferenceIdeal.MidValue.degR0 (VK (Proc.devRef .tc Cert.KernelIdeal.main_arg4)) (ix1 k) :=
  (Cert.KernelIdeal.Glue.degree_stack0 VK k).trans <|
    (congrFun (Cert.KernelIdeal.Degree.degree_slice0 VK) (ix1 k)).trans <|
    congrFun (degK0_eq_degR0 _ _ hrange) (ix1 k)

/-- The reference's count of behaviour 1 is the second of its three counts. -/
theorem degR_1 (E : IVec Cert.ReferenceIdeal.S3x600000 32) :
    Cert.ReferenceIdeal.MidValue.degR E 1 = Cert.ReferenceIdeal.MidValue.degR1 E := rfl

/-- Column 1 of the reference's stacked degrees. -/
theorem col1_R (VR : Valuation Cert.ReferenceIdeal.τ Cert.ReferenceIdeal.sig (Elt Ideal)) (k : Fin 40001) :
    (StableHlo.after (Cert.ReferenceIdeal.RefRun.opsC28 ++ Cert.ReferenceIdeal.RefRun.opsC29
          : List (HloOp Cert.ReferenceIdeal.τ Cert.ReferenceIdeal.sig (Elt Ideal))) VR
          (Proc.devRef .tc Cert.ReferenceIdeal.main_v314) : FVec Ideal Cert.ReferenceIdeal.S40001x3 .f32) (ix2 k (1 : Fin 3))
      = Cert.ReferenceIdeal.MidValue.degR1 (VR (Proc.devRef .tc Cert.ReferenceIdeal.main_arg4)) (ix1 k) :=
  (Cert.ReferenceIdeal.MidValue.degree_stack VR k 1).trans (congrFun (degR_1 _) (ix1 k))

/-- Column 1 of the kernel's stacked degrees, as the reference's count over the kernel's item-edge array. -/
theorem col1_K (VK : Valuation Cert.KernelIdeal.τ Cert.KernelIdeal.sig (Elt Ideal))
    (hrange : ∀ i, ((VK (Proc.devRef .tc Cert.KernelIdeal.main_arg3) : IVec Cert.KernelIdeal.S3x600000 32) i).toInt ≤ 60000)
    (k : Fin 40001) :
    (StableHlo.after Cert.KernelIdeal.Gen.hostOps0 VK (Proc.devRef .tc Cert.KernelIdeal.main_v271)
        : FVec Ideal Cert.KernelIdeal.S40001x3 .f32) (ix2 k (1 : Fin 3))
      = Cert.ReferenceIdeal.MidValue.degR1 (VK (Proc.devRef .tc Cert.KernelIdeal.main_arg4)) (ix1 k) :=
  (Cert.KernelIdeal.Glue.degree_stack1 VK k).trans <|
    (congrFun (Cert.KernelIdeal.Degree.degree_slice1 VK) (ix1 k)).trans <|
    congrFun (degK1_eq_degR1 _ _ hrange) (ix1 k)

/-- The reference's count of behaviour 2 is the third of its three counts. -/
theorem degR_2 (E : IVec Cert.ReferenceIdeal.S3x600000 32) :
    Cert.ReferenceIdeal.MidValue.degR E 2 = Cert.ReferenceIdeal.MidValue.degR2 E := rfl

/-- Column 2 of the reference's stacked degrees. -/
theorem col2_R (VR : Valuation Cert.ReferenceIdeal.τ Cert.ReferenceIdeal.sig (Elt Ideal)) (k : Fin 40001) :
    (StableHlo.after (Cert.ReferenceIdeal.RefRun.opsC28 ++ Cert.ReferenceIdeal.RefRun.opsC29
          : List (HloOp Cert.ReferenceIdeal.τ Cert.ReferenceIdeal.sig (Elt Ideal))) VR
          (Proc.devRef .tc Cert.ReferenceIdeal.main_v314) : FVec Ideal Cert.ReferenceIdeal.S40001x3 .f32) (ix2 k (2 : Fin 3))
      = Cert.ReferenceIdeal.MidValue.degR2 (VR (Proc.devRef .tc Cert.ReferenceIdeal.main_arg4)) (ix1 k) :=
  (Cert.ReferenceIdeal.MidValue.degree_stack VR k 2).trans (congrFun (degR_2 _) (ix1 k))

/-- Column 2 of the kernel's stacked degrees, as the reference's count over the kernel's item-edge array. -/
theorem col2_K (VK : Valuation Cert.KernelIdeal.τ Cert.KernelIdeal.sig (Elt Ideal))
    (hrange : ∀ i, ((VK (Proc.devRef .tc Cert.KernelIdeal.main_arg3) : IVec Cert.KernelIdeal.S3x600000 32) i).toInt ≤ 60000)
    (k : Fin 40001) :
    (StableHlo.after Cert.KernelIdeal.Gen.hostOps0 VK (Proc.devRef .tc Cert.KernelIdeal.main_v271)
        : FVec Ideal Cert.KernelIdeal.S40001x3 .f32) (ix2 k (2 : Fin 3))
      = Cert.ReferenceIdeal.MidValue.degR2 (VK (Proc.devRef .tc Cert.KernelIdeal.main_arg4)) (ix1 k) :=
  (Cert.KernelIdeal.Glue.degree_stack2 VK k).trans <|
    (congrFun (Cert.KernelIdeal.Degree.degree_slice2 VK) (ix1 k)).trans <|
    congrFun (degK2_eq_degR2 _ _ hrange) (ix1 k)

/-- THE STACKED DEGREES are one array in the two programs, when their item-edge arrays agree and every user id of the
    first reads at most 60000: column by column, the kernel's column is the reference's count over the kernel's
    item-edge array, which is the reference's. -/
theorem degree_stack_eq
    (VK : Valuation Cert.KernelIdeal.τ Cert.KernelIdeal.sig (Elt Ideal))
    (VR : Valuation Cert.ReferenceIdeal.τ Cert.ReferenceIdeal.sig (Elt Ideal))
    (h4 : (VK (Proc.devRef .tc Cert.KernelIdeal.main_arg4) : IVec Cert.KernelIdeal.S3x600000 32)
        = VR (Proc.devRef .tc Cert.ReferenceIdeal.main_arg4))
    (hrange : ∀ i, ((VK (Proc.devRef .tc Cert.KernelIdeal.main_arg3) : IVec Cert.KernelIdeal.S3x600000 32) i).toInt ≤ 60000) :
    (StableHlo.after Cert.KernelIdeal.Gen.hostOps0 VK (Proc.devRef .tc Cert.KernelIdeal.main_v271)
        : FVec Ideal Cert.KernelIdeal.S40001x3 .f32)
      = StableHlo.after (Cert.ReferenceIdeal.RefRun.opsC28 ++ Cert.ReferenceIdeal.RefRun.opsC29
          : List (HloOp Cert.ReferenceIdeal.τ Cert.ReferenceIdeal.sig (Elt Ideal))) VR
          (Proc.devRef .tc Cert.ReferenceIdeal.main_v314) := by
  funext i
  obtain ⟨k, b, rfl⟩ : ∃ (k : Fin 40001) (b : Fin 3), i = ix2 k b := ⟨i 0, i 1, eq_ix2 i⟩
  match b with
  | ⟨0, _⟩ => exact (col0_K VK hrange k).trans ((congrArg (fun E => Cert.ReferenceIdeal.MidValue.degR0 E (ix1 k)) h4).trans (col0_R VR k).symm)
  | ⟨1, _⟩ => exact (col1_K VK hrange k).trans ((congrArg (fun E => Cert.ReferenceIdeal.MidValue.degR1 E (ix1 k)) h4).trans (col1_R VR k).symm)
  | ⟨2, _⟩ => exact (col2_K VK hrange k).trans ((congrArg (fun E => Cert.ReferenceIdeal.MidValue.degR2 E (ix1 k)) h4).trans (col2_R VR k).symm)

/-- THE ITEM WEIGHTS are one array in the two programs, under the same conditions and equal behaviour coefficients. -/
theorem weights_table_eq
    (VK : Valuation Cert.KernelIdeal.τ Cert.KernelIdeal.sig (Elt Ideal))
    (VR : Valuation Cert.ReferenceIdeal.τ Cert.ReferenceIdeal.sig (Elt Ideal))
    (h2 : (VK (Proc.devRef .tc Cert.KernelIdeal.main_arg2) : FVec Ideal Cert.KernelIdeal.S3 .f32)
        = VR (Proc.devRef .tc Cert.ReferenceIdeal.main_arg2))
    (h4 : (VK (Proc.devRef .tc Cert.KernelIdeal.main_arg4) : IVec Cert.KernelIdeal.S3x600000 32)
        = VR (Proc.devRef .tc Cert.ReferenceIdeal.main_arg4))
    (hrange : ∀ i, ((VK (Proc.devRef .tc Cert.KernelIdeal.main_arg3) : IVec Cert.KernelIdeal.S3x600000 32) i).toInt ≤ 60000) :
    Cert.KernelIdeal.MidRows.wK
        (StableHlo.after Cert.KernelIdeal.Gen.hostOps0 VK (Proc.devRef .tc Cert.KernelIdeal.main_v271))
        (VK (Proc.devRef .tc Cert.KernelIdeal.main_arg2))
      = Cert.ReferenceIdeal.MidValue.wR
        (StableHlo.after (Cert.ReferenceIdeal.RefRun.opsC28 ++ Cert.ReferenceIdeal.RefRun.opsC29
          : List (HloOp Cert.ReferenceIdeal.τ Cert.ReferenceIdeal.sig (Elt Ideal))) VR
          (Proc.devRef .tc Cert.ReferenceIdeal.main_v314))
        (VR (Proc.devRef .tc Cert.ReferenceIdeal.main_arg2)) := by
  rw [wK_eq_wR, degree_stack_eq VK VR h4 hrange, h2]

end Cert.Proof.WeightsEq
-- ==== Proof.PrefixGlobal.lean ====
/-
  The first stretch of both programs: the propagation of the embeddings over the union of the three behaviours' graphs.

  Both programs begin with the same 77 host operations (statements %0 … %60): the user and the item table stacked to one
  table E of 100002 rows; the three behaviours' edge arrays flattened to 1800000 user ends and 1800000 item ends (item ids
  shifted by 60001), and concatenated both ways to the 3600000 directed edges' sources and targets; the degree of every node
  (a scatter-add of ones at the sources); the edge weight 1/sqrt(max(deg src, 1)) · 1/sqrt(max(deg dst, 1)); two propagation
  layers, each gathering the rows at the sources, scaling them by the edge weight and scatter-adding them at the targets;
  the sum E + E' + E'' (statement %59) and the constant table 3 (statement %60) it is then divided by.

  Each program's stretch is cut at the same four statements. For every value that is still read after its stretch, a closed
  function of the values the stretch reads is written out once per program from the program's own operations
  ('Kx…', 'Rx…'); running the stretch from any buffer contents leaves that function of the contents read ('Kread_…',
  'Rread_…'); the two programs' functions are equal because they are compositions of the same operations at the same shapes
  with the same constants ('x…_eq'). Hence buffers that agree before a stretch agree after it ('sim0' … 'sim4'), and from
  agreeing arguments the two programs reach the same statements %59 and %60 ('global_tables_eq').
-/
import proofs.«412432_j74655121539772_3_alg».proof.Proof.Gen.KernelIdeal.Launch
import proofs.«412432_j74655121539772_3_alg».proof.Proof.RefRunC0
import proofs.«412432_j74655121539772_3_alg».proof.Proof.RefRunC1
import Idealize.ShloMosaic.Lib.StableHlo.Run
import Idealize.ShloMosaic.Lib.Pipeline.Frame

set_option maxRecDepth 16384

noncomputable section

namespace Cert.Proof.PrefixGlobal

open Idealize.ShloMosaic Idealize.ShloMosaic.TcCoe Idealize.SL.Sem Idealize.ShloMosaic.StableHlo

variable {F : FTy → Type} [FloatOps F]

/-! ## The kernel program's side -/

section KernelSide
open Cert.KernelIdeal Cert.KernelIdeal.Gen

/-- The kernel program's operations that write `main_v0` … `main_v4` (6 of them). -/
abbrev K0 : List (HloOp τ sig (Elt F)) :=
  [ StableHlo.binary main_arg0 main_arg1 main_v0 ((fun a b => concatenate S100002x64 0 [⟨S60001x64, a⟩, ⟨S40001x64, b⟩] concatenates_S60001x64_S40001x64_S100002x64_d0) : (⟨S60001x64, .f32⟩ : BufTy).Contents (Elt F) → (⟨S40001x64, .f32⟩ : BufTy).Contents (Elt F) → (⟨S100002x64, .f32⟩ : BufTy).Contents (Elt F)),
    StableHlo.reshape main_arg3 main_v1 rfl shapeCasts_S3x600000_S1800000,
    StableHlo.reshape main_arg4 main_v2 rfl shapeCasts_S3x600000_S1800000,
    StableHlo.nullary main_c (constantI S_ 32 60001#32),
    StableHlo.unary main_c main_v3 (broadcastInDim S1800000 ![] bcast_S_S1800000 : (⟨S_, .i32⟩ : BufTy).Contents (Elt F) → (⟨S1800000, .i32⟩ : BufTy).Contents (Elt F)),
    StableHlo.binary main_v2 main_v3 main_v4 (addi : (⟨S1800000, .i32⟩ : BufTy).Contents (Elt F) → (⟨S1800000, .i32⟩ : BufTy).Contents (Elt F) → (⟨S1800000, .i32⟩ : BufTy).Contents (Elt F)) ]

/-- The kernel program's operations that write `main_v5` … `main_v5` (1 of them). -/
abbrev K1 : List (HloOp τ sig (Elt F)) :=
  [ StableHlo.binary main_v1 main_v4 main_v5 ((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)) ]

/-- The kernel program's operations that write `main_v6` … `main_v25` (27 of them). -/
abbrev K2 : List (HloOp τ sig (Elt F)) :=
  [ StableHlo.binary main_v4 main_v1 main_v6 ((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)),
    StableHlo.nullary main_cst (constant S_ .f32 0x3F800000#32),
    StableHlo.unary main_cst main_v7 (broadcastInDim S3600000 ![] bcast_S_S3600000 : (⟨S_, .f32⟩ : BufTy).Contents (Elt F) → (⟨S3600000, .f32⟩ : BufTy).Contents (Elt F)),
    StableHlo.nullary main_cst_0 (constant S_ .f32 0x00000000#32),
    StableHlo.unary main_cst_0 main_v8 (broadcastInDim S100002 ![] bcast_S_S100002 : (⟨S_, .f32⟩ : BufTy).Contents (Elt F) → (⟨S100002, .f32⟩ : BufTy).Contents (Elt F)),
    StableHlo.unary main_v5 main_v9 (broadcastInDim S3600000x1 ![0] bcast_S3600000_S3600000x1_0 : (⟨S3600000, .i32⟩ : BufTy).Contents (Elt F) → (⟨S3600000x1, .i32⟩ : BufTy).Contents (Elt F)),
    StableHlo.ternary main_v8 main_v9 main_v7 main_v10 ((fun x i u => Host.scatterAdd scatter_S100002_S3600000x1_S3600000_n_0_0_1 x i u) : (⟨S100002, .f32⟩ : BufTy).Contents (Elt F) → (⟨S3600000x1, .i32⟩ : BufTy).Contents (Elt F) → (⟨S3600000, .f32⟩ : BufTy).Contents (Elt F) → (⟨S100002, .f32⟩ : BufTy).Contents (Elt F)),
    StableHlo.nullary main_c_1 (constantI S_ 32 0#32),
    StableHlo.unary main_c_1 main_v11 (broadcastInDim S3600000 ![] bcast_S_S3600000 : (⟨S_, .i32⟩ : BufTy).Contents (Elt F) → (⟨S3600000, .i32⟩ : BufTy).Contents (Elt F)),
    StableHlo.binary main_v5 main_v11 main_v12 (cmpi .slt : (⟨S3600000, .i32⟩ : BufTy).Contents (Elt F) → (⟨S3600000, .i32⟩ : BufTy).Contents (Elt F) → (⟨S3600000, .i1⟩ : BufTy).Contents (Elt F)),
    StableHlo.nullary main_c_2 (constantI S_ 32 100002#32),
    StableHlo.unary main_c_2 main_v13 (broadcastInDim S3600000 ![] bcast_S_S3600000 : (⟨S_, .i32⟩ : BufTy).Contents (Elt F) → (⟨S3600000, .i32⟩ : BufTy).Contents (Elt F)),
    StableHlo.binary main_v5 main_v13 main_v14 (addi : (⟨S3600000, .i32⟩ : BufTy).Contents (Elt F) → (⟨S3600000, .i32⟩ : BufTy).Contents (Elt F) → (⟨S3600000, .i32⟩ : BufTy).Contents (Elt F)),
    StableHlo.ternary main_v12 main_v14 main_v5 main_v15 (select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)),
    StableHlo.unary main_v15 main_v16 (broadcastInDim S3600000x1 ![0] bcast_S3600000_S3600000x1_0 : (⟨S3600000, .i32⟩ : BufTy).Contents (Elt F) → (⟨S3600000x1, .i32⟩ : BufTy).Contents (Elt F)),
    StableHlo.binary main_v10 main_v16 main_v17 ((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)),
    StableHlo.nullary main_cst_3 (constant S_ .f32 0x3F800000#32),
    StableHlo.unary main_cst_3 main_v18 (broadcastInDim S3600000 ![] bcast_S_S3600000 : (⟨S_, .f32⟩ : BufTy).Contents (Elt F) → (⟨S3600000, .f32⟩ : BufTy).Contents (Elt F)),
    StableHlo.binary main_v17 main_v18 main_v19 (maximumf : (⟨S3600000, .f32⟩ : BufTy).Contents (Elt F) → (⟨S3600000, .f32⟩ : BufTy).Contents (Elt F) → (⟨S3600000, .f32⟩ : BufTy).Contents (Elt F)),
    StableHlo.unary main_v19 main_v20 (Host.rsqrt : (⟨S3600000, .f32⟩ : BufTy).Contents (Elt F) → (⟨S3600000, .f32⟩ : BufTy).Contents (Elt F)),
    StableHlo.nullary main_c_4 (constantI S_ 32 0#32),
    StableHlo.unary main_c_4 main_v21 (broadcastInDim S3600000 ![] bcast_S_S3600000 : (⟨S_, .i32⟩ : BufTy).Contents (Elt F) → (⟨S3600000, .i32⟩ : BufTy).Contents (Elt F)),
    StableHlo.binary main_v6 main_v21 main_v22 (cmpi .slt : (⟨S3600000, .i32⟩ : BufTy).Contents (Elt F) → (⟨S3600000, .i32⟩ : BufTy).Contents (Elt F) → (⟨S3600000, .i1⟩ : BufTy).Contents (Elt F)),
    StableHlo.nullary main_c_5 (constantI S_ 32 100002#32),
    StableHlo.unary main_c_5 main_v23 (broadcastInDim S3600000 ![] bcast_S_S3600000 : (⟨S_, .i32⟩ : BufTy).Contents (Elt F) → (⟨S3600000, .i32⟩ : BufTy).Contents (Elt F)),
    StableHlo.binary main_v6 main_v23 main_v24 (addi : (⟨S3600000, .i32⟩ : BufTy).Contents (Elt F) → (⟨S3600000, .i32⟩ : BufTy).Contents (Elt F) → (⟨S3600000, .i32⟩ : BufTy).Contents (Elt F)),
    StableHlo.ternary main_v22 main_v24 main_v6 main_v25 (select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ]

/-- The kernel program's operations that write `main_v26` … `main_v46` (26 of them). -/
abbrev K3 : List (HloOp τ sig (Elt F)) :=
  [ StableHlo.unary main_v25 main_v26 (broadcastInDim S3600000x1 ![0] bcast_S3600000_S3600000x1_0 : (⟨S3600000, .i32⟩ : BufTy).Contents (Elt F) → (⟨S3600000x1, .i32⟩ : BufTy).Contents (Elt F)),
    StableHlo.binary main_v10 main_v26 main_v27 ((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)),
    StableHlo.nullary main_cst_6 (constant S_ .f32 0x3F800000#32),
    StableHlo.unary main_cst_6 main_v28 (broadcastInDim S3600000 ![] bcast_S_S3600000 : (⟨S_, .f32⟩ : BufTy).Contents (Elt F) → (⟨S3600000, .f32⟩ : BufTy).Contents (Elt F)),
    StableHlo.binary main_v27 main_v28 main_v29 (maximumf : (⟨S3600000, .f32⟩ : BufTy).Contents (Elt F) → (⟨S3600000, .f32⟩ : BufTy).Contents (Elt F) → (⟨S3600000, .f32⟩ : BufTy).Contents (Elt F)),
    StableHlo.unary main_v29 main_v30 (Host.rsqrt : (⟨S3600000, .f32⟩ : BufTy).Contents (Elt F) → (⟨S3600000, .f32⟩ : BufTy).Contents (Elt F)),
    StableHlo.binary main_v20 main_v30 main_v31 (mulf : (⟨S3600000, .f32⟩ : BufTy).Contents (Elt F) → (⟨S3600000, .f32⟩ : BufTy).Contents (Elt F) → (⟨S3600000, .f32⟩ : BufTy).Contents (Elt F)),
    StableHlo.nullary main_c_7 (constantI S_ 32 0#32),
    StableHlo.unary main_c_7 main_v32 (broadcastInDim S3600000 ![] bcast_S_S3600000 : (⟨S_, .i32⟩ : BufTy).Contents (Elt F) → (⟨S3600000, .i32⟩ : BufTy).Contents (Elt F)),
    StableHlo.binary main_v5 main_v32 main_v33 (cmpi .slt : (⟨S3600000, .i32⟩ : BufTy).Contents (Elt F) → (⟨S3600000, .i32⟩ : BufTy).Contents (Elt F) → (⟨S3600000, .i1⟩ : BufTy).Contents (Elt F)),
    StableHlo.nullary main_c_8 (constantI S_ 32 100002#32),
    StableHlo.unary main_c_8 main_v34 (broadcastInDim S3600000 ![] bcast_S_S3600000 : (⟨S_, .i32⟩ : BufTy).Contents (Elt F) → (⟨S3600000, .i32⟩ : BufTy).Contents (Elt F)),
    StableHlo.binary main_v5 main_v34 main_v35 (addi : (⟨S3600000, .i32⟩ : BufTy).Contents (Elt F) → (⟨S3600000, .i32⟩ : BufTy).Contents (Elt F) → (⟨S3600000, .i32⟩ : BufTy).Contents (Elt F)),
    StableHlo.ternary main_v33 main_v35 main_v5 main_v36 (select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)),
    StableHlo.unary main_v36 main_v37 (broadcastInDim S3600000x1 ![0] bcast_S3600000_S3600000x1_0 : (⟨S3600000, .i32⟩ : BufTy).Contents (Elt F) → (⟨S3600000x1, .i32⟩ : BufTy).Contents (Elt F)),
    StableHlo.binary main_v0 main_v37 main_v38 ((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)),
    StableHlo.unary main_v31 main_v39 (broadcastInDim S3600000x1 ![0] bcast_S3600000_S3600000x1_0 : (⟨S3600000, .f32⟩ : BufTy).Contents (Elt F) → (⟨S3600000x1, .f32⟩ : BufTy).Contents (Elt F)),
    StableHlo.unary main_v39 main_v40 (broadcastInDim S3600000x64 ![0, 1] bcast_S3600000x1_S3600000x64_0_1 : (⟨S3600000x1, .f32⟩ : BufTy).Contents (Elt F) → (⟨S3600000x64, .f32⟩ : BufTy).Contents (Elt F)),
    StableHlo.binary main_v38 main_v40 main_v41 (mulf : (⟨S3600000x64, .f32⟩ : BufTy).Contents (Elt F) → (⟨S3600000x64, .f32⟩ : BufTy).Contents (Elt F) → (⟨S3600000x64, .f32⟩ : BufTy).Contents (Elt F)),
    StableHlo.nullary main_cst_9 (constant S_ .f32 0x00000000#32),
    StableHlo.unary main_cst_9 main_v42 (broadcastInDim S100002x64 ![] bcast_S_S100002x64 : (⟨S_, .f32⟩ : BufTy).Contents (Elt F) → (⟨S100002x64, .f32⟩ : BufTy).Contents (Elt F)),
    StableHlo.unary main_v6 main_v43 (broadcastInDim S3600000x1 ![0] bcast_S3600000_S3600000x1_0 : (⟨S3600000, .i32⟩ : BufTy).Contents (Elt F) → (⟨S3600000x1, .i32⟩ : BufTy).Contents (Elt F)),
    StableHlo.ternary main_v42 main_v43 main_v41 main_v44 ((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)),
    StableHlo.binary main_v0 main_v44 main_v45 (addf : (⟨S100002x64, .f32⟩ : BufTy).Contents (Elt F) → (⟨S100002x64, .f32⟩ : BufTy).Contents (Elt F) → (⟨S100002x64, .f32⟩ : BufTy).Contents (Elt F)),
    StableHlo.nullary main_c_10 (constantI S_ 32 0#32),
    StableHlo.unary main_c_10 main_v46 (broadcastInDim S3600000 ![] bcast_S_S3600000 : (⟨S_, .i32⟩ : BufTy).Contents (Elt F) → (⟨S3600000, .i32⟩ : BufTy).Contents (Elt F)) ]

/-- The kernel program's operations that write `main_v47` … `main_v60` (17 of them). -/
abbrev K4 : List (HloOp τ sig (Elt F)) :=
  [ StableHlo.binary main_v5 main_v46 main_v47 (cmpi .slt : (⟨S3600000, .i32⟩ : BufTy).Contents (Elt F) → (⟨S3600000, .i32⟩ : BufTy).Contents (Elt F) → (⟨S3600000, .i1⟩ : BufTy).Contents (Elt F)),
    StableHlo.nullary main_c_11 (constantI S_ 32 100002#32),
    StableHlo.unary main_c_11 main_v48 (broadcastInDim S3600000 ![] bcast_S_S3600000 : (⟨S_, .i32⟩ : BufTy).Contents (Elt F) → (⟨S3600000, .i32⟩ : BufTy).Contents (Elt F)),
    StableHlo.binary main_v5 main_v48 main_v49 (addi : (⟨S3600000, .i32⟩ : BufTy).Contents (Elt F) → (⟨S3600000, .i32⟩ : BufTy).Contents (Elt F) → (⟨S3600000, .i32⟩ : BufTy).Contents (Elt F)),
    StableHlo.ternary main_v47 main_v49 main_v5 main_v50 (select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)),
    StableHlo.unary main_v50 main_v51 (broadcastInDim S3600000x1 ![0] bcast_S3600000_S3600000x1_0 : (⟨S3600000, .i32⟩ : BufTy).Contents (Elt F) → (⟨S3600000x1, .i32⟩ : BufTy).Contents (Elt F)),
    StableHlo.binary main_v44 main_v51 main_v52 ((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)),
    StableHlo.unary main_v31 main_v53 (broadcastInDim S3600000x1 ![0] bcast_S3600000_S3600000x1_0 : (⟨S3600000, .f32⟩ : BufTy).Contents (Elt F) → (⟨S3600000x1, .f32⟩ : BufTy).Contents (Elt F)),
    StableHlo.unary main_v53 main_v54 (broadcastInDim S3600000x64 ![0, 1] bcast_S3600000x1_S3600000x64_0_1 : (⟨S3600000x1, .f32⟩ : BufTy).Contents (Elt F) → (⟨S3600000x64, .f32⟩ : BufTy).Contents (Elt F)),
    StableHlo.binary main_v52 main_v54 main_v55 (mulf : (⟨S3600000x64, .f32⟩ : BufTy).Contents (Elt F) → (⟨S3600000x64, .f32⟩ : BufTy).Contents (Elt F) → (⟨S3600000x64, .f32⟩ : BufTy).Contents (Elt F)),
    StableHlo.nullary main_cst_12 (constant S_ .f32 0x00000000#32),
    StableHlo.unary main_cst_12 main_v56 (broadcastInDim S100002x64 ![] bcast_S_S100002x64 : (⟨S_, .f32⟩ : BufTy).Contents (Elt F) → (⟨S100002x64, .f32⟩ : BufTy).Contents (Elt F)),
    StableHlo.unary main_v6 main_v57 (broadcastInDim S3600000x1 ![0] bcast_S3600000_S3600000x1_0 : (⟨S3600000, .i32⟩ : BufTy).Contents (Elt F) → (⟨S3600000x1, .i32⟩ : BufTy).Contents (Elt F)),
    StableHlo.ternary main_v56 main_v57 main_v55 main_v58 ((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)),
    StableHlo.binary main_v45 main_v58 main_v59 (addf : (⟨S100002x64, .f32⟩ : BufTy).Contents (Elt F) → (⟨S100002x64, .f32⟩ : BufTy).Contents (Elt F) → (⟨S100002x64, .f32⟩ : BufTy).Contents (Elt F)),
    StableHlo.nullary main_cst_13 (constant S_ .f32 0x40400000#32),
    StableHlo.unary main_cst_13 main_v60 (broadcastInDim S100002x64 ![] bcast_S_S100002x64 : (⟨S_, .f32⟩ : BufTy).Contents (Elt F) → (⟨S100002x64, .f32⟩ : BufTy).Contents (Elt F)) ]

/-- The kernel program's first 77 host operations are these five stretches in order. -/
theorem hostOps0_head : (hostOps0 : List (HloOp τ sig (Elt F))).take 77 = K0 ++ K1 ++ K2 ++ K3 ++ K4 := rfl

/-- Statement %0 as a function of the values live before its stretch. -/
def Kx0 (a0 : FVec F S60001x64 .f32) (a1 : FVec F S40001x64 .f32) : FVec F S100002x64 .f32 :=
  (((fun a b => concatenate S100002x64 0 [⟨S60001x64, a⟩, ⟨S40001x64, b⟩] concatenates_S60001x64_S40001x64_S100002x64_d0) : (⟨S60001x64, .f32⟩ : BufTy).Contents (Elt F) → (⟨S40001x64, .f32⟩ : BufTy).Contents (Elt F) → (⟨S100002x64, .f32⟩ : BufTy).Contents (Elt F)) a0 a1)

/-- Statement %1 as a function of the values live before its stretch. -/
def Kx1 (a3 : IVec S3x600000 32) : IVec S1800000 32 :=
  (shapeCast S1800000 a3 shapeCasts_S3x600000_S1800000)

/-- Statement %4 as a function of the values live before its stretch. -/
def Kx4 (a4 : IVec S3x600000 32) : IVec S1800000 32 :=
  ((addi : (⟨S1800000, .i32⟩ : BufTy).Contents (Elt F) → (⟨S1800000, .i32⟩ : BufTy).Contents (Elt F) → (⟨S1800000, .i32⟩ : BufTy).Contents (Elt F)) (shapeCast S1800000 a4 shapeCasts_S3x600000_S1800000) ((broadcastInDim S1800000 ![] bcast_S_S1800000 : (⟨S_, .i32⟩ : BufTy).Contents (Elt F) → (⟨S1800000, .i32⟩ : BufTy).Contents (Elt F)) (constantI S_ 32 60001#32)))

/-- Statement %5 as a function of the values live before its stretch. -/
def Kx5 (x1 : IVec S1800000 32) (x4 : IVec S1800000 32) : IVec S3600000 32 :=
  (((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)) x1 x4)

/-- Statement %6 as a function of the values live before its stretch. -/
def Kx6 (x1 : IVec S1800000 32) (x4 : IVec S1800000 32) : IVec S3600000 32 :=
  (((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)) x4 x1)

/-- Statement %10 as a function of the values live before its stretch. -/
def Kx10 (x5 : IVec S3600000 32) : FVec F S100002 .f32 :=
  (((fun x i u => Host.scatterAdd scatter_S100002_S3600000x1_S3600000_n_0_0_1 x i u) : (⟨S100002, .f32⟩ : BufTy).Contents (Elt F) → (⟨S3600000x1, .i32⟩ : BufTy).Contents (Elt F) → (⟨S3600000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x5) ((broadcastInDim S3600000 ![] bcast_S_S3600000 : (⟨S_, .f32⟩ : BufTy).Contents (Elt F) → (⟨S3600000, .f32⟩ : BufTy).Contents (Elt F)) (constant (F := F) S_ .f32 0x3F800000#32)))

/-- Statement %20 as a function of the values live before its stretch. -/
def Kx20 (x5 : IVec S3600000 32) : FVec F S3600000 .f32 :=
  ((Host.rsqrt : (⟨S3600000, .f32⟩ : BufTy).Contents (Elt F) → (⟨S3600000, .f32⟩ : BufTy).Contents (Elt F)) ((maximumf : (⟨S3600000, .f32⟩ : BufTy).Contents (Elt F) → (⟨S3600000, .f32⟩ : BufTy).Contents (Elt F) → (⟨S3600000, .f32⟩ : BufTy).Contents (Elt F)) (((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)) (Kx10 (F := F) x5) ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000 ![] bcast_S_S3600000 : (⟨S_, .f32⟩ : BufTy).Contents (Elt F) → (⟨S3600000, .f32⟩ : BufTy).Contents (Elt F)) (constant (F := F) S_ .f32 0x3F800000#32))))

/-- Statement %25 as a function of the values live before its stretch. -/
def Kx25 (x1 : IVec S1800000 32) (x4 : IVec S1800000 32) : IVec S3600000 32 :=
  ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) (Kx6 (F := F) x1 x4) ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) (Kx6 (F := F) x1 x4) ((broadcastInDim S3600000 ![] bcast_S_S3600000 : (⟨S_, .i32⟩ : BufTy).Contents (Elt F) → (⟨S3600000, .i32⟩ : BufTy).Contents (Elt F)) (constantI S_ 32 100002#32))) (Kx6 (F := F) x1 x4))

/-- Statement %31 as a function of the values live before its stretch. -/
def Kx31 (x10 : FVec F S100002 .f32) (x20 : FVec F S3600000 .f32) (x25 : IVec S3600000 32) : FVec F S3600000 .f32 :=
  ((mulf : (⟨S3600000, .f32⟩ : BufTy).Contents (Elt F) → (⟨S3600000, .f32⟩ : BufTy).Contents (Elt F) → (⟨S3600000, .f32⟩ : BufTy).Contents (Elt F)) x20 ((Host.rsqrt : (⟨S3600000, .f32⟩ : BufTy).Contents (Elt F) → (⟨S3600000, .f32⟩ : BufTy).Contents (Elt F)) ((maximumf : (⟨S3600000, .f32⟩ : BufTy).Contents (Elt F) → (⟨S3600000, .f32⟩ : BufTy).Contents (Elt F) → (⟨S3600000, .f32⟩ : BufTy).Contents (Elt F)) (((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)) x10 ((broadcastInDim S3600000x1 ![0] bcast_S3600000_S3600000x1_0 : (⟨S3600000, .i32⟩ : BufTy).Contents (Elt F) → (⟨S3600000x1, .i32⟩ : BufTy).Contents (Elt F)) x25)) ((broadcastInDim S3600000 ![] bcast_S_S3600000 : (⟨S_, .f32⟩ : BufTy).Contents (Elt F) → (⟨S3600000, .f32⟩ : BufTy).Contents (Elt F)) (constant (F := F) S_ .f32 0x3F800000#32)))))

/-- Statement %44 as a function of the values live before its stretch. -/
def Kx44 (x0 : FVec F S100002x64 .f32) (x5 : IVec S3600000 32) (x6 : IVec S3600000 32) (x10 : FVec F S100002 .f32) (x20 : FVec F S3600000 .f32) (x25 : IVec S3600000 32) : FVec F S100002x64 .f32 :=
  (((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x6) ((mulf : (⟨S3600000x64, .f32⟩ : BufTy).Contents (Elt F) → (⟨S3600000x64, .f32⟩ : BufTy).Contents (Elt F) → (⟨S3600000x64, .f32⟩ : BufTy).Contents (Elt F)) (((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)) x0 ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000x64 ![0, 1] bcast_S3600000x1_S3600000x64_0_1 : (⟨S3600000x1, .f32⟩ : BufTy).Contents (Elt F) → (⟨S3600000x64, .f32⟩ : BufTy).Contents (Elt F)) ((broadcastInDim S3600000x1 ![0] bcast_S3600000_S3600000x1_0 : (⟨S3600000, .f32⟩ : BufTy).Contents (Elt F) → (⟨S3600000x1, .f32⟩ : BufTy).Contents (Elt F)) (Kx31 (F := F) x10 x20 x25)))))

/-- Statement %45 as a function of the values live before its stretch. -/
def Kx45 (x0 : FVec F S100002x64 .f32) (x5 : IVec S3600000 32) (x6 : IVec S3600000 32) (x10 : FVec F S100002 .f32) (x20 : FVec F S3600000 .f32) (x25 : IVec S3600000 32) : FVec F S100002x64 .f32 :=
  ((addf : (⟨S100002x64, .f32⟩ : BufTy).Contents (Elt F) → (⟨S100002x64, .f32⟩ : BufTy).Contents (Elt F) → (⟨S100002x64, .f32⟩ : BufTy).Contents (Elt F)) x0 (Kx44 (F := F) x0 x5 x6 x10 x20 x25))

/-- Statement %46 as a function of the values live before its stretch. -/
def Kx46 : IVec S3600000 32 :=
  ((broadcastInDim S3600000 ![] bcast_S_S3600000 : (⟨S_, .i32⟩ : BufTy).Contents (Elt F) → (⟨S3600000, .i32⟩ : BufTy).Contents (Elt F)) (constantI S_ 32 0#32))

/-- Statement %59 as a function of the values live before its stretch. -/
def Kx59 (x5 : IVec S3600000 32) (x6 : IVec S3600000 32) (x31 : FVec F S3600000 .f32) (x44 : FVec F S100002x64 .f32) (x45 : FVec F S100002x64 .f32) (x46 : IVec S3600000 32) : FVec F S100002x64 .f32 :=
  ((addf : (⟨S100002x64, .f32⟩ : BufTy).Contents (Elt F) → (⟨S100002x64, .f32⟩ : BufTy).Contents (Elt F) → (⟨S100002x64, .f32⟩ : BufTy).Contents (Elt F)) x45 (((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x6) ((mulf : (⟨S3600000x64, .f32⟩ : BufTy).Contents (Elt F) → (⟨S3600000x64, .f32⟩ : BufTy).Contents (Elt F) → (⟨S3600000x64, .f32⟩ : BufTy).Contents (Elt F)) (((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)) x44 ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 x46) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000x64 ![0, 1] bcast_S3600000x1_S3600000x64_0_1 : (⟨S3600000x1, .f32⟩ : BufTy).Contents (Elt F) → (⟨S3600000x64, .f32⟩ : BufTy).Contents (Elt F)) ((broadcastInDim S3600000x1 ![0] bcast_S3600000_S3600000x1_0 : (⟨S3600000, .f32⟩ : BufTy).Contents (Elt F) → (⟨S3600000x1, .f32⟩ : BufTy).Contents (Elt F)) x31)))))

/-- Statement %60 as a function of the values live before its stretch. -/
def Kx60 : FVec F S100002x64 .f32 :=
  ((broadcastInDim S100002x64 ![] bcast_S_S100002x64 : (⟨S_, .f32⟩ : BufTy).Contents (Elt F) → (⟨S100002x64, .f32⟩ : BufTy).Contents (Elt F)) (constant (F := F) S_ .f32 0x40400000#32))

set_option maxHeartbeats 4000000 in
theorem Kread_x0 (V : Valuation τ sig (Elt F)) :
    after K0 V (Proc.devRef .tc main_v0) = Kx0 (F := F) (V (Proc.devRef .tc main_arg0)) (V (Proc.devRef .tc main_arg1)) := by
  after_results_simp
  rfl

set_option maxHeartbeats 4000000 in
theorem Kread_x1 (V : Valuation τ sig (Elt F)) :
    after K0 V (Proc.devRef .tc main_v1) = Kx1 (V (Proc.devRef .tc main_arg3)) := by
  after_results_simp
  rfl

set_option maxHeartbeats 4000000 in
theorem Kread_x4 (V : Valuation τ sig (Elt F)) :
    after K0 V (Proc.devRef .tc main_v4) = Kx4 (F := F) (V (Proc.devRef .tc main_arg4)) := by
  after_results_simp
  rfl

set_option maxHeartbeats 4000000 in
theorem Kread_x5 (V : Valuation τ sig (Elt F)) :
    after K1 V (Proc.devRef .tc main_v5) = Kx5 (F := F) (V (Proc.devRef .tc main_v1)) (V (Proc.devRef .tc main_v4)) := by
  after_results_simp
  rfl

set_option maxHeartbeats 4000000 in
theorem Kread_x6 (V : Valuation τ sig (Elt F)) :
    after K2 V (Proc.devRef .tc main_v6) = Kx6 (F := F) (V (Proc.devRef .tc main_v1)) (V (Proc.devRef .tc main_v4)) := by
  after_results_simp
  rfl

set_option maxHeartbeats 4000000 in
theorem Kread_x10 (V : Valuation τ sig (Elt F)) :
    after K2 V (Proc.devRef .tc main_v10) = Kx10 (F := F) (V (Proc.devRef .tc main_v5)) := by
  after_results_simp
  rfl

set_option maxHeartbeats 4000000 in
theorem Kread_x20 (V : Valuation τ sig (Elt F)) :
    after K2 V (Proc.devRef .tc main_v20) = Kx20 (F := F) (V (Proc.devRef .tc main_v5)) := by
  after_results_simp
  rfl

set_option maxHeartbeats 4000000 in
theorem Kread_x25 (V : Valuation τ sig (Elt F)) :
    after K2 V (Proc.devRef .tc main_v25) = Kx25 (F := F) (V (Proc.devRef .tc main_v1)) (V (Proc.devRef .tc main_v4)) := by
  after_results_simp
  rfl

set_option maxHeartbeats 4000000 in
theorem Kread_x31 (V : Valuation τ sig (Elt F)) :
    after K3 V (Proc.devRef .tc main_v31) = Kx31 (F := F) (V (Proc.devRef .tc main_v10)) (V (Proc.devRef .tc main_v20)) (V (Proc.devRef .tc main_v25)) := by
  after_results_simp
  rfl

set_option maxHeartbeats 4000000 in
theorem Kread_x44 (V : Valuation τ sig (Elt F)) :
    after K3 V (Proc.devRef .tc main_v44) = Kx44 (F := F) (V (Proc.devRef .tc main_v0)) (V (Proc.devRef .tc main_v5)) (V (Proc.devRef .tc main_v6)) (V (Proc.devRef .tc main_v10)) (V (Proc.devRef .tc main_v20)) (V (Proc.devRef .tc main_v25)) := by
  after_results_simp
  rfl

set_option maxHeartbeats 4000000 in
theorem Kread_x45 (V : Valuation τ sig (Elt F)) :
    after K3 V (Proc.devRef .tc main_v45) = Kx45 (F := F) (V (Proc.devRef .tc main_v0)) (V (Proc.devRef .tc main_v5)) (V (Proc.devRef .tc main_v6)) (V (Proc.devRef .tc main_v10)) (V (Proc.devRef .tc main_v20)) (V (Proc.devRef .tc main_v25)) := by
  after_results_simp
  rfl

set_option maxHeartbeats 4000000 in
theorem Kread_x46 (V : Valuation τ sig (Elt F)) :
    after K3 V (Proc.devRef .tc main_v46) = Kx46 (F := F) := by
  after_results_simp
  rfl

set_option maxHeartbeats 4000000 in
theorem Kread_x59 (V : Valuation τ sig (Elt F)) :
    after K4 V (Proc.devRef .tc main_v59) = Kx59 (F := F) (V (Proc.devRef .tc main_v5)) (V (Proc.devRef .tc main_v6)) (V (Proc.devRef .tc main_v31)) (V (Proc.devRef .tc main_v44)) (V (Proc.devRef .tc main_v45)) (V (Proc.devRef .tc main_v46)) := by
  after_results_simp
  rfl

set_option maxHeartbeats 4000000 in
theorem Kread_x60 (V : Valuation τ sig (Elt F)) :
    after K4 V (Proc.devRef .tc main_v60) = Kx60 (F := F) := by
  after_results_simp
  rfl

theorem Kkeep1_x0 (V : Valuation τ sig (Elt F)) : after K1 V (Proc.devRef .tc main_v0) = V (Proc.devRef .tc main_v0) := by after_results_simp
theorem Kkeep1_x1 (V : Valuation τ sig (Elt F)) : after K1 V (Proc.devRef .tc main_v1) = V (Proc.devRef .tc main_v1) := by after_results_simp
theorem Kkeep1_x4 (V : Valuation τ sig (Elt F)) : after K1 V (Proc.devRef .tc main_v4) = V (Proc.devRef .tc main_v4) := by after_results_simp
theorem Kkeep2_x0 (V : Valuation τ sig (Elt F)) : after K2 V (Proc.devRef .tc main_v0) = V (Proc.devRef .tc main_v0) := by after_results_simp
theorem Kkeep2_x5 (V : Valuation τ sig (Elt F)) : after K2 V (Proc.devRef .tc main_v5) = V (Proc.devRef .tc main_v5) := by after_results_simp
theorem Kkeep3_x5 (V : Valuation τ sig (Elt F)) : after K3 V (Proc.devRef .tc main_v5) = V (Proc.devRef .tc main_v5) := by after_results_simp
theorem Kkeep3_x6 (V : Valuation τ sig (Elt F)) : after K3 V (Proc.devRef .tc main_v6) = V (Proc.devRef .tc main_v6) := by after_results_simp

end KernelSide

/-! ## The reference program's side -/

section ReferenceSide
open Cert.ReferenceIdeal Cert.ReferenceIdeal.Gen Cert.ReferenceIdeal.RefRun

/-- Statement %0 as a function of the values live before its stretch. -/
def Rx0 (a0 : FVec F S60001x64 .f32) (a1 : FVec F S40001x64 .f32) : FVec F S100002x64 .f32 :=
  (((fun a b => concatenate S100002x64 0 [⟨S60001x64, a⟩, ⟨S40001x64, b⟩] concatenates_S60001x64_S40001x64_S100002x64_d0) : (⟨S60001x64, .f32⟩ : BufTy).Contents (Elt F) → (⟨S40001x64, .f32⟩ : BufTy).Contents (Elt F) → (⟨S100002x64, .f32⟩ : BufTy).Contents (Elt F)) a0 a1)

/-- Statement %1 as a function of the values live before its stretch. -/
def Rx1 (a3 : IVec S3x600000 32) : IVec S1800000 32 :=
  (shapeCast S1800000 a3 shapeCasts_S3x600000_S1800000)

/-- Statement %4 as a function of the values live before its stretch. -/
def Rx4 (a4 : IVec S3x600000 32) : IVec S1800000 32 :=
  ((addi : (⟨S1800000, .i32⟩ : BufTy).Contents (Elt F) → (⟨S1800000, .i32⟩ : BufTy).Contents (Elt F) → (⟨S1800000, .i32⟩ : BufTy).Contents (Elt F)) (shapeCast S1800000 a4 shapeCasts_S3x600000_S1800000) ((broadcastInDim S1800000 ![] bcast_S_S1800000 : (⟨S_, .i32⟩ : BufTy).Contents (Elt F) → (⟨S1800000, .i32⟩ : BufTy).Contents (Elt F)) (constantI S_ 32 60001#32)))

/-- Statement %5 as a function of the values live before its stretch. -/
def Rx5 (x1 : IVec S1800000 32) (x4 : IVec S1800000 32) : IVec S3600000 32 :=
  (((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)) x1 x4)

/-- Statement %6 as a function of the values live before its stretch. -/
def Rx6 (x1 : IVec S1800000 32) (x4 : IVec S1800000 32) : IVec S3600000 32 :=
  (((fun a b => concatenate S3600000 0 [⟨S1800000, a⟩, ⟨S1800000, b⟩] concatenates_S1800000_S1800000_S3600000_d0) : (⟨S1800000, .i32⟩ : BufTy).Contents (Elt F) → (⟨S1800000, .i32⟩ : BufTy).Contents (Elt F) → (⟨S3600000, .i32⟩ : BufTy).Contents (Elt F)) x4 x1)

/-- Statement %10 as a function of the values live before its stretch. -/
def Rx10 (x5 : IVec S3600000 32) : FVec F S100002 .f32 :=
  (((fun x i u => Host.scatterAdd scatter_S100002_S3600000x1_S3600000_n_0_0_1 x i u) : (⟨S100002, .f32⟩ : BufTy).Contents (Elt F) → (⟨S3600000x1, .i32⟩ : BufTy).Contents (Elt F) → (⟨S3600000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x5) ((broadcastInDim S3600000 ![] bcast_S_S3600000 : (⟨S_, .f32⟩ : BufTy).Contents (Elt F) → (⟨S3600000, .f32⟩ : BufTy).Contents (Elt F)) (constant (F := F) S_ .f32 0x3F800000#32)))

/-- Statement %20 as a function of the values live before its stretch. -/
def Rx20 (x5 : IVec S3600000 32) : FVec F S3600000 .f32 :=
  ((Host.rsqrt : (⟨S3600000, .f32⟩ : BufTy).Contents (Elt F) → (⟨S3600000, .f32⟩ : BufTy).Contents (Elt F)) ((maximumf : (⟨S3600000, .f32⟩ : BufTy).Contents (Elt F) → (⟨S3600000, .f32⟩ : BufTy).Contents (Elt F) → (⟨S3600000, .f32⟩ : BufTy).Contents (Elt F)) (((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)) (Rx10 (F := F) x5) ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000 ![] bcast_S_S3600000 : (⟨S_, .f32⟩ : BufTy).Contents (Elt F) → (⟨S3600000, .f32⟩ : BufTy).Contents (Elt F)) (constant (F := F) S_ .f32 0x3F800000#32))))

/-- Statement %25 as a function of the values live before its stretch. -/
def Rx25 (x1 : IVec S1800000 32) (x4 : IVec S1800000 32) : IVec S3600000 32 :=
  ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) (Rx6 (F := F) x1 x4) ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) (Rx6 (F := F) x1 x4) ((broadcastInDim S3600000 ![] bcast_S_S3600000 : (⟨S_, .i32⟩ : BufTy).Contents (Elt F) → (⟨S3600000, .i32⟩ : BufTy).Contents (Elt F)) (constantI S_ 32 100002#32))) (Rx6 (F := F) x1 x4))

/-- Statement %31 as a function of the values live before its stretch. -/
def Rx31 (x10 : FVec F S100002 .f32) (x20 : FVec F S3600000 .f32) (x25 : IVec S3600000 32) : FVec F S3600000 .f32 :=
  ((mulf : (⟨S3600000, .f32⟩ : BufTy).Contents (Elt F) → (⟨S3600000, .f32⟩ : BufTy).Contents (Elt F) → (⟨S3600000, .f32⟩ : BufTy).Contents (Elt F)) x20 ((Host.rsqrt : (⟨S3600000, .f32⟩ : BufTy).Contents (Elt F) → (⟨S3600000, .f32⟩ : BufTy).Contents (Elt F)) ((maximumf : (⟨S3600000, .f32⟩ : BufTy).Contents (Elt F) → (⟨S3600000, .f32⟩ : BufTy).Contents (Elt F) → (⟨S3600000, .f32⟩ : BufTy).Contents (Elt F)) (((fun x i => Host.gather gather_S100002_S3600000x1_S3600000_n_0_n_n_0_1_1 x i) : (⟨S100002, .f32⟩ : BufTy).Contents (Elt F) → (⟨S3600000x1, .i32⟩ : BufTy).Contents (Elt F) → (⟨S3600000, .f32⟩ : BufTy).Contents (Elt F)) x10 ((broadcastInDim S3600000x1 ![0] bcast_S3600000_S3600000x1_0 : (⟨S3600000, .i32⟩ : BufTy).Contents (Elt F) → (⟨S3600000x1, .i32⟩ : BufTy).Contents (Elt F)) x25)) ((broadcastInDim S3600000 ![] bcast_S_S3600000 : (⟨S_, .f32⟩ : BufTy).Contents (Elt F) → (⟨S3600000, .f32⟩ : BufTy).Contents (Elt F)) (constant (F := F) S_ .f32 0x3F800000#32)))))

/-- Statement %44 as a function of the values live before its stretch. -/
def Rx44 (x0 : FVec F S100002x64 .f32) (x5 : IVec S3600000 32) (x6 : IVec S3600000 32) (x10 : FVec F S100002 .f32) (x20 : FVec F S3600000 .f32) (x25 : IVec S3600000 32) : FVec F S100002x64 .f32 :=
  (((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x6) ((mulf : (⟨S3600000x64, .f32⟩ : BufTy).Contents (Elt F) → (⟨S3600000x64, .f32⟩ : BufTy).Contents (Elt F) → (⟨S3600000x64, .f32⟩ : BufTy).Contents (Elt F)) (((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)) x0 ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 ((broadcastInDim S3600000 ![] bcast_S_S3600000 : (⟨S_, .i32⟩ : BufTy).Contents (Elt F) → (⟨S3600000, .i32⟩ : BufTy).Contents (Elt F)) (constantI S_ 32 0#32))) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000x64 ![0, 1] bcast_S3600000x1_S3600000x64_0_1 : (⟨S3600000x1, .f32⟩ : BufTy).Contents (Elt F) → (⟨S3600000x64, .f32⟩ : BufTy).Contents (Elt F)) ((broadcastInDim S3600000x1 ![0] bcast_S3600000_S3600000x1_0 : (⟨S3600000, .f32⟩ : BufTy).Contents (Elt F) → (⟨S3600000x1, .f32⟩ : BufTy).Contents (Elt F)) (Rx31 (F := F) x10 x20 x25)))))

/-- Statement %45 as a function of the values live before its stretch. -/
def Rx45 (x0 : FVec F S100002x64 .f32) (x5 : IVec S3600000 32) (x6 : IVec S3600000 32) (x10 : FVec F S100002 .f32) (x20 : FVec F S3600000 .f32) (x25 : IVec S3600000 32) : FVec F S100002x64 .f32 :=
  ((addf : (⟨S100002x64, .f32⟩ : BufTy).Contents (Elt F) → (⟨S100002x64, .f32⟩ : BufTy).Contents (Elt F) → (⟨S100002x64, .f32⟩ : BufTy).Contents (Elt F)) x0 (Rx44 (F := F) x0 x5 x6 x10 x20 x25))

/-- Statement %46 as a function of the values live before its stretch. -/
def Rx46 : IVec S3600000 32 :=
  ((broadcastInDim S3600000 ![] bcast_S_S3600000 : (⟨S_, .i32⟩ : BufTy).Contents (Elt F) → (⟨S3600000, .i32⟩ : BufTy).Contents (Elt F)) (constantI S_ 32 0#32))

/-- Statement %59 as a function of the values live before its stretch. -/
def Rx59 (x5 : IVec S3600000 32) (x6 : IVec S3600000 32) (x31 : FVec F S3600000 .f32) (x44 : FVec F S100002x64 .f32) (x45 : FVec F S100002x64 .f32) (x46 : IVec S3600000 32) : FVec F S100002x64 .f32 :=
  ((addf : (⟨S100002x64, .f32⟩ : BufTy).Contents (Elt F) → (⟨S100002x64, .f32⟩ : BufTy).Contents (Elt F) → (⟨S100002x64, .f32⟩ : BufTy).Contents (Elt F)) x45 (((fun x i u => Host.scatterAdd scatter_S100002x64_S3600000x1_S3600000x64_1_0_0_1 x i u) : (⟨S100002x64, .f32⟩ : BufTy).Contents (Elt F) → (⟨S3600000x1, .i32⟩ : BufTy).Contents (Elt F) → (⟨S3600000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S3600000x1 ![0] bcast_S3600000_S3600000x1_0 : (⟨S3600000, .i32⟩ : BufTy).Contents (Elt F) → (⟨S3600000x1, .i32⟩ : BufTy).Contents (Elt F)) x6) ((mulf : (⟨S3600000x64, .f32⟩ : BufTy).Contents (Elt F) → (⟨S3600000x64, .f32⟩ : BufTy).Contents (Elt F) → (⟨S3600000x64, .f32⟩ : BufTy).Contents (Elt F)) (((fun x i => Host.gather gather_S100002x64_S3600000x1_S3600000x64_1_0_n_n_0_1_164 x i) : (⟨S100002x64, .f32⟩ : BufTy).Contents (Elt F) → (⟨S3600000x1, .i32⟩ : BufTy).Contents (Elt F) → (⟨S3600000x64, .f32⟩ : BufTy).Contents (Elt F)) x44 ((broadcastInDim S3600000x1 ![0] bcast_S3600000_S3600000x1_0 : (⟨S3600000, .i32⟩ : BufTy).Contents (Elt F) → (⟨S3600000x1, .i32⟩ : BufTy).Contents (Elt F)) ((select : (⟨S3600000, .i1⟩ : BufTy).Contents (Elt F) → (⟨S3600000, .i32⟩ : BufTy).Contents (Elt F) → (⟨S3600000, .i32⟩ : BufTy).Contents (Elt F) → (⟨S3600000, .i32⟩ : BufTy).Contents (Elt F)) ((cmpi .slt : (⟨S3600000, .i32⟩ : BufTy).Contents (Elt F) → (⟨S3600000, .i32⟩ : BufTy).Contents (Elt F) → (⟨S3600000, .i1⟩ : BufTy).Contents (Elt F)) x5 x46) ((addi : (⟨S3600000, .i32⟩ : BufTy).Contents (Elt F) → (⟨S3600000, .i32⟩ : BufTy).Contents (Elt F) → (⟨S3600000, .i32⟩ : BufTy).Contents (Elt F)) x5 ((broadcastInDim S3600000 ![] bcast_S_S3600000 : (⟨S_, .i32⟩ : BufTy).Contents (Elt F) → (⟨S3600000, .i32⟩ : BufTy).Contents (Elt F)) (constantI S_ 32 100002#32))) x5))) ((broadcastInDim S3600000x64 ![0, 1] bcast_S3600000x1_S3600000x64_0_1 : (⟨S3600000x1, .f32⟩ : BufTy).Contents (Elt F) → (⟨S3600000x64, .f32⟩ : BufTy).Contents (Elt F)) ((broadcastInDim S3600000x1 ![0] bcast_S3600000_S3600000x1_0 : (⟨S3600000, .f32⟩ : BufTy).Contents (Elt F) → (⟨S3600000x1, .f32⟩ : BufTy).Contents (Elt F)) x31)))))

/-- Statement %60 as a function of the values live before its stretch. -/
def Rx60 : FVec F S100002x64 .f32 :=
  ((broadcastInDim S100002x64 ![] bcast_S_S100002x64 : (⟨S_, .f32⟩ : BufTy).Contents (Elt F) → (⟨S100002x64, .f32⟩ : BufTy).Contents (Elt F)) (constant (F := F) S_ .f32 0x40400000#32))

set_option maxHeartbeats 4000000 in
theorem Rread_x0 (V : Valuation τ sig (Elt F)) :
    after opsC0 V (Proc.devRef .tc main_v0) = Rx0 (F := F) (V (Proc.devRef .tc main_arg0)) (V (Proc.devRef .tc main_arg1)) := by
  after_results_simp
  rfl

set_option maxHeartbeats 4000000 in
theorem Rread_x1 (V : Valuation τ sig (Elt F)) :
    after opsC0 V (Proc.devRef .tc main_v1) = Rx1 (V (Proc.devRef .tc main_arg3)) := by
  after_results_simp
  rfl

set_option maxHeartbeats 4000000 in
theorem Rread_x4 (V : Valuation τ sig (Elt F)) :
    after opsC0 V (Proc.devRef .tc main_v4) = Rx4 (F := F) (V (Proc.devRef .tc main_arg4)) := by
  after_results_simp
  rfl

set_option maxHeartbeats 4000000 in
theorem Rread_x5 (V : Valuation τ sig (Elt F)) :
    after opsC1 V (Proc.devRef .tc main_v5) = Rx5 (F := F) (V (Proc.devRef .tc main_v1)) (V (Proc.devRef .tc main_v4)) := by
  after_results_simp
  rfl

set_option maxHeartbeats 4000000 in
theorem Rread_x6 (V : Valuation τ sig (Elt F)) :
    after opsC2 V (Proc.devRef .tc main_v6) = Rx6 (F := F) (V (Proc.devRef .tc main_v1)) (V (Proc.devRef .tc main_v4)) := by
  after_results_simp
  rfl

set_option maxHeartbeats 4000000 in
theorem Rread_x10 (V : Valuation τ sig (Elt F)) :
    after opsC2 V (Proc.devRef .tc main_v10) = Rx10 (F := F) (V (Proc.devRef .tc main_v5)) := by
  after_results_simp
  rfl

set_option maxHeartbeats 4000000 in
theorem Rread_x20 (V : Valuation τ sig (Elt F)) :
    after opsC2 V (Proc.devRef .tc main_v20) = Rx20 (F := F) (V (Proc.devRef .tc main_v5)) := by
  after_results_simp
  rfl

set_option maxHeartbeats 4000000 in
theorem Rread_x25 (V : Valuation τ sig (Elt F)) :
    after opsC2 V (Proc.devRef .tc main_v25) = Rx25 (F := F) (V (Proc.devRef .tc main_v1)) (V (Proc.devRef .tc main_v4)) := by
  after_results_simp
  rfl

set_option maxHeartbeats 4000000 in
theorem Rread_x31 (V : Valuation τ sig (Elt F)) :
    after opsC3 V (Proc.devRef .tc main_v31) = Rx31 (F := F) (V (Proc.devRef .tc main_v10)) (V (Proc.devRef .tc main_v20)) (V (Proc.devRef .tc main_v25)) := by
  after_results_simp
  rfl

set_option maxHeartbeats 4000000 in
theorem Rread_x44 (V : Valuation τ sig (Elt F)) :
    after opsC3 V (Proc.devRef .tc main_v44) = Rx44 (F := F) (V (Proc.devRef .tc main_v0)) (V (Proc.devRef .tc main_v5)) (V (Proc.devRef .tc main_v6)) (V (Proc.devRef .tc main_v10)) (V (Proc.devRef .tc main_v20)) (V (Proc.devRef .tc main_v25)) := by
  after_results_simp
  rfl

set_option maxHeartbeats 4000000 in
theorem Rread_x45 (V : Valuation τ sig (Elt F)) :
    after opsC3 V (Proc.devRef .tc main_v45) = Rx45 (F := F) (V (Proc.devRef .tc main_v0)) (V (Proc.devRef .tc main_v5)) (V (Proc.devRef .tc main_v6)) (V (Proc.devRef .tc main_v10)) (V (Proc.devRef .tc main_v20)) (V (Proc.devRef .tc main_v25)) := by
  after_results_simp
  rfl

set_option maxHeartbeats 4000000 in
theorem Rread_x46 (V : Valuation τ sig (Elt F)) :
    after opsC3 V (Proc.devRef .tc main_v46) = Rx46 (F := F) := by
  after_results_simp
  rfl

set_option maxHeartbeats 4000000 in
theorem Rread_x59 (V : Valuation τ sig (Elt F)) :
    after opsC4 V (Proc.devRef .tc main_v59) = Rx59 (F := F) (V (Proc.devRef .tc main_v5)) (V (Proc.devRef .tc main_v6)) (V (Proc.devRef .tc main_v31)) (V (Proc.devRef .tc main_v44)) (V (Proc.devRef .tc main_v45)) (V (Proc.devRef .tc main_v46)) := by
  after_results_simp
  rfl

set_option maxHeartbeats 4000000 in
theorem Rread_x60 (V : Valuation τ sig (Elt F)) :
    after opsC4 V (Proc.devRef .tc main_v60) = Rx60 (F := F) := by
  after_results_simp
  rfl

theorem Rkeep1_x0 (V : Valuation τ sig (Elt F)) : after opsC1 V (Proc.devRef .tc main_v0) = V (Proc.devRef .tc main_v0) := opsC1_keep V main_v0 (by decide)
theorem Rkeep1_x1 (V : Valuation τ sig (Elt F)) : after opsC1 V (Proc.devRef .tc main_v1) = V (Proc.devRef .tc main_v1) := opsC1_keep V main_v1 (by decide)
theorem Rkeep1_x4 (V : Valuation τ sig (Elt F)) : after opsC1 V (Proc.devRef .tc main_v4) = V (Proc.devRef .tc main_v4) := opsC1_keep V main_v4 (by decide)
theorem Rkeep2_x0 (V : Valuation τ sig (Elt F)) : after opsC2 V (Proc.devRef .tc main_v0) = V (Proc.devRef .tc main_v0) := opsC2_keep V main_v0 (by decide)
theorem Rkeep2_x5 (V : Valuation τ sig (Elt F)) : after opsC2 V (Proc.devRef .tc main_v5) = V (Proc.devRef .tc main_v5) := opsC2_keep V main_v5 (by decide)
theorem Rkeep3_x5 (V : Valuation τ sig (Elt F)) : after opsC3 V (Proc.devRef .tc main_v5) = V (Proc.devRef .tc main_v5) := opsC3_keep V main_v5 (by decide)
theorem Rkeep3_x6 (V : Valuation τ sig (Elt F)) : after opsC3 V (Proc.devRef .tc main_v6) = V (Proc.devRef .tc main_v6) := opsC3_keep V main_v6 (by decide)

end ReferenceSide

/-! ## The two sides' functions are the same -/

theorem x0_eq : (Kx0 (F := F)) = Rx0 (F := F) := by
  funext a0 a1
  rfl

theorem x1_eq : (Kx1) = Rx1 := by
  funext a3
  rfl

theorem x4_eq : (Kx4 (F := F)) = Rx4 (F := F) := by
  funext a4
  rfl

theorem x5_eq : (Kx5 (F := F)) = Rx5 (F := F) := by
  funext x1 x4
  rfl

theorem x6_eq : (Kx6 (F := F)) = Rx6 (F := F) := by
  funext x1 x4
  rfl

theorem x10_eq : (Kx10 (F := F)) = Rx10 (F := F) := by
  funext x5
  rfl

theorem x20_eq : (Kx20 (F := F)) = Rx20 (F := F) := by
  funext x5
  rfl

theorem x25_eq : (Kx25 (F := F)) = Rx25 (F := F) := by
  funext x1 x4
  rfl

theorem x31_eq : (Kx31 (F := F)) = Rx31 (F := F) := by
  funext x10 x20 x25
  rfl

theorem x44_eq : (Kx44 (F := F)) = Rx44 (F := F) := by
  funext x0 x5 x6 x10 x20 x25
  rfl

theorem x45_eq : (Kx45 (F := F)) = Rx45 (F := F) := by
  funext x0 x5 x6 x10 x20 x25
  rfl

theorem x46_eq : (Kx46 (F := F)) = Rx46 (F := F) := by
  rfl

theorem x59_eq : (Kx59 (F := F)) = Rx59 (F := F) := by
  funext x5 x6 x31 x44 x45 x46
  rfl

theorem x60_eq : (Kx60 (F := F)) = Rx60 (F := F) := by
  rfl

/-! ## Stretch by stretch -/

section Sim
open Cert
/-- Stretch 0: if the two programs' buffers agree on what the stretch reads (and on what later stretches still read), they agree after it on what later stretches read. -/
theorem sim0 (VK : Valuation KernelIdeal.τ KernelIdeal.sig (Elt F)) (VR : Valuation ReferenceIdeal.τ ReferenceIdeal.sig (Elt F))
    (ha0 : (VK (Proc.devRef .tc KernelIdeal.main_arg0) : KernelIdeal.S60001x64.Idx → F .f32) = VR (Proc.devRef .tc ReferenceIdeal.main_arg0))
    (ha1 : (VK (Proc.devRef .tc KernelIdeal.main_arg1) : KernelIdeal.S40001x64.Idx → F .f32) = VR (Proc.devRef .tc ReferenceIdeal.main_arg1))
    (ha3 : (VK (Proc.devRef .tc KernelIdeal.main_arg3) : KernelIdeal.S3x600000.Idx → BitVec 32) = VR (Proc.devRef .tc ReferenceIdeal.main_arg3))
    (ha4 : (VK (Proc.devRef .tc KernelIdeal.main_arg4) : KernelIdeal.S3x600000.Idx → BitVec 32) = VR (Proc.devRef .tc ReferenceIdeal.main_arg4)) :
    ((after K0 VK (Proc.devRef .tc KernelIdeal.main_v0) : KernelIdeal.S100002x64.Idx → F .f32) = after ReferenceIdeal.RefRun.opsC0 VR (Proc.devRef .tc ReferenceIdeal.main_v0)) ∧
    ((after K0 VK (Proc.devRef .tc KernelIdeal.main_v1) : KernelIdeal.S1800000.Idx → BitVec 32) = after ReferenceIdeal.RefRun.opsC0 VR (Proc.devRef .tc ReferenceIdeal.main_v1)) ∧
    ((after K0 VK (Proc.devRef .tc KernelIdeal.main_v4) : KernelIdeal.S1800000.Idx → BitVec 32) = after ReferenceIdeal.RefRun.opsC0 VR (Proc.devRef .tc ReferenceIdeal.main_v4)) :=
  ⟨(Kread_x0 VK).trans ((congr (congr x0_eq ha0) ha1).trans (Rread_x0 VR).symm),
   (Kread_x1 VK).trans ((congr x1_eq ha3).trans (Rread_x1 VR).symm),
   (Kread_x4 VK).trans ((congr x4_eq ha4).trans (Rread_x4 VR).symm)⟩

/-- Stretch 1: if the two programs' buffers agree on what the stretch reads (and on what later stretches still read), they agree after it on what later stretches read. -/
theorem sim1 (VK : Valuation KernelIdeal.τ KernelIdeal.sig (Elt F)) (VR : Valuation ReferenceIdeal.τ ReferenceIdeal.sig (Elt F))
    (hx0 : (VK (Proc.devRef .tc KernelIdeal.main_v0) : KernelIdeal.S100002x64.Idx → F .f32) = VR (Proc.devRef .tc ReferenceIdeal.main_v0))
    (hx1 : (VK (Proc.devRef .tc KernelIdeal.main_v1) : KernelIdeal.S1800000.Idx → BitVec 32) = VR (Proc.devRef .tc ReferenceIdeal.main_v1))
    (hx4 : (VK (Proc.devRef .tc KernelIdeal.main_v4) : KernelIdeal.S1800000.Idx → BitVec 32) = VR (Proc.devRef .tc ReferenceIdeal.main_v4)) :
    ((after K1 VK (Proc.devRef .tc KernelIdeal.main_v0) : KernelIdeal.S100002x64.Idx → F .f32) = after ReferenceIdeal.RefRun.opsC1 VR (Proc.devRef .tc ReferenceIdeal.main_v0)) ∧
    ((after K1 VK (Proc.devRef .tc KernelIdeal.main_v1) : KernelIdeal.S1800000.Idx → BitVec 32) = after ReferenceIdeal.RefRun.opsC1 VR (Proc.devRef .tc ReferenceIdeal.main_v1)) ∧
    ((after K1 VK (Proc.devRef .tc KernelIdeal.main_v4) : KernelIdeal.S1800000.Idx → BitVec 32) = after ReferenceIdeal.RefRun.opsC1 VR (Proc.devRef .tc ReferenceIdeal.main_v4)) ∧
    ((after K1 VK (Proc.devRef .tc KernelIdeal.main_v5) : KernelIdeal.S3600000.Idx → BitVec 32) = after ReferenceIdeal.RefRun.opsC1 VR (Proc.devRef .tc ReferenceIdeal.main_v5)) :=
  ⟨(Kkeep1_x0 VK).trans (hx0.trans (Rkeep1_x0 VR).symm),
   (Kkeep1_x1 VK).trans (hx1.trans (Rkeep1_x1 VR).symm),
   (Kkeep1_x4 VK).trans (hx4.trans (Rkeep1_x4 VR).symm),
   (Kread_x5 VK).trans ((congr (congr x5_eq hx1) hx4).trans (Rread_x5 VR).symm)⟩

/-- Stretch 2: if the two programs' buffers agree on what the stretch reads (and on what later stretches still read), they agree after it on what later stretches read. -/
theorem sim2 (VK : Valuation KernelIdeal.τ KernelIdeal.sig (Elt F)) (VR : Valuation ReferenceIdeal.τ ReferenceIdeal.sig (Elt F))
    (hx0 : (VK (Proc.devRef .tc KernelIdeal.main_v0) : KernelIdeal.S100002x64.Idx → F .f32) = VR (Proc.devRef .tc ReferenceIdeal.main_v0))
    (hx1 : (VK (Proc.devRef .tc KernelIdeal.main_v1) : KernelIdeal.S1800000.Idx → BitVec 32) = VR (Proc.devRef .tc ReferenceIdeal.main_v1))
    (hx4 : (VK (Proc.devRef .tc KernelIdeal.main_v4) : KernelIdeal.S1800000.Idx → BitVec 32) = VR (Proc.devRef .tc ReferenceIdeal.main_v4))
    (hx5 : (VK (Proc.devRef .tc KernelIdeal.main_v5) : KernelIdeal.S3600000.Idx → BitVec 32) = VR (Proc.devRef .tc ReferenceIdeal.main_v5)) :
    ((after K2 VK (Proc.devRef .tc KernelIdeal.main_v0) : KernelIdeal.S100002x64.Idx → F .f32) = after ReferenceIdeal.RefRun.opsC2 VR (Proc.devRef .tc ReferenceIdeal.main_v0)) ∧
    ((after K2 VK (Proc.devRef .tc KernelIdeal.main_v5) : KernelIdeal.S3600000.Idx → BitVec 32) = after ReferenceIdeal.RefRun.opsC2 VR (Proc.devRef .tc ReferenceIdeal.main_v5)) ∧
    ((after K2 VK (Proc.devRef .tc KernelIdeal.main_v6) : KernelIdeal.S3600000.Idx → BitVec 32) = after ReferenceIdeal.RefRun.opsC2 VR (Proc.devRef .tc ReferenceIdeal.main_v6)) ∧
    ((after K2 VK (Proc.devRef .tc KernelIdeal.main_v10) : KernelIdeal.S100002.Idx → F .f32) = after ReferenceIdeal.RefRun.opsC2 VR (Proc.devRef .tc ReferenceIdeal.main_v10)) ∧
    ((after K2 VK (Proc.devRef .tc KernelIdeal.main_v20) : KernelIdeal.S3600000.Idx → F .f32) = after ReferenceIdeal.RefRun.opsC2 VR (Proc.devRef .tc ReferenceIdeal.main_v20)) ∧
    ((after K2 VK (Proc.devRef .tc KernelIdeal.main_v25) : KernelIdeal.S3600000.Idx → BitVec 32) = after ReferenceIdeal.RefRun.opsC2 VR (Proc.devRef .tc ReferenceIdeal.main_v25)) :=
  ⟨(Kkeep2_x0 VK).trans (hx0.trans (Rkeep2_x0 VR).symm),
   (Kkeep2_x5 VK).trans (hx5.trans (Rkeep2_x5 VR).symm),
   (Kread_x6 VK).trans ((congr (congr x6_eq hx1) hx4).trans (Rread_x6 VR).symm),
   (Kread_x10 VK).trans ((congr x10_eq hx5).trans (Rread_x10 VR).symm),
   (Kread_x20 VK).trans ((congr x20_eq hx5).trans (Rread_x20 VR).symm),
   (Kread_x25 VK).trans ((congr (congr x25_eq hx1) hx4).trans (Rread_x25 VR).symm)⟩

/-- Stretch 3: if the two programs' buffers agree on what the stretch reads (and on what later stretches still read), they agree after it on what later stretches read. -/
theorem sim3 (VK : Valuation KernelIdeal.τ KernelIdeal.sig (Elt F)) (VR : Valuation ReferenceIdeal.τ ReferenceIdeal.sig (Elt F))
    (hx0 : (VK (Proc.devRef .tc KernelIdeal.main_v0) : KernelIdeal.S100002x64.Idx → F .f32) = VR (Proc.devRef .tc ReferenceIdeal.main_v0))
    (hx5 : (VK (Proc.devRef .tc KernelIdeal.main_v5) : KernelIdeal.S3600000.Idx → BitVec 32) = VR (Proc.devRef .tc ReferenceIdeal.main_v5))
    (hx6 : (VK (Proc.devRef .tc KernelIdeal.main_v6) : KernelIdeal.S3600000.Idx → BitVec 32) = VR (Proc.devRef .tc ReferenceIdeal.main_v6))
    (hx10 : (VK (Proc.devRef .tc KernelIdeal.main_v10) : KernelIdeal.S100002.Idx → F .f32) = VR (Proc.devRef .tc ReferenceIdeal.main_v10))
    (hx20 : (VK (Proc.devRef .tc KernelIdeal.main_v20) : KernelIdeal.S3600000.Idx → F .f32) = VR (Proc.devRef .tc ReferenceIdeal.main_v20))
    (hx25 : (VK (Proc.devRef .tc KernelIdeal.main_v25) : KernelIdeal.S3600000.Idx → BitVec 32) = VR (Proc.devRef .tc ReferenceIdeal.main_v25)) :
    ((after K3 VK (Proc.devRef .tc KernelIdeal.main_v5) : KernelIdeal.S3600000.Idx → BitVec 32) = after ReferenceIdeal.RefRun.opsC3 VR (Proc.devRef .tc ReferenceIdeal.main_v5)) ∧
    ((after K3 VK (Proc.devRef .tc KernelIdeal.main_v6) : KernelIdeal.S3600000.Idx → BitVec 32) = after ReferenceIdeal.RefRun.opsC3 VR (Proc.devRef .tc ReferenceIdeal.main_v6)) ∧
    ((after K3 VK (Proc.devRef .tc KernelIdeal.main_v31) : KernelIdeal.S3600000.Idx → F .f32) = after ReferenceIdeal.RefRun.opsC3 VR (Proc.devRef .tc ReferenceIdeal.main_v31)) ∧
    ((after K3 VK (Proc.devRef .tc KernelIdeal.main_v44) : KernelIdeal.S100002x64.Idx → F .f32) = after ReferenceIdeal.RefRun.opsC3 VR (Proc.devRef .tc ReferenceIdeal.main_v44)) ∧
    ((after K3 VK (Proc.devRef .tc KernelIdeal.main_v45) : KernelIdeal.S100002x64.Idx → F .f32) = after ReferenceIdeal.RefRun.opsC3 VR (Proc.devRef .tc ReferenceIdeal.main_v45)) ∧
    ((after K3 VK (Proc.devRef .tc KernelIdeal.main_v46) : KernelIdeal.S3600000.Idx → BitVec 32) = after ReferenceIdeal.RefRun.opsC3 VR (Proc.devRef .tc ReferenceIdeal.main_v46)) :=
  ⟨(Kkeep3_x5 VK).trans (hx5.trans (Rkeep3_x5 VR).symm),
   (Kkeep3_x6 VK).trans (hx6.trans (Rkeep3_x6 VR).symm),
   (Kread_x31 VK).trans ((congr (congr (congr x31_eq hx10) hx20) hx25).trans (Rread_x31 VR).symm),
   (Kread_x44 VK).trans ((congr (congr (congr (congr (congr (congr x44_eq hx0) hx5) hx6) hx10) hx20) hx25).trans (Rread_x44 VR).symm),
   (Kread_x45 VK).trans ((congr (congr (congr (congr (congr (congr x45_eq hx0) hx5) hx6) hx10) hx20) hx25).trans (Rread_x45 VR).symm),
   (Kread_x46 VK).trans (x46_eq.trans (Rread_x46 VR).symm)⟩

/-- Stretch 4: if the two programs' buffers agree on what the stretch reads (and on what later stretches still read), they agree after it on what later stretches read. -/
theorem sim4 (VK : Valuation KernelIdeal.τ KernelIdeal.sig (Elt F)) (VR : Valuation ReferenceIdeal.τ ReferenceIdeal.sig (Elt F))
    (hx5 : (VK (Proc.devRef .tc KernelIdeal.main_v5) : KernelIdeal.S3600000.Idx → BitVec 32) = VR (Proc.devRef .tc ReferenceIdeal.main_v5))
    (hx6 : (VK (Proc.devRef .tc KernelIdeal.main_v6) : KernelIdeal.S3600000.Idx → BitVec 32) = VR (Proc.devRef .tc ReferenceIdeal.main_v6))
    (hx31 : (VK (Proc.devRef .tc KernelIdeal.main_v31) : KernelIdeal.S3600000.Idx → F .f32) = VR (Proc.devRef .tc ReferenceIdeal.main_v31))
    (hx44 : (VK (Proc.devRef .tc KernelIdeal.main_v44) : KernelIdeal.S100002x64.Idx → F .f32) = VR (Proc.devRef .tc ReferenceIdeal.main_v44))
    (hx45 : (VK (Proc.devRef .tc KernelIdeal.main_v45) : KernelIdeal.S100002x64.Idx → F .f32) = VR (Proc.devRef .tc ReferenceIdeal.main_v45))
    (hx46 : (VK (Proc.devRef .tc KernelIdeal.main_v46) : KernelIdeal.S3600000.Idx → BitVec 32) = VR (Proc.devRef .tc ReferenceIdeal.main_v46)) :
    ((after K4 VK (Proc.devRef .tc KernelIdeal.main_v59) : KernelIdeal.S100002x64.Idx → F .f32) = after ReferenceIdeal.RefRun.opsC4 VR (Proc.devRef .tc ReferenceIdeal.main_v59)) ∧
    ((after K4 VK (Proc.devRef .tc KernelIdeal.main_v60) : KernelIdeal.S100002x64.Idx → F .f32) = after ReferenceIdeal.RefRun.opsC4 VR (Proc.devRef .tc ReferenceIdeal.main_v60)) :=
  ⟨(Kread_x59 VK).trans ((congr (congr (congr (congr (congr (congr x59_eq hx5) hx6) hx31) hx44) hx45) hx46).trans (Rread_x59 VR).symm),
   (Kread_x60 VK).trans (x60_eq.trans (Rread_x60 VR).symm)⟩

/-- The propagation over the union graph: from agreeing embedding tables and edge arrays the two programs reach the same
    sum of the three layers' tables (statement %59) and the same constant table 3 (statement %60), whose quotient is the
    propagated table. -/
theorem global_tables_eq (VK : Valuation KernelIdeal.τ KernelIdeal.sig (Elt F)) (VR : Valuation ReferenceIdeal.τ ReferenceIdeal.sig (Elt F))
    (h0 : (VK (Proc.devRef .tc KernelIdeal.main_arg0) : KernelIdeal.S60001x64.Idx → F .f32) = VR (Proc.devRef .tc ReferenceIdeal.main_arg0))
    (h1 : (VK (Proc.devRef .tc KernelIdeal.main_arg1) : KernelIdeal.S40001x64.Idx → F .f32) = VR (Proc.devRef .tc ReferenceIdeal.main_arg1))
    (h3 : (VK (Proc.devRef .tc KernelIdeal.main_arg3) : KernelIdeal.S3x600000.Idx → BitVec 32) = VR (Proc.devRef .tc ReferenceIdeal.main_arg3))
    (h4 : (VK (Proc.devRef .tc KernelIdeal.main_arg4) : KernelIdeal.S3x600000.Idx → BitVec 32) = VR (Proc.devRef .tc ReferenceIdeal.main_arg4)) :
    ((after (K0 ++ K1 ++ K2 ++ K3 ++ K4) VK (Proc.devRef .tc KernelIdeal.main_v59) : KernelIdeal.S100002x64.Idx → F .f32) = after (ReferenceIdeal.RefRun.opsC0 ++ ReferenceIdeal.RefRun.opsC1 ++ ReferenceIdeal.RefRun.opsC2 ++ ReferenceIdeal.RefRun.opsC3 ++ ReferenceIdeal.RefRun.opsC4) VR (Proc.devRef .tc ReferenceIdeal.main_v59)) ∧
    ((after (K0 ++ K1 ++ K2 ++ K3 ++ K4) VK (Proc.devRef .tc KernelIdeal.main_v60) : KernelIdeal.S100002x64.Idx → F .f32) = after (ReferenceIdeal.RefRun.opsC0 ++ ReferenceIdeal.RefRun.opsC1 ++ ReferenceIdeal.RefRun.opsC2 ++ ReferenceIdeal.RefRun.opsC3 ++ ReferenceIdeal.RefRun.opsC4) VR (Proc.devRef .tc ReferenceIdeal.main_v60)) := by
  rw [StableHlo.after_append, StableHlo.after_append, StableHlo.after_append, StableHlo.after_append, StableHlo.after_append,
    StableHlo.after_append, StableHlo.after_append, StableHlo.after_append]
  obtain ⟨ex0_0, ex1_0, ex4_0⟩ := sim0 VK VR h0 h1 h3 h4
  obtain ⟨ex0_1, ex1_1, ex4_1, ex5_1⟩ := sim1 (after K0 VK) (after ReferenceIdeal.RefRun.opsC0 VR) ex0_0 ex1_0 ex4_0
  obtain ⟨ex0_2, ex5_2, ex6_2, ex10_2, ex20_2, ex25_2⟩ := sim2 (after K1 (after K0 VK)) (after ReferenceIdeal.RefRun.opsC1 (after ReferenceIdeal.RefRun.opsC0 VR)) ex0_1 ex1_1 ex4_1 ex5_1
  obtain ⟨ex5_3, ex6_3, ex31_3, ex44_3, ex45_3, ex46_3⟩ := sim3 (after K2 (after K1 (after K0 VK))) (after ReferenceIdeal.RefRun.opsC2 (after ReferenceIdeal.RefRun.opsC1 (after ReferenceIdeal.RefRun.opsC0 VR))) ex0_2 ex5_2 ex6_2 ex10_2 ex20_2 ex25_2
  exact sim4 (after K3 (after K2 (after K1 (after K0 VK)))) (after ReferenceIdeal.RefRun.opsC3 (after ReferenceIdeal.RefRun.opsC2 (after ReferenceIdeal.RefRun.opsC1 (after ReferenceIdeal.RefRun.opsC0 VR)))) ex5_3 ex6_3 ex31_3 ex44_3 ex45_3 ex46_3

end Sim

end Cert.Proof.PrefixGlobal
-- ==== Proof.PrefixB0.lean ====
/-
  Behaviour 0 of the propagation, the same on both sides.

  After the global graph both programs run, statement for statement, the same operations on the first behaviour's
  edge list: the edge rows are cut out of the two index arguments, the item indices shifted past the users, the two
  orientations of the bipartite edge list concatenated, node degrees counted by a scatter-add of ones, the
  symmetric normalisation 1 / sqrt(max(deg, 1)) read back per edge, two rounds of neighbour aggregation (gather,
  scale, scatter-add) averaged with the starting table, and the result cut into its user rows and its item rows.
  The program additionally cuts the item part out of the degree vector in between; that operation writes a buffer
  of its own and changes nothing else.

  Each side's piece of the chain is named as a closed function of the values it reads (kA…, kB…, kC… for the
  program; rA…, rB…, rC… for the reference); the buffers after a piece are these functions of the buffers before
  it; the two functions are equal, being the same operations over equal shapes; so buffers that agree before a
  piece agree after it.
-/
import proofs.«412432_j74655121539772_3_alg».proof.Proof.Gen.KernelIdeal.Launch
import proofs.«412432_j74655121539772_3_alg».proof.Proof.RefRunC1
import proofs.«412432_j74655121539772_3_alg».proof.Proof.RefRunC2
import Idealize.ShloMosaic.Lib.StableHlo.Run
import Idealize.ShloMosaic.Lib.Pipeline.Frame

set_option maxRecDepth 16384

noncomputable section

namespace Cert.Proof.PrefixB0

open Idealize.ShloMosaic Idealize.ShloMosaic.TcCoe Idealize.SL.Sem Idealize.ShloMosaic.StableHlo

variable {F : FTy → Type} [FloatOps F] [Cert.KernelIdeal.Facts] [Cert.ReferenceIdeal.Facts]

/-! ## The program's operations, cut where the reference's are -/

section K
open Cert.KernelIdeal Cert.KernelIdeal.Gen

/-- Operations 78 … 85 of the program's first host stretch. -/
abbrev K5 : List (HloOp τ sig (Elt F)) :=
  [ binary main_v59 main_v60 main_v61 (Host.divf : (⟨S100002x64, .f32⟩ : BufTy).Contents (Elt F) → (⟨S100002x64, .f32⟩ : BufTy).Contents (Elt F) → (⟨S100002x64, .f32⟩ : BufTy).Contents (Elt F)),
    unary main_arg3 main_v62 ((extractStridedSlice S1x600000 ![0, 0] · slices_S3x600000_S1x600000_0_0) : (⟨S3x600000, .i32⟩ : BufTy).Contents (Elt F) → (⟨S1x600000, .i32⟩ : BufTy).Contents (Elt F)),
    reshape main_v62 main_v63 rfl shapeCasts_S1x600000_S600000,
    unary main_arg4 main_v64 ((extractStridedSlice S1x600000 ![0, 0] · slices_S3x600000_S1x600000_0_0) : (⟨S3x600000, .i32⟩ : BufTy).Contents (Elt F) → (⟨S1x600000, .i32⟩ : BufTy).Contents (Elt F)),
    reshape main_v64 main_v65 rfl shapeCasts_S1x600000_S600000,
    nullary main_c_14 (constantI S_ 32 60001#32),
    unary main_c_14 main_v66 (broadcastInDim S600000 ![] bcast_S_S600000 : (⟨S_, .i32⟩ : BufTy).Contents (Elt F) → (⟨S600000, .i32⟩ : BufTy).Contents (Elt F)),
    binary main_v65 main_v66 main_v67 (addi : (⟨S600000, .i32⟩ : BufTy).Contents (Elt F) → (⟨S600000, .i32⟩ : BufTy).Contents (Elt F) → (⟨S600000, .i32⟩ : BufTy).Contents (Elt F)) ]

/-- Operations 86 … 86 of the program's first host stretch. -/
abbrev K6 : List (HloOp τ sig (Elt F)) :=
  [ binary main_v63 main_v67 main_v68 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) ]

/-- Operations 87 … 120 of the program's first host stretch. -/
abbrev K7 : List (HloOp τ sig (Elt F)) :=
  [ binary main_v67 main_v63 main_v69 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)),
    nullary main_cst_15 (constant S_ .f32 0x3F800000#32),
    unary main_cst_15 main_v70 (broadcastInDim S1200000 ![] bcast_S_S1200000 : (⟨S_, .f32⟩ : BufTy).Contents (Elt F) → (⟨S1200000, .f32⟩ : BufTy).Contents (Elt F)),
    nullary main_cst_16 (constant S_ .f32 0x00000000#32),
    unary main_cst_16 main_v71 (broadcastInDim S100002 ![] bcast_S_S100002 : (⟨S_, .f32⟩ : BufTy).Contents (Elt F) → (⟨S100002, .f32⟩ : BufTy).Contents (Elt F)),
    unary main_v68 main_v72 (broadcastInDim S1200000x1 ![0] bcast_S1200000_S1200000x1_0 : (⟨S1200000, .i32⟩ : BufTy).Contents (Elt F) → (⟨S1200000x1, .i32⟩ : BufTy).Contents (Elt F)),
    ternary main_v71 main_v72 main_v70 main_v73 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)),
    nullary main_c_17 (constantI S_ 32 0#32),
    unary main_c_17 main_v74 (broadcastInDim S1200000 ![] bcast_S_S1200000 : (⟨S_, .i32⟩ : BufTy).Contents (Elt F) → (⟨S1200000, .i32⟩ : BufTy).Contents (Elt F)),
    binary main_v68 main_v74 main_v75 (cmpi .slt : (⟨S1200000, .i32⟩ : BufTy).Contents (Elt F) → (⟨S1200000, .i32⟩ : BufTy).Contents (Elt F) → (⟨S1200000, .i1⟩ : BufTy).Contents (Elt F)),
    nullary main_c_18 (constantI S_ 32 100002#32),
    unary main_c_18 main_v76 (broadcastInDim S1200000 ![] bcast_S_S1200000 : (⟨S_, .i32⟩ : BufTy).Contents (Elt F) → (⟨S1200000, .i32⟩ : BufTy).Contents (Elt F)),
    binary main_v68 main_v76 main_v77 (addi : (⟨S1200000, .i32⟩ : BufTy).Contents (Elt F) → (⟨S1200000, .i32⟩ : BufTy).Contents (Elt F) → (⟨S1200000, .i32⟩ : BufTy).Contents (Elt F)),
    ternary main_v75 main_v77 main_v68 main_v78 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v78 main_v79 (broadcastInDim S1200000x1 ![0] bcast_S1200000_S1200000x1_0 : (⟨S1200000, .i32⟩ : BufTy).Contents (Elt F) → (⟨S1200000x1, .i32⟩ : BufTy).Contents (Elt F)),
    binary main_v73 main_v79 main_v80 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    nullary main_cst_19 (constant S_ .f32 0x3F800000#32),
    unary main_cst_19 main_v81 (broadcastInDim S1200000 ![] bcast_S_S1200000 : (⟨S_, .f32⟩ : BufTy).Contents (Elt F) → (⟨S1200000, .f32⟩ : BufTy).Contents (Elt F)),
    binary main_v80 main_v81 main_v82 (maximumf : (⟨S1200000, .f32⟩ : BufTy).Contents (Elt F) → (⟨S1200000, .f32⟩ : BufTy).Contents (Elt F) → (⟨S1200000, .f32⟩ : BufTy).Contents (Elt F)),
    unary main_v82 main_v83 (Host.rsqrt : (⟨S1200000, .f32⟩ : BufTy).Contents (Elt F) → (⟨S1200000, .f32⟩ : BufTy).Contents (Elt F)),
    nullary main_c_20 (constantI S_ 32 0#32),
    unary main_c_20 main_v84 (broadcastInDim S1200000 ![] bcast_S_S1200000 : (⟨S_, .i32⟩ : BufTy).Contents (Elt F) → (⟨S1200000, .i32⟩ : BufTy).Contents (Elt F)),
    binary main_v69 main_v84 main_v85 (cmpi .slt : (⟨S1200000, .i32⟩ : BufTy).Contents (Elt F) → (⟨S1200000, .i32⟩ : BufTy).Contents (Elt F) → (⟨S1200000, .i1⟩ : BufTy).Contents (Elt F)),
    nullary main_c_21 (constantI S_ 32 100002#32),
    unary main_c_21 main_v86 (broadcastInDim S1200000 ![] bcast_S_S1200000 : (⟨S_, .i32⟩ : BufTy).Contents (Elt F) → (⟨S1200000, .i32⟩ : BufTy).Contents (Elt F)),
    binary main_v69 main_v86 main_v87 (addi : (⟨S1200000, .i32⟩ : BufTy).Contents (Elt F) → (⟨S1200000, .i32⟩ : BufTy).Contents (Elt F) → (⟨S1200000, .i32⟩ : BufTy).Contents (Elt F)),
    ternary main_v85 main_v87 main_v69 main_v88 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v88 main_v89 (broadcastInDim S1200000x1 ![0] bcast_S1200000_S1200000x1_0 : (⟨S1200000, .i32⟩ : BufTy).Contents (Elt F) → (⟨S1200000x1, .i32⟩ : BufTy).Contents (Elt F)),
    binary main_v73 main_v89 main_v90 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    nullary main_cst_22 (constant S_ .f32 0x3F800000#32),
    unary main_cst_22 main_v91 (broadcastInDim S1200000 ![] bcast_S_S1200000 : (⟨S_, .f32⟩ : BufTy).Contents (Elt F) → (⟨S1200000, .f32⟩ : BufTy).Contents (Elt F)),
    binary main_v90 main_v91 main_v92 (maximumf : (⟨S1200000, .f32⟩ : BufTy).Contents (Elt F) → (⟨S1200000, .f32⟩ : BufTy).Contents (Elt F) → (⟨S1200000, .f32⟩ : BufTy).Contents (Elt F)),
    unary main_v92 main_v93 (Host.rsqrt : (⟨S1200000, .f32⟩ : BufTy).Contents (Elt F) → (⟨S1200000, .f32⟩ : BufTy).Contents (Elt F)),
    binary main_v83 main_v93 main_v94 (mulf : (⟨S1200000, .f32⟩ : BufTy).Contents (Elt F) → (⟨S1200000, .f32⟩ : BufTy).Contents (Elt F) → (⟨S1200000, .f32⟩ : BufTy).Contents (Elt F)) ]

/-- Operations 121 … 157 of the program's first host stretch. -/
abbrev K8 : List (HloOp τ sig (Elt F)) :=
  [ nullary main_c_23 (constantI S_ 32 0#32),
    unary main_c_23 main_v95 (broadcastInDim S1200000 ![] bcast_S_S1200000 : (⟨S_, .i32⟩ : BufTy).Contents (Elt F) → (⟨S1200000, .i32⟩ : BufTy).Contents (Elt F)),
    binary main_v68 main_v95 main_v96 (cmpi .slt : (⟨S1200000, .i32⟩ : BufTy).Contents (Elt F) → (⟨S1200000, .i32⟩ : BufTy).Contents (Elt F) → (⟨S1200000, .i1⟩ : BufTy).Contents (Elt F)),
    nullary main_c_24 (constantI S_ 32 100002#32),
    unary main_c_24 main_v97 (broadcastInDim S1200000 ![] bcast_S_S1200000 : (⟨S_, .i32⟩ : BufTy).Contents (Elt F) → (⟨S1200000, .i32⟩ : BufTy).Contents (Elt F)),
    binary main_v68 main_v97 main_v98 (addi : (⟨S1200000, .i32⟩ : BufTy).Contents (Elt F) → (⟨S1200000, .i32⟩ : BufTy).Contents (Elt F) → (⟨S1200000, .i32⟩ : BufTy).Contents (Elt F)),
    ternary main_v96 main_v98 main_v68 main_v99 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v99 main_v100 (broadcastInDim S1200000x1 ![0] bcast_S1200000_S1200000x1_0 : (⟨S1200000, .i32⟩ : BufTy).Contents (Elt F) → (⟨S1200000x1, .i32⟩ : BufTy).Contents (Elt F)),
    binary main_v61 main_v100 main_v101 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    unary main_v94 main_v102 (broadcastInDim S1200000x1 ![0] bcast_S1200000_S1200000x1_0 : (⟨S1200000, .f32⟩ : BufTy).Contents (Elt F) → (⟨S1200000x1, .f32⟩ : BufTy).Contents (Elt F)),
    unary main_v102 main_v103 (broadcastInDim S1200000x64 ![0, 1] bcast_S1200000x1_S1200000x64_0_1 : (⟨S1200000x1, .f32⟩ : BufTy).Contents (Elt F) → (⟨S1200000x64, .f32⟩ : BufTy).Contents (Elt F)),
    binary main_v101 main_v103 main_v104 (mulf : (⟨S1200000x64, .f32⟩ : BufTy).Contents (Elt F) → (⟨S1200000x64, .f32⟩ : BufTy).Contents (Elt F) → (⟨S1200000x64, .f32⟩ : BufTy).Contents (Elt F)),
    nullary main_cst_25 (constant S_ .f32 0x00000000#32),
    unary main_cst_25 main_v105 (broadcastInDim S100002x64 ![] bcast_S_S100002x64 : (⟨S_, .f32⟩ : BufTy).Contents (Elt F) → (⟨S100002x64, .f32⟩ : BufTy).Contents (Elt F)),
    unary main_v69 main_v106 (broadcastInDim S1200000x1 ![0] bcast_S1200000_S1200000x1_0 : (⟨S1200000, .i32⟩ : BufTy).Contents (Elt F) → (⟨S1200000x1, .i32⟩ : BufTy).Contents (Elt F)),
    ternary main_v105 main_v106 main_v104 main_v107 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    binary main_v61 main_v107 main_v108 (addf : (⟨S100002x64, .f32⟩ : BufTy).Contents (Elt F) → (⟨S100002x64, .f32⟩ : BufTy).Contents (Elt F) → (⟨S100002x64, .f32⟩ : BufTy).Contents (Elt F)),
    nullary main_c_26 (constantI S_ 32 0#32),
    unary main_c_26 main_v109 (broadcastInDim S1200000 ![] bcast_S_S1200000 : (⟨S_, .i32⟩ : BufTy).Contents (Elt F) → (⟨S1200000, .i32⟩ : BufTy).Contents (Elt F)),
    binary main_v68 main_v109 main_v110 (cmpi .slt : (⟨S1200000, .i32⟩ : BufTy).Contents (Elt F) → (⟨S1200000, .i32⟩ : BufTy).Contents (Elt F) → (⟨S1200000, .i1⟩ : BufTy).Contents (Elt F)),
    nullary main_c_27 (constantI S_ 32 100002#32),
    unary main_c_27 main_v111 (broadcastInDim S1200000 ![] bcast_S_S1200000 : (⟨S_, .i32⟩ : BufTy).Contents (Elt F) → (⟨S1200000, .i32⟩ : BufTy).Contents (Elt F)),
    binary main_v68 main_v111 main_v112 (addi : (⟨S1200000, .i32⟩ : BufTy).Contents (Elt F) → (⟨S1200000, .i32⟩ : BufTy).Contents (Elt F) → (⟨S1200000, .i32⟩ : BufTy).Contents (Elt F)),
    ternary main_v110 main_v112 main_v68 main_v113 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v113 main_v114 (broadcastInDim S1200000x1 ![0] bcast_S1200000_S1200000x1_0 : (⟨S1200000, .i32⟩ : BufTy).Contents (Elt F) → (⟨S1200000x1, .i32⟩ : BufTy).Contents (Elt F)),
    binary main_v107 main_v114 main_v115 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    unary main_v94 main_v116 (broadcastInDim S1200000x1 ![0] bcast_S1200000_S1200000x1_0 : (⟨S1200000, .f32⟩ : BufTy).Contents (Elt F) → (⟨S1200000x1, .f32⟩ : BufTy).Contents (Elt F)),
    unary main_v116 main_v117 (broadcastInDim S1200000x64 ![0, 1] bcast_S1200000x1_S1200000x64_0_1 : (⟨S1200000x1, .f32⟩ : BufTy).Contents (Elt F) → (⟨S1200000x64, .f32⟩ : BufTy).Contents (Elt F)),
    binary main_v115 main_v117 main_v118 (mulf : (⟨S1200000x64, .f32⟩ : BufTy).Contents (Elt F) → (⟨S1200000x64, .f32⟩ : BufTy).Contents (Elt F) → (⟨S1200000x64, .f32⟩ : BufTy).Contents (Elt F)),
    nullary main_cst_28 (constant S_ .f32 0x00000000#32),
    unary main_cst_28 main_v119 (broadcastInDim S100002x64 ![] bcast_S_S100002x64 : (⟨S_, .f32⟩ : BufTy).Contents (Elt F) → (⟨S100002x64, .f32⟩ : BufTy).Contents (Elt F)),
    unary main_v69 main_v120 (broadcastInDim S1200000x1 ![0] bcast_S1200000_S1200000x1_0 : (⟨S1200000, .i32⟩ : BufTy).Contents (Elt F) → (⟨S1200000x1, .i32⟩ : BufTy).Contents (Elt F)),
    ternary main_v119 main_v120 main_v118 main_v121 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    binary main_v108 main_v121 main_v122 (addf : (⟨S100002x64, .f32⟩ : BufTy).Contents (Elt F) → (⟨S100002x64, .f32⟩ : BufTy).Contents (Elt F) → (⟨S100002x64, .f32⟩ : BufTy).Contents (Elt F)),
    nullary main_cst_29 (constant S_ .f32 0x40400000#32),
    unary main_cst_29 main_v123 (broadcastInDim S100002x64 ![] bcast_S_S100002x64 : (⟨S_, .f32⟩ : BufTy).Contents (Elt F) → (⟨S100002x64, .f32⟩ : BufTy).Contents (Elt F)),
    binary main_v122 main_v123 main_v124 (Host.divf : (⟨S100002x64, .f32⟩ : BufTy).Contents (Elt F) → (⟨S100002x64, .f32⟩ : BufTy).Contents (Elt F) → (⟨S100002x64, .f32⟩ : BufTy).Contents (Elt F)) ]

/-- Operations 158 … 158 of the program's first host stretch: the item part of the degree vector, which the reference does not cut out. -/
abbrev K8x : List (HloOp τ sig (Elt F)) :=
  [ unary main_v73 main_v125 ((extractStridedSlice S40001 ![60001] · slices_S100002_S40001_60001) : (⟨S100002, .f32⟩ : BufTy).Contents (Elt F) → (⟨S40001, .f32⟩ : BufTy).Contents (Elt F)) ]

/-- Operations 159 … 160 of the program's first host stretch. -/
abbrev K9 : List (HloOp τ sig (Elt F)) :=
  [ unary main_v124 main_v126 ((extractStridedSlice S60001x64 ![0, 0] · slices_S100002x64_S60001x64_0_0) : (⟨S100002x64, .f32⟩ : BufTy).Contents (Elt F) → (⟨S60001x64, .f32⟩ : BufTy).Contents (Elt F)),
    unary main_v124 main_v127 ((extractStridedSlice S40001x64 ![60001, 0] · slices_S100002x64_S40001x64_60001_0) : (⟨S100002x64, .f32⟩ : BufTy).Contents (Elt F) → (⟨S40001x64, .f32⟩ : BufTy).Contents (Elt F)) ]

/-- Behaviour 0's operations, 78 … 160 of the program's first host stretch, in order. -/
abbrev KB : List (HloOp τ sig (Elt F)) := K5 ++ K6 ++ K7 ++ K8 ++ K8x ++ K9

/-- `main_v61` after the piece, as a function of what the piece reads. -/
def kA_v61 (x_main_v59 : S100002x64.Idx → F .f32) (x_main_v60 : S100002x64.Idx → F .f32) : S100002x64.Idx → F .f32 :=
  ((Host.divf : (⟨S100002x64, .f32⟩ : BufTy).Contents (Elt F) → (⟨S100002x64, .f32⟩ : BufTy).Contents (Elt F) → (⟨S100002x64, .f32⟩ : BufTy).Contents (Elt F)) x_main_v59 x_main_v60)

set_option maxHeartbeats 1000000 in
theorem kA_v61_read (V : Valuation τ sig (Elt F)) :
    (after K5 V (Proc.devRef .tc main_v61) : S100002x64.Idx → F .f32) = kA_v61 (F := F) (V (Proc.devRef .tc main_v59)) (V (Proc.devRef .tc main_v60)) := by
  after_results_simp <;> rfl

/-- `main_v63` after the piece, as a function of what the piece reads. -/
def kA_v63 (x_main_arg3 : S3x600000.Idx → BitVec 32) : S600000.Idx → BitVec 32 :=
  (fun i => shapeCast S600000 (((extractStridedSlice S1x600000 ![0, 0] · slices_S3x600000_S1x600000_0_0) : (⟨S3x600000, .i32⟩ : BufTy).Contents (Elt F) → (⟨S1x600000, .i32⟩ : BufTy).Contents (Elt F)) x_main_arg3) shapeCasts_S1x600000_S600000 i)

set_option maxHeartbeats 1000000 in
theorem kA_v63_read (V : Valuation τ sig (Elt F)) :
    (after K5 V (Proc.devRef .tc main_v63) : S600000.Idx → BitVec 32) = kA_v63 (F := F) (V (Proc.devRef .tc main_arg3)) := by
  after_results_simp <;> rfl

/-- `main_v67` after the piece, as a function of what the piece reads. -/
def kA_v67 (x_main_arg4 : S3x600000.Idx → BitVec 32) : S600000.Idx → BitVec 32 :=
  ((addi : (⟨S600000, .i32⟩ : BufTy).Contents (Elt F) → (⟨S600000, .i32⟩ : BufTy).Contents (Elt F) → (⟨S600000, .i32⟩ : BufTy).Contents (Elt F)) (fun i => shapeCast S600000 (((extractStridedSlice S1x600000 ![0, 0] · slices_S3x600000_S1x600000_0_0) : (⟨S3x600000, .i32⟩ : BufTy).Contents (Elt F) → (⟨S1x600000, .i32⟩ : BufTy).Contents (Elt F)) x_main_arg4) shapeCasts_S1x600000_S600000 i) ((broadcastInDim S600000 ![] bcast_S_S600000 : (⟨S_, .i32⟩ : BufTy).Contents (Elt F) → (⟨S600000, .i32⟩ : BufTy).Contents (Elt F)) (constantI S_ 32 60001#32)))

set_option maxHeartbeats 1000000 in
theorem kA_v67_read (V : Valuation τ sig (Elt F)) :
    (after K5 V (Proc.devRef .tc main_v67) : S600000.Idx → BitVec 32) = kA_v67 (F := F) (V (Proc.devRef .tc main_arg4)) := by
  after_results_simp <;> rfl

/-- `main_v68` after the piece, as a function of what the piece reads. -/
def kB_v68 (x_main_v63 : S600000.Idx → BitVec 32) (x_main_v67 : S600000.Idx → BitVec 32) : S1200000.Idx → BitVec 32 :=
  (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)

set_option maxHeartbeats 1000000 in
theorem kB_v68_read (V : Valuation τ sig (Elt F)) :
    (after (K6 ++ K7) V (Proc.devRef .tc main_v68) : S1200000.Idx → BitVec 32) = kB_v68 (F := F) (V (Proc.devRef .tc main_v63)) (V (Proc.devRef .tc main_v67)) := by
  simp only [StableHlo.after_append]
  after_results_simp <;> rfl

/-- `main_v69` after the piece, as a function of what the piece reads. -/
def kB_v69 (x_main_v63 : S600000.Idx → BitVec 32) (x_main_v67 : S600000.Idx → BitVec 32) : S1200000.Idx → BitVec 32 :=
  (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63)

set_option maxHeartbeats 1000000 in
theorem kB_v69_read (V : Valuation τ sig (Elt F)) :
    (after (K6 ++ K7) V (Proc.devRef .tc main_v69) : S1200000.Idx → BitVec 32) = kB_v69 (F := F) (V (Proc.devRef .tc main_v63)) (V (Proc.devRef .tc main_v67)) := by
  simp only [StableHlo.after_append]
  after_results_simp <;> rfl

/-- `main_v73` after the piece, as a function of what the piece reads. -/
def kB_v73 (x_main_v63 : S600000.Idx → BitVec 32) (x_main_v67 : S600000.Idx → BitVec 32) : S100002.Idx → F .f32 :=
  (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32)))

set_option maxHeartbeats 1000000 in
theorem kB_v73_read (V : Valuation τ sig (Elt F)) :
    (after (K6 ++ K7) V (Proc.devRef .tc main_v73) : S100002.Idx → F .f32) = kB_v73 (F := F) (V (Proc.devRef .tc main_v63)) (V (Proc.devRef .tc main_v67)) := by
  simp only [StableHlo.after_append]
  after_results_simp <;> rfl

/-- `main_v94` after the piece, as a function of what the piece reads. -/
def kB_v94 (x_main_v63 : S600000.Idx → BitVec 32) (x_main_v67 : S600000.Idx → BitVec 32) : S1200000.Idx → F .f32 :=
  ((mulf : (⟨S1200000, .f32⟩ : BufTy).Contents (Elt F) → (⟨S1200000, .f32⟩ : BufTy).Contents (Elt F) → (⟨S1200000, .f32⟩ : BufTy).Contents (Elt F)) ((Host.rsqrt : (⟨S1200000, .f32⟩ : BufTy).Contents (Elt F) → (⟨S1200000, .f32⟩ : BufTy).Contents (Elt F)) ((maximumf : (⟨S1200000, .f32⟩ : BufTy).Contents (Elt F) → (⟨S1200000, .f32⟩ : BufTy).Contents (Elt F) → (⟨S1200000, .f32⟩ : BufTy).Contents (Elt F)) (((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67) ((broadcastInDim S1200000 ![] bcast_S_S1200000 : (⟨S_, .i32⟩ : BufTy).Contents (Elt F) → (⟨S1200000, .i32⟩ : BufTy).Contents (Elt F)) (constantI S_ 32 100002#32))) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)))) ((broadcastInDim S1200000 ![] bcast_S_S1200000 : (⟨S_, .f32⟩ : BufTy).Contents (Elt F) → (⟨S1200000, .f32⟩ : BufTy).Contents (Elt F)) (constant (F := F) S_ .f32 0x3F800000#32)))) ((Host.rsqrt : (⟨S1200000, .f32⟩ : BufTy).Contents (Elt F) → (⟨S1200000, .f32⟩ : BufTy).Contents (Elt F)) ((maximumf : (⟨S1200000, .f32⟩ : BufTy).Contents (Elt F) → (⟨S1200000, .f32⟩ : BufTy).Contents (Elt F) → (⟨S1200000, .f32⟩ : BufTy).Contents (Elt F)) (((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63) ((broadcastInDim S1200000 ![] bcast_S_S1200000 : (⟨S_, .i32⟩ : BufTy).Contents (Elt F) → (⟨S1200000, .i32⟩ : BufTy).Contents (Elt F)) (constantI S_ 32 100002#32))) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63)))) ((broadcastInDim S1200000 ![] bcast_S_S1200000 : (⟨S_, .f32⟩ : BufTy).Contents (Elt F) → (⟨S1200000, .f32⟩ : BufTy).Contents (Elt F)) (constant (F := F) S_ .f32 0x3F800000#32)))))

set_option maxHeartbeats 1000000 in
theorem kB_v94_read (V : Valuation τ sig (Elt F)) :
    (after (K6 ++ K7) V (Proc.devRef .tc main_v94) : S1200000.Idx → F .f32) = kB_v94 (F := F) (V (Proc.devRef .tc main_v63)) (V (Proc.devRef .tc main_v67)) := by
  simp only [StableHlo.after_append]
  after_results_simp <;> rfl

/-- The piece leaves `main_v61` alone. -/
theorem kB_v61_keep (V : Valuation τ sig (Elt F)) :
    after (K6 ++ K7) V (Proc.devRef .tc main_v61) = V (Proc.devRef .tc main_v61) := by
  simp only [StableHlo.after_append]
  after_results_simp

/-- `main_v126` after the piece, as a function of what the piece reads. -/
def kC_v126 (x_main_v61 : S100002x64.Idx → F .f32) (x_main_v68 : S1200000.Idx → BitVec 32) (x_main_v69 : S1200000.Idx → BitVec 32) (x_main_v94 : S1200000.Idx → F .f32) : S60001x64.Idx → F .f32 :=
  (((extractStridedSlice S60001x64 ![0, 0] · slices_S100002x64_S60001x64_0_0) : (⟨S100002x64, .f32⟩ : BufTy).Contents (Elt F) → (⟨S60001x64, .f32⟩ : BufTy).Contents (Elt F)) ((Host.divf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) x_main_v61 (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) ((broadcastInDim S100002x64 ![] bcast_S_S100002x64 : (⟨S_, .f32⟩ : BufTy).Contents (Elt F) → (⟨S100002x64, .f32⟩ : BufTy).Contents (Elt F)) (constant (F := F) S_ .f32 0x40400000#32))))

set_option maxHeartbeats 1000000 in
theorem kC_v126_read (V : Valuation τ sig (Elt F)) :
    (after (K8 ++ K8x ++ K9) V (Proc.devRef .tc main_v126) : S60001x64.Idx → F .f32) = kC_v126 (F := F) (V (Proc.devRef .tc main_v61)) (V (Proc.devRef .tc main_v68)) (V (Proc.devRef .tc main_v69)) (V (Proc.devRef .tc main_v94)) := by
  simp only [StableHlo.after_append]
  after_results_simp <;> rfl

/-- `main_v127` after the piece, as a function of what the piece reads. -/
def kC_v127 (x_main_v61 : S100002x64.Idx → F .f32) (x_main_v68 : S1200000.Idx → BitVec 32) (x_main_v69 : S1200000.Idx → BitVec 32) (x_main_v94 : S1200000.Idx → F .f32) : S40001x64.Idx → F .f32 :=
  (((extractStridedSlice S40001x64 ![60001, 0] · slices_S100002x64_S40001x64_60001_0) : (⟨S100002x64, .f32⟩ : BufTy).Contents (Elt F) → (⟨S40001x64, .f32⟩ : BufTy).Contents (Elt F)) ((Host.divf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) x_main_v61 (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) ((broadcastInDim S100002x64 ![] bcast_S_S100002x64 : (⟨S_, .f32⟩ : BufTy).Contents (Elt F) → (⟨S100002x64, .f32⟩ : BufTy).Contents (Elt F)) (constant (F := F) S_ .f32 0x40400000#32))))

set_option maxHeartbeats 1000000 in
theorem kC_v127_read (V : Valuation τ sig (Elt F)) :
    (after (K8 ++ K8x ++ K9) V (Proc.devRef .tc main_v127) : S40001x64.Idx → F .f32) = kC_v127 (F := F) (V (Proc.devRef .tc main_v61)) (V (Proc.devRef .tc main_v68)) (V (Proc.devRef .tc main_v69)) (V (Proc.devRef .tc main_v94)) := by
  simp only [StableHlo.after_append]
  after_results_simp <;> rfl

/-- The piece leaves `main_v61` alone. -/
theorem kC_v61_keep (V : Valuation τ sig (Elt F)) :
    after (K8 ++ K8x ++ K9) V (Proc.devRef .tc main_v61) = V (Proc.devRef .tc main_v61) := by
  simp only [StableHlo.after_append]
  after_results_simp

end K

/-! ## The reference's operations -/

section R
open Cert.ReferenceIdeal Cert.ReferenceIdeal.Gen Cert.ReferenceIdeal.RefRun

/-- `main_v61` after the piece, as a function of what the piece reads. -/
def rA_v61 (x_main_v59 : S100002x64.Idx → F .f32) (x_main_v60 : S100002x64.Idx → F .f32) : S100002x64.Idx → F .f32 :=
  ((Host.divf : (⟨S100002x64, .f32⟩ : BufTy).Contents (Elt F) → (⟨S100002x64, .f32⟩ : BufTy).Contents (Elt F) → (⟨S100002x64, .f32⟩ : BufTy).Contents (Elt F)) x_main_v59 x_main_v60)

set_option maxHeartbeats 1000000 in
theorem rA_v61_read (V : Valuation τ sig (Elt F)) :
    (after opsC5 V (Proc.devRef .tc main_v61) : S100002x64.Idx → F .f32) = rA_v61 (F := F) (V (Proc.devRef .tc main_v59)) (V (Proc.devRef .tc main_v60)) := by
  after_results_simp <;> rfl

/-- `main_v63` after the piece, as a function of what the piece reads. -/
def rA_v63 (x_main_arg3 : S3x600000.Idx → BitVec 32) : S600000.Idx → BitVec 32 :=
  (fun i => shapeCast S600000 (((extractStridedSlice S1x600000 ![0, 0] · slices_S3x600000_S1x600000_0_0) : (⟨S3x600000, .i32⟩ : BufTy).Contents (Elt F) → (⟨S1x600000, .i32⟩ : BufTy).Contents (Elt F)) x_main_arg3) shapeCasts_S1x600000_S600000 i)

set_option maxHeartbeats 1000000 in
theorem rA_v63_read (V : Valuation τ sig (Elt F)) :
    (after opsC5 V (Proc.devRef .tc main_v63) : S600000.Idx → BitVec 32) = rA_v63 (F := F) (V (Proc.devRef .tc main_arg3)) := by
  after_results_simp <;> rfl

/-- `main_v67` after the piece, as a function of what the piece reads. -/
def rA_v67 (x_main_arg4 : S3x600000.Idx → BitVec 32) : S600000.Idx → BitVec 32 :=
  ((addi : (⟨S600000, .i32⟩ : BufTy).Contents (Elt F) → (⟨S600000, .i32⟩ : BufTy).Contents (Elt F) → (⟨S600000, .i32⟩ : BufTy).Contents (Elt F)) (fun i => shapeCast S600000 (((extractStridedSlice S1x600000 ![0, 0] · slices_S3x600000_S1x600000_0_0) : (⟨S3x600000, .i32⟩ : BufTy).Contents (Elt F) → (⟨S1x600000, .i32⟩ : BufTy).Contents (Elt F)) x_main_arg4) shapeCasts_S1x600000_S600000 i) ((broadcastInDim S600000 ![] bcast_S_S600000 : (⟨S_, .i32⟩ : BufTy).Contents (Elt F) → (⟨S600000, .i32⟩ : BufTy).Contents (Elt F)) (constantI S_ 32 60001#32)))

set_option maxHeartbeats 1000000 in
theorem rA_v67_read (V : Valuation τ sig (Elt F)) :
    (after opsC5 V (Proc.devRef .tc main_v67) : S600000.Idx → BitVec 32) = rA_v67 (F := F) (V (Proc.devRef .tc main_arg4)) := by
  after_results_simp <;> rfl

/-- The piece leaves `main_v61` alone. -/
theorem rB_v61_keep (V : Valuation τ sig (Elt F)) :
    after (opsC6 ++ opsC7) V (Proc.devRef .tc main_v61) = V (Proc.devRef .tc main_v61) := by
  simp only [StableHlo.after_append]
  after_results_simp

/-- `main_v68` after the piece, as a function of what the piece reads. -/
def rB_v68 (x_main_v63 : S600000.Idx → BitVec 32) (x_main_v67 : S600000.Idx → BitVec 32) : S1200000.Idx → BitVec 32 :=
  (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)

set_option maxHeartbeats 1000000 in
theorem rB_v68_read (V : Valuation τ sig (Elt F)) :
    (after (opsC6 ++ opsC7) V (Proc.devRef .tc main_v68) : S1200000.Idx → BitVec 32) = rB_v68 (F := F) (V (Proc.devRef .tc main_v63)) (V (Proc.devRef .tc main_v67)) := by
  simp only [StableHlo.after_append]
  after_results_simp <;> rfl

/-- `main_v69` after the piece, as a function of what the piece reads. -/
def rB_v69 (x_main_v63 : S600000.Idx → BitVec 32) (x_main_v67 : S600000.Idx → BitVec 32) : S1200000.Idx → BitVec 32 :=
  (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63)

set_option maxHeartbeats 1000000 in
theorem rB_v69_read (V : Valuation τ sig (Elt F)) :
    (after (opsC6 ++ opsC7) V (Proc.devRef .tc main_v69) : S1200000.Idx → BitVec 32) = rB_v69 (F := F) (V (Proc.devRef .tc main_v63)) (V (Proc.devRef .tc main_v67)) := by
  simp only [StableHlo.after_append]
  after_results_simp <;> rfl

/-- `main_v73` after the piece, as a function of what the piece reads. -/
def rB_v73 (x_main_v63 : S600000.Idx → BitVec 32) (x_main_v67 : S600000.Idx → BitVec 32) : S100002.Idx → F .f32 :=
  (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32)))

set_option maxHeartbeats 1000000 in
theorem rB_v73_read (V : Valuation τ sig (Elt F)) :
    (after (opsC6 ++ opsC7) V (Proc.devRef .tc main_v73) : S100002.Idx → F .f32) = rB_v73 (F := F) (V (Proc.devRef .tc main_v63)) (V (Proc.devRef .tc main_v67)) := by
  simp only [StableHlo.after_append]
  after_results_simp <;> rfl

/-- `main_v94` after the piece, as a function of what the piece reads. -/
def rB_v94 (x_main_v63 : S600000.Idx → BitVec 32) (x_main_v67 : S600000.Idx → BitVec 32) : S1200000.Idx → F .f32 :=
  ((mulf : (⟨S1200000, .f32⟩ : BufTy).Contents (Elt F) → (⟨S1200000, .f32⟩ : BufTy).Contents (Elt F) → (⟨S1200000, .f32⟩ : BufTy).Contents (Elt F)) ((Host.rsqrt : (⟨S1200000, .f32⟩ : BufTy).Contents (Elt F) → (⟨S1200000, .f32⟩ : BufTy).Contents (Elt F)) ((maximumf : (⟨S1200000, .f32⟩ : BufTy).Contents (Elt F) → (⟨S1200000, .f32⟩ : BufTy).Contents (Elt F) → (⟨S1200000, .f32⟩ : BufTy).Contents (Elt F)) (((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67) ((broadcastInDim S1200000 ![] bcast_S_S1200000 : (⟨S_, .i32⟩ : BufTy).Contents (Elt F) → (⟨S1200000, .i32⟩ : BufTy).Contents (Elt F)) (constantI S_ 32 100002#32))) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)))) ((broadcastInDim S1200000 ![] bcast_S_S1200000 : (⟨S_, .f32⟩ : BufTy).Contents (Elt F) → (⟨S1200000, .f32⟩ : BufTy).Contents (Elt F)) (constant (F := F) S_ .f32 0x3F800000#32)))) ((Host.rsqrt : (⟨S1200000, .f32⟩ : BufTy).Contents (Elt F) → (⟨S1200000, .f32⟩ : BufTy).Contents (Elt F)) ((maximumf : (⟨S1200000, .f32⟩ : BufTy).Contents (Elt F) → (⟨S1200000, .f32⟩ : BufTy).Contents (Elt F) → (⟨S1200000, .f32⟩ : BufTy).Contents (Elt F)) (((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) (((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) ((broadcastInDim S100002 ![] bcast_S_S100002 : (⟨S_, .f32⟩ : BufTy).Contents (Elt F) → (⟨S100002, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v63 x_main_v67)) ((broadcastInDim S1200000 ![] bcast_S_S1200000 : (⟨S_, .f32⟩ : BufTy).Contents (Elt F) → (⟨S1200000, .f32⟩ : BufTy).Contents (Elt F)) (constant (F := F) S_ .f32 0x3F800000#32))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63) ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63) ((broadcastInDim S1200000 ![] bcast_S_S1200000 : (⟨S_, .i32⟩ : BufTy).Contents (Elt F) → (⟨S1200000, .i32⟩ : BufTy).Contents (Elt F)) (constantI S_ 32 100002#32))) (((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v67 x_main_v63)))) ((broadcastInDim S1200000 ![] bcast_S_S1200000 : (⟨S_, .f32⟩ : BufTy).Contents (Elt F) → (⟨S1200000, .f32⟩ : BufTy).Contents (Elt F)) (constant (F := F) S_ .f32 0x3F800000#32)))))

set_option maxHeartbeats 1000000 in
theorem rB_v94_read (V : Valuation τ sig (Elt F)) :
    (after (opsC6 ++ opsC7) V (Proc.devRef .tc main_v94) : S1200000.Idx → F .f32) = rB_v94 (F := F) (V (Proc.devRef .tc main_v63)) (V (Proc.devRef .tc main_v67)) := by
  simp only [StableHlo.after_append]
  after_results_simp <;> rfl

/-- The piece leaves `main_v61` alone. -/
theorem rC_v61_keep (V : Valuation τ sig (Elt F)) :
    after (opsC8 ++ opsC9) V (Proc.devRef .tc main_v61) = V (Proc.devRef .tc main_v61) := by
  simp only [StableHlo.after_append]
  after_results_simp

/-- `main_v125` after the piece, as a function of what the piece reads. -/
def rC_v125 (x_main_v61 : S100002x64.Idx → F .f32) (x_main_v68 : S1200000.Idx → BitVec 32) (x_main_v69 : S1200000.Idx → BitVec 32) (x_main_v94 : S1200000.Idx → F .f32) : S60001x64.Idx → F .f32 :=
  (((extractStridedSlice S60001x64 ![0, 0] · slices_S100002x64_S60001x64_0_0) : (⟨S100002x64, .f32⟩ : BufTy).Contents (Elt F) → (⟨S60001x64, .f32⟩ : BufTy).Contents (Elt F)) ((Host.divf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) x_main_v61 (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) ((broadcastInDim S100002x64 ![] bcast_S_S100002x64 : (⟨S_, .f32⟩ : BufTy).Contents (Elt F) → (⟨S100002x64, .f32⟩ : BufTy).Contents (Elt F)) (constant (F := F) S_ .f32 0x40400000#32))))

set_option maxHeartbeats 1000000 in
theorem rC_v125_read (V : Valuation τ sig (Elt F)) :
    (after (opsC8 ++ opsC9) V (Proc.devRef .tc main_v125) : S60001x64.Idx → F .f32) = rC_v125 (F := F) (V (Proc.devRef .tc main_v61)) (V (Proc.devRef .tc main_v68)) (V (Proc.devRef .tc main_v69)) (V (Proc.devRef .tc main_v94)) := by
  simp only [StableHlo.after_append]
  after_results_simp <;> rfl

/-- `main_v126` after the piece, as a function of what the piece reads. -/
def rC_v126 (x_main_v61 : S100002x64.Idx → F .f32) (x_main_v68 : S1200000.Idx → BitVec 32) (x_main_v69 : S1200000.Idx → BitVec 32) (x_main_v94 : S1200000.Idx → F .f32) : S40001x64.Idx → F .f32 :=
  (((extractStridedSlice S40001x64 ![60001, 0] · slices_S100002x64_S40001x64_60001_0) : (⟨S100002x64, .f32⟩ : BufTy).Contents (Elt F) → (⟨S40001x64, .f32⟩ : BufTy).Contents (Elt F)) ((Host.divf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) ((addf : (⟨S100002x64, .f32⟩ : BufTy).Contents (Elt F) → (⟨S100002x64, .f32⟩ : BufTy).Contents (Elt F) → (⟨S100002x64, .f32⟩ : BufTy).Contents (Elt F)) x_main_v61 (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) (((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) ((broadcastInDim S100002x64 ![] bcast_S_S100002x64 : (⟨S_, .f32⟩ : BufTy).Contents (Elt F) → (⟨S100002x64, .f32⟩ : BufTy).Contents (Elt F)) (constant (F := F) S_ .f32 0x00000000#32)) ((broadcastInDim S1200000x1 ![0] bcast_S1200000_S1200000x1_0 : (⟨S1200000, .i32⟩ : BufTy).Contents (Elt F) → (⟨S1200000x1, .i32⟩ : BufTy).Contents (Elt F)) x_main_v69) ((mulf : (⟨S1200000x64, .f32⟩ : BufTy).Contents (Elt F) → (⟨S1200000x64, .f32⟩ : BufTy).Contents (Elt F) → (⟨S1200000x64, .f32⟩ : BufTy).Contents (Elt F)) (((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94)))) ((broadcastInDim S1200000x1 ![0] bcast_S1200000_S1200000x1_0 : (⟨S1200000, .i32⟩ : BufTy).Contents (Elt F) → (⟨S1200000x1, .i32⟩ : BufTy).Contents (Elt F)) ((select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) ((cmpi .slt : (⟨S1200000, .i32⟩ : BufTy).Contents (Elt F) → (⟨S1200000, .i32⟩ : BufTy).Contents (Elt F) → (⟨S1200000, .i1⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 0#32))) ((addi : (⟨S1200000, .i32⟩ : BufTy).Contents (Elt F) → (⟨S1200000, .i32⟩ : BufTy).Contents (Elt F) → (⟨S1200000, .i32⟩ : BufTy).Contents (Elt F)) x_main_v68 ((broadcastInDim S1200000 ![] bcast_S_S1200000 : (⟨S_, .i32⟩ : BufTy).Contents (Elt F) → (⟨S1200000, .i32⟩ : BufTy).Contents (Elt F)) (constantI S_ 32 100002#32))) x_main_v68))) ((broadcastInDim S1200000x64 ![0, 1] bcast_S1200000x1_S1200000x64_0_1 : (⟨S1200000x1, .f32⟩ : BufTy).Contents (Elt F) → (⟨S1200000x64, .f32⟩ : BufTy).Contents (Elt F)) ((broadcastInDim S1200000x1 ![0] bcast_S1200000_S1200000x1_0 : (⟨S1200000, .f32⟩ : BufTy).Contents (Elt F) → (⟨S1200000x1, .f32⟩ : BufTy).Contents (Elt F)) x_main_v94))))) ((broadcastInDim S100002x64 ![] bcast_S_S100002x64 : (⟨S_, .f32⟩ : BufTy).Contents (Elt F) → (⟨S100002x64, .f32⟩ : BufTy).Contents (Elt F)) (constant (F := F) S_ .f32 0x40400000#32))))

set_option maxHeartbeats 1000000 in
theorem rC_v126_read (V : Valuation τ sig (Elt F)) :
    (after (opsC8 ++ opsC9) V (Proc.devRef .tc main_v126) : S40001x64.Idx → F .f32) = rC_v126 (F := F) (V (Proc.devRef .tc main_v61)) (V (Proc.devRef .tc main_v68)) (V (Proc.devRef .tc main_v69)) (V (Proc.devRef .tc main_v94)) := by
  simp only [StableHlo.after_append]
  after_results_simp <;> rfl

end R

/-! ## The two sides' functions are the same -/

set_option maxHeartbeats 1000000 in
theorem pA_v61_eq : (kA_v61 (F := F)) = rA_v61 (F := F) := by
  funext a0 a1
  rfl

set_option maxHeartbeats 1000000 in
theorem pA_v63_eq : (kA_v63 (F := F)) = rA_v63 (F := F) := by
  funext a0
  rfl

set_option maxHeartbeats 1000000 in
theorem pA_v67_eq : (kA_v67 (F := F)) = rA_v67 (F := F) := by
  funext a0
  rfl

set_option maxHeartbeats 1000000 in
theorem pB_v68_eq : (kB_v68 (F := F)) = rB_v68 (F := F) := by
  funext a0 a1
  rfl

set_option maxHeartbeats 1000000 in
theorem pB_v69_eq : (kB_v69 (F := F)) = rB_v69 (F := F) := by
  funext a0 a1
  rfl

set_option maxHeartbeats 1000000 in
theorem pB_v73_eq : (kB_v73 (F := F)) = rB_v73 (F := F) := by
  funext a0 a1
  rfl

set_option maxHeartbeats 1000000 in
theorem pB_v94_eq : (kB_v94 (F := F)) = rB_v94 (F := F) := by
  funext a0 a1
  rfl

set_option maxHeartbeats 1000000 in
theorem pC_v126_eq : (kC_v126 (F := F)) = rC_v125 (F := F) := by
  funext a0 a1 a2 a3
  rfl

set_option maxHeartbeats 1000000 in
theorem pC_v127_eq : (kC_v127 (F := F)) = rC_v126 (F := F) := by
  funext a0 a1 a2 a3
  rfl

/-! ## Buffers that agree before a piece agree after it -/

theorem simA (VK : Valuation Cert.KernelIdeal.τ Cert.KernelIdeal.sig (Elt F)) (VR : Valuation Cert.ReferenceIdeal.τ Cert.ReferenceIdeal.sig (Elt F))
    (h_arg3 : (VK (Proc.devRef .tc Cert.KernelIdeal.main_arg3) : Cert.KernelIdeal.S3x600000.Idx → BitVec 32) = VR (Proc.devRef .tc Cert.ReferenceIdeal.main_arg3))
    (h_arg4 : (VK (Proc.devRef .tc Cert.KernelIdeal.main_arg4) : Cert.KernelIdeal.S3x600000.Idx → BitVec 32) = VR (Proc.devRef .tc Cert.ReferenceIdeal.main_arg4))
    (h_v59 : (VK (Proc.devRef .tc Cert.KernelIdeal.main_v59) : Cert.KernelIdeal.S100002x64.Idx → F .f32) = VR (Proc.devRef .tc Cert.ReferenceIdeal.main_v59))
    (h_v60 : (VK (Proc.devRef .tc Cert.KernelIdeal.main_v60) : Cert.KernelIdeal.S100002x64.Idx → F .f32) = VR (Proc.devRef .tc Cert.ReferenceIdeal.main_v60)) :
    ((after K5 VK (Proc.devRef .tc Cert.KernelIdeal.main_v61) : Cert.KernelIdeal.S100002x64.Idx → F .f32) = after Cert.ReferenceIdeal.RefRun.opsC5 VR (Proc.devRef .tc Cert.ReferenceIdeal.main_v61)) ∧
    ((after K5 VK (Proc.devRef .tc Cert.KernelIdeal.main_v63) : Cert.KernelIdeal.S600000.Idx → BitVec 32) = after Cert.ReferenceIdeal.RefRun.opsC5 VR (Proc.devRef .tc Cert.ReferenceIdeal.main_v63)) ∧
    ((after K5 VK (Proc.devRef .tc Cert.KernelIdeal.main_v67) : Cert.KernelIdeal.S600000.Idx → BitVec 32) = after Cert.ReferenceIdeal.RefRun.opsC5 VR (Proc.devRef .tc Cert.ReferenceIdeal.main_v67)) := by
  refine ⟨?_, ?_, ?_⟩
  · rw [kA_v61_read, rA_v61_read, pA_v61_eq, h_v59, h_v60]
  · rw [kA_v63_read, rA_v63_read, pA_v63_eq, h_arg3]
  · rw [kA_v67_read, rA_v67_read, pA_v67_eq, h_arg4]

theorem simB (VK : Valuation Cert.KernelIdeal.τ Cert.KernelIdeal.sig (Elt F)) (VR : Valuation Cert.ReferenceIdeal.τ Cert.ReferenceIdeal.sig (Elt F))
    (h_v61 : (VK (Proc.devRef .tc Cert.KernelIdeal.main_v61) : Cert.KernelIdeal.S100002x64.Idx → F .f32) = VR (Proc.devRef .tc Cert.ReferenceIdeal.main_v61))
    (h_v63 : (VK (Proc.devRef .tc Cert.KernelIdeal.main_v63) : Cert.KernelIdeal.S600000.Idx → BitVec 32) = VR (Proc.devRef .tc Cert.ReferenceIdeal.main_v63))
    (h_v67 : (VK (Proc.devRef .tc Cert.KernelIdeal.main_v67) : Cert.KernelIdeal.S600000.Idx → BitVec 32) = VR (Proc.devRef .tc Cert.ReferenceIdeal.main_v67)) :
    ((after (K6 ++ K7) VK (Proc.devRef .tc Cert.KernelIdeal.main_v61) : Cert.KernelIdeal.S100002x64.Idx → F .f32) = after (Cert.ReferenceIdeal.RefRun.opsC6 ++ Cert.ReferenceIdeal.RefRun.opsC7) VR (Proc.devRef .tc Cert.ReferenceIdeal.main_v61)) ∧
    ((after (K6 ++ K7) VK (Proc.devRef .tc Cert.KernelIdeal.main_v68) : Cert.KernelIdeal.S1200000.Idx → BitVec 32) = after (Cert.ReferenceIdeal.RefRun.opsC6 ++ Cert.ReferenceIdeal.RefRun.opsC7) VR (Proc.devRef .tc Cert.ReferenceIdeal.main_v68)) ∧
    ((after (K6 ++ K7) VK (Proc.devRef .tc Cert.KernelIdeal.main_v69) : Cert.KernelIdeal.S1200000.Idx → BitVec 32) = after (Cert.ReferenceIdeal.RefRun.opsC6 ++ Cert.ReferenceIdeal.RefRun.opsC7) VR (Proc.devRef .tc Cert.ReferenceIdeal.main_v69)) ∧
    ((after (K6 ++ K7) VK (Proc.devRef .tc Cert.KernelIdeal.main_v73) : Cert.KernelIdeal.S100002.Idx → F .f32) = after (Cert.ReferenceIdeal.RefRun.opsC6 ++ Cert.ReferenceIdeal.RefRun.opsC7) VR (Proc.devRef .tc Cert.ReferenceIdeal.main_v73)) ∧
    ((after (K6 ++ K7) VK (Proc.devRef .tc Cert.KernelIdeal.main_v94) : Cert.KernelIdeal.S1200000.Idx → F .f32) = after (Cert.ReferenceIdeal.RefRun.opsC6 ++ Cert.ReferenceIdeal.RefRun.opsC7) VR (Proc.devRef .tc Cert.ReferenceIdeal.main_v94)) := by
  refine ⟨?_, ?_, ?_, ?_, ?_⟩
  · rw [kB_v61_keep, rB_v61_keep]; exact h_v61
  · rw [kB_v68_read, rB_v68_read, pB_v68_eq, h_v63, h_v67]
  · rw [kB_v69_read, rB_v69_read, pB_v69_eq, h_v63, h_v67]
  · rw [kB_v73_read, rB_v73_read, pB_v73_eq, h_v63, h_v67]
  · rw [kB_v94_read, rB_v94_read, pB_v94_eq, h_v63, h_v67]

theorem simC (VK : Valuation Cert.KernelIdeal.τ Cert.KernelIdeal.sig (Elt F)) (VR : Valuation Cert.ReferenceIdeal.τ Cert.ReferenceIdeal.sig (Elt F))
    (h_v61 : (VK (Proc.devRef .tc Cert.KernelIdeal.main_v61) : Cert.KernelIdeal.S100002x64.Idx → F .f32) = VR (Proc.devRef .tc Cert.ReferenceIdeal.main_v61))
    (h_v68 : (VK (Proc.devRef .tc Cert.KernelIdeal.main_v68) : Cert.KernelIdeal.S1200000.Idx → BitVec 32) = VR (Proc.devRef .tc Cert.ReferenceIdeal.main_v68))
    (h_v69 : (VK (Proc.devRef .tc Cert.KernelIdeal.main_v69) : Cert.KernelIdeal.S1200000.Idx → BitVec 32) = VR (Proc.devRef .tc Cert.ReferenceIdeal.main_v69))
    (h_v73 : (VK (Proc.devRef .tc Cert.KernelIdeal.main_v73) : Cert.KernelIdeal.S100002.Idx → F .f32) = VR (Proc.devRef .tc Cert.ReferenceIdeal.main_v73))
    (h_v94 : (VK (Proc.devRef .tc Cert.KernelIdeal.main_v94) : Cert.KernelIdeal.S1200000.Idx → F .f32) = VR (Proc.devRef .tc Cert.ReferenceIdeal.main_v94)) :
    ((after (K8 ++ K8x ++ K9) VK (Proc.devRef .tc Cert.KernelIdeal.main_v61) : Cert.KernelIdeal.S100002x64.Idx → F .f32) = after (Cert.ReferenceIdeal.RefRun.opsC8 ++ Cert.ReferenceIdeal.RefRun.opsC9) VR (Proc.devRef .tc Cert.ReferenceIdeal.main_v61)) ∧
    ((after (K8 ++ K8x ++ K9) VK (Proc.devRef .tc Cert.KernelIdeal.main_v126) : Cert.KernelIdeal.S60001x64.Idx → F .f32) = after (Cert.ReferenceIdeal.RefRun.opsC8 ++ Cert.ReferenceIdeal.RefRun.opsC9) VR (Proc.devRef .tc Cert.ReferenceIdeal.main_v125)) ∧
    ((after (K8 ++ K8x ++ K9) VK (Proc.devRef .tc Cert.KernelIdeal.main_v127) : Cert.KernelIdeal.S40001x64.Idx → F .f32) = after (Cert.ReferenceIdeal.RefRun.opsC8 ++ Cert.ReferenceIdeal.RefRun.opsC9) VR (Proc.devRef .tc Cert.ReferenceIdeal.main_v126)) := by
  refine ⟨?_, ?_, ?_⟩
  · rw [kC_v61_keep, rC_v61_keep]; exact h_v61
  · rw [kC_v126_read, rC_v125_read, pC_v126_eq, h_v61, h_v68, h_v69, h_v94]
  · rw [kC_v127_read, rC_v126_read, pC_v127_eq, h_v61, h_v68, h_v69, h_v94]

/-! ## Behaviour 0 as a whole -/

/-- The program's operations 78 … 160 are these pieces in order. -/
theorem b0_ops_eq : (((Cert.KernelIdeal.Gen.hostOps0 : List (HloOp Cert.KernelIdeal.τ Cert.KernelIdeal.sig (Elt F))).drop 77).take 83) = KB := rfl

/-- Behaviour 0: if the two sides agree on the two edge-index arguments and on the global graph's accumulated sum and its
    divisor, then after the behaviour's operations they agree on the global table (the quotient), on the behaviour's user
    rows and on its item rows. -/
theorem b0_tables_eq (VK : Valuation Cert.KernelIdeal.τ Cert.KernelIdeal.sig (Elt F)) (VR : Valuation Cert.ReferenceIdeal.τ Cert.ReferenceIdeal.sig (Elt F))
    (h3 : (VK (Proc.devRef .tc Cert.KernelIdeal.main_arg3) : Cert.KernelIdeal.S3x600000.Idx → BitVec 32) = VR (Proc.devRef .tc Cert.ReferenceIdeal.main_arg3))
    (h4 : (VK (Proc.devRef .tc Cert.KernelIdeal.main_arg4) : Cert.KernelIdeal.S3x600000.Idx → BitVec 32) = VR (Proc.devRef .tc Cert.ReferenceIdeal.main_arg4))
    (h59 : (VK (Proc.devRef .tc Cert.KernelIdeal.main_v59) : Cert.KernelIdeal.S100002x64.Idx → F .f32) = VR (Proc.devRef .tc Cert.ReferenceIdeal.main_v59))
    (h60 : (VK (Proc.devRef .tc Cert.KernelIdeal.main_v60) : Cert.KernelIdeal.S100002x64.Idx → F .f32) = VR (Proc.devRef .tc Cert.ReferenceIdeal.main_v60)) :
    ((after KB VK (Proc.devRef .tc Cert.KernelIdeal.main_v61) : Cert.KernelIdeal.S100002x64.Idx → F .f32) = after (Cert.ReferenceIdeal.RefRun.opsC5 ++ Cert.ReferenceIdeal.RefRun.opsC6 ++ Cert.ReferenceIdeal.RefRun.opsC7 ++ Cert.ReferenceIdeal.RefRun.opsC8 ++ Cert.ReferenceIdeal.RefRun.opsC9) VR (Proc.devRef .tc Cert.ReferenceIdeal.main_v61)) ∧
    ((after KB VK (Proc.devRef .tc Cert.KernelIdeal.main_v126) : Cert.KernelIdeal.S60001x64.Idx → F .f32) = after (Cert.ReferenceIdeal.RefRun.opsC5 ++ Cert.ReferenceIdeal.RefRun.opsC6 ++ Cert.ReferenceIdeal.RefRun.opsC7 ++ Cert.ReferenceIdeal.RefRun.opsC8 ++ Cert.ReferenceIdeal.RefRun.opsC9) VR (Proc.devRef .tc Cert.ReferenceIdeal.main_v125)) ∧
    ((after KB VK (Proc.devRef .tc Cert.KernelIdeal.main_v127) : Cert.KernelIdeal.S40001x64.Idx → F .f32) = after (Cert.ReferenceIdeal.RefRun.opsC5 ++ Cert.ReferenceIdeal.RefRun.opsC6 ++ Cert.ReferenceIdeal.RefRun.opsC7 ++ Cert.ReferenceIdeal.RefRun.opsC8 ++ Cert.ReferenceIdeal.RefRun.opsC9) VR (Proc.devRef .tc Cert.ReferenceIdeal.main_v126)) := by
  have eK : after (KB (F := F)) VK = after (K8 ++ K8x ++ K9) (after (K6 ++ K7) (after K5 VK)) := by
    unfold KB
    simp only [StableHlo.after_append]
  have eR : after (Cert.ReferenceIdeal.RefRun.opsC5 ++ Cert.ReferenceIdeal.RefRun.opsC6 ++ Cert.ReferenceIdeal.RefRun.opsC7 ++ Cert.ReferenceIdeal.RefRun.opsC8 ++ Cert.ReferenceIdeal.RefRun.opsC9) VR
      = after (Cert.ReferenceIdeal.RefRun.opsC8 ++ Cert.ReferenceIdeal.RefRun.opsC9) (after (Cert.ReferenceIdeal.RefRun.opsC6 ++ Cert.ReferenceIdeal.RefRun.opsC7) (after Cert.ReferenceIdeal.RefRun.opsC5 VR)) := by
    simp only [StableHlo.after_append]
  rw [eK, eR]
  obtain ⟨a61, a63, a67⟩ := simA VK VR h3 h4 h59 h60
  obtain ⟨b61, b68, b69, b73, b94⟩ := simB _ _ a61 a63 a67
  obtain ⟨c61, c126, c127⟩ := simC _ _ b61 b68 b69 b73 b94
  exact ⟨c61, c126, c127⟩

end Cert.Proof.PrefixB0
-- ==== Proof.PrefixMidT.lean ====
import proofs.«412432_j74655121539772_3_alg».proof.Proof.Gen.KernelIdeal.Launch
import proofs.«412432_j74655121539772_3_alg».proof.Proof.RefRunC2
import proofs.«412432_j74655121539772_3_alg».proof.Proof.RefRunC3
import Idealize.ShloMosaic.Lib.StableHlo.Run

noncomputable section

namespace Cert.KernelIdeal.PrefixMidK

open Cert.KernelIdeal Cert.KernelIdeal.Gen Idealize.ShloMosaic Idealize.ShloMosaic.TcCoe Idealize.SL.Sem Idealize.ShloMosaic.StableHlo

variable {F : FTy → Type} [FloatOps F]

/-- The prefix's operations 161 … 167 of 350: they write `main_v128` … `main_v133`. -/
abbrev K10 : List (HloOp τ sig (Elt F)) :=
  [ StableHlo.unary main_arg3 main_v128 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v128 main_v129 rfl shapeCasts_S1x600000_S600000,
    StableHlo.unary main_arg4 main_v130 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v130 main_v131 rfl shapeCasts_S1x600000_S600000,
    StableHlo.nullary main_c_30 (constantI S_ 32 60001#32),
    StableHlo.unary main_c_30 main_v132 (broadcastInDim S600000 ![] bcast_S_S600000 : (⟨S_, .i32⟩ : BufTy).Contents (Elt F) → (⟨S600000, .i32⟩ : BufTy).Contents (Elt F)),
    StableHlo.binary main_v131 main_v132 main_v133 (addi : (⟨S600000, .i32⟩ : BufTy).Contents (Elt F) → (⟨S600000, .i32⟩ : BufTy).Contents (Elt F) → (⟨S600000, .i32⟩ : BufTy).Contents (Elt F)) ]

/-- The buffers `K10` writes, in order. -/
abbrev K10_W : List (Ref sig .tc) := [main_v128, main_v129, main_v130, main_v131, main_c_30, main_v132, main_v133]

set_option maxRecDepth 8192 in
theorem K10_writes : (K10 : List (HloOp τ sig (Elt F))).Forall fun op => op.writes ⊆ (K10_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K10` does not write keeps its contents through it. -/
theorem K10_keep (V : Valuation τ sig (Elt F)) (r : Ref sig .tc) (h : r ∉ K10_W) :
    after K10 V (Proc.devRef .tc r) = V (Proc.devRef .tc r) :=
  after_of_writes_sub K10 V K10_writes h

/-- The prefix's operations 168 … 168 of 350: they write `main_v134` … `main_v134`. -/
abbrev K11 : List (HloOp τ sig (Elt F)) :=
  [ StableHlo.binary main_v129 main_v133 main_v134 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) ]

/-- The buffers `K11` writes, in order. -/
abbrev K11_W : List (Ref sig .tc) := [main_v134]

set_option maxRecDepth 8192 in
theorem K11_writes : (K11 : List (HloOp τ sig (Elt F))).Forall fun op => op.writes ⊆ (K11_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

/-- A buffer `K11` does not write keeps its contents through it. -/
theorem K11_keep (V : Valuation τ sig (Elt F)) (r : Ref sig .tc) (h : r ∉ K11_W) :
    after K11 V (Proc.devRef .tc r) = V (Proc.devRef .tc r) :=
  after_of_writes_sub K11 V K11_writes h

/-- The prefix's operations 169 … 181 of 350: they write `main_v135` … `main_v143`. -/
abbrev K12 : List (HloOp τ sig (Elt F)) :=
  [ StableHlo.binary main_v133 main_v129 main_v135 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)),
    StableHlo.nullary main_cst_31 (constant S_ .f32 0x3F800000#32),
    StableHlo.unary main_cst_31 main_v136 (broadcastInDim S1200000 ![] bcast_S_S1200000 : (⟨S_, .f32⟩ : BufTy).Contents (Elt F) → (⟨S1200000, .f32⟩ : BufTy).Contents (Elt F)),
    StableHlo.nullary main_cst_32 (constant S_ .f32 0x00000000#32),
    StableHlo.unary main_cst_32 main_v137 (broadcastInDim S100002 ![] bcast_S_S100002 : (⟨S_, .f32⟩ : BufTy).Contents (Elt F) → (⟨S100002, .f32⟩ : BufTy).Contents (Elt F)),
    StableHlo.unary main_v134 main_v138 (broadcastInDim S1200000x1 ![0] bcast_S1200000_S1200000x1_0 : (⟨S1200000, .i32⟩ : BufTy).Contents (Elt F) → (⟨S1200000x1, .i32⟩ : BufTy).Contents (Elt F)),
    StableHlo.ternary main_v137 main_v138 main_v136 main_v139 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)),
    StableHlo.nullary main_c_33 (constantI S_ 32 0#32),
    StableHlo.unary main_c_33 main_v140 (broadcastInDim S1200000 ![] bcast_S_S1200000 : (⟨S_, .i32⟩ : BufTy).Contents (Elt F) → (⟨S1200000, .i32⟩ : BufTy).Contents (Elt F)),
    StableHlo.binary main_v134 main_v140 main_v141 (cmpi .slt : (⟨S1200000, .i32⟩ : BufTy).Contents (Elt F) → (⟨S1200000, .i32⟩ : BufTy).Contents (Elt F) → (⟨S1200000, .i1⟩ : BufTy).Contents (Elt F)),
    StableHlo.nullary main_c_34 (constantI S_ 32 100002#32),
    StableHlo.unary main_c_34 main_v142 (broadcastInDim S1200000 ![] bcast_S_S1200000 : (⟨S_, .i32⟩ : BufTy).Contents (Elt F) → (⟨S1200000, .i32⟩ : BufTy).Contents (Elt F)),
    StableHlo.binary main_v134 main_v142 main_v143 (addi : (⟨S1200000, .i32⟩ : BufTy).Contents (Elt F) → (⟨S1200000, .i32⟩ : BufTy).Contents (Elt F) → (⟨S1200000, .i32⟩ : BufTy).Contents (Elt F)) ]

/-- The buffers `K12` writes, in order. -/
abbrev K12_W : List (Ref sig .tc) := [main_v135, main_cst_31, main_v136, main_cst_32, main_v137, main_v138, main_v139, main_c_33, main_v140, main_v141, main_c_34, main_v142, main_v143]

set_option maxRecDepth 8192 in
theorem K12_writes : (K12 : List (HloOp τ sig (Elt F))).Forall fun op => op.writes ⊆ (K12_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K12` does not write keeps its contents through it. -/
theorem K12_keep (V : Valuation τ sig (Elt F)) (r : Ref sig .tc) (h : r ∉ K12_W) :
    after K12 V (Proc.devRef .tc r) = V (Proc.devRef .tc r) :=
  after_of_writes_sub K12 V K12_writes h

/-- The prefix's operations 182 … 210 of 350: they write `main_v144` … `main_v166`. -/
abbrev K13 : List (HloOp τ sig (Elt F)) :=
  [ StableHlo.ternary main_v141 main_v143 main_v134 main_v144 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v144 main_v145 (broadcastInDim S1200000x1 ![0] bcast_S1200000_S1200000x1_0 : (⟨S1200000, .i32⟩ : BufTy).Contents (Elt F) → (⟨S1200000x1, .i32⟩ : BufTy).Contents (Elt F)),
    StableHlo.binary main_v139 main_v145 main_v146 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    StableHlo.nullary main_cst_35 (constant S_ .f32 0x3F800000#32),
    StableHlo.unary main_cst_35 main_v147 (broadcastInDim S1200000 ![] bcast_S_S1200000 : (⟨S_, .f32⟩ : BufTy).Contents (Elt F) → (⟨S1200000, .f32⟩ : BufTy).Contents (Elt F)),
    StableHlo.binary main_v146 main_v147 main_v148 (maximumf : (⟨S1200000, .f32⟩ : BufTy).Contents (Elt F) → (⟨S1200000, .f32⟩ : BufTy).Contents (Elt F) → (⟨S1200000, .f32⟩ : BufTy).Contents (Elt F)),
    StableHlo.unary main_v148 main_v149 (Host.rsqrt : (⟨S1200000, .f32⟩ : BufTy).Contents (Elt F) → (⟨S1200000, .f32⟩ : BufTy).Contents (Elt F)),
    StableHlo.nullary main_c_36 (constantI S_ 32 0#32),
    StableHlo.unary main_c_36 main_v150 (broadcastInDim S1200000 ![] bcast_S_S1200000 : (⟨S_, .i32⟩ : BufTy).Contents (Elt F) → (⟨S1200000, .i32⟩ : BufTy).Contents (Elt F)),
    StableHlo.binary main_v135 main_v150 main_v151 (cmpi .slt : (⟨S1200000, .i32⟩ : BufTy).Contents (Elt F) → (⟨S1200000, .i32⟩ : BufTy).Contents (Elt F) → (⟨S1200000, .i1⟩ : BufTy).Contents (Elt F)),
    StableHlo.nullary main_c_37 (constantI S_ 32 100002#32),
    StableHlo.unary main_c_37 main_v152 (broadcastInDim S1200000 ![] bcast_S_S1200000 : (⟨S_, .i32⟩ : BufTy).Contents (Elt F) → (⟨S1200000, .i32⟩ : BufTy).Contents (Elt F)),
    StableHlo.binary main_v135 main_v152 main_v153 (addi : (⟨S1200000, .i32⟩ : BufTy).Contents (Elt F) → (⟨S1200000, .i32⟩ : BufTy).Contents (Elt F) → (⟨S1200000, .i32⟩ : BufTy).Contents (Elt F)),
    StableHlo.ternary main_v151 main_v153 main_v135 main_v154 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v154 main_v155 (broadcastInDim S1200000x1 ![0] bcast_S1200000_S1200000x1_0 : (⟨S1200000, .i32⟩ : BufTy).Contents (Elt F) → (⟨S1200000x1, .i32⟩ : BufTy).Contents (Elt F)),
    StableHlo.binary main_v139 main_v155 main_v156 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    StableHlo.nullary main_cst_38 (constant S_ .f32 0x3F800000#32),
    StableHlo.unary main_cst_38 main_v157 (broadcastInDim S1200000 ![] bcast_S_S1200000 : (⟨S_, .f32⟩ : BufTy).Contents (Elt F) → (⟨S1200000, .f32⟩ : BufTy).Contents (Elt F)),
    StableHlo.binary main_v156 main_v157 main_v158 (maximumf : (⟨S1200000, .f32⟩ : BufTy).Contents (Elt F) → (⟨S1200000, .f32⟩ : BufTy).Contents (Elt F) → (⟨S1200000, .f32⟩ : BufTy).Contents (Elt F)),
    StableHlo.unary main_v158 main_v159 (Host.rsqrt : (⟨S1200000, .f32⟩ : BufTy).Contents (Elt F) → (⟨S1200000, .f32⟩ : BufTy).Contents (Elt F)),
    StableHlo.binary main_v149 main_v159 main_v160 (mulf : (⟨S1200000, .f32⟩ : BufTy).Contents (Elt F) → (⟨S1200000, .f32⟩ : BufTy).Contents (Elt F) → (⟨S1200000, .f32⟩ : BufTy).Contents (Elt F)),
    StableHlo.nullary main_c_39 (constantI S_ 32 0#32),
    StableHlo.unary main_c_39 main_v161 (broadcastInDim S1200000 ![] bcast_S_S1200000 : (⟨S_, .i32⟩ : BufTy).Contents (Elt F) → (⟨S1200000, .i32⟩ : BufTy).Contents (Elt F)),
    StableHlo.binary main_v134 main_v161 main_v162 (cmpi .slt : (⟨S1200000, .i32⟩ : BufTy).Contents (Elt F) → (⟨S1200000, .i32⟩ : BufTy).Contents (Elt F) → (⟨S1200000, .i1⟩ : BufTy).Contents (Elt F)),
    StableHlo.nullary main_c_40 (constantI S_ 32 100002#32),
    StableHlo.unary main_c_40 main_v163 (broadcastInDim S1200000 ![] bcast_S_S1200000 : (⟨S_, .i32⟩ : BufTy).Contents (Elt F) → (⟨S1200000, .i32⟩ : BufTy).Contents (Elt F)),
    StableHlo.binary main_v134 main_v163 main_v164 (addi : (⟨S1200000, .i32⟩ : BufTy).Contents (Elt F) → (⟨S1200000, .i32⟩ : BufTy).Contents (Elt F) → (⟨S1200000, .i32⟩ : BufTy).Contents (Elt F)),
    StableHlo.ternary main_v162 main_v164 main_v134 main_v165 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v165 main_v166 (broadcastInDim S1200000x1 ![0] bcast_S1200000_S1200000x1_0 : (⟨S1200000, .i32⟩ : BufTy).Contents (Elt F) → (⟨S1200000x1, .i32⟩ : BufTy).Contents (Elt F)) ]

/-- The buffers `K13` writes, in order. -/
abbrev K13_W : List (Ref sig .tc) := [main_v144, main_v145, main_v146, main_cst_35, main_v147, main_v148, main_v149, main_c_36, main_v150, main_v151, main_c_37, main_v152, main_v153, main_v154, main_v155, main_v156, main_cst_38, main_v157, main_v158, main_v159, main_v160, main_c_39, main_v161, main_v162, main_c_40, main_v163, main_v164, main_v165, main_v166]

set_option maxRecDepth 8192 in
theorem K13_writes : (K13 : List (HloOp τ sig (Elt F))).Forall fun op => op.writes ⊆ (K13_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K13` does not write keeps its contents through it. -/
theorem K13_keep (V : Valuation τ sig (Elt F)) (r : Ref sig .tc) (h : r ∉ K13_W) :
    after K13 V (Proc.devRef .tc r) = V (Proc.devRef .tc r) :=
  after_of_writes_sub K13 V K13_writes h

/-- The prefix's operations 211 … 239 of 350: they write `main_v167` … `main_v190`. -/
abbrev K14 : List (HloOp τ sig (Elt F)) :=
  [ StableHlo.binary main_v61 main_v166 main_v167 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    StableHlo.unary main_v160 main_v168 (broadcastInDim S1200000x1 ![0] bcast_S1200000_S1200000x1_0 : (⟨S1200000, .f32⟩ : BufTy).Contents (Elt F) → (⟨S1200000x1, .f32⟩ : BufTy).Contents (Elt F)),
    StableHlo.unary main_v168 main_v169 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v167 main_v169 main_v170 (mulf : (⟨S1200000x64, .f32⟩ : BufTy).Contents (Elt F) → (⟨S1200000x64, .f32⟩ : BufTy).Contents (Elt F) → (⟨S1200000x64, .f32⟩ : BufTy).Contents (Elt F)),
    StableHlo.nullary main_cst_41 (constant S_ .f32 0x00000000#32),
    StableHlo.unary main_cst_41 main_v171 (broadcastInDim S100002x64 ![] bcast_S_S100002x64 : (⟨S_, .f32⟩ : BufTy).Contents (Elt F) → (⟨S100002x64, .f32⟩ : BufTy).Contents (Elt F)),
    StableHlo.unary main_v135 main_v172 (broadcastInDim S1200000x1 ![0] bcast_S1200000_S1200000x1_0 : (⟨S1200000, .i32⟩ : BufTy).Contents (Elt F) → (⟨S1200000x1, .i32⟩ : BufTy).Contents (Elt F)),
    StableHlo.ternary main_v171 main_v172 main_v170 main_v173 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    StableHlo.binary main_v61 main_v173 main_v174 (addf : (⟨S100002x64, .f32⟩ : BufTy).Contents (Elt F) → (⟨S100002x64, .f32⟩ : BufTy).Contents (Elt F) → (⟨S100002x64, .f32⟩ : BufTy).Contents (Elt F)),
    StableHlo.nullary main_c_42 (constantI S_ 32 0#32),
    StableHlo.unary main_c_42 main_v175 (broadcastInDim S1200000 ![] bcast_S_S1200000 : (⟨S_, .i32⟩ : BufTy).Contents (Elt F) → (⟨S1200000, .i32⟩ : BufTy).Contents (Elt F)),
    StableHlo.binary main_v134 main_v175 main_v176 (cmpi .slt : (⟨S1200000, .i32⟩ : BufTy).Contents (Elt F) → (⟨S1200000, .i32⟩ : BufTy).Contents (Elt F) → (⟨S1200000, .i1⟩ : BufTy).Contents (Elt F)),
    StableHlo.nullary main_c_43 (constantI S_ 32 100002#32),
    StableHlo.unary main_c_43 main_v177 (broadcastInDim S1200000 ![] bcast_S_S1200000 : (⟨S_, .i32⟩ : BufTy).Contents (Elt F) → (⟨S1200000, .i32⟩ : BufTy).Contents (Elt F)),
    StableHlo.binary main_v134 main_v177 main_v178 (addi : (⟨S1200000, .i32⟩ : BufTy).Contents (Elt F) → (⟨S1200000, .i32⟩ : BufTy).Contents (Elt F) → (⟨S1200000, .i32⟩ : BufTy).Contents (Elt F)),
    StableHlo.ternary main_v176 main_v178 main_v134 main_v179 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v179 main_v180 (broadcastInDim S1200000x1 ![0] bcast_S1200000_S1200000x1_0 : (⟨S1200000, .i32⟩ : BufTy).Contents (Elt F) → (⟨S1200000x1, .i32⟩ : BufTy).Contents (Elt F)),
    StableHlo.binary main_v173 main_v180 main_v181 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    StableHlo.unary main_v160 main_v182 (broadcastInDim S1200000x1 ![0] bcast_S1200000_S1200000x1_0 : (⟨S1200000, .f32⟩ : BufTy).Contents (Elt F) → (⟨S1200000x1, .f32⟩ : BufTy).Contents (Elt F)),
    StableHlo.unary main_v182 main_v183 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v181 main_v183 main_v184 (mulf : (⟨S1200000x64, .f32⟩ : BufTy).Contents (Elt F) → (⟨S1200000x64, .f32⟩ : BufTy).Contents (Elt F) → (⟨S1200000x64, .f32⟩ : BufTy).Contents (Elt F)),
    StableHlo.nullary main_cst_44 (constant S_ .f32 0x00000000#32),
    StableHlo.unary main_cst_44 main_v185 (broadcastInDim S100002x64 ![] bcast_S_S100002x64 : (⟨S_, .f32⟩ : BufTy).Contents (Elt F) → (⟨S100002x64, .f32⟩ : BufTy).Contents (Elt F)),
    StableHlo.unary main_v135 main_v186 (broadcastInDim S1200000x1 ![0] bcast_S1200000_S1200000x1_0 : (⟨S1200000, .i32⟩ : BufTy).Contents (Elt F) → (⟨S1200000x1, .i32⟩ : BufTy).Contents (Elt F)),
    StableHlo.ternary main_v185 main_v186 main_v184 main_v187 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    StableHlo.binary main_v174 main_v187 main_v188 (addf : (⟨S100002x64, .f32⟩ : BufTy).Contents (Elt F) → (⟨S100002x64, .f32⟩ : BufTy).Contents (Elt F) → (⟨S100002x64, .f32⟩ : BufTy).Contents (Elt F)),
    StableHlo.nullary main_cst_45 (constant S_ .f32 0x40400000#32),
    StableHlo.unary main_cst_45 main_v189 (broadcastInDim S100002x64 ![] bcast_S_S100002x64 : (⟨S_, .f32⟩ : BufTy).Contents (Elt F) → (⟨S100002x64, .f32⟩ : BufTy).Contents (Elt F)),
    StableHlo.binary main_v188 main_v189 main_v190 (Host.divf : (⟨S100002x64, .f32⟩ : BufTy).Contents (Elt F) → (⟨S100002x64, .f32⟩ : BufTy).Contents (Elt F) → (⟨S100002x64, .f32⟩ : BufTy).Contents (Elt F)) ]

/-- The buffers `K14` writes, in order. -/
abbrev K14_W : List (Ref sig .tc) := [main_v167, main_v168, main_v169, main_v170, main_cst_41, main_v171, main_v172, main_v173, main_v174, main_c_42, main_v175, main_v176, main_c_43, main_v177, main_v178, main_v179, main_v180, main_v181, main_v182, main_v183, main_v184, main_cst_44, main_v185, main_v186, main_v187, main_v188, main_cst_45, main_v189, main_v190]

set_option maxRecDepth 8192 in
theorem K14_writes : (K14 : List (HloOp τ sig (Elt F))).Forall fun op => op.writes ⊆ (K14_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K14` does not write keeps its contents through it. -/
theorem K14_keep (V : Valuation τ sig (Elt F)) (r : Ref sig .tc) (h : r ∉ K14_W) :
    after K14 V (Proc.devRef .tc r) = V (Proc.devRef .tc r) :=
  after_of_writes_sub K14 V K14_writes h

/-- The prefix's operations 240 … 240 of 350: they write `main_v191` … `main_v191`. -/
abbrev K14x : List (HloOp τ sig (Elt F)) :=
  [ StableHlo.unary main_v139 main_v191 ((extractStridedSlice S40001 ![60001] · slices_S100002_S40001_60001) : (⟨S100002, .f32⟩ : BufTy).Contents (Elt F) → (⟨S40001, .f32⟩ : BufTy).Contents (Elt F)) ]

/-- The buffers `K14x` writes, in order. -/
abbrev K14x_W : List (Ref sig .tc) := [main_v191]

set_option maxRecDepth 8192 in
theorem K14x_writes : (K14x : List (HloOp τ sig (Elt F))).Forall fun op => op.writes ⊆ (K14x_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

/-- A buffer `K14x` does not write keeps its contents through it. -/
theorem K14x_keep (V : Valuation τ sig (Elt F)) (r : Ref sig .tc) (h : r ∉ K14x_W) :
    after K14x V (Proc.devRef .tc r) = V (Proc.devRef .tc r) :=
  after_of_writes_sub K14x V K14x_writes h

/-- The prefix's operations 241 … 242 of 350: they write `main_v192` … `main_v193`. -/
abbrev K15 : List (HloOp τ sig (Elt F)) :=
  [ StableHlo.unary main_v190 main_v192 ((extractStridedSlice S60001x64 ![0, 0] · slices_S100002x64_S60001x64_0_0) : (⟨S100002x64, .f32⟩ : BufTy).Contents (Elt F) → (⟨S60001x64, .f32⟩ : BufTy).Contents (Elt F)),
    StableHlo.unary main_v190 main_v193 ((extractStridedSlice S40001x64 ![60001, 0] · slices_S100002x64_S40001x64_60001_0) : (⟨S100002x64, .f32⟩ : BufTy).Contents (Elt F) → (⟨S40001x64, .f32⟩ : BufTy).Contents (Elt F)) ]

/-- The buffers `K15` writes, in order. -/
abbrev K15_W : List (Ref sig .tc) := [main_v192, main_v193]

set_option maxRecDepth 8192 in
theorem K15_writes : (K15 : List (HloOp τ sig (Elt F))).Forall fun op => op.writes ⊆ (K15_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K15` does not write keeps its contents through it. -/
theorem K15_keep (V : Valuation τ sig (Elt F)) (r : Ref sig .tc) (h : r ∉ K15_W) :
    after K15 V (Proc.devRef .tc r) = V (Proc.devRef .tc r) :=
  after_of_writes_sub K15 V K15_writes h

/-- Result `main_v129` of the piece over its inputs. -/
def pK10_128 (x_main_arg3 : IVec S3x600000 32) : IVec S600000 32 :=
  have t_main_v128 : IVec S1x600000 32 := ((extractStridedSlice S1x600000 ![1, 0] · slices_S3x600000_S1x600000_1_0) : (⟨S3x600000, .i32⟩ : BufTy).Contents (Elt F) → (⟨S1x600000, .i32⟩ : BufTy).Contents (Elt F)) x_main_arg3
  have t_main_v129 : IVec S600000 32 := shapeCast S600000 t_main_v128 shapeCasts_S1x600000_S600000
  t_main_v129

/-- Result `main_v133` of the piece over its inputs. -/
def pK10_132 (x_main_arg4 : IVec S3x600000 32) : IVec S600000 32 :=
  have t_main_v130 : IVec S1x600000 32 := ((extractStridedSlice S1x600000 ![1, 0] · slices_S3x600000_S1x600000_1_0) : (⟨S3x600000, .i32⟩ : BufTy).Contents (Elt F) → (⟨S1x600000, .i32⟩ : BufTy).Contents (Elt F)) x_main_arg4
  have t_main_v131 : IVec S600000 32 := shapeCast S600000 t_main_v130 shapeCasts_S1x600000_S600000
  have t_main_c_30 : IVec S_ 32 := (constantI S_ 32 60001#32)
  have t_main_v132 : IVec S600000 32 := (broadcastInDim S600000 ![] bcast_S_S600000 : (⟨S_, .i32⟩ : BufTy).Contents (Elt F) → (⟨S600000, .i32⟩ : BufTy).Contents (Elt F)) t_main_c_30
  have t_main_v133 : IVec S600000 32 := (addi : (⟨S600000, .i32⟩ : BufTy).Contents (Elt F) → (⟨S600000, .i32⟩ : BufTy).Contents (Elt F) → (⟨S600000, .i32⟩ : BufTy).Contents (Elt F)) t_main_v131 t_main_v132
  t_main_v133

/-- Result `main_v134` of the piece over its inputs. -/
def pK11_133 (x_main_v129 : IVec S600000 32) (x_main_v133 : IVec S600000 32) : IVec S1200000 32 :=
  have t_main_v134 : IVec S1200000 32 := ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v129 x_main_v133
  t_main_v134

/-- Result `main_v141` of the piece over its inputs. -/
def pK12_140 (x_main_v134 : IVec S1200000 32) : IVec S1200000 1 :=
  have t_main_c_33 : IVec S_ 32 := (constantI S_ 32 0#32)
  have t_main_v140 : IVec S1200000 32 := (broadcastInDim S1200000 ![] bcast_S_S1200000 : (⟨S_, .i32⟩ : BufTy).Contents (Elt F) → (⟨S1200000, .i32⟩ : BufTy).Contents (Elt F)) t_main_c_33
  have t_main_v141 : IVec S1200000 1 := (cmpi .slt : (⟨S1200000, .i32⟩ : BufTy).Contents (Elt F) → (⟨S1200000, .i32⟩ : BufTy).Contents (Elt F) → (⟨S1200000, .i1⟩ : BufTy).Contents (Elt F)) x_main_v134 t_main_v140
  t_main_v141

/-- Result `main_v143` of the piece over its inputs. -/
def pK12_142 (x_main_v134 : IVec S1200000 32) : IVec S1200000 32 :=
  have t_main_c_34 : IVec S_ 32 := (constantI S_ 32 100002#32)
  have t_main_v142 : IVec S1200000 32 := (broadcastInDim S1200000 ![] bcast_S_S1200000 : (⟨S_, .i32⟩ : BufTy).Contents (Elt F) → (⟨S1200000, .i32⟩ : BufTy).Contents (Elt F)) t_main_c_34
  have t_main_v143 : IVec S1200000 32 := (addi : (⟨S1200000, .i32⟩ : BufTy).Contents (Elt F) → (⟨S1200000, .i32⟩ : BufTy).Contents (Elt F) → (⟨S1200000, .i32⟩ : BufTy).Contents (Elt F)) x_main_v134 t_main_v142
  t_main_v143

/-- Result `main_v139` of the piece over its inputs. -/
def pK12_138 (x_main_v134 : IVec S1200000 32) : FVec F S100002 .f32 :=
  have t_main_cst_31 : FVec F S_ .f32 := (constant (F := F) S_ .f32 0x3F800000#32)
  have t_main_v136 : FVec F S1200000 .f32 := (broadcastInDim S1200000 ![] bcast_S_S1200000 : (⟨S_, .f32⟩ : BufTy).Contents (Elt F) → (⟨S1200000, .f32⟩ : BufTy).Contents (Elt F)) t_main_cst_31
  have t_main_cst_32 : FVec F S_ .f32 := (constant (F := F) S_ .f32 0x00000000#32)
  have t_main_v137 : FVec F S100002 .f32 := (broadcastInDim S100002 ![] bcast_S_S100002 : (⟨S_, .f32⟩ : BufTy).Contents (Elt F) → (⟨S100002, .f32⟩ : BufTy).Contents (Elt F)) t_main_cst_32
  have t_main_v138 : IVec S1200000x1 32 := (broadcastInDim S1200000x1 ![0] bcast_S1200000_S1200000x1_0 : (⟨S1200000, .i32⟩ : BufTy).Contents (Elt F) → (⟨S1200000x1, .i32⟩ : BufTy).Contents (Elt F)) x_main_v134
  have t_main_v139 : FVec F S100002 .f32 := ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) t_main_v137 t_main_v138 t_main_v136
  t_main_v139

/-- Result `main_v135` of the piece over its inputs. -/
def pK12_134 (x_main_v133 : IVec S600000 32) (x_main_v129 : IVec S600000 32) : IVec S1200000 32 :=
  have t_main_v135 : IVec S1200000 32 := ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v133 x_main_v129
  t_main_v135

/-- Result `main_v166` of the piece over its inputs. -/
def pK13_165 (x_main_v134 : IVec S1200000 32) : IVec S1200000x1 32 :=
  have t_main_c_39 : IVec S_ 32 := (constantI S_ 32 0#32)
  have t_main_v161 : IVec S1200000 32 := (broadcastInDim S1200000 ![] bcast_S_S1200000 : (⟨S_, .i32⟩ : BufTy).Contents (Elt F) → (⟨S1200000, .i32⟩ : BufTy).Contents (Elt F)) t_main_c_39
  have t_main_v162 : IVec S1200000 1 := (cmpi .slt : (⟨S1200000, .i32⟩ : BufTy).Contents (Elt F) → (⟨S1200000, .i32⟩ : BufTy).Contents (Elt F) → (⟨S1200000, .i1⟩ : BufTy).Contents (Elt F)) x_main_v134 t_main_v161
  have t_main_c_40 : IVec S_ 32 := (constantI S_ 32 100002#32)
  have t_main_v163 : IVec S1200000 32 := (broadcastInDim S1200000 ![] bcast_S_S1200000 : (⟨S_, .i32⟩ : BufTy).Contents (Elt F) → (⟨S1200000, .i32⟩ : BufTy).Contents (Elt F)) t_main_c_40
  have t_main_v164 : IVec S1200000 32 := (addi : (⟨S1200000, .i32⟩ : BufTy).Contents (Elt F) → (⟨S1200000, .i32⟩ : BufTy).Contents (Elt F) → (⟨S1200000, .i32⟩ : BufTy).Contents (Elt F)) x_main_v134 t_main_v163
  have t_main_v165 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v162 t_main_v164 x_main_v134
  have t_main_v166 : IVec S1200000x1 32 := (broadcastInDim S1200000x1 ![0] bcast_S1200000_S1200000x1_0 : (⟨S1200000, .i32⟩ : BufTy).Contents (Elt F) → (⟨S1200000x1, .i32⟩ : BufTy).Contents (Elt F)) t_main_v165
  t_main_v166

/-- Result `main_v160` of the piece over its inputs. -/
def pK13_159 (x_main_v141 : IVec S1200000 1) (x_main_v143 : IVec S1200000 32) (x_main_v134 : IVec S1200000 32) (x_main_v139 : FVec F S100002 .f32) (x_main_v135 : IVec S1200000 32) : FVec F S1200000 .f32 :=
  have t_main_v144 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) x_main_v141 x_main_v143 x_main_v134
  have t_main_v145 : IVec S1200000x1 32 := (broadcastInDim S1200000x1 ![0] bcast_S1200000_S1200000x1_0 : (⟨S1200000, .i32⟩ : BufTy).Contents (Elt F) → (⟨S1200000x1, .i32⟩ : BufTy).Contents (Elt F)) t_main_v144
  have t_main_v146 : FVec F S1200000 .f32 := ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) x_main_v139 t_main_v145
  have t_main_cst_35 : FVec F S_ .f32 := (constant (F := F) S_ .f32 0x3F800000#32)
  have t_main_v147 : FVec F S1200000 .f32 := (broadcastInDim S1200000 ![] bcast_S_S1200000 : (⟨S_, .f32⟩ : BufTy).Contents (Elt F) → (⟨S1200000, .f32⟩ : BufTy).Contents (Elt F)) t_main_cst_35
  have t_main_v148 : FVec F S1200000 .f32 := (maximumf : (⟨S1200000, .f32⟩ : BufTy).Contents (Elt F) → (⟨S1200000, .f32⟩ : BufTy).Contents (Elt F) → (⟨S1200000, .f32⟩ : BufTy).Contents (Elt F)) t_main_v146 t_main_v147
  have t_main_v149 : FVec F S1200000 .f32 := (Host.rsqrt : (⟨S1200000, .f32⟩ : BufTy).Contents (Elt F) → (⟨S1200000, .f32⟩ : BufTy).Contents (Elt F)) t_main_v148
  have t_main_c_36 : IVec S_ 32 := (constantI S_ 32 0#32)
  have t_main_v150 : IVec S1200000 32 := (broadcastInDim S1200000 ![] bcast_S_S1200000 : (⟨S_, .i32⟩ : BufTy).Contents (Elt F) → (⟨S1200000, .i32⟩ : BufTy).Contents (Elt F)) t_main_c_36
  have t_main_v151 : IVec S1200000 1 := (cmpi .slt : (⟨S1200000, .i32⟩ : BufTy).Contents (Elt F) → (⟨S1200000, .i32⟩ : BufTy).Contents (Elt F) → (⟨S1200000, .i1⟩ : BufTy).Contents (Elt F)) x_main_v135 t_main_v150
  have t_main_c_37 : IVec S_ 32 := (constantI S_ 32 100002#32)
  have t_main_v152 : IVec S1200000 32 := (broadcastInDim S1200000 ![] bcast_S_S1200000 : (⟨S_, .i32⟩ : BufTy).Contents (Elt F) → (⟨S1200000, .i32⟩ : BufTy).Contents (Elt F)) t_main_c_37
  have t_main_v153 : IVec S1200000 32 := (addi : (⟨S1200000, .i32⟩ : BufTy).Contents (Elt F) → (⟨S1200000, .i32⟩ : BufTy).Contents (Elt F) → (⟨S1200000, .i32⟩ : BufTy).Contents (Elt F)) x_main_v135 t_main_v152
  have t_main_v154 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v151 t_main_v153 x_main_v135
  have t_main_v155 : IVec S1200000x1 32 := (broadcastInDim S1200000x1 ![0] bcast_S1200000_S1200000x1_0 : (⟨S1200000, .i32⟩ : BufTy).Contents (Elt F) → (⟨S1200000x1, .i32⟩ : BufTy).Contents (Elt F)) t_main_v154
  have t_main_v156 : FVec F S1200000 .f32 := ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) x_main_v139 t_main_v155
  have t_main_cst_38 : FVec F S_ .f32 := (constant (F := F) S_ .f32 0x3F800000#32)
  have t_main_v157 : FVec F S1200000 .f32 := (broadcastInDim S1200000 ![] bcast_S_S1200000 : (⟨S_, .f32⟩ : BufTy).Contents (Elt F) → (⟨S1200000, .f32⟩ : BufTy).Contents (Elt F)) t_main_cst_38
  have t_main_v158 : FVec F S1200000 .f32 := (maximumf : (⟨S1200000, .f32⟩ : BufTy).Contents (Elt F) → (⟨S1200000, .f32⟩ : BufTy).Contents (Elt F) → (⟨S1200000, .f32⟩ : BufTy).Contents (Elt F)) t_main_v156 t_main_v157
  have t_main_v159 : FVec F S1200000 .f32 := (Host.rsqrt : (⟨S1200000, .f32⟩ : BufTy).Contents (Elt F) → (⟨S1200000, .f32⟩ : BufTy).Contents (Elt F)) t_main_v158
  have t_main_v160 : FVec F S1200000 .f32 := (mulf : (⟨S1200000, .f32⟩ : BufTy).Contents (Elt F) → (⟨S1200000, .f32⟩ : BufTy).Contents (Elt F) → (⟨S1200000, .f32⟩ : BufTy).Contents (Elt F)) t_main_v149 t_main_v159
  t_main_v160

/-- Result `main_v190` of the piece over its inputs. -/
def pK14_189 (x_main_v61 : FVec F S100002x64 .f32) (x_main_v166 : IVec S1200000x1 32) (x_main_v160 : FVec F S1200000 .f32) (x_main_v135 : IVec S1200000 32) (x_main_v134 : IVec S1200000 32) : FVec F S100002x64 .f32 :=
  have t_main_v167 : FVec F S1200000x64 .f32 := ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 x_main_v166
  have t_main_v168 : FVec F S1200000x1 .f32 := (broadcastInDim S1200000x1 ![0] bcast_S1200000_S1200000x1_0 : (⟨S1200000, .f32⟩ : BufTy).Contents (Elt F) → (⟨S1200000x1, .f32⟩ : BufTy).Contents (Elt F)) x_main_v160
  have t_main_v169 : FVec F S1200000x64 .f32 := (broadcastInDim S1200000x64 ![0, 1] bcast_S1200000x1_S1200000x64_0_1 : (⟨S1200000x1, .f32⟩ : BufTy).Contents (Elt F) → (⟨S1200000x64, .f32⟩ : BufTy).Contents (Elt F)) t_main_v168
  have t_main_v170 : FVec F S1200000x64 .f32 := (mulf : (⟨S1200000x64, .f32⟩ : BufTy).Contents (Elt F) → (⟨S1200000x64, .f32⟩ : BufTy).Contents (Elt F) → (⟨S1200000x64, .f32⟩ : BufTy).Contents (Elt F)) t_main_v167 t_main_v169
  have t_main_cst_41 : FVec F S_ .f32 := (constant (F := F) S_ .f32 0x00000000#32)
  have t_main_v171 : FVec F S100002x64 .f32 := (broadcastInDim S100002x64 ![] bcast_S_S100002x64 : (⟨S_, .f32⟩ : BufTy).Contents (Elt F) → (⟨S100002x64, .f32⟩ : BufTy).Contents (Elt F)) t_main_cst_41
  have t_main_v172 : IVec S1200000x1 32 := (broadcastInDim S1200000x1 ![0] bcast_S1200000_S1200000x1_0 : (⟨S1200000, .i32⟩ : BufTy).Contents (Elt F) → (⟨S1200000x1, .i32⟩ : BufTy).Contents (Elt F)) x_main_v135
  have t_main_v173 : FVec F S100002x64 .f32 := ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) t_main_v171 t_main_v172 t_main_v170
  have t_main_v174 : FVec F S100002x64 .f32 := (addf : (⟨S100002x64, .f32⟩ : BufTy).Contents (Elt F) → (⟨S100002x64, .f32⟩ : BufTy).Contents (Elt F) → (⟨S100002x64, .f32⟩ : BufTy).Contents (Elt F)) x_main_v61 t_main_v173
  have t_main_c_42 : IVec S_ 32 := (constantI S_ 32 0#32)
  have t_main_v175 : IVec S1200000 32 := (broadcastInDim S1200000 ![] bcast_S_S1200000 : (⟨S_, .i32⟩ : BufTy).Contents (Elt F) → (⟨S1200000, .i32⟩ : BufTy).Contents (Elt F)) t_main_c_42
  have t_main_v176 : IVec S1200000 1 := (cmpi .slt : (⟨S1200000, .i32⟩ : BufTy).Contents (Elt F) → (⟨S1200000, .i32⟩ : BufTy).Contents (Elt F) → (⟨S1200000, .i1⟩ : BufTy).Contents (Elt F)) x_main_v134 t_main_v175
  have t_main_c_43 : IVec S_ 32 := (constantI S_ 32 100002#32)
  have t_main_v177 : IVec S1200000 32 := (broadcastInDim S1200000 ![] bcast_S_S1200000 : (⟨S_, .i32⟩ : BufTy).Contents (Elt F) → (⟨S1200000, .i32⟩ : BufTy).Contents (Elt F)) t_main_c_43
  have t_main_v178 : IVec S1200000 32 := (addi : (⟨S1200000, .i32⟩ : BufTy).Contents (Elt F) → (⟨S1200000, .i32⟩ : BufTy).Contents (Elt F) → (⟨S1200000, .i32⟩ : BufTy).Contents (Elt F)) x_main_v134 t_main_v177
  have t_main_v179 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v176 t_main_v178 x_main_v134
  have t_main_v180 : IVec S1200000x1 32 := (broadcastInDim S1200000x1 ![0] bcast_S1200000_S1200000x1_0 : (⟨S1200000, .i32⟩ : BufTy).Contents (Elt F) → (⟨S1200000x1, .i32⟩ : BufTy).Contents (Elt F)) t_main_v179
  have t_main_v181 : FVec F S1200000x64 .f32 := ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) t_main_v173 t_main_v180
  have t_main_v182 : FVec F S1200000x1 .f32 := (broadcastInDim S1200000x1 ![0] bcast_S1200000_S1200000x1_0 : (⟨S1200000, .f32⟩ : BufTy).Contents (Elt F) → (⟨S1200000x1, .f32⟩ : BufTy).Contents (Elt F)) x_main_v160
  have t_main_v183 : FVec F S1200000x64 .f32 := (broadcastInDim S1200000x64 ![0, 1] bcast_S1200000x1_S1200000x64_0_1 : (⟨S1200000x1, .f32⟩ : BufTy).Contents (Elt F) → (⟨S1200000x64, .f32⟩ : BufTy).Contents (Elt F)) t_main_v182
  have t_main_v184 : FVec F S1200000x64 .f32 := (mulf : (⟨S1200000x64, .f32⟩ : BufTy).Contents (Elt F) → (⟨S1200000x64, .f32⟩ : BufTy).Contents (Elt F) → (⟨S1200000x64, .f32⟩ : BufTy).Contents (Elt F)) t_main_v181 t_main_v183
  have t_main_cst_44 : FVec F S_ .f32 := (constant (F := F) S_ .f32 0x00000000#32)
  have t_main_v185 : FVec F S100002x64 .f32 := (broadcastInDim S100002x64 ![] bcast_S_S100002x64 : (⟨S_, .f32⟩ : BufTy).Contents (Elt F) → (⟨S100002x64, .f32⟩ : BufTy).Contents (Elt F)) t_main_cst_44
  have t_main_v186 : IVec S1200000x1 32 := (broadcastInDim S1200000x1 ![0] bcast_S1200000_S1200000x1_0 : (⟨S1200000, .i32⟩ : BufTy).Contents (Elt F) → (⟨S1200000x1, .i32⟩ : BufTy).Contents (Elt F)) x_main_v135
  have t_main_v187 : FVec F S100002x64 .f32 := ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) t_main_v185 t_main_v186 t_main_v184
  have t_main_v188 : FVec F S100002x64 .f32 := (addf : (⟨S100002x64, .f32⟩ : BufTy).Contents (Elt F) → (⟨S100002x64, .f32⟩ : BufTy).Contents (Elt F) → (⟨S100002x64, .f32⟩ : BufTy).Contents (Elt F)) t_main_v174 t_main_v187
  have t_main_cst_45 : FVec F S_ .f32 := (constant (F := F) S_ .f32 0x40400000#32)
  have t_main_v189 : FVec F S100002x64 .f32 := (broadcastInDim S100002x64 ![] bcast_S_S100002x64 : (⟨S_, .f32⟩ : BufTy).Contents (Elt F) → (⟨S100002x64, .f32⟩ : BufTy).Contents (Elt F)) t_main_cst_45
  have t_main_v190 : FVec F S100002x64 .f32 := (Host.divf : (⟨S100002x64, .f32⟩ : BufTy).Contents (Elt F) → (⟨S100002x64, .f32⟩ : BufTy).Contents (Elt F) → (⟨S100002x64, .f32⟩ : BufTy).Contents (Elt F)) t_main_v188 t_main_v189
  t_main_v190

/-- Result `main_v192` of the piece over its inputs. -/
def pK15_190 (x_main_v190 : FVec F S100002x64 .f32) : FVec F S60001x64 .f32 :=
  have t_main_v192 : FVec F S60001x64 .f32 := ((extractStridedSlice S60001x64 ![0, 0] · slices_S100002x64_S60001x64_0_0) : (⟨S100002x64, .f32⟩ : BufTy).Contents (Elt F) → (⟨S60001x64, .f32⟩ : BufTy).Contents (Elt F)) x_main_v190
  t_main_v192

/-- Result `main_v193` of the piece over its inputs. -/
def pK15_191 (x_main_v190 : FVec F S100002x64 .f32) : FVec F S40001x64 .f32 :=
  have t_main_v193 : FVec F S40001x64 .f32 := ((extractStridedSlice S40001x64 ![60001, 0] · slices_S100002x64_S40001x64_60001_0) : (⟨S100002x64, .f32⟩ : BufTy).Contents (Elt F) → (⟨S40001x64, .f32⟩ : BufTy).Contents (Elt F)) x_main_v190
  t_main_v193

end Cert.KernelIdeal.PrefixMidK

namespace Cert.ReferenceIdeal.PrefixMidR

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Result `main_v128` of the piece over its inputs. -/
def pR10_128 (x_main_arg3 : IVec S3x600000 32) : IVec S600000 32 :=
  have t_main_v127 : IVec S1x600000 32 := ((extractStridedSlice S1x600000 ![1, 0] · slices_S3x600000_S1x600000_1_0) : (⟨S3x600000, .i32⟩ : BufTy).Contents (Elt F) → (⟨S1x600000, .i32⟩ : BufTy).Contents (Elt F)) x_main_arg3
  have t_main_v128 : IVec S600000 32 := shapeCast S600000 t_main_v127 shapeCasts_S1x600000_S600000
  t_main_v128

/-- Result `main_v132` of the piece over its inputs. -/
def pR10_132 (x_main_arg4 : IVec S3x600000 32) : IVec S600000 32 :=
  have t_main_v129 : IVec S1x600000 32 := ((extractStridedSlice S1x600000 ![1, 0] · slices_S3x600000_S1x600000_1_0) : (⟨S3x600000, .i32⟩ : BufTy).Contents (Elt F) → (⟨S1x600000, .i32⟩ : BufTy).Contents (Elt F)) x_main_arg4
  have t_main_v130 : IVec S600000 32 := shapeCast S600000 t_main_v129 shapeCasts_S1x600000_S600000
  have t_main_c_30 : IVec S_ 32 := (constantI S_ 32 60001#32)
  have t_main_v131 : IVec S600000 32 := (broadcastInDim S600000 ![] bcast_S_S600000 : (⟨S_, .i32⟩ : BufTy).Contents (Elt F) → (⟨S600000, .i32⟩ : BufTy).Contents (Elt F)) t_main_c_30
  have t_main_v132 : IVec S600000 32 := (addi : (⟨S600000, .i32⟩ : BufTy).Contents (Elt F) → (⟨S600000, .i32⟩ : BufTy).Contents (Elt F) → (⟨S600000, .i32⟩ : BufTy).Contents (Elt F)) t_main_v130 t_main_v131
  t_main_v132

/-- Result `main_v133` of the piece over its inputs. -/
def pR11_133 (x_main_v128 : IVec S600000 32) (x_main_v132 : IVec S600000 32) : IVec S1200000 32 :=
  have t_main_v133 : IVec S1200000 32 := ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v128 x_main_v132
  t_main_v133

/-- Result `main_v140` of the piece over its inputs. -/
def pR12_140 (x_main_v133 : IVec S1200000 32) : IVec S1200000 1 :=
  have t_main_c_33 : IVec S_ 32 := (constantI S_ 32 0#32)
  have t_main_v139 : IVec S1200000 32 := (broadcastInDim S1200000 ![] bcast_S_S1200000 : (⟨S_, .i32⟩ : BufTy).Contents (Elt F) → (⟨S1200000, .i32⟩ : BufTy).Contents (Elt F)) t_main_c_33
  have t_main_v140 : IVec S1200000 1 := (cmpi .slt : (⟨S1200000, .i32⟩ : BufTy).Contents (Elt F) → (⟨S1200000, .i32⟩ : BufTy).Contents (Elt F) → (⟨S1200000, .i1⟩ : BufTy).Contents (Elt F)) x_main_v133 t_main_v139
  t_main_v140

/-- Result `main_v142` of the piece over its inputs. -/
def pR12_142 (x_main_v133 : IVec S1200000 32) : IVec S1200000 32 :=
  have t_main_c_34 : IVec S_ 32 := (constantI S_ 32 100002#32)
  have t_main_v141 : IVec S1200000 32 := (broadcastInDim S1200000 ![] bcast_S_S1200000 : (⟨S_, .i32⟩ : BufTy).Contents (Elt F) → (⟨S1200000, .i32⟩ : BufTy).Contents (Elt F)) t_main_c_34
  have t_main_v142 : IVec S1200000 32 := (addi : (⟨S1200000, .i32⟩ : BufTy).Contents (Elt F) → (⟨S1200000, .i32⟩ : BufTy).Contents (Elt F) → (⟨S1200000, .i32⟩ : BufTy).Contents (Elt F)) x_main_v133 t_main_v141
  t_main_v142

/-- Result `main_v138` of the piece over its inputs. -/
def pR12_138 (x_main_v133 : IVec S1200000 32) : FVec F S100002 .f32 :=
  have t_main_cst_31 : FVec F S_ .f32 := (constant (F := F) S_ .f32 0x3F800000#32)
  have t_main_v135 : FVec F S1200000 .f32 := (broadcastInDim S1200000 ![] bcast_S_S1200000 : (⟨S_, .f32⟩ : BufTy).Contents (Elt F) → (⟨S1200000, .f32⟩ : BufTy).Contents (Elt F)) t_main_cst_31
  have t_main_cst_32 : FVec F S_ .f32 := (constant (F := F) S_ .f32 0x00000000#32)
  have t_main_v136 : FVec F S100002 .f32 := (broadcastInDim S100002 ![] bcast_S_S100002 : (⟨S_, .f32⟩ : BufTy).Contents (Elt F) → (⟨S100002, .f32⟩ : BufTy).Contents (Elt F)) t_main_cst_32
  have t_main_v137 : IVec S1200000x1 32 := (broadcastInDim S1200000x1 ![0] bcast_S1200000_S1200000x1_0 : (⟨S1200000, .i32⟩ : BufTy).Contents (Elt F) → (⟨S1200000x1, .i32⟩ : BufTy).Contents (Elt F)) x_main_v133
  have t_main_v138 : FVec F S100002 .f32 := ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)) t_main_v136 t_main_v137 t_main_v135
  t_main_v138

/-- Result `main_v134` of the piece over its inputs. -/
def pR12_134 (x_main_v132 : IVec S600000 32) (x_main_v128 : IVec S600000 32) : IVec S1200000 32 :=
  have t_main_v134 : IVec S1200000 32 := ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) x_main_v132 x_main_v128
  t_main_v134

/-- Result `main_v165` of the piece over its inputs. -/
def pR13_165 (x_main_v133 : IVec S1200000 32) : IVec S1200000x1 32 :=
  have t_main_c_39 : IVec S_ 32 := (constantI S_ 32 0#32)
  have t_main_v160 : IVec S1200000 32 := (broadcastInDim S1200000 ![] bcast_S_S1200000 : (⟨S_, .i32⟩ : BufTy).Contents (Elt F) → (⟨S1200000, .i32⟩ : BufTy).Contents (Elt F)) t_main_c_39
  have t_main_v161 : IVec S1200000 1 := (cmpi .slt : (⟨S1200000, .i32⟩ : BufTy).Contents (Elt F) → (⟨S1200000, .i32⟩ : BufTy).Contents (Elt F) → (⟨S1200000, .i1⟩ : BufTy).Contents (Elt F)) x_main_v133 t_main_v160
  have t_main_c_40 : IVec S_ 32 := (constantI S_ 32 100002#32)
  have t_main_v162 : IVec S1200000 32 := (broadcastInDim S1200000 ![] bcast_S_S1200000 : (⟨S_, .i32⟩ : BufTy).Contents (Elt F) → (⟨S1200000, .i32⟩ : BufTy).Contents (Elt F)) t_main_c_40
  have t_main_v163 : IVec S1200000 32 := (addi : (⟨S1200000, .i32⟩ : BufTy).Contents (Elt F) → (⟨S1200000, .i32⟩ : BufTy).Contents (Elt F) → (⟨S1200000, .i32⟩ : BufTy).Contents (Elt F)) x_main_v133 t_main_v162
  have t_main_v164 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v161 t_main_v163 x_main_v133
  have t_main_v165 : IVec S1200000x1 32 := (broadcastInDim S1200000x1 ![0] bcast_S1200000_S1200000x1_0 : (⟨S1200000, .i32⟩ : BufTy).Contents (Elt F) → (⟨S1200000x1, .i32⟩ : BufTy).Contents (Elt F)) t_main_v164
  t_main_v165

/-- Result `main_v159` of the piece over its inputs. -/
def pR13_159 (x_main_v140 : IVec S1200000 1) (x_main_v142 : IVec S1200000 32) (x_main_v133 : IVec S1200000 32) (x_main_v138 : FVec F S100002 .f32) (x_main_v134 : IVec S1200000 32) : FVec F S1200000 .f32 :=
  have t_main_v143 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) x_main_v140 x_main_v142 x_main_v133
  have t_main_v144 : IVec S1200000x1 32 := (broadcastInDim S1200000x1 ![0] bcast_S1200000_S1200000x1_0 : (⟨S1200000, .i32⟩ : BufTy).Contents (Elt F) → (⟨S1200000x1, .i32⟩ : BufTy).Contents (Elt F)) t_main_v143
  have t_main_v145 : FVec F S1200000 .f32 := ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) x_main_v138 t_main_v144
  have t_main_cst_35 : FVec F S_ .f32 := (constant (F := F) S_ .f32 0x3F800000#32)
  have t_main_v146 : FVec F S1200000 .f32 := (broadcastInDim S1200000 ![] bcast_S_S1200000 : (⟨S_, .f32⟩ : BufTy).Contents (Elt F) → (⟨S1200000, .f32⟩ : BufTy).Contents (Elt F)) t_main_cst_35
  have t_main_v147 : FVec F S1200000 .f32 := (maximumf : (⟨S1200000, .f32⟩ : BufTy).Contents (Elt F) → (⟨S1200000, .f32⟩ : BufTy).Contents (Elt F) → (⟨S1200000, .f32⟩ : BufTy).Contents (Elt F)) t_main_v145 t_main_v146
  have t_main_v148 : FVec F S1200000 .f32 := (Host.rsqrt : (⟨S1200000, .f32⟩ : BufTy).Contents (Elt F) → (⟨S1200000, .f32⟩ : BufTy).Contents (Elt F)) t_main_v147
  have t_main_c_36 : IVec S_ 32 := (constantI S_ 32 0#32)
  have t_main_v149 : IVec S1200000 32 := (broadcastInDim S1200000 ![] bcast_S_S1200000 : (⟨S_, .i32⟩ : BufTy).Contents (Elt F) → (⟨S1200000, .i32⟩ : BufTy).Contents (Elt F)) t_main_c_36
  have t_main_v150 : IVec S1200000 1 := (cmpi .slt : (⟨S1200000, .i32⟩ : BufTy).Contents (Elt F) → (⟨S1200000, .i32⟩ : BufTy).Contents (Elt F) → (⟨S1200000, .i1⟩ : BufTy).Contents (Elt F)) x_main_v134 t_main_v149
  have t_main_c_37 : IVec S_ 32 := (constantI S_ 32 100002#32)
  have t_main_v151 : IVec S1200000 32 := (broadcastInDim S1200000 ![] bcast_S_S1200000 : (⟨S_, .i32⟩ : BufTy).Contents (Elt F) → (⟨S1200000, .i32⟩ : BufTy).Contents (Elt F)) t_main_c_37
  have t_main_v152 : IVec S1200000 32 := (addi : (⟨S1200000, .i32⟩ : BufTy).Contents (Elt F) → (⟨S1200000, .i32⟩ : BufTy).Contents (Elt F) → (⟨S1200000, .i32⟩ : BufTy).Contents (Elt F)) x_main_v134 t_main_v151
  have t_main_v153 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v150 t_main_v152 x_main_v134
  have t_main_v154 : IVec S1200000x1 32 := (broadcastInDim S1200000x1 ![0] bcast_S1200000_S1200000x1_0 : (⟨S1200000, .i32⟩ : BufTy).Contents (Elt F) → (⟨S1200000x1, .i32⟩ : BufTy).Contents (Elt F)) t_main_v153
  have t_main_v155 : FVec F S1200000 .f32 := ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)) x_main_v138 t_main_v154
  have t_main_cst_38 : FVec F S_ .f32 := (constant (F := F) S_ .f32 0x3F800000#32)
  have t_main_v156 : FVec F S1200000 .f32 := (broadcastInDim S1200000 ![] bcast_S_S1200000 : (⟨S_, .f32⟩ : BufTy).Contents (Elt F) → (⟨S1200000, .f32⟩ : BufTy).Contents (Elt F)) t_main_cst_38
  have t_main_v157 : FVec F S1200000 .f32 := (maximumf : (⟨S1200000, .f32⟩ : BufTy).Contents (Elt F) → (⟨S1200000, .f32⟩ : BufTy).Contents (Elt F) → (⟨S1200000, .f32⟩ : BufTy).Contents (Elt F)) t_main_v155 t_main_v156
  have t_main_v158 : FVec F S1200000 .f32 := (Host.rsqrt : (⟨S1200000, .f32⟩ : BufTy).Contents (Elt F) → (⟨S1200000, .f32⟩ : BufTy).Contents (Elt F)) t_main_v157
  have t_main_v159 : FVec F S1200000 .f32 := (mulf : (⟨S1200000, .f32⟩ : BufTy).Contents (Elt F) → (⟨S1200000, .f32⟩ : BufTy).Contents (Elt F) → (⟨S1200000, .f32⟩ : BufTy).Contents (Elt F)) t_main_v148 t_main_v158
  t_main_v159

/-- Result `main_v189` of the piece over its inputs. -/
def pR14_189 (x_main_v61 : FVec F S100002x64 .f32) (x_main_v165 : IVec S1200000x1 32) (x_main_v159 : FVec F S1200000 .f32) (x_main_v134 : IVec S1200000 32) (x_main_v133 : IVec S1200000 32) : FVec F S100002x64 .f32 :=
  have t_main_v166 : FVec F S1200000x64 .f32 := ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) x_main_v61 x_main_v165
  have t_main_v167 : FVec F S1200000x1 .f32 := (broadcastInDim S1200000x1 ![0] bcast_S1200000_S1200000x1_0 : (⟨S1200000, .f32⟩ : BufTy).Contents (Elt F) → (⟨S1200000x1, .f32⟩ : BufTy).Contents (Elt F)) x_main_v159
  have t_main_v168 : FVec F S1200000x64 .f32 := (broadcastInDim S1200000x64 ![0, 1] bcast_S1200000x1_S1200000x64_0_1 : (⟨S1200000x1, .f32⟩ : BufTy).Contents (Elt F) → (⟨S1200000x64, .f32⟩ : BufTy).Contents (Elt F)) t_main_v167
  have t_main_v169 : FVec F S1200000x64 .f32 := (mulf : (⟨S1200000x64, .f32⟩ : BufTy).Contents (Elt F) → (⟨S1200000x64, .f32⟩ : BufTy).Contents (Elt F) → (⟨S1200000x64, .f32⟩ : BufTy).Contents (Elt F)) t_main_v166 t_main_v168
  have t_main_cst_41 : FVec F S_ .f32 := (constant (F := F) S_ .f32 0x00000000#32)
  have t_main_v170 : FVec F S100002x64 .f32 := (broadcastInDim S100002x64 ![] bcast_S_S100002x64 : (⟨S_, .f32⟩ : BufTy).Contents (Elt F) → (⟨S100002x64, .f32⟩ : BufTy).Contents (Elt F)) t_main_cst_41
  have t_main_v171 : IVec S1200000x1 32 := (broadcastInDim S1200000x1 ![0] bcast_S1200000_S1200000x1_0 : (⟨S1200000, .i32⟩ : BufTy).Contents (Elt F) → (⟨S1200000x1, .i32⟩ : BufTy).Contents (Elt F)) x_main_v134
  have t_main_v172 : FVec F S100002x64 .f32 := ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) t_main_v170 t_main_v171 t_main_v169
  have t_main_v173 : FVec F S100002x64 .f32 := (addf : (⟨S100002x64, .f32⟩ : BufTy).Contents (Elt F) → (⟨S100002x64, .f32⟩ : BufTy).Contents (Elt F) → (⟨S100002x64, .f32⟩ : BufTy).Contents (Elt F)) x_main_v61 t_main_v172
  have t_main_c_42 : IVec S_ 32 := (constantI S_ 32 0#32)
  have t_main_v174 : IVec S1200000 32 := (broadcastInDim S1200000 ![] bcast_S_S1200000 : (⟨S_, .i32⟩ : BufTy).Contents (Elt F) → (⟨S1200000, .i32⟩ : BufTy).Contents (Elt F)) t_main_c_42
  have t_main_v175 : IVec S1200000 1 := (cmpi .slt : (⟨S1200000, .i32⟩ : BufTy).Contents (Elt F) → (⟨S1200000, .i32⟩ : BufTy).Contents (Elt F) → (⟨S1200000, .i1⟩ : BufTy).Contents (Elt F)) x_main_v133 t_main_v174
  have t_main_c_43 : IVec S_ 32 := (constantI S_ 32 100002#32)
  have t_main_v176 : IVec S1200000 32 := (broadcastInDim S1200000 ![] bcast_S_S1200000 : (⟨S_, .i32⟩ : BufTy).Contents (Elt F) → (⟨S1200000, .i32⟩ : BufTy).Contents (Elt F)) t_main_c_43
  have t_main_v177 : IVec S1200000 32 := (addi : (⟨S1200000, .i32⟩ : BufTy).Contents (Elt F) → (⟨S1200000, .i32⟩ : BufTy).Contents (Elt F) → (⟨S1200000, .i32⟩ : BufTy).Contents (Elt F)) x_main_v133 t_main_v176
  have t_main_v178 : IVec S1200000 32 := (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)) t_main_v175 t_main_v177 x_main_v133
  have t_main_v179 : IVec S1200000x1 32 := (broadcastInDim S1200000x1 ![0] bcast_S1200000_S1200000x1_0 : (⟨S1200000, .i32⟩ : BufTy).Contents (Elt F) → (⟨S1200000x1, .i32⟩ : BufTy).Contents (Elt F)) t_main_v178
  have t_main_v180 : FVec F S1200000x64 .f32 := ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)) t_main_v172 t_main_v179
  have t_main_v181 : FVec F S1200000x1 .f32 := (broadcastInDim S1200000x1 ![0] bcast_S1200000_S1200000x1_0 : (⟨S1200000, .f32⟩ : BufTy).Contents (Elt F) → (⟨S1200000x1, .f32⟩ : BufTy).Contents (Elt F)) x_main_v159
  have t_main_v182 : FVec F S1200000x64 .f32 := (broadcastInDim S1200000x64 ![0, 1] bcast_S1200000x1_S1200000x64_0_1 : (⟨S1200000x1, .f32⟩ : BufTy).Contents (Elt F) → (⟨S1200000x64, .f32⟩ : BufTy).Contents (Elt F)) t_main_v181
  have t_main_v183 : FVec F S1200000x64 .f32 := (mulf : (⟨S1200000x64, .f32⟩ : BufTy).Contents (Elt F) → (⟨S1200000x64, .f32⟩ : BufTy).Contents (Elt F) → (⟨S1200000x64, .f32⟩ : BufTy).Contents (Elt F)) t_main_v180 t_main_v182
  have t_main_cst_44 : FVec F S_ .f32 := (constant (F := F) S_ .f32 0x00000000#32)
  have t_main_v184 : FVec F S100002x64 .f32 := (broadcastInDim S100002x64 ![] bcast_S_S100002x64 : (⟨S_, .f32⟩ : BufTy).Contents (Elt F) → (⟨S100002x64, .f32⟩ : BufTy).Contents (Elt F)) t_main_cst_44
  have t_main_v185 : IVec S1200000x1 32 := (broadcastInDim S1200000x1 ![0] bcast_S1200000_S1200000x1_0 : (⟨S1200000, .i32⟩ : BufTy).Contents (Elt F) → (⟨S1200000x1, .i32⟩ : BufTy).Contents (Elt F)) x_main_v134
  have t_main_v186 : FVec F S100002x64 .f32 := ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)) t_main_v184 t_main_v185 t_main_v183
  have t_main_v187 : FVec F S100002x64 .f32 := (addf : (⟨S100002x64, .f32⟩ : BufTy).Contents (Elt F) → (⟨S100002x64, .f32⟩ : BufTy).Contents (Elt F) → (⟨S100002x64, .f32⟩ : BufTy).Contents (Elt F)) t_main_v173 t_main_v186
  have t_main_cst_45 : FVec F S_ .f32 := (constant (F := F) S_ .f32 0x40400000#32)
  have t_main_v188 : FVec F S100002x64 .f32 := (broadcastInDim S100002x64 ![] bcast_S_S100002x64 : (⟨S_, .f32⟩ : BufTy).Contents (Elt F) → (⟨S100002x64, .f32⟩ : BufTy).Contents (Elt F)) t_main_cst_45
  have t_main_v189 : FVec F S100002x64 .f32 := (Host.divf : (⟨S100002x64, .f32⟩ : BufTy).Contents (Elt F) → (⟨S100002x64, .f32⟩ : BufTy).Contents (Elt F) → (⟨S100002x64, .f32⟩ : BufTy).Contents (Elt F)) t_main_v187 t_main_v188
  t_main_v189

/-- Result `main_v190` of the piece over its inputs. -/
def pR15_190 (x_main_v189 : FVec F S100002x64 .f32) : FVec F S60001x64 .f32 :=
  have t_main_v190 : FVec F S60001x64 .f32 := ((extractStridedSlice S60001x64 ![0, 0] · slices_S100002x64_S60001x64_0_0) : (⟨S100002x64, .f32⟩ : BufTy).Contents (Elt F) → (⟨S60001x64, .f32⟩ : BufTy).Contents (Elt F)) x_main_v189
  t_main_v190

/-- Result `main_v191` of the piece over its inputs. -/
def pR15_191 (x_main_v189 : FVec F S100002x64 .f32) : FVec F S40001x64 .f32 :=
  have t_main_v191 : FVec F S40001x64 .f32 := ((extractStridedSlice S40001x64 ![60001, 0] · slices_S100002x64_S40001x64_60001_0) : (⟨S100002x64, .f32⟩ : BufTy).Contents (Elt F) → (⟨S40001x64, .f32⟩ : BufTy).Contents (Elt F)) x_main_v189
  t_main_v191

end Cert.ReferenceIdeal.PrefixMidR

end
-- ==== Proof.PrefixMid.lean ====
/-
  Behaviour 1's propagation in the first host stretch: the two programs compute the same tables.

  Both programs cut row 1 out of the two edge arrays, move the item ids past the 60001 user nodes, join user and item
  ids into the two 1200000-entry node id lists (sources, targets), add ones at the ids to get the degrees, gather the
  degree at both ends of every edge and multiply the two inverse square roots, and run two propagation layers from the
  table the global propagation left (gather the source rows, scale by the edge norm, add into the target rows), sum the
  three tables, divide by three and cut the user rows and the item rows out of the result. The operations are the same
  ones in the same order; the first program only has one more, which writes a buffer nothing here reads. So piece by
  piece — the pieces cut where the second program's listing is cut — every result a later piece reads is one closed
  term of the piece's inputs in both programs, the two terms are equal, and values that agree going into a piece agree
  coming out of it.
-/
import proofs.«412432_j74655121539772_3_alg».proof.Proof.PrefixMidT
import Idealize.ShloMosaic.Lib.StableHlo.Run
import Idealize.ShloMosaic.Lib.Pipeline.Frame

set_option maxRecDepth 16384

noncomputable section

namespace Cert.Proof.PrefixMid

open Idealize.ShloMosaic Idealize.ShloMosaic.TcCoe Idealize.ShloMosaic.StableHlo

variable {F : FTy → Type} [FloatOps F]

/-! ## Each piece's results as closed terms of its inputs: the first program -/

section Kernel
open Cert.KernelIdeal Cert.KernelIdeal.Gen Cert.KernelIdeal.PrefixMidK

theorem readK10_128 (V : Valuation τ sig (Elt F)) :
    after K10 V (Proc.devRef .tc main_v129) = pK10_128 (F := F) (V (Proc.devRef .tc main_arg3)) := by
  unfold K10; after_results_simp <;> rfl

theorem readK10_132 (V : Valuation τ sig (Elt F)) :
    after K10 V (Proc.devRef .tc main_v133) = pK10_132 (F := F) (V (Proc.devRef .tc main_arg4)) := by
  unfold K10; after_results_simp <;> rfl

theorem readK11_133 (V : Valuation τ sig (Elt F)) :
    after K11 V (Proc.devRef .tc main_v134) = pK11_133 (F := F) (V (Proc.devRef .tc main_v129)) (V (Proc.devRef .tc main_v133)) := by
  unfold K11; after_results_simp <;> rfl

theorem readK12_140 (V : Valuation τ sig (Elt F)) :
    after K12 V (Proc.devRef .tc main_v141) = pK12_140 (F := F) (V (Proc.devRef .tc main_v134)) := by
  unfold K12; after_results_simp <;> rfl

theorem readK12_142 (V : Valuation τ sig (Elt F)) :
    after K12 V (Proc.devRef .tc main_v143) = pK12_142 (F := F) (V (Proc.devRef .tc main_v134)) := by
  unfold K12; after_results_simp <;> rfl

theorem readK12_138 (V : Valuation τ sig (Elt F)) :
    after K12 V (Proc.devRef .tc main_v139) = pK12_138 (F := F) (V (Proc.devRef .tc main_v134)) := by
  unfold K12; after_results_simp <;> rfl

theorem readK12_134 (V : Valuation τ sig (Elt F)) :
    after K12 V (Proc.devRef .tc main_v135) = pK12_134 (F := F) (V (Proc.devRef .tc main_v133)) (V (Proc.devRef .tc main_v129)) := by
  unfold K12; after_results_simp <;> rfl

theorem readK13_165 (V : Valuation τ sig (Elt F)) :
    after K13 V (Proc.devRef .tc main_v166) = pK13_165 (F := F) (V (Proc.devRef .tc main_v134)) := by
  unfold K13; after_results_simp <;> rfl

theorem readK13_159 (V : Valuation τ sig (Elt F)) :
    after K13 V (Proc.devRef .tc main_v160) = pK13_159 (F := F) (V (Proc.devRef .tc main_v141)) (V (Proc.devRef .tc main_v143)) (V (Proc.devRef .tc main_v134)) (V (Proc.devRef .tc main_v139)) (V (Proc.devRef .tc main_v135)) := by
  unfold K13; after_results_simp <;> rfl

theorem readK14_189 (V : Valuation τ sig (Elt F)) :
    after K14 V (Proc.devRef .tc main_v190) = pK14_189 (F := F) (V (Proc.devRef .tc main_v61)) (V (Proc.devRef .tc main_v166)) (V (Proc.devRef .tc main_v160)) (V (Proc.devRef .tc main_v135)) (V (Proc.devRef .tc main_v134)) := by
  unfold K14; after_results_simp <;> rfl

theorem readK15_190 (V : Valuation τ sig (Elt F)) :
    after K15 V (Proc.devRef .tc main_v192) = pK15_190 (F := F) (V (Proc.devRef .tc main_v190)) := by
  unfold K15; after_results_simp <;> rfl

theorem readK15_191 (V : Valuation τ sig (Elt F)) :
    after K15 V (Proc.devRef .tc main_v193) = pK15_191 (F := F) (V (Proc.devRef .tc main_v190)) := by
  unfold K15; after_results_simp <;> rfl

end Kernel

/-! ## … and the second program -/

section Reference
open Cert.ReferenceIdeal Cert.ReferenceIdeal.Gen Cert.ReferenceIdeal.RefRun Cert.ReferenceIdeal.PrefixMidR

theorem readR10_128 (V : Valuation τ sig (Elt F)) :
    after opsC10 V (Proc.devRef .tc main_v128) = pR10_128 (F := F) (V (Proc.devRef .tc main_arg3)) := by
  unfold opsC10; after_results_simp <;> rfl

theorem readR10_132 (V : Valuation τ sig (Elt F)) :
    after opsC10 V (Proc.devRef .tc main_v132) = pR10_132 (F := F) (V (Proc.devRef .tc main_arg4)) := by
  unfold opsC10; after_results_simp <;> rfl

theorem readR11_133 (V : Valuation τ sig (Elt F)) :
    after opsC11 V (Proc.devRef .tc main_v133) = pR11_133 (F := F) (V (Proc.devRef .tc main_v128)) (V (Proc.devRef .tc main_v132)) := by
  unfold opsC11; after_results_simp <;> rfl

theorem readR12_140 (V : Valuation τ sig (Elt F)) :
    after opsC12 V (Proc.devRef .tc main_v140) = pR12_140 (F := F) (V (Proc.devRef .tc main_v133)) := by
  unfold opsC12; after_results_simp <;> rfl

theorem readR12_142 (V : Valuation τ sig (Elt F)) :
    after opsC12 V (Proc.devRef .tc main_v142) = pR12_142 (F := F) (V (Proc.devRef .tc main_v133)) := by
  unfold opsC12; after_results_simp <;> rfl

theorem readR12_138 (V : Valuation τ sig (Elt F)) :
    after opsC12 V (Proc.devRef .tc main_v138) = pR12_138 (F := F) (V (Proc.devRef .tc main_v133)) := by
  unfold opsC12; after_results_simp <;> rfl

theorem readR12_134 (V : Valuation τ sig (Elt F)) :
    after opsC12 V (Proc.devRef .tc main_v134) = pR12_134 (F := F) (V (Proc.devRef .tc main_v132)) (V (Proc.devRef .tc main_v128)) := by
  unfold opsC12; after_results_simp <;> rfl

theorem readR13_165 (V : Valuation τ sig (Elt F)) :
    after opsC13 V (Proc.devRef .tc main_v165) = pR13_165 (F := F) (V (Proc.devRef .tc main_v133)) := by
  unfold opsC13; after_results_simp <;> rfl

theorem readR13_159 (V : Valuation τ sig (Elt F)) :
    after opsC13 V (Proc.devRef .tc main_v159) = pR13_159 (F := F) (V (Proc.devRef .tc main_v140)) (V (Proc.devRef .tc main_v142)) (V (Proc.devRef .tc main_v133)) (V (Proc.devRef .tc main_v138)) (V (Proc.devRef .tc main_v134)) := by
  unfold opsC13; after_results_simp <;> rfl

theorem readR14_189 (V : Valuation τ sig (Elt F)) :
    after opsC14 V (Proc.devRef .tc main_v189) = pR14_189 (F := F) (V (Proc.devRef .tc main_v61)) (V (Proc.devRef .tc main_v165)) (V (Proc.devRef .tc main_v159)) (V (Proc.devRef .tc main_v134)) (V (Proc.devRef .tc main_v133)) := by
  unfold opsC14; after_results_simp <;> rfl

theorem readR15_190 (V : Valuation τ sig (Elt F)) :
    after opsC15 V (Proc.devRef .tc main_v190) = pR15_190 (F := F) (V (Proc.devRef .tc main_v189)) := by
  unfold opsC15; after_results_simp <;> rfl

theorem readR15_191 (V : Valuation τ sig (Elt F)) :
    after opsC15 V (Proc.devRef .tc main_v191) = pR15_191 (F := F) (V (Proc.devRef .tc main_v189)) := by
  unfold opsC15; after_results_simp <;> rfl

end Reference

/-! ## The closed terms are the same -/

theorem peq10_128 : (Cert.KernelIdeal.PrefixMidK.pK10_128 (F := F)) = Cert.ReferenceIdeal.PrefixMidR.pR10_128 (F := F) := by
  funext x0; rfl

theorem peq10_132 : (Cert.KernelIdeal.PrefixMidK.pK10_132 (F := F)) = Cert.ReferenceIdeal.PrefixMidR.pR10_132 (F := F) := by
  funext x0; rfl

theorem peq11_133 : (Cert.KernelIdeal.PrefixMidK.pK11_133 (F := F)) = Cert.ReferenceIdeal.PrefixMidR.pR11_133 (F := F) := by
  funext x0 x1; rfl

theorem peq12_140 : (Cert.KernelIdeal.PrefixMidK.pK12_140 (F := F)) = Cert.ReferenceIdeal.PrefixMidR.pR12_140 (F := F) := by
  funext x0; rfl

theorem peq12_142 : (Cert.KernelIdeal.PrefixMidK.pK12_142 (F := F)) = Cert.ReferenceIdeal.PrefixMidR.pR12_142 (F := F) := by
  funext x0; rfl

theorem peq12_138 : (Cert.KernelIdeal.PrefixMidK.pK12_138 (F := F)) = Cert.ReferenceIdeal.PrefixMidR.pR12_138 (F := F) := by
  funext x0; rfl

theorem peq12_134 : (Cert.KernelIdeal.PrefixMidK.pK12_134 (F := F)) = Cert.ReferenceIdeal.PrefixMidR.pR12_134 (F := F) := by
  funext x0 x1; rfl

theorem peq13_165 : (Cert.KernelIdeal.PrefixMidK.pK13_165 (F := F)) = Cert.ReferenceIdeal.PrefixMidR.pR13_165 (F := F) := by
  funext x0; rfl

theorem peq13_159 : (Cert.KernelIdeal.PrefixMidK.pK13_159 (F := F)) = Cert.ReferenceIdeal.PrefixMidR.pR13_159 (F := F) := by
  funext x0 x1 x2 x3 x4; rfl

theorem peq14_189 : (Cert.KernelIdeal.PrefixMidK.pK14_189 (F := F)) = Cert.ReferenceIdeal.PrefixMidR.pR14_189 (F := F) := by
  funext x0 x1 x2 x3 x4; rfl

theorem peq15_190 : (Cert.KernelIdeal.PrefixMidK.pK15_190 (F := F)) = Cert.ReferenceIdeal.PrefixMidR.pR15_190 (F := F) := by
  funext x0; rfl

theorem peq15_191 : (Cert.KernelIdeal.PrefixMidK.pK15_191 (F := F)) = Cert.ReferenceIdeal.PrefixMidR.pR15_191 (F := F) := by
  funext x0; rfl

/-! ## Values that agree going into a piece agree coming out of it -/

theorem sim10 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_arg3) : IVec Cert.KernelIdeal.S3x600000 32) = VR (Proc.devRef .tc Cert.ReferenceIdeal.main_arg3)))
    (h1 : ((VK (Proc.devRef .tc Cert.KernelIdeal.main_arg4) : IVec Cert.KernelIdeal.S3x600000 32) = VR (Proc.devRef .tc Cert.ReferenceIdeal.main_arg4)))
    (h2 : ((VK (Proc.devRef .tc Cert.KernelIdeal.main_v61) : FVec F Cert.KernelIdeal.S100002x64 .f32) = VR (Proc.devRef .tc Cert.ReferenceIdeal.main_v61))) :
    ((after Cert.KernelIdeal.PrefixMidK.K10 VK (Proc.devRef .tc Cert.KernelIdeal.main_v129) : IVec Cert.KernelIdeal.S600000 32) = after Cert.ReferenceIdeal.RefRun.opsC10 VR (Proc.devRef .tc Cert.ReferenceIdeal.main_v128))
      ∧ ((after Cert.KernelIdeal.PrefixMidK.K10 VK (Proc.devRef .tc Cert.KernelIdeal.main_v133) : IVec Cert.KernelIdeal.S600000 32) = after Cert.ReferenceIdeal.RefRun.opsC10 VR (Proc.devRef .tc Cert.ReferenceIdeal.main_v132))
      ∧ ((after Cert.KernelIdeal.PrefixMidK.K10 VK (Proc.devRef .tc Cert.KernelIdeal.main_v61) : FVec F Cert.KernelIdeal.S100002x64 .f32) = after Cert.ReferenceIdeal.RefRun.opsC10 VR (Proc.devRef .tc Cert.ReferenceIdeal.main_v61)) := by
  refine ⟨?_, ?_, ?_⟩
  · rw [readK10_128, readR10_128, peq10_128, h0]
  · rw [readK10_132, readR10_132, peq10_132, h1]
  · rw [Cert.KernelIdeal.PrefixMidK.K10_keep VK Cert.KernelIdeal.main_v61 (by decide), Cert.ReferenceIdeal.RefRun.opsC10_keep VR Cert.ReferenceIdeal.main_v61 (by decide)]; exact h2

theorem sim11 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_v129) : IVec Cert.KernelIdeal.S600000 32) = VR (Proc.devRef .tc Cert.ReferenceIdeal.main_v128)))
    (h1 : ((VK (Proc.devRef .tc Cert.KernelIdeal.main_v133) : IVec Cert.KernelIdeal.S600000 32) = VR (Proc.devRef .tc Cert.ReferenceIdeal.main_v132)))
    (h2 : ((VK (Proc.devRef .tc Cert.KernelIdeal.main_v61) : FVec F Cert.KernelIdeal.S100002x64 .f32) = VR (Proc.devRef .tc Cert.ReferenceIdeal.main_v61))) :
    ((after Cert.KernelIdeal.PrefixMidK.K11 VK (Proc.devRef .tc Cert.KernelIdeal.main_v133) : IVec Cert.KernelIdeal.S600000 32) = after Cert.ReferenceIdeal.RefRun.opsC11 VR (Proc.devRef .tc Cert.ReferenceIdeal.main_v132))
      ∧ ((after Cert.KernelIdeal.PrefixMidK.K11 VK (Proc.devRef .tc Cert.KernelIdeal.main_v129) : IVec Cert.KernelIdeal.S600000 32) = after Cert.ReferenceIdeal.RefRun.opsC11 VR (Proc.devRef .tc Cert.ReferenceIdeal.main_v128))
      ∧ ((after Cert.KernelIdeal.PrefixMidK.K11 VK (Proc.devRef .tc Cert.KernelIdeal.main_v134) : IVec Cert.KernelIdeal.S1200000 32) = after Cert.ReferenceIdeal.RefRun.opsC11 VR (Proc.devRef .tc Cert.ReferenceIdeal.main_v133))
      ∧ ((after Cert.KernelIdeal.PrefixMidK.K11 VK (Proc.devRef .tc Cert.KernelIdeal.main_v61) : FVec F Cert.KernelIdeal.S100002x64 .f32) = after Cert.ReferenceIdeal.RefRun.opsC11 VR (Proc.devRef .tc Cert.ReferenceIdeal.main_v61)) := by
  refine ⟨?_, ?_, ?_, ?_⟩
  · rw [Cert.KernelIdeal.PrefixMidK.K11_keep VK Cert.KernelIdeal.main_v133 (by decide), Cert.ReferenceIdeal.RefRun.opsC11_keep VR Cert.ReferenceIdeal.main_v132 (by decide)]; exact h1
  · rw [Cert.KernelIdeal.PrefixMidK.K11_keep VK Cert.KernelIdeal.main_v129 (by decide), Cert.ReferenceIdeal.RefRun.opsC11_keep VR Cert.ReferenceIdeal.main_v128 (by decide)]; exact h0
  · rw [readK11_133, readR11_133, peq11_133, h0, h1]
  · rw [Cert.KernelIdeal.PrefixMidK.K11_keep VK Cert.KernelIdeal.main_v61 (by decide), Cert.ReferenceIdeal.RefRun.opsC11_keep VR Cert.ReferenceIdeal.main_v61 (by decide)]; exact h2

theorem sim12 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_v133) : IVec Cert.KernelIdeal.S600000 32) = VR (Proc.devRef .tc Cert.ReferenceIdeal.main_v132)))
    (h1 : ((VK (Proc.devRef .tc Cert.KernelIdeal.main_v129) : IVec Cert.KernelIdeal.S600000 32) = VR (Proc.devRef .tc Cert.ReferenceIdeal.main_v128)))
    (h2 : ((VK (Proc.devRef .tc Cert.KernelIdeal.main_v134) : IVec Cert.KernelIdeal.S1200000 32) = VR (Proc.devRef .tc Cert.ReferenceIdeal.main_v133)))
    (h3 : ((VK (Proc.devRef .tc Cert.KernelIdeal.main_v61) : FVec F Cert.KernelIdeal.S100002x64 .f32) = VR (Proc.devRef .tc Cert.ReferenceIdeal.main_v61))) :
    ((after Cert.KernelIdeal.PrefixMidK.K12 VK (Proc.devRef .tc Cert.KernelIdeal.main_v141) : IVec Cert.KernelIdeal.S1200000 1) = after Cert.ReferenceIdeal.RefRun.opsC12 VR (Proc.devRef .tc Cert.ReferenceIdeal.main_v140))
      ∧ ((after Cert.KernelIdeal.PrefixMidK.K12 VK (Proc.devRef .tc Cert.KernelIdeal.main_v143) : IVec Cert.KernelIdeal.S1200000 32) = after Cert.ReferenceIdeal.RefRun.opsC12 VR (Proc.devRef .tc Cert.ReferenceIdeal.main_v142))
      ∧ ((after Cert.KernelIdeal.PrefixMidK.K12 VK (Proc.devRef .tc Cert.KernelIdeal.main_v134) : IVec Cert.KernelIdeal.S1200000 32) = after Cert.ReferenceIdeal.RefRun.opsC12 VR (Proc.devRef .tc Cert.ReferenceIdeal.main_v133))
      ∧ ((after Cert.KernelIdeal.PrefixMidK.K12 VK (Proc.devRef .tc Cert.KernelIdeal.main_v139) : FVec F Cert.KernelIdeal.S100002 .f32) = after Cert.ReferenceIdeal.RefRun.opsC12 VR (Proc.devRef .tc Cert.ReferenceIdeal.main_v138))
      ∧ ((after Cert.KernelIdeal.PrefixMidK.K12 VK (Proc.devRef .tc Cert.KernelIdeal.main_v135) : IVec Cert.KernelIdeal.S1200000 32) = after Cert.ReferenceIdeal.RefRun.opsC12 VR (Proc.devRef .tc Cert.ReferenceIdeal.main_v134))
      ∧ ((after Cert.KernelIdeal.PrefixMidK.K12 VK (Proc.devRef .tc Cert.KernelIdeal.main_v61) : FVec F Cert.KernelIdeal.S100002x64 .f32) = after Cert.ReferenceIdeal.RefRun.opsC12 VR (Proc.devRef .tc Cert.ReferenceIdeal.main_v61)) := by
  refine ⟨?_, ?_, ?_, ?_, ?_, ?_⟩
  · rw [readK12_140, readR12_140, peq12_140, h2]
  · rw [readK12_142, readR12_142, peq12_142, h2]
  · rw [Cert.KernelIdeal.PrefixMidK.K12_keep VK Cert.KernelIdeal.main_v134 (by decide), Cert.ReferenceIdeal.RefRun.opsC12_keep VR Cert.ReferenceIdeal.main_v133 (by decide)]; exact h2
  · rw [readK12_138, readR12_138, peq12_138, h2]
  · rw [readK12_134, readR12_134, peq12_134, h0, h1]
  · rw [Cert.KernelIdeal.PrefixMidK.K12_keep VK Cert.KernelIdeal.main_v61 (by decide), Cert.ReferenceIdeal.RefRun.opsC12_keep VR Cert.ReferenceIdeal.main_v61 (by decide)]; exact h3

theorem sim13 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_v141) : IVec Cert.KernelIdeal.S1200000 1) = VR (Proc.devRef .tc Cert.ReferenceIdeal.main_v140)))
    (h1 : ((VK (Proc.devRef .tc Cert.KernelIdeal.main_v143) : IVec Cert.KernelIdeal.S1200000 32) = VR (Proc.devRef .tc Cert.ReferenceIdeal.main_v142)))
    (h2 : ((VK (Proc.devRef .tc Cert.KernelIdeal.main_v134) : IVec Cert.KernelIdeal.S1200000 32) = VR (Proc.devRef .tc Cert.ReferenceIdeal.main_v133)))
    (h3 : ((VK (Proc.devRef .tc Cert.KernelIdeal.main_v139) : FVec F Cert.KernelIdeal.S100002 .f32) = VR (Proc.devRef .tc Cert.ReferenceIdeal.main_v138)))
    (h4 : ((VK (Proc.devRef .tc Cert.KernelIdeal.main_v135) : IVec Cert.KernelIdeal.S1200000 32) = VR (Proc.devRef .tc Cert.ReferenceIdeal.main_v134)))
    (h5 : ((VK (Proc.devRef .tc Cert.KernelIdeal.main_v61) : FVec F Cert.KernelIdeal.S100002x64 .f32) = VR (Proc.devRef .tc Cert.ReferenceIdeal.main_v61))) :
    ((after Cert.KernelIdeal.PrefixMidK.K13 VK (Proc.devRef .tc Cert.KernelIdeal.main_v61) : FVec F Cert.KernelIdeal.S100002x64 .f32) = after Cert.ReferenceIdeal.RefRun.opsC13 VR (Proc.devRef .tc Cert.ReferenceIdeal.main_v61))
      ∧ ((after Cert.KernelIdeal.PrefixMidK.K13 VK (Proc.devRef .tc Cert.KernelIdeal.main_v166) : IVec Cert.KernelIdeal.S1200000x1 32) = after Cert.ReferenceIdeal.RefRun.opsC13 VR (Proc.devRef .tc Cert.ReferenceIdeal.main_v165))
      ∧ ((after Cert.KernelIdeal.PrefixMidK.K13 VK (Proc.devRef .tc Cert.KernelIdeal.main_v160) : FVec F Cert.KernelIdeal.S1200000 .f32) = after Cert.ReferenceIdeal.RefRun.opsC13 VR (Proc.devRef .tc Cert.ReferenceIdeal.main_v159))
      ∧ ((after Cert.KernelIdeal.PrefixMidK.K13 VK (Proc.devRef .tc Cert.KernelIdeal.main_v135) : IVec Cert.KernelIdeal.S1200000 32) = after Cert.ReferenceIdeal.RefRun.opsC13 VR (Proc.devRef .tc Cert.ReferenceIdeal.main_v134))
      ∧ ((after Cert.KernelIdeal.PrefixMidK.K13 VK (Proc.devRef .tc Cert.KernelIdeal.main_v134) : IVec Cert.KernelIdeal.S1200000 32) = after Cert.ReferenceIdeal.RefRun.opsC13 VR (Proc.devRef .tc Cert.ReferenceIdeal.main_v133)) := by
  refine ⟨?_, ?_, ?_, ?_, ?_⟩
  · rw [Cert.KernelIdeal.PrefixMidK.K13_keep VK Cert.KernelIdeal.main_v61 (by decide), Cert.ReferenceIdeal.RefRun.opsC13_keep VR Cert.ReferenceIdeal.main_v61 (by decide)]; exact h5
  · rw [readK13_165, readR13_165, peq13_165, h2]
  · rw [readK13_159, readR13_159, peq13_159, h0, h1, h2, h3, h4]
  · rw [Cert.KernelIdeal.PrefixMidK.K13_keep VK Cert.KernelIdeal.main_v135 (by decide), Cert.ReferenceIdeal.RefRun.opsC13_keep VR Cert.ReferenceIdeal.main_v134 (by decide)]; exact h4
  · rw [Cert.KernelIdeal.PrefixMidK.K13_keep VK Cert.KernelIdeal.main_v134 (by decide), Cert.ReferenceIdeal.RefRun.opsC13_keep VR Cert.ReferenceIdeal.main_v133 (by decide)]; exact h2

theorem sim14 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_v61) : FVec F Cert.KernelIdeal.S100002x64 .f32) = VR (Proc.devRef .tc Cert.ReferenceIdeal.main_v61)))
    (h1 : ((VK (Proc.devRef .tc Cert.KernelIdeal.main_v166) : IVec Cert.KernelIdeal.S1200000x1 32) = VR (Proc.devRef .tc Cert.ReferenceIdeal.main_v165)))
    (h2 : ((VK (Proc.devRef .tc Cert.KernelIdeal.main_v160) : FVec F Cert.KernelIdeal.S1200000 .f32) = VR (Proc.devRef .tc Cert.ReferenceIdeal.main_v159)))
    (h3 : ((VK (Proc.devRef .tc Cert.KernelIdeal.main_v135) : IVec Cert.KernelIdeal.S1200000 32) = VR (Proc.devRef .tc Cert.ReferenceIdeal.main_v134)))
    (h4 : ((VK (Proc.devRef .tc Cert.KernelIdeal.main_v134) : IVec Cert.KernelIdeal.S1200000 32) = VR (Proc.devRef .tc Cert.ReferenceIdeal.main_v133))) :
    ((after Cert.KernelIdeal.PrefixMidK.K14 VK (Proc.devRef .tc Cert.KernelIdeal.main_v190) : FVec F Cert.KernelIdeal.S100002x64 .f32) = after Cert.ReferenceIdeal.RefRun.opsC14 VR (Proc.devRef .tc Cert.ReferenceIdeal.main_v189)) := by
  rw [readK14_189, readR14_189, peq14_189, h0, h1, h2, h3, h4]

theorem sim15 (VK : Valuation Cert.KernelIdeal.τ Cert.KernelIdeal.sig (Elt F)) (VR : Valuation Cert.ReferenceIdeal.τ Cert.ReferenceIdeal.sig (Elt F))
    (h0 : ((VK (Proc.devRef .tc Cert.KernelIdeal.main_v190) : FVec F Cert.KernelIdeal.S100002x64 .f32) = VR (Proc.devRef .tc Cert.ReferenceIdeal.main_v189))) :
    ((after Cert.KernelIdeal.PrefixMidK.K15 VK (Proc.devRef .tc Cert.KernelIdeal.main_v192) : FVec F Cert.KernelIdeal.S60001x64 .f32) = after Cert.ReferenceIdeal.RefRun.opsC15 VR (Proc.devRef .tc Cert.ReferenceIdeal.main_v190))
      ∧ ((after Cert.KernelIdeal.PrefixMidK.K15 VK (Proc.devRef .tc Cert.KernelIdeal.main_v193) : FVec F Cert.KernelIdeal.S40001x64 .f32) = after Cert.ReferenceIdeal.RefRun.opsC15 VR (Proc.devRef .tc Cert.ReferenceIdeal.main_v191)) := by
  refine ⟨?_, ?_⟩
  · rw [readK15_190, readR15_190, peq15_190, h0]
  · rw [readK15_191, readR15_191, peq15_191, h0]

/-! ## The whole stretch -/

/-- The first program's 82 operations of this stretch are operations 161 … 242 of its first host prefix. -/
theorem hostOps0_mid_split :
    ((Cert.KernelIdeal.Gen.hostOps0 : List (HloOp Cert.KernelIdeal.τ Cert.KernelIdeal.sig (Elt F))).drop 160).take 82
      = Cert.KernelIdeal.PrefixMidK.K10 ++ Cert.KernelIdeal.PrefixMidK.K11 ++ Cert.KernelIdeal.PrefixMidK.K12 ++ Cert.KernelIdeal.PrefixMidK.K13 ++ Cert.KernelIdeal.PrefixMidK.K14 ++ Cert.KernelIdeal.PrefixMidK.K14x ++ Cert.KernelIdeal.PrefixMidK.K15 := rfl

/-- From edge arrays and a propagated table that agree, the two programs' behaviour-1 user table and item table agree. -/
theorem mid_tables_eq (VK : Valuation Cert.KernelIdeal.τ Cert.KernelIdeal.sig (Elt F)) (VR : Valuation Cert.ReferenceIdeal.τ Cert.ReferenceIdeal.sig (Elt F))
    (h3 : ((VK (Proc.devRef .tc Cert.KernelIdeal.main_arg3) : IVec Cert.KernelIdeal.S3x600000 32) = VR (Proc.devRef .tc Cert.ReferenceIdeal.main_arg3)))
    (h4 : ((VK (Proc.devRef .tc Cert.KernelIdeal.main_arg4) : IVec Cert.KernelIdeal.S3x600000 32) = VR (Proc.devRef .tc Cert.ReferenceIdeal.main_arg4)))
    (hemb : ((VK (Proc.devRef .tc Cert.KernelIdeal.main_v61) : FVec F Cert.KernelIdeal.S100002x64 .f32) = VR (Proc.devRef .tc Cert.ReferenceIdeal.main_v61))) :
    ((after (Cert.KernelIdeal.PrefixMidK.K10 ++ Cert.KernelIdeal.PrefixMidK.K11 ++ Cert.KernelIdeal.PrefixMidK.K12 ++ Cert.KernelIdeal.PrefixMidK.K13 ++ Cert.KernelIdeal.PrefixMidK.K14 ++ Cert.KernelIdeal.PrefixMidK.K14x ++ Cert.KernelIdeal.PrefixMidK.K15) VK (Proc.devRef .tc Cert.KernelIdeal.main_v192) : FVec F Cert.KernelIdeal.S60001x64 .f32) = after (Cert.ReferenceIdeal.RefRun.opsC10 ++ Cert.ReferenceIdeal.RefRun.opsC11 ++ Cert.ReferenceIdeal.RefRun.opsC12 ++ Cert.ReferenceIdeal.RefRun.opsC13 ++ Cert.ReferenceIdeal.RefRun.opsC14 ++ Cert.ReferenceIdeal.RefRun.opsC15) VR (Proc.devRef .tc Cert.ReferenceIdeal.main_v190))
      ∧ ((after (Cert.KernelIdeal.PrefixMidK.K10 ++ Cert.KernelIdeal.PrefixMidK.K11 ++ Cert.KernelIdeal.PrefixMidK.K12 ++ Cert.KernelIdeal.PrefixMidK.K13 ++ Cert.KernelIdeal.PrefixMidK.K14 ++ Cert.KernelIdeal.PrefixMidK.K14x ++ Cert.KernelIdeal.PrefixMidK.K15) VK (Proc.devRef .tc Cert.KernelIdeal.main_v193) : FVec F Cert.KernelIdeal.S40001x64 .f32) = after (Cert.ReferenceIdeal.RefRun.opsC10 ++ Cert.ReferenceIdeal.RefRun.opsC11 ++ Cert.ReferenceIdeal.RefRun.opsC12 ++ Cert.ReferenceIdeal.RefRun.opsC13 ++ Cert.ReferenceIdeal.RefRun.opsC14 ++ Cert.ReferenceIdeal.RefRun.opsC15) VR (Proc.devRef .tc Cert.ReferenceIdeal.main_v191)) := by
  simp only [after_append]
  obtain ⟨a0, a1, a2⟩ := sim10 VK VR h3 h4 hemb
  obtain ⟨b0, b1, b2, b3⟩ := sim11 (after Cert.KernelIdeal.PrefixMidK.K10 VK) (after Cert.ReferenceIdeal.RefRun.opsC10 VR) a0 a1 a2
  obtain ⟨c0, c1, c2, c3, c4, c5⟩ := sim12 (after Cert.KernelIdeal.PrefixMidK.K11 (after Cert.KernelIdeal.PrefixMidK.K10 VK)) (after Cert.ReferenceIdeal.RefRun.opsC11 (after Cert.ReferenceIdeal.RefRun.opsC10 VR)) b0 b1 b2 b3
  obtain ⟨d0, d1, d2, d3, d4⟩ := sim13 (after Cert.KernelIdeal.PrefixMidK.K12 (after Cert.KernelIdeal.PrefixMidK.K11 (after Cert.KernelIdeal.PrefixMidK.K10 VK))) (after Cert.ReferenceIdeal.RefRun.opsC12 (after Cert.ReferenceIdeal.RefRun.opsC11 (after Cert.ReferenceIdeal.RefRun.opsC10 VR))) c0 c1 c2 c3 c4 c5
  have e0 := sim14 (after Cert.KernelIdeal.PrefixMidK.K13 (after Cert.KernelIdeal.PrefixMidK.K12 (after Cert.KernelIdeal.PrefixMidK.K11 (after Cert.KernelIdeal.PrefixMidK.K10 VK)))) (after Cert.ReferenceIdeal.RefRun.opsC13 (after Cert.ReferenceIdeal.RefRun.opsC12 (after Cert.ReferenceIdeal.RefRun.opsC11 (after Cert.ReferenceIdeal.RefRun.opsC10 VR)))) d0 d1 d2 d3 d4
  exact sim15 (after Cert.KernelIdeal.PrefixMidK.K14x (after Cert.KernelIdeal.PrefixMidK.K14 (after Cert.KernelIdeal.PrefixMidK.K13 (after Cert.KernelIdeal.PrefixMidK.K12 (after Cert.KernelIdeal.PrefixMidK.K11 (after Cert.KernelIdeal.PrefixMidK.K10 VK)))))) (after Cert.ReferenceIdeal.RefRun.opsC14 (after Cert.ReferenceIdeal.RefRun.opsC13 (after Cert.ReferenceIdeal.RefRun.opsC12 (after Cert.ReferenceIdeal.RefRun.opsC11 (after Cert.ReferenceIdeal.RefRun.opsC10 VR))))) ((Cert.KernelIdeal.PrefixMidK.K14x_keep (after Cert.KernelIdeal.PrefixMidK.K14 (after Cert.KernelIdeal.PrefixMidK.K13 (after Cert.KernelIdeal.PrefixMidK.K12 (after Cert.KernelIdeal.PrefixMidK.K11 (after Cert.KernelIdeal.PrefixMidK.K10 VK))))) Cert.KernelIdeal.main_v190 (by decide)).trans e0)

end Cert.Proof.PrefixMid

end
-- ==== Proof.PrefixTailK.lean ====
import proofs.«412432_j74655121539772_3_alg».proof.Proof.Gen.KernelIdeal.Launch
import Idealize.ShloMosaic.Lib.StableHlo.Run

noncomputable section

namespace Cert.KernelIdeal.PrefixTailK

open Cert.KernelIdeal Cert.KernelIdeal.Gen Idealize.ShloMosaic Idealize.ShloMosaic.TcCoe Idealize.SL.Sem Idealize.ShloMosaic.StableHlo

variable {F : FTy → Type} [FloatOps F]

/-- The prefix's operations 243 … 249 of 350: they write `main_v194` … `main_v199`. -/
abbrev K16 : List (HloOp τ sig (Elt F)) :=
  [ StableHlo.unary main_arg3 main_v194 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v194 main_v195 rfl shapeCasts_S1x600000_S600000,
    StableHlo.unary main_arg4 main_v196 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v196 main_v197 rfl shapeCasts_S1x600000_S600000,
    StableHlo.nullary main_c_46 (constantI S_ 32 60001#32),
    StableHlo.unary main_c_46 main_v198 (broadcastInDim S600000 ![] bcast_S_S600000 : (⟨S_, .i32⟩ : BufTy).Contents (Elt F) → (⟨S600000, .i32⟩ : BufTy).Contents (Elt F)),
    StableHlo.binary main_v197 main_v198 main_v199 (addi : (⟨S600000, .i32⟩ : BufTy).Contents (Elt F) → (⟨S600000, .i32⟩ : BufTy).Contents (Elt F) → (⟨S600000, .i32⟩ : BufTy).Contents (Elt F)) ]

/-- The buffers `K16` writes, in order. -/
abbrev K16_W : List (Ref sig .tc) := [main_v194, main_v195, main_v196, main_v197, main_c_46, main_v198, main_v199]

set_option maxRecDepth 8192 in
theorem K16_writes : (K16 : List (HloOp τ sig (Elt F))).Forall fun op => op.writes ⊆ (K16_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K16` does not write keeps its contents through it. -/
theorem K16_keep (V : Valuation τ sig (Elt F)) (r : Ref sig .tc) (h : r ∉ K16_W) :
    after K16 V (Proc.devRef .tc r) = V (Proc.devRef .tc r) :=
  after_of_writes_sub K16 V K16_writes h

/-- The prefix's operations 250 … 250 of 350: they write `main_v200` … `main_v200`. -/
abbrev K17 : List (HloOp τ sig (Elt F)) :=
  [ StableHlo.binary main_v195 main_v199 main_v200 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)) ]

/-- The buffers `K17` writes, in order. -/
abbrev K17_W : List (Ref sig .tc) := [main_v200]

set_option maxRecDepth 8192 in
theorem K17_writes : (K17 : List (HloOp τ sig (Elt F))).Forall fun op => op.writes ⊆ (K17_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

/-- A buffer `K17` does not write keeps its contents through it. -/
theorem K17_keep (V : Valuation τ sig (Elt F)) (r : Ref sig .tc) (h : r ∉ K17_W) :
    after K17 V (Proc.devRef .tc r) = V (Proc.devRef .tc r) :=
  after_of_writes_sub K17 V K17_writes h

/-- The prefix's operations 251 … 276 of 350: they write `main_v201` … `main_v219`. -/
abbrev K18 : List (HloOp τ sig (Elt F)) :=
  [ StableHlo.binary main_v199 main_v195 main_v201 ((fun a b => concatenate S1200000 0 [⟨S600000, a⟩, ⟨S600000, b⟩] concatenates_S600000_S600000_S1200000_d0) : (⟨S600000, .i32⟩ : BufTy).Contents (Elt F) → (⟨S600000, .i32⟩ : BufTy).Contents (Elt F) → (⟨S1200000, .i32⟩ : BufTy).Contents (Elt F)),
    StableHlo.nullary main_cst_47 (constant S_ .f32 0x3F800000#32),
    StableHlo.unary main_cst_47 main_v202 (broadcastInDim S1200000 ![] bcast_S_S1200000 : (⟨S_, .f32⟩ : BufTy).Contents (Elt F) → (⟨S1200000, .f32⟩ : BufTy).Contents (Elt F)),
    StableHlo.nullary main_cst_48 (constant S_ .f32 0x00000000#32),
    StableHlo.unary main_cst_48 main_v203 (broadcastInDim S100002 ![] bcast_S_S100002 : (⟨S_, .f32⟩ : BufTy).Contents (Elt F) → (⟨S100002, .f32⟩ : BufTy).Contents (Elt F)),
    StableHlo.unary main_v200 main_v204 (broadcastInDim S1200000x1 ![0] bcast_S1200000_S1200000x1_0 : (⟨S1200000, .i32⟩ : BufTy).Contents (Elt F) → (⟨S1200000x1, .i32⟩ : BufTy).Contents (Elt F)),
    StableHlo.ternary main_v203 main_v204 main_v202 main_v205 ((fun x i u => Host.scatterAdd scatter_S100002_S1200000x1_S1200000_n_0_0_1 x i u) : (⟨S100002, .f32⟩ : BufTy).Contents (Elt F) → (⟨S1200000x1, .i32⟩ : BufTy).Contents (Elt F) → (⟨S1200000, .f32⟩ : BufTy).Contents (Elt F) → (⟨S100002, .f32⟩ : BufTy).Contents (Elt F)),
    StableHlo.nullary main_c_49 (constantI S_ 32 0#32),
    StableHlo.unary main_c_49 main_v206 (broadcastInDim S1200000 ![] bcast_S_S1200000 : (⟨S_, .i32⟩ : BufTy).Contents (Elt F) → (⟨S1200000, .i32⟩ : BufTy).Contents (Elt F)),
    StableHlo.binary main_v200 main_v206 main_v207 (cmpi .slt : (⟨S1200000, .i32⟩ : BufTy).Contents (Elt F) → (⟨S1200000, .i32⟩ : BufTy).Contents (Elt F) → (⟨S1200000, .i1⟩ : BufTy).Contents (Elt F)),
    StableHlo.nullary main_c_50 (constantI S_ 32 100002#32),
    StableHlo.unary main_c_50 main_v208 (broadcastInDim S1200000 ![] bcast_S_S1200000 : (⟨S_, .i32⟩ : BufTy).Contents (Elt F) → (⟨S1200000, .i32⟩ : BufTy).Contents (Elt F)),
    StableHlo.binary main_v200 main_v208 main_v209 (addi : (⟨S1200000, .i32⟩ : BufTy).Contents (Elt F) → (⟨S1200000, .i32⟩ : BufTy).Contents (Elt F) → (⟨S1200000, .i32⟩ : BufTy).Contents (Elt F)),
    StableHlo.ternary main_v207 main_v209 main_v200 main_v210 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v210 main_v211 (broadcastInDim S1200000x1 ![0] bcast_S1200000_S1200000x1_0 : (⟨S1200000, .i32⟩ : BufTy).Contents (Elt F) → (⟨S1200000x1, .i32⟩ : BufTy).Contents (Elt F)),
    StableHlo.binary main_v205 main_v211 main_v212 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    StableHlo.nullary main_cst_51 (constant S_ .f32 0x3F800000#32),
    StableHlo.unary main_cst_51 main_v213 (broadcastInDim S1200000 ![] bcast_S_S1200000 : (⟨S_, .f32⟩ : BufTy).Contents (Elt F) → (⟨S1200000, .f32⟩ : BufTy).Contents (Elt F)),
    StableHlo.binary main_v212 main_v213 main_v214 (maximumf : (⟨S1200000, .f32⟩ : BufTy).Contents (Elt F) → (⟨S1200000, .f32⟩ : BufTy).Contents (Elt F) → (⟨S1200000, .f32⟩ : BufTy).Contents (Elt F)),
    StableHlo.unary main_v214 main_v215 (Host.rsqrt : (⟨S1200000, .f32⟩ : BufTy).Contents (Elt F) → (⟨S1200000, .f32⟩ : BufTy).Contents (Elt F)),
    StableHlo.nullary main_c_52 (constantI S_ 32 0#32),
    StableHlo.unary main_c_52 main_v216 (broadcastInDim S1200000 ![] bcast_S_S1200000 : (⟨S_, .i32⟩ : BufTy).Contents (Elt F) → (⟨S1200000, .i32⟩ : BufTy).Contents (Elt F)),
    StableHlo.binary main_v201 main_v216 main_v217 (cmpi .slt : (⟨S1200000, .i32⟩ : BufTy).Contents (Elt F) → (⟨S1200000, .i32⟩ : BufTy).Contents (Elt F) → (⟨S1200000, .i1⟩ : BufTy).Contents (Elt F)),
    StableHlo.nullary main_c_53 (constantI S_ 32 100002#32),
    StableHlo.unary main_c_53 main_v218 (broadcastInDim S1200000 ![] bcast_S_S1200000 : (⟨S_, .i32⟩ : BufTy).Contents (Elt F) → (⟨S1200000, .i32⟩ : BufTy).Contents (Elt F)),
    StableHlo.binary main_v201 main_v218 main_v219 (addi : (⟨S1200000, .i32⟩ : BufTy).Contents (Elt F) → (⟨S1200000, .i32⟩ : BufTy).Contents (Elt F) → (⟨S1200000, .i32⟩ : BufTy).Contents (Elt F)) ]

/-- The buffers `K18` writes, in order. -/
abbrev K18_W : List (Ref sig .tc) := [main_v201, main_cst_47, main_v202, main_cst_48, main_v203, main_v204, main_v205, main_c_49, main_v206, main_v207, main_c_50, main_v208, main_v209, main_v210, main_v211, main_v212, main_cst_51, main_v213, main_v214, main_v215, main_c_52, main_v216, main_v217, main_c_53, main_v218, main_v219]

set_option maxRecDepth 8192 in
theorem K18_writes : (K18 : List (HloOp τ sig (Elt F))).Forall fun op => op.writes ⊆ (K18_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K18` does not write keeps its contents through it. -/
theorem K18_keep (V : Valuation τ sig (Elt F)) (r : Ref sig .tc) (h : r ∉ K18_W) :
    after K18 V (Proc.devRef .tc r) = V (Proc.devRef .tc r) :=
  after_of_writes_sub K18 V K18_writes h

/-- The prefix's operations 277 … 302 of 350: they write `main_v220` … `main_c_58`. -/
abbrev K19 : List (HloOp τ sig (Elt F)) :=
  [ StableHlo.ternary main_v217 main_v219 main_v201 main_v220 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v220 main_v221 (broadcastInDim S1200000x1 ![0] bcast_S1200000_S1200000x1_0 : (⟨S1200000, .i32⟩ : BufTy).Contents (Elt F) → (⟨S1200000x1, .i32⟩ : BufTy).Contents (Elt F)),
    StableHlo.binary main_v205 main_v221 main_v222 ((fun x i => Host.gather gather_S100002_S1200000x1_S1200000_n_0_n_n_0_1_1 x i) : (⟨S100002, .f32⟩ : BufTy).Contents (Elt F) → (⟨S1200000x1, .i32⟩ : BufTy).Contents (Elt F) → (⟨S1200000, .f32⟩ : BufTy).Contents (Elt F)),
    StableHlo.nullary main_cst_54 (constant S_ .f32 0x3F800000#32),
    StableHlo.unary main_cst_54 main_v223 (broadcastInDim S1200000 ![] bcast_S_S1200000 : (⟨S_, .f32⟩ : BufTy).Contents (Elt F) → (⟨S1200000, .f32⟩ : BufTy).Contents (Elt F)),
    StableHlo.binary main_v222 main_v223 main_v224 (maximumf : (⟨S1200000, .f32⟩ : BufTy).Contents (Elt F) → (⟨S1200000, .f32⟩ : BufTy).Contents (Elt F) → (⟨S1200000, .f32⟩ : BufTy).Contents (Elt F)),
    StableHlo.unary main_v224 main_v225 (Host.rsqrt : (⟨S1200000, .f32⟩ : BufTy).Contents (Elt F) → (⟨S1200000, .f32⟩ : BufTy).Contents (Elt F)),
    StableHlo.binary main_v215 main_v225 main_v226 (mulf : (⟨S1200000, .f32⟩ : BufTy).Contents (Elt F) → (⟨S1200000, .f32⟩ : BufTy).Contents (Elt F) → (⟨S1200000, .f32⟩ : BufTy).Contents (Elt F)),
    StableHlo.nullary main_c_55 (constantI S_ 32 0#32),
    StableHlo.unary main_c_55 main_v227 (broadcastInDim S1200000 ![] bcast_S_S1200000 : (⟨S_, .i32⟩ : BufTy).Contents (Elt F) → (⟨S1200000, .i32⟩ : BufTy).Contents (Elt F)),
    StableHlo.binary main_v200 main_v227 main_v228 (cmpi .slt : (⟨S1200000, .i32⟩ : BufTy).Contents (Elt F) → (⟨S1200000, .i32⟩ : BufTy).Contents (Elt F) → (⟨S1200000, .i1⟩ : BufTy).Contents (Elt F)),
    StableHlo.nullary main_c_56 (constantI S_ 32 100002#32),
    StableHlo.unary main_c_56 main_v229 (broadcastInDim S1200000 ![] bcast_S_S1200000 : (⟨S_, .i32⟩ : BufTy).Contents (Elt F) → (⟨S1200000, .i32⟩ : BufTy).Contents (Elt F)),
    StableHlo.binary main_v200 main_v229 main_v230 (addi : (⟨S1200000, .i32⟩ : BufTy).Contents (Elt F) → (⟨S1200000, .i32⟩ : BufTy).Contents (Elt F) → (⟨S1200000, .i32⟩ : BufTy).Contents (Elt F)),
    StableHlo.ternary main_v228 main_v230 main_v200 main_v231 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v231 main_v232 (broadcastInDim S1200000x1 ![0] bcast_S1200000_S1200000x1_0 : (⟨S1200000, .i32⟩ : BufTy).Contents (Elt F) → (⟨S1200000x1, .i32⟩ : BufTy).Contents (Elt F)),
    StableHlo.binary main_v61 main_v232 main_v233 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    StableHlo.unary main_v226 main_v234 (broadcastInDim S1200000x1 ![0] bcast_S1200000_S1200000x1_0 : (⟨S1200000, .f32⟩ : BufTy).Contents (Elt F) → (⟨S1200000x1, .f32⟩ : BufTy).Contents (Elt F)),
    StableHlo.unary main_v234 main_v235 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v233 main_v235 main_v236 (mulf : (⟨S1200000x64, .f32⟩ : BufTy).Contents (Elt F) → (⟨S1200000x64, .f32⟩ : BufTy).Contents (Elt F) → (⟨S1200000x64, .f32⟩ : BufTy).Contents (Elt F)),
    StableHlo.nullary main_cst_57 (constant S_ .f32 0x00000000#32),
    StableHlo.unary main_cst_57 main_v237 (broadcastInDim S100002x64 ![] bcast_S_S100002x64 : (⟨S_, .f32⟩ : BufTy).Contents (Elt F) → (⟨S100002x64, .f32⟩ : BufTy).Contents (Elt F)),
    StableHlo.unary main_v201 main_v238 (broadcastInDim S1200000x1 ![0] bcast_S1200000_S1200000x1_0 : (⟨S1200000, .i32⟩ : BufTy).Contents (Elt F) → (⟨S1200000x1, .i32⟩ : BufTy).Contents (Elt F)),
    StableHlo.ternary main_v237 main_v238 main_v236 main_v239 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    StableHlo.binary main_v61 main_v239 main_v240 (addf : (⟨S100002x64, .f32⟩ : BufTy).Contents (Elt F) → (⟨S100002x64, .f32⟩ : BufTy).Contents (Elt F) → (⟨S100002x64, .f32⟩ : BufTy).Contents (Elt F)),
    StableHlo.nullary main_c_58 (constantI S_ 32 0#32) ]

/-- The buffers `K19` writes, in order. -/
abbrev K19_W : List (Ref sig .tc) := [main_v220, main_v221, main_v222, main_cst_54, main_v223, main_v224, main_v225, main_v226, main_c_55, main_v227, main_v228, main_c_56, main_v229, main_v230, main_v231, main_v232, main_v233, main_v234, main_v235, main_v236, main_cst_57, main_v237, main_v238, main_v239, main_v240, main_c_58]

set_option maxRecDepth 8192 in
theorem K19_writes : (K19 : List (HloOp τ sig (Elt F))).Forall fun op => op.writes ⊆ (K19_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K19` does not write keeps its contents through it. -/
theorem K19_keep (V : Valuation τ sig (Elt F)) (r : Ref sig .tc) (h : r ∉ K19_W) :
    after K19 V (Proc.devRef .tc r) = V (Proc.devRef .tc r) :=
  after_of_writes_sub K19 V K19_writes h

/-- The prefix's operations 303 … 321 of 350: they write `main_v241` … `main_v256`. -/
abbrev K20 : List (HloOp τ sig (Elt F)) :=
  [ StableHlo.unary main_c_58 main_v241 (broadcastInDim S1200000 ![] bcast_S_S1200000 : (⟨S_, .i32⟩ : BufTy).Contents (Elt F) → (⟨S1200000, .i32⟩ : BufTy).Contents (Elt F)),
    StableHlo.binary main_v200 main_v241 main_v242 (cmpi .slt : (⟨S1200000, .i32⟩ : BufTy).Contents (Elt F) → (⟨S1200000, .i32⟩ : BufTy).Contents (Elt F) → (⟨S1200000, .i1⟩ : BufTy).Contents (Elt F)),
    StableHlo.nullary main_c_59 (constantI S_ 32 100002#32),
    StableHlo.unary main_c_59 main_v243 (broadcastInDim S1200000 ![] bcast_S_S1200000 : (⟨S_, .i32⟩ : BufTy).Contents (Elt F) → (⟨S1200000, .i32⟩ : BufTy).Contents (Elt F)),
    StableHlo.binary main_v200 main_v243 main_v244 (addi : (⟨S1200000, .i32⟩ : BufTy).Contents (Elt F) → (⟨S1200000, .i32⟩ : BufTy).Contents (Elt F) → (⟨S1200000, .i32⟩ : BufTy).Contents (Elt F)),
    StableHlo.ternary main_v242 main_v244 main_v200 main_v245 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v245 main_v246 (broadcastInDim S1200000x1 ![0] bcast_S1200000_S1200000x1_0 : (⟨S1200000, .i32⟩ : BufTy).Contents (Elt F) → (⟨S1200000x1, .i32⟩ : BufTy).Contents (Elt F)),
    StableHlo.binary main_v239 main_v246 main_v247 ((fun x i => Host.gather gather_S100002x64_S1200000x1_S1200000x64_1_0_n_n_0_1_164 x i) : (⟨S100002x64, .f32⟩ : BufTy).Contents (Elt F) → (⟨S1200000x1, .i32⟩ : BufTy).Contents (Elt F) → (⟨S1200000x64, .f32⟩ : BufTy).Contents (Elt F)),
    StableHlo.unary main_v226 main_v248 (broadcastInDim S1200000x1 ![0] bcast_S1200000_S1200000x1_0 : (⟨S1200000, .f32⟩ : BufTy).Contents (Elt F) → (⟨S1200000x1, .f32⟩ : BufTy).Contents (Elt F)),
    StableHlo.unary main_v248 main_v249 (broadcastInDim S1200000x64 ![0, 1] bcast_S1200000x1_S1200000x64_0_1 : (⟨S1200000x1, .f32⟩ : BufTy).Contents (Elt F) → (⟨S1200000x64, .f32⟩ : BufTy).Contents (Elt F)),
    StableHlo.binary main_v247 main_v249 main_v250 (mulf : (⟨S1200000x64, .f32⟩ : BufTy).Contents (Elt F) → (⟨S1200000x64, .f32⟩ : BufTy).Contents (Elt F) → (⟨S1200000x64, .f32⟩ : BufTy).Contents (Elt F)),
    StableHlo.nullary main_cst_60 (constant S_ .f32 0x00000000#32),
    StableHlo.unary main_cst_60 main_v251 (broadcastInDim S100002x64 ![] bcast_S_S100002x64 : (⟨S_, .f32⟩ : BufTy).Contents (Elt F) → (⟨S100002x64, .f32⟩ : BufTy).Contents (Elt F)),
    StableHlo.unary main_v201 main_v252 (broadcastInDim S1200000x1 ![0] bcast_S1200000_S1200000x1_0 : (⟨S1200000, .i32⟩ : BufTy).Contents (Elt F) → (⟨S1200000x1, .i32⟩ : BufTy).Contents (Elt F)),
    StableHlo.ternary main_v251 main_v252 main_v250 main_v253 ((fun x i u => Host.scatterAdd scatter_S100002x64_S1200000x1_S1200000x64_1_0_0_1 x i u) : (⟨S100002x64, .f32⟩ : BufTy).Contents (Elt F) → (⟨S1200000x1, .i32⟩ : BufTy).Contents (Elt F) → (⟨S1200000x64, .f32⟩ : BufTy).Contents (Elt F) → (⟨S100002x64, .f32⟩ : BufTy).Contents (Elt F)),
    StableHlo.binary main_v240 main_v253 main_v254 (addf : (⟨S100002x64, .f32⟩ : BufTy).Contents (Elt F) → (⟨S100002x64, .f32⟩ : BufTy).Contents (Elt F) → (⟨S100002x64, .f32⟩ : BufTy).Contents (Elt F)),
    StableHlo.nullary main_cst_61 (constant S_ .f32 0x40400000#32),
    StableHlo.unary main_cst_61 main_v255 (broadcastInDim S100002x64 ![] bcast_S_S100002x64 : (⟨S_, .f32⟩ : BufTy).Contents (Elt F) → (⟨S100002x64, .f32⟩ : BufTy).Contents (Elt F)),
    StableHlo.binary main_v254 main_v255 main_v256 (Host.divf : (⟨S100002x64, .f32⟩ : BufTy).Contents (Elt F) → (⟨S100002x64, .f32⟩ : BufTy).Contents (Elt F) → (⟨S100002x64, .f32⟩ : BufTy).Contents (Elt F)) ]

/-- The buffers `K20` writes, in order. -/
abbrev K20_W : List (Ref sig .tc) := [main_v241, main_v242, main_c_59, main_v243, main_v244, main_v245, main_v246, main_v247, main_v248, main_v249, main_v250, main_cst_60, main_v251, main_v252, main_v253, main_v254, main_cst_61, main_v255, main_v256]

set_option maxRecDepth 8192 in
theorem K20_writes : (K20 : List (HloOp τ sig (Elt F))).Forall fun op => op.writes ⊆ (K20_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K20` does not write keeps its contents through it. -/
theorem K20_keep (V : Valuation τ sig (Elt F)) (r : Ref sig .tc) (h : r ∉ K20_W) :
    after K20 V (Proc.devRef .tc r) = V (Proc.devRef .tc r) :=
  after_of_writes_sub K20 V K20_writes h

/-- The prefix's operations 322 … 322 of 350: they write `main_v257` … `main_v257`. -/
abbrev K20x : List (HloOp τ sig (Elt F)) :=
  [ StableHlo.unary main_v205 main_v257 ((extractStridedSlice S40001 ![60001] · slices_S100002_S40001_60001) : (⟨S100002, .f32⟩ : BufTy).Contents (Elt F) → (⟨S40001, .f32⟩ : BufTy).Contents (Elt F)) ]

/-- The buffers `K20x` writes, in order. -/
abbrev K20x_W : List (Ref sig .tc) := [main_v257]

set_option maxRecDepth 8192 in
theorem K20x_writes : (K20x : List (HloOp τ sig (Elt F))).Forall fun op => op.writes ⊆ (K20x_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

/-- A buffer `K20x` does not write keeps its contents through it. -/
theorem K20x_keep (V : Valuation τ sig (Elt F)) (r : Ref sig .tc) (h : r ∉ K20x_W) :
    after K20x V (Proc.devRef .tc r) = V (Proc.devRef .tc r) :=
  after_of_writes_sub K20x V K20x_writes h

/-- The prefix's operations 323 … 324 of 350: they write `main_v258` … `main_v259`. -/
abbrev K21 : List (HloOp τ sig (Elt F)) :=
  [ StableHlo.unary main_v256 main_v258 ((extractStridedSlice S60001x64 ![0, 0] · slices_S100002x64_S60001x64_0_0) : (⟨S100002x64, .f32⟩ : BufTy).Contents (Elt F) → (⟨S60001x64, .f32⟩ : BufTy).Contents (Elt F)),
    StableHlo.unary main_v256 main_v259 ((extractStridedSlice S40001x64 ![60001, 0] · slices_S100002x64_S40001x64_60001_0) : (⟨S100002x64, .f32⟩ : BufTy).Contents (Elt F) → (⟨S40001x64, .f32⟩ : BufTy).Contents (Elt F)) ]

/-- The buffers `K21` writes, in order. -/
abbrev K21_W : List (Ref sig .tc) := [main_v258, main_v259]

set_option maxRecDepth 8192 in
theorem K21_writes : (K21 : List (HloOp τ sig (Elt F))).Forall fun op => op.writes ⊆ (K21_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K21` does not write keeps its contents through it. -/
theorem K21_keep (V : Valuation τ sig (Elt F)) (r : Ref sig .tc) (h : r ∉ K21_W) :
    after K21 V (Proc.devRef .tc r) = V (Proc.devRef .tc r) :=
  after_of_writes_sub K21 V K21_writes h

/-- The prefix's operations 325 … 327 of 350: they write `main_v260` … `main_v262`. -/
abbrev K22 : List (HloOp τ sig (Elt F)) :=
  [ StableHlo.unary main_v126 main_v260 (broadcastInDim S60001x1x64 ![0, 2] bcast_S60001x64_S60001x1x64_0_2 : (⟨S60001x64, .f32⟩ : BufTy).Contents (Elt F) → (⟨S60001x1x64, .f32⟩ : BufTy).Contents (Elt F)),
    StableHlo.unary main_v192 main_v261 (broadcastInDim S60001x1x64 ![0, 2] bcast_S60001x64_S60001x1x64_0_2 : (⟨S60001x64, .f32⟩ : BufTy).Contents (Elt F) → (⟨S60001x1x64, .f32⟩ : BufTy).Contents (Elt F)),
    StableHlo.unary main_v258 main_v262 (broadcastInDim S60001x1x64 ![0, 2] bcast_S60001x64_S60001x1x64_0_2 : (⟨S60001x64, .f32⟩ : BufTy).Contents (Elt F) → (⟨S60001x1x64, .f32⟩ : BufTy).Contents (Elt F)) ]

/-- The buffers `K22` writes, in order. -/
abbrev K22_W : List (Ref sig .tc) := [main_v260, main_v261, main_v262]

set_option maxRecDepth 8192 in
theorem K22_writes : (K22 : List (HloOp τ sig (Elt F))).Forall fun op => op.writes ⊆ (K22_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K22` does not write keeps its contents through it. -/
theorem K22_keep (V : Valuation τ sig (Elt F)) (r : Ref sig .tc) (h : r ∉ K22_W) :
    after K22 V (Proc.devRef .tc r) = V (Proc.devRef .tc r) :=
  after_of_writes_sub K22 V K22_writes h

/-- The prefix's operations 328 … 331 of 350: they write `main_v263` … `main_v266`. -/
abbrev K23 : List (HloOp τ sig (Elt F)) :=
  [ StableHlo.nary ![main_v260, main_v261, main_v262] main_v263 (fun u => concatenate S60001x3x64 1 [⟨S60001x1x64, u 0⟩, ⟨S60001x1x64, u 1⟩, ⟨S60001x1x64, u 2⟩] concatenates_S60001x1x64_S60001x1x64_S60001x1x64_S60001x3x64_d1),
    StableHlo.unary main_v127 main_v264 (broadcastInDim S40001x1x64 ![0, 2] bcast_S40001x64_S40001x1x64_0_2 : (⟨S40001x64, .f32⟩ : BufTy).Contents (Elt F) → (⟨S40001x1x64, .f32⟩ : BufTy).Contents (Elt F)),
    StableHlo.unary main_v193 main_v265 (broadcastInDim S40001x1x64 ![0, 2] bcast_S40001x64_S40001x1x64_0_2 : (⟨S40001x64, .f32⟩ : BufTy).Contents (Elt F) → (⟨S40001x1x64, .f32⟩ : BufTy).Contents (Elt F)),
    StableHlo.unary main_v259 main_v266 (broadcastInDim S40001x1x64 ![0, 2] bcast_S40001x64_S40001x1x64_0_2 : (⟨S40001x64, .f32⟩ : BufTy).Contents (Elt F) → (⟨S40001x1x64, .f32⟩ : BufTy).Contents (Elt F)) ]

/-- The buffers `K23` writes, in order. -/
abbrev K23_W : List (Ref sig .tc) := [main_v263, main_v264, main_v265, main_v266]

set_option maxRecDepth 8192 in
theorem K23_writes : (K23 : List (HloOp τ sig (Elt F))).Forall fun op => op.writes ⊆ (K23_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `K23` does not write keeps its contents through it. -/
theorem K23_keep (V : Valuation τ sig (Elt F)) (r : Ref sig .tc) (h : r ∉ K23_W) :
    after K23 V (Proc.devRef .tc r) = V (Proc.devRef .tc r) :=
  after_of_writes_sub K23 V K23_writes h

/-- The prefix's operations 332 … 332 of 350: they write `main_v267` … `main_v267`. -/
abbrev K24 : List (HloOp τ sig (Elt F)) :=
  [ StableHlo.nary ![main_v264, main_v265, main_v266] main_v267 (fun u => concatenate S40001x3x64 1 [⟨S40001x1x64, u 0⟩, ⟨S40001x1x64, u 1⟩, ⟨S40001x1x64, u 2⟩] concatenates_S40001x1x64_S40001x1x64_S40001x1x64_S40001x3x64_d1) ]

/-- The buffers `K24` writes, in order. -/
abbrev K24_W : List (Ref sig .tc) := [main_v267]

set_option maxRecDepth 8192 in
theorem K24_writes : (K24 : List (HloOp τ sig (Elt F))).Forall fun op => op.writes ⊆ (K24_W.map (Proc.devRef (τ := τ) .tc)).toFinset := by
  simp only [List.Forall]; exact (by simp only [nullary_writes, unary_writes, binary_writes, ternary_writes, reshape_writes, nary_writes, Finset.singleton_subset_iff, List.mem_toFinset]; exact List.mem_map_of_mem (by decide))

/-- A buffer `K24` does not write keeps its contents through it. -/
theorem K24_keep (V : Valuation τ sig (Elt F)) (r : Ref sig .tc) (h : r ∉ K24_W) :
    after K24 V (Proc.devRef .tc r) = V (Proc.devRef .tc r) :=
  after_of_writes_sub K24 V K24_writes h

/-- The prefix's operations 333 … 350 of 350: what follows the operation that writes `main_v267`. -/
abbrev Krest : List (HloOp τ sig (Elt F)) :=
  [ StableHlo.unary main_v125 main_v268 (broadcastInDim S40001x1 ![0] bcast_S40001_S40001x1_0 : (⟨S40001, .f32⟩ : BufTy).Contents (Elt F) → (⟨S40001x1, .f32⟩ : BufTy).Contents (Elt F)),
    StableHlo.unary main_v191 main_v269 (broadcastInDim S40001x1 ![0] bcast_S40001_S40001x1_0 : (⟨S40001, .f32⟩ : BufTy).Contents (Elt F) → (⟨S40001x1, .f32⟩ : BufTy).Contents (Elt F)),
    StableHlo.unary main_v257 main_v270 (broadcastInDim S40001x1 ![0] bcast_S40001_S40001x1_0 : (⟨S40001, .f32⟩ : BufTy).Contents (Elt F) → (⟨S40001x1, .f32⟩ : BufTy).Contents (Elt F)),
    StableHlo.nary ![main_v268, main_v269, main_v270] main_v271 (fun u => concatenate S40001x3 1 [⟨S40001x1, u 0⟩, ⟨S40001x1, u 1⟩, ⟨S40001x1, u 2⟩] concatenates_S40001x1_S40001x1_S40001x1_S40001x3_d1),
    StableHlo.unary main_arg5 main_v272 ((extractStridedSlice S2048x3x1 ![0, 0, 0] · slices_S2048x3x3_S2048x3x1_0_0_0) : (⟨S2048x3x3, .i32⟩ : BufTy).Contents (Elt F) → (⟨S2048x3x1, .i32⟩ : BufTy).Contents (Elt F)),
    StableHlo.reshape main_v272 main_v273 rfl shapeCasts_S2048x3x1_S2048x3,
    StableHlo.unary main_arg5 main_v274 ((extractStridedSlice S2048x3x2 ![0, 0, 1] · slices_S2048x3x3_S2048x3x2_0_0_1) : (⟨S2048x3x3, .i32⟩ : BufTy).Contents (Elt F) → (⟨S2048x3x2, .i32⟩ : BufTy).Contents (Elt F)),
    StableHlo.reshape main_v273 main_v275 rfl shapeCasts_S2048x3_S6144,
    StableHlo.nullary main_c_62 (constantI S_ 32 0#32),
    StableHlo.unary main_c_62 main_v276 (broadcastInDim S6144 ![] bcast_S_S6144 : (⟨S_, .i32⟩ : BufTy).Contents (Elt F) → (⟨S6144, .i32⟩ : BufTy).Contents (Elt F)),
    StableHlo.binary main_v275 main_v276 main_v277 (cmpi .slt : (⟨S6144, .i32⟩ : BufTy).Contents (Elt F) → (⟨S6144, .i32⟩ : BufTy).Contents (Elt F) → (⟨S6144, .i1⟩ : BufTy).Contents (Elt F)),
    StableHlo.nullary main_c_63 (constantI S_ 32 60001#32),
    StableHlo.unary main_c_63 main_v278 (broadcastInDim S6144 ![] bcast_S_S6144 : (⟨S_, .i32⟩ : BufTy).Contents (Elt F) → (⟨S6144, .i32⟩ : BufTy).Contents (Elt F)),
    StableHlo.binary main_v275 main_v278 main_v279 (addi : (⟨S6144, .i32⟩ : BufTy).Contents (Elt F) → (⟨S6144, .i32⟩ : BufTy).Contents (Elt F) → (⟨S6144, .i32⟩ : BufTy).Contents (Elt F)),
    StableHlo.ternary main_v277 main_v279 main_v275 main_v280 (select : (⟨S6144, .i1⟩ : BufTy).Contents (Elt F) → (⟨S6144, .i32⟩ : BufTy).Contents (Elt F) → (⟨S6144, .i32⟩ : BufTy).Contents (Elt F) → (⟨S6144, .i32⟩ : BufTy).Contents (Elt F)),
    StableHlo.unary main_v280 main_v281 (broadcastInDim S6144x1 ![0] bcast_S6144_S6144x1_0 : (⟨S6144, .i32⟩ : BufTy).Contents (Elt F) → (⟨S6144x1, .i32⟩ : BufTy).Contents (Elt F)),
    StableHlo.binary main_v263 main_v281 main_v282 ((fun x i => Host.gather gather_S60001x3x64_S6144x1_S6144x3x64_12_0_n_n_0_1_1364 x i) : (⟨S60001x3x64, .f32⟩ : BufTy).Contents (Elt F) → (⟨S6144x1, .i32⟩ : BufTy).Contents (Elt F) → (⟨S6144x3x64, .f32⟩ : BufTy).Contents (Elt F)),
    StableHlo.reshape main_v282 main_v283 rfl shapeCasts_S6144x3x64_S6144x192 ]

/-- The buffers `Krest` writes, in order. -/
abbrev Krest_W : List (Ref sig .tc) := [main_v268, main_v269, main_v270, main_v271, main_v272, main_v273, main_v274, main_v275, main_c_62, main_v276, main_v277, main_c_63, main_v278, main_v279, main_v280, main_v281, main_v282, main_v283]

set_option maxRecDepth 8192 in
theorem Krest_writes : (Krest : List (HloOp τ sig (Elt F))).Forall fun op => op.writes ⊆ (Krest_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide), by simp only [nullary_writes, unary_writes, binary_writes, ternary_writes, reshape_writes, nary_writes, Finset.singleton_subset_iff, List.mem_toFinset]; exact List.mem_map_of_mem (by decide)⟩

/-- A buffer `Krest` does not write keeps its contents through it. -/
theorem Krest_keep (V : Valuation τ sig (Elt F)) (r : Ref sig .tc) (h : r ∉ Krest_W) :
    after Krest V (Proc.devRef .tc r) = V (Proc.devRef .tc r) :=
  after_of_writes_sub Krest V Krest_writes h

end Cert.KernelIdeal.PrefixTailK

end
-- ==== Proof.PrefixTail.lean ====
/-
  The last third of the propagation prefix is the same computation in both programs.

  Before the first kernel call the kernel program runs, on the host, the same graph propagation as the reference: for
  each of the three behaviours the slices of the two edge rows, the degrees (ones scattered over the edge ends), the
  symmetric normalisation, two propagation layers (a gather of the normalised rows along the edges and a scatter of
  them back), the mean of the three layer tables, and at the end the stacking of the three behaviours' user rows and
  item rows into the two tables the kernels read. The kernel program's line of operations is the reference's with
  three extra slices of the degree vectors inserted, so from behaviour 2 on the two lines are, operation for
  operation, the same operations on buffers whose numbers are shifted.

  The kernel program's last 108 host operations before its first kernel call are cut into pieces where the
  reference's line is cut into chunks (before every concatenation, so that a concatenation reads its operands from
  what the piece starts from). For each piece and the chunk it mirrors: if the buffers the piece reads from outside
  hold, on both sides, the same arrays, then each buffer it writes for later holds the same array on both sides,
  because both values are the same operations of those arrays; the two are compared with the arrays as plain
  variables, at an abstract float type, where the comparison only walks the two terms. A buffer a piece does not
  write is left alone on both sides. Chaining the pieces from behaviour 2's starting data (the two edge arrays, the
  propagated table every behaviour starts from, and the user and item rows of behaviours 0 and 1) to the end, the two
  stacked tables are equal.
-/
import proofs.«412432_j74655121539772_3_alg».proof.Proof.PrefixTailK
import proofs.«412432_j74655121539772_3_alg».proof.Proof.RefRunC4
import proofs.«412432_j74655121539772_3_alg».proof.Proof.RefRunC5
import Idealize.ShloMosaic.Lib.Pipeline.Frame

noncomputable section

namespace Cert.Proof.PrefixTail

open Idealize.ShloMosaic Idealize.ShloMosaic.TcCoe Idealize.SL.Sem Idealize.ShloMosaic.StableHlo
open Cert.KernelIdeal.PrefixTailK Cert.ReferenceIdeal.RefRun
open Cert.ReferenceIdeal (S_ S3x600000 S600000 S1200000 S100002 S100002x64 S60001x64 S40001x64 S60001x1x64 S40001x1x64
  S60001x3x64 S40001x3x64)

variable {F : FTy → Type} [FloatOps F]

/-- What the kernel program's buffers hold, and what the reference's hold. -/
abbrev KVal (F : FTy → Type) [FloatOps F] : Type := Valuation Cert.KernelIdeal.τ Cert.KernelIdeal.sig (Elt F)
abbrev RVal (F : FTy → Type) [FloatOps F] : Type := Valuation Cert.ReferenceIdeal.τ Cert.ReferenceIdeal.sig (Elt F)

open Lean in
/-- k% b is the kernel program's buffer b as a device buffer. -/
local macro:max "k%" x:ident : term =>
  `(Proc.devRef (τ := Cert.KernelIdeal.τ) .tc $(mkIdentFrom x (`Cert.KernelIdeal ++ x.getId)))
open Lean in
/-- r% b is the reference's buffer b as a device buffer. -/
local macro:max "r%" x:ident : term =>
  `(Proc.devRef (τ := Cert.ReferenceIdeal.τ) .tc $(mkIdentFrom x (`Cert.ReferenceIdeal ++ x.getId)))

/-! ## The operation list's tail -/

/-- The pieces in a row: the prefix's operations 243 … 332, from behaviour 2's edge slices to the stacked item table. -/
abbrev Ktail : List (HloOp Cert.KernelIdeal.τ Cert.KernelIdeal.sig (Elt F)) :=
  K16 ++ K17 ++ K18 ++ K19 ++ K20 ++ K20x ++ K21 ++ K22 ++ K23 ++ K24

set_option maxRecDepth 16384 in
set_option maxHeartbeats 4000000 in
/-- The kernel program's first host prefix is its first 242 operations, then the pieces, then the rest. -/
theorem hostOps0_tail_split :
    (Cert.KernelIdeal.Gen.hostOps0 : List (HloOp Cert.KernelIdeal.τ Cert.KernelIdeal.sig (Elt F)))
      = Cert.KernelIdeal.Gen.hostOps0.take 242
        ++ (K16 ++ K17 ++ K18 ++ K19 ++ K20 ++ K20x ++ K21 ++ K22 ++ K23 ++ K24 ++ Krest) := by
  have h : (Cert.KernelIdeal.Gen.hostOps0 : List (HloOp Cert.KernelIdeal.τ Cert.KernelIdeal.sig (Elt F))).drop 242
      = K16 ++ K17 ++ K18 ++ K19 ++ K20 ++ K20x ++ K21 ++ K22 ++ K23 ++ K24 ++ Krest := rfl
  rw [← h, List.take_append_drop]

/-! ## Piece by piece: the same operations of the same arrays

In each lemma the arrays read from outside the piece are variables that both sides' buffers hold. -/

section Sim
variable (VK : KVal F) (VR : RVal F)

/-- Piece 16: the source ends of behaviour 2's edges, from the first edge array. -/
theorem sim16_src (a : Vec F S3x600000 .i32) (hK : VK k%main_arg3 = a) (hR : VR r%main_arg3 = a) :
    (after K16 VK k%main_v195 : Vec F S600000 .i32) = after opsC16 VR r%main_v193 := by
  unfold K16 opsC16
  after_results_simp
  rewrite [hK, hR]
  rfl

/-- Piece 16: the target ends, shifted past the users, from the second edge array. -/
theorem sim16_dst (a : Vec F S3x600000 .i32) (hK : VK k%main_arg4 = a) (hR : VR r%main_arg4 = a) :
    (after K16 VK k%main_v199 : Vec F S600000 .i32) = after opsC16 VR r%main_v197 := by
  unfold K16 opsC16
  after_results_simp
  rewrite [hK, hR]
  rfl

/-- Piece 17: the edges' sources followed by their targets. -/
theorem sim17 (s d : Vec F S600000 .i32) (hKs : VK k%main_v195 = s) (hRs : VR r%main_v193 = s)
    (hKd : VK k%main_v199 = d) (hRd : VR r%main_v197 = d) :
    (after K17 VK k%main_v200 : Vec F S1200000 .i32) = after opsC17 VR r%main_v198 := by
  unfold K17 opsC17
  after_results_simp
  rewrite [hKs, hRs, hKd, hRd]
  rfl

/-- Piece 18: the targets followed by the sources. -/
theorem sim18_rev (s d : Vec F S600000 .i32) (hKs : VK k%main_v195 = s) (hRs : VR r%main_v193 = s)
    (hKd : VK k%main_v199 = d) (hRd : VR r%main_v197 = d) :
    (after K18 VK k%main_v201 : Vec F S1200000 .i32) = after opsC18 VR r%main_v199 := by
  unfold K18 opsC18
  after_results_simp
  rewrite [hKs, hRs, hKd, hRd]
  rfl

/-- Piece 18: which of those ends are negative. -/
theorem sim18_neg (s d : Vec F S600000 .i32) (hKs : VK k%main_v195 = s) (hRs : VR r%main_v193 = s)
    (hKd : VK k%main_v199 = d) (hRd : VR r%main_v197 = d) :
    (after K18 VK k%main_v217 : Vec F S1200000 .i1) = after opsC18 VR r%main_v215 := by
  unfold K18 opsC18
  after_results_simp
  rewrite [hKs, hRs, hKd, hRd]
  rfl

/-- Piece 18: those ends wrapped. -/
theorem sim18_wrap (s d : Vec F S600000 .i32) (hKs : VK k%main_v195 = s) (hRs : VR r%main_v193 = s)
    (hKd : VK k%main_v199 = d) (hRd : VR r%main_v197 = d) :
    (after K18 VK k%main_v219 : Vec F S1200000 .i32) = after opsC18 VR r%main_v217 := by
  unfold K18 opsC18
  after_results_simp
  rewrite [hKs, hRs, hKd, hRd]
  rfl

/-- Piece 18: the degrees, ones scattered over the edge ends. -/
theorem sim18_deg (j : Vec F S1200000 .i32) (hK : VK k%main_v200 = j) (hR : VR r%main_v198 = j) :
    (after K18 VK k%main_v205 : Vec F S100002 .f32) = after opsC18 VR r%main_v203 := by
  unfold K18 opsC18
  after_results_simp
  rewrite [hK, hR]
  rfl

/-- Piece 18: the inverse square root of the degree at each edge's first end. -/
theorem sim18_norm (j : Vec F S1200000 .i32) (hK : VK k%main_v200 = j) (hR : VR r%main_v198 = j) :
    (after K18 VK k%main_v215 : Vec F S1200000 .f32) = after opsC18 VR r%main_v213 := by
  unfold K18 opsC18
  after_results_simp
  rewrite [hK, hR]
  rfl

/-- Piece 19: the zero the next piece compares with. -/
theorem sim19_zero :
    (after K19 VK k%main_c_58 : Vec F S_ .i32) = after opsC19 VR r%main_c_58 := by
  unfold K19 opsC19
  after_results_simp

/-- Piece 19: the edge weights, the product of the two ends' inverse square roots. -/
theorem sim19_weight (n : Vec F S1200000 .f32) (g : Vec F S100002 .f32) (m : Vec F S1200000 .i1)
    (w t : Vec F S1200000 .i32)
    (hKn : VK k%main_v215 = n) (hRn : VR r%main_v213 = n) (hKg : VK k%main_v205 = g) (hRg : VR r%main_v203 = g)
    (hKm : VK k%main_v217 = m) (hRm : VR r%main_v215 = m) (hKw : VK k%main_v219 = w) (hRw : VR r%main_v217 = w)
    (hKt : VK k%main_v201 = t) (hRt : VR r%main_v199 = t) :
    (after K19 VK k%main_v226 : Vec F S1200000 .f32) = after opsC19 VR r%main_v224 := by
  unfold K19 opsC19
  after_results_simp
  rewrite [hKn, hRn, hKg, hRg, hKm, hRm, hKw, hRw, hKt, hRt]
  rfl

/-- Piece 19: the first propagation layer, the weighted rows gathered along the edges and scattered back. -/
theorem sim19_layer (e : Vec F S100002x64 .f32) (j : Vec F S1200000 .i32)
    (n : Vec F S1200000 .f32) (g : Vec F S100002 .f32) (m : Vec F S1200000 .i1) (w t : Vec F S1200000 .i32)
    (hKe : VK k%main_v61 = e) (hRe : VR r%main_v61 = e) (hKj : VK k%main_v200 = j) (hRj : VR r%main_v198 = j)
    (hKn : VK k%main_v215 = n) (hRn : VR r%main_v213 = n) (hKg : VK k%main_v205 = g) (hRg : VR r%main_v203 = g)
    (hKm : VK k%main_v217 = m) (hRm : VR r%main_v215 = m) (hKw : VK k%main_v219 = w) (hRw : VR r%main_v217 = w)
    (hKt : VK k%main_v201 = t) (hRt : VR r%main_v199 = t) :
    (after K19 VK k%main_v239 : Vec F S100002x64 .f32) = after opsC19 VR r%main_v237 := by
  unfold K19 opsC19
  after_results_simp
  rewrite [hKe, hRe, hKj, hRj, hKn, hRn, hKg, hRg, hKm, hRm, hKw, hRw, hKt, hRt]
  rfl

/-- Piece 19: the starting table plus the first layer. -/
theorem sim19_sum (e : Vec F S100002x64 .f32) (j : Vec F S1200000 .i32)
    (n : Vec F S1200000 .f32) (g : Vec F S100002 .f32) (m : Vec F S1200000 .i1) (w t : Vec F S1200000 .i32)
    (hKe : VK k%main_v61 = e) (hRe : VR r%main_v61 = e) (hKj : VK k%main_v200 = j) (hRj : VR r%main_v198 = j)
    (hKn : VK k%main_v215 = n) (hRn : VR r%main_v213 = n) (hKg : VK k%main_v205 = g) (hRg : VR r%main_v203 = g)
    (hKm : VK k%main_v217 = m) (hRm : VR r%main_v215 = m) (hKw : VK k%main_v219 = w) (hRw : VR r%main_v217 = w)
    (hKt : VK k%main_v201 = t) (hRt : VR r%main_v199 = t) :
    (after K19 VK k%main_v240 : Vec F S100002x64 .f32) = after opsC19 VR r%main_v238 := by
  unfold K19 opsC19
  after_results_simp
  rewrite [hKe, hRe, hKj, hRj, hKn, hRn, hKg, hRg, hKm, hRm, hKw, hRw, hKt, hRt]
  rfl

/-- Piece 20: the second layer, added, and the mean of the three tables: behaviour 2's table. -/
theorem sim20 (p l : Vec F S100002x64 .f32) (t j : Vec F S1200000 .i32) (z : Vec F S_ .i32) (q : Vec F S1200000 .f32)
    (hKp : VK k%main_v240 = p) (hRp : VR r%main_v238 = p) (hKt : VK k%main_v201 = t) (hRt : VR r%main_v199 = t)
    (hKl : VK k%main_v239 = l) (hRl : VR r%main_v237 = l) (hKj : VK k%main_v200 = j) (hRj : VR r%main_v198 = j)
    (hKz : VK k%main_c_58 = z) (hRz : VR r%main_c_58 = z) (hKq : VK k%main_v226 = q) (hRq : VR r%main_v224 = q) :
    (after K20 VK k%main_v256 : Vec F S100002x64 .f32) = after opsC20 VR r%main_v254 := by
  unfold K20 opsC20
  after_results_simp
  rewrite [hKp, hRp, hKt, hRt, hKl, hRl, hKj, hRj, hKz, hRz, hKq, hRq]
  rfl

/-- Piece 21: the user rows of behaviour 2's table. -/
theorem sim21_users (x : Vec F S100002x64 .f32) (hK : VK k%main_v256 = x) (hR : VR r%main_v254 = x) :
    (after K21 VK k%main_v258 : Vec F S60001x64 .f32) = after opsC21 VR r%main_v255 := by
  unfold K21 opsC21
  after_results_simp
  rewrite [hK, hR]
  rfl

/-- Piece 21: its item rows. -/
theorem sim21_items (x : Vec F S100002x64 .f32) (hK : VK k%main_v256 = x) (hR : VR r%main_v254 = x) :
    (after K21 VK k%main_v259 : Vec F S40001x64 .f32) = after opsC21 VR r%main_v256 := by
  unfold K21 opsC21
  after_results_simp
  rewrite [hK, hR]
  rfl

/-- Piece 22: behaviour 0's user rows with a middle axis of length one. -/
theorem sim22_u0 (x : Vec F S60001x64 .f32) (hK : VK k%main_v126 = x) (hR : VR r%main_v125 = x) :
    (after K22 VK k%main_v260 : Vec F S60001x1x64 .f32) = after opsC22 VR r%main_v257 := by
  unfold K22 opsC22
  after_results_simp
  rewrite [hK, hR]
  rfl

/-- Piece 22: behaviour 1's likewise. -/
theorem sim22_u1 (x : Vec F S60001x64 .f32) (hK : VK k%main_v192 = x) (hR : VR r%main_v190 = x) :
    (after K22 VK k%main_v261 : Vec F S60001x1x64 .f32) = after opsC22 VR r%main_v258 := by
  unfold K22 opsC22
  after_results_simp
  rewrite [hK, hR]
  rfl

/-- Piece 22: behaviour 2's likewise. -/
theorem sim22_u2 (x : Vec F S60001x64 .f32) (hK : VK k%main_v258 = x) (hR : VR r%main_v255 = x) :
    (after K22 VK k%main_v262 : Vec F S60001x1x64 .f32) = after opsC22 VR r%main_v259 := by
  unfold K22 opsC22
  after_results_simp
  rewrite [hK, hR]
  rfl

/-- Piece 23: the three behaviours' user rows stacked along the middle axis. -/
theorem sim23_users (x0 x1 x2 : Vec F S60001x1x64 .f32)
    (hK0 : VK k%main_v260 = x0) (hR0 : VR r%main_v257 = x0) (hK1 : VK k%main_v261 = x1) (hR1 : VR r%main_v258 = x1)
    (hK2 : VK k%main_v262 = x2) (hR2 : VR r%main_v259 = x2) :
    (after K23 VK k%main_v263 : Vec F S60001x3x64 .f32) = after opsC23 VR r%main_v260 := by
  have eK : (after K23 VK k%main_v263 : Vec F S60001x3x64 .f32)
      = concatenate Cert.KernelIdeal.S60001x3x64 1
          [⟨Cert.KernelIdeal.S60001x1x64, VK k%main_v260⟩, ⟨Cert.KernelIdeal.S60001x1x64, VK k%main_v261⟩,
            ⟨Cert.KernelIdeal.S60001x1x64, VK k%main_v262⟩]
          Cert.KernelIdeal.Gen.concatenates_S60001x1x64_S60001x1x64_S60001x1x64_S60001x3x64_d1 := by
    unfold K23
    after_results_simp
    rfl
  have eR : (after opsC23 VR r%main_v260 : Vec F S60001x3x64 .f32)
      = concatenate Cert.ReferenceIdeal.S60001x3x64 1
          [⟨Cert.ReferenceIdeal.S60001x1x64, VR r%main_v257⟩, ⟨Cert.ReferenceIdeal.S60001x1x64, VR r%main_v258⟩,
            ⟨Cert.ReferenceIdeal.S60001x1x64, VR r%main_v259⟩]
          Cert.ReferenceIdeal.Gen.concatenates_S60001x1x64_S60001x1x64_S60001x1x64_S60001x3x64_d1 := by
    unfold opsC23
    after_results_simp
    rfl
  rewrite [eK, eR, hK0, hR0, hK1, hR1, hK2, hR2]
  rfl

/-- Piece 23: behaviour 0's item rows with a middle axis of length one. -/
theorem sim23_i0 (x : Vec F S40001x64 .f32) (hK : VK k%main_v127 = x) (hR : VR r%main_v126 = x) :
    (after K23 VK k%main_v264 : Vec F S40001x1x64 .f32) = after opsC23 VR r%main_v261 := by
  unfold K23 opsC23
  after_results_simp
  rewrite [hK, hR]
  rfl

/-- Piece 23: behaviour 1's likewise. -/
theorem sim23_i1 (x : Vec F S40001x64 .f32) (hK : VK k%main_v193 = x) (hR : VR r%main_v191 = x) :
    (after K23 VK k%main_v265 : Vec F S40001x1x64 .f32) = after opsC23 VR r%main_v262 := by
  unfold K23 opsC23
  after_results_simp
  rewrite [hK, hR]
  rfl

/-- Piece 23: behaviour 2's likewise. -/
theorem sim23_i2 (x : Vec F S40001x64 .f32) (hK : VK k%main_v259 = x) (hR : VR r%main_v256 = x) :
    (after K23 VK k%main_v266 : Vec F S40001x1x64 .f32) = after opsC23 VR r%main_v263 := by
  unfold K23 opsC23
  after_results_simp
  rewrite [hK, hR]
  rfl

/-- Piece 24: the three behaviours' item rows stacked along the middle axis. -/
theorem sim24_items (x0 x1 x2 : Vec F S40001x1x64 .f32)
    (hK0 : VK k%main_v264 = x0) (hR0 : VR r%main_v261 = x0) (hK1 : VK k%main_v265 = x1) (hR1 : VR r%main_v262 = x1)
    (hK2 : VK k%main_v266 = x2) (hR2 : VR r%main_v263 = x2) :
    (after K24 VK k%main_v267 : Vec F S40001x3x64 .f32) = after opsC24 VR r%main_v264 := by
  have eK : (after K24 VK k%main_v267 : Vec F S40001x3x64 .f32)
      = concatenate Cert.KernelIdeal.S40001x3x64 1
          [⟨Cert.KernelIdeal.S40001x1x64, VK k%main_v264⟩, ⟨Cert.KernelIdeal.S40001x1x64, VK k%main_v265⟩,
            ⟨Cert.KernelIdeal.S40001x1x64, VK k%main_v266⟩]
          Cert.KernelIdeal.Gen.concatenates_S40001x1x64_S40001x1x64_S40001x1x64_S40001x3x64_d1 := by
    unfold K24
    after_results_simp
    rfl
  have eR : (after opsC24 VR r%main_v264 : Vec F S40001x3x64 .f32)
      = concatenate Cert.ReferenceIdeal.S40001x3x64 1
          [⟨Cert.ReferenceIdeal.S40001x1x64, VR r%main_v261⟩, ⟨Cert.ReferenceIdeal.S40001x1x64, VR r%main_v262⟩,
            ⟨Cert.ReferenceIdeal.S40001x1x64, VR r%main_v263⟩]
          Cert.ReferenceIdeal.Gen.concatenates_S40001x1x64_S40001x1x64_S40001x1x64_S40001x3x64_d1 := by
    unfold opsC24
    after_results_simp
    rfl
  rewrite [eK, eR, hK0, hR0, hK1, hR1, hK2, hR2]
  rfl

end Sim

/-! ## What the two sides hold before each piece -/

section Boundaries
variable (VK : KVal F) (VR : RVal F)

/-- The kernel program's buffers before piece 17, 18, …, before the extra slice (20x), …, and after piece 24. -/
abbrev K17v : KVal F := after K16 VK
abbrev K18v : KVal F := after K17 (K17v VK)
abbrev K19v : KVal F := after K18 (K18v VK)
abbrev K20v : KVal F := after K19 (K19v VK)
abbrev K20xv : KVal F := after K20 (K20v VK)
abbrev K21v : KVal F := after K20x (K20xv VK)
abbrev K22v : KVal F := after K21 (K21v VK)
abbrev K23v : KVal F := after K22 (K22v VK)
abbrev K24v : KVal F := after K23 (K23v VK)
abbrev K25v : KVal F := after K24 (K24v VK)

/-- The reference's buffers before chunk 17, 18, …, and after chunk 24. -/
abbrev R17v : RVal F := after opsC16 VR
abbrev R18v : RVal F := after opsC17 (R17v VR)
abbrev R19v : RVal F := after opsC18 (R18v VR)
abbrev R20v : RVal F := after opsC19 (R19v VR)
abbrev R21v : RVal F := after opsC20 (R20v VR)
abbrev R22v : RVal F := after opsC21 (R21v VR)
abbrev R23v : RVal F := after opsC22 (R22v VR)
abbrev R24v : RVal F := after opsC23 (R23v VR)
abbrev R25v : RVal F := after opsC24 (R24v VR)

/-- A buffer the first three pieces do not write is, before piece 19, what it was. -/
theorem keepK_16_18 (r : Ref Cert.KernelIdeal.sig .tc) (h16 : r ∉ K16_W) (h17 : r ∉ K17_W) (h18 : r ∉ K18_W) :
    K19v VK (Proc.devRef .tc r) = VK (Proc.devRef .tc r) :=
  (K18_keep _ r h18).trans ((K17_keep _ r h17).trans (K16_keep VK r h16))

theorem keepR_16_18 (r : Ref Cert.ReferenceIdeal.sig .tc) (h16 : r ∉ opsC16_W) (h17 : r ∉ opsC17_W)
    (h18 : r ∉ opsC18_W) : R19v VR (Proc.devRef .tc r) = VR (Proc.devRef .tc r) :=
  (opsC18_keep _ r h18).trans ((opsC17_keep _ r h17).trans (opsC16_keep VR r h16))

/-- A buffer no piece up to 21 writes is, before piece 22, what it was. -/
theorem keepK_16_21 (r : Ref Cert.KernelIdeal.sig .tc) (h16 : r ∉ K16_W) (h17 : r ∉ K17_W) (h18 : r ∉ K18_W)
    (h19 : r ∉ K19_W) (h20 : r ∉ K20_W) (h20x : r ∉ K20x_W) (h21 : r ∉ K21_W) :
    K22v VK (Proc.devRef .tc r) = VK (Proc.devRef .tc r) :=
  (K21_keep _ r h21).trans ((K20x_keep _ r h20x).trans ((K20_keep _ r h20).trans ((K19_keep _ r h19).trans
    (keepK_16_18 VK r h16 h17 h18))))

theorem keepR_16_21 (r : Ref Cert.ReferenceIdeal.sig .tc) (h16 : r ∉ opsC16_W) (h17 : r ∉ opsC17_W)
    (h18 : r ∉ opsC18_W) (h19 : r ∉ opsC19_W) (h20 : r ∉ opsC20_W) (h21 : r ∉ opsC21_W) :
    R22v VR (Proc.devRef .tc r) = VR (Proc.devRef .tc r) :=
  (opsC21_keep _ r h21).trans ((opsC20_keep _ r h20).trans ((opsC19_keep _ r h19).trans
    (keepR_16_18 VR r h16 h17 h18)))

/-- … and, if piece 22 does not write it either, before piece 23. -/
theorem keepK_16_22 (r : Ref Cert.KernelIdeal.sig .tc) (h16 : r ∉ K16_W) (h17 : r ∉ K17_W) (h18 : r ∉ K18_W)
    (h19 : r ∉ K19_W) (h20 : r ∉ K20_W) (h20x : r ∉ K20x_W) (h21 : r ∉ K21_W) (h22 : r ∉ K22_W) :
    K23v VK (Proc.devRef .tc r) = VK (Proc.devRef .tc r) :=
  (K22_keep _ r h22).trans (keepK_16_21 VK r h16 h17 h18 h19 h20 h20x h21)

theorem keepR_16_22 (r : Ref Cert.ReferenceIdeal.sig .tc) (h16 : r ∉ opsC16_W) (h17 : r ∉ opsC17_W)
    (h18 : r ∉ opsC18_W) (h19 : r ∉ opsC19_W) (h20 : r ∉ opsC20_W) (h21 : r ∉ opsC21_W) (h22 : r ∉ opsC22_W) :
    R23v VR (Proc.devRef .tc r) = VR (Proc.devRef .tc r) :=
  (opsC22_keep _ r h22).trans (keepR_16_21 VR r h16 h17 h18 h19 h20 h21)

end Boundaries

/-! ## The chain -/

/-- THE TWO STACKED TABLES: if the two programs' buffers hold the same edge arrays, the same propagated table and the
    same user and item rows of behaviours 0 and 1, then after the kernel program's pieces and the reference's chunks
    the stacked user tables are equal, and so are the stacked item tables. -/
theorem tail_tables_eq (VK : KVal F) (VR : RVal F)
    (h3 : (VK k%main_arg3 : Vec F S3x600000 .i32) = VR r%main_arg3)
    (h4 : (VK k%main_arg4 : Vec F S3x600000 .i32) = VR r%main_arg4)
    (hemb : (VK k%main_v61 : Vec F S100002x64 .f32) = VR r%main_v61)
    (hu0 : (VK k%main_v126 : Vec F S60001x64 .f32) = VR r%main_v125)
    (hi0 : (VK k%main_v127 : Vec F S40001x64 .f32) = VR r%main_v126)
    (hu1 : (VK k%main_v192 : Vec F S60001x64 .f32) = VR r%main_v190)
    (hi1 : (VK k%main_v193 : Vec F S40001x64 .f32) = VR r%main_v191) :
    (after Ktail VK k%main_v263 : Vec F S60001x3x64 .f32)
        = after (opsC16 ++ opsC17 ++ opsC18 ++ opsC19 ++ opsC20 ++ opsC21 ++ opsC22 ++ opsC23) VR r%main_v260
      ∧ (after Ktail VK k%main_v267 : Vec F S40001x3x64 .f32)
        = after (opsC16 ++ opsC17 ++ opsC18 ++ opsC19 ++ opsC20 ++ opsC21 ++ opsC22 ++ opsC23 ++ opsC24) VR
            r%main_v264 := by
  -- piece 16: the two rows of edge ends
  have s17 := sim16_src VK VR _ h3 rfl
  have d17 := sim16_dst VK VR _ h4 rfl
  -- piece 17: sources then targets; the two rows pass through it
  have j18 := sim17 (K17v VK) (R17v VR) _ _ s17 rfl d17 rfl
  have s18K := (K17_keep (K17v VK) _ (by decide)).trans s17
  have s18R := opsC17_keep (R17v VR) Cert.ReferenceIdeal.main_v193 (by decide)
  have d18K := (K17_keep (K17v VK) _ (by decide)).trans d17
  have d18R := opsC17_keep (R17v VR) Cert.ReferenceIdeal.main_v197 (by decide)
  -- piece 18: targets then sources, the degrees, the inverse square roots, the wrapped ends
  have t19 := sim18_rev (K18v VK) (R18v VR) _ _ s18K s18R d18K d18R
  have m19 := sim18_neg (K18v VK) (R18v VR) _ _ s18K s18R d18K d18R
  have w19 := sim18_wrap (K18v VK) (R18v VR) _ _ s18K s18R d18K d18R
  have g19 := sim18_deg (K18v VK) (R18v VR) _ j18 rfl
  have n19 := sim18_norm (K18v VK) (R18v VR) _ j18 rfl
  have j19K := (K18_keep (K18v VK) _ (by decide)).trans j18
  have j19R := opsC18_keep (R18v VR) Cert.ReferenceIdeal.main_v198 (by decide)
  have e19K := (keepK_16_18 VK Cert.KernelIdeal.main_v61 (by decide) (by decide) (by decide)).trans hemb
  have e19R := keepR_16_18 VR Cert.ReferenceIdeal.main_v61 (by decide) (by decide) (by decide)
  -- piece 19: the edge weights, the first layer, the sum
  have z20 := sim19_zero (K19v VK) (R19v VR)
  have q20 := sim19_weight (K19v VK) (R19v VR) _ _ _ _ _ n19 rfl g19 rfl m19 rfl w19 rfl t19 rfl
  have l20 := sim19_layer (K19v VK) (R19v VR) _ _ _ _ _ _ _ e19K e19R j19K j19R n19 rfl g19 rfl m19 rfl w19 rfl
    t19 rfl
  have p20 := sim19_sum (K19v VK) (R19v VR) _ _ _ _ _ _ _ e19K e19R j19K j19R n19 rfl g19 rfl m19 rfl w19 rfl
    t19 rfl
  have t20K := (K19_keep (K19v VK) _ (by decide)).trans t19
  have t20R := opsC19_keep (R19v VR) Cert.ReferenceIdeal.main_v199 (by decide)
  have j20K := (K19_keep (K19v VK) _ (by decide)).trans j19K
  have j20R := (opsC19_keep (R19v VR) Cert.ReferenceIdeal.main_v198 (by decide)).trans j19R
  -- piece 20: behaviour 2's table; the kernel program's extra slice leaves it alone
  have x20 := sim20 (K20v VK) (R20v VR) _ _ _ _ _ _ p20 rfl t20K t20R l20 rfl j20K j20R z20 rfl q20 rfl
  have x21 := (K20x_keep (K20xv VK) _ (by decide)).trans x20
  -- piece 21: its user rows and its item rows
  have u22 := sim21_users (K21v VK) (R21v VR) _ x21 rfl
  have i22 := sim21_items (K21v VK) (R21v VR) _ x21 rfl
  -- piece 22: the three behaviours' user rows, each with a middle axis
  have a23 := sim22_u0 (K22v VK) (R22v VR) _
    ((keepK_16_21 VK Cert.KernelIdeal.main_v126 (by decide) (by decide) (by decide) (by decide) (by decide) (by decide)
      (by decide)).trans hu0)
    (keepR_16_21 VR Cert.ReferenceIdeal.main_v125 (by decide) (by decide) (by decide) (by decide) (by decide) (by decide))
  have b23 := sim22_u1 (K22v VK) (R22v VR) _
    ((keepK_16_21 VK Cert.KernelIdeal.main_v192 (by decide) (by decide) (by decide) (by decide) (by decide) (by decide)
      (by decide)).trans hu1)
    (keepR_16_21 VR Cert.ReferenceIdeal.main_v190 (by decide) (by decide) (by decide) (by decide) (by decide) (by decide))
  have c23 := sim22_u2 (K22v VK) (R22v VR) _ u22 rfl
  have i23K := (K22_keep (K22v VK) _ (by decide)).trans i22
  have i23R := opsC22_keep (R22v VR) Cert.ReferenceIdeal.main_v256 (by decide)
  -- piece 23: the stacked user table, and the three behaviours' item rows, each with a middle axis
  have U24 := sim23_users (K23v VK) (R23v VR) _ _ _ a23 rfl b23 rfl c23 rfl
  have A24 := sim23_i0 (K23v VK) (R23v VR) _
    ((keepK_16_22 VK Cert.KernelIdeal.main_v127 (by decide) (by decide) (by decide) (by decide) (by decide) (by decide)
      (by decide) (by decide)).trans hi0)
    (keepR_16_22 VR Cert.ReferenceIdeal.main_v126 (by decide) (by decide) (by decide) (by decide) (by decide) (by decide)
      (by decide))
  have B24 := sim23_i1 (K23v VK) (R23v VR) _
    ((keepK_16_22 VK Cert.KernelIdeal.main_v193 (by decide) (by decide) (by decide) (by decide) (by decide) (by decide)
      (by decide) (by decide)).trans hi1)
    (keepR_16_22 VR Cert.ReferenceIdeal.main_v191 (by decide) (by decide) (by decide) (by decide) (by decide) (by decide)
      (by decide))
  have C24 := sim23_i2 (K23v VK) (R23v VR) _ i23K i23R
  -- piece 24: the stacked item table; the stacked user table passes through it on the kernel program's side
  have I25 := sim24_items (K24v VK) (R24v VR) _ _ _ A24 rfl B24 rfl C24 rfl
  have U25 := (K24_keep (K24v VK) _ (by decide)).trans U24
  simp only [Ktail, StableHlo.after_append]
  exact ⟨U25, I25⟩

/-! ## The whole prefix, run in three stretches -/

/-- Running the kernel program's first host prefix is running its first 242 operations, then the pieces, then the
    rest. -/
theorem after_hostOps0 (V : KVal F) :
    after Cert.KernelIdeal.Gen.hostOps0 V
      = after Krest (after Ktail (after (Cert.KernelIdeal.Gen.hostOps0.take 242) V)) := by
  conv_lhs => rw [hostOps0_tail_split]
  simp only [Ktail, StableHlo.after_append]

/-- The rest of the prefix does not write the two stacked tables: after the whole prefix they are what the pieces
    left. -/
theorem after_hostOps0_users (V : KVal F) :
    after Cert.KernelIdeal.Gen.hostOps0 V k%main_v263
      = after Ktail (after (Cert.KernelIdeal.Gen.hostOps0.take 242) V) k%main_v263 := by
  rw [after_hostOps0]
  exact Krest_keep _ _ (by decide)

theorem after_hostOps0_items (V : KVal F) :
    after Cert.KernelIdeal.Gen.hostOps0 V k%main_v267
      = after Ktail (after (Cert.KernelIdeal.Gen.hostOps0.take 242) V) k%main_v267 := by
  rw [after_hostOps0]
  exact Krest_keep _ _ (by decide)

end Cert.Proof.PrefixTail

end
-- ==== Proof.PrefixEq.lean ====
/-
  The propagation prefix of the two programs leaves the same two stacked tables.

  Before its first kernel call the first program runs, on the host, the graph propagation the second program runs:
  the global normalised propagation of the joined embedding table, then for each of the three behaviours its own
  propagation from the global result, and at the end the stacking of the three behaviours' user rows and item rows.
  The first program's line of 350 operations is the second's first 329 with three extra cuts of the degree vectors
  inserted and eighteen operations added at the end that write other buffers.

  The line is cut into four stretches mirrored by four stretches of the second program's line (the global
  propagation; behaviour 0; behaviour 1; behaviour 2 and the stacking), and for each it is known that, from valuations
  that agree on the arrays the stretch and the later ones still read, the two sides agree on what the stretch
  produces. What is left is the chain: the arrays agreed on earlier pass unchanged through the stretches that do not
  write them, on both sides (an operation list leaves a buffer alone that none of its operations writes); the four
  agreements follow one another; and the operations after the last table, on either side, do not write the two tables.
-/
import proofs.«412432_j74655121539772_3_alg».proof.Proof.KArgs
import proofs.«412432_j74655121539772_3_alg».proof.Proof.RValue
import proofs.«412432_j74655121539772_3_alg».proof.Proof.PrefixGlobal
import proofs.«412432_j74655121539772_3_alg».proof.Proof.PrefixB0
import proofs.«412432_j74655121539772_3_alg».proof.Proof.PrefixMid
import proofs.«412432_j74655121539772_3_alg».proof.Proof.PrefixTail
import Idealize.ShloMosaic.Lib.StableHlo.Run

noncomputable section

namespace Cert.Proof.PrefixEq

open Idealize.ShloMosaic Idealize.ShloMosaic.TcCoe Idealize.SL.Sem Idealize.ShloMosaic.StableHlo

/-- What the kernel program's buffers hold, and what the reference's hold. -/
abbrev KVal : Type := Valuation Cert.KernelIdeal.τ Cert.KernelIdeal.sig (Elt Ideal)
abbrev RVal : Type := Valuation Cert.ReferenceIdeal.τ Cert.ReferenceIdeal.sig (Elt Ideal)
abbrev KOps : Type := List (HloOp Cert.KernelIdeal.τ Cert.KernelIdeal.sig (Elt Ideal))
abbrev ROps : Type := List (HloOp Cert.ReferenceIdeal.τ Cert.ReferenceIdeal.sig (Elt Ideal))

/-! ## The arrays two valuations agree on -/

/-- The two edge arrays. -/
def AgreeE (VK : KVal) (VR : RVal) : Prop :=
  (VK (Proc.devRef .tc Cert.KernelIdeal.main_arg3) : IVec Cert.KernelIdeal.S3x600000 32) = VR (Proc.devRef .tc Cert.ReferenceIdeal.main_arg3) ∧
  (VK (Proc.devRef .tc Cert.KernelIdeal.main_arg4) : IVec Cert.KernelIdeal.S3x600000 32) = VR (Proc.devRef .tc Cert.ReferenceIdeal.main_arg4)

/-- A list of operations none of which writes an argument leaves the arguments as they were. -/
theorem keep_arg_of_sub (l : KOps)
    (hl : ∀ op ∈ l, op ∈ (Cert.KernelIdeal.Gen.hostOps0 : KOps)) (V : KVal)
    (b : Ref Cert.KernelIdeal.sig .tc) (hb : Cert.KernelIdeal.Run.IsArg b) :
    after l V (Proc.devRef .tc b) = V (Proc.devRef .tc b) :=
  after_of_forall_not_mem l V fun op hop =>
    (List.forall_iff_forall_mem.mp (Cert.KernelIdeal.Run.hostOps0_keeps (F := Ideal) b hb)) op (hl op hop)

/-! ## The kernel's line, cut at the same places -/

/-- A list is its first 77 entries, the next 83, the next 82 and the rest. -/
theorem split4 {α : Type} (l KA KB KC KD : List α) (hA : l.take 77 = KA) (hB : (l.drop 77).take 83 = KB)
    (hC : (l.drop 160).take 82 = KC) (hD : l = l.take 242 ++ KD) : l = KA ++ KB ++ KC ++ KD := by
  have h1 : l.take (77 + 83) = l.take 77 ++ (l.drop 77).take 83 := List.take_add
  have h2 : l.take (160 + 82) = l.take 160 ++ (l.drop 160).take 82 := List.take_add
  calc l = l.take 242 ++ KD := hD
    _ = (l.take 160 ++ (l.drop 160).take 82) ++ KD := by rw [← h2]
    _ = ((l.take 77 ++ (l.drop 77).take 83) ++ (l.drop 160).take 82) ++ KD := by rw [← h1]
    _ = KA ++ KB ++ KC ++ KD := by rw [hA, hB, hC]

section KMid
open Cert.KernelIdeal Cert.KernelIdeal.PrefixMidK

/-- The kernel's third stretch: behaviour 1 (with its extra cut of the degree vector). -/
abbrev KC : KOps := K10 ++ K11 ++ K12 ++ K13 ++ K14 ++ K14x ++ K15

/-- An array the third stretch's seven pieces do not write is left alone by it. -/
theorem KC_keep (V : KVal) (r : Ref sig .tc) (h10 : r ∉ K10_W) (h11 : r ∉ K11_W) (h12 : r ∉ K12_W) (h13 : r ∉ K13_W)
    (h14 : r ∉ K14_W) (h14x : r ∉ K14x_W) (h15 : r ∉ K15_W) :
    after KC V (Proc.devRef .tc r) = V (Proc.devRef .tc r) := by
  simp only [KC, after_append]
  rw [K15_keep _ _ h15, K14x_keep _ _ h14x, K14_keep _ _ h14, K13_keep _ _ h13, K12_keep _ _ h12, K11_keep _ _ h11,
    K10_keep _ _ h10]

end KMid

/-! ## The reference's line, cut at the same places -/

open Cert.ReferenceIdeal.RefRun in
/-- The reference's stretches mirrored by the four kernel stretches, and its last operation. -/
abbrev RA : ROps := opsC0 ++ opsC1 ++ opsC2 ++ opsC3 ++ opsC4
open Cert.ReferenceIdeal.RefRun in
abbrev RB : ROps := opsC5 ++ opsC6 ++ opsC7 ++ opsC8 ++ opsC9
open Cert.ReferenceIdeal.RefRun in
abbrev RC : ROps := opsC10 ++ opsC11 ++ opsC12 ++ opsC13 ++ opsC14 ++ opsC15
open Cert.ReferenceIdeal.RefRun in
abbrev RD : ROps := opsC16 ++ opsC17 ++ opsC18 ++ opsC19 ++ opsC20 ++ opsC21 ++ opsC22 ++ opsC23
open Cert.ReferenceIdeal.RefRun in
abbrev RE : ROps := opsC24

/-- The reference's propagation is those five in a row. -/
theorem P_split : (Cert.ReferenceIdeal.Value.P : ROps) = RA ++ RB ++ RC ++ RD ++ RE := by
  simp only [Cert.ReferenceIdeal.Value.P, RA, RB, RC, RD, RE, List.append_assoc]

section RKeep
open Cert.ReferenceIdeal Cert.ReferenceIdeal.RefRun

/-- An array the first stretch's five chunks do not write is left alone by it. -/
theorem RA_keep (V : RVal) (r : Ref sig .tc) (h0 : r ∉ opsC0_W) (h1 : r ∉ opsC1_W) (h2 : r ∉ opsC2_W) (h3 : r ∉ opsC3_W)
    (h4 : r ∉ opsC4_W) : after RA V (Proc.devRef .tc r) = V (Proc.devRef .tc r) := by
  simp only [RA, after_append]
  rw [opsC4_keep _ _ h4, opsC3_keep _ _ h3, opsC2_keep _ _ h2, opsC1_keep _ _ h1, opsC0_keep _ _ h0]

theorem RB_keep (V : RVal) (r : Ref sig .tc) (h5 : r ∉ opsC5_W) (h6 : r ∉ opsC6_W) (h7 : r ∉ opsC7_W) (h8 : r ∉ opsC8_W)
    (h9 : r ∉ opsC9_W) : after RB V (Proc.devRef .tc r) = V (Proc.devRef .tc r) := by
  simp only [RB, after_append]
  rw [opsC9_keep _ _ h9, opsC8_keep _ _ h8, opsC7_keep _ _ h7, opsC6_keep _ _ h6, opsC5_keep _ _ h5]

theorem RC_keep (V : RVal) (r : Ref sig .tc) (h10 : r ∉ opsC10_W) (h11 : r ∉ opsC11_W) (h12 : r ∉ opsC12_W)
    (h13 : r ∉ opsC13_W) (h14 : r ∉ opsC14_W) (h15 : r ∉ opsC15_W) :
    after RC V (Proc.devRef .tc r) = V (Proc.devRef .tc r) := by
  simp only [RC, after_append]
  rw [opsC15_keep _ _ h15, opsC14_keep _ _ h14, opsC13_keep _ _ h13, opsC12_keep _ _ h12, opsC11_keep _ _ h11,
    opsC10_keep _ _ h10]

end RKeep

/-! ## What follows the last table on the kernel's side -/

section KRest
open Cert.KernelIdeal Cert.KernelIdeal.PrefixTailK

/-- The eighteen operations after the items' stacked table write neither stacked table. -/
theorem rest_keep (V : KVal) (r : Ref sig .tc) (hr : r = main_v263 ∨ r = main_v267) :
    after (Krest : KOps) V (Proc.devRef .tc r) = V (Proc.devRef .tc r) := by
  rcases hr with rfl | rfl <;>
  simp (disch := decide) only [Krest, StableHlo.after_cons, StableHlo.after_nil,
    StableHlo.nullary_result_ne', StableHlo.unary_result_ne', StableHlo.binary_result_ne',
    StableHlo.ternary_result_ne', StableHlo.reshape_result_ne', StableHlo.nary_result_ne']

end KRest

/-- The two node tables the first layer of every behaviour reads. -/
def Agree59 (VK : KVal) (VR : RVal) : Prop :=
  (VK (Proc.devRef .tc Cert.KernelIdeal.main_v59) : FVec Ideal Cert.KernelIdeal.S100002x64 .f32) = VR (Proc.devRef .tc Cert.ReferenceIdeal.main_v59) ∧
  (VK (Proc.devRef .tc Cert.KernelIdeal.main_v60) : FVec Ideal Cert.KernelIdeal.S100002x64 .f32) = VR (Proc.devRef .tc Cert.ReferenceIdeal.main_v60)

/-- The global result table every behaviour reads. -/
def Agree61 (VK : KVal) (VR : RVal) : Prop :=
  (VK (Proc.devRef .tc Cert.KernelIdeal.main_v61) : FVec Ideal Cert.KernelIdeal.S100002x64 .f32) = VR (Proc.devRef .tc Cert.ReferenceIdeal.main_v61)

/-- Behaviour 0's user rows and item rows. -/
def AgreeB0 (VK : KVal) (VR : RVal) : Prop :=
  (VK (Proc.devRef .tc Cert.KernelIdeal.main_v126) : FVec Ideal Cert.KernelIdeal.S60001x64 .f32) = VR (Proc.devRef .tc Cert.ReferenceIdeal.main_v125) ∧
  (VK (Proc.devRef .tc Cert.KernelIdeal.main_v127) : FVec Ideal Cert.KernelIdeal.S40001x64 .f32) = VR (Proc.devRef .tc Cert.ReferenceIdeal.main_v126)

/-- Behaviour 1's user rows and item rows. -/
def AgreeB1 (VK : KVal) (VR : RVal) : Prop :=
  (VK (Proc.devRef .tc Cert.KernelIdeal.main_v192) : FVec Ideal Cert.KernelIdeal.S60001x64 .f32) = VR (Proc.devRef .tc Cert.ReferenceIdeal.main_v190) ∧
  (VK (Proc.devRef .tc Cert.KernelIdeal.main_v193) : FVec Ideal Cert.KernelIdeal.S40001x64 .f32) = VR (Proc.devRef .tc Cert.ReferenceIdeal.main_v191)

/-- The two embedding tables. -/
def AgreeA (VK : KVal) (VR : RVal) : Prop :=
  (VK (Proc.devRef .tc Cert.KernelIdeal.main_arg0) : FVec Ideal Cert.KernelIdeal.S60001x64 .f32) = VR (Proc.devRef .tc Cert.ReferenceIdeal.main_arg0) ∧
  (VK (Proc.devRef .tc Cert.KernelIdeal.main_arg1) : FVec Ideal Cert.KernelIdeal.S40001x64 .f32) = VR (Proc.devRef .tc Cert.ReferenceIdeal.main_arg1)

/-- The two stacked tables the kernels read: the conclusion, between two valuations. -/
def AgreeT (WK : KVal) (WR : RVal) : Prop :=
  (WK (Proc.devRef .tc Cert.KernelIdeal.main_v263) : FVec Ideal Cert.KernelIdeal.S60001x3x64 .f32) = WR (Proc.devRef .tc Cert.ReferenceIdeal.main_v260) ∧
  (WK (Proc.devRef .tc Cert.KernelIdeal.main_v267) : FVec Ideal Cert.KernelIdeal.S40001x3x64 .f32) = WR (Proc.devRef .tc Cert.ReferenceIdeal.main_v264)

/-- THE CHAIN, over any cut of the two lines into four mirrored stretches (and what follows on either side): if each
    stretch carries the agreement on the arrays still to be read from its start to its end, the two stacked tables
    agree at the end. -/
theorem compose (KA KB KC KD KR : KOps) (RA RB RC RD RE : ROps)
    (G : ∀ VK VR, AgreeA VK VR → AgreeE VK VR → Agree59 (after KA VK) (after RA VR))
    (eA : ∀ VK VR, AgreeE VK VR → AgreeE (after KA VK) (after RA VR))
    (B : ∀ VK VR, AgreeE VK VR → Agree59 VK VR → Agree61 (after KB VK) (after RB VR) ∧ AgreeB0 (after KB VK) (after RB VR))
    (eB : ∀ VK VR, AgreeE VK VR → AgreeE (after KB VK) (after RB VR))
    (Mi : ∀ VK VR, AgreeE VK VR → Agree61 VK VR → AgreeB1 (after KC VK) (after RC VR))
    (eC : ∀ VK VR, AgreeE VK VR → AgreeE (after KC VK) (after RC VR))
    (k61 : ∀ VK VR, Agree61 VK VR → Agree61 (after KC VK) (after RC VR))
    (kB0 : ∀ VK VR, AgreeB0 VK VR → AgreeB0 (after KC VK) (after RC VR))
    (Ta : ∀ VK VR, AgreeE VK VR → Agree61 VK VR → AgreeB0 VK VR → AgreeB1 VK VR →
      (after KD VK (Proc.devRef .tc Cert.KernelIdeal.main_v263) : FVec Ideal Cert.KernelIdeal.S60001x3x64 .f32)
          = after RD VR (Proc.devRef .tc Cert.ReferenceIdeal.main_v260) ∧
      (after KD VK (Proc.devRef .tc Cert.KernelIdeal.main_v267) : FVec Ideal Cert.KernelIdeal.S40001x3x64 .f32)
          = after (RD ++ RE) VR (Proc.devRef .tc Cert.ReferenceIdeal.main_v264))
    (kR263 : ∀ V : KVal, after KR V (Proc.devRef .tc Cert.KernelIdeal.main_v263) = V (Proc.devRef .tc Cert.KernelIdeal.main_v263))
    (kR267 : ∀ V : KVal, after KR V (Proc.devRef .tc Cert.KernelIdeal.main_v267) = V (Proc.devRef .tc Cert.KernelIdeal.main_v267))
    (kE260 : ∀ V : RVal, after RE V (Proc.devRef .tc Cert.ReferenceIdeal.main_v260) = V (Proc.devRef .tc Cert.ReferenceIdeal.main_v260))
    (VK : KVal) (VR : RVal) (hA : AgreeA VK VR) (hE : AgreeE VK VR) :
    AgreeT (after (KA ++ KB ++ KC ++ KD ++ KR) VK) (after (RA ++ RB ++ RC ++ RD ++ RE) VR) := by
  have g := G VK VR hA hE
  have e1 := eA VK VR hE
  have b := B _ _ e1 g
  have e2 := eB _ _ e1
  have m := Mi _ _ e2 b.1
  have e3 := eC _ _ e2
  have t := Ta _ _ e3 (k61 _ _ b.1) (kB0 _ _ b.2) m
  unfold AgreeT
  simp only [after_append] at t ⊢
  rw [kR263, kR267, kE260]
  exact t

/-! ## The stretches' agreements, in the chain's words -/

section Steps

/-- The edge arrays pass unchanged through a stretch of the kernel's line and a stretch of the reference's that
    does not write them. -/
theorem agreeE_step (KX : KOps) (RX : ROps) (hsub : ∀ op ∈ KX, op ∈ (Cert.KernelIdeal.Gen.hostOps0 : KOps))
    (hR3 : ∀ V : RVal, after RX V (Proc.devRef .tc Cert.ReferenceIdeal.main_arg3) = V (Proc.devRef .tc Cert.ReferenceIdeal.main_arg3))
    (hR4 : ∀ V : RVal, after RX V (Proc.devRef .tc Cert.ReferenceIdeal.main_arg4) = V (Proc.devRef .tc Cert.ReferenceIdeal.main_arg4))
    (VK : KVal) (VR : RVal) (h : AgreeE VK VR) : AgreeE (after KX VK) (after RX VR) := by
  unfold AgreeE at h ⊢
  rw [keep_arg_of_sub KX hsub VK Cert.KernelIdeal.main_arg3 (.inr (.inr (.inr (.inl rfl)))),
    keep_arg_of_sub KX hsub VK Cert.KernelIdeal.main_arg4 (.inr (.inr (.inr (.inr (.inl rfl))))), hR3, hR4]
  exact h

/-- Behaviour 1's stretch: from the edge arrays and the global table to its user rows and item rows. -/
theorem mid_step (VK : KVal) (VR : RVal) (hE : AgreeE VK VR) (h61 : Agree61 VK VR) :
    AgreeB1 (after KC VK) (after RC VR) :=
  Cert.Proof.PrefixMid.mid_tables_eq (F := Ideal) VK VR hE.1 hE.2 h61

/-- … which leaves the global table alone … -/
theorem mid_keep61 (VK : KVal) (VR : RVal) (h : Agree61 VK VR) : Agree61 (after KC VK) (after RC VR) := by
  unfold Agree61 at h ⊢
  rw [KC_keep VK Cert.KernelIdeal.main_v61 (by decide) (by decide) (by decide) (by decide) (by decide) (by decide) (by decide),
    RC_keep VR Cert.ReferenceIdeal.main_v61 (by decide) (by decide) (by decide) (by decide) (by decide) (by decide)]
  exact h

/-- … and behaviour 0's rows. -/
theorem mid_keepB0 (VK : KVal) (VR : RVal) (h : AgreeB0 VK VR) : AgreeB0 (after KC VK) (after RC VR) := by
  unfold AgreeB0 at h ⊢
  rw [KC_keep VK Cert.KernelIdeal.main_v126 (by decide) (by decide) (by decide) (by decide) (by decide) (by decide) (by decide),
    KC_keep VK Cert.KernelIdeal.main_v127 (by decide) (by decide) (by decide) (by decide) (by decide) (by decide) (by decide),
    RC_keep VR Cert.ReferenceIdeal.main_v125 (by decide) (by decide) (by decide) (by decide) (by decide) (by decide),
    RC_keep VR Cert.ReferenceIdeal.main_v126 (by decide) (by decide) (by decide) (by decide) (by decide) (by decide)]
  exact h

/-- Behaviour 2's stretch and the stacking. -/
theorem tail_step (VK : KVal) (VR : RVal) (hE : AgreeE VK VR) (h61 : Agree61 VK VR) (hB0 : AgreeB0 VK VR)
    (hB1 : AgreeB1 VK VR) :
    (after (Cert.Proof.PrefixTail.Ktail (F := Ideal)) VK (Proc.devRef .tc Cert.KernelIdeal.main_v263)
        : FVec Ideal Cert.KernelIdeal.S60001x3x64 .f32) = after RD VR (Proc.devRef .tc Cert.ReferenceIdeal.main_v260) ∧
    (after (Cert.Proof.PrefixTail.Ktail (F := Ideal)) VK (Proc.devRef .tc Cert.KernelIdeal.main_v267)
        : FVec Ideal Cert.KernelIdeal.S40001x3x64 .f32) = after (RD ++ RE) VR (Proc.devRef .tc Cert.ReferenceIdeal.main_v264) :=
  Cert.Proof.PrefixTail.tail_tables_eq (F := Ideal) VK VR hE.1 hE.2 h61 hB0.1 hB0.2 hB1.1 hB1.2

end Steps

/-! ## The assembly -/

/-- The two stacked tables agree, given the first two stretches' pieces and agreements. -/
theorem tables_eq_of (KA KB : KOps)
    (hA : (Cert.KernelIdeal.Gen.hostOps0 : KOps).take 77 = KA)
    (hB : ((Cert.KernelIdeal.Gen.hostOps0 : KOps).drop 77).take 83 = KB)
    (G : ∀ VK VR, AgreeA VK VR → AgreeE VK VR → Agree59 (after KA VK) (after RA VR))
    (B : ∀ VK VR, AgreeE VK VR → Agree59 VK VR → Agree61 (after KB VK) (after RB VR) ∧ AgreeB0 (after KB VK) (after RB VR))
    (VK : KVal) (VR : RVal) (hArgs : AgreeA VK VR) (hE : AgreeE VK VR) :
    AgreeT (after (Cert.KernelIdeal.Gen.hostOps0 : KOps) VK) (after (Cert.ReferenceIdeal.Value.P : ROps) VR) := by
  have hC : ((Cert.KernelIdeal.Gen.hostOps0 : KOps).drop 160).take 82 = KC := Cert.Proof.PrefixMid.hostOps0_mid_split
  have hsplit : (Cert.KernelIdeal.Gen.hostOps0 : KOps)
      = KA ++ KB ++ KC ++ Cert.Proof.PrefixTail.Ktail ++ Cert.KernelIdeal.PrefixTailK.Krest :=
    (split4 _ KA KB KC (Cert.Proof.PrefixTail.Ktail ++ Cert.KernelIdeal.PrefixTailK.Krest) hA hB hC
      Cert.Proof.PrefixTail.hostOps0_tail_split).trans (List.append_assoc _ _ _).symm
  have subA : ∀ op ∈ KA, op ∈ (Cert.KernelIdeal.Gen.hostOps0 : KOps) := fun op h =>
    List.mem_of_mem_take (by rw [hA]; exact h)
  have subB : ∀ op ∈ KB, op ∈ (Cert.KernelIdeal.Gen.hostOps0 : KOps) := fun op h =>
    List.mem_of_mem_drop (List.mem_of_mem_take (by rw [hB]; exact h))
  have subC : ∀ op ∈ KC, op ∈ (Cert.KernelIdeal.Gen.hostOps0 : KOps) := fun op h =>
    List.mem_of_mem_drop (List.mem_of_mem_take (by rw [hC]; exact h))
  rw [hsplit, P_split]
  exact compose KA KB KC Cert.Proof.PrefixTail.Ktail Cert.KernelIdeal.PrefixTailK.Krest RA RB RC RD RE
    G
    (agreeE_step KA RA subA
      (fun V => RA_keep V _ (by decide) (by decide) (by decide) (by decide) (by decide))
      (fun V => RA_keep V _ (by decide) (by decide) (by decide) (by decide) (by decide)))
    B
    (agreeE_step KB RB subB
      (fun V => RB_keep V _ (by decide) (by decide) (by decide) (by decide) (by decide))
      (fun V => RB_keep V _ (by decide) (by decide) (by decide) (by decide) (by decide)))
    mid_step
    (agreeE_step KC RC subC
      (fun V => RC_keep V _ (by decide) (by decide) (by decide) (by decide) (by decide) (by decide))
      (fun V => RC_keep V _ (by decide) (by decide) (by decide) (by decide) (by decide) (by decide)))
    mid_keep61 mid_keepB0 tail_step
    (fun V => rest_keep V _ (.inl rfl)) (fun V => rest_keep V _ (.inr rfl))
    (fun V => Cert.ReferenceIdeal.RefRun.opsC24_keep V _ (by decide))
    VK VR hArgs hE

/-! ## The first two stretches, in the chain's words, and the statement -/

/-- The kernel's first stretch: the global propagation. -/
abbrev KA : KOps :=
  Cert.Proof.PrefixGlobal.K0 ++ Cert.Proof.PrefixGlobal.K1 ++ Cert.Proof.PrefixGlobal.K2 ++ Cert.Proof.PrefixGlobal.K3 ++
    Cert.Proof.PrefixGlobal.K4

/-- The global stretch: from the embedding tables and the edge arrays to the sum of the layer tables and its divisor. -/
theorem global_step (VK : KVal) (VR : RVal) (hA : AgreeA VK VR) (hE : AgreeE VK VR) :
    Agree59 (after KA VK) (after RA VR) :=
  Cert.Proof.PrefixGlobal.global_tables_eq (F := Ideal) VK VR hA.1 hA.2 hE.1 hE.2

/-- Behaviour 0's stretch: from the edge arrays and the two global tables to the global result table and the
    behaviour's user rows and item rows. -/
theorem b0_step (VK : KVal) (VR : RVal) (hE : AgreeE VK VR) (h59 : Agree59 VK VR) :
    Agree61 (after (Cert.Proof.PrefixB0.KB (F := Ideal)) VK) (after RB VR) ∧
      AgreeB0 (after (Cert.Proof.PrefixB0.KB (F := Ideal)) VK) (after RB VR) :=
  Cert.Proof.PrefixB0.b0_tables_eq (F := Ideal) VK VR hE.1 hE.2 h59.1 h59.2

/-- THE TWO STACKED TABLES. When the two programs start from the same embedding tables and the same edge arrays, the
    stacked user table and the stacked item table the kernels read are, after the first program's host prefix, what the
    second program's propagation leaves in its two stacked tables. -/
theorem tables_eq (VK : KVal) (VR : RVal)
    (h0 : (VK (Proc.devRef .tc Cert.KernelIdeal.main_arg0) : FVec Ideal Cert.KernelIdeal.S60001x64 .f32)
        = VR (Proc.devRef .tc Cert.ReferenceIdeal.main_arg0))
    (h1 : (VK (Proc.devRef .tc Cert.KernelIdeal.main_arg1) : FVec Ideal Cert.KernelIdeal.S40001x64 .f32)
        = VR (Proc.devRef .tc Cert.ReferenceIdeal.main_arg1))
    (h3 : (VK (Proc.devRef .tc Cert.KernelIdeal.main_arg3) : IVec Cert.KernelIdeal.S3x600000 32)
        = VR (Proc.devRef .tc Cert.ReferenceIdeal.main_arg3))
    (h4 : (VK (Proc.devRef .tc Cert.KernelIdeal.main_arg4) : IVec Cert.KernelIdeal.S3x600000 32)
        = VR (Proc.devRef .tc Cert.ReferenceIdeal.main_arg4)) :
    (after (Cert.KernelIdeal.Gen.hostOps0 : KOps) VK (Proc.devRef .tc Cert.KernelIdeal.main_v263)
        : Cert.KernelIdeal.S60001x3x64.Idx → EReal)
      = after (Cert.ReferenceIdeal.Value.P : ROps) VR (Proc.devRef .tc Cert.ReferenceIdeal.main_v260) ∧
    (after (Cert.KernelIdeal.Gen.hostOps0 : KOps) VK (Proc.devRef .tc Cert.KernelIdeal.main_v267)
        : Cert.KernelIdeal.S40001x3x64.Idx → EReal)
      = after (Cert.ReferenceIdeal.Value.P : ROps) VR (Proc.devRef .tc Cert.ReferenceIdeal.main_v264) :=
  tables_eq_of KA (Cert.Proof.PrefixB0.KB (F := Ideal)) Cert.Proof.PrefixGlobal.hostOps0_head
    Cert.Proof.PrefixB0.b0_ops_eq global_step b0_step VK VR ⟨h0, h1⟩ ⟨h3, h4⟩

end Cert.Proof.PrefixEq
-- ==== Proof.ValueEq.lean ====
/-
  The idealized reference's result is the idealized kernel program's, from memories agreeing on the arguments, under
  the precondition.

  The statement's agreement gives equal arguments; the precondition gives every entry of the user edge array at most
  60000, hence equal item weights; the two programs' propagation prefixes leave equal tables of user rows and of item
  rows. With these the two results are one scalar (the row-by-row comparison of the two orders of fusing and gathering).
-/
import proofs.«412432_j74655121539772_3_alg».proof.Proof.ValueCore
import proofs.«412432_j74655121539772_3_alg».proof.Proof.WeightsEq
import proofs.«412432_j74655121539772_3_alg».proof.Proof.RefRun
import proofs.«412432_j74655121539772_3_alg».proof.Proof.Gen.Pre_finite_inputs
import proofs.«412432_j74655121539772_3_alg».proof.Proof.PrefixEq

noncomputable section

namespace Cert.Proof.ValueEq

open Idealize.ShloMosaic Idealize.ShloMosaic.ValueIdx Idealize.ShloMosaic.TcCoe Idealize.ShloMosaic.StableHlo
open Idealize.SL Idealize.SL.Sem
open Cert.ReferenceIdeal.RefRun Cert.ReferenceIdeal.Value

/-- The reference's operation line is its three parts in order. -/
theorem ops_split : (Cert.ReferenceIdeal.RefRun.ops : List (HloOp Cert.ReferenceIdeal.τ Cert.ReferenceIdeal.sig (Elt Ideal)))
    = (P ++ Cert.ReferenceIdeal.Value.M) ++ Cert.ReferenceIdeal.Value.T := by
  simp only [Cert.ReferenceIdeal.RefRun.ops, P, Cert.ReferenceIdeal.Value.M, Cert.ReferenceIdeal.Value.T, List.append_assoc]

/-- The degree stack inside the reference's weights, read after the user fusion's stretches. -/
theorem stack_regroup (L : Valuation Cert.ReferenceIdeal.τ Cert.ReferenceIdeal.sig (Elt Ideal)) :
    after (P ++ opsC25 ++ opsC26 ++ opsC27 ++ opsC28 ++ opsC29) L
      = after (opsC28 ++ opsC29) (after (opsC25 ++ opsC26 ++ opsC27) (after P L)) := by
  simp only [StableHlo.after_append]

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem value_eq
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RefRun.ops (F := Ideal)) (StableHlo.launchContents m' c) (Proc.devRef .tc Cert.ReferenceIdeal.main_v456)
      = Cert.KernelIdeal.Run.W8 (F := Ideal) m ρ c (Proc.devRef .tc Cert.KernelIdeal.main_v395) := by
  obtain ⟨a0, a1, a2, a3, a4, a5⟩ := hag
  have htab := Cert.Proof.PrefixEq.tables_eq (Cert.KernelIdeal.Run.W0 m ρ c) (StableHlo.launchContents m' c) a0.symm a1.symm a3.symm a4.symm
  have hr : ∀ i, ((Cert.KernelIdeal.Run.W0 m ρ c (Proc.devRef .tc Cert.KernelIdeal.main_arg3) : IVec Cert.KernelIdeal.S3x600000 32) i).toInt ≤ 60000 :=
    fun i => (Cert.Proof.ItemDegree.users_in_range hpre i).2
  have hW := Cert.Proof.WeightsEq.weights_table_eq (Cert.KernelIdeal.Run.W0 m ρ c)
    (after (opsC25 ++ opsC26 ++ opsC27) (after P (StableHlo.launchContents m' c)))
    (by rw [Cert.ReferenceIdeal.MidValue.att_keep_arg2, P_keep_arg2]; exact a2.symm)
    (by rw [Cert.ReferenceIdeal.MidValue.att_keep_arg4, P_keep _ _ (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)]; exact a4.symm)
    hr
  rw [Cert.ReferenceIdeal.MidValue.att_keep_arg2, P_keep_arg2] at hW
  rw [ops_split]
  exact Cert.Proof.ValueCore.value_core m ρ c (StableHlo.launchContents m' c) a0.symm a1.symm a5.symm htab.1 htab.2
    (by rw [stack_regroup]; exact hW)

end Cert.Proof.ValueEq

end
-- ==== Proof.lean ====
/-
  The certificate's five claims.

  The three programs all run to the end, fault nowhere and leave their arguments unchanged: the kernel program (at both
  instances) as eight segments — host operations around two pipelined regions — whose buffer contents at each boundary
  are named and whose segments write no argument; the reference as a straight line of host operations.
  The idealized kernel program and the idealized reference end with the same scalar: both are one loss shell applied
  to, per behaviour, the fused rows of the users and items the batch names; the kernel fuses the gathered rows, the
  reference gathers the fused rows, and fusing is row by row. The tables the rows are read from are the same
  propagation of the same arguments, and the item weights agree because every entry of the user edge array is a user id
  (at most 60000): then the kernel's item degrees, read off the bipartite degree vector, count exactly the item edge
  array's entries, as the reference's do.
-/
import proofs.«412432_j74655121539772_3_alg».proof.Defs
import proofs.«412432_j74655121539772_3_alg».proof.Proof.Gen.Kernel
import proofs.«412432_j74655121539772_3_alg».proof.Proof.Gen.KernelIdeal
import proofs.«412432_j74655121539772_3_alg».proof.Proof.Gen.ReferenceIdeal
import proofs.«412432_j74655121539772_3_alg».proof.Proof.Gen.Pre_finite_inputs
import proofs.«412432_j74655121539772_3_alg».proof.Proof.KArgs
import proofs.«412432_j74655121539772_3_alg».proof.Proof.KArgsBits
import proofs.«412432_j74655121539772_3_alg».proof.Proof.RefRun
import proofs.«412432_j74655121539772_3_alg».proof.Proof.ValueEq

noncomputable section

namespace Cert.Proof

open Idealize.ShloMosaic Idealize.SL.Sem

/-- The word-level kernel program's frame: every unscoped buffer ends at the last boundary's contents, which at an
    argument are the launch memory's. -/
theorem frame_k : Cert.frame_Kernel := fun m ρ _ =>
  (θ_run (Cert.Kernel.defs (F := Bits)) _ _).mono (fun r h c => ⟨(h c _ (Cert.Kernel.Run.mem_uc Cert.Kernel.main_arg0 (by decide))).trans (Cert.Kernel.Run.W8_arg m ρ c _ (by unfold Cert.Kernel.Run.IsArg; simp)),
    (h c _ (Cert.Kernel.Run.mem_uc Cert.Kernel.main_arg1 (by decide))).trans (Cert.Kernel.Run.W8_arg m ρ c _ (by unfold Cert.Kernel.Run.IsArg; simp)),
    (h c _ (Cert.Kernel.Run.mem_uc Cert.Kernel.main_arg2 (by decide))).trans (Cert.Kernel.Run.W8_arg m ρ c _ (by unfold Cert.Kernel.Run.IsArg; simp)),
    (h c _ (Cert.Kernel.Run.mem_uc Cert.Kernel.main_arg3 (by decide))).trans (Cert.Kernel.Run.W8_arg m ρ c _ (by unfold Cert.Kernel.Run.IsArg; simp)),
    (h c _ (Cert.Kernel.Run.mem_uc Cert.Kernel.main_arg4 (by decide))).trans (Cert.Kernel.Run.W8_arg m ρ c _ (by unfold Cert.Kernel.Run.IsArg; simp)),
    (h c _ (Cert.Kernel.Run.mem_uc Cert.Kernel.main_arg5 (by decide))).trans (Cert.Kernel.Run.W8_arg m ρ c _ (by unfold Cert.Kernel.Run.IsArg; simp))⟩)
    (Cert.Kernel.Run.run_all (F := Bits) m ρ)

/-- The idealized kernel program's frame, the same way. -/
theorem frame_ki : Cert.frame_KernelIdeal := fun m ρ _ =>
  (θ_run (Cert.KernelIdeal.defs (F := Ideal)) _ _).mono (fun r h c => ⟨(h c _ (Cert.KernelIdeal.Run.mem_uc Cert.KernelIdeal.main_arg0 (by decide))).trans (Cert.KernelIdeal.Run.W8_arg m ρ c _ (by unfold Cert.KernelIdeal.Run.IsArg; simp)),
    (h c _ (Cert.KernelIdeal.Run.mem_uc Cert.KernelIdeal.main_arg1 (by decide))).trans (Cert.KernelIdeal.Run.W8_arg m ρ c _ (by unfold Cert.KernelIdeal.Run.IsArg; simp)),
    (h c _ (Cert.KernelIdeal.Run.mem_uc Cert.KernelIdeal.main_arg2 (by decide))).trans (Cert.KernelIdeal.Run.W8_arg m ρ c _ (by unfold Cert.KernelIdeal.Run.IsArg; simp)),
    (h c _ (Cert.KernelIdeal.Run.mem_uc Cert.KernelIdeal.main_arg3 (by decide))).trans (Cert.KernelIdeal.Run.W8_arg m ρ c _ (by unfold Cert.KernelIdeal.Run.IsArg; simp)),
    (h c _ (Cert.KernelIdeal.Run.mem_uc Cert.KernelIdeal.main_arg4 (by decide))).trans (Cert.KernelIdeal.Run.W8_arg m ρ c _ (by unfold Cert.KernelIdeal.Run.IsArg; simp)),
    (h c _ (Cert.KernelIdeal.Run.mem_uc Cert.KernelIdeal.main_arg5 (by decide))).trans (Cert.KernelIdeal.Run.W8_arg m ρ c _ (by unfold Cert.KernelIdeal.Run.IsArg; simp))⟩)
    (Cert.KernelIdeal.Run.run_all (F := Ideal) m ρ)

/-- The reference's frame: the fold of its operations leaves every argument in place. -/
theorem frame_ri : Cert.frame_ReferenceIdeal := fun m ρ _ =>
  (θ_run (Cert.ReferenceIdeal.defs (F := Ideal)) _ _).mono (fun r h c => ⟨(h c Cert.ReferenceIdeal.main_arg0).trans (Cert.ReferenceIdeal.RefRun.args_kept0 _),
    (h c Cert.ReferenceIdeal.main_arg1).trans (Cert.ReferenceIdeal.RefRun.args_kept1 _),
    (h c Cert.ReferenceIdeal.main_arg2).trans (Cert.ReferenceIdeal.RefRun.args_kept2 _),
    (h c Cert.ReferenceIdeal.main_arg3).trans (Cert.ReferenceIdeal.RefRun.args_kept3 _),
    (h c Cert.ReferenceIdeal.main_arg4).trans (Cert.ReferenceIdeal.RefRun.args_kept4 _),
    (h c Cert.ReferenceIdeal.main_arg5).trans (Cert.ReferenceIdeal.RefRun.args_kept5 _)⟩)
    (Cert.ReferenceIdeal.RefRun.run (F := Ideal) m ρ)

/-- Both idealized programs run, and end with equal results: the kernel program's result buffer at the last boundary. -/
theorem algebraic : Cert.algebraic_KernelIdeal_ReferenceIdeal := fun m ρ m' ρ' hpre hagree =>
  ⟨fun c => Cert.KernelIdeal.Run.W8 (F := Ideal) m ρ c (Proc.devRef .tc Cert.KernelIdeal.main_v395),
    (θ_run (Cert.KernelIdeal.defs (F := Ideal)) _ _).mono (fun r h c => ⟨h c _ (Cert.KernelIdeal.Run.mem_uc Cert.KernelIdeal.main_v395 (by decide)),
      (h c _ (Cert.KernelIdeal.Run.mem_uc Cert.KernelIdeal.main_arg0 (by decide))).trans (Cert.KernelIdeal.Run.W8_arg m ρ c _ (by unfold Cert.KernelIdeal.Run.IsArg; simp)),
      (h c _ (Cert.KernelIdeal.Run.mem_uc Cert.KernelIdeal.main_arg1 (by decide))).trans (Cert.KernelIdeal.Run.W8_arg m ρ c _ (by unfold Cert.KernelIdeal.Run.IsArg; simp)),
      (h c _ (Cert.KernelIdeal.Run.mem_uc Cert.KernelIdeal.main_arg2 (by decide))).trans (Cert.KernelIdeal.Run.W8_arg m ρ c _ (by unfold Cert.KernelIdeal.Run.IsArg; simp)),
      (h c _ (Cert.KernelIdeal.Run.mem_uc Cert.KernelIdeal.main_arg3 (by decide))).trans (Cert.KernelIdeal.Run.W8_arg m ρ c _ (by unfold Cert.KernelIdeal.Run.IsArg; simp)),
      (h c _ (Cert.KernelIdeal.Run.mem_uc Cert.KernelIdeal.main_arg4 (by decide))).trans (Cert.KernelIdeal.Run.W8_arg m ρ c _ (by unfold Cert.KernelIdeal.Run.IsArg; simp)),
      (h c _ (Cert.KernelIdeal.Run.mem_uc Cert.KernelIdeal.main_arg5 (by decide))).trans (Cert.KernelIdeal.Run.W8_arg m ρ c _ (by unfold Cert.KernelIdeal.Run.IsArg; simp))⟩)
      (Cert.KernelIdeal.Run.run_all (F := Ideal) m ρ),
    (θ_run (Cert.ReferenceIdeal.defs (F := Ideal)) _ _).mono (fun r h c => ⟨(h c Cert.ReferenceIdeal.main_v456).trans (Cert.Proof.ValueEq.value_eq m ρ m' c (hpre c) (hagree c)),
      (h c Cert.ReferenceIdeal.main_arg0).trans (Cert.ReferenceIdeal.RefRun.args_kept0 _),
      (h c Cert.ReferenceIdeal.main_arg1).trans (Cert.ReferenceIdeal.RefRun.args_kept1 _),
      (h c Cert.ReferenceIdeal.main_arg2).trans (Cert.ReferenceIdeal.RefRun.args_kept2 _),
      (h c Cert.ReferenceIdeal.main_arg3).trans (Cert.ReferenceIdeal.RefRun.args_kept3 _),
      (h c Cert.ReferenceIdeal.main_arg4).trans (Cert.ReferenceIdeal.RefRun.args_kept4 _),
      (h c Cert.ReferenceIdeal.main_arg5).trans (Cert.ReferenceIdeal.RefRun.args_kept5 _)⟩)
      (Cert.ReferenceIdeal.RefRun.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
